-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v705)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v705) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v707) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x1 : Shape := ⟨2, ![200000, 1]⟩
abbrev S2x1200000 : Shape := ⟨2, ![2, 1200000]⟩
abbrev S1200000 : Shape := ⟨1, ![1200000]⟩
abbrev S1x64 : Shape := ⟨2, ![1, 64]⟩
abbrev S64 : Shape := ⟨1, ![64]⟩
abbrev S10x64x64 : Shape := ⟨3, ![10, 64, 64]⟩
abbrev S64x1 : Shape := ⟨2, ![64, 1]⟩
abbrev S1 : Shape := ⟨1, ![1]⟩
abbrev S_ : Shape := ⟨0, ![]⟩

class Facts : Prop where
  bcast_S_S200000x1 : S_.BroadcastsInDim S200000x1 (![] : Fin 0 → Fin S200000x1.rank)
  reducesTo_S200000x1_S_d0_1 : S200000x1.ReducesTo [0, 1] S_
  h_S_ : 0 < S_.numel
  bcast_S_S1200000 : S_.BroadcastsInDim S1200000 (![] : Fin 0 → Fin S1200000.rank)
  reducesTo_S1200000_S_d0 : S1200000.ReducesTo [0] S_
  bcast_S_S1x64 : S_.BroadcastsInDim S1x64 (![] : Fin 0 → Fin S1x64.rank)
  reducesTo_S1x64_S_d0_1 : S1x64.ReducesTo [0, 1] S_
  bcast_S_S64 : S_.BroadcastsInDim S64 (![] : Fin 0 → Fin S64.rank)
  reducesTo_S64_S_d0 : S64.ReducesTo [0] S_
  bcast_S_S10x64x64 : S_.BroadcastsInDim S10x64x64 (![] : Fin 0 → Fin S10x64x64.rank)
  reducesTo_S10x64x64_S_d0_1_2 : S10x64x64.ReducesTo [0, 1, 2] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S10x64x64 .f32) (main_arg6 : FVec F S64x1 .f32) (main_arg7 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S10x64x64 .f32 := Host.absf main_arg5
  let main_cst_6 : FVec F S_ .f32 := constant S_ .f32 0x7F800000#32
  let main_v20 : FVec F S10x64x64 .f32 := broadcastInDim S10x64x64 ![] bcast_S_S10x64x64 main_cst_6
  let main_v21 : IVec S10x64x64 1 := cmpf .olt main_v19 main_v20
  let main_c_7 : IVec S_ 1 := constantI S_ 1 1#1
  let main_v22 : IVec S_ 1 := (fun x v => Host.reduce IntOp.andi x v reducesTo_S10x64x64_S_d0_1_2 h_S_) main_v21 main_c_7
  let main_v23 : IVec S_ 1 := andi main_v18 main_v22
  let main_v24 : FVec F S64x1 .f32 := Host.absf main_arg6
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S200000x1 .f32) (main_arg1 : IVec S2x1200000 32) (main_arg2 : FVec F S1200000 .f32) (main_arg3 : FVec F S1x64 .f32) (main_arg4 : FVec F S64 .f32) (main_arg5 : FVec F S10x64x64 .f32) (main_arg6 : FVec F S64x1 .f32) (main_arg7 : FVec F S1 .f32) : IVec S_ 1 :=
  let main_v0 : FVec F S200000x1 .f32 := Host.absf main_arg0
  let main_cst : FVec F S_ .f32 := constant S_ .f32 0x7F800000#32
  let main_v1 : FVec F S200000x1 .f32 := broadcastInDim S200000x1 ![] bcast_S_S200000x1 main_cst
  let main_v2 : IVec S200000x1 1 := cmpf .olt main_v0 main_v1
  let main_c : IVec S_ 1 := constantI S_ 1 1#1
  let main_v3 : IVec S_ 1 := (fun x v => Host.reduce IntOp.andi x v reducesTo_S200000x1_S_d0_1 h_S_) main_v2 main_c
  let main_v4 : FVec F S1200000 .f32 := Host.absf main_arg2
  let main_cst_0 : FVec F S_ .f32 := constant S_ .f32 0x7F800000#32
  let main_v5 : FVec F S1200000 .f32 := broadcastInDim S1200000 ![] bcast_S_S1200000 main_cst_0
  let main_v6 : IVec S1200000 1 := cmpf .olt main_v4 main_v5
  let main_c_1 : IVec S_ 1 := constantI S_ 1 1#1
  let main_v7 : IVec S_ 1 := (fun x v => Host.reduce IntOp.andi x v reducesTo_S1200000_S_d0 h_S_) main_v6 main_c_1
  let main_v8 : IVec S_ 1 := andi main_v3 main_v7
  let main_v9 : FVec F S1x64 .f32 := Host.absf main_arg3
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_c_3 : IVec S_ 1 := constantI S_ 1 1#1
  let main_v12 : IVec S_ 1 := (fun x v => Host.reduce IntOp.andi x v reducesTo_S1x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_v13 main_v16
-- ==== Kernel.lean ====
abbrev S200000x1 : Shape := ⟨2, ![200000, 1]⟩
abbrev S2x1200000 : Shape := ⟨2, ![2, 1200000]⟩
abbrev S1200000 : Shape := ⟨1, ![1200000]⟩
abbrev S1x64 : Shape := ⟨2, ![1, 64]⟩
abbrev S64 : Shape := ⟨1, ![64]⟩
abbrev S10x64x64 : Shape := ⟨3, ![10, 64, 64]⟩
abbrev S64x1 : Shape := ⟨2, ![64, 1]⟩
abbrev S1 : Shape := ⟨1, ![1]⟩
abbrev S1x1200000 : Shape := ⟨2, ![1, 1200000]⟩
abbrev S200000 : Shape := ⟨1, ![200000]⟩
abbrev S1400000 : Shape := ⟨1, ![1400000]⟩
abbrev S_ : Shape := ⟨0, ![]⟩
abbrev S1400000x1 : Shape := ⟨2, ![1400000, 1]⟩
abbrev S200000x64 : Shape := ⟨2, ![200000, 64]⟩
abbrev S20000x1 : Shape := ⟨2, ![20000, 1]⟩
abbrev S20000x64 : Shape := ⟨2, ![20000, 64]⟩
abbrev S1400000x64 : Shape := ⟨2, ![1400000, 64]⟩
abbrev S1x64x64 : Shape := ⟨3, ![1, 64, 64]⟩
abbrev S64x64 : Shape := ⟨2, ![64, 64]⟩
abbrev S1x1 : Shape := ⟨2, ![1, 1]⟩
abbrev S200000x1x1 : Shape := ⟨3, ![200000, 1, 1]⟩

abbrev nBuf : Space → Nat
  | .hbm => 871
  | .vmem => 70
  | .smem => 0
  | _ => 0

abbrev hbmTy0_0 (i : Nat) : BufTy := match i % 128 with
  | 0 => ⟨S200000x1, .f32⟩
  | 1 => ⟨S2x1200000, .i32⟩
  | 2 => ⟨S1200000, .f32⟩
  | 3 => ⟨S1x64, .f32⟩
  | 4 => ⟨S64, .f32⟩
  | 5 => ⟨S10x64x64, .f32⟩
  | 6 => ⟨S64x1, .f32⟩
  | 7 => ⟨S1, .f32⟩
  | 8 => ⟨S1x1200000, .i32⟩
  | 9 => ⟨S1200000, .i32⟩
  | 10 => ⟨S1x1200000, .i32⟩
  | 11 => ⟨S1200000, .i32⟩
  | 12 => ⟨S200000, .i32⟩
  | 13 => ⟨S1400000, .i32⟩
  | 14 => ⟨S1400000, .i32⟩
  | 15 => ⟨S_, .f32⟩
  | 16 => ⟨S200000, .f32⟩
  | 17 => ⟨S1400000, .f32⟩
  | 18 => ⟨S_, .f32⟩
  | 19 => ⟨S200000, .f32⟩
  | 20 => ⟨S1400000x1, .i32⟩
  | 21 => ⟨S200000, .f32⟩
  | 22 => ⟨S_, .f32⟩
  | 23 => ⟨S200000, .f32⟩
  | 24 => ⟨S200000, .i1⟩
  | 25 => ⟨S_, .f32⟩
  | 26 => ⟨S200000, .f32⟩
  | 27 => ⟨S200000, .f32⟩
  | 28 => ⟨S200000, .f32⟩
  | 29 => ⟨S_, .f32⟩
  | 30 => ⟨S_, .f32⟩
  | 31 => ⟨S200000, .f32⟩
  | 32 => ⟨S200000, .f32⟩
  | 33 => ⟨S_, .i32⟩
  | 34 => ⟨S1400000, .i32⟩
  | 35 => ⟨S1400000, .i1⟩
  | 36 => ⟨S_, .i32⟩
  | 37 => ⟨S1400000, .i32⟩
  | 38 => ⟨S1400000, .i32⟩
  | 39 => ⟨S1400000, .i32⟩
  | 40 => ⟨S1400000x1, .i32⟩
  | 41 => ⟨S1400000, .f32⟩
  | 42 => ⟨S1400000, .f32⟩
  | 43 => ⟨S_, .i32⟩
  | 44 => ⟨S1400000, .i32⟩
  | 45 => ⟨S1400000, .i1⟩
  | 46 => ⟨S_, .i32⟩
  | 47 => ⟨S1400000, .i32⟩
  | 48 => ⟨S1400000, .i32⟩
  | 49 => ⟨S1400000, .i32⟩
  | 50 => ⟨S1400000x1, .i32⟩
  | 51 => ⟨S1400000, .f32⟩
  | 52 => ⟨S1400000, .f32⟩
  | 53 => ⟨S200000x64, .f32⟩
  | 54 => ⟨S1400000x1, .f32⟩
  | 55 => ⟨S_, .i32⟩
  | 56 => ⟨S1400000, .i32⟩
  | 57 => ⟨S1400000, .i1⟩
  | 58 => ⟨S_, .i32⟩
  | 59 => ⟨S1400000, .i32⟩
  | 60 => ⟨S1400000, .i32⟩
  | 61 => ⟨S1400000, .i32⟩
  | 62 => ⟨S1400000x1, .i32⟩
  | 63 => ⟨S1400000x64, .f32⟩
  | 64 => ⟨S1400000x64, .f32⟩
  | 65 => ⟨S1400000x64, .f32⟩
  | 66 => ⟨S_, .f32⟩
  | 67 => ⟨S200000x64, .f32⟩
  | 68 => ⟨S1400000x1, .i32⟩
  | 69 => ⟨S200000x64, .f32⟩
  | 70 => ⟨S1x64, .f32⟩
  | 71 => ⟨S200000x64, .f32⟩
  | 72 => ⟨S1x64x64, .f32⟩
  | 73 => ⟨S64x64, .f32⟩
  | 74 => ⟨S64x64, .f32⟩
  | 75 => ⟨S64x64, .f32⟩
  | 76 => ⟨S64x64, .i32⟩
  | 77 => ⟨S64x64, .i32⟩
  | 78 => ⟨S_, .i32⟩
  | 79 => ⟨S64x64, .i32⟩
  | 80 => ⟨S64x64, .i32⟩
  | 81 => ⟨S64x64, .i1⟩
  | 82 => ⟨S64x64, .f32⟩
  | 83 => ⟨S64x64, .f32⟩
  | 84 => ⟨S_, .f32⟩
  | 85 => ⟨S64x64, .f32⟩
  | 86 => ⟨S64x64, .f32⟩
  | 87 => ⟨S64x64, .f32⟩
  | 88 => ⟨S64x64, .f32⟩
  | 89 => ⟨S_, .f32⟩
  | 90 => ⟨S64x64, .f32⟩
  | 91 => ⟨S64x64, .f32⟩
  | 92 => ⟨S64x64, .f32⟩
  | 93 => ⟨S64x64, .f32⟩
  | 94 => ⟨S_, .f32⟩
  | 95 => ⟨S64x64, .f32⟩
  | 96 => ⟨S64x64, .f32⟩
  | 97 => ⟨S64x64, .f32⟩
  | 98 => ⟨S64x64, .f32⟩
  | 99 => ⟨S_, .f32⟩
  | 100 => ⟨S64x64, .f32⟩
  | 101 => ⟨S64x64, .f32⟩
  | 102 => ⟨S64x64, .f32⟩
  | 103 => ⟨S64x64, .f32⟩
  | 104 => ⟨S_, .f32⟩
  | 105 => ⟨S64x64, .f32⟩
  | 106 => ⟨S64x64, .f32⟩
  | 107 => ⟨S64x64, .f32⟩
  | 108 => ⟨S64x64, .f32⟩
  | 109 => ⟨S_, .f32⟩
  | 110 => ⟨S64x64, .f32⟩
  | 111 => ⟨S64x64, .f32⟩
  | 112 => ⟨S64x64, .f32⟩
  | 113 => ⟨S64x64, .f32⟩
  | 114 => ⟨S_, .f32⟩
  | 115 => ⟨S64x64, .f32⟩
  | 116 => ⟨S64x64, .f32⟩
  | 117 => ⟨S64x64, .f32⟩
  | 118 => ⟨S64x64, .f32⟩
  | 119 => ⟨S_, .f32⟩
  | 120 => ⟨S64x64, .f32⟩
  | 121 => ⟨S64x64, .f32⟩
  | 122 => ⟨S64x64, .f32⟩
  | 123 => ⟨S64x64, .f32⟩
  | 124 => ⟨S_, .f32⟩
  | 125 => ⟨S64x64, .f32⟩
  | 126 => ⟨S64x64, .f32⟩
  | 127 => ⟨S64x64, .f32⟩
  | _ => ⟨S200000x1, .f32⟩

abbrev hbmTy0_1 (i : Nat) : BufTy := match i % 128 with
  | 0 => ⟨S64x64, .f32⟩
  | 1 => ⟨S_, .f32⟩
  | 2 => ⟨S64x64, .f32⟩
  | 3 => ⟨S64x64, .f32⟩
  | 4 => ⟨S64x64, .f32⟩
  | 5 => ⟨S1400000x1, .f32⟩
  | 6 => ⟨S_, .i32⟩
  | 7 => ⟨S1400000, .i32⟩
  | 8 => ⟨S1400000, .i1⟩
  | 9 => ⟨S_, .i32⟩
  | 10 => ⟨S1400000, .i32⟩
  | 11 => ⟨S1400000, .i32⟩
  | 12 => ⟨S1400000, .i32⟩
  | 13 => ⟨S1400000x1, .i32⟩
  | 14 => ⟨S1400000x64, .f32⟩
  | 15 => ⟨S1400000x64, .f32⟩
  | 16 => ⟨S1400000x64, .f32⟩
  | 17 => ⟨S_, .f32⟩
  | 18 => ⟨S200000x64, .f32⟩
  | 19 => ⟨S1400000x1, .i32⟩
  | 20 => ⟨S200000x64, .f32⟩
  | 21 => ⟨S200000x64, .f32⟩
  | 22 => ⟨S1x64x64, .f32⟩
  | 23 => ⟨S64x64, .f32⟩
  | 24 => ⟨S64x64, .f32⟩
  | 25 => ⟨S64x64, .f32⟩
  | 26 => ⟨S64x64, .i32⟩
  | 27 => ⟨S64x64, .i32⟩
  | 28 => ⟨S_, .i32⟩
  | 29 => ⟨S64x64, .i32⟩
  | 30 => ⟨S64x64, .i32⟩
  | 31 => ⟨S64x64, .i1⟩
  | 32 => ⟨S64x64, .f32⟩
  | 33 => ⟨S64x64, .f32⟩
  | 34 => ⟨S_, .f32⟩
  | 35 => ⟨S64x64, .f32⟩
  | 36 => ⟨S64x64, .f32⟩
  | 37 => ⟨S64x64, .f32⟩
  | 38 => ⟨S64x64, .f32⟩
  | 39 => ⟨S_, .f32⟩
  | 40 => ⟨S64x64, .f32⟩
  | 41 => ⟨S64x64, .f32⟩
  | 42 => ⟨S64x64, .f32⟩
  | 43 => ⟨S64x64, .f32⟩
  | 44 => ⟨S_, .f32⟩
  | 45 => ⟨S64x64, .f32⟩
  | 46 => ⟨S64x64, .f32⟩
  | 47 => ⟨S64x64, .f32⟩
  | 48 => ⟨S64x64, .f32⟩
  | 49 => ⟨S_, .f32⟩
  | 50 => ⟨S64x64, .f32⟩
  | 51 => ⟨S64x64, .f32⟩
  | 52 => ⟨S64x64, .f32⟩
  | 53 => ⟨S64x64, .f32⟩
  | 54 => ⟨S_, .f32⟩
  | 55 => ⟨S64x64, .f32⟩
  | 56 => ⟨S64x64, .f32⟩
  | 57 => ⟨S64x64, .f32⟩
  | 58 => ⟨S64x64, .f32⟩
  | 59 => ⟨S_, .f32⟩
  | 60 => ⟨S64x64, .f32⟩
  | 61 => ⟨S64x64, .f32⟩
  | 62 => ⟨S64x64, .f32⟩
  | 63 => ⟨S64x64, .f32⟩
  | 64 => ⟨S_, .f32⟩
  | 65 => ⟨S64x64, .f32⟩
  | 66 => ⟨S64x64, .f32⟩
  | 67 => ⟨S64x64, .f32⟩
  | 68 => ⟨S64x64, .f32⟩
  | 69 => ⟨S_, .f32⟩
  | 70 => ⟨S64x64, .f32⟩
  | 71 => ⟨S64x64, .f32⟩
  | 72 => ⟨S64x64, .f32⟩
  | 73 => ⟨S64x64, .f32⟩
  | 74 => ⟨S_, .f32⟩
  | 75 => ⟨S64x64, .f32⟩
  | 76 => ⟨S64x64, .f32⟩
  | 77 => ⟨S64x64, .f32⟩
  | 78 => ⟨S64x64, .f32⟩
  | 79 => ⟨S_, .f32⟩
  | 80 => ⟨S64x64, .f32⟩
  | 81 => ⟨S64x64, .f32⟩
  | 82 => ⟨S64x64, .f32⟩
  | 83 => ⟨S1400000x1, .f32⟩
  | 84 => ⟨S_, .i32⟩
  | 85 => ⟨S1400000, .i32⟩
  | 86 => ⟨S1400000, .i1⟩
  | 87 => ⟨S_, .i32⟩
  | 88 => ⟨S1400000, .i32⟩
  | 89 => ⟨S1400000, .i32⟩
  | 90 => ⟨S1400000, .i32⟩
  | 91 => ⟨S1400000x1, .i32⟩
  | 92 => ⟨S1400000x64, .f32⟩
  | 93 => ⟨S1400000x64, .f32⟩
  | 94 => ⟨S1400000x64, .f32⟩
  | 95 => ⟨S_, .f32⟩
  | 96 => ⟨S200000x64, .f32⟩
  | 97 => ⟨S1400000x1, .i32⟩
  | 98 => ⟨S200000x64, .f32⟩
  | 99 => ⟨S200000x64, .f32⟩
  | 100 => ⟨S1x64x64, .f32⟩
  | 101 => ⟨S64x64, .f32⟩
  | 102 => ⟨S64x64, .f32⟩
  | 103 => ⟨S64x64, .f32⟩
  | 104 => ⟨S64x64, .i32⟩
  | 105 => ⟨S64x64, .i32⟩
  | 106 => ⟨S_, .i32⟩
  | 107 => ⟨S64x64, .i32⟩
  | 108 => ⟨S64x64, .i32⟩
  | 109 => ⟨S64x64, .i1⟩
  | 110 => ⟨S64x64, .f32⟩
  | 111 => ⟨S64x64, .f32⟩
  | 112 => ⟨S_, .f32⟩
  | 113 => ⟨S64x64, .f32⟩
  | 114 => ⟨S64x64, .f32⟩
  | 115 => ⟨S64x64, .f32⟩
  | 116 => ⟨S64x64, .f32⟩
  | 117 => ⟨S_, .f32⟩
  | 118 => ⟨S64x64, .f32⟩
  | 119 => ⟨S64x64, .f32⟩
  | 120 => ⟨S64x64, .f32⟩
  | 121 => ⟨S64x64, .f32⟩
  | 122 => ⟨S_, .f32⟩
  | 123 => ⟨S64x64, .f32⟩
  | 124 => ⟨S64x64, .f32⟩
  | 125 => ⟨S64x64, .f32⟩
  | 126 => ⟨S64x64, .f32⟩
  | 127 => ⟨S_, .f32⟩
  | _ => ⟨S200000x1, .f32⟩

abbrev hbmTy0_2 (i : Nat) : BufTy := match i % 128 with
  | 0 => ⟨S64x64, .f32⟩
  | 1 => ⟨S64x64, .f32⟩
  | 2 => ⟨S64x64, .f32⟩
  | 3 => ⟨S64x64, .f32⟩
  | 4 => ⟨S_, .f32⟩
  | 5 => ⟨S64x64, .f32⟩
  | 6 => ⟨S64x64, .f32⟩
  | 7 => ⟨S64x64, .f32⟩
  | 8 => ⟨S64x64, .f32⟩
  | 9 => ⟨S_, .f32⟩
  | 10 => ⟨S64x64, .f32⟩
  | 11 => ⟨S64x64, .f32⟩
  | 12 => ⟨S64x64, .f32⟩
  | 13 => ⟨S64x64, .f32⟩
  | 14 => ⟨S_, .f32⟩
  | 15 => ⟨S64x64, .f32⟩
  | 16 => ⟨S64x64, .f32⟩
  | 17 => ⟨S64x64, .f32⟩
  | 18 => ⟨S64x64, .f32⟩
  | 19 => ⟨S_, .f32⟩
  | 20 => ⟨S64x64, .f32⟩
  | 21 => ⟨S64x64, .f32⟩
  | 22 => ⟨S64x64, .f32⟩
  | 23 => ⟨S64x64, .f32⟩
  | 24 => ⟨S_, .f32⟩
  | 25 => ⟨S64x64, .f32⟩
  | 26 => ⟨S64x64, .f32⟩
  | 27 => ⟨S64x64, .f32⟩
  | 28 => ⟨S64x64, .f32⟩
  | 29 => ⟨S_, .f32⟩
  | 30 => ⟨S64x64, .f32⟩
  | 31 => ⟨S64x64, .f32⟩
  | 32 => ⟨S64x64, .f32⟩
  | 33 => ⟨S1400000x1, .f32⟩
  | 34 => ⟨S_, .i32⟩
  | 35 => ⟨S1400000, .i32⟩
  | 36 => ⟨S1400000, .i1⟩
  | 37 => ⟨S_, .i32⟩
  | 38 => ⟨S1400000, .i32⟩
  | 39 => ⟨S1400000, .i32⟩
  | 40 => ⟨S1400000, .i32⟩
  | 41 => ⟨S1400000x1, .i32⟩
  | 42 => ⟨S1400000x64, .f32⟩
  | 43 => ⟨S1400000x64, .f32⟩
  | 44 => ⟨S1400000x64, .f32⟩
  | 45 => ⟨S_, .f32⟩
  | 46 => ⟨S200000x64, .f32⟩
  | 47 => ⟨S1400000x1, .i32⟩
  | 48 => ⟨S200000x64, .f32⟩
  | 49 => ⟨S200000x64, .f32⟩
  | 50 => ⟨S1x64x64, .f32⟩
  | 51 => ⟨S64x64, .f32⟩
  | 52 => ⟨S64x64, .f32⟩
  | 53 => ⟨S64x64, .f32⟩
  | 54 => ⟨S64x64, .i32⟩
  | 55 => ⟨S64x64, .i32⟩
  | 56 => ⟨S_, .i32⟩
  | 57 => ⟨S64x64, .i32⟩
  | 58 => ⟨S64x64, .i32⟩
  | 59 => ⟨S64x64, .i1⟩
  | 60 => ⟨S64x64, .f32⟩
  | 61 => ⟨S64x64, .f32⟩
  | 62 => ⟨S_, .f32⟩
  | 63 => ⟨S64x64, .f32⟩
  | 64 => ⟨S64x64, .f32⟩
  | 65 => ⟨S64x64, .f32⟩
  | 66 => ⟨S64x64, .f32⟩
  | 67 => ⟨S_, .f32⟩
  | 68 => ⟨S64x64, .f32⟩
  | 69 => ⟨S64x64, .f32⟩
  | 70 => ⟨S64x64, .f32⟩
  | 71 => ⟨S64x64, .f32⟩
  | 72 => ⟨S_, .f32⟩
  | 73 => ⟨S64x64, .f32⟩
  | 74 => ⟨S64x64, .f32⟩
  | 75 => ⟨S64x64, .f32⟩
  | 76 => ⟨S64x64, .f32⟩
  | 77 => ⟨S_, .f32⟩
  | 78 => ⟨S64x64, .f32⟩
  | 79 => ⟨S64x64, .f32⟩
  | 80 => ⟨S64x64, .f32⟩
  | 81 => ⟨S64x64, .f32⟩
  | 82 => ⟨S_, .f32⟩
  | 83 => ⟨S64x64, .f32⟩
  | 84 => ⟨S64x64, .f32⟩
  | 85 => ⟨S64x64, .f32⟩
  | 86 => ⟨S64x64, .f32⟩
  | 87 => ⟨S_, .f32⟩
  | 88 => ⟨S64x64, .f32⟩
  | 89 => ⟨S64x64, .f32⟩
  | 90 => ⟨S64x64, .f32⟩
  | 91 => ⟨S64x64, .f32⟩
  | 92 => ⟨S_, .f32⟩
  | 93 => ⟨S64x64, .f32⟩
  | 94 => ⟨S64x64, .f32⟩
  | 95 => ⟨S64x64, .f32⟩
  | 96 => ⟨S64x64, .f32⟩
  | 97 => ⟨S_, .f32⟩
  | 98 => ⟨S64x64, .f32⟩
  | 99 => ⟨S64x64, .f32⟩
  | 100 => ⟨S64x64, .f32⟩
  | 101 => ⟨S64x64, .f32⟩
  | 102 => ⟨S_, .f32⟩
  | 103 => ⟨S64x64, .f32⟩
  | 104 => ⟨S64x64, .f32⟩
  | 105 => ⟨S64x64, .f32⟩
  | 106 => ⟨S64x64, .f32⟩
  | 107 => ⟨S_, .f32⟩
  | 108 => ⟨S64x64, .f32⟩
  | 109 => ⟨S64x64, .f32⟩
  | 110 => ⟨S64x64, .f32⟩
  | 111 => ⟨S1400000x1, .f32⟩
  | 112 => ⟨S_, .i32⟩
  | 113 => ⟨S1400000, .i32⟩
  | 114 => ⟨S1400000, .i1⟩
  | 115 => ⟨S_, .i32⟩
  | 116 => ⟨S1400000, .i32⟩
  | 117 => ⟨S1400000, .i32⟩
  | 118 => ⟨S1400000, .i32⟩
  | 119 => ⟨S1400000x1, .i32⟩
  | 120 => ⟨S1400000x64, .f32⟩
  | 121 => ⟨S1400000x64, .f32⟩
  | 122 => ⟨S1400000x64, .f32⟩
  | 123 => ⟨S_, .f32⟩
  | 124 => ⟨S200000x64, .f32⟩
  | 125 => ⟨S1400000x1, .i32⟩
  | 126 => ⟨S200000x64, .f32⟩
  | 127 => ⟨S200000x64, .f32⟩
  | _ => ⟨S200000x1, .f32⟩

abbrev hbmTy0_3 (i : Nat) : BufTy := match i % 128 with
  | 0 => ⟨S1x64x64, .f32⟩
  | 1 => ⟨S64x64, .f32⟩
  | 2 => ⟨S64x64, .f32⟩
  | 3 => ⟨S64x64, .f32⟩
  | 4 => ⟨S64x64, .i32⟩
  | 5 => ⟨S64x64, .i32⟩
  | 6 => ⟨S_, .i32⟩
  | 7 => ⟨S64x64, .i32⟩
  | 8 => ⟨S64x64, .i32⟩
  | 9 => ⟨S64x64, .i1⟩
  | 10 => ⟨S64x64, .f32⟩
  | 11 => ⟨S64x64, .f32⟩
  | 12 => ⟨S_, .f32⟩
  | 13 => ⟨S64x64, .f32⟩
  | 14 => ⟨S64x64, .f32⟩
  | 15 => ⟨S64x64, .f32⟩
  | 16 => ⟨S64x64, .f32⟩
  | 17 => ⟨S_, .f32⟩
  | 18 => ⟨S64x64, .f32⟩
  | 19 => ⟨S64x64, .f32⟩
  | 20 => ⟨S64x64, .f32⟩
  | 21 => ⟨S64x64, .f32⟩
  | 22 => ⟨S_, .f32⟩
  | 23 => ⟨S64x64, .f32⟩
  | 24 => ⟨S64x64, .f32⟩
  | 25 => ⟨S64x64, .f32⟩
  | 26 => ⟨S64x64, .f32⟩
  | 27 => ⟨S_, .f32⟩
  | 28 => ⟨S64x64, .f32⟩
  | 29 => ⟨S64x64, .f32⟩
  | 30 => ⟨S64x64, .f32⟩
  | 31 => ⟨S64x64, .f32⟩
  | 32 => ⟨S_, .f32⟩
  | 33 => ⟨S64x64, .f32⟩
  | 34 => ⟨S64x64, .f32⟩
  | 35 => ⟨S64x64, .f32⟩
  | 36 => ⟨S64x64, .f32⟩
  | 37 => ⟨S_, .f32⟩
  | 38 => ⟨S64x64, .f32⟩
  | 39 => ⟨S64x64, .f32⟩
  | 40 => ⟨S64x64, .f32⟩
  | 41 => ⟨S64x64, .f32⟩
  | 42 => ⟨S_, .f32⟩
  | 43 => ⟨S64x64, .f32⟩
  | 44 => ⟨S64x64, .f32⟩
  | 45 => ⟨S64x64, .f32⟩
  | 46 => ⟨S64x64, .f32⟩
  | 47 => ⟨S_, .f32⟩
  | 48 => ⟨S64x64, .f32⟩
  | 49 => ⟨S64x64, .f32⟩
  | 50 => ⟨S64x64, .f32⟩
  | 51 => ⟨S64x64, .f32⟩
  | 52 => ⟨S_, .f32⟩
  | 53 => ⟨S64x64, .f32⟩
  | 54 => ⟨S64x64, .f32⟩
  | 55 => ⟨S64x64, .f32⟩
  | 56 => ⟨S64x64, .f32⟩
  | 57 => ⟨S_, .f32⟩
  | 58 => ⟨S64x64, .f32⟩
  | 59 => ⟨S64x64, .f32⟩
  | 60 => ⟨S64x64, .f32⟩
  | 61 => ⟨S1400000x1, .f32⟩
  | 62 => ⟨S_, .i32⟩
  | 63 => ⟨S1400000, .i32⟩
  | 64 => ⟨S1400000, .i1⟩
  | 65 => ⟨S_, .i32⟩
  | 66 => ⟨S1400000, .i32⟩
  | 67 => ⟨S1400000, .i32⟩
  | 68 => ⟨S1400000, .i32⟩
  | 69 => ⟨S1400000x1, .i32⟩
  | 70 => ⟨S1400000x64, .f32⟩
  | 71 => ⟨S1400000x64, .f32⟩
  | 72 => ⟨S1400000x64, .f32⟩
  | 73 => ⟨S_, .f32⟩
  | 74 => ⟨S200000x64, .f32⟩
  | 75 => ⟨S1400000x1, .i32⟩
  | 76 => ⟨S200000x64, .f32⟩
  | 77 => ⟨S200000x64, .f32⟩
  | 78 => ⟨S1x64x64, .f32⟩
  | 79 => ⟨S64x64, .f32⟩
  | 80 => ⟨S64x64, .f32⟩
  | 81 => ⟨S64x64, .f32⟩
  | 82 => ⟨S64x64, .i32⟩
  | 83 => ⟨S64x64, .i32⟩
  | 84 => ⟨S_, .i32⟩
  | 85 => ⟨S64x64, .i32⟩
  | 86 => ⟨S64x64, .i32⟩
  | 87 => ⟨S64x64, .i1⟩
  | 88 => ⟨S64x64, .f32⟩
  | 89 => ⟨S64x64, .f32⟩
  | 90 => ⟨S_, .f32⟩
  | 91 => ⟨S64x64, .f32⟩
  | 92 => ⟨S64x64, .f32⟩
  | 93 => ⟨S64x64, .f32⟩
  | 94 => ⟨S64x64, .f32⟩
  | 95 => ⟨S_, .f32⟩
  | 96 => ⟨S64x64, .f32⟩
  | 97 => ⟨S64x64, .f32⟩
  | 98 => ⟨S64x64, .f32⟩
  | 99 => ⟨S64x64, .f32⟩
  | 100 => ⟨S_, .f32⟩
  | 101 => ⟨S64x64, .f32⟩
  | 102 => ⟨S64x64, .f32⟩
  | 103 => ⟨S64x64, .f32⟩
  | 104 => ⟨S64x64, .f32⟩
  | 105 => ⟨S_, .f32⟩
  | 106 => ⟨S64x64, .f32⟩
  | 107 => ⟨S64x64, .f32⟩
  | 108 => ⟨S64x64, .f32⟩
  | 109 => ⟨S64x64, .f32⟩
  | 110 => ⟨S_, .f32⟩
  | 111 => ⟨S64x64, .f32⟩
  | 112 => ⟨S64x64, .f32⟩
  | 113 => ⟨S64x64, .f32⟩
  | 114 => ⟨S64x64, .f32⟩
  | 115 => ⟨S_, .f32⟩
  | 116 => ⟨S64x64, .f32⟩
  | 117 => ⟨S64x64, .f32⟩
  | 118 => ⟨S64x64, .f32⟩
  | 119 => ⟨S64x64, .f32⟩
  | 120 => ⟨S_, .f32⟩
  | 121 => ⟨S64x64, .f32⟩
  | 122 => ⟨S64x64, .f32⟩
  | 123 => ⟨S64x64, .f32⟩
  | 124 => ⟨S64x64, .f32⟩
  | 125 => ⟨S_, .f32⟩
  | 126 => ⟨S64x64, .f32⟩
  | 127 => ⟨S64x64, .f32⟩
  | _ => ⟨S200000x1, .f32⟩

abbrev hbmTy0_4 (i : Nat) : BufTy := match i % 128 with
  | 0 => ⟨S64x64, .f32⟩
  | 1 => ⟨S64x64, .f32⟩
  | 2 => ⟨S_, .f32⟩
  | 3 => ⟨S64x64, .f32⟩
  | 4 => ⟨S64x64, .f32⟩
  | 5 => ⟨S64x64, .f32⟩
  | 6 => ⟨S64x64, .f32⟩
  | 7 => ⟨S_, .f32⟩
  | 8 => ⟨S64x64, .f32⟩
  | 9 => ⟨S64x64, .f32⟩
  | 10 => ⟨S64x64, .f32⟩
  | 11 => ⟨S1400000x1, .f32⟩
  | 12 => ⟨S_, .i32⟩
  | 13 => ⟨S1400000, .i32⟩
  | 14 => ⟨S1400000, .i1⟩
  | 15 => ⟨S_, .i32⟩
  | 16 => ⟨S1400000, .i32⟩
  | 17 => ⟨S1400000, .i32⟩
  | 18 => ⟨S1400000, .i32⟩
  | 19 => ⟨S1400000x1, .i32⟩
  | 20 => ⟨S1400000x64, .f32⟩
  | 21 => ⟨S1400000x64, .f32⟩
  | 22 => ⟨S1400000x64, .f32⟩
  | 23 => ⟨S_, .f32⟩
  | 24 => ⟨S200000x64, .f32⟩
  | 25 => ⟨S1400000x1, .i32⟩
  | 26 => ⟨S200000x64, .f32⟩
  | 27 => ⟨S200000x64, .f32⟩
  | 28 => ⟨S1x64x64, .f32⟩
  | 29 => ⟨S64x64, .f32⟩
  | 30 => ⟨S64x64, .f32⟩
  | 31 => ⟨S64x64, .f32⟩
  | 32 => ⟨S64x64, .i32⟩
  | 33 => ⟨S64x64, .i32⟩
  | 34 => ⟨S_, .i32⟩
  | 35 => ⟨S64x64, .i32⟩
  | 36 => ⟨S64x64, .i32⟩
  | 37 => ⟨S64x64, .i1⟩
  | 38 => ⟨S64x64, .f32⟩
  | 39 => ⟨S64x64, .f32⟩
  | 40 => ⟨S_, .f32⟩
  | 41 => ⟨S64x64, .f32⟩
  | 42 => ⟨S64x64, .f32⟩
  | 43 => ⟨S64x64, .f32⟩
  | 44 => ⟨S64x64, .f32⟩
  | 45 => ⟨S_, .f32⟩
  | 46 => ⟨S64x64, .f32⟩
  | 47 => ⟨S64x64, .f32⟩
  | 48 => ⟨S64x64, .f32⟩
  | 49 => ⟨S64x64, .f32⟩
  | 50 => ⟨S_, .f32⟩
  | 51 => ⟨S64x64, .f32⟩
  | 52 => ⟨S64x64, .f32⟩
  | 53 => ⟨S64x64, .f32⟩
  | 54 => ⟨S64x64, .f32⟩
  | 55 => ⟨S_, .f32⟩
  | 56 => ⟨S64x64, .f32⟩
  | 57 => ⟨S64x64, .f32⟩
  | 58 => ⟨S64x64, .f32⟩
  | 59 => ⟨S64x64, .f32⟩
  | 60 => ⟨S_, .f32⟩
  | 61 => ⟨S64x64, .f32⟩
  | 62 => ⟨S64x64, .f32⟩
  | 63 => ⟨S64x64, .f32⟩
  | 64 => ⟨S64x64, .f32⟩
  | 65 => ⟨S_, .f32⟩
  | 66 => ⟨S64x64, .f32⟩
  | 67 => ⟨S64x64, .f32⟩
  | 68 => ⟨S64x64, .f32⟩
  | 69 => ⟨S64x64, .f32⟩
  | 70 => ⟨S_, .f32⟩
  | 71 => ⟨S64x64, .f32⟩
  | 72 => ⟨S64x64, .f32⟩
  | 73 => ⟨S64x64, .f32⟩
  | 74 => ⟨S64x64, .f32⟩
  | 75 => ⟨S_, .f32⟩
  | 76 => ⟨S64x64, .f32⟩
  | 77 => ⟨S64x64, .f32⟩
  | 78 => ⟨S64x64, .f32⟩
  | 79 => ⟨S64x64, .f32⟩
  | 80 => ⟨S_, .f32⟩
  | 81 => ⟨S64x64, .f32⟩
  | 82 => ⟨S64x64, .f32⟩
  | 83 => ⟨S64x64, .f32⟩
  | 84 => ⟨S64x64, .f32⟩
  | 85 => ⟨S_, .f32⟩
  | 86 => ⟨S64x64, .f32⟩
  | 87 => ⟨S64x64, .f32⟩
  | 88 => ⟨S64x64, .f32⟩
  | 89 => ⟨S1400000x1, .f32⟩
  | 90 => ⟨S_, .i32⟩
  | 91 => ⟨S1400000, .i32⟩
  | 92 => ⟨S1400000, .i1⟩
  | 93 => ⟨S_, .i32⟩
  | 94 => ⟨S1400000, .i32⟩
  | 95 => ⟨S1400000, .i32⟩
  | 96 => ⟨S1400000, .i32⟩
  | 97 => ⟨S1400000x1, .i32⟩
  | 98 => ⟨S1400000x64, .f32⟩
  | 99 => ⟨S1400000x64, .f32⟩
  | 100 => ⟨S1400000x64, .f32⟩
  | 101 => ⟨S_, .f32⟩
  | 102 => ⟨S200000x64, .f32⟩
  | 103 => ⟨S1400000x1, .i32⟩
  | 104 => ⟨S200000x64, .f32⟩
  | 105 => ⟨S200000x64, .f32⟩
  | 106 => ⟨S1x64x64, .f32⟩
  | 107 => ⟨S64x64, .f32⟩
  | 108 => ⟨S64x64, .f32⟩
  | 109 => ⟨S64x64, .f32⟩
  | 110 => ⟨S64x64, .i32⟩
  | 111 => ⟨S64x64, .i32⟩
  | 112 => ⟨S_, .i32⟩
  | 113 => ⟨S64x64, .i32⟩
  | 114 => ⟨S64x64, .i32⟩
  | 115 => ⟨S64x64, .i1⟩
  | 116 => ⟨S64x64, .f32⟩
  | 117 => ⟨S64x64, .f32⟩
  | 118 => ⟨S_, .f32⟩
  | 119 => ⟨S64x64, .f32⟩
  | 120 => ⟨S64x64, .f32⟩
  | 121 => ⟨S64x64, .f32⟩
  | 122 => ⟨S64x64, .f32⟩
  | 123 => ⟨S_, .f32⟩
  | 124 => ⟨S64x64, .f32⟩
  | 125 => ⟨S64x64, .f32⟩
  | 126 => ⟨S64x64, .f32⟩
  | 127 => ⟨S64x64, .f32⟩
  | _ => ⟨S200000x1, .f32⟩

abbrev hbmTy0_5 (i : Nat) : BufTy := match i % 128 with
  | 0 => ⟨S_, .f32⟩
  | 1 => ⟨S64x64, .f32⟩
  | 2 => ⟨S64x64, .f32⟩
  | 3 => ⟨S64x64, .f32⟩
  | 4 => ⟨S64x64, .f32⟩
  | 5 => ⟨S_, .f32⟩
  | 6 => ⟨S64x64, .f32⟩
  | 7 => ⟨S64x64, .f32⟩
  | 8 => ⟨S64x64, .f32⟩
  | 9 => ⟨S64x64, .f32⟩
  | 10 => ⟨S_, .f32⟩
  | 11 => ⟨S64x64, .f32⟩
  | 12 => ⟨S64x64, .f32⟩
  | 13 => ⟨S64x64, .f32⟩
  | 14 => ⟨S64x64, .f32⟩
  | 15 => ⟨S_, .f32⟩
  | 16 => ⟨S64x64, .f32⟩
  | 17 => ⟨S64x64, .f32⟩
  | 18 => ⟨S64x64, .f32⟩
  | 19 => ⟨S64x64, .f32⟩
  | 20 => ⟨S_, .f32⟩
  | 21 => ⟨S64x64, .f32⟩
  | 22 => ⟨S64x64, .f32⟩
  | 23 => ⟨S64x64, .f32⟩
  | 24 => ⟨S64x64, .f32⟩
  | 25 => ⟨S_, .f32⟩
  | 26 => ⟨S64x64, .f32⟩
  | 27 => ⟨S64x64, .f32⟩
  | 28 => ⟨S64x64, .f32⟩
  | 29 => ⟨S64x64, .f32⟩
  | 30 => ⟨S_, .f32⟩
  | 31 => ⟨S64x64, .f32⟩
  | 32 => ⟨S64x64, .f32⟩
  | 33 => ⟨S64x64, .f32⟩
  | 34 => ⟨S64x64, .f32⟩
  | 35 => ⟨S_, .f32⟩
  | 36 => ⟨S64x64, .f32⟩
  | 37 => ⟨S64x64, .f32⟩
  | 38 => ⟨S64x64, .f32⟩
  | 39 => ⟨S1400000x1, .f32⟩
  | 40 => ⟨S_, .i32⟩
  | 41 => ⟨S1400000, .i32⟩
  | 42 => ⟨S1400000, .i1⟩
  | 43 => ⟨S_, .i32⟩
  | 44 => ⟨S1400000, .i32⟩
  | 45 => ⟨S1400000, .i32⟩
  | 46 => ⟨S1400000, .i32⟩
  | 47 => ⟨S1400000x1, .i32⟩
  | 48 => ⟨S1400000x64, .f32⟩
  | 49 => ⟨S1400000x64, .f32⟩
  | 50 => ⟨S1400000x64, .f32⟩
  | 51 => ⟨S_, .f32⟩
  | 52 => ⟨S200000x64, .f32⟩
  | 53 => ⟨S1400000x1, .i32⟩
  | 54 => ⟨S200000x64, .f32⟩
  | 55 => ⟨S200000x64, .f32⟩
  | 56 => ⟨S1x64x64, .f32⟩
  | 57 => ⟨S64x64, .f32⟩
  | 58 => ⟨S64x64, .f32⟩
  | 59 => ⟨S64x64, .f32⟩
  | 60 => ⟨S64x64, .i32⟩
  | 61 => ⟨S64x64, .i32⟩
  | 62 => ⟨S_, .i32⟩
  | 63 => ⟨S64x64, .i32⟩
  | 64 => ⟨S64x64, .i32⟩
  | 65 => ⟨S64x64, .i1⟩
  | 66 => ⟨S64x64, .f32⟩
  | 67 => ⟨S64x64, .f32⟩
  | 68 => ⟨S_, .f32⟩
  | 69 => ⟨S64x64, .f32⟩
  | 70 => ⟨S64x64, .f32⟩
  | 71 => ⟨S64x64, .f32⟩
  | 72 => ⟨S64x64, .f32⟩
  | 73 => ⟨S_, .f32⟩
  | 74 => ⟨S64x64, .f32⟩
  | 75 => ⟨S64x64, .f32⟩
  | 76 => ⟨S64x64, .f32⟩
  | 77 => ⟨S64x64, .f32⟩
  | 78 => ⟨S_, .f32⟩
  | 79 => ⟨S64x64, .f32⟩
  | 80 => ⟨S64x64, .f32⟩
  | 81 => ⟨S64x64, .f32⟩
  | 82 => ⟨S64x64, .f32⟩
  | 83 => ⟨S_, .f32⟩
  | 84 => ⟨S64x64, .f32⟩
  | 85 => ⟨S64x64, .f32⟩
  | 86 => ⟨S64x64, .f32⟩
  | 87 => ⟨S64x64, .f32⟩
  | 88 => ⟨S_, .f32⟩
  | 89 => ⟨S64x64, .f32⟩
  | 90 => ⟨S64x64, .f32⟩
  | 91 => ⟨S64x64, .f32⟩
  | 92 => ⟨S64x64, .f32⟩
  | 93 => ⟨S_, .f32⟩
  | 94 => ⟨S64x64, .f32⟩
  | 95 => ⟨S64x64, .f32⟩
  | 96 => ⟨S64x64, .f32⟩
  | 97 => ⟨S64x64, .f32⟩
  | 98 => ⟨S_, .f32⟩
  | 99 => ⟨S64x64, .f32⟩
  | 100 => ⟨S64x64, .f32⟩
  | 101 => ⟨S64x64, .f32⟩
  | 102 => ⟨S64x64, .f32⟩
  | 103 => ⟨S_, .f32⟩
  | 104 => ⟨S64x64, .f32⟩
  | 105 => ⟨S64x64, .f32⟩
  | 106 => ⟨S64x64, .f32⟩
  | 107 => ⟨S64x64, .f32⟩
  | 108 => ⟨S_, .f32⟩
  | 109 => ⟨S64x64, .f32⟩
  | 110 => ⟨S64x64, .f32⟩
  | 111 => ⟨S64x64, .f32⟩
  | 112 => ⟨S64x64, .f32⟩
  | 113 => ⟨S_, .f32⟩
  | 114 => ⟨S64x64, .f32⟩
  | 115 => ⟨S64x64, .f32⟩
  | 116 => ⟨S64x64, .f32⟩
  | 117 => ⟨S1400000x1, .f32⟩
  | 118 => ⟨S_, .i32⟩
  | 119 => ⟨S1400000, .i32⟩
  | 120 => ⟨S1400000, .i1⟩
  | 121 => ⟨S_, .i32⟩
  | 122 => ⟨S1400000, .i32⟩
  | 123 => ⟨S1400000, .i32⟩
  | 124 => ⟨S1400000, .i32⟩
  | 125 => ⟨S1400000x1, .i32⟩
  | 126 => ⟨S1400000x64, .f32⟩
  | 127 => ⟨S1400000x64, .f32⟩
  | _ => ⟨S200000x1, .f32⟩

abbrev hbmTy0_6 (i : Nat) : BufTy := match i % 128 with
  | 0 => ⟨S1400000x64, .f32⟩
  | 1 => ⟨S_, .f32⟩
  | 2 => ⟨S200000x64, .f32⟩
  | 3 => ⟨S1400000x1, .i32⟩
  | 4 => ⟨S200000x64, .f32⟩
  | 5 => ⟨S200000x64, .f32⟩
  | 6 => ⟨S1x64x64, .f32⟩
  | 7 => ⟨S64x64, .f32⟩
  | 8 => ⟨S64x64, .f32⟩
  | 9 => ⟨S64x64, .f32⟩
  | 10 => ⟨S64x64, .i32⟩
  | 11 => ⟨S64x64, .i32⟩
  | 12 => ⟨S_, .i32⟩
  | 13 => ⟨S64x64, .i32⟩
  | 14 => ⟨S64x64, .i32⟩
  | 15 => ⟨S64x64, .i1⟩
  | 16 => ⟨S64x64, .f32⟩
  | 17 => ⟨S64x64, .f32⟩
  | 18 => ⟨S_, .f32⟩
  | 19 => ⟨S64x64, .f32⟩
  | 20 => ⟨S64x64, .f32⟩
  | 21 => ⟨S64x64, .f32⟩
  | 22 => ⟨S64x64, .f32⟩
  | 23 => ⟨S_, .f32⟩
  | 24 => ⟨S64x64, .f32⟩
  | 25 => ⟨S64x64, .f32⟩
  | 26 => ⟨S64x64, .f32⟩
  | 27 => ⟨S64x64, .f32⟩
  | 28 => ⟨S_, .f32⟩
  | 29 => ⟨S64x64, .f32⟩
  | 30 => ⟨S64x64, .f32⟩
  | 31 => ⟨S64x64, .f32⟩
  | 32 => ⟨S64x64, .f32⟩
  | 33 => ⟨S_, .f32⟩
  | 34 => ⟨S64x64, .f32⟩
  | 35 => ⟨S64x64, .f32⟩
  | 36 => ⟨S64x64, .f32⟩
  | 37 => ⟨S64x64, .f32⟩
  | 38 => ⟨S_, .f32⟩
  | 39 => ⟨S64x64, .f32⟩
  | 40 => ⟨S64x64, .f32⟩
  | 41 => ⟨S64x64, .f32⟩
  | 42 => ⟨S64x64, .f32⟩
  | 43 => ⟨S_, .f32⟩
  | 44 => ⟨S64x64, .f32⟩
  | 45 => ⟨S64x64, .f32⟩
  | 46 => ⟨S64x64, .f32⟩
  | 47 => ⟨S64x64, .f32⟩
  | 48 => ⟨S_, .f32⟩
  | 49 => ⟨S64x64, .f32⟩
  | 50 => ⟨S64x64, .f32⟩
  | 51 => ⟨S64x64, .f32⟩
  | 52 => ⟨S64x64, .f32⟩
  | 53 => ⟨S_, .f32⟩
  | 54 => ⟨S64x64, .f32⟩
  | 55 => ⟨S64x64, .f32⟩
  | 56 => ⟨S64x64, .f32⟩
  | 57 => ⟨S64x64, .f32⟩
  | 58 => ⟨S_, .f32⟩
  | 59 => ⟨S64x64, .f32⟩
  | 60 => ⟨S64x64, .f32⟩
  | 61 => ⟨S64x64, .f32⟩
  | 62 => ⟨S64x64, .f32⟩
  | 63 => ⟨S_, .f32⟩
  | 64 => ⟨S64x64, .f32⟩
  | 65 => ⟨S64x64, .f32⟩
  | 66 => ⟨S64x64, .f32⟩
  | 67 => ⟨S1400000x1, .f32⟩
  | 68 => ⟨S_, .i32⟩
  | 69 => ⟨S1400000, .i32⟩
  | 70 => ⟨S1400000, .i1⟩
  | 71 => ⟨S_, .i32⟩
  | 72 => ⟨S1400000, .i32⟩
  | 73 => ⟨S1400000, .i32⟩
  | 74 => ⟨S1400000, .i32⟩
  | 75 => ⟨S1400000x1, .i32⟩
  | 76 => ⟨S1400000x64, .f32⟩
  | 77 => ⟨S1400000x64, .f32⟩
  | 78 => ⟨S1400000x64, .f32⟩
  | 79 => ⟨S_, .f32⟩
  | 80 => ⟨S200000x64, .f32⟩
  | 81 => ⟨S1400000x1, .i32⟩
  | 82 => ⟨S200000x64, .f32⟩
  | 83 => ⟨S200000x64, .f32⟩
  | 84 => ⟨S200000x1, .f32⟩
  | 85 => ⟨S1400000x1, .f32⟩
  | 86 => ⟨S_, .i32⟩
  | 87 => ⟨S1400000, .i32⟩
  | 88 => ⟨S1400000, .i1⟩
  | 89 => ⟨S_, .i32⟩
  | 90 => ⟨S1400000, .i32⟩
  | 91 => ⟨S1400000, .i32⟩
  | 92 => ⟨S1400000, .i32⟩
  | 93 => ⟨S1400000x1, .i32⟩
  | 94 => ⟨S1400000x1, .f32⟩
  | 95 => ⟨S1400000x1, .f32⟩
  | 96 => ⟨S_, .f32⟩
  | 97 => ⟨S200000x1, .f32⟩
  | 98 => ⟨S1400000x1, .i32⟩
  | 99 => ⟨S200000x1, .f32⟩
  | 100 => ⟨S1x1, .f32⟩
  | 101 => ⟨S200000x1, .f32⟩
  | 102 => ⟨S200000x1x1, .f32⟩
  | _ => ⟨S200000x1, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S200000x1, .f32⟩

abbrev bufTy : (tb : Table) → Fin (tcTables nBuf tb) → BufTy
  | .hbm, ⟨i, _⟩ => hbmTy i
  | .local _ .vmem, ⟨0, _⟩ => ⟨S20000x1, .f32⟩
  | .local _ .vmem, ⟨1, _⟩ => ⟨S20000x1, .f32⟩
  | .local _ .vmem, ⟨2, _⟩ => ⟨S1x64, .f32⟩
  | .local _ .vmem, ⟨3, _⟩ => ⟨S20000x64, .f32⟩
  | .local _ .vmem, ⟨4, _⟩ => ⟨S20000x64, .f32⟩
  | .local _ .vmem, ⟨5, _⟩ => ⟨S20000x64, .f32⟩
  | .local _ .vmem, ⟨6, _⟩ => ⟨S20000x64, .f32⟩
  | .local _ .vmem, ⟨7, _⟩ => ⟨S1x64, .f32⟩
  | .local _ .vmem, ⟨8, _⟩ => ⟨S20000x64, .f32⟩
  | .local _ .vmem, ⟨9, _⟩ => ⟨S20000x64, .f32⟩
  | .local _ .vmem, ⟨10, _⟩ => ⟨S20000x64, .f32⟩
  | .local _ .vmem, ⟨11, _⟩ => ⟨S20000x64, .f32⟩
  | .local _ .vmem, ⟨12, _⟩ => ⟨S64x64, .f32⟩
  | .local _ .vmem, ⟨13, _⟩ => ⟨S20000x64, .f32⟩
  | .local _ .vmem, ⟨14, _⟩ => ⟨S20000x64, .f32⟩
  | .local _ .vmem, ⟨15, _⟩ => ⟨S20000x64, .f32⟩
  | .local _ .vmem, ⟨16, _⟩ => ⟨S20000x64, .f32⟩
  | .local _ .vmem, ⟨17, _⟩ => ⟨S64x64, .f32⟩
  | .local _ .vmem, ⟨18, _⟩ => ⟨S20000x64, .f32⟩
  | .local _ .vmem, ⟨19, _⟩ => ⟨S20000x64, .f32⟩
  | .local _ .vmem, ⟨20, _⟩ => ⟨S20000x64, .f32⟩
  | .local _ .vmem, ⟨21, _⟩ => ⟨S20000x64, .f32⟩
  | .local _ .vmem, ⟨22, _⟩ => ⟨S64x64, .f32⟩
  | .local _ .vmem, ⟨23, _⟩ => ⟨S20000x64, .f32⟩
  | .local _ .vmem, ⟨24, _⟩ => ⟨S20000x64, .f32⟩
  | .local _ .vmem, ⟨25, _⟩ => ⟨S20000x64, .f32⟩
  | .local _ .vmem, ⟨26, _⟩ => ⟨S20000x64, .f32⟩
  | .local _ .vmem, ⟨27, _⟩ => ⟨S64x64, .f32⟩
  | .local _ .vmem, ⟨28, _⟩ => ⟨S20000x64, .f32⟩
  | .local _ .vmem, ⟨29, _⟩ => ⟨S20000x64, .f32⟩
  | .local _ .vmem, ⟨30, _⟩ => ⟨S20000x64, .f32⟩
  | .local _ .vmem, ⟨31, _⟩ => ⟨S20000x64, .f32⟩
  | .local _ .vmem, ⟨32, _⟩ => ⟨S64x64, .f32⟩
  | .local _ .vmem, ⟨33, _⟩ => ⟨S20000x64, .f32⟩
  | .local _ .vmem, ⟨34, _⟩ => ⟨S20000x64, .f32⟩
  | .local _ .vmem, ⟨35, _⟩ => ⟨S20000x64, .f32⟩
  | .local _ .vmem, ⟨36, _⟩ => ⟨S20000x64, .f32⟩
  | .local _ .vmem, ⟨37, _⟩ => ⟨S64x64, .f32⟩
  | .local _ .vmem, ⟨38, _⟩ => ⟨S20000x64, .f32⟩
  | .local _ .vmem, ⟨39, _⟩ => ⟨S20000x64, .f32⟩
  | .local _ .vmem, ⟨40, _⟩ => ⟨S20000x64, .f32⟩
  | .local _ .vmem, ⟨41, _⟩ => ⟨S20000x64, .f32⟩
  | .local _ .vmem, ⟨42, _⟩ => ⟨S64x64, .f32⟩
  | .local _ .vmem, ⟨43, _⟩ => ⟨S20000x64, .f32⟩
  | .local _ .vmem, ⟨44, _⟩ => ⟨S20000x64, .f32⟩
  | .local _ .vmem, ⟨45, _⟩ => ⟨S20000x64, .f32⟩
  | .local _ .vmem, ⟨46, _⟩ => ⟨S20000x64, .f32⟩
  | .local _ .vmem, ⟨47, _⟩ => ⟨S64x64, .f32⟩
  | .local _ .vmem, ⟨48, _⟩ => ⟨S20000x64, .f32⟩
  | .local _ .vmem, ⟨49, _⟩ => ⟨S20000x64, .f32⟩
  | .local _ .vmem, ⟨50, _⟩ => ⟨S20000x64, .f32⟩
  | .local _ .vmem, ⟨51, _⟩ => ⟨S20000x64, .f32⟩
  | .local _ .vmem, ⟨52, _⟩ => ⟨S64x64, .f32⟩
  | .local _ .vmem, ⟨53, _⟩ => ⟨S20000x64, .f32⟩
  | .local _ .vmem, ⟨54, _⟩ => ⟨S20000x64, .f32⟩
  | .local _ .vmem, ⟨55, _⟩ => ⟨S20000x64, .f32⟩
  | .local _ .vmem, ⟨56, _⟩ => ⟨S20000x64, .f32⟩
  | .local _ .vmem, ⟨57, _⟩ => ⟨S64x64, .f32⟩
  | .local _ .vmem, ⟨58, _⟩ => ⟨S20000x64, .f32⟩
  | .local _ .vmem, ⟨59, _⟩ => ⟨S20000x64, .f32⟩
  | .local _ .vmem, ⟨60, _⟩ => ⟨S20000x64, .f32⟩
  | .local _ .vmem, ⟨61, _⟩ => ⟨S20000x64, .f32⟩
  | .local _ .vmem, ⟨62, _⟩ => ⟨S64x1, .f32⟩
  | .local _ .vmem, ⟨63, _⟩ => ⟨S20000x1, .f32⟩
  | .local _ .vmem, ⟨64, _⟩ => ⟨S20000x1, .f32⟩
  | .local _ .vmem, ⟨65, _⟩ => ⟨S20000x1, .f32⟩
  | .local _ .vmem, ⟨66, _⟩ => ⟨S20000x1, .f32⟩
  | .local _ .vmem, ⟨67, _⟩ => ⟨S1x1, .f32⟩
  | .local _ .vmem, ⟨68, _⟩ => ⟨S20000x1, .f32⟩
  | .local _ .vmem, ⟨69, _⟩ => ⟨S20000x1, .f32⟩
  | _, _ => ⟨S200000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | _, _ => false

abbrev semScoped : Fin 0 → Bool
  | ⟨_, h⟩ => absurd h (Nat.not_lt_zero _)

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  ofTc nBuf bufTy 0 70 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v17 : Ref sig .tc := ⟨.hbm, 32, rfl⟩
abbrev main_c : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_5 : Ref sig .tc := ⟨.hbm, 43, rfl⟩
abbrev main_v26 : Ref sig .tc := ⟨.hbm, 44, rfl⟩
abbrev main_v27 : Ref sig .tc := ⟨.hbm, 45, rfl⟩
abbrev main_c_6 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_7 : Ref sig .tc := ⟨.hbm, 55, rfl⟩
abbrev main_v36 : Ref sig .tc := ⟨.hbm, 56, rfl⟩
abbrev main_v37 : Ref sig .tc := ⟨.hbm, 57, rfl⟩
abbrev main_c_8 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_9 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_c_10 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_11 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_12 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_13 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_14 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_cst_15 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_cst_16 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_cst_17 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_cst_18 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_cst_19 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_cst_20 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_c_21 : Ref sig .tc := ⟨.hbm, 134, rfl⟩
abbrev main_v101 : Ref sig .tc := ⟨.hbm, 135, rfl⟩
abbrev main_v102 : Ref sig .tc := ⟨.hbm, 136, rfl⟩
abbrev main_c_22 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_cst_23 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_c_24 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_cst_25 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_cst_26 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_cst_27 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_cst_28 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_cst_29 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_cst_30 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_cst_31 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_cst_32 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_cst_33 : Ref sig .tc := ⟨.hbm, 202, rfl⟩
abbrev main_v157 : Ref sig .tc := ⟨.hbm, 203, rfl⟩
abbrev main_v158 : Ref sig .tc := ⟨.hbm, 204, rfl⟩
abbrev main_v159 : Ref sig .tc := ⟨.hbm, 205, rfl⟩
abbrev main_v160 : Ref sig .tc := ⟨.hbm, 206, rfl⟩
abbrev main_cst_34 : Ref sig .tc := ⟨.hbm, 207, rfl⟩
abbrev main_v161 : Ref sig .tc := ⟨.hbm, 208, rfl⟩
abbrev main_v162 : Ref sig .tc := ⟨.hbm, 209, rfl⟩
abbrev main_v163 : Ref sig .tc := ⟨.hbm, 210, rfl⟩
abbrev main_v164 : Ref sig .tc := ⟨.hbm, 211, rfl⟩
abbrev main_c_35 : Ref sig .tc := ⟨.hbm, 212, rfl⟩
abbrev main_v165 : Ref sig .tc := ⟨.hbm, 213, rfl⟩
abbrev main_v166 : Ref sig .tc := ⟨.hbm, 214, rfl⟩
abbrev main_c_36 : Ref sig .tc := ⟨.hbm, 215, rfl⟩
abbrev main_v167 : Ref sig .tc := ⟨.hbm, 216, rfl⟩
abbrev main_v168 : Ref sig .tc := ⟨.hbm, 217, rfl⟩
abbrev main_v169 : Ref sig .tc := ⟨.hbm, 218, rfl⟩
abbrev main_v170 : Ref sig .tc := ⟨.hbm, 219, rfl⟩
abbrev main_v171 : Ref sig .tc := ⟨.hbm, 220, rfl⟩
abbrev main_v172 : Ref sig .tc := ⟨.hbm, 221, rfl⟩
abbrev main_v173 : Ref sig .tc := ⟨.hbm, 222, rfl⟩
abbrev main_cst_37 : Ref sig .tc := ⟨.hbm, 223, rfl⟩
abbrev main_v174 : Ref sig .tc := ⟨.hbm, 224, rfl⟩
abbrev main_v175 : Ref sig .tc := ⟨.hbm, 225, rfl⟩
abbrev main_v176 : Ref sig .tc := ⟨.hbm, 226, rfl⟩
abbrev main_v177 : Ref sig .tc := ⟨.hbm, 227, rfl⟩
abbrev main_v178 : Ref sig .tc := ⟨.hbm, 228, rfl⟩
abbrev main_v179 : Ref sig .tc := ⟨.hbm, 229, rfl⟩
abbrev main_v180 : Ref sig .tc := ⟨.hbm, 230, rfl⟩
abbrev main_v181 : Ref sig .tc := ⟨.hbm, 231, rfl⟩
abbrev main_v182 : Ref sig .tc := ⟨.hbm, 232, rfl⟩
abbrev main_v183 : Ref sig .tc := ⟨.hbm, 233, rfl⟩
abbrev main_c_38 : Ref sig .tc := ⟨.hbm, 234, rfl⟩
abbrev main_v184 : Ref sig .tc := ⟨.hbm, 235, rfl⟩
abbrev main_v185 : Ref sig .tc := ⟨.hbm, 236, rfl⟩
abbrev main_v186 : Ref sig .tc := ⟨.hbm, 237, rfl⟩
abbrev main_v187 : Ref sig .tc := ⟨.hbm, 238, rfl⟩
abbrev main_v188 : Ref sig .tc := ⟨.hbm, 239, rfl⟩
abbrev main_cst_39 : Ref sig .tc := ⟨.hbm, 240, rfl⟩
abbrev main_v189 : Ref sig .tc := ⟨.hbm, 241, rfl⟩
abbrev main_v190 : Ref sig .tc := ⟨.hbm, 242, rfl⟩
abbrev main_v191 : Ref sig .tc := ⟨.hbm, 243, rfl⟩
abbrev main_v192 : Ref sig .tc := ⟨.hbm, 244, rfl⟩
abbrev main_cst_40 : Ref sig .tc := ⟨.hbm, 245, rfl⟩
abbrev main_v193 : Ref sig .tc := ⟨.hbm, 246, rfl⟩
abbrev main_v194 : Ref sig .tc := ⟨.hbm, 247, rfl⟩
abbrev main_v195 : Ref sig .tc := ⟨.hbm, 248, rfl⟩
abbrev main_v196 : Ref sig .tc := ⟨.hbm, 249, rfl⟩
abbrev main_cst_41 : Ref sig .tc := ⟨.hbm, 250, rfl⟩
abbrev main_v197 : Ref sig .tc := ⟨.hbm, 251, rfl⟩
abbrev main_v198 : Ref sig .tc := ⟨.hbm, 252, rfl⟩
abbrev main_v199 : Ref sig .tc := ⟨.hbm, 253, rfl⟩
abbrev main_v200 : Ref sig .tc := ⟨.hbm, 254, rfl⟩
abbrev main_cst_42 : Ref sig .tc := ⟨.hbm, 255, rfl⟩
abbrev main_v201 : Ref sig .tc := ⟨.hbm, 256, rfl⟩
abbrev main_v202 : Ref sig .tc := ⟨.hbm, 257, rfl⟩
abbrev main_v203 : Ref sig .tc := ⟨.hbm, 258, rfl⟩
abbrev main_v204 : Ref sig .tc := ⟨.hbm, 259, rfl⟩
abbrev main_cst_43 : Ref sig .tc := ⟨.hbm, 260, rfl⟩
abbrev main_v205 : Ref sig .tc := ⟨.hbm, 261, rfl⟩
abbrev main_v206 : Ref sig .tc := ⟨.hbm, 262, rfl⟩
abbrev main_v207 : Ref sig .tc := ⟨.hbm, 263, rfl⟩
abbrev main_v208 : Ref sig .tc := ⟨.hbm, 264, rfl⟩
abbrev main_cst_44 : Ref sig .tc := ⟨.hbm, 265, rfl⟩
abbrev main_v209 : Ref sig .tc := ⟨.hbm, 266, rfl⟩
abbrev main_v210 : Ref sig .tc := ⟨.hbm, 267, rfl⟩
abbrev main_v211 : Ref sig .tc := ⟨.hbm, 268, rfl⟩
abbrev main_v212 : Ref sig .tc := ⟨.hbm, 269, rfl⟩
abbrev main_cst_45 : Ref sig .tc := ⟨.hbm, 270, rfl⟩
abbrev main_v213 : Ref sig .tc := ⟨.hbm, 271, rfl⟩
abbrev main_v214 : Ref sig .tc := ⟨.hbm, 272, rfl⟩
abbrev main_v215 : Ref sig .tc := ⟨.hbm, 273, rfl⟩
abbrev main_v216 : Ref sig .tc := ⟨.hbm, 274, rfl⟩
abbrev main_cst_46 : Ref sig .tc := ⟨.hbm, 275, rfl⟩
abbrev main_v217 : Ref sig .tc := ⟨.hbm, 276, rfl⟩
abbrev main_v218 : Ref sig .tc := ⟨.hbm, 277, rfl⟩
abbrev main_v219 : Ref sig .tc := ⟨.hbm, 278, rfl⟩
abbrev main_v220 : Ref sig .tc := ⟨.hbm, 279, rfl⟩
abbrev main_cst_47 : Ref sig .tc := ⟨.hbm, 280, rfl⟩
abbrev main_v221 : Ref sig .tc := ⟨.hbm, 281, rfl⟩
abbrev main_v222 : Ref sig .tc := ⟨.hbm, 282, rfl⟩
abbrev main_v223 : Ref sig .tc := ⟨.hbm, 283, rfl⟩
abbrev main_v224 : Ref sig .tc := ⟨.hbm, 284, rfl⟩
abbrev main_cst_48 : Ref sig .tc := ⟨.hbm, 285, rfl⟩
abbrev main_v225 : Ref sig .tc := ⟨.hbm, 286, rfl⟩
abbrev main_v226 : Ref sig .tc := ⟨.hbm, 287, rfl⟩
abbrev main_v227 : Ref sig .tc := ⟨.hbm, 288, rfl⟩
abbrev main_v228 : Ref sig .tc := ⟨.hbm, 289, rfl⟩
abbrev main_c_49 : Ref sig .tc := ⟨.hbm, 290, rfl⟩
abbrev main_v229 : Ref sig .tc := ⟨.hbm, 291, rfl⟩
abbrev main_v230 : Ref sig .tc := ⟨.hbm, 292, rfl⟩
abbrev main_c_50 : Ref sig .tc := ⟨.hbm, 293, rfl⟩
abbrev main_v231 : Ref sig .tc := ⟨.hbm, 294, rfl⟩
abbrev main_v232 : Ref sig .tc := ⟨.hbm, 295, rfl⟩
abbrev main_v233 : Ref sig .tc := ⟨.hbm, 296, rfl⟩
abbrev main_v234 : Ref sig .tc := ⟨.hbm, 297, rfl⟩
abbrev main_v235 : Ref sig .tc := ⟨.hbm, 298, rfl⟩
abbrev main_v236 : Ref sig .tc := ⟨.hbm, 299, rfl⟩
abbrev main_v237 : Ref sig .tc := ⟨.hbm, 300, rfl⟩
abbrev main_cst_51 : Ref sig .tc := ⟨.hbm, 301, rfl⟩
abbrev main_v238 : Ref sig .tc := ⟨.hbm, 302, rfl⟩
abbrev main_v239 : Ref sig .tc := ⟨.hbm, 303, rfl⟩
abbrev main_v240 : Ref sig .tc := ⟨.hbm, 304, rfl⟩
abbrev main_v241 : Ref sig .tc := ⟨.hbm, 305, rfl⟩
abbrev main_v242 : Ref sig .tc := ⟨.hbm, 306, rfl⟩
abbrev main_v243 : Ref sig .tc := ⟨.hbm, 307, rfl⟩
abbrev main_v244 : Ref sig .tc := ⟨.hbm, 308, rfl⟩
abbrev main_v245 : Ref sig .tc := ⟨.hbm, 309, rfl⟩
abbrev main_v246 : Ref sig .tc := ⟨.hbm, 310, rfl⟩
abbrev main_v247 : Ref sig .tc := ⟨.hbm, 311, rfl⟩
abbrev main_c_52 : Ref sig .tc := ⟨.hbm, 312, rfl⟩
abbrev main_v248 : Ref sig .tc := ⟨.hbm, 313, rfl⟩
abbrev main_v249 : Ref sig .tc := ⟨.hbm, 314, rfl⟩
abbrev main_v250 : Ref sig .tc := ⟨.hbm, 315, rfl⟩
abbrev main_v251 : Ref sig .tc := ⟨.hbm, 316, rfl⟩
abbrev main_v252 : Ref sig .tc := ⟨.hbm, 317, rfl⟩
abbrev main_cst_53 : Ref sig .tc := ⟨.hbm, 318, rfl⟩
abbrev main_v253 : Ref sig .tc := ⟨.hbm, 319, rfl⟩
abbrev main_v254 : Ref sig .tc := ⟨.hbm, 320, rfl⟩
abbrev main_v255 : Ref sig .tc := ⟨.hbm, 321, rfl⟩
abbrev main_v256 : Ref sig .tc := ⟨.hbm, 322, rfl⟩
abbrev main_cst_54 : Ref sig .tc := ⟨.hbm, 323, rfl⟩
abbrev main_v257 : Ref sig .tc := ⟨.hbm, 324, rfl⟩
abbrev main_v258 : Ref sig .tc := ⟨.hbm, 325, rfl⟩
abbrev main_v259 : Ref sig .tc := ⟨.hbm, 326, rfl⟩
abbrev main_v260 : Ref sig .tc := ⟨.hbm, 327, rfl⟩
abbrev main_cst_55 : Ref sig .tc := ⟨.hbm, 328, rfl⟩
abbrev main_v261 : Ref sig .tc := ⟨.hbm, 329, rfl⟩
abbrev main_v262 : Ref sig .tc := ⟨.hbm, 330, rfl⟩
abbrev main_v263 : Ref sig .tc := ⟨.hbm, 331, rfl⟩
abbrev main_v264 : Ref sig .tc := ⟨.hbm, 332, rfl⟩
abbrev main_cst_56 : Ref sig .tc := ⟨.hbm, 333, rfl⟩
abbrev main_v265 : Ref sig .tc := ⟨.hbm, 334, rfl⟩
abbrev main_v266 : Ref sig .tc := ⟨.hbm, 335, rfl⟩
abbrev main_v267 : Ref sig .tc := ⟨.hbm, 336, rfl⟩
abbrev main_v268 : Ref sig .tc := ⟨.hbm, 337, rfl⟩
abbrev main_cst_57 : Ref sig .tc := ⟨.hbm, 338, rfl⟩
abbrev main_v269 : Ref sig .tc := ⟨.hbm, 339, rfl⟩
abbrev main_v270 : Ref sig .tc := ⟨.hbm, 340, rfl⟩
abbrev main_v271 : Ref sig .tc := ⟨.hbm, 341, rfl⟩
abbrev main_v272 : Ref sig .tc := ⟨.hbm, 342, rfl⟩
abbrev main_cst_58 : Ref sig .tc := ⟨.hbm, 343, rfl⟩
abbrev main_v273 : Ref sig .tc := ⟨.hbm, 344, rfl⟩
abbrev main_v274 : Ref sig .tc := ⟨.hbm, 345, rfl⟩
abbrev main_v275 : Ref sig .tc := ⟨.hbm, 346, rfl⟩
abbrev main_v276 : Ref sig .tc := ⟨.hbm, 347, rfl⟩
abbrev main_cst_59 : Ref sig .tc := ⟨.hbm, 348, rfl⟩
abbrev main_v277 : Ref sig .tc := ⟨.hbm, 349, rfl⟩
abbrev main_v278 : Ref sig .tc := ⟨.hbm, 350, rfl⟩
abbrev main_v279 : Ref sig .tc := ⟨.hbm, 351, rfl⟩
abbrev main_v280 : Ref sig .tc := ⟨.hbm, 352, rfl⟩
abbrev main_cst_60 : Ref sig .tc := ⟨.hbm, 353, rfl⟩
abbrev main_v281 : Ref sig .tc := ⟨.hbm, 354, rfl⟩
abbrev main_v282 : Ref sig .tc := ⟨.hbm, 355, rfl⟩
abbrev main_v283 : Ref sig .tc := ⟨.hbm, 356, rfl⟩
abbrev main_v284 : Ref sig .tc := ⟨.hbm, 357, rfl⟩
abbrev main_cst_61 : Ref sig .tc := ⟨.hbm, 358, rfl⟩
abbrev main_v285 : Ref sig .tc := ⟨.hbm, 359, rfl⟩
abbrev main_v286 : Ref sig .tc := ⟨.hbm, 360, rfl⟩
abbrev main_v287 : Ref sig .tc := ⟨.hbm, 361, rfl⟩
abbrev main_v288 : Ref sig .tc := ⟨.hbm, 362, rfl⟩
abbrev main_cst_62 : Ref sig .tc := ⟨.hbm, 363, rfl⟩
abbrev main_v289 : Ref sig .tc := ⟨.hbm, 364, rfl⟩
abbrev main_v290 : Ref sig .tc := ⟨.hbm, 365, rfl⟩
abbrev main_v291 : Ref sig .tc := ⟨.hbm, 366, rfl⟩
abbrev main_v292 : Ref sig .tc := ⟨.hbm, 367, rfl⟩
abbrev main_c_63 : Ref sig .tc := ⟨.hbm, 368, rfl⟩
abbrev main_v293 : Ref sig .tc := ⟨.hbm, 369, rfl⟩
abbrev main_v294 : Ref sig .tc := ⟨.hbm, 370, rfl⟩
abbrev main_c_64 : Ref sig .tc := ⟨.hbm, 371, rfl⟩
abbrev main_v295 : Ref sig .tc := ⟨.hbm, 372, rfl⟩
abbrev main_v296 : Ref sig .tc := ⟨.hbm, 373, rfl⟩
abbrev main_v297 : Ref sig .tc := ⟨.hbm, 374, rfl⟩
abbrev main_v298 : Ref sig .tc := ⟨.hbm, 375, rfl⟩
abbrev main_v299 : Ref sig .tc := ⟨.hbm, 376, rfl⟩
abbrev main_v300 : Ref sig .tc := ⟨.hbm, 377, rfl⟩
abbrev main_v301 : Ref sig .tc := ⟨.hbm, 378, rfl⟩
abbrev main_cst_65 : Ref sig .tc := ⟨.hbm, 379, rfl⟩
abbrev main_v302 : Ref sig .tc := ⟨.hbm, 380, rfl⟩
abbrev main_v303 : Ref sig .tc := ⟨.hbm, 381, rfl⟩
abbrev main_v304 : Ref sig .tc := ⟨.hbm, 382, rfl⟩
abbrev main_v305 : Ref sig .tc := ⟨.hbm, 383, rfl⟩
abbrev main_v306 : Ref sig .tc := ⟨.hbm, 384, rfl⟩
abbrev main_v307 : Ref sig .tc := ⟨.hbm, 385, rfl⟩
abbrev main_v308 : Ref sig .tc := ⟨.hbm, 386, rfl⟩
abbrev main_v309 : Ref sig .tc := ⟨.hbm, 387, rfl⟩
abbrev main_v310 : Ref sig .tc := ⟨.hbm, 388, rfl⟩
abbrev main_v311 : Ref sig .tc := ⟨.hbm, 389, rfl⟩
abbrev main_c_66 : Ref sig .tc := ⟨.hbm, 390, rfl⟩
abbrev main_v312 : Ref sig .tc := ⟨.hbm, 391, rfl⟩
abbrev main_v313 : Ref sig .tc := ⟨.hbm, 392, rfl⟩
abbrev main_v314 : Ref sig .tc := ⟨.hbm, 393, rfl⟩
abbrev main_v315 : Ref sig .tc := ⟨.hbm, 394, rfl⟩
abbrev main_v316 : Ref sig .tc := ⟨.hbm, 395, rfl⟩
abbrev main_cst_67 : Ref sig .tc := ⟨.hbm, 396, rfl⟩
abbrev main_v317 : Ref sig .tc := ⟨.hbm, 397, rfl⟩
abbrev main_v318 : Ref sig .tc := ⟨.hbm, 398, rfl⟩
abbrev main_v319 : Ref sig .tc := ⟨.hbm, 399, rfl⟩
abbrev main_v320 : Ref sig .tc := ⟨.hbm, 400, rfl⟩
abbrev main_cst_68 : Ref sig .tc := ⟨.hbm, 401, rfl⟩
abbrev main_v321 : Ref sig .tc := ⟨.hbm, 402, rfl⟩
abbrev main_v322 : Ref sig .tc := ⟨.hbm, 403, rfl⟩
abbrev main_v323 : Ref sig .tc := ⟨.hbm, 404, rfl⟩
abbrev main_v324 : Ref sig .tc := ⟨.hbm, 405, rfl⟩
abbrev main_cst_69 : Ref sig .tc := ⟨.hbm, 406, rfl⟩
abbrev main_v325 : Ref sig .tc := ⟨.hbm, 407, rfl⟩
abbrev main_v326 : Ref sig .tc := ⟨.hbm, 408, rfl⟩
abbrev main_v327 : Ref sig .tc := ⟨.hbm, 409, rfl⟩
abbrev main_v328 : Ref sig .tc := ⟨.hbm, 410, rfl⟩
abbrev main_cst_70 : Ref sig .tc := ⟨.hbm, 411, rfl⟩
abbrev main_v329 : Ref sig .tc := ⟨.hbm, 412, rfl⟩
abbrev main_v330 : Ref sig .tc := ⟨.hbm, 413, rfl⟩
abbrev main_v331 : Ref sig .tc := ⟨.hbm, 414, rfl⟩
abbrev main_v332 : Ref sig .tc := ⟨.hbm, 415, rfl⟩
abbrev main_cst_71 : Ref sig .tc := ⟨.hbm, 416, rfl⟩
abbrev main_v333 : Ref sig .tc := ⟨.hbm, 417, rfl⟩
abbrev main_v334 : Ref sig .tc := ⟨.hbm, 418, rfl⟩
abbrev main_v335 : Ref sig .tc := ⟨.hbm, 419, rfl⟩
abbrev main_v336 : Ref sig .tc := ⟨.hbm, 420, rfl⟩
abbrev main_cst_72 : Ref sig .tc := ⟨.hbm, 421, rfl⟩
abbrev main_v337 : Ref sig .tc := ⟨.hbm, 422, rfl⟩
abbrev main_v338 : Ref sig .tc := ⟨.hbm, 423, rfl⟩
abbrev main_v339 : Ref sig .tc := ⟨.hbm, 424, rfl⟩
abbrev main_v340 : Ref sig .tc := ⟨.hbm, 425, rfl⟩
abbrev main_cst_73 : Ref sig .tc := ⟨.hbm, 426, rfl⟩
abbrev main_v341 : Ref sig .tc := ⟨.hbm, 427, rfl⟩
abbrev main_v342 : Ref sig .tc := ⟨.hbm, 428, rfl⟩
abbrev main_v343 : Ref sig .tc := ⟨.hbm, 429, rfl⟩
abbrev main_v344 : Ref sig .tc := ⟨.hbm, 430, rfl⟩
abbrev main_cst_74 : Ref sig .tc := ⟨.hbm, 431, rfl⟩
abbrev main_v345 : Ref sig .tc := ⟨.hbm, 432, rfl⟩
abbrev main_v346 : Ref sig .tc := ⟨.hbm, 433, rfl⟩
abbrev main_v347 : Ref sig .tc := ⟨.hbm, 434, rfl⟩
abbrev main_v348 : Ref sig .tc := ⟨.hbm, 435, rfl⟩
abbrev main_cst_75 : Ref sig .tc := ⟨.hbm, 436, rfl⟩
abbrev main_v349 : Ref sig .tc := ⟨.hbm, 437, rfl⟩
abbrev main_v350 : Ref sig .tc := ⟨.hbm, 438, rfl⟩
abbrev main_v351 : Ref sig .tc := ⟨.hbm, 439, rfl⟩
abbrev main_v352 : Ref sig .tc := ⟨.hbm, 440, rfl⟩
abbrev main_cst_76 : Ref sig .tc := ⟨.hbm, 441, rfl⟩
abbrev main_v353 : Ref sig .tc := ⟨.hbm, 442, rfl⟩
abbrev main_v354 : Ref sig .tc := ⟨.hbm, 443, rfl⟩
abbrev main_v355 : Ref sig .tc := ⟨.hbm, 444, rfl⟩
abbrev main_v356 : Ref sig .tc := ⟨.hbm, 445, rfl⟩
abbrev main_c_77 : Ref sig .tc := ⟨.hbm, 446, rfl⟩
abbrev main_v357 : Ref sig .tc := ⟨.hbm, 447, rfl⟩
abbrev main_v358 : Ref sig .tc := ⟨.hbm, 448, rfl⟩
abbrev main_c_78 : Ref sig .tc := ⟨.hbm, 449, rfl⟩
abbrev main_v359 : Ref sig .tc := ⟨.hbm, 450, rfl⟩
abbrev main_v360 : Ref sig .tc := ⟨.hbm, 451, rfl⟩
abbrev main_v361 : Ref sig .tc := ⟨.hbm, 452, rfl⟩
abbrev main_v362 : Ref sig .tc := ⟨.hbm, 453, rfl⟩
abbrev main_v363 : Ref sig .tc := ⟨.hbm, 454, rfl⟩
abbrev main_v364 : Ref sig .tc := ⟨.hbm, 455, rfl⟩
abbrev main_v365 : Ref sig .tc := ⟨.hbm, 456, rfl⟩
abbrev main_cst_79 : Ref sig .tc := ⟨.hbm, 457, rfl⟩
abbrev main_v366 : Ref sig .tc := ⟨.hbm, 458, rfl⟩
abbrev main_v367 : Ref sig .tc := ⟨.hbm, 459, rfl⟩
abbrev main_v368 : Ref sig .tc := ⟨.hbm, 460, rfl⟩
abbrev main_v369 : Ref sig .tc := ⟨.hbm, 461, rfl⟩
abbrev main_v370 : Ref sig .tc := ⟨.hbm, 462, rfl⟩
abbrev main_v371 : Ref sig .tc := ⟨.hbm, 463, rfl⟩
abbrev main_v372 : Ref sig .tc := ⟨.hbm, 464, rfl⟩
abbrev main_v373 : Ref sig .tc := ⟨.hbm, 465, rfl⟩
abbrev main_v374 : Ref sig .tc := ⟨.hbm, 466, rfl⟩
abbrev main_v375 : Ref sig .tc := ⟨.hbm, 467, rfl⟩
abbrev main_c_80 : Ref sig .tc := ⟨.hbm, 468, rfl⟩
abbrev main_v376 : Ref sig .tc := ⟨.hbm, 469, rfl⟩
abbrev main_v377 : Ref sig .tc := ⟨.hbm, 470, rfl⟩
abbrev main_v378 : Ref sig .tc := ⟨.hbm, 471, rfl⟩
abbrev main_v379 : Ref sig .tc := ⟨.hbm, 472, rfl⟩
abbrev main_v380 : Ref sig .tc := ⟨.hbm, 473, rfl⟩
abbrev main_cst_81 : Ref sig .tc := ⟨.hbm, 474, rfl⟩
abbrev main_v381 : Ref sig .tc := ⟨.hbm, 475, rfl⟩
abbrev main_v382 : Ref sig .tc := ⟨.hbm, 476, rfl⟩
abbrev main_v383 : Ref sig .tc := ⟨.hbm, 477, rfl⟩
abbrev main_v384 : Ref sig .tc := ⟨.hbm, 478, rfl⟩
abbrev main_cst_82 : Ref sig .tc := ⟨.hbm, 479, rfl⟩
abbrev main_v385 : Ref sig .tc := ⟨.hbm, 480, rfl⟩
abbrev main_v386 : Ref sig .tc := ⟨.hbm, 481, rfl⟩
abbrev main_v387 : Ref sig .tc := ⟨.hbm, 482, rfl⟩
abbrev main_v388 : Ref sig .tc := ⟨.hbm, 483, rfl⟩
abbrev main_cst_83 : Ref sig .tc := ⟨.hbm, 484, rfl⟩
abbrev main_v389 : Ref sig .tc := ⟨.hbm, 485, rfl⟩
abbrev main_v390 : Ref sig .tc := ⟨.hbm, 486, rfl⟩
abbrev main_v391 : Ref sig .tc := ⟨.hbm, 487, rfl⟩
abbrev main_v392 : Ref sig .tc := ⟨.hbm, 488, rfl⟩
abbrev main_cst_84 : Ref sig .tc := ⟨.hbm, 489, rfl⟩
abbrev main_v393 : Ref sig .tc := ⟨.hbm, 490, rfl⟩
abbrev main_v394 : Ref sig .tc := ⟨.hbm, 491, rfl⟩
abbrev main_v395 : Ref sig .tc := ⟨.hbm, 492, rfl⟩
abbrev main_v396 : Ref sig .tc := ⟨.hbm, 493, rfl⟩
abbrev main_cst_85 : Ref sig .tc := ⟨.hbm, 494, rfl⟩
abbrev main_v397 : Ref sig .tc := ⟨.hbm, 495, rfl⟩
abbrev main_v398 : Ref sig .tc := ⟨.hbm, 496, rfl⟩
abbrev main_v399 : Ref sig .tc := ⟨.hbm, 497, rfl⟩
abbrev main_v400 : Ref sig .tc := ⟨.hbm, 498, rfl⟩
abbrev main_cst_86 : Ref sig .tc := ⟨.hbm, 499, rfl⟩
abbrev main_v401 : Ref sig .tc := ⟨.hbm, 500, rfl⟩
abbrev main_v402 : Ref sig .tc := ⟨.hbm, 501, rfl⟩
abbrev main_v403 : Ref sig .tc := ⟨.hbm, 502, rfl⟩
abbrev main_v404 : Ref sig .tc := ⟨.hbm, 503, rfl⟩
abbrev main_cst_87 : Ref sig .tc := ⟨.hbm, 504, rfl⟩
abbrev main_v405 : Ref sig .tc := ⟨.hbm, 505, rfl⟩
abbrev main_v406 : Ref sig .tc := ⟨.hbm, 506, rfl⟩
abbrev main_v407 : Ref sig .tc := ⟨.hbm, 507, rfl⟩
abbrev main_v408 : Ref sig .tc := ⟨.hbm, 508, rfl⟩
abbrev main_cst_88 : Ref sig .tc := ⟨.hbm, 509, rfl⟩
abbrev main_v409 : Ref sig .tc := ⟨.hbm, 510, rfl⟩
abbrev main_v410 : Ref sig .tc := ⟨.hbm, 511, rfl⟩
abbrev main_v411 : Ref sig .tc := ⟨.hbm, 512, rfl⟩
abbrev main_v412 : Ref sig .tc := ⟨.hbm, 513, rfl⟩
abbrev main_cst_89 : Ref sig .tc := ⟨.hbm, 514, rfl⟩
abbrev main_v413 : Ref sig .tc := ⟨.hbm, 515, rfl⟩
abbrev main_v414 : Ref sig .tc := ⟨.hbm, 516, rfl⟩
abbrev main_v415 : Ref sig .tc := ⟨.hbm, 517, rfl⟩
abbrev main_v416 : Ref sig .tc := ⟨.hbm, 518, rfl⟩
abbrev main_cst_90 : Ref sig .tc := ⟨.hbm, 519, rfl⟩
abbrev main_v417 : Ref sig .tc := ⟨.hbm, 520, rfl⟩
abbrev main_v418 : Ref sig .tc := ⟨.hbm, 521, rfl⟩
abbrev main_v419 : Ref sig .tc := ⟨.hbm, 522, rfl⟩
abbrev main_v420 : Ref sig .tc := ⟨.hbm, 523, rfl⟩
abbrev main_c_91 : Ref sig .tc := ⟨.hbm, 524, rfl⟩
abbrev main_v421 : Ref sig .tc := ⟨.hbm, 525, rfl⟩
abbrev main_v422 : Ref sig .tc := ⟨.hbm, 526, rfl⟩
abbrev main_c_92 : Ref sig .tc := ⟨.hbm, 527, rfl⟩
abbrev main_v423 : Ref sig .tc := ⟨.hbm, 528, rfl⟩
abbrev main_v424 : Ref sig .tc := ⟨.hbm, 529, rfl⟩
abbrev main_v425 : Ref sig .tc := ⟨.hbm, 530, rfl⟩
abbrev main_v426 : Ref sig .tc := ⟨.hbm, 531, rfl⟩
abbrev main_v427 : Ref sig .tc := ⟨.hbm, 532, rfl⟩
abbrev main_v428 : Ref sig .tc := ⟨.hbm, 533, rfl⟩
abbrev main_v429 : Ref sig .tc := ⟨.hbm, 534, rfl⟩
abbrev main_cst_93 : Ref sig .tc := ⟨.hbm, 535, rfl⟩
abbrev main_v430 : Ref sig .tc := ⟨.hbm, 536, rfl⟩
abbrev main_v431 : Ref sig .tc := ⟨.hbm, 537, rfl⟩
abbrev main_v432 : Ref sig .tc := ⟨.hbm, 538, rfl⟩
abbrev main_v433 : Ref sig .tc := ⟨.hbm, 539, rfl⟩
abbrev main_v434 : Ref sig .tc := ⟨.hbm, 540, rfl⟩
abbrev main_v435 : Ref sig .tc := ⟨.hbm, 541, rfl⟩
abbrev main_v436 : Ref sig .tc := ⟨.hbm, 542, rfl⟩
abbrev main_v437 : Ref sig .tc := ⟨.hbm, 543, rfl⟩
abbrev main_v438 : Ref sig .tc := ⟨.hbm, 544, rfl⟩
abbrev main_v439 : Ref sig .tc := ⟨.hbm, 545, rfl⟩
abbrev main_c_94 : Ref sig .tc := ⟨.hbm, 546, rfl⟩
abbrev main_v440 : Ref sig .tc := ⟨.hbm, 547, rfl⟩
abbrev main_v441 : Ref sig .tc := ⟨.hbm, 548, rfl⟩
abbrev main_v442 : Ref sig .tc := ⟨.hbm, 549, rfl⟩
abbrev main_v443 : Ref sig .tc := ⟨.hbm, 550, rfl⟩
abbrev main_v444 : Ref sig .tc := ⟨.hbm, 551, rfl⟩
abbrev main_cst_95 : Ref sig .tc := ⟨.hbm, 552, rfl⟩
abbrev main_v445 : Ref sig .tc := ⟨.hbm, 553, rfl⟩
abbrev main_v446 : Ref sig .tc := ⟨.hbm, 554, rfl⟩
abbrev main_v447 : Ref sig .tc := ⟨.hbm, 555, rfl⟩
abbrev main_v448 : Ref sig .tc := ⟨.hbm, 556, rfl⟩
abbrev main_cst_96 : Ref sig .tc := ⟨.hbm, 557, rfl⟩
abbrev main_v449 : Ref sig .tc := ⟨.hbm, 558, rfl⟩
abbrev main_v450 : Ref sig .tc := ⟨.hbm, 559, rfl⟩
abbrev main_v451 : Ref sig .tc := ⟨.hbm, 560, rfl⟩
abbrev main_v452 : Ref sig .tc := ⟨.hbm, 561, rfl⟩
abbrev main_cst_97 : Ref sig .tc := ⟨.hbm, 562, rfl⟩
abbrev main_v453 : Ref sig .tc := ⟨.hbm, 563, rfl⟩
abbrev main_v454 : Ref sig .tc := ⟨.hbm, 564, rfl⟩
abbrev main_v455 : Ref sig .tc := ⟨.hbm, 565, rfl⟩
abbrev main_v456 : Ref sig .tc := ⟨.hbm, 566, rfl⟩
abbrev main_cst_98 : Ref sig .tc := ⟨.hbm, 567, rfl⟩
abbrev main_v457 : Ref sig .tc := ⟨.hbm, 568, rfl⟩
abbrev main_v458 : Ref sig .tc := ⟨.hbm, 569, rfl⟩
abbrev main_v459 : Ref sig .tc := ⟨.hbm, 570, rfl⟩
abbrev main_v460 : Ref sig .tc := ⟨.hbm, 571, rfl⟩
abbrev main_cst_99 : Ref sig .tc := ⟨.hbm, 572, rfl⟩
abbrev main_v461 : Ref sig .tc := ⟨.hbm, 573, rfl⟩
abbrev main_v462 : Ref sig .tc := ⟨.hbm, 574, rfl⟩
abbrev main_v463 : Ref sig .tc := ⟨.hbm, 575, rfl⟩
abbrev main_v464 : Ref sig .tc := ⟨.hbm, 576, rfl⟩
abbrev main_cst_100 : Ref sig .tc := ⟨.hbm, 577, rfl⟩
abbrev main_v465 : Ref sig .tc := ⟨.hbm, 578, rfl⟩
abbrev main_v466 : Ref sig .tc := ⟨.hbm, 579, rfl⟩
abbrev main_v467 : Ref sig .tc := ⟨.hbm, 580, rfl⟩
abbrev main_v468 : Ref sig .tc := ⟨.hbm, 581, rfl⟩
abbrev main_cst_101 : Ref sig .tc := ⟨.hbm, 582, rfl⟩
abbrev main_v469 : Ref sig .tc := ⟨.hbm, 583, rfl⟩
abbrev main_v470 : Ref sig .tc := ⟨.hbm, 584, rfl⟩
abbrev main_v471 : Ref sig .tc := ⟨.hbm, 585, rfl⟩
abbrev main_v472 : Ref sig .tc := ⟨.hbm, 586, rfl⟩
abbrev main_cst_102 : Ref sig .tc := ⟨.hbm, 587, rfl⟩
abbrev main_v473 : Ref sig .tc := ⟨.hbm, 588, rfl⟩
abbrev main_v474 : Ref sig .tc := ⟨.hbm, 589, rfl⟩
abbrev main_v475 : Ref sig .tc := ⟨.hbm, 590, rfl⟩
abbrev main_v476 : Ref sig .tc := ⟨.hbm, 591, rfl⟩
abbrev main_cst_103 : Ref sig .tc := ⟨.hbm, 592, rfl⟩
abbrev main_v477 : Ref sig .tc := ⟨.hbm, 593, rfl⟩
abbrev main_v478 : Ref sig .tc := ⟨.hbm, 594, rfl⟩
abbrev main_v479 : Ref sig .tc := ⟨.hbm, 595, rfl⟩
abbrev main_v480 : Ref sig .tc := ⟨.hbm, 596, rfl⟩
abbrev main_cst_104 : Ref sig .tc := ⟨.hbm, 597, rfl⟩
abbrev main_v481 : Ref sig .tc := ⟨.hbm, 598, rfl⟩
abbrev main_v482 : Ref sig .tc := ⟨.hbm, 599, rfl⟩
abbrev main_v483 : Ref sig .tc := ⟨.hbm, 600, rfl⟩
abbrev main_v484 : Ref sig .tc := ⟨.hbm, 601, rfl⟩
abbrev main_c_105 : Ref sig .tc := ⟨.hbm, 602, rfl⟩
abbrev main_v485 : Ref sig .tc := ⟨.hbm, 603, rfl⟩
abbrev main_v486 : Ref sig .tc := ⟨.hbm, 604, rfl⟩
abbrev main_c_106 : Ref sig .tc := ⟨.hbm, 605, rfl⟩
abbrev main_v487 : Ref sig .tc := ⟨.hbm, 606, rfl⟩
abbrev main_v488 : Ref sig .tc := ⟨.hbm, 607, rfl⟩
abbrev main_v489 : Ref sig .tc := ⟨.hbm, 608, rfl⟩
abbrev main_v490 : Ref sig .tc := ⟨.hbm, 609, rfl⟩
abbrev main_v491 : Ref sig .tc := ⟨.hbm, 610, rfl⟩
abbrev main_v492 : Ref sig .tc := ⟨.hbm, 611, rfl⟩
abbrev main_v493 : Ref sig .tc := ⟨.hbm, 612, rfl⟩
abbrev main_cst_107 : Ref sig .tc := ⟨.hbm, 613, rfl⟩
abbrev main_v494 : Ref sig .tc := ⟨.hbm, 614, rfl⟩
abbrev main_v495 : Ref sig .tc := ⟨.hbm, 615, rfl⟩
abbrev main_v496 : Ref sig .tc := ⟨.hbm, 616, rfl⟩
abbrev main_v497 : Ref sig .tc := ⟨.hbm, 617, rfl⟩
abbrev main_v498 : Ref sig .tc := ⟨.hbm, 618, rfl⟩
abbrev main_v499 : Ref sig .tc := ⟨.hbm, 619, rfl⟩
abbrev main_v500 : Ref sig .tc := ⟨.hbm, 620, rfl⟩
abbrev main_v501 : Ref sig .tc := ⟨.hbm, 621, rfl⟩
abbrev main_v502 : Ref sig .tc := ⟨.hbm, 622, rfl⟩
abbrev main_v503 : Ref sig .tc := ⟨.hbm, 623, rfl⟩
abbrev main_c_108 : Ref sig .tc := ⟨.hbm, 624, rfl⟩
abbrev main_v504 : Ref sig .tc := ⟨.hbm, 625, rfl⟩
abbrev main_v505 : Ref sig .tc := ⟨.hbm, 626, rfl⟩
abbrev main_v506 : Ref sig .tc := ⟨.hbm, 627, rfl⟩
abbrev main_v507 : Ref sig .tc := ⟨.hbm, 628, rfl⟩
abbrev main_v508 : Ref sig .tc := ⟨.hbm, 629, rfl⟩
abbrev main_cst_109 : Ref sig .tc := ⟨.hbm, 630, rfl⟩
abbrev main_v509 : Ref sig .tc := ⟨.hbm, 631, rfl⟩
abbrev main_v510 : Ref sig .tc := ⟨.hbm, 632, rfl⟩
abbrev main_v511 : Ref sig .tc := ⟨.hbm, 633, rfl⟩
abbrev main_v512 : Ref sig .tc := ⟨.hbm, 634, rfl⟩
abbrev main_cst_110 : Ref sig .tc := ⟨.hbm, 635, rfl⟩
abbrev main_v513 : Ref sig .tc := ⟨.hbm, 636, rfl⟩
abbrev main_v514 : Ref sig .tc := ⟨.hbm, 637, rfl⟩
abbrev main_v515 : Ref sig .tc := ⟨.hbm, 638, rfl⟩
abbrev main_v516 : Ref sig .tc := ⟨.hbm, 639, rfl⟩
abbrev main_cst_111 : Ref sig .tc := ⟨.hbm, 640, rfl⟩
abbrev main_v517 : Ref sig .tc := ⟨.hbm, 641, rfl⟩
abbrev main_v518 : Ref sig .tc := ⟨.hbm, 642, rfl⟩
abbrev main_v519 : Ref sig .tc := ⟨.hbm, 643, rfl⟩
abbrev main_v520 : Ref sig .tc := ⟨.hbm, 644, rfl⟩
abbrev main_cst_112 : Ref sig .tc := ⟨.hbm, 645, rfl⟩
abbrev main_v521 : Ref sig .tc := ⟨.hbm, 646, rfl⟩
abbrev main_v522 : Ref sig .tc := ⟨.hbm, 647, rfl⟩
abbrev main_v523 : Ref sig .tc := ⟨.hbm, 648, rfl⟩
abbrev main_v524 : Ref sig .tc := ⟨.hbm, 649, rfl⟩
abbrev main_cst_113 : Ref sig .tc := ⟨.hbm, 650, rfl⟩
abbrev main_v525 : Ref sig .tc := ⟨.hbm, 651, rfl⟩
abbrev main_v526 : Ref sig .tc := ⟨.hbm, 652, rfl⟩
abbrev main_v527 : Ref sig .tc := ⟨.hbm, 653, rfl⟩
abbrev main_v528 : Ref sig .tc := ⟨.hbm, 654, rfl⟩
abbrev main_cst_114 : Ref sig .tc := ⟨.hbm, 655, rfl⟩
abbrev main_v529 : Ref sig .tc := ⟨.hbm, 656, rfl⟩
abbrev main_v530 : Ref sig .tc := ⟨.hbm, 657, rfl⟩
abbrev main_v531 : Ref sig .tc := ⟨.hbm, 658, rfl⟩
abbrev main_v532 : Ref sig .tc := ⟨.hbm, 659, rfl⟩
abbrev main_cst_115 : Ref sig .tc := ⟨.hbm, 660, rfl⟩
abbrev main_v533 : Ref sig .tc := ⟨.hbm, 661, rfl⟩
abbrev main_v534 : Ref sig .tc := ⟨.hbm, 662, rfl⟩
abbrev main_v535 : Ref sig .tc := ⟨.hbm, 663, rfl⟩
abbrev main_v536 : Ref sig .tc := ⟨.hbm, 664, rfl⟩
abbrev main_cst_116 : Ref sig .tc := ⟨.hbm, 665, rfl⟩
abbrev main_v537 : Ref sig .tc := ⟨.hbm, 666, rfl⟩
abbrev main_v538 : Ref sig .tc := ⟨.hbm, 667, rfl⟩
abbrev main_v539 : Ref sig .tc := ⟨.hbm, 668, rfl⟩
abbrev main_v540 : Ref sig .tc := ⟨.hbm, 669, rfl⟩
abbrev main_cst_117 : Ref sig .tc := ⟨.hbm, 670, rfl⟩
abbrev main_v541 : Ref sig .tc := ⟨.hbm, 671, rfl⟩
abbrev main_v542 : Ref sig .tc := ⟨.hbm, 672, rfl⟩
abbrev main_v543 : Ref sig .tc := ⟨.hbm, 673, rfl⟩
abbrev main_v544 : Ref sig .tc := ⟨.hbm, 674, rfl⟩
abbrev main_cst_118 : Ref sig .tc := ⟨.hbm, 675, rfl⟩
abbrev main_v545 : Ref sig .tc := ⟨.hbm, 676, rfl⟩
abbrev main_v546 : Ref sig .tc := ⟨.hbm, 677, rfl⟩
abbrev main_v547 : Ref sig .tc := ⟨.hbm, 678, rfl⟩
abbrev main_v548 : Ref sig .tc := ⟨.hbm, 679, rfl⟩
abbrev main_c_119 : Ref sig .tc := ⟨.hbm, 680, rfl⟩
abbrev main_v549 : Ref sig .tc := ⟨.hbm, 681, rfl⟩
abbrev main_v550 : Ref sig .tc := ⟨.hbm, 682, rfl⟩
abbrev main_c_120 : Ref sig .tc := ⟨.hbm, 683, rfl⟩
abbrev main_v551 : Ref sig .tc := ⟨.hbm, 684, rfl⟩
abbrev main_v552 : Ref sig .tc := ⟨.hbm, 685, rfl⟩
abbrev main_v553 : Ref sig .tc := ⟨.hbm, 686, rfl⟩
abbrev main_v554 : Ref sig .tc := ⟨.hbm, 687, rfl⟩
abbrev main_v555 : Ref sig .tc := ⟨.hbm, 688, rfl⟩
abbrev main_v556 : Ref sig .tc := ⟨.hbm, 689, rfl⟩
abbrev main_v557 : Ref sig .tc := ⟨.hbm, 690, rfl⟩
abbrev main_cst_121 : Ref sig .tc := ⟨.hbm, 691, rfl⟩
abbrev main_v558 : Ref sig .tc := ⟨.hbm, 692, rfl⟩
abbrev main_v559 : Ref sig .tc := ⟨.hbm, 693, rfl⟩
abbrev main_v560 : Ref sig .tc := ⟨.hbm, 694, rfl⟩
abbrev main_v561 : Ref sig .tc := ⟨.hbm, 695, rfl⟩
abbrev main_v562 : Ref sig .tc := ⟨.hbm, 696, rfl⟩
abbrev main_v563 : Ref sig .tc := ⟨.hbm, 697, rfl⟩
abbrev main_v564 : Ref sig .tc := ⟨.hbm, 698, rfl⟩
abbrev main_v565 : Ref sig .tc := ⟨.hbm, 699, rfl⟩
abbrev main_v566 : Ref sig .tc := ⟨.hbm, 700, rfl⟩
abbrev main_v567 : Ref sig .tc := ⟨.hbm, 701, rfl⟩
abbrev main_c_122 : Ref sig .tc := ⟨.hbm, 702, rfl⟩
abbrev main_v568 : Ref sig .tc := ⟨.hbm, 703, rfl⟩
abbrev main_v569 : Ref sig .tc := ⟨.hbm, 704, rfl⟩
abbrev main_v570 : Ref sig .tc := ⟨.hbm, 705, rfl⟩
abbrev main_v571 : Ref sig .tc := ⟨.hbm, 706, rfl⟩
abbrev main_v572 : Ref sig .tc := ⟨.hbm, 707, rfl⟩
abbrev main_cst_123 : Ref sig .tc := ⟨.hbm, 708, rfl⟩
abbrev main_v573 : Ref sig .tc := ⟨.hbm, 709, rfl⟩
abbrev main_v574 : Ref sig .tc := ⟨.hbm, 710, rfl⟩
abbrev main_v575 : Ref sig .tc := ⟨.hbm, 711, rfl⟩
abbrev main_v576 : Ref sig .tc := ⟨.hbm, 712, rfl⟩
abbrev main_cst_124 : Ref sig .tc := ⟨.hbm, 713, rfl⟩
abbrev main_v577 : Ref sig .tc := ⟨.hbm, 714, rfl⟩
abbrev main_v578 : Ref sig .tc := ⟨.hbm, 715, rfl⟩
abbrev main_v579 : Ref sig .tc := ⟨.hbm, 716, rfl⟩
abbrev main_v580 : Ref sig .tc := ⟨.hbm, 717, rfl⟩
abbrev main_cst_125 : Ref sig .tc := ⟨.hbm, 718, rfl⟩
abbrev main_v581 : Ref sig .tc := ⟨.hbm, 719, rfl⟩
abbrev main_v582 : Ref sig .tc := ⟨.hbm, 720, rfl⟩
abbrev main_v583 : Ref sig .tc := ⟨.hbm, 721, rfl⟩
abbrev main_v584 : Ref sig .tc := ⟨.hbm, 722, rfl⟩
abbrev main_cst_126 : Ref sig .tc := ⟨.hbm, 723, rfl⟩
abbrev main_v585 : Ref sig .tc := ⟨.hbm, 724, rfl⟩
abbrev main_v586 : Ref sig .tc := ⟨.hbm, 725, rfl⟩
abbrev main_v587 : Ref sig .tc := ⟨.hbm, 726, rfl⟩
abbrev main_v588 : Ref sig .tc := ⟨.hbm, 727, rfl⟩
abbrev main_cst_127 : Ref sig .tc := ⟨.hbm, 728, rfl⟩
abbrev main_v589 : Ref sig .tc := ⟨.hbm, 729, rfl⟩
abbrev main_v590 : Ref sig .tc := ⟨.hbm, 730, rfl⟩
abbrev main_v591 : Ref sig .tc := ⟨.hbm, 731, rfl⟩
abbrev main_v592 : Ref sig .tc := ⟨.hbm, 732, rfl⟩
abbrev main_cst_128 : Ref sig .tc := ⟨.hbm, 733, rfl⟩
abbrev main_v593 : Ref sig .tc := ⟨.hbm, 734, rfl⟩
abbrev main_v594 : Ref sig .tc := ⟨.hbm, 735, rfl⟩
abbrev main_v595 : Ref sig .tc := ⟨.hbm, 736, rfl⟩
abbrev main_v596 : Ref sig .tc := ⟨.hbm, 737, rfl⟩
abbrev main_cst_129 : Ref sig .tc := ⟨.hbm, 738, rfl⟩
abbrev main_v597 : Ref sig .tc := ⟨.hbm, 739, rfl⟩
abbrev main_v598 : Ref sig .tc := ⟨.hbm, 740, rfl⟩
abbrev main_v599 : Ref sig .tc := ⟨.hbm, 741, rfl⟩
abbrev main_v600 : Ref sig .tc := ⟨.hbm, 742, rfl⟩
abbrev main_cst_130 : Ref sig .tc := ⟨.hbm, 743, rfl⟩
abbrev main_v601 : Ref sig .tc := ⟨.hbm, 744, rfl⟩
abbrev main_v602 : Ref sig .tc := ⟨.hbm, 745, rfl⟩
abbrev main_v603 : Ref sig .tc := ⟨.hbm, 746, rfl⟩
abbrev main_v604 : Ref sig .tc := ⟨.hbm, 747, rfl⟩
abbrev main_cst_131 : Ref sig .tc := ⟨.hbm, 748, rfl⟩
abbrev main_v605 : Ref sig .tc := ⟨.hbm, 749, rfl⟩
abbrev main_v606 : Ref sig .tc := ⟨.hbm, 750, rfl⟩
abbrev main_v607 : Ref sig .tc := ⟨.hbm, 751, rfl⟩
abbrev main_v608 : Ref sig .tc := ⟨.hbm, 752, rfl⟩
abbrev main_cst_132 : Ref sig .tc := ⟨.hbm, 753, rfl⟩
abbrev main_v609 : Ref sig .tc := ⟨.hbm, 754, rfl⟩
abbrev main_v610 : Ref sig .tc := ⟨.hbm, 755, rfl⟩
abbrev main_v611 : Ref sig .tc := ⟨.hbm, 756, rfl⟩
abbrev main_v612 : Ref sig .tc := ⟨.hbm, 757, rfl⟩
abbrev main_c_133 : Ref sig .tc := ⟨.hbm, 758, rfl⟩
abbrev main_v613 : Ref sig .tc := ⟨.hbm, 759, rfl⟩
abbrev main_v614 : Ref sig .tc := ⟨.hbm, 760, rfl⟩
abbrev main_c_134 : Ref sig .tc := ⟨.hbm, 761, rfl⟩
abbrev main_v615 : Ref sig .tc := ⟨.hbm, 762, rfl⟩
abbrev main_v616 : Ref sig .tc := ⟨.hbm, 763, rfl⟩
abbrev main_v617 : Ref sig .tc := ⟨.hbm, 764, rfl⟩
abbrev main_v618 : Ref sig .tc := ⟨.hbm, 765, rfl⟩
abbrev main_v619 : Ref sig .tc := ⟨.hbm, 766, rfl⟩
abbrev main_v620 : Ref sig .tc := ⟨.hbm, 767, rfl⟩
abbrev main_v621 : Ref sig .tc := ⟨.hbm, 768, rfl⟩
abbrev main_cst_135 : Ref sig .tc := ⟨.hbm, 769, rfl⟩
abbrev main_v622 : Ref sig .tc := ⟨.hbm, 770, rfl⟩
abbrev main_v623 : Ref sig .tc := ⟨.hbm, 771, rfl⟩
abbrev main_v624 : Ref sig .tc := ⟨.hbm, 772, rfl⟩
abbrev main_v625 : Ref sig .tc := ⟨.hbm, 773, rfl⟩
abbrev main_v626 : Ref sig .tc := ⟨.hbm, 774, rfl⟩
abbrev main_v627 : Ref sig .tc := ⟨.hbm, 775, rfl⟩
abbrev main_v628 : Ref sig .tc := ⟨.hbm, 776, rfl⟩
abbrev main_v629 : Ref sig .tc := ⟨.hbm, 777, rfl⟩
abbrev main_v630 : Ref sig .tc := ⟨.hbm, 778, rfl⟩
abbrev main_v631 : Ref sig .tc := ⟨.hbm, 779, rfl⟩
abbrev main_c_136 : Ref sig .tc := ⟨.hbm, 780, rfl⟩
abbrev main_v632 : Ref sig .tc := ⟨.hbm, 781, rfl⟩
abbrev main_v633 : Ref sig .tc := ⟨.hbm, 782, rfl⟩
abbrev main_v634 : Ref sig .tc := ⟨.hbm, 783, rfl⟩
abbrev main_v635 : Ref sig .tc := ⟨.hbm, 784, rfl⟩
abbrev main_v636 : Ref sig .tc := ⟨.hbm, 785, rfl⟩
abbrev main_cst_137 : Ref sig .tc := ⟨.hbm, 786, rfl⟩
abbrev main_v637 : Ref sig .tc := ⟨.hbm, 787, rfl⟩
abbrev main_v638 : Ref sig .tc := ⟨.hbm, 788, rfl⟩
abbrev main_v639 : Ref sig .tc := ⟨.hbm, 789, rfl⟩
abbrev main_v640 : Ref sig .tc := ⟨.hbm, 790, rfl⟩
abbrev main_cst_138 : Ref sig .tc := ⟨.hbm, 791, rfl⟩
abbrev main_v641 : Ref sig .tc := ⟨.hbm, 792, rfl⟩
abbrev main_v642 : Ref sig .tc := ⟨.hbm, 793, rfl⟩
abbrev main_v643 : Ref sig .tc := ⟨.hbm, 794, rfl⟩
abbrev main_v644 : Ref sig .tc := ⟨.hbm, 795, rfl⟩
abbrev main_cst_139 : Ref sig .tc := ⟨.hbm, 796, rfl⟩
abbrev main_v645 : Ref sig .tc := ⟨.hbm, 797, rfl⟩
abbrev main_v646 : Ref sig .tc := ⟨.hbm, 798, rfl⟩
abbrev main_v647 : Ref sig .tc := ⟨.hbm, 799, rfl⟩
abbrev main_v648 : Ref sig .tc := ⟨.hbm, 800, rfl⟩
abbrev main_cst_140 : Ref sig .tc := ⟨.hbm, 801, rfl⟩
abbrev main_v649 : Ref sig .tc := ⟨.hbm, 802, rfl⟩
abbrev main_v650 : Ref sig .tc := ⟨.hbm, 803, rfl⟩
abbrev main_v651 : Ref sig .tc := ⟨.hbm, 804, rfl⟩
abbrev main_v652 : Ref sig .tc := ⟨.hbm, 805, rfl⟩
abbrev main_cst_141 : Ref sig .tc := ⟨.hbm, 806, rfl⟩
abbrev main_v653 : Ref sig .tc := ⟨.hbm, 807, rfl⟩
abbrev main_v654 : Ref sig .tc := ⟨.hbm, 808, rfl⟩
abbrev main_v655 : Ref sig .tc := ⟨.hbm, 809, rfl⟩
abbrev main_v656 : Ref sig .tc := ⟨.hbm, 810, rfl⟩
abbrev main_cst_142 : Ref sig .tc := ⟨.hbm, 811, rfl⟩
abbrev main_v657 : Ref sig .tc := ⟨.hbm, 812, rfl⟩
abbrev main_v658 : Ref sig .tc := ⟨.hbm, 813, rfl⟩
abbrev main_v659 : Ref sig .tc := ⟨.hbm, 814, rfl⟩
abbrev main_v660 : Ref sig .tc := ⟨.hbm, 815, rfl⟩
abbrev main_cst_143 : Ref sig .tc := ⟨.hbm, 816, rfl⟩
abbrev main_v661 : Ref sig .tc := ⟨.hbm, 817, rfl⟩
abbrev main_v662 : Ref sig .tc := ⟨.hbm, 818, rfl⟩
abbrev main_v663 : Ref sig .tc := ⟨.hbm, 819, rfl⟩
abbrev main_v664 : Ref sig .tc := ⟨.hbm, 820, rfl⟩
abbrev main_cst_144 : Ref sig .tc := ⟨.hbm, 821, rfl⟩
abbrev main_v665 : Ref sig .tc := ⟨.hbm, 822, rfl⟩
abbrev main_v666 : Ref sig .tc := ⟨.hbm, 823, rfl⟩
abbrev main_v667 : Ref sig .tc := ⟨.hbm, 824, rfl⟩
abbrev main_v668 : Ref sig .tc := ⟨.hbm, 825, rfl⟩
abbrev main_cst_145 : Ref sig .tc := ⟨.hbm, 826, rfl⟩
abbrev main_v669 : Ref sig .tc := ⟨.hbm, 827, rfl⟩
abbrev main_v670 : Ref sig .tc := ⟨.hbm, 828, rfl⟩
abbrev main_v671 : Ref sig .tc := ⟨.hbm, 829, rfl⟩
abbrev main_v672 : Ref sig .tc := ⟨.hbm, 830, rfl⟩
abbrev main_cst_146 : Ref sig .tc := ⟨.hbm, 831, rfl⟩
abbrev main_v673 : Ref sig .tc := ⟨.hbm, 832, rfl⟩
abbrev main_v674 : Ref sig .tc := ⟨.hbm, 833, rfl⟩
abbrev main_v675 : Ref sig .tc := ⟨.hbm, 834, rfl⟩
abbrev main_v676 : Ref sig .tc := ⟨.hbm, 835, rfl⟩
abbrev main_c_147 : Ref sig .tc := ⟨.hbm, 836, rfl⟩
abbrev main_v677 : Ref sig .tc := ⟨.hbm, 837, rfl⟩
abbrev main_v678 : Ref sig .tc := ⟨.hbm, 838, rfl⟩
abbrev main_c_148 : Ref sig .tc := ⟨.hbm, 839, rfl⟩
abbrev main_v679 : Ref sig .tc := ⟨.hbm, 840, rfl⟩
abbrev main_v680 : Ref sig .tc := ⟨.hbm, 841, rfl⟩
abbrev main_v681 : Ref sig .tc := ⟨.hbm, 842, rfl⟩
abbrev main_v682 : Ref sig .tc := ⟨.hbm, 843, rfl⟩
abbrev main_v683 : Ref sig .tc := ⟨.hbm, 844, rfl⟩
abbrev main_v684 : Ref sig .tc := ⟨.hbm, 845, rfl⟩
abbrev main_v685 : Ref sig .tc := ⟨.hbm, 846, rfl⟩
abbrev main_cst_149 : Ref sig .tc := ⟨.hbm, 847, rfl⟩
abbrev main_v686 : Ref sig .tc := ⟨.hbm, 848, rfl⟩
abbrev main_v687 : Ref sig .tc := ⟨.hbm, 849, rfl⟩
abbrev main_v688 : Ref sig .tc := ⟨.hbm, 850, rfl⟩
abbrev main_v689 : Ref sig .tc := ⟨.hbm, 851, rfl⟩
abbrev main_v690 : Ref sig .tc := ⟨.hbm, 852, rfl⟩
abbrev main_v691 : Ref sig .tc := ⟨.hbm, 853, rfl⟩
abbrev main_c_150 : Ref sig .tc := ⟨.hbm, 854, rfl⟩
abbrev main_v692 : Ref sig .tc := ⟨.hbm, 855, rfl⟩
abbrev main_v693 : Ref sig .tc := ⟨.hbm, 856, rfl⟩
abbrev main_c_151 : Ref sig .tc := ⟨.hbm, 857, rfl⟩
abbrev main_v694 : Ref sig .tc := ⟨.hbm, 858, rfl⟩
abbrev main_v695 : Ref sig .tc := ⟨.hbm, 859, rfl⟩
abbrev main_v696 : Ref sig .tc := ⟨.hbm, 860, rfl⟩
abbrev main_v697 : Ref sig .tc := ⟨.hbm, 861, rfl⟩
abbrev main_v698 : Ref sig .tc := ⟨.hbm, 862, rfl⟩
abbrev main_v699 : Ref sig .tc := ⟨.hbm, 863, rfl⟩
abbrev main_cst_152 : Ref sig .tc := ⟨.hbm, 864, rfl⟩
abbrev main_v700 : Ref sig .tc := ⟨.hbm, 865, rfl⟩
abbrev main_v701 : Ref sig .tc := ⟨.hbm, 866, rfl⟩
abbrev main_v702 : Ref sig .tc := ⟨.hbm, 867, rfl⟩
abbrev main_v703 : Ref sig .tc := ⟨.hbm, 868, rfl⟩
abbrev main_v704 : Ref sig .tc := ⟨.hbm, 869, rfl⟩
abbrev main_v705 : Ref sig .tc := ⟨.hbm, 870, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg2_0 : Ref sig .tc := ⟨.vmem, 33, rfl⟩
abbrev cc6_stg2_1 : Ref sig .tc := ⟨.vmem, 34, rfl⟩
abbrev cc7_stg0_0 : Ref sig .tc := ⟨.vmem, 35, rfl⟩
abbrev cc7_stg0_1 : Ref sig .tc := ⟨.vmem, 36, rfl⟩
abbrev cc7_stg1_0 : Ref sig .tc := ⟨.vmem, 37, rfl⟩
abbrev cc7_stg2_0 : Ref sig .tc := ⟨.vmem, 38, rfl⟩
abbrev cc7_stg2_1 : Ref sig .tc := ⟨.vmem, 39, rfl⟩
abbrev cc8_stg0_0 : Ref sig .tc := ⟨.vmem, 40, rfl⟩
abbrev cc8_stg0_1 : Ref sig .tc := ⟨.vmem, 41, rfl⟩
abbrev cc8_stg1_0 : Ref sig .tc := ⟨.vmem, 42, rfl⟩
abbrev cc8_stg2_0 : Ref sig .tc := ⟨.vmem, 43, rfl⟩
abbrev cc8_stg2_1 : Ref sig .tc := ⟨.vmem, 44, rfl⟩
abbrev cc9_stg0_0 : Ref sig .tc := ⟨.vmem, 45, rfl⟩
abbrev cc9_stg0_1 : Ref sig .tc := ⟨.vmem, 46, rfl⟩
abbrev cc9_stg1_0 : Ref sig .tc := ⟨.vmem, 47, rfl⟩
abbrev cc9_stg2_0 : Ref sig .tc := ⟨.vmem, 48, rfl⟩
abbrev cc9_stg2_1 : Ref sig .tc := ⟨.vmem, 49, rfl⟩
abbrev cc10_stg0_0 : Ref sig .tc := ⟨.vmem, 50, rfl⟩
abbrev cc10_stg0_1 : Ref sig .tc := ⟨.vmem, 51, rfl⟩
abbrev cc10_stg1_0 : Ref sig .tc := ⟨.vmem, 52, rfl⟩
abbrev cc10_stg2_0 : Ref sig .tc := ⟨.vmem, 53, rfl⟩
abbrev cc10_stg2_1 : Ref sig .tc := ⟨.vmem, 54, rfl⟩
abbrev cc11_stg0_0 : Ref sig .tc := ⟨.vmem, 55, rfl⟩
abbrev cc11_stg0_1 : Ref sig .tc := ⟨.vmem, 56, rfl⟩
abbrev cc11_stg1_0 : Ref sig .tc := ⟨.vmem, 57, rfl⟩
abbrev cc11_stg2_0 : Ref sig .tc := ⟨.vmem, 58, rfl⟩
abbrev cc11_stg2_1 : Ref sig .tc := ⟨.vmem, 59, rfl⟩
abbrev cc12_stg0_0 : Ref sig .tc := ⟨.vmem, 60, rfl⟩
abbrev cc12_stg0_1 : Ref sig .tc := ⟨.vmem, 61, rfl⟩
abbrev cc12_stg1_0 : Ref sig .tc := ⟨.vmem, 62, rfl⟩
abbrev cc12_stg2_0 : Ref sig .tc := ⟨.vmem, 63, rfl⟩
abbrev cc12_stg2_1 : Ref sig .tc := ⟨.vmem, 64, rfl⟩
abbrev cc13_stg0_0 : Ref sig .tc := ⟨.vmem, 65, rfl⟩
abbrev cc13_stg0_1 : Ref sig .tc := ⟨.vmem, 66, rfl⟩
abbrev cc13_stg1_0 : Ref sig .tc := ⟨.vmem, 67, rfl⟩
abbrev cc13_stg2_0 : Ref sig .tc := ⟨.vmem, 68, rfl⟩
abbrev cc13_stg2_1 : Ref sig .tc := ⟨.vmem, 69, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem2_0 : DmaSem sig := 33
abbrev cc6_sem2_1 : DmaSem sig := 34
abbrev cc7_sem0_0 : DmaSem sig := 35
abbrev cc7_sem0_1 : DmaSem sig := 36
abbrev cc7_sem1_0 : DmaSem sig := 37
abbrev cc7_sem2_0 : DmaSem sig := 38
abbrev cc7_sem2_1 : DmaSem sig := 39
abbrev cc8_sem0_0 : DmaSem sig := 40
abbrev cc8_sem0_1 : DmaSem sig := 41
abbrev cc8_sem1_0 : DmaSem sig := 42
abbrev cc8_sem2_0 : DmaSem sig := 43
abbrev cc8_sem2_1 : DmaSem sig := 44
abbrev cc9_sem0_0 : DmaSem sig := 45
abbrev cc9_sem0_1 : DmaSem sig := 46
abbrev cc9_sem1_0 : DmaSem sig := 47
abbrev cc9_sem2_0 : DmaSem sig := 48
abbrev cc9_sem2_1 : DmaSem sig := 49
abbrev cc10_sem0_0 : DmaSem sig := 50
abbrev cc10_sem0_1 : DmaSem sig := 51
abbrev cc10_sem1_0 : DmaSem sig := 52
abbrev cc10_sem2_0 : DmaSem sig := 53
abbrev cc10_sem2_1 : DmaSem sig := 54
abbrev cc11_sem0_0 : DmaSem sig := 55
abbrev cc11_sem0_1 : DmaSem sig := 56
abbrev cc11_sem1_0 : DmaSem sig := 57
abbrev cc11_sem2_0 : DmaSem sig := 58
abbrev cc11_sem2_1 : DmaSem sig := 59
abbrev cc12_sem0_0 : DmaSem sig := 60
abbrev cc12_sem0_1 : DmaSem sig := 61
abbrev cc12_sem1_0 : DmaSem sig := 62
abbrev cc12_sem2_0 : DmaSem sig := 63
abbrev cc12_sem2_1 : DmaSem sig := 64
abbrev cc13_sem0_0 : DmaSem sig := 65
abbrev cc13_sem0_1 : DmaSem sig := 66
abbrev cc13_sem1_0 : DmaSem sig := 67
abbrev cc13_sem2_0 : DmaSem sig := 68
abbrev cc13_sem2_1 : DmaSem sig := 69

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S20000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S20000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S20000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S20000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S20000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S20000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S20000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S20000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S20000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S20000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S20000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S20000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S20000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S20000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S20000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S64x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S20000x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S20000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S64x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S20000x64 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S20000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S64x64 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S20000x64 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev grid10 : Pipeline.Grid := ⟨1, ![10], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S20000x64 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S64x64 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 2 → Memref sig .tc .vmem S20000x64 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev grid11 : Pipeline.Grid := ⟨1, ![10], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S20000x64 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S64x64 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 2 → Memref sig .tc .vmem S20000x64 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev grid12 : Pipeline.Grid := ⟨1, ![10], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S20000x64 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S64x1 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 2 → Memref sig .tc .vmem S20000x1 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true]

abbrev grid13 : Pipeline.Grid := ⟨1, ![10], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S20000x1 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S1x1 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 2 → Memref sig .tc .vmem S20000x1 .f32 := fun | 0 => Memref.whole cc13_stg2_0 | 1 => Memref.whole cc13_stg2_1 | ⟨_ + 2, h⟩ => absurd h (Nat.not_lt.2 (Nat.le_add_left _ _))
abbrev sem13_2 : Fin 2 → DmaSem sig := fun | 0 => cc13_sem2_0 | 1 => cc13_sem2_1 | ⟨_ + 2, h⟩ => absurd h (Nat.not_lt.2 (Nat.le_add_left _ _))
abbrev reads13_2 : Fin grid13.rank → Bool := ![true]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  concatenates_S1200000_S200000_S1400000_d0 : Shape.Concatenates [S1200000, S200000] S1400000 0
  bcast_S_S200000 : S_.BroadcastsInDim S200000 (![] : Fin 0 → Fin S200000.rank)
  bcast_S1400000_S1400000x1_0 : S1400000.BroadcastsInDim S1400000x1 (![0] : Fin 1 → Fin S1400000x1.rank)
  bcast_S_S1400000 : S_.BroadcastsInDim S1400000 (![] : Fin 0 → Fin S1400000.rank)
  inb_S20000x1_S20000x1_0_0 : ∀ a, (![0, 0] : Fin 2 → Nat) a + S20000x1.size a ≤ S20000x1.size a
  h_S20000x1 : 0 < S20000x1.numel
  bitsLt_bf16_f32 : FTy.bits .bf16 < FTy.bits .f32
  inb_S1x64_S1x64_0_0 : ∀ a, (![0, 0] : Fin 2 → Nat) a + S1x64.size a ≤ S1x64.size a
  h_S1x64 : 0 < S1x64.numel
  inb_S20000x64_S20000x64_0_0 : ∀ a, (![0, 0] : Fin 2 → Nat) a + S20000x64.size a ≤ S20000x64.size a
  h_S20000x64 : 0 < S20000x64.numel
  bcast_S1400000x1_S1400000x64_0_1 : S1400000x1.BroadcastsInDim S1400000x64 (![0, 1] : Fin 2 → Fin S1400000x64.rank)
  bcast_S_S200000x64 : S_.BroadcastsInDim S200000x64 (![] : Fin 0 → Fin S200000x64.rank)
  shapeCasts_S64_S1x64 : S64.ShapeCasts S1x64
  shapeCasts_S20000x64_S20000x64 : S20000x64.ShapeCasts S20000x64
  shapeCasts_S1x64_S1x64 : S1x64.ShapeCasts S1x64
  broadcasts_S1x64_S20000x64 : S1x64.Broadcasts S20000x64
  slices_S10x64x64_S1x64x64_0_0_0 : S10x64x64.Slices ![0, 0, 0] S1x64x64
  shapeCasts_S1x64x64_S64x64 : S1x64x64.ShapeCasts S64x64
  transposes_S64x64_S64x64_1_0 : S64x64.Transposes [1, 0] S64x64
  bcast_S_S64x64 : S_.BroadcastsInDim S64x64 (![] : Fin 0 → Fin S64x64.rank)
  inb_S64x64_S64x64_0_0 : ∀ a, (![0, 0] : Fin 2 → Nat) a + S64x64.size a ≤ S64x64.size a
  h_S64x64 : 0 < S64x64.numel
  shapeCasts_S64x64_S64x64 : S64x64.ShapeCasts S64x64
  slices_S10x64x64_S1x64x64_1_0_0 : S10x64x64.Slices ![1, 0, 0] S1x64x64
  slices_S10x64x64_S1x64x64_2_0_0 : S10x64x64.Slices ![2, 0, 0] S1x64x64
  slices_S10x64x64_S1x64x64_3_0_0 : S10x64x64.Slices ![3, 0, 0] S1x64x64
  slices_S10x64x64_S1x64x64_4_0_0 : S10x64x64.Slices ![4, 0, 0] S1x64x64
  slices_S10x64x64_S1x64x64_5_0_0 : S10x64x64.Slices ![5, 0, 0] S1x64x64
  slices_S10x64x64_S1x64x64_6_0_0 : S10x64x64.Slices ![6, 0, 0] S1x64x64
  slices_S10x64x64_S1x64x64_7_0_0 : S10x64x64.Slices ![7, 0, 0] S1x64x64
  slices_S10x64x64_S1x64x64_8_0_0 : S10x64x64.Slices ![8, 0, 0] S1x64x64
  slices_S10x64x64_S1x64x64_9_0_0 : S10x64x64.Slices ![9, 0, 0] S1x64x64
  inb_S64x1_S64x1_0_0 : ∀ a, (![0, 0] : Fin 2 → Nat) a + S64x1.size a ≤ S64x1.size a
  h_S64x1 : 0 < S64x1.numel
  bcast_S_S200000x1 : S_.BroadcastsInDim S200000x1 (![] : Fin 0 → Fin S200000x1.rank)
  shapeCasts_S1_S1x1 : S1.ShapeCasts S1x1
  shapeCasts_S20000x1_S20000x1 : S20000x1.ShapeCasts S20000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S20000x1 : S1x1.Broadcasts S20000x1
  bcast_S200000x1_S200000x1x1_0_1 : S200000x1.BroadcastsInDim S200000x1x1 (![0, 1] : Fin 2 → Fin S200000x1x1.rank)
  scatter_S200000_S1400000x1_S1400000_n_0_0_1_wf : ScatterDims.WF S200000 S1400000x1 S1400000 [] [0] [0] 1
  gather_S200000_S1400000x1_S1400000_n_0_n_n_0_1_1_wf : GatherDims.WF S200000 S1400000x1 S1400000 [] [0] [] [0] [] 1 ![1]
  dot_S20000x1_S1x64_S20000x64_1_0_0_1_n_n_wf : DotDims.WF S20000x1 S1x64 S20000x64 [1] [0] [0] [1] [] []
  gather_S200000x64_S1400000x1_S1400000x64_1_0_n_n_0_1_164_wf : GatherDims.WF S200000x64 S1400000x1 S1400000x64 [1] [0] [] [0] [] 1 ![1, 64]
  scatter_S200000x64_S1400000x1_S1400000x64_1_0_0_1_wf : ScatterDims.WF S200000x64 S1400000x1 S1400000x64 [1] [0] [0] 1
  dot_S64x64_S64x64_S64x64_1_0_0_1_n_n_wf : DotDims.WF S64x64 S64x64 S64x64 [1] [0] [0] [1] [] []
  dot_S20000x64_S64x64_S20000x64_1_0_0_1_n_n_wf : DotDims.WF S20000x64 S64x64 S20000x64 [1] [0] [0] [1] [] []
  dot_S20000x64_S64x1_S20000x1_1_0_0_1_n_n_wf : DotDims.WF S20000x64 S64x1 S20000x1 [1] [0] [0] [1] [] []
  gather_S200000x1_S1400000x1_S1400000x1_1_0_n_n_0_1_11_wf : GatherDims.WF S200000x1 S1400000x1 S1400000x1 [1] [0] [] [0] [] 1 ![1, 1]
  scatter_S200000x1_S1400000x1_S1400000x1_1_0_0_1_wf : ScatterDims.WF S200000x1 S1400000x1 S1400000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x1.size a ≤ S200000x1.size a
  hwx0_0 : ∀ i : grid0.Coords, EltTy.bits .f32 = 32 ∨ (Rect.block (s := S200000x1) S20000x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x64.size a ≤ S1x64.size a
  hwx0_1 : ∀ i : grid0.Coords, EltTy.bits .f32 = 32 ∨ (Rect.block (s := S1x64) S1x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S20000x64.size a ≤ S200000x64.size a
  hwx0_2 : ∀ i : grid0.Coords, EltTy.bits .f32 = 32 ∨ (Rect.block (s := S200000x64) S20000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S20000x64.size a ≤ S200000x64.size a
  hwx1_0 : ∀ i : grid1.Coords, EltTy.bits .f32 = 32 ∨ (Rect.block (s := S200000x64) S20000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S20000x64.size a ≤ S200000x64.size a
  hwx1_2 : ∀ i : grid1.Coords, EltTy.bits .f32 = 32 ∨ (Rect.block (s := S200000x64) S20000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S20000x64.size a ≤ S200000x64.size a
  hwx2_0 : ∀ i : grid2.Coords, EltTy.bits .f32 = 32 ∨ (Rect.block (s := S200000x64) S20000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S20000x64.size a ≤ S200000x64.size a
  hwx2_2 : ∀ i : grid2.Coords, EltTy.bits .f32 = 32 ∨ (Rect.block (s := S200000x64) S20000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S20000x64.size a ≤ S200000x64.size a
  hwx3_0 : ∀ i : grid3.Coords, EltTy.bits .f32 = 32 ∨ (Rect.block (s := S200000x64) S20000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S20000x64.size a ≤ S200000x64.size a
  hwx3_2 : ∀ i : grid3.Coords, EltTy.bits .f32 = 32 ∨ (Rect.block (s := S200000x64) S20000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S20000x64.size a ≤ S200000x64.size a
  hwx4_0 : ∀ i : grid4.Coords, EltTy.bits .f32 = 32 ∨ (Rect.block (s := S200000x64) S20000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S20000x64.size a ≤ S200000x64.size a
  hwx4_2 : ∀ i : grid4.Coords, EltTy.bits .f32 = 32 ∨ (Rect.block (s := S200000x64) S20000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S20000x64.size a ≤ S200000x64.size a
  hwx5_0 : ∀ i : grid5.Coords, EltTy.bits .f32 = 32 ∨ (Rect.block (s := S200000x64) S20000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x64.size a ≤ S64x64.size a
  hwx5_1 : ∀ i : grid5.Coords, EltTy.bits .f32 = 32 ∨ (Rect.block (s := S64x64) S64x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S20000x64.size a ≤ S200000x64.size a
  hwx5_2 : ∀ i : grid5.Coords, EltTy.bits .f32 = 32 ∨ (Rect.block (s := S200000x64) S20000x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S20000x64.size a ≤ S200000x64.size a
  hwx6_0 : ∀ i : grid6.Coords, EltTy.bits .f32 = 32 ∨ (Rect.block (s := S200000x64) S20000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x64.size a ≤ S64x64.size a
  hwx6_1 : ∀ i : grid6.Coords, EltTy.bits .f32 = 32 ∨ (Rect.block (s := S64x64) S64x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S20000x64.size a ≤ S200000x64.size a
  hwx6_2 : ∀ i : grid6.Coords, EltTy.bits .f32 = 32 ∨ (Rect.block (s := S200000x64) S20000x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S20000x64.size a ≤ S200000x64.size a
  hwx7_0 : ∀ i : grid7.Coords, EltTy.bits .f32 = 32 ∨ (Rect.block (s := S200000x64) S20000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S64x64.size a ≤ S64x64.size a
  hwx7_1 : ∀ i : grid7.Coords, EltTy.bits .f32 = 32 ∨ (Rect.block (s := S64x64) S64x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S20000x64.size a ≤ S200000x64.size a
  hwx7_2 : ∀ i : grid7.Coords, EltTy.bits .f32 = 32 ∨ (Rect.block (s := S200000x64) S20000x64.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S20000x64.size a ≤ S200000x64.size a
  hwx8_0 : ∀ i : grid8.Coords, EltTy.bits .f32 = 32 ∨ (Rect.block (s := S200000x64) S20000x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S64x64.size a ≤ S64x64.size a
  hwx8_1 : ∀ i : grid8.Coords, EltTy.bits .f32 = 32 ∨ (Rect.block (s := S64x64) S64x64.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S20000x64.size a ≤ S200000x64.size a
  hwx8_2 : ∀ i : grid8.Coords, EltTy.bits .f32 = 32 ∨ (Rect.block (s := S200000x64) S20000x64.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S20000x64.size a ≤ S200000x64.size a
  hwx9_0 : ∀ i : grid9.Coords, EltTy.bits .f32 = 32 ∨ (Rect.block (s := S200000x64) S20000x64.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S64x64.size a ≤ S64x64.size a
  hwx9_1 : ∀ i : grid9.Coords, EltTy.bits .f32 = 32 ∨ (Rect.block (s := S64x64) S64x64.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S20000x64.size a ≤ S200000x64.size a
  hwx9_2 : ∀ i : grid9.Coords, EltTy.bits .f32 = 32 ∨ (Rect.block (s := S200000x64) S20000x64.size (cc9_transform_2 i) (hinb9_2 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S20000x64.size a ≤ S200000x64.size a
  hwx10_0 : ∀ i : grid10.Coords, EltTy.bits .f32 = 32 ∨ (Rect.block (s := S200000x64) S20000x64.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S64x64.size a ≤ S64x64.size a
  hwx10_1 : ∀ i : grid10.Coords, EltTy.bits .f32 = 32 ∨ (Rect.block (s := S64x64) S64x64.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S20000x64.size a ≤ S200000x64.size a
  hwx10_2 : ∀ i : grid10.Coords, EltTy.bits .f32 = 32 ∨ (Rect.block (s := S200000x64) S20000x64.size (cc10_transform_2 i) (hinb10_2 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S20000x64.size a ≤ S200000x64.size a
  hwx11_0 : ∀ i : grid11.Coords, EltTy.bits .f32 = 32 ∨ (Rect.block (s := S200000x64) S20000x64.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S64x64.size a ≤ S64x64.size a
  hwx11_1 : ∀ i : grid11.Coords, EltTy.bits .f32 = 32 ∨ (Rect.block (s := S64x64) S64x64.size (cc11_transform_1 i) (hinb11_1 i)).WholeWords (EltTy.packing .f32)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S20000x64.size a ≤ S200000x64.size a
  hwx11_2 : ∀ i : grid11.Coords, EltTy.bits .f32 = 32 ∨ (Rect.block (s := S200000x64) S20000x64.size (cc11_transform_2 i) (hinb11_2 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S20000x64.size a ≤ S200000x64.size a
  hwx12_0 : ∀ i : grid12.Coords, EltTy.bits .f32 = 32 ∨ (Rect.block (s := S200000x64) S20000x64.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S64x1.size a ≤ S64x1.size a
  hwx12_1 : ∀ i : grid12.Coords, EltTy.bits .f32 = 32 ∨ (Rect.block (s := S64x1) S64x1.size (cc12_transform_1 i) (hinb12_1 i)).WholeWords (EltTy.packing .f32)
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S20000x1.size a ≤ S200000x1.size a
  hwx12_2 : ∀ i : grid12.Coords, EltTy.bits .f32 = 32 ∨ (Rect.block (s := S200000x1) S20000x1.size (cc12_transform_2 i) (hinb12_2 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S20000x1.size a ≤ S200000x1.size a
  hwx13_0 : ∀ i : grid13.Coords, EltTy.bits .f32 = 32 ∨ (Rect.block (s := S200000x1) S20000x1.size (cc13_transform_0 i) (hinb13_0 i)).WholeWords (EltTy.packing .f32)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S1x1.size a ≤ S1x1.size a
  hwx13_1 : ∀ i : grid13.Coords, EltTy.bits .f32 = 32 ∨ (Rect.block (s := S1x1) S1x1.size (cc13_transform_1 i) (hinb13_1 i)).WholeWords (EltTy.packing .f32)
  hstage13_2 : ∀ j, (stage13_2 j).IsWhole
  nbuf13_2 : grid13.bufCount reads13_2 false = 2
  hreads13_2 : ∀ i i' : grid13.Coords, (∀ a, reads13_2 a = true → i a = i' a) → cc13_transform_2 i = cc13_transform_2 i'
  hinb13_2 : ∀ (i : grid13.Coords) a, (cc13_transform_2 i a + 1) * S20000x1.size a ≤ S200000x1.size a
  hwx13_2 : ∀ i : grid13.Coords, EltTy.bits .f32 = 32 ∨ (Rect.block (s := S200000x1) S20000x1.size (cc13_transform_2 i) (hinb13_2 i)).WholeWords (EltTy.packing .f32)

variable [Facts₀]

def scatter_S200000_S1400000x1_S1400000_n_0_0_1 : ScatterDims S200000 S1400000x1 S1400000 where
  updateWindowDims := []
  insertedWindowDims := [0]
  scatterDimsToOperandDims := [0]
  indexVectorDim := 1
  wf := scatter_S200000_S1400000x1_S1400000_n_0_0_1_wf
def gather_S200000_S1400000x1_S1400000_n_0_n_n_0_1_1 : GatherDims S200000 S1400000x1 S1400000 where
  offsetDims := []
  collapsedSliceDims := [0]
  operandBatchingDims := []
  startIndicesBatchingDims := []
  startIndexMap := [0]
  indexVectorDim := 1
  sliceSizes := ![1]
  wf := gather_S200000_S1400000x1_S1400000_n_0_n_n_0_1_1_wf
def dot_S20000x1_S1x64_S20000x64_1_0_0_1_n_n : DotDims S20000x1 S1x64 S20000x64 where
  lhsContracting := [1]
  rhsContracting := [0]
  lhsNonContracting := [0]
  rhsNonContracting := [1]
  lhsBatch := []
  rhsBatch := []
  wf := dot_S20000x1_S1x64_S20000x64_1_0_0_1_n_n_wf
def gather_S200000x64_S1400000x1_S1400000x64_1_0_n_n_0_1_164 : GatherDims S200000x64 S1400000x1 S1400000x64 where
  offsetDims := [1]
  collapsedSliceDims := [0]
  operandBatchingDims := []
  startIndicesBatchingDims := []
  startIndexMap := [0]
  indexVectorDim := 1
  sliceSizes := ![1, 64]
  wf := gather_S200000x64_S1400000x1_S1400000x64_1_0_n_n_0_1_164_wf
def scatter_S200000x64_S1400000x1_S1400000x64_1_0_0_1 : ScatterDims S200000x64 S1400000x1 S1400000x64 where
  updateWindowDims := [1]
  insertedWindowDims := [0]
  scatterDimsToOperandDims := [0]
  indexVectorDim := 1
  wf := scatter_S200000x64_S1400000x1_S1400000x64_1_0_0_1_wf
def dot_S64x64_S64x64_S64x64_1_0_0_1_n_n : DotDims S64x64 S64x64 S64x64 where
  lhsContracting := [1]
  rhsContracting := [0]
  lhsNonContracting := [0]
  rhsNonContracting := [1]
  lhsBatch := []
  rhsBatch := []
  wf := dot_S64x64_S64x64_S64x64_1_0_0_1_n_n_wf
def dot_S20000x64_S64x64_S20000x64_1_0_0_1_n_n : DotDims S20000x64 S64x64 S20000x64 where
  lhsContracting := [1]
  rhsContracting := [0]
  lhsNonContracting := [0]
  rhsNonContracting := [1]
  lhsBatch := []
  rhsBatch := []
  wf := dot_S20000x64_S64x64_S20000x64_1_0_0_1_n_n_wf
def dot_S20000x64_S64x1_S20000x1_1_0_0_1_n_n : DotDims S20000x64 S64x1 S20000x1 where
  lhsContracting := [1]
  rhsContracting := [0]
  lhsNonContracting := [0]
  rhsNonContracting := [1]
  lhsBatch := []
  rhsBatch := []
  wf := dot_S20000x64_S64x1_S20000x1_1_0_0_1_n_n_wf
def gather_S200000x1_S1400000x1_S1400000x1_1_0_n_n_0_1_11 : GatherDims S200000x1 S1400000x1 S1400000x1 where
  offsetDims := [1]
  collapsedSliceDims := [0]
  operandBatchingDims := []
  startIndicesBatchingDims := []
  startIndexMap := [0]
  indexVectorDim := 1
  sliceSizes := ![1, 1]
  wf := gather_S200000x1_S1400000x1_S1400000x1_1_0_n_n_0_1_11_wf
def scatter_S200000x1_S1400000x1_S1400000x1_1_0_0_1 : ScatterDims S200000x1 S1400000x1 S1400000x1 where
  updateWindowDims := [1]
  insertedWindowDims := [0]
  scatterDimsToOperandDims := [0]
  indexVectorDim := 1
  wf := scatter_S200000x1_S1400000x1_S1400000x1_1_0_0_1_wf

abbrev win0_0 : Pipeline.Window sig grid0 :=
  Pipeline.Window.ofSpec (Memref.whole main_arg0) S20000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S20000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S20000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S20000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v112) S20000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v99) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v113) S20000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v176) S20000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v163) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v177) S20000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v240) S20000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v227) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v241) S20000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v304) S20000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v291) S64x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v305) S20000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v368) S20000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v355) S64x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v369) S20000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v432) S20000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v419) S64x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v433) S20000x64.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v496) S20000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v483) S64x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v497) S20000x64.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v560) S20000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v547) S64x64.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v561) S20000x64.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev win10_0 : Pipeline.Window sig grid10 :=
  Pipeline.Window.ofSpec (Memref.whole main_v624) S20000x64.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v611) S64x64.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v625) S20000x64.size cc10_transform_2 reads10_2 true false 2 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev win11_0 : Pipeline.Window sig grid11 :=
  Pipeline.Window.ofSpec (Memref.whole main_v688) S20000x64.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v675) S64x64.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v689) S20000x64.size cc11_transform_2 reads11_2 true false 2 stage11_2 sem11_2
    hrank11 hreads11_2 hinb11_2 nbuf11_2 (Memref.isWhole_whole _) hwx11_2 hstage11_2

abbrev win11 : Fin 3 → Pipeline.Window sig grid11 := fun | 0 => win11_0 | 1 => win11_1 | 2 => win11_2 | ⟨_ + 3, h⟩ => absurd h (Nat.not_lt.2 (Nat.le_add_left _ _))
abbrev spec11 : Fin 3 → Pipeline.WinSpec sig grid11.rank := fun w => (win11 w).toWinSpec

abbrev win12_0 : Pipeline.Window sig grid12 :=
  Pipeline.Window.ofSpec (Memref.whole main_v689) S20000x64.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_arg6) S64x1.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v690) S20000x1.size cc12_transform_2 reads12_2 true false 2 stage12_2 sem12_2
    hrank12 hreads12_2 hinb12_2 nbuf12_2 (Memref.isWhole_whole _) hwx12_2 hstage12_2

abbrev win12 : Fin 3 → Pipeline.Window sig grid12 := fun | 0 => win12_0 | 1 => win12_1 | 2 => win12_2 | ⟨_ + 3, h⟩ => absurd h (Nat.not_lt.2 (Nat.le_add_left _ _))
abbrev spec12 : Fin 3 → Pipeline.WinSpec sig grid12.rank := fun w => (win12 w).toWinSpec

abbrev win13_0 : Pipeline.Window sig grid13 :=
  Pipeline.Window.ofSpec (Memref.whole main_v702) S20000x1.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v703) S1x1.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v704) S20000x1.size cc13_transform_2 reads13_2 true false 2 stage13_2 sem13_2
    hrank13 hreads13_2 hinb13_2 nbuf13_2 (Memref.isWhole_whole _) hwx13_2 hstage13_2

abbrev win13 : Fin 3 → Pipeline.Window sig grid13 := fun | 0 => win13_0 | 1 => win13_1 | 2 => win13_2 | ⟨_ + 3, h⟩ => absurd h (Nat.not_lt.2 (Nat.le_add_left _ _))
abbrev spec13 : Fin 3 → Pipeline.WinSpec sig grid13.rank := fun w => (win13 w).toWinSpec

class Facts : Prop extends Facts₀ where

variable [Facts]
-- ==== ReferenceIdeal.lean ====
abbrev S200000x1 : Shape := ⟨2, ![200000, 1]⟩
abbrev S2x1200000 : Shape := ⟨2, ![2, 1200000]⟩
abbrev S1200000 : Shape := ⟨1, ![1200000]⟩
abbrev S1x64 : Shape := ⟨2, ![1, 64]⟩
abbrev S64 : Shape := ⟨1, ![64]⟩
abbrev S10x64x64 : Shape := ⟨3, ![10, 64, 64]⟩
abbrev S64x1 : Shape := ⟨2, ![64, 1]⟩
abbrev S1 : Shape := ⟨1, ![1]⟩
abbrev S1x1200000 : Shape := ⟨2, ![1, 1200000]⟩
abbrev S200000 : Shape := ⟨1, ![200000]⟩
abbrev S1400000 : Shape := ⟨1, ![1400000]⟩
abbrev S_ : Shape := ⟨0, ![]⟩
abbrev S1400000x1 : Shape := ⟨2, ![1400000, 1]⟩
abbrev S200000x64 : Shape := ⟨2, ![200000, 64]⟩
abbrev S1400000x64 : Shape := ⟨2, ![1400000, 64]⟩
abbrev S1x64x64 : Shape := ⟨3, ![1, 64, 64]⟩
abbrev S64x64 : Shape := ⟨2, ![64, 64]⟩
abbrev S1x1 : Shape := ⟨2, ![1, 1]⟩
abbrev S200000x1x1 : Shape := ⟨3, ![200000, 1, 1]⟩

abbrev nBuf : Space → Nat
  | .hbm => 873
  | .vmem => 0
  | .smem => 0
  | _ => 0

abbrev hbmTy0_0 (i : Nat) : BufTy := match i % 128 with
  | 0 => ⟨S200000x1, .f32⟩
  | 1 => ⟨S2x1200000, .i32⟩
  | 2 => ⟨S1200000, .f32⟩
  | 3 => ⟨S1x64, .f32⟩
  | 4 => ⟨S64, .f32⟩
  | 5 => ⟨S10x64x64, .f32⟩
  | 6 => ⟨S64x1, .f32⟩
  | 7 => ⟨S1, .f32⟩
  | 8 => ⟨S1x1200000, .i32⟩
  | 9 => ⟨S1200000, .i32⟩
  | 10 => ⟨S1x1200000, .i32⟩
  | 11 => ⟨S1200000, .i32⟩
  | 12 => ⟨S200000, .i32⟩
  | 13 => ⟨S1400000, .i32⟩
  | 14 => ⟨S1400000, .i32⟩
  | 15 => ⟨S_, .f32⟩
  | 16 => ⟨S200000, .f32⟩
  | 17 => ⟨S1400000, .f32⟩
  | 18 => ⟨S_, .f32⟩
  | 19 => ⟨S200000, .f32⟩
  | 20 => ⟨S1400000x1, .i32⟩
  | 21 => ⟨S200000, .f32⟩
  | 22 => ⟨S_, .f32⟩
  | 23 => ⟨S200000, .f32⟩
  | 24 => ⟨S200000, .i1⟩
  | 25 => ⟨S_, .f32⟩
  | 26 => ⟨S200000, .f32⟩
  | 27 => ⟨S200000, .f32⟩
  | 28 => ⟨S200000, .f32⟩
  | 29 => ⟨S_, .f32⟩
  | 30 => ⟨S_, .f32⟩
  | 31 => ⟨S200000, .f32⟩
  | 32 => ⟨S200000, .f32⟩
  | 33 => ⟨S_, .i32⟩
  | 34 => ⟨S1400000, .i32⟩
  | 35 => ⟨S1400000, .i1⟩
  | 36 => ⟨S_, .i32⟩
  | 37 => ⟨S1400000, .i32⟩
  | 38 => ⟨S1400000, .i32⟩
  | 39 => ⟨S1400000, .i32⟩
  | 40 => ⟨S1400000x1, .i32⟩
  | 41 => ⟨S1400000, .f32⟩
  | 42 => ⟨S1400000, .f32⟩
  | 43 => ⟨S_, .i32⟩
  | 44 => ⟨S1400000, .i32⟩
  | 45 => ⟨S1400000, .i1⟩
  | 46 => ⟨S_, .i32⟩
  | 47 => ⟨S1400000, .i32⟩
  | 48 => ⟨S1400000, .i32⟩
  | 49 => ⟨S1400000, .i32⟩
  | 50 => ⟨S1400000x1, .i32⟩
  | 51 => ⟨S1400000, .f32⟩
  | 52 => ⟨S1400000, .f32⟩
  | 53 => ⟨S200000x64, .f32⟩
  | 54 => ⟨S1400000x1, .f32⟩
  | 55 => ⟨S_, .i32⟩
  | 56 => ⟨S1400000, .i32⟩
  | 57 => ⟨S1400000, .i1⟩
  | 58 => ⟨S_, .i32⟩
  | 59 => ⟨S1400000, .i32⟩
  | 60 => ⟨S1400000, .i32⟩
  | 61 => ⟨S1400000, .i32⟩
  | 62 => ⟨S1400000x1, .i32⟩
  | 63 => ⟨S1400000x64, .f32⟩
  | 64 => ⟨S1400000x64, .f32⟩
  | 65 => ⟨S1400000x64, .f32⟩
  | 66 => ⟨S_, .f32⟩
  | 67 => ⟨S200000x64, .f32⟩
  | 68 => ⟨S1400000x1, .i32⟩
  | 69 => ⟨S200000x64, .f32⟩
  | 70 => ⟨S1x64, .f32⟩
  | 71 => ⟨S200000x64, .f32⟩
  | 72 => ⟨S200000x64, .f32⟩
  | 73 => ⟨S1x64x64, .f32⟩
  | 74 => ⟨S64x64, .f32⟩
  | 75 => ⟨S64x64, .f32⟩
  | 76 => ⟨S64x64, .f32⟩
  | 77 => ⟨S64x64, .i32⟩
  | 78 => ⟨S64x64, .i32⟩
  | 79 => ⟨S_, .i32⟩
  | 80 => ⟨S64x64, .i32⟩
  | 81 => ⟨S64x64, .i32⟩
  | 82 => ⟨S64x64, .i1⟩
  | 83 => ⟨S64x64, .f32⟩
  | 84 => ⟨S64x64, .f32⟩
  | 85 => ⟨S_, .f32⟩
  | 86 => ⟨S64x64, .f32⟩
  | 87 => ⟨S64x64, .f32⟩
  | 88 => ⟨S64x64, .f32⟩
  | 89 => ⟨S64x64, .f32⟩
  | 90 => ⟨S_, .f32⟩
  | 91 => ⟨S64x64, .f32⟩
  | 92 => ⟨S64x64, .f32⟩
  | 93 => ⟨S64x64, .f32⟩
  | 94 => ⟨S64x64, .f32⟩
  | 95 => ⟨S_, .f32⟩
  | 96 => ⟨S64x64, .f32⟩
  | 97 => ⟨S64x64, .f32⟩
  | 98 => ⟨S64x64, .f32⟩
  | 99 => ⟨S64x64, .f32⟩
  | 100 => ⟨S_, .f32⟩
  | 101 => ⟨S64x64, .f32⟩
  | 102 => ⟨S64x64, .f32⟩
  | 103 => ⟨S64x64, .f32⟩
  | 104 => ⟨S64x64, .f32⟩
  | 105 => ⟨S_, .f32⟩
  | 106 => ⟨S64x64, .f32⟩
  | 107 => ⟨S64x64, .f32⟩
  | 108 => ⟨S64x64, .f32⟩
  | 109 => ⟨S64x64, .f32⟩
  | 110 => ⟨S_, .f32⟩
  | 111 => ⟨S64x64, .f32⟩
  | 112 => ⟨S64x64, .f32⟩
  | 113 => ⟨S64x64, .f32⟩
  | 114 => ⟨S64x64, .f32⟩
  | 115 => ⟨S_, .f32⟩
  | 116 => ⟨S64x64, .f32⟩
  | 117 => ⟨S64x64, .f32⟩
  | 118 => ⟨S64x64, .f32⟩
  | 119 => ⟨S64x64, .f32⟩
  | 120 => ⟨S_, .f32⟩
  | 121 => ⟨S64x64, .f32⟩
  | 122 => ⟨S64x64, .f32⟩
  | 123 => ⟨S64x64, .f32⟩
  | 124 => ⟨S64x64, .f32⟩
  | 125 => ⟨S_, .f32⟩
  | 126 => ⟨S64x64, .f32⟩
  | 127 => ⟨S64x64, .f32⟩
  | _ => ⟨S200000x1, .f32⟩

abbrev hbmTy0_1 (i : Nat) : BufTy := match i % 128 with
  | 0 => ⟨S64x64, .f32⟩
  | 1 => ⟨S64x64, .f32⟩
  | 2 => ⟨S_, .f32⟩
  | 3 => ⟨S64x64, .f32⟩
  | 4 => ⟨S64x64, .f32⟩
  | 5 => ⟨S64x64, .f32⟩
  | 6 => ⟨S1400000x1, .f32⟩
  | 7 => ⟨S_, .i32⟩
  | 8 => ⟨S1400000, .i32⟩
  | 9 => ⟨S1400000, .i1⟩
  | 10 => ⟨S_, .i32⟩
  | 11 => ⟨S1400000, .i32⟩
  | 12 => ⟨S1400000, .i32⟩
  | 13 => ⟨S1400000, .i32⟩
  | 14 => ⟨S1400000x1, .i32⟩
  | 15 => ⟨S1400000x64, .f32⟩
  | 16 => ⟨S1400000x64, .f32⟩
  | 17 => ⟨S1400000x64, .f32⟩
  | 18 => ⟨S_, .f32⟩
  | 19 => ⟨S200000x64, .f32⟩
  | 20 => ⟨S1400000x1, .i32⟩
  | 21 => ⟨S200000x64, .f32⟩
  | 22 => ⟨S200000x64, .f32⟩
  | 23 => ⟨S1x64x64, .f32⟩
  | 24 => ⟨S64x64, .f32⟩
  | 25 => ⟨S64x64, .f32⟩
  | 26 => ⟨S64x64, .f32⟩
  | 27 => ⟨S64x64, .i32⟩
  | 28 => ⟨S64x64, .i32⟩
  | 29 => ⟨S_, .i32⟩
  | 30 => ⟨S64x64, .i32⟩
  | 31 => ⟨S64x64, .i32⟩
  | 32 => ⟨S64x64, .i1⟩
  | 33 => ⟨S64x64, .f32⟩
  | 34 => ⟨S64x64, .f32⟩
  | 35 => ⟨S_, .f32⟩
  | 36 => ⟨S64x64, .f32⟩
  | 37 => ⟨S64x64, .f32⟩
  | 38 => ⟨S64x64, .f32⟩
  | 39 => ⟨S64x64, .f32⟩
  | 40 => ⟨S_, .f32⟩
  | 41 => ⟨S64x64, .f32⟩
  | 42 => ⟨S64x64, .f32⟩
  | 43 => ⟨S64x64, .f32⟩
  | 44 => ⟨S64x64, .f32⟩
  | 45 => ⟨S_, .f32⟩
  | 46 => ⟨S64x64, .f32⟩
  | 47 => ⟨S64x64, .f32⟩
  | 48 => ⟨S64x64, .f32⟩
  | 49 => ⟨S64x64, .f32⟩
  | 50 => ⟨S_, .f32⟩
  | 51 => ⟨S64x64, .f32⟩
  | 52 => ⟨S64x64, .f32⟩
  | 53 => ⟨S64x64, .f32⟩
  | 54 => ⟨S64x64, .f32⟩
  | 55 => ⟨S_, .f32⟩
  | 56 => ⟨S64x64, .f32⟩
  | 57 => ⟨S64x64, .f32⟩
  | 58 => ⟨S64x64, .f32⟩
  | 59 => ⟨S64x64, .f32⟩
  | 60 => ⟨S_, .f32⟩
  | 61 => ⟨S64x64, .f32⟩
  | 62 => ⟨S64x64, .f32⟩
  | 63 => ⟨S64x64, .f32⟩
  | 64 => ⟨S64x64, .f32⟩
  | 65 => ⟨S_, .f32⟩
  | 66 => ⟨S64x64, .f32⟩
  | 67 => ⟨S64x64, .f32⟩
  | 68 => ⟨S64x64, .f32⟩
  | 69 => ⟨S64x64, .f32⟩
  | 70 => ⟨S_, .f32⟩
  | 71 => ⟨S64x64, .f32⟩
  | 72 => ⟨S64x64, .f32⟩
  | 73 => ⟨S64x64, .f32⟩
  | 74 => ⟨S64x64, .f32⟩
  | 75 => ⟨S_, .f32⟩
  | 76 => ⟨S64x64, .f32⟩
  | 77 => ⟨S64x64, .f32⟩
  | 78 => ⟨S64x64, .f32⟩
  | 79 => ⟨S64x64, .f32⟩
  | 80 => ⟨S_, .f32⟩
  | 81 => ⟨S64x64, .f32⟩
  | 82 => ⟨S64x64, .f32⟩
  | 83 => ⟨S64x64, .f32⟩
  | 84 => ⟨S1400000x1, .f32⟩
  | 85 => ⟨S_, .i32⟩
  | 86 => ⟨S1400000, .i32⟩
  | 87 => ⟨S1400000, .i1⟩
  | 88 => ⟨S_, .i32⟩
  | 89 => ⟨S1400000, .i32⟩
  | 90 => ⟨S1400000, .i32⟩
  | 91 => ⟨S1400000, .i32⟩
  | 92 => ⟨S1400000x1, .i32⟩
  | 93 => ⟨S1400000x64, .f32⟩
  | 94 => ⟨S1400000x64, .f32⟩
  | 95 => ⟨S1400000x64, .f32⟩
  | 96 => ⟨S_, .f32⟩
  | 97 => ⟨S200000x64, .f32⟩
  | 98 => ⟨S1400000x1, .i32⟩
  | 99 => ⟨S200000x64, .f32⟩
  | 100 => ⟨S200000x64, .f32⟩
  | 101 => ⟨S1x64x64, .f32⟩
  | 102 => ⟨S64x64, .f32⟩
  | 103 => ⟨S64x64, .f32⟩
  | 104 => ⟨S64x64, .f32⟩
  | 105 => ⟨S64x64, .i32⟩
  | 106 => ⟨S64x64, .i32⟩
  | 107 => ⟨S_, .i32⟩
  | 108 => ⟨S64x64, .i32⟩
  | 109 => ⟨S64x64, .i32⟩
  | 110 => ⟨S64x64, .i1⟩
  | 111 => ⟨S64x64, .f32⟩
  | 112 => ⟨S64x64, .f32⟩
  | 113 => ⟨S_, .f32⟩
  | 114 => ⟨S64x64, .f32⟩
  | 115 => ⟨S64x64, .f32⟩
  | 116 => ⟨S64x64, .f32⟩
  | 117 => ⟨S64x64, .f32⟩
  | 118 => ⟨S_, .f32⟩
  | 119 => ⟨S64x64, .f32⟩
  | 120 => ⟨S64x64, .f32⟩
  | 121 => ⟨S64x64, .f32⟩
  | 122 => ⟨S64x64, .f32⟩
  | 123 => ⟨S_, .f32⟩
  | 124 => ⟨S64x64, .f32⟩
  | 125 => ⟨S64x64, .f32⟩
  | 126 => ⟨S64x64, .f32⟩
  | 127 => ⟨S64x64, .f32⟩
  | _ => ⟨S200000x1, .f32⟩

abbrev hbmTy0_2 (i : Nat) : BufTy := match i % 128 with
  | 0 => ⟨S_, .f32⟩
  | 1 => ⟨S64x64, .f32⟩
  | 2 => ⟨S64x64, .f32⟩
  | 3 => ⟨S64x64, .f32⟩
  | 4 => ⟨S64x64, .f32⟩
  | 5 => ⟨S_, .f32⟩
  | 6 => ⟨S64x64, .f32⟩
  | 7 => ⟨S64x64, .f32⟩
  | 8 => ⟨S64x64, .f32⟩
  | 9 => ⟨S64x64, .f32⟩
  | 10 => ⟨S_, .f32⟩
  | 11 => ⟨S64x64, .f32⟩
  | 12 => ⟨S64x64, .f32⟩
  | 13 => ⟨S64x64, .f32⟩
  | 14 => ⟨S64x64, .f32⟩
  | 15 => ⟨S_, .f32⟩
  | 16 => ⟨S64x64, .f32⟩
  | 17 => ⟨S64x64, .f32⟩
  | 18 => ⟨S64x64, .f32⟩
  | 19 => ⟨S64x64, .f32⟩
  | 20 => ⟨S_, .f32⟩
  | 21 => ⟨S64x64, .f32⟩
  | 22 => ⟨S64x64, .f32⟩
  | 23 => ⟨S64x64, .f32⟩
  | 24 => ⟨S64x64, .f32⟩
  | 25 => ⟨S_, .f32⟩
  | 26 => ⟨S64x64, .f32⟩
  | 27 => ⟨S64x64, .f32⟩
  | 28 => ⟨S64x64, .f32⟩
  | 29 => ⟨S64x64, .f32⟩
  | 30 => ⟨S_, .f32⟩
  | 31 => ⟨S64x64, .f32⟩
  | 32 => ⟨S64x64, .f32⟩
  | 33 => ⟨S64x64, .f32⟩
  | 34 => ⟨S1400000x1, .f32⟩
  | 35 => ⟨S_, .i32⟩
  | 36 => ⟨S1400000, .i32⟩
  | 37 => ⟨S1400000, .i1⟩
  | 38 => ⟨S_, .i32⟩
  | 39 => ⟨S1400000, .i32⟩
  | 40 => ⟨S1400000, .i32⟩
  | 41 => ⟨S1400000, .i32⟩
  | 42 => ⟨S1400000x1, .i32⟩
  | 43 => ⟨S1400000x64, .f32⟩
  | 44 => ⟨S1400000x64, .f32⟩
  | 45 => ⟨S1400000x64, .f32⟩
  | 46 => ⟨S_, .f32⟩
  | 47 => ⟨S200000x64, .f32⟩
  | 48 => ⟨S1400000x1, .i32⟩
  | 49 => ⟨S200000x64, .f32⟩
  | 50 => ⟨S200000x64, .f32⟩
  | 51 => ⟨S1x64x64, .f32⟩
  | 52 => ⟨S64x64, .f32⟩
  | 53 => ⟨S64x64, .f32⟩
  | 54 => ⟨S64x64, .f32⟩
  | 55 => ⟨S64x64, .i32⟩
  | 56 => ⟨S64x64, .i32⟩
  | 57 => ⟨S_, .i32⟩
  | 58 => ⟨S64x64, .i32⟩
  | 59 => ⟨S64x64, .i32⟩
  | 60 => ⟨S64x64, .i1⟩
  | 61 => ⟨S64x64, .f32⟩
  | 62 => ⟨S64x64, .f32⟩
  | 63 => ⟨S_, .f32⟩
  | 64 => ⟨S64x64, .f32⟩
  | 65 => ⟨S64x64, .f32⟩
  | 66 => ⟨S64x64, .f32⟩
  | 67 => ⟨S64x64, .f32⟩
  | 68 => ⟨S_, .f32⟩
  | 69 => ⟨S64x64, .f32⟩
  | 70 => ⟨S64x64, .f32⟩
  | 71 => ⟨S64x64, .f32⟩
  | 72 => ⟨S64x64, .f32⟩
  | 73 => ⟨S_, .f32⟩
  | 74 => ⟨S64x64, .f32⟩
  | 75 => ⟨S64x64, .f32⟩
  | 76 => ⟨S64x64, .f32⟩
  | 77 => ⟨S64x64, .f32⟩
  | 78 => ⟨S_, .f32⟩
  | 79 => ⟨S64x64, .f32⟩
  | 80 => ⟨S64x64, .f32⟩
  | 81 => ⟨S64x64, .f32⟩
  | 82 => ⟨S64x64, .f32⟩
  | 83 => ⟨S_, .f32⟩
  | 84 => ⟨S64x64, .f32⟩
  | 85 => ⟨S64x64, .f32⟩
  | 86 => ⟨S64x64, .f32⟩
  | 87 => ⟨S64x64, .f32⟩
  | 88 => ⟨S_, .f32⟩
  | 89 => ⟨S64x64, .f32⟩
  | 90 => ⟨S64x64, .f32⟩
  | 91 => ⟨S64x64, .f32⟩
  | 92 => ⟨S64x64, .f32⟩
  | 93 => ⟨S_, .f32⟩
  | 94 => ⟨S64x64, .f32⟩
  | 95 => ⟨S64x64, .f32⟩
  | 96 => ⟨S64x64, .f32⟩
  | 97 => ⟨S64x64, .f32⟩
  | 98 => ⟨S_, .f32⟩
  | 99 => ⟨S64x64, .f32⟩
  | 100 => ⟨S64x64, .f32⟩
  | 101 => ⟨S64x64, .f32⟩
  | 102 => ⟨S64x64, .f32⟩
  | 103 => ⟨S_, .f32⟩
  | 104 => ⟨S64x64, .f32⟩
  | 105 => ⟨S64x64, .f32⟩
  | 106 => ⟨S64x64, .f32⟩
  | 107 => ⟨S64x64, .f32⟩
  | 108 => ⟨S_, .f32⟩
  | 109 => ⟨S64x64, .f32⟩
  | 110 => ⟨S64x64, .f32⟩
  | 111 => ⟨S64x64, .f32⟩
  | 112 => ⟨S1400000x1, .f32⟩
  | 113 => ⟨S_, .i32⟩
  | 114 => ⟨S1400000, .i32⟩
  | 115 => ⟨S1400000, .i1⟩
  | 116 => ⟨S_, .i32⟩
  | 117 => ⟨S1400000, .i32⟩
  | 118 => ⟨S1400000, .i32⟩
  | 119 => ⟨S1400000, .i32⟩
  | 120 => ⟨S1400000x1, .i32⟩
  | 121 => ⟨S1400000x64, .f32⟩
  | 122 => ⟨S1400000x64, .f32⟩
  | 123 => ⟨S1400000x64, .f32⟩
  | 124 => ⟨S_, .f32⟩
  | 125 => ⟨S200000x64, .f32⟩
  | 126 => ⟨S1400000x1, .i32⟩
  | 127 => ⟨S200000x64, .f32⟩
  | _ => ⟨S200000x1, .f32⟩

abbrev hbmTy0_3 (i : Nat) : BufTy := match i % 128 with
  | 0 => ⟨S200000x64, .f32⟩
  | 1 => ⟨S1x64x64, .f32⟩
  | 2 => ⟨S64x64, .f32⟩
  | 3 => ⟨S64x64, .f32⟩
  | 4 => ⟨S64x64, .f32⟩
  | 5 => ⟨S64x64, .i32⟩
  | 6 => ⟨S64x64, .i32⟩
  | 7 => ⟨S_, .i32⟩
  | 8 => ⟨S64x64, .i32⟩
  | 9 => ⟨S64x64, .i32⟩
  | 10 => ⟨S64x64, .i1⟩
  | 11 => ⟨S64x64, .f32⟩
  | 12 => ⟨S64x64, .f32⟩
  | 13 => ⟨S_, .f32⟩
  | 14 => ⟨S64x64, .f32⟩
  | 15 => ⟨S64x64, .f32⟩
  | 16 => ⟨S64x64, .f32⟩
  | 17 => ⟨S64x64, .f32⟩
  | 18 => ⟨S_, .f32⟩
  | 19 => ⟨S64x64, .f32⟩
  | 20 => ⟨S64x64, .f32⟩
  | 21 => ⟨S64x64, .f32⟩
  | 22 => ⟨S64x64, .f32⟩
  | 23 => ⟨S_, .f32⟩
  | 24 => ⟨S64x64, .f32⟩
  | 25 => ⟨S64x64, .f32⟩
  | 26 => ⟨S64x64, .f32⟩
  | 27 => ⟨S64x64, .f32⟩
  | 28 => ⟨S_, .f32⟩
  | 29 => ⟨S64x64, .f32⟩
  | 30 => ⟨S64x64, .f32⟩
  | 31 => ⟨S64x64, .f32⟩
  | 32 => ⟨S64x64, .f32⟩
  | 33 => ⟨S_, .f32⟩
  | 34 => ⟨S64x64, .f32⟩
  | 35 => ⟨S64x64, .f32⟩
  | 36 => ⟨S64x64, .f32⟩
  | 37 => ⟨S64x64, .f32⟩
  | 38 => ⟨S_, .f32⟩
  | 39 => ⟨S64x64, .f32⟩
  | 40 => ⟨S64x64, .f32⟩
  | 41 => ⟨S64x64, .f32⟩
  | 42 => ⟨S64x64, .f32⟩
  | 43 => ⟨S_, .f32⟩
  | 44 => ⟨S64x64, .f32⟩
  | 45 => ⟨S64x64, .f32⟩
  | 46 => ⟨S64x64, .f32⟩
  | 47 => ⟨S64x64, .f32⟩
  | 48 => ⟨S_, .f32⟩
  | 49 => ⟨S64x64, .f32⟩
  | 50 => ⟨S64x64, .f32⟩
  | 51 => ⟨S64x64, .f32⟩
  | 52 => ⟨S64x64, .f32⟩
  | 53 => ⟨S_, .f32⟩
  | 54 => ⟨S64x64, .f32⟩
  | 55 => ⟨S64x64, .f32⟩
  | 56 => ⟨S64x64, .f32⟩
  | 57 => ⟨S64x64, .f32⟩
  | 58 => ⟨S_, .f32⟩
  | 59 => ⟨S64x64, .f32⟩
  | 60 => ⟨S64x64, .f32⟩
  | 61 => ⟨S64x64, .f32⟩
  | 62 => ⟨S1400000x1, .f32⟩
  | 63 => ⟨S_, .i32⟩
  | 64 => ⟨S1400000, .i32⟩
  | 65 => ⟨S1400000, .i1⟩
  | 66 => ⟨S_, .i32⟩
  | 67 => ⟨S1400000, .i32⟩
  | 68 => ⟨S1400000, .i32⟩
  | 69 => ⟨S1400000, .i32⟩
  | 70 => ⟨S1400000x1, .i32⟩
  | 71 => ⟨S1400000x64, .f32⟩
  | 72 => ⟨S1400000x64, .f32⟩
  | 73 => ⟨S1400000x64, .f32⟩
  | 74 => ⟨S_, .f32⟩
  | 75 => ⟨S200000x64, .f32⟩
  | 76 => ⟨S1400000x1, .i32⟩
  | 77 => ⟨S200000x64, .f32⟩
  | 78 => ⟨S200000x64, .f32⟩
  | 79 => ⟨S1x64x64, .f32⟩
  | 80 => ⟨S64x64, .f32⟩
  | 81 => ⟨S64x64, .f32⟩
  | 82 => ⟨S64x64, .f32⟩
  | 83 => ⟨S64x64, .i32⟩
  | 84 => ⟨S64x64, .i32⟩
  | 85 => ⟨S_, .i32⟩
  | 86 => ⟨S64x64, .i32⟩
  | 87 => ⟨S64x64, .i32⟩
  | 88 => ⟨S64x64, .i1⟩
  | 89 => ⟨S64x64, .f32⟩
  | 90 => ⟨S64x64, .f32⟩
  | 91 => ⟨S_, .f32⟩
  | 92 => ⟨S64x64, .f32⟩
  | 93 => ⟨S64x64, .f32⟩
  | 94 => ⟨S64x64, .f32⟩
  | 95 => ⟨S64x64, .f32⟩
  | 96 => ⟨S_, .f32⟩
  | 97 => ⟨S64x64, .f32⟩
  | 98 => ⟨S64x64, .f32⟩
  | 99 => ⟨S64x64, .f32⟩
  | 100 => ⟨S64x64, .f32⟩
  | 101 => ⟨S_, .f32⟩
  | 102 => ⟨S64x64, .f32⟩
  | 103 => ⟨S64x64, .f32⟩
  | 104 => ⟨S64x64, .f32⟩
  | 105 => ⟨S64x64, .f32⟩
  | 106 => ⟨S_, .f32⟩
  | 107 => ⟨S64x64, .f32⟩
  | 108 => ⟨S64x64, .f32⟩
  | 109 => ⟨S64x64, .f32⟩
  | 110 => ⟨S64x64, .f32⟩
  | 111 => ⟨S_, .f32⟩
  | 112 => ⟨S64x64, .f32⟩
  | 113 => ⟨S64x64, .f32⟩
  | 114 => ⟨S64x64, .f32⟩
  | 115 => ⟨S64x64, .f32⟩
  | 116 => ⟨S_, .f32⟩
  | 117 => ⟨S64x64, .f32⟩
  | 118 => ⟨S64x64, .f32⟩
  | 119 => ⟨S64x64, .f32⟩
  | 120 => ⟨S64x64, .f32⟩
  | 121 => ⟨S_, .f32⟩
  | 122 => ⟨S64x64, .f32⟩
  | 123 => ⟨S64x64, .f32⟩
  | 124 => ⟨S64x64, .f32⟩
  | 125 => ⟨S64x64, .f32⟩
  | 126 => ⟨S_, .f32⟩
  | 127 => ⟨S64x64, .f32⟩
  | _ => ⟨S200000x1, .f32⟩

abbrev hbmTy0_4 (i : Nat) : BufTy := match i % 128 with
  | 0 => ⟨S64x64, .f32⟩
  | 1 => ⟨S64x64, .f32⟩
  | 2 => ⟨S64x64, .f32⟩
  | 3 => ⟨S_, .f32⟩
  | 4 => ⟨S64x64, .f32⟩
  | 5 => ⟨S64x64, .f32⟩
  | 6 => ⟨S64x64, .f32⟩
  | 7 => ⟨S64x64, .f32⟩
  | 8 => ⟨S_, .f32⟩
  | 9 => ⟨S64x64, .f32⟩
  | 10 => ⟨S64x64, .f32⟩
  | 11 => ⟨S64x64, .f32⟩
  | 12 => ⟨S1400000x1, .f32⟩
  | 13 => ⟨S_, .i32⟩
  | 14 => ⟨S1400000, .i32⟩
  | 15 => ⟨S1400000, .i1⟩
  | 16 => ⟨S_, .i32⟩
  | 17 => ⟨S1400000, .i32⟩
  | 18 => ⟨S1400000, .i32⟩
  | 19 => ⟨S1400000, .i32⟩
  | 20 => ⟨S1400000x1, .i32⟩
  | 21 => ⟨S1400000x64, .f32⟩
  | 22 => ⟨S1400000x64, .f32⟩
  | 23 => ⟨S1400000x64, .f32⟩
  | 24 => ⟨S_, .f32⟩
  | 25 => ⟨S200000x64, .f32⟩
  | 26 => ⟨S1400000x1, .i32⟩
  | 27 => ⟨S200000x64, .f32⟩
  | 28 => ⟨S200000x64, .f32⟩
  | 29 => ⟨S1x64x64, .f32⟩
  | 30 => ⟨S64x64, .f32⟩
  | 31 => ⟨S64x64, .f32⟩
  | 32 => ⟨S64x64, .f32⟩
  | 33 => ⟨S64x64, .i32⟩
  | 34 => ⟨S64x64, .i32⟩
  | 35 => ⟨S_, .i32⟩
  | 36 => ⟨S64x64, .i32⟩
  | 37 => ⟨S64x64, .i32⟩
  | 38 => ⟨S64x64, .i1⟩
  | 39 => ⟨S64x64, .f32⟩
  | 40 => ⟨S64x64, .f32⟩
  | 41 => ⟨S_, .f32⟩
  | 42 => ⟨S64x64, .f32⟩
  | 43 => ⟨S64x64, .f32⟩
  | 44 => ⟨S64x64, .f32⟩
  | 45 => ⟨S64x64, .f32⟩
  | 46 => ⟨S_, .f32⟩
  | 47 => ⟨S64x64, .f32⟩
  | 48 => ⟨S64x64, .f32⟩
  | 49 => ⟨S64x64, .f32⟩
  | 50 => ⟨S64x64, .f32⟩
  | 51 => ⟨S_, .f32⟩
  | 52 => ⟨S64x64, .f32⟩
  | 53 => ⟨S64x64, .f32⟩
  | 54 => ⟨S64x64, .f32⟩
  | 55 => ⟨S64x64, .f32⟩
  | 56 => ⟨S_, .f32⟩
  | 57 => ⟨S64x64, .f32⟩
  | 58 => ⟨S64x64, .f32⟩
  | 59 => ⟨S64x64, .f32⟩
  | 60 => ⟨S64x64, .f32⟩
  | 61 => ⟨S_, .f32⟩
  | 62 => ⟨S64x64, .f32⟩
  | 63 => ⟨S64x64, .f32⟩
  | 64 => ⟨S64x64, .f32⟩
  | 65 => ⟨S64x64, .f32⟩
  | 66 => ⟨S_, .f32⟩
  | 67 => ⟨S64x64, .f32⟩
  | 68 => ⟨S64x64, .f32⟩
  | 69 => ⟨S64x64, .f32⟩
  | 70 => ⟨S64x64, .f32⟩
  | 71 => ⟨S_, .f32⟩
  | 72 => ⟨S64x64, .f32⟩
  | 73 => ⟨S64x64, .f32⟩
  | 74 => ⟨S64x64, .f32⟩
  | 75 => ⟨S64x64, .f32⟩
  | 76 => ⟨S_, .f32⟩
  | 77 => ⟨S64x64, .f32⟩
  | 78 => ⟨S64x64, .f32⟩
  | 79 => ⟨S64x64, .f32⟩
  | 80 => ⟨S64x64, .f32⟩
  | 81 => ⟨S_, .f32⟩
  | 82 => ⟨S64x64, .f32⟩
  | 83 => ⟨S64x64, .f32⟩
  | 84 => ⟨S64x64, .f32⟩
  | 85 => ⟨S64x64, .f32⟩
  | 86 => ⟨S_, .f32⟩
  | 87 => ⟨S64x64, .f32⟩
  | 88 => ⟨S64x64, .f32⟩
  | 89 => ⟨S64x64, .f32⟩
  | 90 => ⟨S1400000x1, .f32⟩
  | 91 => ⟨S_, .i32⟩
  | 92 => ⟨S1400000, .i32⟩
  | 93 => ⟨S1400000, .i1⟩
  | 94 => ⟨S_, .i32⟩
  | 95 => ⟨S1400000, .i32⟩
  | 96 => ⟨S1400000, .i32⟩
  | 97 => ⟨S1400000, .i32⟩
  | 98 => ⟨S1400000x1, .i32⟩
  | 99 => ⟨S1400000x64, .f32⟩
  | 100 => ⟨S1400000x64, .f32⟩
  | 101 => ⟨S1400000x64, .f32⟩
  | 102 => ⟨S_, .f32⟩
  | 103 => ⟨S200000x64, .f32⟩
  | 104 => ⟨S1400000x1, .i32⟩
  | 105 => ⟨S200000x64, .f32⟩
  | 106 => ⟨S200000x64, .f32⟩
  | 107 => ⟨S1x64x64, .f32⟩
  | 108 => ⟨S64x64, .f32⟩
  | 109 => ⟨S64x64, .f32⟩
  | 110 => ⟨S64x64, .f32⟩
  | 111 => ⟨S64x64, .i32⟩
  | 112 => ⟨S64x64, .i32⟩
  | 113 => ⟨S_, .i32⟩
  | 114 => ⟨S64x64, .i32⟩
  | 115 => ⟨S64x64, .i32⟩
  | 116 => ⟨S64x64, .i1⟩
  | 117 => ⟨S64x64, .f32⟩
  | 118 => ⟨S64x64, .f32⟩
  | 119 => ⟨S_, .f32⟩
  | 120 => ⟨S64x64, .f32⟩
  | 121 => ⟨S64x64, .f32⟩
  | 122 => ⟨S64x64, .f32⟩
  | 123 => ⟨S64x64, .f32⟩
  | 124 => ⟨S_, .f32⟩
  | 125 => ⟨S64x64, .f32⟩
  | 126 => ⟨S64x64, .f32⟩
  | 127 => ⟨S64x64, .f32⟩
  | _ => ⟨S200000x1, .f32⟩

abbrev hbmTy0_5 (i : Nat) : BufTy := match i % 128 with
  | 0 => ⟨S64x64, .f32⟩
  | 1 => ⟨S_, .f32⟩
  | 2 => ⟨S64x64, .f32⟩
  | 3 => ⟨S64x64, .f32⟩
  | 4 => ⟨S64x64, .f32⟩
  | 5 => ⟨S64x64, .f32⟩
  | 6 => ⟨S_, .f32⟩
  | 7 => ⟨S64x64, .f32⟩
  | 8 => ⟨S64x64, .f32⟩
  | 9 => ⟨S64x64, .f32⟩
  | 10 => ⟨S64x64, .f32⟩
  | 11 => ⟨S_, .f32⟩
  | 12 => ⟨S64x64, .f32⟩
  | 13 => ⟨S64x64, .f32⟩
  | 14 => ⟨S64x64, .f32⟩
  | 15 => ⟨S64x64, .f32⟩
  | 16 => ⟨S_, .f32⟩
  | 17 => ⟨S64x64, .f32⟩
  | 18 => ⟨S64x64, .f32⟩
  | 19 => ⟨S64x64, .f32⟩
  | 20 => ⟨S64x64, .f32⟩
  | 21 => ⟨S_, .f32⟩
  | 22 => ⟨S64x64, .f32⟩
  | 23 => ⟨S64x64, .f32⟩
  | 24 => ⟨S64x64, .f32⟩
  | 25 => ⟨S64x64, .f32⟩
  | 26 => ⟨S_, .f32⟩
  | 27 => ⟨S64x64, .f32⟩
  | 28 => ⟨S64x64, .f32⟩
  | 29 => ⟨S64x64, .f32⟩
  | 30 => ⟨S64x64, .f32⟩
  | 31 => ⟨S_, .f32⟩
  | 32 => ⟨S64x64, .f32⟩
  | 33 => ⟨S64x64, .f32⟩
  | 34 => ⟨S64x64, .f32⟩
  | 35 => ⟨S64x64, .f32⟩
  | 36 => ⟨S_, .f32⟩
  | 37 => ⟨S64x64, .f32⟩
  | 38 => ⟨S64x64, .f32⟩
  | 39 => ⟨S64x64, .f32⟩
  | 40 => ⟨S1400000x1, .f32⟩
  | 41 => ⟨S_, .i32⟩
  | 42 => ⟨S1400000, .i32⟩
  | 43 => ⟨S1400000, .i1⟩
  | 44 => ⟨S_, .i32⟩
  | 45 => ⟨S1400000, .i32⟩
  | 46 => ⟨S1400000, .i32⟩
  | 47 => ⟨S1400000, .i32⟩
  | 48 => ⟨S1400000x1, .i32⟩
  | 49 => ⟨S1400000x64, .f32⟩
  | 50 => ⟨S1400000x64, .f32⟩
  | 51 => ⟨S1400000x64, .f32⟩
  | 52 => ⟨S_, .f32⟩
  | 53 => ⟨S200000x64, .f32⟩
  | 54 => ⟨S1400000x1, .i32⟩
  | 55 => ⟨S200000x64, .f32⟩
  | 56 => ⟨S200000x64, .f32⟩
  | 57 => ⟨S1x64x64, .f32⟩
  | 58 => ⟨S64x64, .f32⟩
  | 59 => ⟨S64x64, .f32⟩
  | 60 => ⟨S64x64, .f32⟩
  | 61 => ⟨S64x64, .i32⟩
  | 62 => ⟨S64x64, .i32⟩
  | 63 => ⟨S_, .i32⟩
  | 64 => ⟨S64x64, .i32⟩
  | 65 => ⟨S64x64, .i32⟩
  | 66 => ⟨S64x64, .i1⟩
  | 67 => ⟨S64x64, .f32⟩
  | 68 => ⟨S64x64, .f32⟩
  | 69 => ⟨S_, .f32⟩
  | 70 => ⟨S64x64, .f32⟩
  | 71 => ⟨S64x64, .f32⟩
  | 72 => ⟨S64x64, .f32⟩
  | 73 => ⟨S64x64, .f32⟩
  | 74 => ⟨S_, .f32⟩
  | 75 => ⟨S64x64, .f32⟩
  | 76 => ⟨S64x64, .f32⟩
  | 77 => ⟨S64x64, .f32⟩
  | 78 => ⟨S64x64, .f32⟩
  | 79 => ⟨S_, .f32⟩
  | 80 => ⟨S64x64, .f32⟩
  | 81 => ⟨S64x64, .f32⟩
  | 82 => ⟨S64x64, .f32⟩
  | 83 => ⟨S64x64, .f32⟩
  | 84 => ⟨S_, .f32⟩
  | 85 => ⟨S64x64, .f32⟩
  | 86 => ⟨S64x64, .f32⟩
  | 87 => ⟨S64x64, .f32⟩
  | 88 => ⟨S64x64, .f32⟩
  | 89 => ⟨S_, .f32⟩
  | 90 => ⟨S64x64, .f32⟩
  | 91 => ⟨S64x64, .f32⟩
  | 92 => ⟨S64x64, .f32⟩
  | 93 => ⟨S64x64, .f32⟩
  | 94 => ⟨S_, .f32⟩
  | 95 => ⟨S64x64, .f32⟩
  | 96 => ⟨S64x64, .f32⟩
  | 97 => ⟨S64x64, .f32⟩
  | 98 => ⟨S64x64, .f32⟩
  | 99 => ⟨S_, .f32⟩
  | 100 => ⟨S64x64, .f32⟩
  | 101 => ⟨S64x64, .f32⟩
  | 102 => ⟨S64x64, .f32⟩
  | 103 => ⟨S64x64, .f32⟩
  | 104 => ⟨S_, .f32⟩
  | 105 => ⟨S64x64, .f32⟩
  | 106 => ⟨S64x64, .f32⟩
  | 107 => ⟨S64x64, .f32⟩
  | 108 => ⟨S64x64, .f32⟩
  | 109 => ⟨S_, .f32⟩
  | 110 => ⟨S64x64, .f32⟩
  | 111 => ⟨S64x64, .f32⟩
  | 112 => ⟨S64x64, .f32⟩
  | 113 => ⟨S64x64, .f32⟩
  | 114 => ⟨S_, .f32⟩
  | 115 => ⟨S64x64, .f32⟩
  | 116 => ⟨S64x64, .f32⟩
  | 117 => ⟨S64x64, .f32⟩
  | 118 => ⟨S1400000x1, .f32⟩
  | 119 => ⟨S_, .i32⟩
  | 120 => ⟨S1400000, .i32⟩
  | 121 => ⟨S1400000, .i1⟩
  | 122 => ⟨S_, .i32⟩
  | 123 => ⟨S1400000, .i32⟩
  | 124 => ⟨S1400000, .i32⟩
  | 125 => ⟨S1400000, .i32⟩
  | 126 => ⟨S1400000x1, .i32⟩
  | 127 => ⟨S1400000x64, .f32⟩
  | _ => ⟨S200000x1, .f32⟩

abbrev hbmTy0_6 (i : Nat) : BufTy := match i % 128 with
  | 0 => ⟨S1400000x64, .f32⟩
  | 1 => ⟨S1400000x64, .f32⟩
  | 2 => ⟨S_, .f32⟩
  | 3 => ⟨S200000x64, .f32⟩
  | 4 => ⟨S1400000x1, .i32⟩
  | 5 => ⟨S200000x64, .f32⟩
  | 6 => ⟨S200000x64, .f32⟩
  | 7 => ⟨S1x64x64, .f32⟩
  | 8 => ⟨S64x64, .f32⟩
  | 9 => ⟨S64x64, .f32⟩
  | 10 => ⟨S64x64, .f32⟩
  | 11 => ⟨S64x64, .i32⟩
  | 12 => ⟨S64x64, .i32⟩
  | 13 => ⟨S_, .i32⟩
  | 14 => ⟨S64x64, .i32⟩
  | 15 => ⟨S64x64, .i32⟩
  | 16 => ⟨S64x64, .i1⟩
  | 17 => ⟨S64x64, .f32⟩
  | 18 => ⟨S64x64, .f32⟩
  | 19 => ⟨S_, .f32⟩
  | 20 => ⟨S64x64, .f32⟩
  | 21 => ⟨S64x64, .f32⟩
  | 22 => ⟨S64x64, .f32⟩
  | 23 => ⟨S64x64, .f32⟩
  | 24 => ⟨S_, .f32⟩
  | 25 => ⟨S64x64, .f32⟩
  | 26 => ⟨S64x64, .f32⟩
  | 27 => ⟨S64x64, .f32⟩
  | 28 => ⟨S64x64, .f32⟩
  | 29 => ⟨S_, .f32⟩
  | 30 => ⟨S64x64, .f32⟩
  | 31 => ⟨S64x64, .f32⟩
  | 32 => ⟨S64x64, .f32⟩
  | 33 => ⟨S64x64, .f32⟩
  | 34 => ⟨S_, .f32⟩
  | 35 => ⟨S64x64, .f32⟩
  | 36 => ⟨S64x64, .f32⟩
  | 37 => ⟨S64x64, .f32⟩
  | 38 => ⟨S64x64, .f32⟩
  | 39 => ⟨S_, .f32⟩
  | 40 => ⟨S64x64, .f32⟩
  | 41 => ⟨S64x64, .f32⟩
  | 42 => ⟨S64x64, .f32⟩
  | 43 => ⟨S64x64, .f32⟩
  | 44 => ⟨S_, .f32⟩
  | 45 => ⟨S64x64, .f32⟩
  | 46 => ⟨S64x64, .f32⟩
  | 47 => ⟨S64x64, .f32⟩
  | 48 => ⟨S64x64, .f32⟩
  | 49 => ⟨S_, .f32⟩
  | 50 => ⟨S64x64, .f32⟩
  | 51 => ⟨S64x64, .f32⟩
  | 52 => ⟨S64x64, .f32⟩
  | 53 => ⟨S64x64, .f32⟩
  | 54 => ⟨S_, .f32⟩
  | 55 => ⟨S64x64, .f32⟩
  | 56 => ⟨S64x64, .f32⟩
  | 57 => ⟨S64x64, .f32⟩
  | 58 => ⟨S64x64, .f32⟩
  | 59 => ⟨S_, .f32⟩
  | 60 => ⟨S64x64, .f32⟩
  | 61 => ⟨S64x64, .f32⟩
  | 62 => ⟨S64x64, .f32⟩
  | 63 => ⟨S64x64, .f32⟩
  | 64 => ⟨S_, .f32⟩
  | 65 => ⟨S64x64, .f32⟩
  | 66 => ⟨S64x64, .f32⟩
  | 67 => ⟨S64x64, .f32⟩
  | 68 => ⟨S1400000x1, .f32⟩
  | 69 => ⟨S_, .i32⟩
  | 70 => ⟨S1400000, .i32⟩
  | 71 => ⟨S1400000, .i1⟩
  | 72 => ⟨S_, .i32⟩
  | 73 => ⟨S1400000, .i32⟩
  | 74 => ⟨S1400000, .i32⟩
  | 75 => ⟨S1400000, .i32⟩
  | 76 => ⟨S1400000x1, .i32⟩
  | 77 => ⟨S1400000x64, .f32⟩
  | 78 => ⟨S1400000x64, .f32⟩
  | 79 => ⟨S1400000x64, .f32⟩
  | 80 => ⟨S_, .f32⟩
  | 81 => ⟨S200000x64, .f32⟩
  | 82 => ⟨S1400000x1, .i32⟩
  | 83 => ⟨S200000x64, .f32⟩
  | 84 => ⟨S200000x64, .f32⟩
  | 85 => ⟨S200000x1, .f32⟩
  | 86 => ⟨S1400000x1, .f32⟩
  | 87 => ⟨S_, .i32⟩
  | 88 => ⟨S1400000, .i32⟩
  | 89 => ⟨S1400000, .i1⟩
  | 90 => ⟨S_, .i32⟩
  | 91 => ⟨S1400000, .i32⟩
  | 92 => ⟨S1400000, .i32⟩
  | 93 => ⟨S1400000, .i32⟩
  | 94 => ⟨S1400000x1, .i32⟩
  | 95 => ⟨S1400000x1, .f32⟩
  | 96 => ⟨S1400000x1, .f32⟩
  | 97 => ⟨S_, .f32⟩
  | 98 => ⟨S200000x1, .f32⟩
  | 99 => ⟨S1400000x1, .i32⟩
  | 100 => ⟨S200000x1, .f32⟩
  | 101 => ⟨S1x1, .f32⟩
  | 102 => ⟨S200000x1, .f32⟩
  | 103 => ⟨S200000x1, .f32⟩
  | 104 => ⟨S200000x1x1, .f32⟩
  | _ => ⟨S200000x1, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S200000x1, .f32⟩

abbrev bufTy : (tb : Table) → Fin (tcTables nBuf tb) → BufTy
  | .hbm, ⟨i, _⟩ => hbmTy i
  | _, _ => ⟨S200000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v17 : Ref sig .tc := ⟨.hbm, 32, rfl⟩
abbrev main_c : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_5 : Ref sig .tc := ⟨.hbm, 43, rfl⟩
abbrev main_v26 : Ref sig .tc := ⟨.hbm, 44, rfl⟩
abbrev main_v27 : Ref sig .tc := ⟨.hbm, 45, rfl⟩
abbrev main_c_6 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_7 : Ref sig .tc := ⟨.hbm, 55, rfl⟩
abbrev main_v36 : Ref sig .tc := ⟨.hbm, 56, rfl⟩
abbrev main_v37 : Ref sig .tc := ⟨.hbm, 57, rfl⟩
abbrev main_c_8 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_9 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_c_10 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_11 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_12 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_cst_13 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_14 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_cst_15 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_cst_16 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_cst_17 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_cst_18 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_cst_19 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_cst_20 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_c_21 : Ref sig .tc := ⟨.hbm, 135, rfl⟩
abbrev main_v102 : Ref sig .tc := ⟨.hbm, 136, rfl⟩
abbrev main_v103 : Ref sig .tc := ⟨.hbm, 137, rfl⟩
abbrev main_c_22 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_cst_23 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_c_24 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_cst_25 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_cst_26 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_cst_27 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_cst_28 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_cst_29 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_cst_30 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_cst_31 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_cst_32 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_cst_33 : Ref sig .tc := ⟨.hbm, 203, rfl⟩
abbrev main_v158 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_cst_34 : Ref sig .tc := ⟨.hbm, 208, rfl⟩
abbrev main_v162 : Ref sig .tc := ⟨.hbm, 209, rfl⟩
abbrev main_v163 : Ref sig .tc := ⟨.hbm, 210, rfl⟩
abbrev main_v164 : Ref sig .tc := ⟨.hbm, 211, rfl⟩
abbrev main_v165 : Ref sig .tc := ⟨.hbm, 212, rfl⟩
abbrev main_c_35 : Ref sig .tc := ⟨.hbm, 213, rfl⟩
abbrev main_v166 : Ref sig .tc := ⟨.hbm, 214, rfl⟩
abbrev main_v167 : Ref sig .tc := ⟨.hbm, 215, rfl⟩
abbrev main_c_36 : Ref sig .tc := ⟨.hbm, 216, rfl⟩
abbrev main_v168 : Ref sig .tc := ⟨.hbm, 217, rfl⟩
abbrev main_v169 : Ref sig .tc := ⟨.hbm, 218, rfl⟩
abbrev main_v170 : Ref sig .tc := ⟨.hbm, 219, rfl⟩
abbrev main_v171 : Ref sig .tc := ⟨.hbm, 220, rfl⟩
abbrev main_v172 : Ref sig .tc := ⟨.hbm, 221, rfl⟩
abbrev main_v173 : Ref sig .tc := ⟨.hbm, 222, rfl⟩
abbrev main_v174 : Ref sig .tc := ⟨.hbm, 223, rfl⟩
abbrev main_cst_37 : Ref sig .tc := ⟨.hbm, 224, rfl⟩
abbrev main_v175 : Ref sig .tc := ⟨.hbm, 225, rfl⟩
abbrev main_v176 : Ref sig .tc := ⟨.hbm, 226, rfl⟩
abbrev main_v177 : Ref sig .tc := ⟨.hbm, 227, rfl⟩
abbrev main_v178 : Ref sig .tc := ⟨.hbm, 228, rfl⟩
abbrev main_v179 : Ref sig .tc := ⟨.hbm, 229, rfl⟩
abbrev main_v180 : Ref sig .tc := ⟨.hbm, 230, rfl⟩
abbrev main_v181 : Ref sig .tc := ⟨.hbm, 231, rfl⟩
abbrev main_v182 : Ref sig .tc := ⟨.hbm, 232, rfl⟩
abbrev main_v183 : Ref sig .tc := ⟨.hbm, 233, rfl⟩
abbrev main_v184 : Ref sig .tc := ⟨.hbm, 234, rfl⟩
abbrev main_c_38 : Ref sig .tc := ⟨.hbm, 235, rfl⟩
abbrev main_v185 : Ref sig .tc := ⟨.hbm, 236, rfl⟩
abbrev main_v186 : Ref sig .tc := ⟨.hbm, 237, rfl⟩
abbrev main_v187 : Ref sig .tc := ⟨.hbm, 238, rfl⟩
abbrev main_v188 : Ref sig .tc := ⟨.hbm, 239, rfl⟩
abbrev main_v189 : Ref sig .tc := ⟨.hbm, 240, rfl⟩
abbrev main_cst_39 : Ref sig .tc := ⟨.hbm, 241, rfl⟩
abbrev main_v190 : Ref sig .tc := ⟨.hbm, 242, rfl⟩
abbrev main_v191 : Ref sig .tc := ⟨.hbm, 243, rfl⟩
abbrev main_v192 : Ref sig .tc := ⟨.hbm, 244, rfl⟩
abbrev main_v193 : Ref sig .tc := ⟨.hbm, 245, rfl⟩
abbrev main_cst_40 : Ref sig .tc := ⟨.hbm, 246, rfl⟩
abbrev main_v194 : Ref sig .tc := ⟨.hbm, 247, rfl⟩
abbrev main_v195 : Ref sig .tc := ⟨.hbm, 248, rfl⟩
abbrev main_v196 : Ref sig .tc := ⟨.hbm, 249, rfl⟩
abbrev main_v197 : Ref sig .tc := ⟨.hbm, 250, rfl⟩
abbrev main_cst_41 : Ref sig .tc := ⟨.hbm, 251, rfl⟩
abbrev main_v198 : Ref sig .tc := ⟨.hbm, 252, rfl⟩
abbrev main_v199 : Ref sig .tc := ⟨.hbm, 253, rfl⟩
abbrev main_v200 : Ref sig .tc := ⟨.hbm, 254, rfl⟩
abbrev main_v201 : Ref sig .tc := ⟨.hbm, 255, rfl⟩
abbrev main_cst_42 : Ref sig .tc := ⟨.hbm, 256, rfl⟩
abbrev main_v202 : Ref sig .tc := ⟨.hbm, 257, rfl⟩
abbrev main_v203 : Ref sig .tc := ⟨.hbm, 258, rfl⟩
abbrev main_v204 : Ref sig .tc := ⟨.hbm, 259, rfl⟩
abbrev main_v205 : Ref sig .tc := ⟨.hbm, 260, rfl⟩
abbrev main_cst_43 : Ref sig .tc := ⟨.hbm, 261, rfl⟩
abbrev main_v206 : Ref sig .tc := ⟨.hbm, 262, rfl⟩
abbrev main_v207 : Ref sig .tc := ⟨.hbm, 263, rfl⟩
abbrev main_v208 : Ref sig .tc := ⟨.hbm, 264, rfl⟩
abbrev main_v209 : Ref sig .tc := ⟨.hbm, 265, rfl⟩
abbrev main_cst_44 : Ref sig .tc := ⟨.hbm, 266, rfl⟩
abbrev main_v210 : Ref sig .tc := ⟨.hbm, 267, rfl⟩
abbrev main_v211 : Ref sig .tc := ⟨.hbm, 268, rfl⟩
abbrev main_v212 : Ref sig .tc := ⟨.hbm, 269, rfl⟩
abbrev main_v213 : Ref sig .tc := ⟨.hbm, 270, rfl⟩
abbrev main_cst_45 : Ref sig .tc := ⟨.hbm, 271, rfl⟩
abbrev main_v214 : Ref sig .tc := ⟨.hbm, 272, rfl⟩
abbrev main_v215 : Ref sig .tc := ⟨.hbm, 273, rfl⟩
abbrev main_v216 : Ref sig .tc := ⟨.hbm, 274, rfl⟩
abbrev main_v217 : Ref sig .tc := ⟨.hbm, 275, rfl⟩
abbrev main_cst_46 : Ref sig .tc := ⟨.hbm, 276, rfl⟩
abbrev main_v218 : Ref sig .tc := ⟨.hbm, 277, rfl⟩
abbrev main_v219 : Ref sig .tc := ⟨.hbm, 278, rfl⟩
abbrev main_v220 : Ref sig .tc := ⟨.hbm, 279, rfl⟩
abbrev main_v221 : Ref sig .tc := ⟨.hbm, 280, rfl⟩
abbrev main_cst_47 : Ref sig .tc := ⟨.hbm, 281, rfl⟩
abbrev main_v222 : Ref sig .tc := ⟨.hbm, 282, rfl⟩
abbrev main_v223 : Ref sig .tc := ⟨.hbm, 283, rfl⟩
abbrev main_v224 : Ref sig .tc := ⟨.hbm, 284, rfl⟩
abbrev main_v225 : Ref sig .tc := ⟨.hbm, 285, rfl⟩
abbrev main_cst_48 : Ref sig .tc := ⟨.hbm, 286, rfl⟩
abbrev main_v226 : Ref sig .tc := ⟨.hbm, 287, rfl⟩
abbrev main_v227 : Ref sig .tc := ⟨.hbm, 288, rfl⟩
abbrev main_v228 : Ref sig .tc := ⟨.hbm, 289, rfl⟩
abbrev main_v229 : Ref sig .tc := ⟨.hbm, 290, rfl⟩
abbrev main_c_49 : Ref sig .tc := ⟨.hbm, 291, rfl⟩
abbrev main_v230 : Ref sig .tc := ⟨.hbm, 292, rfl⟩
abbrev main_v231 : Ref sig .tc := ⟨.hbm, 293, rfl⟩
abbrev main_c_50 : Ref sig .tc := ⟨.hbm, 294, rfl⟩
abbrev main_v232 : Ref sig .tc := ⟨.hbm, 295, rfl⟩
abbrev main_v233 : Ref sig .tc := ⟨.hbm, 296, rfl⟩
abbrev main_v234 : Ref sig .tc := ⟨.hbm, 297, rfl⟩
abbrev main_v235 : Ref sig .tc := ⟨.hbm, 298, rfl⟩
abbrev main_v236 : Ref sig .tc := ⟨.hbm, 299, rfl⟩
abbrev main_v237 : Ref sig .tc := ⟨.hbm, 300, rfl⟩
abbrev main_v238 : Ref sig .tc := ⟨.hbm, 301, rfl⟩
abbrev main_cst_51 : Ref sig .tc := ⟨.hbm, 302, rfl⟩
abbrev main_v239 : Ref sig .tc := ⟨.hbm, 303, rfl⟩
abbrev main_v240 : Ref sig .tc := ⟨.hbm, 304, rfl⟩
abbrev main_v241 : Ref sig .tc := ⟨.hbm, 305, rfl⟩
abbrev main_v242 : Ref sig .tc := ⟨.hbm, 306, rfl⟩
abbrev main_v243 : Ref sig .tc := ⟨.hbm, 307, rfl⟩
abbrev main_v244 : Ref sig .tc := ⟨.hbm, 308, rfl⟩
abbrev main_v245 : Ref sig .tc := ⟨.hbm, 309, rfl⟩
abbrev main_v246 : Ref sig .tc := ⟨.hbm, 310, rfl⟩
abbrev main_v247 : Ref sig .tc := ⟨.hbm, 311, rfl⟩
abbrev main_v248 : Ref sig .tc := ⟨.hbm, 312, rfl⟩
abbrev main_c_52 : Ref sig .tc := ⟨.hbm, 313, rfl⟩
abbrev main_v249 : Ref sig .tc := ⟨.hbm, 314, rfl⟩
abbrev main_v250 : Ref sig .tc := ⟨.hbm, 315, rfl⟩
abbrev main_v251 : Ref sig .tc := ⟨.hbm, 316, rfl⟩
abbrev main_v252 : Ref sig .tc := ⟨.hbm, 317, rfl⟩
abbrev main_v253 : Ref sig .tc := ⟨.hbm, 318, rfl⟩
abbrev main_cst_53 : Ref sig .tc := ⟨.hbm, 319, rfl⟩
abbrev main_v254 : Ref sig .tc := ⟨.hbm, 320, rfl⟩
abbrev main_v255 : Ref sig .tc := ⟨.hbm, 321, rfl⟩
abbrev main_v256 : Ref sig .tc := ⟨.hbm, 322, rfl⟩
abbrev main_v257 : Ref sig .tc := ⟨.hbm, 323, rfl⟩
abbrev main_cst_54 : Ref sig .tc := ⟨.hbm, 324, rfl⟩
abbrev main_v258 : Ref sig .tc := ⟨.hbm, 325, rfl⟩
abbrev main_v259 : Ref sig .tc := ⟨.hbm, 326, rfl⟩
abbrev main_v260 : Ref sig .tc := ⟨.hbm, 327, rfl⟩
abbrev main_v261 : Ref sig .tc := ⟨.hbm, 328, rfl⟩
abbrev main_cst_55 : Ref sig .tc := ⟨.hbm, 329, rfl⟩
abbrev main_v262 : Ref sig .tc := ⟨.hbm, 330, rfl⟩
abbrev main_v263 : Ref sig .tc := ⟨.hbm, 331, rfl⟩
abbrev main_v264 : Ref sig .tc := ⟨.hbm, 332, rfl⟩
abbrev main_v265 : Ref sig .tc := ⟨.hbm, 333, rfl⟩
abbrev main_cst_56 : Ref sig .tc := ⟨.hbm, 334, rfl⟩
abbrev main_v266 : Ref sig .tc := ⟨.hbm, 335, rfl⟩
abbrev main_v267 : Ref sig .tc := ⟨.hbm, 336, rfl⟩
abbrev main_v268 : Ref sig .tc := ⟨.hbm, 337, rfl⟩
abbrev main_v269 : Ref sig .tc := ⟨.hbm, 338, rfl⟩
abbrev main_cst_57 : Ref sig .tc := ⟨.hbm, 339, rfl⟩
abbrev main_v270 : Ref sig .tc := ⟨.hbm, 340, rfl⟩
abbrev main_v271 : Ref sig .tc := ⟨.hbm, 341, rfl⟩
abbrev main_v272 : Ref sig .tc := ⟨.hbm, 342, rfl⟩
abbrev main_v273 : Ref sig .tc := ⟨.hbm, 343, rfl⟩
abbrev main_cst_58 : Ref sig .tc := ⟨.hbm, 344, rfl⟩
abbrev main_v274 : Ref sig .tc := ⟨.hbm, 345, rfl⟩
abbrev main_v275 : Ref sig .tc := ⟨.hbm, 346, rfl⟩
abbrev main_v276 : Ref sig .tc := ⟨.hbm, 347, rfl⟩
abbrev main_v277 : Ref sig .tc := ⟨.hbm, 348, rfl⟩
abbrev main_cst_59 : Ref sig .tc := ⟨.hbm, 349, rfl⟩
abbrev main_v278 : Ref sig .tc := ⟨.hbm, 350, rfl⟩
abbrev main_v279 : Ref sig .tc := ⟨.hbm, 351, rfl⟩
abbrev main_v280 : Ref sig .tc := ⟨.hbm, 352, rfl⟩
abbrev main_v281 : Ref sig .tc := ⟨.hbm, 353, rfl⟩
abbrev main_cst_60 : Ref sig .tc := ⟨.hbm, 354, rfl⟩
abbrev main_v282 : Ref sig .tc := ⟨.hbm, 355, rfl⟩
abbrev main_v283 : Ref sig .tc := ⟨.hbm, 356, rfl⟩
abbrev main_v284 : Ref sig .tc := ⟨.hbm, 357, rfl⟩
abbrev main_v285 : Ref sig .tc := ⟨.hbm, 358, rfl⟩
abbrev main_cst_61 : Ref sig .tc := ⟨.hbm, 359, rfl⟩
abbrev main_v286 : Ref sig .tc := ⟨.hbm, 360, rfl⟩
abbrev main_v287 : Ref sig .tc := ⟨.hbm, 361, rfl⟩
abbrev main_v288 : Ref sig .tc := ⟨.hbm, 362, rfl⟩
abbrev main_v289 : Ref sig .tc := ⟨.hbm, 363, rfl⟩
abbrev main_cst_62 : Ref sig .tc := ⟨.hbm, 364, rfl⟩
abbrev main_v290 : Ref sig .tc := ⟨.hbm, 365, rfl⟩
abbrev main_v291 : Ref sig .tc := ⟨.hbm, 366, rfl⟩
abbrev main_v292 : Ref sig .tc := ⟨.hbm, 367, rfl⟩
abbrev main_v293 : Ref sig .tc := ⟨.hbm, 368, rfl⟩
abbrev main_c_63 : Ref sig .tc := ⟨.hbm, 369, rfl⟩
abbrev main_v294 : Ref sig .tc := ⟨.hbm, 370, rfl⟩
abbrev main_v295 : Ref sig .tc := ⟨.hbm, 371, rfl⟩
abbrev main_c_64 : Ref sig .tc := ⟨.hbm, 372, rfl⟩
abbrev main_v296 : Ref sig .tc := ⟨.hbm, 373, rfl⟩
abbrev main_v297 : Ref sig .tc := ⟨.hbm, 374, rfl⟩
abbrev main_v298 : Ref sig .tc := ⟨.hbm, 375, rfl⟩
abbrev main_v299 : Ref sig .tc := ⟨.hbm, 376, rfl⟩
abbrev main_v300 : Ref sig .tc := ⟨.hbm, 377, rfl⟩
abbrev main_v301 : Ref sig .tc := ⟨.hbm, 378, rfl⟩
abbrev main_v302 : Ref sig .tc := ⟨.hbm, 379, rfl⟩
abbrev main_cst_65 : Ref sig .tc := ⟨.hbm, 380, rfl⟩
abbrev main_v303 : Ref sig .tc := ⟨.hbm, 381, rfl⟩
abbrev main_v304 : Ref sig .tc := ⟨.hbm, 382, rfl⟩
abbrev main_v305 : Ref sig .tc := ⟨.hbm, 383, rfl⟩
abbrev main_v306 : Ref sig .tc := ⟨.hbm, 384, rfl⟩
abbrev main_v307 : Ref sig .tc := ⟨.hbm, 385, rfl⟩
abbrev main_v308 : Ref sig .tc := ⟨.hbm, 386, rfl⟩
abbrev main_v309 : Ref sig .tc := ⟨.hbm, 387, rfl⟩
abbrev main_v310 : Ref sig .tc := ⟨.hbm, 388, rfl⟩
abbrev main_v311 : Ref sig .tc := ⟨.hbm, 389, rfl⟩
abbrev main_v312 : Ref sig .tc := ⟨.hbm, 390, rfl⟩
abbrev main_c_66 : Ref sig .tc := ⟨.hbm, 391, rfl⟩
abbrev main_v313 : Ref sig .tc := ⟨.hbm, 392, rfl⟩
abbrev main_v314 : Ref sig .tc := ⟨.hbm, 393, rfl⟩
abbrev main_v315 : Ref sig .tc := ⟨.hbm, 394, rfl⟩
abbrev main_v316 : Ref sig .tc := ⟨.hbm, 395, rfl⟩
abbrev main_v317 : Ref sig .tc := ⟨.hbm, 396, rfl⟩
abbrev main_cst_67 : Ref sig .tc := ⟨.hbm, 397, rfl⟩
abbrev main_v318 : Ref sig .tc := ⟨.hbm, 398, rfl⟩
abbrev main_v319 : Ref sig .tc := ⟨.hbm, 399, rfl⟩
abbrev main_v320 : Ref sig .tc := ⟨.hbm, 400, rfl⟩
abbrev main_v321 : Ref sig .tc := ⟨.hbm, 401, rfl⟩
abbrev main_cst_68 : Ref sig .tc := ⟨.hbm, 402, rfl⟩
abbrev main_v322 : Ref sig .tc := ⟨.hbm, 403, rfl⟩
abbrev main_v323 : Ref sig .tc := ⟨.hbm, 404, rfl⟩
abbrev main_v324 : Ref sig .tc := ⟨.hbm, 405, rfl⟩
abbrev main_v325 : Ref sig .tc := ⟨.hbm, 406, rfl⟩
abbrev main_cst_69 : Ref sig .tc := ⟨.hbm, 407, rfl⟩
abbrev main_v326 : Ref sig .tc := ⟨.hbm, 408, rfl⟩
abbrev main_v327 : Ref sig .tc := ⟨.hbm, 409, rfl⟩
abbrev main_v328 : Ref sig .tc := ⟨.hbm, 410, rfl⟩
abbrev main_v329 : Ref sig .tc := ⟨.hbm, 411, rfl⟩
abbrev main_cst_70 : Ref sig .tc := ⟨.hbm, 412, rfl⟩
abbrev main_v330 : Ref sig .tc := ⟨.hbm, 413, rfl⟩
abbrev main_v331 : Ref sig .tc := ⟨.hbm, 414, rfl⟩
abbrev main_v332 : Ref sig .tc := ⟨.hbm, 415, rfl⟩
abbrev main_v333 : Ref sig .tc := ⟨.hbm, 416, rfl⟩
abbrev main_cst_71 : Ref sig .tc := ⟨.hbm, 417, rfl⟩
abbrev main_v334 : Ref sig .tc := ⟨.hbm, 418, rfl⟩
abbrev main_v335 : Ref sig .tc := ⟨.hbm, 419, rfl⟩
abbrev main_v336 : Ref sig .tc := ⟨.hbm, 420, rfl⟩
abbrev main_v337 : Ref sig .tc := ⟨.hbm, 421, rfl⟩
abbrev main_cst_72 : Ref sig .tc := ⟨.hbm, 422, rfl⟩
abbrev main_v338 : Ref sig .tc := ⟨.hbm, 423, rfl⟩
abbrev main_v339 : Ref sig .tc := ⟨.hbm, 424, rfl⟩
abbrev main_v340 : Ref sig .tc := ⟨.hbm, 425, rfl⟩
abbrev main_v341 : Ref sig .tc := ⟨.hbm, 426, rfl⟩
abbrev main_cst_73 : Ref sig .tc := ⟨.hbm, 427, rfl⟩
abbrev main_v342 : Ref sig .tc := ⟨.hbm, 428, rfl⟩
abbrev main_v343 : Ref sig .tc := ⟨.hbm, 429, rfl⟩
abbrev main_v344 : Ref sig .tc := ⟨.hbm, 430, rfl⟩
abbrev main_v345 : Ref sig .tc := ⟨.hbm, 431, rfl⟩
abbrev main_cst_74 : Ref sig .tc := ⟨.hbm, 432, rfl⟩
abbrev main_v346 : Ref sig .tc := ⟨.hbm, 433, rfl⟩
abbrev main_v347 : Ref sig .tc := ⟨.hbm, 434, rfl⟩
abbrev main_v348 : Ref sig .tc := ⟨.hbm, 435, rfl⟩
abbrev main_v349 : Ref sig .tc := ⟨.hbm, 436, rfl⟩
abbrev main_cst_75 : Ref sig .tc := ⟨.hbm, 437, rfl⟩
abbrev main_v350 : Ref sig .tc := ⟨.hbm, 438, rfl⟩
abbrev main_v351 : Ref sig .tc := ⟨.hbm, 439, rfl⟩
abbrev main_v352 : Ref sig .tc := ⟨.hbm, 440, rfl⟩
abbrev main_v353 : Ref sig .tc := ⟨.hbm, 441, rfl⟩
abbrev main_cst_76 : Ref sig .tc := ⟨.hbm, 442, rfl⟩
abbrev main_v354 : Ref sig .tc := ⟨.hbm, 443, rfl⟩
abbrev main_v355 : Ref sig .tc := ⟨.hbm, 444, rfl⟩
abbrev main_v356 : Ref sig .tc := ⟨.hbm, 445, rfl⟩
abbrev main_v357 : Ref sig .tc := ⟨.hbm, 446, rfl⟩
abbrev main_c_77 : Ref sig .tc := ⟨.hbm, 447, rfl⟩
abbrev main_v358 : Ref sig .tc := ⟨.hbm, 448, rfl⟩
abbrev main_v359 : Ref sig .tc := ⟨.hbm, 449, rfl⟩
abbrev main_c_78 : Ref sig .tc := ⟨.hbm, 450, rfl⟩
abbrev main_v360 : Ref sig .tc := ⟨.hbm, 451, rfl⟩
abbrev main_v361 : Ref sig .tc := ⟨.hbm, 452, rfl⟩
abbrev main_v362 : Ref sig .tc := ⟨.hbm, 453, rfl⟩
abbrev main_v363 : Ref sig .tc := ⟨.hbm, 454, rfl⟩
abbrev main_v364 : Ref sig .tc := ⟨.hbm, 455, rfl⟩
abbrev main_v365 : Ref sig .tc := ⟨.hbm, 456, rfl⟩
abbrev main_v366 : Ref sig .tc := ⟨.hbm, 457, rfl⟩
abbrev main_cst_79 : Ref sig .tc := ⟨.hbm, 458, rfl⟩
abbrev main_v367 : Ref sig .tc := ⟨.hbm, 459, rfl⟩
abbrev main_v368 : Ref sig .tc := ⟨.hbm, 460, rfl⟩
abbrev main_v369 : Ref sig .tc := ⟨.hbm, 461, rfl⟩
abbrev main_v370 : Ref sig .tc := ⟨.hbm, 462, rfl⟩
abbrev main_v371 : Ref sig .tc := ⟨.hbm, 463, rfl⟩
abbrev main_v372 : Ref sig .tc := ⟨.hbm, 464, rfl⟩
abbrev main_v373 : Ref sig .tc := ⟨.hbm, 465, rfl⟩
abbrev main_v374 : Ref sig .tc := ⟨.hbm, 466, rfl⟩
abbrev main_v375 : Ref sig .tc := ⟨.hbm, 467, rfl⟩
abbrev main_v376 : Ref sig .tc := ⟨.hbm, 468, rfl⟩
abbrev main_c_80 : Ref sig .tc := ⟨.hbm, 469, rfl⟩
abbrev main_v377 : Ref sig .tc := ⟨.hbm, 470, rfl⟩
abbrev main_v378 : Ref sig .tc := ⟨.hbm, 471, rfl⟩
abbrev main_v379 : Ref sig .tc := ⟨.hbm, 472, rfl⟩
abbrev main_v380 : Ref sig .tc := ⟨.hbm, 473, rfl⟩
abbrev main_v381 : Ref sig .tc := ⟨.hbm, 474, rfl⟩
abbrev main_cst_81 : Ref sig .tc := ⟨.hbm, 475, rfl⟩
abbrev main_v382 : Ref sig .tc := ⟨.hbm, 476, rfl⟩
abbrev main_v383 : Ref sig .tc := ⟨.hbm, 477, rfl⟩
abbrev main_v384 : Ref sig .tc := ⟨.hbm, 478, rfl⟩
abbrev main_v385 : Ref sig .tc := ⟨.hbm, 479, rfl⟩
abbrev main_cst_82 : Ref sig .tc := ⟨.hbm, 480, rfl⟩
abbrev main_v386 : Ref sig .tc := ⟨.hbm, 481, rfl⟩
abbrev main_v387 : Ref sig .tc := ⟨.hbm, 482, rfl⟩
abbrev main_v388 : Ref sig .tc := ⟨.hbm, 483, rfl⟩
abbrev main_v389 : Ref sig .tc := ⟨.hbm, 484, rfl⟩
abbrev main_cst_83 : Ref sig .tc := ⟨.hbm, 485, rfl⟩
abbrev main_v390 : Ref sig .tc := ⟨.hbm, 486, rfl⟩
abbrev main_v391 : Ref sig .tc := ⟨.hbm, 487, rfl⟩
abbrev main_v392 : Ref sig .tc := ⟨.hbm, 488, rfl⟩
abbrev main_v393 : Ref sig .tc := ⟨.hbm, 489, rfl⟩
abbrev main_cst_84 : Ref sig .tc := ⟨.hbm, 490, rfl⟩
abbrev main_v394 : Ref sig .tc := ⟨.hbm, 491, rfl⟩
abbrev main_v395 : Ref sig .tc := ⟨.hbm, 492, rfl⟩
abbrev main_v396 : Ref sig .tc := ⟨.hbm, 493, rfl⟩
abbrev main_v397 : Ref sig .tc := ⟨.hbm, 494, rfl⟩
abbrev main_cst_85 : Ref sig .tc := ⟨.hbm, 495, rfl⟩
abbrev main_v398 : Ref sig .tc := ⟨.hbm, 496, rfl⟩
abbrev main_v399 : Ref sig .tc := ⟨.hbm, 497, rfl⟩
abbrev main_v400 : Ref sig .tc := ⟨.hbm, 498, rfl⟩
abbrev main_v401 : Ref sig .tc := ⟨.hbm, 499, rfl⟩
abbrev main_cst_86 : Ref sig .tc := ⟨.hbm, 500, rfl⟩
abbrev main_v402 : Ref sig .tc := ⟨.hbm, 501, rfl⟩
abbrev main_v403 : Ref sig .tc := ⟨.hbm, 502, rfl⟩
abbrev main_v404 : Ref sig .tc := ⟨.hbm, 503, rfl⟩
abbrev main_v405 : Ref sig .tc := ⟨.hbm, 504, rfl⟩
abbrev main_cst_87 : Ref sig .tc := ⟨.hbm, 505, rfl⟩
abbrev main_v406 : Ref sig .tc := ⟨.hbm, 506, rfl⟩
abbrev main_v407 : Ref sig .tc := ⟨.hbm, 507, rfl⟩
abbrev main_v408 : Ref sig .tc := ⟨.hbm, 508, rfl⟩
abbrev main_v409 : Ref sig .tc := ⟨.hbm, 509, rfl⟩
abbrev main_cst_88 : Ref sig .tc := ⟨.hbm, 510, rfl⟩
abbrev main_v410 : Ref sig .tc := ⟨.hbm, 511, rfl⟩
abbrev main_v411 : Ref sig .tc := ⟨.hbm, 512, rfl⟩
abbrev main_v412 : Ref sig .tc := ⟨.hbm, 513, rfl⟩
abbrev main_v413 : Ref sig .tc := ⟨.hbm, 514, rfl⟩
abbrev main_cst_89 : Ref sig .tc := ⟨.hbm, 515, rfl⟩
abbrev main_v414 : Ref sig .tc := ⟨.hbm, 516, rfl⟩
abbrev main_v415 : Ref sig .tc := ⟨.hbm, 517, rfl⟩
abbrev main_v416 : Ref sig .tc := ⟨.hbm, 518, rfl⟩
abbrev main_v417 : Ref sig .tc := ⟨.hbm, 519, rfl⟩
abbrev main_cst_90 : Ref sig .tc := ⟨.hbm, 520, rfl⟩
abbrev main_v418 : Ref sig .tc := ⟨.hbm, 521, rfl⟩
abbrev main_v419 : Ref sig .tc := ⟨.hbm, 522, rfl⟩
abbrev main_v420 : Ref sig .tc := ⟨.hbm, 523, rfl⟩
abbrev main_v421 : Ref sig .tc := ⟨.hbm, 524, rfl⟩
abbrev main_c_91 : Ref sig .tc := ⟨.hbm, 525, rfl⟩
abbrev main_v422 : Ref sig .tc := ⟨.hbm, 526, rfl⟩
abbrev main_v423 : Ref sig .tc := ⟨.hbm, 527, rfl⟩
abbrev main_c_92 : Ref sig .tc := ⟨.hbm, 528, rfl⟩
abbrev main_v424 : Ref sig .tc := ⟨.hbm, 529, rfl⟩
abbrev main_v425 : Ref sig .tc := ⟨.hbm, 530, rfl⟩
abbrev main_v426 : Ref sig .tc := ⟨.hbm, 531, rfl⟩
abbrev main_v427 : Ref sig .tc := ⟨.hbm, 532, rfl⟩
abbrev main_v428 : Ref sig .tc := ⟨.hbm, 533, rfl⟩
abbrev main_v429 : Ref sig .tc := ⟨.hbm, 534, rfl⟩
abbrev main_v430 : Ref sig .tc := ⟨.hbm, 535, rfl⟩
abbrev main_cst_93 : Ref sig .tc := ⟨.hbm, 536, rfl⟩
abbrev main_v431 : Ref sig .tc := ⟨.hbm, 537, rfl⟩
abbrev main_v432 : Ref sig .tc := ⟨.hbm, 538, rfl⟩
abbrev main_v433 : Ref sig .tc := ⟨.hbm, 539, rfl⟩
abbrev main_v434 : Ref sig .tc := ⟨.hbm, 540, rfl⟩
abbrev main_v435 : Ref sig .tc := ⟨.hbm, 541, rfl⟩
abbrev main_v436 : Ref sig .tc := ⟨.hbm, 542, rfl⟩
abbrev main_v437 : Ref sig .tc := ⟨.hbm, 543, rfl⟩
abbrev main_v438 : Ref sig .tc := ⟨.hbm, 544, rfl⟩
abbrev main_v439 : Ref sig .tc := ⟨.hbm, 545, rfl⟩
abbrev main_v440 : Ref sig .tc := ⟨.hbm, 546, rfl⟩
abbrev main_c_94 : Ref sig .tc := ⟨.hbm, 547, rfl⟩
abbrev main_v441 : Ref sig .tc := ⟨.hbm, 548, rfl⟩
abbrev main_v442 : Ref sig .tc := ⟨.hbm, 549, rfl⟩
abbrev main_v443 : Ref sig .tc := ⟨.hbm, 550, rfl⟩
abbrev main_v444 : Ref sig .tc := ⟨.hbm, 551, rfl⟩
abbrev main_v445 : Ref sig .tc := ⟨.hbm, 552, rfl⟩
abbrev main_cst_95 : Ref sig .tc := ⟨.hbm, 553, rfl⟩
abbrev main_v446 : Ref sig .tc := ⟨.hbm, 554, rfl⟩
abbrev main_v447 : Ref sig .tc := ⟨.hbm, 555, rfl⟩
abbrev main_v448 : Ref sig .tc := ⟨.hbm, 556, rfl⟩
abbrev main_v449 : Ref sig .tc := ⟨.hbm, 557, rfl⟩
abbrev main_cst_96 : Ref sig .tc := ⟨.hbm, 558, rfl⟩
abbrev main_v450 : Ref sig .tc := ⟨.hbm, 559, rfl⟩
abbrev main_v451 : Ref sig .tc := ⟨.hbm, 560, rfl⟩
abbrev main_v452 : Ref sig .tc := ⟨.hbm, 561, rfl⟩
abbrev main_v453 : Ref sig .tc := ⟨.hbm, 562, rfl⟩
abbrev main_cst_97 : Ref sig .tc := ⟨.hbm, 563, rfl⟩
abbrev main_v454 : Ref sig .tc := ⟨.hbm, 564, rfl⟩
abbrev main_v455 : Ref sig .tc := ⟨.hbm, 565, rfl⟩
abbrev main_v456 : Ref sig .tc := ⟨.hbm, 566, rfl⟩
abbrev main_v457 : Ref sig .tc := ⟨.hbm, 567, rfl⟩
abbrev main_cst_98 : Ref sig .tc := ⟨.hbm, 568, rfl⟩
abbrev main_v458 : Ref sig .tc := ⟨.hbm, 569, rfl⟩
abbrev main_v459 : Ref sig .tc := ⟨.hbm, 570, rfl⟩
abbrev main_v460 : Ref sig .tc := ⟨.hbm, 571, rfl⟩
abbrev main_v461 : Ref sig .tc := ⟨.hbm, 572, rfl⟩
abbrev main_cst_99 : Ref sig .tc := ⟨.hbm, 573, rfl⟩
abbrev main_v462 : Ref sig .tc := ⟨.hbm, 574, rfl⟩
abbrev main_v463 : Ref sig .tc := ⟨.hbm, 575, rfl⟩
abbrev main_v464 : Ref sig .tc := ⟨.hbm, 576, rfl⟩
abbrev main_v465 : Ref sig .tc := ⟨.hbm, 577, rfl⟩
abbrev main_cst_100 : Ref sig .tc := ⟨.hbm, 578, rfl⟩
abbrev main_v466 : Ref sig .tc := ⟨.hbm, 579, rfl⟩
abbrev main_v467 : Ref sig .tc := ⟨.hbm, 580, rfl⟩
abbrev main_v468 : Ref sig .tc := ⟨.hbm, 581, rfl⟩
abbrev main_v469 : Ref sig .tc := ⟨.hbm, 582, rfl⟩
abbrev main_cst_101 : Ref sig .tc := ⟨.hbm, 583, rfl⟩
abbrev main_v470 : Ref sig .tc := ⟨.hbm, 584, rfl⟩
abbrev main_v471 : Ref sig .tc := ⟨.hbm, 585, rfl⟩
abbrev main_v472 : Ref sig .tc := ⟨.hbm, 586, rfl⟩
abbrev main_v473 : Ref sig .tc := ⟨.hbm, 587, rfl⟩
abbrev main_cst_102 : Ref sig .tc := ⟨.hbm, 588, rfl⟩
abbrev main_v474 : Ref sig .tc := ⟨.hbm, 589, rfl⟩
abbrev main_v475 : Ref sig .tc := ⟨.hbm, 590, rfl⟩
abbrev main_v476 : Ref sig .tc := ⟨.hbm, 591, rfl⟩
abbrev main_v477 : Ref sig .tc := ⟨.hbm, 592, rfl⟩
abbrev main_cst_103 : Ref sig .tc := ⟨.hbm, 593, rfl⟩
abbrev main_v478 : Ref sig .tc := ⟨.hbm, 594, rfl⟩
abbrev main_v479 : Ref sig .tc := ⟨.hbm, 595, rfl⟩
abbrev main_v480 : Ref sig .tc := ⟨.hbm, 596, rfl⟩
abbrev main_v481 : Ref sig .tc := ⟨.hbm, 597, rfl⟩
abbrev main_cst_104 : Ref sig .tc := ⟨.hbm, 598, rfl⟩
abbrev main_v482 : Ref sig .tc := ⟨.hbm, 599, rfl⟩
abbrev main_v483 : Ref sig .tc := ⟨.hbm, 600, rfl⟩
abbrev main_v484 : Ref sig .tc := ⟨.hbm, 601, rfl⟩
abbrev main_v485 : Ref sig .tc := ⟨.hbm, 602, rfl⟩
abbrev main_c_105 : Ref sig .tc := ⟨.hbm, 603, rfl⟩
abbrev main_v486 : Ref sig .tc := ⟨.hbm, 604, rfl⟩
abbrev main_v487 : Ref sig .tc := ⟨.hbm, 605, rfl⟩
abbrev main_c_106 : Ref sig .tc := ⟨.hbm, 606, rfl⟩
abbrev main_v488 : Ref sig .tc := ⟨.hbm, 607, rfl⟩
abbrev main_v489 : Ref sig .tc := ⟨.hbm, 608, rfl⟩
abbrev main_v490 : Ref sig .tc := ⟨.hbm, 609, rfl⟩
abbrev main_v491 : Ref sig .tc := ⟨.hbm, 610, rfl⟩
abbrev main_v492 : Ref sig .tc := ⟨.hbm, 611, rfl⟩
abbrev main_v493 : Ref sig .tc := ⟨.hbm, 612, rfl⟩
abbrev main_v494 : Ref sig .tc := ⟨.hbm, 613, rfl⟩
abbrev main_cst_107 : Ref sig .tc := ⟨.hbm, 614, rfl⟩
abbrev main_v495 : Ref sig .tc := ⟨.hbm, 615, rfl⟩
abbrev main_v496 : Ref sig .tc := ⟨.hbm, 616, rfl⟩
abbrev main_v497 : Ref sig .tc := ⟨.hbm, 617, rfl⟩
abbrev main_v498 : Ref sig .tc := ⟨.hbm, 618, rfl⟩
abbrev main_v499 : Ref sig .tc := ⟨.hbm, 619, rfl⟩
abbrev main_v500 : Ref sig .tc := ⟨.hbm, 620, rfl⟩
abbrev main_v501 : Ref sig .tc := ⟨.hbm, 621, rfl⟩
abbrev main_v502 : Ref sig .tc := ⟨.hbm, 622, rfl⟩
abbrev main_v503 : Ref sig .tc := ⟨.hbm, 623, rfl⟩
abbrev main_v504 : Ref sig .tc := ⟨.hbm, 624, rfl⟩
abbrev main_c_108 : Ref sig .tc := ⟨.hbm, 625, rfl⟩
abbrev main_v505 : Ref sig .tc := ⟨.hbm, 626, rfl⟩
abbrev main_v506 : Ref sig .tc := ⟨.hbm, 627, rfl⟩
abbrev main_v507 : Ref sig .tc := ⟨.hbm, 628, rfl⟩
abbrev main_v508 : Ref sig .tc := ⟨.hbm, 629, rfl⟩
abbrev main_v509 : Ref sig .tc := ⟨.hbm, 630, rfl⟩
abbrev main_cst_109 : Ref sig .tc := ⟨.hbm, 631, rfl⟩
abbrev main_v510 : Ref sig .tc := ⟨.hbm, 632, rfl⟩
abbrev main_v511 : Ref sig .tc := ⟨.hbm, 633, rfl⟩
abbrev main_v512 : Ref sig .tc := ⟨.hbm, 634, rfl⟩
abbrev main_v513 : Ref sig .tc := ⟨.hbm, 635, rfl⟩
abbrev main_cst_110 : Ref sig .tc := ⟨.hbm, 636, rfl⟩
abbrev main_v514 : Ref sig .tc := ⟨.hbm, 637, rfl⟩
abbrev main_v515 : Ref sig .tc := ⟨.hbm, 638, rfl⟩
abbrev main_v516 : Ref sig .tc := ⟨.hbm, 639, rfl⟩
abbrev main_v517 : Ref sig .tc := ⟨.hbm, 640, rfl⟩
abbrev main_cst_111 : Ref sig .tc := ⟨.hbm, 641, rfl⟩
abbrev main_v518 : Ref sig .tc := ⟨.hbm, 642, rfl⟩
abbrev main_v519 : Ref sig .tc := ⟨.hbm, 643, rfl⟩
abbrev main_v520 : Ref sig .tc := ⟨.hbm, 644, rfl⟩
abbrev main_v521 : Ref sig .tc := ⟨.hbm, 645, rfl⟩
abbrev main_cst_112 : Ref sig .tc := ⟨.hbm, 646, rfl⟩
abbrev main_v522 : Ref sig .tc := ⟨.hbm, 647, rfl⟩
abbrev main_v523 : Ref sig .tc := ⟨.hbm, 648, rfl⟩
abbrev main_v524 : Ref sig .tc := ⟨.hbm, 649, rfl⟩
abbrev main_v525 : Ref sig .tc := ⟨.hbm, 650, rfl⟩
abbrev main_cst_113 : Ref sig .tc := ⟨.hbm, 651, rfl⟩
abbrev main_v526 : Ref sig .tc := ⟨.hbm, 652, rfl⟩
abbrev main_v527 : Ref sig .tc := ⟨.hbm, 653, rfl⟩
abbrev main_v528 : Ref sig .tc := ⟨.hbm, 654, rfl⟩
abbrev main_v529 : Ref sig .tc := ⟨.hbm, 655, rfl⟩
abbrev main_cst_114 : Ref sig .tc := ⟨.hbm, 656, rfl⟩
abbrev main_v530 : Ref sig .tc := ⟨.hbm, 657, rfl⟩
abbrev main_v531 : Ref sig .tc := ⟨.hbm, 658, rfl⟩
abbrev main_v532 : Ref sig .tc := ⟨.hbm, 659, rfl⟩
abbrev main_v533 : Ref sig .tc := ⟨.hbm, 660, rfl⟩
abbrev main_cst_115 : Ref sig .tc := ⟨.hbm, 661, rfl⟩
abbrev main_v534 : Ref sig .tc := ⟨.hbm, 662, rfl⟩
abbrev main_v535 : Ref sig .tc := ⟨.hbm, 663, rfl⟩
abbrev main_v536 : Ref sig .tc := ⟨.hbm, 664, rfl⟩
abbrev main_v537 : Ref sig .tc := ⟨.hbm, 665, rfl⟩
abbrev main_cst_116 : Ref sig .tc := ⟨.hbm, 666, rfl⟩
abbrev main_v538 : Ref sig .tc := ⟨.hbm, 667, rfl⟩
abbrev main_v539 : Ref sig .tc := ⟨.hbm, 668, rfl⟩
abbrev main_v540 : Ref sig .tc := ⟨.hbm, 669, rfl⟩
abbrev main_v541 : Ref sig .tc := ⟨.hbm, 670, rfl⟩
abbrev main_cst_117 : Ref sig .tc := ⟨.hbm, 671, rfl⟩
abbrev main_v542 : Ref sig .tc := ⟨.hbm, 672, rfl⟩
abbrev main_v543 : Ref sig .tc := ⟨.hbm, 673, rfl⟩
abbrev main_v544 : Ref sig .tc := ⟨.hbm, 674, rfl⟩
abbrev main_v545 : Ref sig .tc := ⟨.hbm, 675, rfl⟩
abbrev main_cst_118 : Ref sig .tc := ⟨.hbm, 676, rfl⟩
abbrev main_v546 : Ref sig .tc := ⟨.hbm, 677, rfl⟩
abbrev main_v547 : Ref sig .tc := ⟨.hbm, 678, rfl⟩
abbrev main_v548 : Ref sig .tc := ⟨.hbm, 679, rfl⟩
abbrev main_v549 : Ref sig .tc := ⟨.hbm, 680, rfl⟩
abbrev main_c_119 : Ref sig .tc := ⟨.hbm, 681, rfl⟩
abbrev main_v550 : Ref sig .tc := ⟨.hbm, 682, rfl⟩
abbrev main_v551 : Ref sig .tc := ⟨.hbm, 683, rfl⟩
abbrev main_c_120 : Ref sig .tc := ⟨.hbm, 684, rfl⟩
abbrev main_v552 : Ref sig .tc := ⟨.hbm, 685, rfl⟩
abbrev main_v553 : Ref sig .tc := ⟨.hbm, 686, rfl⟩
abbrev main_v554 : Ref sig .tc := ⟨.hbm, 687, rfl⟩
abbrev main_v555 : Ref sig .tc := ⟨.hbm, 688, rfl⟩
abbrev main_v556 : Ref sig .tc := ⟨.hbm, 689, rfl⟩
abbrev main_v557 : Ref sig .tc := ⟨.hbm, 690, rfl⟩
abbrev main_v558 : Ref sig .tc := ⟨.hbm, 691, rfl⟩
abbrev main_cst_121 : Ref sig .tc := ⟨.hbm, 692, rfl⟩
abbrev main_v559 : Ref sig .tc := ⟨.hbm, 693, rfl⟩
abbrev main_v560 : Ref sig .tc := ⟨.hbm, 694, rfl⟩
abbrev main_v561 : Ref sig .tc := ⟨.hbm, 695, rfl⟩
abbrev main_v562 : Ref sig .tc := ⟨.hbm, 696, rfl⟩
abbrev main_v563 : Ref sig .tc := ⟨.hbm, 697, rfl⟩
abbrev main_v564 : Ref sig .tc := ⟨.hbm, 698, rfl⟩
abbrev main_v565 : Ref sig .tc := ⟨.hbm, 699, rfl⟩
abbrev main_v566 : Ref sig .tc := ⟨.hbm, 700, rfl⟩
abbrev main_v567 : Ref sig .tc := ⟨.hbm, 701, rfl⟩
abbrev main_v568 : Ref sig .tc := ⟨.hbm, 702, rfl⟩
abbrev main_c_122 : Ref sig .tc := ⟨.hbm, 703, rfl⟩
abbrev main_v569 : Ref sig .tc := ⟨.hbm, 704, rfl⟩
abbrev main_v570 : Ref sig .tc := ⟨.hbm, 705, rfl⟩
abbrev main_v571 : Ref sig .tc := ⟨.hbm, 706, rfl⟩
abbrev main_v572 : Ref sig .tc := ⟨.hbm, 707, rfl⟩
abbrev main_v573 : Ref sig .tc := ⟨.hbm, 708, rfl⟩
abbrev main_cst_123 : Ref sig .tc := ⟨.hbm, 709, rfl⟩
abbrev main_v574 : Ref sig .tc := ⟨.hbm, 710, rfl⟩
abbrev main_v575 : Ref sig .tc := ⟨.hbm, 711, rfl⟩
abbrev main_v576 : Ref sig .tc := ⟨.hbm, 712, rfl⟩
abbrev main_v577 : Ref sig .tc := ⟨.hbm, 713, rfl⟩
abbrev main_cst_124 : Ref sig .tc := ⟨.hbm, 714, rfl⟩
abbrev main_v578 : Ref sig .tc := ⟨.hbm, 715, rfl⟩
abbrev main_v579 : Ref sig .tc := ⟨.hbm, 716, rfl⟩
abbrev main_v580 : Ref sig .tc := ⟨.hbm, 717, rfl⟩
abbrev main_v581 : Ref sig .tc := ⟨.hbm, 718, rfl⟩
abbrev main_cst_125 : Ref sig .tc := ⟨.hbm, 719, rfl⟩
abbrev main_v582 : Ref sig .tc := ⟨.hbm, 720, rfl⟩
abbrev main_v583 : Ref sig .tc := ⟨.hbm, 721, rfl⟩
abbrev main_v584 : Ref sig .tc := ⟨.hbm, 722, rfl⟩
abbrev main_v585 : Ref sig .tc := ⟨.hbm, 723, rfl⟩
abbrev main_cst_126 : Ref sig .tc := ⟨.hbm, 724, rfl⟩
abbrev main_v586 : Ref sig .tc := ⟨.hbm, 725, rfl⟩
abbrev main_v587 : Ref sig .tc := ⟨.hbm, 726, rfl⟩
abbrev main_v588 : Ref sig .tc := ⟨.hbm, 727, rfl⟩
abbrev main_v589 : Ref sig .tc := ⟨.hbm, 728, rfl⟩
abbrev main_cst_127 : Ref sig .tc := ⟨.hbm, 729, rfl⟩
abbrev main_v590 : Ref sig .tc := ⟨.hbm, 730, rfl⟩
abbrev main_v591 : Ref sig .tc := ⟨.hbm, 731, rfl⟩
abbrev main_v592 : Ref sig .tc := ⟨.hbm, 732, rfl⟩
abbrev main_v593 : Ref sig .tc := ⟨.hbm, 733, rfl⟩
abbrev main_cst_128 : Ref sig .tc := ⟨.hbm, 734, rfl⟩
abbrev main_v594 : Ref sig .tc := ⟨.hbm, 735, rfl⟩
abbrev main_v595 : Ref sig .tc := ⟨.hbm, 736, rfl⟩
abbrev main_v596 : Ref sig .tc := ⟨.hbm, 737, rfl⟩
abbrev main_v597 : Ref sig .tc := ⟨.hbm, 738, rfl⟩
abbrev main_cst_129 : Ref sig .tc := ⟨.hbm, 739, rfl⟩
abbrev main_v598 : Ref sig .tc := ⟨.hbm, 740, rfl⟩
abbrev main_v599 : Ref sig .tc := ⟨.hbm, 741, rfl⟩
abbrev main_v600 : Ref sig .tc := ⟨.hbm, 742, rfl⟩
abbrev main_v601 : Ref sig .tc := ⟨.hbm, 743, rfl⟩
abbrev main_cst_130 : Ref sig .tc := ⟨.hbm, 744, rfl⟩
abbrev main_v602 : Ref sig .tc := ⟨.hbm, 745, rfl⟩
abbrev main_v603 : Ref sig .tc := ⟨.hbm, 746, rfl⟩
abbrev main_v604 : Ref sig .tc := ⟨.hbm, 747, rfl⟩
abbrev main_v605 : Ref sig .tc := ⟨.hbm, 748, rfl⟩
abbrev main_cst_131 : Ref sig .tc := ⟨.hbm, 749, rfl⟩
abbrev main_v606 : Ref sig .tc := ⟨.hbm, 750, rfl⟩
abbrev main_v607 : Ref sig .tc := ⟨.hbm, 751, rfl⟩
abbrev main_v608 : Ref sig .tc := ⟨.hbm, 752, rfl⟩
abbrev main_v609 : Ref sig .tc := ⟨.hbm, 753, rfl⟩
abbrev main_cst_132 : Ref sig .tc := ⟨.hbm, 754, rfl⟩
abbrev main_v610 : Ref sig .tc := ⟨.hbm, 755, rfl⟩
abbrev main_v611 : Ref sig .tc := ⟨.hbm, 756, rfl⟩
abbrev main_v612 : Ref sig .tc := ⟨.hbm, 757, rfl⟩
abbrev main_v613 : Ref sig .tc := ⟨.hbm, 758, rfl⟩
abbrev main_c_133 : Ref sig .tc := ⟨.hbm, 759, rfl⟩
abbrev main_v614 : Ref sig .tc := ⟨.hbm, 760, rfl⟩
abbrev main_v615 : Ref sig .tc := ⟨.hbm, 761, rfl⟩
abbrev main_c_134 : Ref sig .tc := ⟨.hbm, 762, rfl⟩
abbrev main_v616 : Ref sig .tc := ⟨.hbm, 763, rfl⟩
abbrev main_v617 : Ref sig .tc := ⟨.hbm, 764, rfl⟩
abbrev main_v618 : Ref sig .tc := ⟨.hbm, 765, rfl⟩
abbrev main_v619 : Ref sig .tc := ⟨.hbm, 766, rfl⟩
abbrev main_v620 : Ref sig .tc := ⟨.hbm, 767, rfl⟩
abbrev main_v621 : Ref sig .tc := ⟨.hbm, 768, rfl⟩
abbrev main_v622 : Ref sig .tc := ⟨.hbm, 769, rfl⟩
abbrev main_cst_135 : Ref sig .tc := ⟨.hbm, 770, rfl⟩
abbrev main_v623 : Ref sig .tc := ⟨.hbm, 771, rfl⟩
abbrev main_v624 : Ref sig .tc := ⟨.hbm, 772, rfl⟩
abbrev main_v625 : Ref sig .tc := ⟨.hbm, 773, rfl⟩
abbrev main_v626 : Ref sig .tc := ⟨.hbm, 774, rfl⟩
abbrev main_v627 : Ref sig .tc := ⟨.hbm, 775, rfl⟩
abbrev main_v628 : Ref sig .tc := ⟨.hbm, 776, rfl⟩
abbrev main_v629 : Ref sig .tc := ⟨.hbm, 777, rfl⟩
abbrev main_v630 : Ref sig .tc := ⟨.hbm, 778, rfl⟩
abbrev main_v631 : Ref sig .tc := ⟨.hbm, 779, rfl⟩
abbrev main_v632 : Ref sig .tc := ⟨.hbm, 780, rfl⟩
abbrev main_c_136 : Ref sig .tc := ⟨.hbm, 781, rfl⟩
abbrev main_v633 : Ref sig .tc := ⟨.hbm, 782, rfl⟩
abbrev main_v634 : Ref sig .tc := ⟨.hbm, 783, rfl⟩
abbrev main_v635 : Ref sig .tc := ⟨.hbm, 784, rfl⟩
abbrev main_v636 : Ref sig .tc := ⟨.hbm, 785, rfl⟩
abbrev main_v637 : Ref sig .tc := ⟨.hbm, 786, rfl⟩
abbrev main_cst_137 : Ref sig .tc := ⟨.hbm, 787, rfl⟩
abbrev main_v638 : Ref sig .tc := ⟨.hbm, 788, rfl⟩
abbrev main_v639 : Ref sig .tc := ⟨.hbm, 789, rfl⟩
abbrev main_v640 : Ref sig .tc := ⟨.hbm, 790, rfl⟩
abbrev main_v641 : Ref sig .tc := ⟨.hbm, 791, rfl⟩
abbrev main_cst_138 : Ref sig .tc := ⟨.hbm, 792, rfl⟩
abbrev main_v642 : Ref sig .tc := ⟨.hbm, 793, rfl⟩
abbrev main_v643 : Ref sig .tc := ⟨.hbm, 794, rfl⟩
abbrev main_v644 : Ref sig .tc := ⟨.hbm, 795, rfl⟩
abbrev main_v645 : Ref sig .tc := ⟨.hbm, 796, rfl⟩
abbrev main_cst_139 : Ref sig .tc := ⟨.hbm, 797, rfl⟩
abbrev main_v646 : Ref sig .tc := ⟨.hbm, 798, rfl⟩
abbrev main_v647 : Ref sig .tc := ⟨.hbm, 799, rfl⟩
abbrev main_v648 : Ref sig .tc := ⟨.hbm, 800, rfl⟩
abbrev main_v649 : Ref sig .tc := ⟨.hbm, 801, rfl⟩
abbrev main_cst_140 : Ref sig .tc := ⟨.hbm, 802, rfl⟩
abbrev main_v650 : Ref sig .tc := ⟨.hbm, 803, rfl⟩
abbrev main_v651 : Ref sig .tc := ⟨.hbm, 804, rfl⟩
abbrev main_v652 : Ref sig .tc := ⟨.hbm, 805, rfl⟩
abbrev main_v653 : Ref sig .tc := ⟨.hbm, 806, rfl⟩
abbrev main_cst_141 : Ref sig .tc := ⟨.hbm, 807, rfl⟩
abbrev main_v654 : Ref sig .tc := ⟨.hbm, 808, rfl⟩
abbrev main_v655 : Ref sig .tc := ⟨.hbm, 809, rfl⟩
abbrev main_v656 : Ref sig .tc := ⟨.hbm, 810, rfl⟩
abbrev main_v657 : Ref sig .tc := ⟨.hbm, 811, rfl⟩
abbrev main_cst_142 : Ref sig .tc := ⟨.hbm, 812, rfl⟩
abbrev main_v658 : Ref sig .tc := ⟨.hbm, 813, rfl⟩
abbrev main_v659 : Ref sig .tc := ⟨.hbm, 814, rfl⟩
abbrev main_v660 : Ref sig .tc := ⟨.hbm, 815, rfl⟩
abbrev main_v661 : Ref sig .tc := ⟨.hbm, 816, rfl⟩
abbrev main_cst_143 : Ref sig .tc := ⟨.hbm, 817, rfl⟩
abbrev main_v662 : Ref sig .tc := ⟨.hbm, 818, rfl⟩
abbrev main_v663 : Ref sig .tc := ⟨.hbm, 819, rfl⟩
abbrev main_v664 : Ref sig .tc := ⟨.hbm, 820, rfl⟩
abbrev main_v665 : Ref sig .tc := ⟨.hbm, 821, rfl⟩
abbrev main_cst_144 : Ref sig .tc := ⟨.hbm, 822, rfl⟩
abbrev main_v666 : Ref sig .tc := ⟨.hbm, 823, rfl⟩
abbrev main_v667 : Ref sig .tc := ⟨.hbm, 824, rfl⟩
abbrev main_v668 : Ref sig .tc := ⟨.hbm, 825, rfl⟩
abbrev main_v669 : Ref sig .tc := ⟨.hbm, 826, rfl⟩
abbrev main_cst_145 : Ref sig .tc := ⟨.hbm, 827, rfl⟩
abbrev main_v670 : Ref sig .tc := ⟨.hbm, 828, rfl⟩
abbrev main_v671 : Ref sig .tc := ⟨.hbm, 829, rfl⟩
abbrev main_v672 : Ref sig .tc := ⟨.hbm, 830, rfl⟩
abbrev main_v673 : Ref sig .tc := ⟨.hbm, 831, rfl⟩
abbrev main_cst_146 : Ref sig .tc := ⟨.hbm, 832, rfl⟩
abbrev main_v674 : Ref sig .tc := ⟨.hbm, 833, rfl⟩
abbrev main_v675 : Ref sig .tc := ⟨.hbm, 834, rfl⟩
abbrev main_v676 : Ref sig .tc := ⟨.hbm, 835, rfl⟩
abbrev main_v677 : Ref sig .tc := ⟨.hbm, 836, rfl⟩
abbrev main_c_147 : Ref sig .tc := ⟨.hbm, 837, rfl⟩
abbrev main_v678 : Ref sig .tc := ⟨.hbm, 838, rfl⟩
abbrev main_v679 : Ref sig .tc := ⟨.hbm, 839, rfl⟩
abbrev main_c_148 : Ref sig .tc := ⟨.hbm, 840, rfl⟩
abbrev main_v680 : Ref sig .tc := ⟨.hbm, 841, rfl⟩
abbrev main_v681 : Ref sig .tc := ⟨.hbm, 842, rfl⟩
abbrev main_v682 : Ref sig .tc := ⟨.hbm, 843, rfl⟩
abbrev main_v683 : Ref sig .tc := ⟨.hbm, 844, rfl⟩
abbrev main_v684 : Ref sig .tc := ⟨.hbm, 845, rfl⟩
abbrev main_v685 : Ref sig .tc := ⟨.hbm, 846, rfl⟩
abbrev main_v686 : Ref sig .tc := ⟨.hbm, 847, rfl⟩
abbrev main_cst_149 : Ref sig .tc := ⟨.hbm, 848, rfl⟩
abbrev main_v687 : Ref sig .tc := ⟨.hbm, 849, rfl⟩
abbrev main_v688 : Ref sig .tc := ⟨.hbm, 850, rfl⟩
abbrev main_v689 : Ref sig .tc := ⟨.hbm, 851, rfl⟩
abbrev main_v690 : Ref sig .tc := ⟨.hbm, 852, rfl⟩
abbrev main_v691 : Ref sig .tc := ⟨.hbm, 853, rfl⟩
abbrev main_v692 : Ref sig .tc := ⟨.hbm, 854, rfl⟩
abbrev main_c_150 : Ref sig .tc := ⟨.hbm, 855, rfl⟩
abbrev main_v693 : Ref sig .tc := ⟨.hbm, 856, rfl⟩
abbrev main_v694 : Ref sig .tc := ⟨.hbm, 857, rfl⟩
abbrev main_c_151 : Ref sig .tc := ⟨.hbm, 858, rfl⟩
abbrev main_v695 : Ref sig .tc := ⟨.hbm, 859, rfl⟩
abbrev main_v696 : Ref sig .tc := ⟨.hbm, 860, rfl⟩
abbrev main_v697 : Ref sig .tc := ⟨.hbm, 861, rfl⟩
abbrev main_v698 : Ref sig .tc := ⟨.hbm, 862, rfl⟩
abbrev main_v699 : Ref sig .tc := ⟨.hbm, 863, rfl⟩
abbrev main_v700 : Ref sig .tc := ⟨.hbm, 864, rfl⟩
abbrev main_cst_152 : Ref sig .tc := ⟨.hbm, 865, rfl⟩
abbrev main_v701 : Ref sig .tc := ⟨.hbm, 866, rfl⟩
abbrev main_v702 : Ref sig .tc := ⟨.hbm, 867, rfl⟩
abbrev main_v703 : Ref sig .tc := ⟨.hbm, 868, rfl⟩
abbrev main_v704 : Ref sig .tc := ⟨.hbm, 869, rfl⟩
abbrev main_v705 : Ref sig .tc := ⟨.hbm, 870, rfl⟩
abbrev main_v706 : Ref sig .tc := ⟨.hbm, 871, rfl⟩
abbrev main_v707 : Ref sig .tc := ⟨.hbm, 872, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  concatenates_S1200000_S200000_S1400000_d0 : Shape.Concatenates [S1200000, S200000] S1400000 0
  bcast_S_S200000 : S_.BroadcastsInDim S200000 (![] : Fin 0 → Fin S200000.rank)
  bcast_S1400000_S1400000x1_0 : S1400000.BroadcastsInDim S1400000x1 (![0] : Fin 1 → Fin S1400000x1.rank)
  bcast_S_S1400000 : S_.BroadcastsInDim S1400000 (![] : Fin 0 → Fin S1400000.rank)
  bcast_S1400000x1_S1400000x64_0_1 : S1400000x1.BroadcastsInDim S1400000x64 (![0, 1] : Fin 2 → Fin S1400000x64.rank)
  bcast_S_S200000x64 : S_.BroadcastsInDim S200000x64 (![] : Fin 0 → Fin S200000x64.rank)
  bcast_S64_S1x64_1 : S64.BroadcastsInDim S1x64 (![1] : Fin 1 → Fin S1x64.rank)
  bcast_S1x64_S200000x64_0_1 : S1x64.BroadcastsInDim S200000x64 (![0, 1] : Fin 2 → Fin S200000x64.rank)
  slices_S10x64x64_S1x64x64_0_0_0 : S10x64x64.Slices ![0, 0, 0] S1x64x64
  shapeCasts_S1x64x64_S64x64 : S1x64x64.ShapeCasts S64x64
  transposes_S64x64_S64x64_1_0 : S64x64.Transposes [1, 0] S64x64
  bcast_S_S64x64 : S_.BroadcastsInDim S64x64 (![] : Fin 0 → Fin S64x64.rank)
  slices_S10x64x64_S1x64x64_1_0_0 : S10x64x64.Slices ![1, 0, 0] S1x64x64
  slices_S10x64x64_S1x64x64_2_0_0 : S10x64x64.Slices ![2, 0, 0] S1x64x64
  slices_S10x64x64_S1x64x64_3_0_0 : S10x64x64.Slices ![3, 0, 0] S1x64x64
  slices_S10x64x64_S1x64x64_4_0_0 : S10x64x64.Slices ![4, 0, 0] S1x64x64
  slices_S10x64x64_S1x64x64_5_0_0 : S10x64x64.Slices ![5, 0, 0] S1x64x64
  slices_S10x64x64_S1x64x64_6_0_0 : S10x64x64.Slices ![6, 0, 0] S1x64x64
  slices_S10x64x64_S1x64x64_7_0_0 : S10x64x64.Slices ![7, 0, 0] S1x64x64
  slices_S10x64x64_S1x64x64_8_0_0 : S10x64x64.Slices ![8, 0, 0] S1x64x64
  slices_S10x64x64_S1x64x64_9_0_0 : S10x64x64.Slices ![9, 0, 0] S1x64x64
  bcast_S_S200000x1 : S_.BroadcastsInDim S200000x1 (![] : Fin 0 → Fin S200000x1.rank)
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  bcast_S200000x1_S200000x1x1_0_1 : S200000x1.BroadcastsInDim S200000x1x1 (![0, 1] : Fin 2 → Fin S200000x1x1.rank)
  scatter_S200000_S1400000x1_S1400000_n_0_0_1_wf : ScatterDims.WF S200000 S1400000x1 S1400000 [] [0] [0] 1
  gather_S200000_S1400000x1_S1400000_n_0_n_n_0_1_1_wf : GatherDims.WF S200000 S1400000x1 S1400000 [] [0] [] [0] [] 1 ![1]
  dot_S200000x1_S1x64_S200000x64_1_0_0_1_n_n_wf : DotDims.WF S200000x1 S1x64 S200000x64 [1] [0] [0] [1] [] []
  gather_S200000x64_S1400000x1_S1400000x64_1_0_n_n_0_1_164_wf : GatherDims.WF S200000x64 S1400000x1 S1400000x64 [1] [0] [] [0] [] 1 ![1, 64]
  scatter_S200000x64_S1400000x1_S1400000x64_1_0_0_1_wf : ScatterDims.WF S200000x64 S1400000x1 S1400000x64 [1] [0] [0] 1
  dot_S64x64_S64x64_S64x64_1_0_0_1_n_n_wf : DotDims.WF S64x64 S64x64 S64x64 [1] [0] [0] [1] [] []
  dot_S200000x64_S64x64_S200000x64_1_0_0_1_n_n_wf : DotDims.WF S200000x64 S64x64 S200000x64 [1] [0] [0] [1] [] []
  dot_S200000x64_S64x1_S200000x1_1_0_0_1_n_n_wf : DotDims.WF S200000x64 S64x1 S200000x1 [1] [0] [0] [1] [] []
  gather_S200000x1_S1400000x1_S1400000x1_1_0_n_n_0_1_11_wf : GatherDims.WF S200000x1 S1400000x1 S1400000x1 [1] [0] [] [0] [] 1 ![1, 1]
  scatter_S200000x1_S1400000x1_S1400000x1_1_0_0_1_wf : ScatterDims.WF S200000x1 S1400000x1 S1400000x1 [1] [0] [0] 1

variable [Facts₀]

def scatter_S200000_S1400000x1_S1400000_n_0_0_1 : ScatterDims S200000 S1400000x1 S1400000 where
  updateWindowDims := []
  insertedWindowDims := [0]
  scatterDimsToOperandDims := [0]
  indexVectorDim := 1
  wf := scatter_S200000_S1400000x1_S1400000_n_0_0_1_wf
def gather_S200000_S1400000x1_S1400000_n_0_n_n_0_1_1 : GatherDims S200000 S1400000x1 S1400000 where
  offsetDims := []
  collapsedSliceDims := [0]
  operandBatchingDims := []
  startIndicesBatchingDims := []
  startIndexMap := [0]
  indexVectorDim := 1
  sliceSizes := ![1]
  wf := gather_S200000_S1400000x1_S1400000_n_0_n_n_0_1_1_wf
def dot_S200000x1_S1x64_S200000x64_1_0_0_1_n_n : DotDims S200000x1 S1x64 S200000x64 where
  lhsContracting := [1]
  rhsContracting := [0]
  lhsNonContracting := [0]
  rhsNonContracting := [1]
  lhsBatch := []
  rhsBatch := []
  wf := dot_S200000x1_S1x64_S200000x64_1_0_0_1_n_n_wf
def gather_S200000x64_S1400000x1_S1400000x64_1_0_n_n_0_1_164 : GatherDims S200000x64 S1400000x1 S1400000x64 where
  offsetDims := [1]
  collapsedSliceDims := [0]
  operandBatchingDims := []
  startIndicesBatchingDims := []
  startIndexMap := [0]
  indexVectorDim := 1
  sliceSizes := ![1, 64]
  wf := gather_S200000x64_S1400000x1_S1400000x64_1_0_n_n_0_1_164_wf
def scatter_S200000x64_S1400000x1_S1400000x64_1_0_0_1 : ScatterDims S200000x64 S1400000x1 S1400000x64 where
  updateWindowDims := [1]
  insertedWindowDims := [0]
  scatterDimsToOperandDims := [0]
  indexVectorDim := 1
  wf := scatter_S200000x64_S1400000x1_S1400000x64_1_0_0_1_wf
def dot_S64x64_S64x64_S64x64_1_0_0_1_n_n : DotDims S64x64 S64x64 S64x64 where
  lhsContracting := [1]
  rhsContracting := [0]
  lhsNonContracting := [0]
  rhsNonContracting := [1]
  lhsBatch := []
  rhsBatch := []
  wf := dot_S64x64_S64x64_S64x64_1_0_0_1_n_n_wf
def dot_S200000x64_S64x64_S200000x64_1_0_0_1_n_n : DotDims S200000x64 S64x64 S200000x64 where
  lhsContracting := [1]
  rhsContracting := [0]
  lhsNonContracting := [0]
  rhsNonContracting := [1]
  lhsBatch := []
  rhsBatch := []
  wf := dot_S200000x64_S64x64_S200000x64_1_0_0_1_n_n_wf
def dot_S200000x64_S64x1_S200000x1_1_0_0_1_n_n : DotDims S200000x64 S64x1 S200000x1 where
  lhsContracting := [1]
  rhsContracting := [0]
  lhsNonContracting := [0]
  rhsNonContracting := [1]
  lhsBatch := []
  rhsBatch := []
  wf := dot_S200000x64_S64x1_S200000x1_1_0_0_1_n_n_wf
def gather_S200000x1_S1400000x1_S1400000x1_1_0_n_n_0_1_11 : GatherDims S200000x1 S1400000x1 S1400000x1 where
  offsetDims := [1]
  collapsedSliceDims := [0]
  operandBatchingDims := []
  startIndicesBatchingDims := []
  startIndexMap := [0]
  indexVectorDim := 1
  sliceSizes := ![1, 1]
  wf := gather_S200000x1_S1400000x1_S1400000x1_1_0_n_n_0_1_11_wf
def scatter_S200000x1_S1400000x1_S1400000x1_1_0_0_1 : ScatterDims S200000x1 S1400000x1 S1400000x1 where
  updateWindowDims := [1]
  insertedWindowDims := [0]
  scatterDimsToOperandDims := [0]
  indexVectorDim := 1
  wf := scatter_S200000x1_S1400000x1_S1400000x1_1_0_0_1_wf

class Facts : Prop extends Facts₀ where

variable [Facts]
-- ==== Proof.Spec.lean ====
/-
  The graph-convolution network both programs compute, stage by stage, as pure functions of arrays.

  An edge list of 1200000 (source, target) pairs gets 200000 self loops appended (source and target indices
  `rowIx`, `colIx`, weights `wFull` with ones on the loops). The degree of a node is the sum of the weights of
  the edges that end in it; the symmetric normalisation of an edge is deg^(-1/2)[source] · weight ·
  deg^(-1/2)[target], with deg^(-1/2) read as 0 where the degree is not positive (`edgeNorm`). One propagation
  step gathers the source rows of a feature matrix, scales each by its edge's normalisation and adds it into
  its target row (`prop64` for 64 features, `prop1` for one). A layer's weight is the degree-10 Taylor
  polynomial of the exponential of the skew part W - Wᵀ of a 64 × 64 slice (`skewPart`, `expmTaylor`).
  The stages are spelled exactly as the host operations of the two programs spell them, so that each
  program's stretch of operations is one of these functions of the values it reads.
-/
import proofs.«415904_j29016799052628_2_alg».proof.KernelIdeal

noncomputable section

namespace Cert.Spec

open Idealize.ShloMosaic Cert.KernelIdeal Cert.KernelIdeal.Facts₀

variable {F : FTy → Type} [FloatOps F] [Cert.KernelIdeal.Facts]

/-- The contents of a buffer of shape `S` and element type `e`. -/
abbrev Arr (F : FTy → Type) [FloatOps F] (S : Shape) (e : EltTy) : Type := (⟨S, e⟩ : BufTy).Contents (Elt F)

/-- Row `r` (0 or 1) of the edge list followed by 0 … 199999: the source (r = 0) or target (r = 1) node of every
    edge, self loops last. -/
def rowIx (ei : Arr F S2x1200000 .i32) : Arr F S1400000 .i32 :=
  have v0 : Arr F S1x1200000 .i32 := extractStridedSlice S1x1200000 ![0, 0] ei slices_S2x1200000_S1x1200000_0_0
  have v1 : Arr F S1200000 .i32 := fun i => shapeCast S1200000 v0 shapeCasts_S1x1200000_S1200000 i
  have v4 : Arr F S200000 .i32 := iotaInDim S200000 32 0
  concatenate S1400000 0 [⟨S1200000, v1⟩, ⟨S200000, v4⟩] concatenates_S1200000_S200000_S1400000_d0

def colIx (ei : Arr F S2x1200000 .i32) : Arr F S1400000 .i32 :=
  have v2 : Arr F S1x1200000 .i32 := extractStridedSlice S1x1200000 ![1, 0] ei slices_S2x1200000_S1x1200000_1_0
  have v3 : Arr F S1200000 .i32 := fun i => shapeCast S1200000 v2 shapeCasts_S1x1200000_S1200000 i
  have v4 : Arr F S200000 .i32 := iotaInDim S200000 32 0
  concatenate S1400000 0 [⟨S1200000, v3⟩, ⟨S200000, v4⟩] concatenates_S1200000_S200000_S1400000_d0

/-- The edge weights followed by a weight 1 for every self loop. -/
def wFull (ew : Arr F S1200000 .f32) : Arr F S1400000 .f32 :=
  have v7 : Arr F S200000 .f32 := broadcastInDim S200000 ![] bcast_S_S200000 (constant (F := F) S_ .f32 0x3F800000#32)
  concatenate S1400000 0 [⟨S1200000, ew⟩, ⟨S200000, v7⟩] concatenates_S1200000_S200000_S1400000_d0

/-- An index list with every negative entry moved up by 200000 (the wrap-around of negative indices), as a column. -/
def wrapCol (ix : Arr F S1400000 .i32) : Arr F S1400000x1 .i32 :=
  have z : Arr F S1400000 .i32 := broadcastInDim S1400000 ![] bcast_S_S1400000 (constantI S_ 32 0#32)
  have lt : Arr F S1400000 .i1 := cmpi .slt ix z
  have n : Arr F S1400000 .i32 := broadcastInDim S1400000 ![] bcast_S_S1400000 (constantI S_ 32 200000#32)
  have up : Arr F S1400000 .i32 := addi ix n
  have sel : Arr F S1400000 .i32 := select lt up ix
  broadcastInDim S1400000x1 ![0] bcast_S1400000_S1400000x1_0 sel

/-- deg^(-1/2) of every node, 0 where the degree is not positive. -/
def degInvSqrt (col : Arr F S1400000 .i32) (w : Arr F S1400000 .f32) : Arr F S200000 .f32 :=
  have v9 : Arr F S200000 .f32 := broadcastInDim S200000 ![] bcast_S_S200000 (constant (F := F) S_ .f32 0x00000000#32)
  have v10 : Arr F S1400000x1 .i32 := broadcastInDim S1400000x1 ![0] bcast_S1400000_S1400000x1_0 col
  have v11 : Arr F S200000 .f32 := Host.scatterAdd scatter_S200000_S1400000x1_S1400000_n_0_0_1 v9 v10 w
  have v12 : Arr F S200000 .f32 := broadcastInDim S200000 ![] bcast_S_S200000 (constant (F := F) S_ .f32 0x00000000#32)
  have v13 : Arr F S200000 .i1 := cmpf .ogt v11 v12
  have v14 : Arr F S200000 .f32 := broadcastInDim S200000 ![] bcast_S_S200000 (constant (F := F) S_ .f32 0x0DA24260#32)
  have v15 : Arr F S200000 .f32 := maximumf v11 v14
  have v16 : Arr F S200000 .f32 := Host.rsqrt v15
  have c3 : Arr F S_ .f32 := constant (F := F) S_ .f32 0x00000000#32
  have w0 : Arr F S_ .f32 := id c3
  have w1 : Arr F S200000 .f32 := broadcastInDim S200000 ![] bcast_S_S200000 w0
  select v13 v16 w1

/-- The normalisation of every edge: deg^(-1/2) at its source, times its weight, times deg^(-1/2) at its target. -/
def edgeNormOf (dis : Arr F S200000 .f32) (row col : Arr F S1400000 .i32) (w : Arr F S1400000 .f32) : Arr F S1400000 .f32 :=
  have v24 : Arr F S1400000 .f32 := Host.gather gather_S200000_S1400000x1_S1400000_n_0_n_n_0_1_1 dis (wrapCol row)
  have v25 : Arr F S1400000 .f32 := mulf v24 w
  have v32 : Arr F S1400000 .f32 := Host.gather gather_S200000_S1400000x1_S1400000_n_0_n_n_0_1_1 dis (wrapCol col)
  mulf v25 v32

/-- One propagation step on 64 features: row t of the result is the sum over the edges into t of the edge's
    normalisation times the source's row. -/
def prop64 (nrm : Arr F S1400000 .f32) (row col : Arr F S1400000 .i32) (h : Arr F S200000x64 .f32) : Arr F S200000x64 .f32 :=
  have n1 : Arr F S1400000x1 .f32 := broadcastInDim S1400000x1 ![0] bcast_S1400000_S1400000x1_0 nrm
  have g : Arr F S1400000x64 .f32 := Host.gather gather_S200000x64_S1400000x1_S1400000x64_1_0_n_n_0_1_164 h (wrapCol row)
  have n64 : Arr F S1400000x64 .f32 := broadcastInDim S1400000x64 ![0, 1] bcast_S1400000x1_S1400000x64_0_1 n1
  have msg : Arr F S1400000x64 .f32 := mulf n64 g
  have z : Arr F S200000x64 .f32 := broadcastInDim S200000x64 ![] bcast_S_S200000x64 (constant (F := F) S_ .f32 0x00000000#32)
  have cc : Arr F S1400000x1 .i32 := broadcastInDim S1400000x1 ![0] bcast_S1400000_S1400000x1_0 col
  Host.scatterAdd scatter_S200000x64_S1400000x1_S1400000x64_1_0_0_1 z cc msg

/-- One propagation step on a single feature. -/
def prop1 (nrm : Arr F S1400000 .f32) (row col : Arr F S1400000 .i32) (h : Arr F S200000x1 .f32) : Arr F S200000x1 .f32 :=
  have n1 : Arr F S1400000x1 .f32 := broadcastInDim S1400000x1 ![0] bcast_S1400000_S1400000x1_0 nrm
  have g : Arr F S1400000x1 .f32 := Host.gather gather_S200000x1_S1400000x1_S1400000x1_1_0_n_n_0_1_11 h (wrapCol row)
  have msg : Arr F S1400000x1 .f32 := mulf n1 g
  have z : Arr F S200000x1 .f32 := broadcastInDim S200000x1 ![] bcast_S_S200000x1 (constant (F := F) S_ .f32 0x00000000#32)
  have cc : Arr F S1400000x1 .i32 := broadcastInDim S1400000x1 ![0] bcast_S1400000_S1400000x1_0 col
  Host.scatterAdd scatter_S200000x1_S1400000x1_S1400000x1_1_0_0_1 z cc msg

/-- The skew part W - Wᵀ of a 64 × 64 slice of the stacked weights. -/
def skewPart (sl : Arr F S1x64x64 .f32) : Arr F S64x64 .f32 :=
  have w : Arr F S64x64 .f32 := fun i => shapeCast S64x64 sl shapeCasts_S1x64x64_S64x64 i
  have wt : Arr F S64x64 .f32 := transpose S64x64 [1, 0] w transposes_S64x64_S64x64_1_0
  subf w wt

/-- A 64 × 64 matrix of one constant. -/
def fill64 (b : BitVec 32) : Arr F S64x64 .f32 :=
  broadcastInDim S64x64 ![] bcast_S_S64x64 (constant (F := F) S_ .f32 b)

/-- The next Taylor term: the last term times S, divided by the term's number (given as a float constant). -/
def nextTerm (S term : Arr F S64x64 .f32) (k : BitVec 32) : Arr F S64x64 .f32 :=
  Host.divf (Host.dotGeneral dot_S64x64_S64x64_S64x64_1_0_0_1_n_n none term S) (fill64 k)

/-- The identity matrix as the host builds it: 1 where the row number equals the column number. -/
def eye64 : Arr F S64x64 .f32 :=
  have r : Arr F S64x64 .i32 := iotaInDim S64x64 32 0
  have cI : Arr F S64x64 .i32 := iotaInDim S64x64 32 1
  have z : Arr F S64x64 .i32 := broadcastInDim S64x64 ![] bcast_S_S64x64 (constantI S_ 32 0#32)
  have r0 : Arr F S64x64 .i32 := addi r z
  have e : Arr F S64x64 .i1 := cmpi .eq r0 cI
  uitofp .f32 e

/-- I + S + S²/2! + … + S¹⁰/10!, each term from the one before. -/
def expmTaylor (S : Arr F S64x64 .f32) : Arr F S64x64 .f32 :=
  have I : Arr F S64x64 .f32 := eye64
  have t1 := nextTerm S I 0x3F800000#32
  have a1 := addf I t1
  have t2 := nextTerm S t1 0x40000000#32
  have a2 := addf a1 t2
  have t3 := nextTerm S t2 0x40400000#32
  have a3 := addf a2 t3
  have t4 := nextTerm S t3 0x40800000#32
  have a4 := addf a3 t4
  have t5 := nextTerm S t4 0x40A00000#32
  have a5 := addf a4 t5
  have t6 := nextTerm S t5 0x40C00000#32
  have a6 := addf a5 t6
  have t7 := nextTerm S t6 0x40E00000#32
  have a7 := addf a6 t7
  have t8 := nextTerm S t7 0x41000000#32
  have a8 := addf a7 t8
  have t9 := nextTerm S t8 0x41100000#32
  have a9 := addf a8 t9
  have t10 := nextTerm S t9 0x41200000#32
  addf a9 t10

end Cert.Spec

end
-- ==== Proof.LibDense.lean ====
/-
  The plain matrix product of two rank-2 arrays of extended reals, and the two places a program meets it: a
  contraction's sum over its one contracted axis, for dimension numbers that contract the left operand's columns
  with the right operand's rows and have no batch axis, re-indexed by that axis's coordinate; and, at the ideal
  values, a matmul into a zero accumulator whose operands pass through a narrower float format, and a host
  dot_general.
-/
import Idealize.ShloMosaic.PureOps.Ideal
import Idealize.ShloMosaic.PureOps.Ideal.Laws
import Idealize.ShloMosaic.Lib.ValueIdx

noncomputable section

open scoped BigOperators

namespace Cert.Lib

open Idealize.ShloMosaic Idealize.ShloMosaic.ValueIdx

/-- The matrix product x · w of an M × K by a K × N array: entry (p, q) is the sum over k of x (p, k) · w (k, q). -/
def dense {M K N : Nat} (x : (⟨2, ![M, K]⟩ : Shape).Idx → EReal) (w : (⟨2, ![K, N]⟩ : Shape).Idx → EReal) :
    (⟨2, ![M, N]⟩ : Shape).Idx → EReal :=
  fun j => ∑ k : Fin K, x (ValueIdx.ix2 (j 0) k) * w (ValueIdx.ix2 k (j 1))

/-- The product read at an entry. -/
theorem dense_apply {M K N : Nat} (x : (⟨2, ![M, K]⟩ : Shape).Idx → EReal) (w : (⟨2, ![K, N]⟩ : Shape).Idx → EReal)
    (j : (⟨2, ![M, N]⟩ : Shape).Idx) :
    dense x w j = ∑ k : Fin K, x (ValueIdx.ix2 (j 0) k) * w (ValueIdx.ix2 k (j 1)) := rfl

/-- A row of the product depends on that row of the left factor alone: if row p' of x' is row p of x, and w' is w,
    then entry (p', q) of x' · w' is entry (p, q) of x · w. -/
theorem dense_row {M M' K N : Nat} (x : (⟨2, ![M, K]⟩ : Shape).Idx → EReal) (x' : (⟨2, ![M', K]⟩ : Shape).Idx → EReal)
    (w w' : (⟨2, ![K, N]⟩ : Shape).Idx → EReal) (p : Fin M) (p' : Fin M')
    (hx : ∀ k : Fin K, x' (ValueIdx.ix2 p' k) = x (ValueIdx.ix2 p k)) (hw : ∀ i, w' i = w i) (q : Fin N) :
    dense x' w' (ValueIdx.ix2 p' q) = dense x w (ValueIdx.ix2 p q) := by
  show ∑ k : Fin K, x' (ValueIdx.ix2 p' k) * w' (ValueIdx.ix2 k q) = ∑ k : Fin K, x (ValueIdx.ix2 p k) * w (ValueIdx.ix2 k q)
  exact Finset.sum_congr rfl fun k _ => by rw [hx k, hw]

section Plain

variable {M K N : Nat} (d : DotDims ⟨2, ![M, K]⟩ ⟨2, ![K, N]⟩ ⟨2, ![M, N]⟩)

/-- Dimension numbers that contract one axis have a contraction shape of rank one. -/
theorem contr_rank (hlc : d.lhsContracting = [1]) : d.contr.rank = 1 := by
  rw [d.rank_contr, hlc]; rfl

/-- When the contracted axis is the left operand's second, the contraction shape's one extent is K. -/
theorem contr_size (hlc : d.lhsContracting = [1]) :
    d.contr.size ⟨0, by rw [contr_rank d hlc]; exact Nat.one_pos⟩ = K := by
  have hp : 0 < d.lhsContracting.length := by rw [hlc]; exact Nat.one_pos
  have h1 : d.lhsContracting[0]'hp = 1 := by simp [hlc]
  rw [d.size_contr 0 hp, h1]
  rfl

/-- Reading two coordinates of a rank-2 index at equal axis numbers gives equal values. -/
theorem coord_congr {n : Fin 2 → Nat} (j : (⟨2, n⟩ : Shape).Idx) (p q : Nat) (hp : p < 2) (hq : q < 2) (h : p = q) :
    (j ⟨p, hp⟩).val = (j ⟨q, hq⟩).val := by subst h; rfl

/-- The left operand's row is the result's row: axis 0 of the left operand is its one free axis, the first of the
    result's axes. -/
theorem lhsIdx_0 (hln : d.lhsNonContracting = [0]) (hlb : d.lhsBatch = [])
    (j : (⟨2, ![M, N]⟩ : Shape).Idx) (q : d.contr.Idx) : (d.lhsIdx j q 0).val = (j 0).val := by
  unfold DotDims.lhsIdx
  rw [dif_neg (show ¬(0 : Fin (⟨2, ![M, K]⟩ : Shape).rank) ∈ d.lhsBatch by rw [hlb]; exact List.not_mem_nil),
    dif_pos (show (0 : Fin (⟨2, ![M, K]⟩ : Shape).rank) ∈ d.lhsNonContracting by rw [hln]; exact List.mem_singleton.mpr rfl)]
  simp only [Fin.val_cast]
  exact coord_congr j _ _ _ _ (by simp [hlb, hln])

/-- The left operand's column is the contracted coordinate: axis 1 of the left operand is the contracted one. -/
theorem lhsIdx_1 (hlc : d.lhsContracting = [1]) (j : (⟨2, ![M, N]⟩ : Shape).Idx) (q : d.contr.Idx) :
    (d.lhsIdx j q 1).val = (q ⟨0, by rw [contr_rank d hlc]; exact Nat.one_pos⟩).val :=
  d.lhsIdx_val_of_single hlc j q

/-- The right operand's row is the contracted coordinate: axis 0 of the right operand is the contracted one. -/
theorem rhsIdx_0 (hlc : d.lhsContracting = [1]) (hrc : d.rhsContracting = [0]) (j : (⟨2, ![M, N]⟩ : Shape).Idx)
    (q : d.contr.Idx) : (d.rhsIdx j q 0).val = (q ⟨0, by rw [contr_rank d hlc]; exact Nat.one_pos⟩).val :=
  d.rhsIdx_val_of_single hrc j q

/-- The right operand's column is the result's column: axis 1 of the right operand is its one free axis, which
    comes after the left operand's one free axis among the result's axes. -/
theorem rhsIdx_1 (hln : d.lhsNonContracting = [0]) (hrn : d.rhsNonContracting = [1]) (hlb : d.lhsBatch = [])
    (hrb : d.rhsBatch = []) (j : (⟨2, ![M, N]⟩ : Shape).Idx) (q : d.contr.Idx) : (d.rhsIdx j q 1).val = (j 1).val := by
  unfold DotDims.rhsIdx
  rw [dif_neg (show ¬(1 : Fin (⟨2, ![K, N]⟩ : Shape).rank) ∈ d.rhsBatch by rw [hrb]; exact List.not_mem_nil),
    dif_pos (show (1 : Fin (⟨2, ![K, N]⟩ : Shape).rank) ∈ d.rhsNonContracting by rw [hrn]; exact List.mem_singleton.mpr rfl)]
  simp only [Fin.val_cast]
  exact coord_congr j _ _ _ _ (by simp [hlb, hln, hrn])

/-- THE CONTRACTION IS THE MATRIX PRODUCT. For dimension numbers contracting the left operand's columns with the
    right operand's rows, one free axis each and no batch axis, the sum over the contraction index of the operands'
    products at the dot's operand indices is the matrix product's entry: re-index the sum by the contracted axis's
    coordinate; the operand indices at result entry (p, q) and coordinate k are then (p, k) and (k, q). -/
theorem sum_contr_eq_dense (hlc : d.lhsContracting = [1]) (hrc : d.rhsContracting = [0])
    (hln : d.lhsNonContracting = [0]) (hrn : d.rhsNonContracting = [1]) (hlb : d.lhsBatch = []) (hrb : d.rhsBatch = [])
    (l : (⟨2, ![M, K]⟩ : Shape).Idx → EReal) (r : (⟨2, ![K, N]⟩ : Shape).Idx → EReal) (j : (⟨2, ![M, N]⟩ : Shape).Idx) :
    ∑ k : d.contr.Idx, l (d.lhsIdx j k) * r (d.rhsIdx j k) = dense l r j := by
  rw [dense_apply, ← Equiv.sum_comp (ValueIdx.contrEquiv1 d K (contr_rank d hlc) (contr_size d hlc)).symm]
  refine Finset.sum_congr rfl fun k _ => ?_
  have hk := ValueIdx.contrEquiv1_symm_val d K (contr_rank d hlc) (contr_size d hlc) k
  have el : d.lhsIdx j ((ValueIdx.contrEquiv1 d K (contr_rank d hlc) (contr_size d hlc)).symm k)
      = (ValueIdx.ix2 (j 0) k : (⟨2, ![M, K]⟩ : Shape).Idx) := funext fun a => Fin.ext (by
    match a with
    | ⟨0, _⟩ => exact lhsIdx_0 d hln hlb _ _
    | ⟨1, _⟩ => exact (lhsIdx_1 d hlc _ _).trans hk)
  have er : d.rhsIdx j ((ValueIdx.contrEquiv1 d K (contr_rank d hlc) (contr_size d hlc)).symm k)
      = (ValueIdx.ix2 k (j 1) : (⟨2, ![K, N]⟩ : Shape).Idx) := funext fun a => Fin.ext (by
    match a with
    | ⟨0, _⟩ => exact (rhsIdx_0 d hlc hrc _ _).trans hk
    | ⟨1, _⟩ => exact rhsIdx_1 d hln hrn hlb hrb _ _)
  rw [el, er]

/-- At the ideal values a matmul into the zero accumulator, its two f32 operands first passed through bf16 (the
    identity on extended reals), is the matrix product of the operands. -/
theorem matmul_truncf_eq_dense (hlc : d.lhsContracting = [1]) (hrc : d.rhsContracting = [0])
    (hln : d.lhsNonContracting = [0]) (hrn : d.rhsNonContracting = [1]) (hlb : d.lhsBatch = []) (hrb : d.rhsBatch = [])
    (prec : Option ContractPrecision) (l : FVec Ideal ⟨2, ![M, K]⟩ .f32) (r : FVec Ideal ⟨2, ![K, N]⟩ .f32)
    (h₁ : FTy.bf16.bits < FTy.f32.bits) (h₂ : FTy.bf16.bits < FTy.f32.bits) :
    FloatOps.matmul d prec (truncf .bf16 l h₁ : FVec Ideal ⟨2, ![M, K]⟩ .bf16)
        (truncf .bf16 r h₂ : FVec Ideal ⟨2, ![K, N]⟩ .bf16) (constant (F := Ideal) ⟨2, ![M, N]⟩ .f32 0x00000000#32)
      = dense l r := by
  funext j
  rw [Ideal.matmul_constant_zero_apply]
  exact sum_contr_eq_dense d hlc hrc hln hrn hlb hrb l r j

/-- At the ideal values the host's dot_general is the matrix product of its operands, whatever the precision. -/
theorem dotGeneral_eq_dense (hlc : d.lhsContracting = [1]) (hrc : d.rhsContracting = [0])
    (hln : d.lhsNonContracting = [0]) (hrn : d.rhsNonContracting = [1]) (hlb : d.lhsBatch = []) (hrb : d.rhsBatch = [])
    (prec : Option ContractPrecision) (l : FVec Ideal ⟨2, ![M, K]⟩ .f32) (r : FVec Ideal ⟨2, ![K, N]⟩ .f32) :
    Host.dotGeneral d prec l r = dense l r := by
  funext j
  simp only [Host.dotGeneral]
  rw [Ideal.dotGeneral_apply]
  exact sum_contr_eq_dense d hlc hrc hln hrn hlb hrb l r j

end Plain

end Cert.Lib

end
-- ==== Proof.SpecNet.lean ====
/-
  The whole network as one function of the eight argument arrays, at the ideal values (extended reals).

  hidden 0 = propagate (x · W0) + b0 (the bias added to every row); hidden (k+1) = propagate (hidden k) · orth k,
  where orth k is the Taylor polynomial of the exponential of the skew part of slice k of the stacked weights;
  the result is propagate (hidden 10 · W11) + b11, with two unit axes appended. Every matrix product is the plain
  one (`Cert.Lib.dense`), every propagation step the one of `Cert.Spec`.
-/
import proofs.«415904_j29016799052628_2_alg».proof.Proof.Spec
import proofs.«415904_j29016799052628_2_alg».proof.Proof.LibDense

noncomputable section

namespace Cert.Spec

open Idealize.ShloMosaic Cert.KernelIdeal Cert.KernelIdeal.Facts₀

variable [Cert.KernelIdeal.Facts]

/-- A bias row added to every row of a 200000 × 64 matrix. -/
def biasRows64 (x : Arr Ideal S200000x64 .f32) (b : Arr Ideal S64 .f32) : Arr Ideal S200000x64 .f32 :=
  fun i => (x i : EReal) + (b (ValueIdx.ix1 (i 1)) : EReal)

/-- A bias added to every entry of a 200000 × 1 column. -/
def biasRows1 (x : Arr Ideal S200000x1 .f32) (b : Arr Ideal S1 .f32) : Arr Ideal S200000x1 .f32 :=
  fun i => (x i : EReal) + (b (ValueIdx.ix1 (i 1)) : EReal)

/-- Slice k of the ten stacked 64 × 64 weights (slice 0 for a k past the last). -/
def sliceOf (Wo : Arr Ideal S10x64x64 .f32) : Nat → Arr Ideal S1x64x64 .f32
  | 1 => extractStridedSlice S1x64x64 ![1, 0, 0] Wo slices_S10x64x64_S1x64x64_1_0_0
  | 2 => extractStridedSlice S1x64x64 ![2, 0, 0] Wo slices_S10x64x64_S1x64x64_2_0_0
  | 3 => extractStridedSlice S1x64x64 ![3, 0, 0] Wo slices_S10x64x64_S1x64x64_3_0_0
  | 4 => extractStridedSlice S1x64x64 ![4, 0, 0] Wo slices_S10x64x64_S1x64x64_4_0_0
  | 5 => extractStridedSlice S1x64x64 ![5, 0, 0] Wo slices_S10x64x64_S1x64x64_5_0_0
  | 6 => extractStridedSlice S1x64x64 ![6, 0, 0] Wo slices_S10x64x64_S1x64x64_6_0_0
  | 7 => extractStridedSlice S1x64x64 ![7, 0, 0] Wo slices_S10x64x64_S1x64x64_7_0_0
  | 8 => extractStridedSlice S1x64x64 ![8, 0, 0] Wo slices_S10x64x64_S1x64x64_8_0_0
  | 9 => extractStridedSlice S1x64x64 ![9, 0, 0] Wo slices_S10x64x64_S1x64x64_9_0_0
  | _ => extractStridedSlice S1x64x64 ![0, 0, 0] Wo slices_S10x64x64_S1x64x64_0_0_0

/-- The k-th layer's weight: the Taylor polynomial of exp at the skew part of slice k. -/
def orth (Wo : Arr Ideal S10x64x64 .f32) (k : Nat) : Arr Ideal S64x64 .f32 :=
  expmTaylor (skewPart (sliceOf Wo k))

/-- The edge normalisations from the edge list and the edge weights. -/
def normOf (ei : Arr Ideal S2x1200000 .i32) (ew : Arr Ideal S1200000 .f32) : Arr Ideal S1400000 .f32 :=
  edgeNormOf (degInvSqrt (colIx ei) (wFull ew)) (rowIx ei) (colIx ei) (wFull ew)

section Net

variable (x : Arr Ideal S200000x1 .f32) (ei : Arr Ideal S2x1200000 .i32) (ew : Arr Ideal S1200000 .f32)
  (W0 : Arr Ideal S1x64 .f32) (b0 : Arr Ideal S64 .f32) (Wo : Arr Ideal S10x64x64 .f32)
  (W11 : Arr Ideal S64x1 .f32) (b11 : Arr Ideal S1 .f32)

/-- One propagation step of this graph on 64 features. -/
def step64 (h : Arr Ideal S200000x64 .f32) : Arr Ideal S200000x64 .f32 :=
  prop64 (normOf ei ew) (rowIx ei) (colIx ei) h

/-- The hidden features after the input layer and k orthogonal layers. -/
def hidden : Nat → Arr Ideal S200000x64 .f32
  | 0 => biasRows64 (step64 ei ew (fun i => Cert.Lib.dense (M := 200000) (K := 1) (N := 64) x W0 i)) b0
  | k + 1 => fun i => Cert.Lib.dense (M := 200000) (K := 64) (N := 64) (step64 ei ew (hidden k)) (orth Wo k) i

/-- The network's output, 200000 × 1 × 1. -/
def output : Arr Ideal S200000x1x1 .f32 :=
  broadcastInDim S200000x1x1 ![0, 1] bcast_S200000x1_S200000x1x1_0_1
    (biasRows1 (prop1 (normOf ei ew) (rowIx ei) (colIx ei)
      (fun i => Cert.Lib.dense (M := 200000) (K := 64) (N := 1) (hidden x ei ew W0 b0 Wo 10) W11 i)) b11)

end Net

end Cert.Spec

end
-- ==== Proof.KKeep.lean ====
/- For each stretch of host operations of the kernel program: the references it writes, and that a reference outside
   that list holds after the stretch what it held before. -/
import proofs.«415904_j29016799052628_2_alg».proof.Proof.KernelIdealFrameP
import Idealize.ShloMosaic.Lib.StableHlo.Run

set_option maxRecDepth 16384

noncomputable section

namespace Cert.KernelIdeal.KKeep

open Cert.KernelIdeal Cert.KernelIdeal.Gen Cert.KernelIdeal.GenP Idealize.ShloMosaic Idealize.ShloMosaic.TcCoe Idealize.SL.Sem

variable {F : FTy → Type} [FloatOps F]
variable (m : (ℓ : Loc nD τ sig) → Buf (Elt F) ℓ) (ρ : Dev nD → PrngReg)

/-- The references the stretch hostOps0 writes. -/
abbrev hostOps0_W : List (Ref sig .tc) := [main_v0, main_v1, main_v2, main_v3, main_v4, main_v5, main_v6, main_cst, main_v7, main_v8, main_cst_0, main_v9, main_v10, main_v11, main_cst_1, main_v12, main_v13, main_cst_2, main_v14, main_v15, main_v16, main_cst_3]
set_option maxHeartbeats 4000000 in
theorem hostOps0_writes : (hostOps0 : List (HloOp τ sig (Elt F))).Forall fun op => op.writes ⊆ (hostOps0_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A reference the stretch hostOps0 does not write holds after it what it held before. -/
theorem keep_W1 (c : Dev nD) (r : Ref sig .tc) (h : r ∉ hostOps0_W) : W1 m ρ c (Proc.devRef .tc r) = W0 m ρ c (Proc.devRef .tc r) :=
  StableHlo.after_of_writes_sub hostOps0 _ hostOps0_writes h

/-- The references the stretch hostOps0_1 writes. -/
abbrev hostOps0_1_W : List (Ref sig .tc) := [main_call0_v0, main_call0_v1, main_v17]
set_option maxHeartbeats 4000000 in
theorem hostOps0_1_writes : (hostOps0_1 : List (HloOp τ sig (Elt F))).Forall fun op => op.writes ⊆ (hostOps0_1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A reference the stretch hostOps0_1 does not write holds after it what it held before. -/
theorem keep_W2 (c : Dev nD) (r : Ref sig .tc) (h : r ∉ hostOps0_1_W) : W2 m ρ c (Proc.devRef .tc r) = W1 m ρ c (Proc.devRef .tc r) :=
  StableHlo.after_of_writes_sub hostOps0_1 _ hostOps0_1_writes h

/-- The references the stretch hostOps0_2 writes. -/
abbrev hostOps0_2_W : List (Ref sig .tc) := [main_c, main_v18, main_v19, main_c_4, main_v20, main_v21, main_v22, main_v23, main_v24, main_v25, main_c_5, main_v26, main_v27, main_c_6, main_v28, main_v29, main_v30, main_v31, main_v32, main_v33]
set_option maxHeartbeats 4000000 in
theorem hostOps0_2_writes : (hostOps0_2 : List (HloOp τ sig (Elt F))).Forall fun op => op.writes ⊆ (hostOps0_2_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A reference the stretch hostOps0_2 does not write holds after it what it held before. -/
theorem keep_W3 (c : Dev nD) (r : Ref sig .tc) (h : r ∉ hostOps0_2_W) : W3 m ρ c (Proc.devRef .tc r) = W2 m ρ c (Proc.devRef .tc r) :=
  StableHlo.after_of_writes_sub hostOps0_2 _ hostOps0_2_writes h

/-- The references the stretch hostOps1 writes. -/
abbrev hostOps1_W : List (Ref sig .tc) := [main_v35, main_c_7, main_v36, main_v37, main_c_8, main_v38, main_v39, main_v40, main_v41, main_v42, main_v43, main_v44, main_cst_9, main_v45, main_v46, main_v47, main_v48]
set_option maxHeartbeats 4000000 in
theorem hostOps1_writes : (hostOps1 : List (HloOp τ sig (Elt F))).Forall fun op => op.writes ⊆ (hostOps1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A reference the stretch hostOps1 does not write holds after it what it held before. -/
theorem keep_W5 (c : Dev nD) (r : Ref sig .tc) (h : r ∉ hostOps1_W) : W5 m ρ c (Proc.devRef .tc r) = W4 m ρ c (Proc.devRef .tc r) :=
  StableHlo.after_of_writes_sub hostOps1 _ hostOps1_writes h

/-- The references the stretch hostOps2 writes. -/
abbrev hostOps2_W : List (Ref sig .tc) := [main_v50, main_v51, main_v52, main_v53, main_v54, main_v55, main_c_10, main_v56, main_v57, main_v58, main_v59, main_v60, main_cst_11, main_v61, main_v62, main_v63, main_v64, main_cst_12, main_v65, main_v66, main_v67, main_v68, main_cst_13, main_v69, main_v70, main_v71, main_v72, main_cst_14, main_v73, main_v74, main_v75, main_v76, main_cst_15, main_v77, main_v78, main_v79, main_v80, main_cst_16, main_v81, main_v82, main_v83, main_v84, main_cst_17, main_v85, main_v86, main_v87, main_v88, main_cst_18, main_v89, main_v90, main_v91, main_v92, main_cst_19, main_v93, main_v94, main_v95, main_v96, main_cst_20, main_v97, main_v98, main_v99, main_v100, main_c_21, main_v101, main_v102, main_c_22, main_v103, main_v104, main_v105, main_v106, main_v107, main_v108, main_v109, main_cst_23, main_v110, main_v111, main_v112]
set_option maxHeartbeats 4000000 in
theorem hostOps2_writes : (hostOps2 : List (HloOp τ sig (Elt F))).Forall fun op => op.writes ⊆ (hostOps2_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A reference the stretch hostOps2 does not write holds after it what it held before. -/
theorem keep_W7 (c : Dev nD) (r : Ref sig .tc) (h : r ∉ hostOps2_W) : W7 m ρ c (Proc.devRef .tc r) = W6 m ρ c (Proc.devRef .tc r) :=
  StableHlo.after_of_writes_sub hostOps2 _ hostOps2_writes h

/-- The references the stretch hostOps3 writes. -/
abbrev hostOps3_W : List (Ref sig .tc) := [main_v114, main_v115, main_v116, main_v117, main_v118, main_v119, main_c_24, main_v120, main_v121, main_v122, main_v123, main_v124, main_cst_25, main_v125, main_v126, main_v127, main_v128, main_cst_26, main_v129, main_v130, main_v131, main_v132, main_cst_27, main_v133, main_v134, main_v135, main_v136, main_cst_28, main_v137, main_v138, main_v139, main_v140, main_cst_29, main_v141, main_v142, main_v143, main_v144, main_cst_30, main_v145, main_v146, main_v147, main_v148, main_cst_31, main_v149, main_v150, main_v151, main_v152, main_cst_32, main_v153, main_v154, main_v155, main_v156, main_cst_33, main_v157, main_v158, main_v159, main_v160, main_cst_34, main_v161, main_v162, main_v163, main_v164, main_c_35, main_v165, main_v166, main_c_36, main_v167, main_v168, main_v169, main_v170, main_v171, main_v172, main_v173, main_cst_37, main_v174, main_v175, main_v176]
set_option maxHeartbeats 4000000 in
theorem hostOps3_writes : (hostOps3 : List (HloOp τ sig (Elt F))).Forall fun op => op.writes ⊆ (hostOps3_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A reference the stretch hostOps3 does not write holds after it what it held before. -/
theorem keep_W9 (c : Dev nD) (r : Ref sig .tc) (h : r ∉ hostOps3_W) : W9 m ρ c (Proc.devRef .tc r) = W8 m ρ c (Proc.devRef .tc r) :=
  StableHlo.after_of_writes_sub hostOps3 _ hostOps3_writes h

/-- The references the stretch hostOps4 writes. -/
abbrev hostOps4_W : List (Ref sig .tc) := [main_v178, main_v179, main_v180, main_v181, main_v182, main_v183, main_c_38, main_v184, main_v185, main_v186, main_v187, main_v188, main_cst_39, main_v189, main_v190, main_v191, main_v192, main_cst_40, main_v193, main_v194, main_v195, main_v196, main_cst_41, main_v197, main_v198, main_v199, main_v200, main_cst_42, main_v201, main_v202, main_v203, main_v204, main_cst_43, main_v205, main_v206, main_v207, main_v208, main_cst_44, main_v209, main_v210, main_v211, main_v212, main_cst_45, main_v213, main_v214, main_v215, main_v216, main_cst_46, main_v217, main_v218, main_v219, main_v220, main_cst_47, main_v221, main_v222, main_v223, main_v224, main_cst_48, main_v225, main_v226, main_v227, main_v228, main_c_49, main_v229, main_v230, main_c_50, main_v231, main_v232, main_v233, main_v234, main_v235, main_v236, main_v237, main_cst_51, main_v238, main_v239, main_v240]
set_option maxHeartbeats 4000000 in
theorem hostOps4_writes : (hostOps4 : List (HloOp τ sig (Elt F))).Forall fun op => op.writes ⊆ (hostOps4_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A reference the stretch hostOps4 does not write holds after it what it held before. -/
theorem keep_W11 (c : Dev nD) (r : Ref sig .tc) (h : r ∉ hostOps4_W) : W11 m ρ c (Proc.devRef .tc r) = W10 m ρ c (Proc.devRef .tc r) :=
  StableHlo.after_of_writes_sub hostOps4 _ hostOps4_writes h

/-- The references the stretch hostOps5 writes. -/
abbrev hostOps5_W : List (Ref sig .tc) := [main_v242, main_v243, main_v244, main_v245, main_v246, main_v247, main_c_52, main_v248, main_v249, main_v250, main_v251, main_v252, main_cst_53, main_v253, main_v254, main_v255, main_v256, main_cst_54, main_v257, main_v258, main_v259, main_v260, main_cst_55, main_v261, main_v262, main_v263, main_v264, main_cst_56, main_v265, main_v266, main_v267, main_v268, main_cst_57, main_v269, main_v270, main_v271, main_v272, main_cst_58, main_v273, main_v274, main_v275, main_v276, main_cst_59, main_v277, main_v278, main_v279, main_v280, main_cst_60, main_v281, main_v282, main_v283, main_v284, main_cst_61, main_v285, main_v286, main_v287, main_v288, main_cst_62, main_v289, main_v290, main_v291, main_v292, main_c_63, main_v293, main_v294, main_c_64, main_v295, main_v296, main_v297, main_v298, main_v299, main_v300, main_v301, main_cst_65, main_v302, main_v303, main_v304]
set_option maxHeartbeats 4000000 in
theorem hostOps5_writes : (hostOps5 : List (HloOp τ sig (Elt F))).Forall fun op => op.writes ⊆ (hostOps5_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A reference the stretch hostOps5 does not write holds after it what it held before. -/
theorem keep_W13 (c : Dev nD) (r : Ref sig .tc) (h : r ∉ hostOps5_W) : W13 m ρ c (Proc.devRef .tc r) = W12 m ρ c (Proc.devRef .tc r) :=
  StableHlo.after_of_writes_sub hostOps5 _ hostOps5_writes h

/-- The references the stretch hostOps6 writes. -/
abbrev hostOps6_W : List (Ref sig .tc) := [main_v306, main_v307, main_v308, main_v309, main_v310, main_v311, main_c_66, main_v312, main_v313, main_v314, main_v315, main_v316, main_cst_67, main_v317, main_v318, main_v319, main_v320, main_cst_68, main_v321, main_v322, main_v323, main_v324, main_cst_69, main_v325, main_v326, main_v327, main_v328, main_cst_70, main_v329, main_v330, main_v331, main_v332, main_cst_71, main_v333, main_v334, main_v335, main_v336, main_cst_72, main_v337, main_v338, main_v339, main_v340, main_cst_73, main_v341, main_v342, main_v343, main_v344, main_cst_74, main_v345, main_v346, main_v347, main_v348, main_cst_75, main_v349, main_v350, main_v351, main_v352, main_cst_76, main_v353, main_v354, main_v355, main_v356, main_c_77, main_v357, main_v358, main_c_78, main_v359, main_v360, main_v361, main_v362, main_v363, main_v364, main_v365, main_cst_79, main_v366, main_v367, main_v368]
set_option maxHeartbeats 4000000 in
theorem hostOps6_writes : (hostOps6 : List (HloOp τ sig (Elt F))).Forall fun op => op.writes ⊆ (hostOps6_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A reference the stretch hostOps6 does not write holds after it what it held before. -/
theorem keep_W15 (c : Dev nD) (r : Ref sig .tc) (h : r ∉ hostOps6_W) : W15 m ρ c (Proc.devRef .tc r) = W14 m ρ c (Proc.devRef .tc r) :=
  StableHlo.after_of_writes_sub hostOps6 _ hostOps6_writes h

/-- The references the stretch hostOps7 writes. -/
abbrev hostOps7_W : List (Ref sig .tc) := [main_v370, main_v371, main_v372, main_v373, main_v374, main_v375, main_c_80, main_v376, main_v377, main_v378, main_v379, main_v380, main_cst_81, main_v381, main_v382, main_v383, main_v384, main_cst_82, main_v385, main_v386, main_v387, main_v388, main_cst_83, main_v389, main_v390, main_v391, main_v392, main_cst_84, main_v393, main_v394, main_v395, main_v396, main_cst_85, main_v397, main_v398, main_v399, main_v400, main_cst_86, main_v401, main_v402, main_v403, main_v404, main_cst_87, main_v405, main_v406, main_v407, main_v408, main_cst_88, main_v409, main_v410, main_v411, main_v412, main_cst_89, main_v413, main_v414, main_v415, main_v416, main_cst_90, main_v417, main_v418, main_v419, main_v420, main_c_91, main_v421, main_v422, main_c_92, main_v423, main_v424, main_v425, main_v426, main_v427, main_v428, main_v429, main_cst_93, main_v430, main_v431, main_v432]
set_option maxHeartbeats 4000000 in
theorem hostOps7_writes : (hostOps7 : List (HloOp τ sig (Elt F))).Forall fun op => op.writes ⊆ (hostOps7_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A reference the stretch hostOps7 does not write holds after it what it held before. -/
theorem keep_W17 (c : Dev nD) (r : Ref sig .tc) (h : r ∉ hostOps7_W) : W17 m ρ c (Proc.devRef .tc r) = W16 m ρ c (Proc.devRef .tc r) :=
  StableHlo.after_of_writes_sub hostOps7 _ hostOps7_writes h

/-- The references the stretch hostOps8 writes. -/
abbrev hostOps8_W : List (Ref sig .tc) := [main_v434, main_v435, main_v436, main_v437, main_v438, main_v439, main_c_94, main_v440, main_v441, main_v442, main_v443, main_v444, main_cst_95, main_v445, main_v446, main_v447, main_v448, main_cst_96, main_v449, main_v450, main_v451, main_v452, main_cst_97, main_v453, main_v454, main_v455, main_v456, main_cst_98, main_v457, main_v458, main_v459, main_v460, main_cst_99, main_v461, main_v462, main_v463, main_v464, main_cst_100, main_v465, main_v466, main_v467, main_v468, main_cst_101, main_v469, main_v470, main_v471, main_v472, main_cst_102, main_v473, main_v474, main_v475, main_v476, main_cst_103, main_v477, main_v478, main_v479, main_v480, main_cst_104, main_v481, main_v482, main_v483, main_v484, main_c_105, main_v485, main_v486, main_c_106, main_v487, main_v488, main_v489, main_v490, main_v491, main_v492, main_v493, main_cst_107, main_v494, main_v495, main_v496]
set_option maxHeartbeats 4000000 in
theorem hostOps8_writes : (hostOps8 : List (HloOp τ sig (Elt F))).Forall fun op => op.writes ⊆ (hostOps8_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A reference the stretch hostOps8 does not write holds after it what it held before. -/
theorem keep_W19 (c : Dev nD) (r : Ref sig .tc) (h : r ∉ hostOps8_W) : W19 m ρ c (Proc.devRef .tc r) = W18 m ρ c (Proc.devRef .tc r) :=
  StableHlo.after_of_writes_sub hostOps8 _ hostOps8_writes h

/-- The references the stretch hostOps9 writes. -/
abbrev hostOps9_W : List (Ref sig .tc) := [main_v498, main_v499, main_v500, main_v501, main_v502, main_v503, main_c_108, main_v504, main_v505, main_v506, main_v507, main_v508, main_cst_109, main_v509, main_v510, main_v511, main_v512, main_cst_110, main_v513, main_v514, main_v515, main_v516, main_cst_111, main_v517, main_v518, main_v519, main_v520, main_cst_112, main_v521, main_v522, main_v523, main_v524, main_cst_113, main_v525, main_v526, main_v527, main_v528, main_cst_114, main_v529, main_v530, main_v531, main_v532, main_cst_115, main_v533, main_v534, main_v535, main_v536, main_cst_116, main_v537, main_v538, main_v539, main_v540, main_cst_117, main_v541, main_v542, main_v543, main_v544, main_cst_118, main_v545, main_v546, main_v547, main_v548, main_c_119, main_v549, main_v550, main_c_120, main_v551, main_v552, main_v553, main_v554, main_v555, main_v556, main_v557, main_cst_121, main_v558, main_v559, main_v560]
set_option maxHeartbeats 4000000 in
theorem hostOps9_writes : (hostOps9 : List (HloOp τ sig (Elt F))).Forall fun op => op.writes ⊆ (hostOps9_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A reference the stretch hostOps9 does not write holds after it what it held before. -/
theorem keep_W21 (c : Dev nD) (r : Ref sig .tc) (h : r ∉ hostOps9_W) : W21 m ρ c (Proc.devRef .tc r) = W20 m ρ c (Proc.devRef .tc r) :=
  StableHlo.after_of_writes_sub hostOps9 _ hostOps9_writes h

/-- The references the stretch hostOps10 writes. -/
abbrev hostOps10_W : List (Ref sig .tc) := [main_v562, main_v563, main_v564, main_v565, main_v566, main_v567, main_c_122, main_v568, main_v569, main_v570, main_v571, main_v572, main_cst_123, main_v573, main_v574, main_v575, main_v576, main_cst_124, main_v577, main_v578, main_v579, main_v580, main_cst_125, main_v581, main_v582, main_v583, main_v584, main_cst_126, main_v585, main_v586, main_v587, main_v588, main_cst_127, main_v589, main_v590, main_v591, main_v592, main_cst_128, main_v593, main_v594, main_v595, main_v596, main_cst_129, main_v597, main_v598, main_v599, main_v600, main_cst_130, main_v601, main_v602, main_v603, main_v604, main_cst_131, main_v605, main_v606, main_v607, main_v608, main_cst_132, main_v609, main_v610, main_v611, main_v612, main_c_133, main_v613, main_v614, main_c_134, main_v615, main_v616, main_v617, main_v618, main_v619, main_v620, main_v621, main_cst_135, main_v622, main_v623, main_v624]
set_option maxHeartbeats 4000000 in
theorem hostOps10_writes : (hostOps10 : List (HloOp τ sig (Elt F))).Forall fun op => op.writes ⊆ (hostOps10_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A reference the stretch hostOps10 does not write holds after it what it held before. -/
theorem keep_W23 (c : Dev nD) (r : Ref sig .tc) (h : r ∉ hostOps10_W) : W23 m ρ c (Proc.devRef .tc r) = W22 m ρ c (Proc.devRef .tc r) :=
  StableHlo.after_of_writes_sub hostOps10 _ hostOps10_writes h

/-- The references the stretch hostOps11 writes. -/
abbrev hostOps11_W : List (Ref sig .tc) := [main_v626, main_v627, main_v628, main_v629, main_v630, main_v631, main_c_136, main_v632, main_v633, main_v634, main_v635, main_v636, main_cst_137, main_v637, main_v638, main_v639, main_v640, main_cst_138, main_v641, main_v642, main_v643, main_v644, main_cst_139, main_v645, main_v646, main_v647, main_v648, main_cst_140, main_v649, main_v650, main_v651, main_v652, main_cst_141, main_v653, main_v654, main_v655, main_v656, main_cst_142, main_v657, main_v658, main_v659, main_v660, main_cst_143, main_v661, main_v662, main_v663, main_v664, main_cst_144, main_v665, main_v666, main_v667, main_v668, main_cst_145, main_v669, main_v670, main_v671, main_v672, main_cst_146, main_v673, main_v674, main_v675, main_v676, main_c_147, main_v677, main_v678, main_c_148, main_v679, main_v680, main_v681, main_v682, main_v683, main_v684, main_v685, main_cst_149, main_v686, main_v687, main_v688]
set_option maxHeartbeats 4000000 in
theorem hostOps11_writes : (hostOps11 : List (HloOp τ sig (Elt F))).Forall fun op => op.writes ⊆ (hostOps11_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A reference the stretch hostOps11 does not write holds after it what it held before. -/
theorem keep_W25 (c : Dev nD) (r : Ref sig .tc) (h : r ∉ hostOps11_W) : W25 m ρ c (Proc.devRef .tc r) = W24 m ρ c (Proc.devRef .tc r) :=
  StableHlo.after_of_writes_sub hostOps11 _ hostOps11_writes h

/-- The references the stretch hostOps13 writes. -/
abbrev hostOps13_W : List (Ref sig .tc) := [main_v691, main_c_150, main_v692, main_v693, main_c_151, main_v694, main_v695, main_v696, main_v697, main_v698, main_v699, main_cst_152, main_v700, main_v701, main_v702, main_v703]
set_option maxHeartbeats 4000000 in
theorem hostOps13_writes : (hostOps13 : List (HloOp τ sig (Elt F))).Forall fun op => op.writes ⊆ (hostOps13_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A reference the stretch hostOps13 does not write holds after it what it held before. -/
theorem keep_W28 (c : Dev nD) (r : Ref sig .tc) (h : r ∉ hostOps13_W) : W28 m ρ c (Proc.devRef .tc r) = W27 m ρ c (Proc.devRef .tc r) :=
  StableHlo.after_of_writes_sub hostOps13 _ hostOps13_writes h

/-- The references the stretch hostOps14 writes. -/
abbrev hostOps14_W : List (Ref sig .tc) := [main_v705]
set_option maxHeartbeats 4000000 in
theorem hostOps14_writes : (hostOps14 : List (HloOp τ sig (Elt F))).Forall fun op => op.writes ⊆ (hostOps14_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A reference the stretch hostOps14 does not write holds after it what it held before. -/
theorem keep_W30 (c : Dev nD) (r : Ref sig .tc) (h : r ∉ hostOps14_W) : W30 m ρ c (Proc.devRef .tc r) = W29 m ρ c (Proc.devRef .tc r) :=
  StableHlo.after_of_writes_sub hostOps14 _ hostOps14_writes h

/-! ## What lives across the run: the index lists, the edge normalisations and the arguments read later -/

abbrev argL : List (Ref sig .tc) := [main_arg0, main_arg1, main_arg2, main_arg3, main_arg4, main_arg5, main_arg6, main_arg7]
abbrev keepL : List (Ref sig .tc) := [main_v5, main_v6, main_v33, main_arg4, main_arg5, main_arg6, main_arg7]
abbrev keepL' : List (Ref sig .tc) := [main_v5, main_v6, main_v33, main_arg7]

/-- The arguments reach the first pallas_call's entry as launched. -/
theorem arg_W3 (c : Dev nD) (r : Ref sig .tc) (h : r ∈ argL) : W3 m ρ c (Proc.devRef .tc r) = W0 m ρ c (Proc.devRef .tc r) :=
  (keep_W3 m ρ c r ((by decide : ∀ r ∈ argL, r ∉ hostOps0_2_W) r h)).trans
    ((keep_W2 m ρ c r ((by decide : ∀ r ∈ argL, r ∉ hostOps0_1_W) r h)).trans
      (keep_W1 m ρ c r ((by decide : ∀ r ∈ argL, r ∉ hostOps0_W) r h)))

theorem keepL_W4 (c : Dev nD) (r : Ref sig .tc) (h : r ∈ keepL) : W4 m ρ c (Proc.devRef .tc r) = W3 m ρ c (Proc.devRef .tc r) :=
  W4_of_ne m ρ c r ((by decide : ∀ r ∈ keepL, ∀ w, Pipeline.arrRef spec0 w ≠ r) r h)
theorem keepL_W5 (c : Dev nD) (r : Ref sig .tc) (h : r ∈ keepL) : W5 m ρ c (Proc.devRef .tc r) = W3 m ρ c (Proc.devRef .tc r) :=
  (keep_W5 m ρ c r ((by decide : ∀ r ∈ keepL, r ∉ hostOps1_W) r h)).trans (keepL_W4 m ρ c r h)
theorem keepL_W6 (c : Dev nD) (r : Ref sig .tc) (h : r ∈ keepL) : W6 m ρ c (Proc.devRef .tc r) = W3 m ρ c (Proc.devRef .tc r) :=
  (W6_of_ne m ρ c r ((by decide : ∀ r ∈ keepL, ∀ w, Pipeline.arrRef spec1 w ≠ r) r h)).trans (keepL_W5 m ρ c r h)
theorem keepL_W7 (c : Dev nD) (r : Ref sig .tc) (h : r ∈ keepL) : W7 m ρ c (Proc.devRef .tc r) = W3 m ρ c (Proc.devRef .tc r) :=
  (keep_W7 m ρ c r ((by decide : ∀ r ∈ keepL, r ∉ hostOps2_W) r h)).trans (keepL_W6 m ρ c r h)
theorem keepL_W8 (c : Dev nD) (r : Ref sig .tc) (h : r ∈ keepL) : W8 m ρ c (Proc.devRef .tc r) = W3 m ρ c (Proc.devRef .tc r) :=
  (W8_of_ne m ρ c r ((by decide : ∀ r ∈ keepL, ∀ w, Pipeline.arrRef spec2 w ≠ r) r h)).trans (keepL_W7 m ρ c r h)
theorem keepL_W9 (c : Dev nD) (r : Ref sig .tc) (h : r ∈ keepL) : W9 m ρ c (Proc.devRef .tc r) = W3 m ρ c (Proc.devRef .tc r) :=
  (keep_W9 m ρ c r ((by decide : ∀ r ∈ keepL, r ∉ hostOps3_W) r h)).trans (keepL_W8 m ρ c r h)
theorem keepL_W10 (c : Dev nD) (r : Ref sig .tc) (h : r ∈ keepL) : W10 m ρ c (Proc.devRef .tc r) = W3 m ρ c (Proc.devRef .tc r) :=
  (W10_of_ne m ρ c r ((by decide : ∀ r ∈ keepL, ∀ w, Pipeline.arrRef spec3 w ≠ r) r h)).trans (keepL_W9 m ρ c r h)
theorem keepL_W11 (c : Dev nD) (r : Ref sig .tc) (h : r ∈ keepL) : W11 m ρ c (Proc.devRef .tc r) = W3 m ρ c (Proc.devRef .tc r) :=
  (keep_W11 m ρ c r ((by decide : ∀ r ∈ keepL, r ∉ hostOps4_W) r h)).trans (keepL_W10 m ρ c r h)
theorem keepL_W12 (c : Dev nD) (r : Ref sig .tc) (h : r ∈ keepL) : W12 m ρ c (Proc.devRef .tc r) = W3 m ρ c (Proc.devRef .tc r) :=
  (W12_of_ne m ρ c r ((by decide : ∀ r ∈ keepL, ∀ w, Pipeline.arrRef spec4 w ≠ r) r h)).trans (keepL_W11 m ρ c r h)
theorem keepL_W13 (c : Dev nD) (r : Ref sig .tc) (h : r ∈ keepL) : W13 m ρ c (Proc.devRef .tc r) = W3 m ρ c (Proc.devRef .tc r) :=
  (keep_W13 m ρ c r ((by decide : ∀ r ∈ keepL, r ∉ hostOps5_W) r h)).trans (keepL_W12 m ρ c r h)
theorem keepL_W14 (c : Dev nD) (r : Ref sig .tc) (h : r ∈ keepL) : W14 m ρ c (Proc.devRef .tc r) = W3 m ρ c (Proc.devRef .tc r) :=
  (W14_of_ne m ρ c r ((by decide : ∀ r ∈ keepL, ∀ w, Pipeline.arrRef spec5 w ≠ r) r h)).trans (keepL_W13 m ρ c r h)
theorem keepL_W15 (c : Dev nD) (r : Ref sig .tc) (h : r ∈ keepL) : W15 m ρ c (Proc.devRef .tc r) = W3 m ρ c (Proc.devRef .tc r) :=
  (keep_W15 m ρ c r ((by decide : ∀ r ∈ keepL, r ∉ hostOps6_W) r h)).trans (keepL_W14 m ρ c r h)
theorem keepL_W16 (c : Dev nD) (r : Ref sig .tc) (h : r ∈ keepL) : W16 m ρ c (Proc.devRef .tc r) = W3 m ρ c (Proc.devRef .tc r) :=
  (W16_of_ne m ρ c r ((by decide : ∀ r ∈ keepL, ∀ w, Pipeline.arrRef spec6 w ≠ r) r h)).trans (keepL_W15 m ρ c r h)
theorem keepL_W17 (c : Dev nD) (r : Ref sig .tc) (h : r ∈ keepL) : W17 m ρ c (Proc.devRef .tc r) = W3 m ρ c (Proc.devRef .tc r) :=
  (keep_W17 m ρ c r ((by decide : ∀ r ∈ keepL, r ∉ hostOps7_W) r h)).trans (keepL_W16 m ρ c r h)
theorem keepL_W18 (c : Dev nD) (r : Ref sig .tc) (h : r ∈ keepL) : W18 m ρ c (Proc.devRef .tc r) = W3 m ρ c (Proc.devRef .tc r) :=
  (W18_of_ne m ρ c r ((by decide : ∀ r ∈ keepL, ∀ w, Pipeline.arrRef spec7 w ≠ r) r h)).trans (keepL_W17 m ρ c r h)
theorem keepL_W19 (c : Dev nD) (r : Ref sig .tc) (h : r ∈ keepL) : W19 m ρ c (Proc.devRef .tc r) = W3 m ρ c (Proc.devRef .tc r) :=
  (keep_W19 m ρ c r ((by decide : ∀ r ∈ keepL, r ∉ hostOps8_W) r h)).trans (keepL_W18 m ρ c r h)
theorem keepL_W20 (c : Dev nD) (r : Ref sig .tc) (h : r ∈ keepL) : W20 m ρ c (Proc.devRef .tc r) = W3 m ρ c (Proc.devRef .tc r) :=
  (W20_of_ne m ρ c r ((by decide : ∀ r ∈ keepL, ∀ w, Pipeline.arrRef spec8 w ≠ r) r h)).trans (keepL_W19 m ρ c r h)
theorem keepL_W21 (c : Dev nD) (r : Ref sig .tc) (h : r ∈ keepL) : W21 m ρ c (Proc.devRef .tc r) = W3 m ρ c (Proc.devRef .tc r) :=
  (keep_W21 m ρ c r ((by decide : ∀ r ∈ keepL, r ∉ hostOps9_W) r h)).trans (keepL_W20 m ρ c r h)
theorem keepL_W22 (c : Dev nD) (r : Ref sig .tc) (h : r ∈ keepL) : W22 m ρ c (Proc.devRef .tc r) = W3 m ρ c (Proc.devRef .tc r) :=
  (W22_of_ne m ρ c r ((by decide : ∀ r ∈ keepL, ∀ w, Pipeline.arrRef spec9 w ≠ r) r h)).trans (keepL_W21 m ρ c r h)
theorem keepL_W23 (c : Dev nD) (r : Ref sig .tc) (h : r ∈ keepL) : W23 m ρ c (Proc.devRef .tc r) = W3 m ρ c (Proc.devRef .tc r) :=
  (keep_W23 m ρ c r ((by decide : ∀ r ∈ keepL, r ∉ hostOps10_W) r h)).trans (keepL_W22 m ρ c r h)
theorem keepL_W24 (c : Dev nD) (r : Ref sig .tc) (h : r ∈ keepL) : W24 m ρ c (Proc.devRef .tc r) = W3 m ρ c (Proc.devRef .tc r) :=
  (W24_of_ne m ρ c r ((by decide : ∀ r ∈ keepL, ∀ w, Pipeline.arrRef spec10 w ≠ r) r h)).trans (keepL_W23 m ρ c r h)
theorem keepL_W25 (c : Dev nD) (r : Ref sig .tc) (h : r ∈ keepL) : W25 m ρ c (Proc.devRef .tc r) = W3 m ρ c (Proc.devRef .tc r) :=
  (keep_W25 m ρ c r ((by decide : ∀ r ∈ keepL, r ∉ hostOps11_W) r h)).trans (keepL_W24 m ρ c r h)
theorem keepL_W26 (c : Dev nD) (r : Ref sig .tc) (h : r ∈ keepL) : W26 m ρ c (Proc.devRef .tc r) = W3 m ρ c (Proc.devRef .tc r) :=
  (W26_of_ne m ρ c r ((by decide : ∀ r ∈ keepL, ∀ w, Pipeline.arrRef spec11 w ≠ r) r h)).trans (keepL_W25 m ρ c r h)

theorem keepL'_W27 (c : Dev nD) (r : Ref sig .tc) (h : r ∈ keepL') : W27 m ρ c (Proc.devRef .tc r) = W3 m ρ c (Proc.devRef .tc r) :=
  (W27_of_ne m ρ c r ((by decide : ∀ r ∈ keepL', ∀ w, Pipeline.arrRef spec12 w ≠ r) r h)).trans (keepL_W26 m ρ c r ((by decide : ∀ r ∈ keepL', r ∈ keepL) r h))
theorem keepL'_W28 (c : Dev nD) (r : Ref sig .tc) (h : r ∈ keepL') : W28 m ρ c (Proc.devRef .tc r) = W3 m ρ c (Proc.devRef .tc r) :=
  (keep_W28 m ρ c r ((by decide : ∀ r ∈ keepL', r ∉ hostOps13_W) r h)).trans (keepL'_W27 m ρ c r h)

end Cert.KernelIdeal.KKeep

end
-- ==== Proof.RegVal0.lean ====
/-
  Region 0 (a 200000 × 1 left operand in ten blocks of 20000 rows, a 1 × 64 right operand held whole): what the
  200000 × 64 output array holds when the region ends.
  The body's payload at the ideal values is the matrix product of the two blocks it loads. A row of a product
  depends on that row of the left factor alone, so what a grid point writes back — the product of its block of rows
  of the left array with the whole right array — is the same block of rows of the product of the two whole arrays.
  The grid's blocks of rows tile the output array, so the array ends holding the product of the two arrays as the
  region found them.
-/
import proofs.«415904_j29016799052628_2_alg».proof.Proof.KernelIdealFrameP
import proofs.«415904_j29016799052628_2_alg».proof.Proof.LibDense
import Idealize.ShloMosaic.Lib.Pipeline.Value
import Idealize.ShloMosaic.Lib.ValueIdx

set_option maxRecDepth 16384

noncomputable section

namespace Cert.KernelIdeal.RegVal

open Cert.KernelIdeal Cert.KernelIdeal.Gen Cert.KernelIdeal.GenP Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The body's one store and its loads start at the origin of their buffers. -/
theorem zero_off0 : (![0, 0] : Fin 2 → Nat) = fun _ => 0 := funext fun a => by fin_cases a <;> rfl

/-- The body's payload is the matrix product of the two loaded blocks: the operands' passage through the narrower
    format is the identity on extended reals, and the accumulator starts at zero. -/
theorem pay_eq0 (x0 : Vec Ideal S20000x1 .f32) (x1 : Vec Ideal S1x64 .f32) :
    k0_pay1 (F := Ideal) x0 x1 = Cert.Lib.dense (M := 20000) (K := 1) (N := 64) x0 x1 := by
  unfold k0_pay1
  exact Cert.Lib.matmul_truncf_eq_dense dot_S20000x1_S1x64_S20000x64_1_0_0_1_n_n rfl rfl rfl rfl rfl rfl none x0 x1 _ _

/-- A BLOCK OF ROWS OF A PRODUCT. Let the left block be the left array read through a map that shifts rows by b
    and keeps columns, the right block the right array read through a map that keeps both coordinates, and let an
    index map of the results shift rows by the same b and keep columns. Then the product of the blocks at an index is
    the product of the arrays at the mapped index. -/
theorem block_rows0 {M M' K N : Nat} (a0 : (⟨2, ![M, K]⟩ : Shape).Idx → EReal) (a1 : (⟨2, ![K, N]⟩ : Shape).Idx → EReal)
    (f0 : (⟨2, ![M', K]⟩ : Shape).Idx → (⟨2, ![M, K]⟩ : Shape).Idx)
    (f1 : (⟨2, ![K, N]⟩ : Shape).Idx → (⟨2, ![K, N]⟩ : Shape).Idx)
    (g : (⟨2, ![M', N]⟩ : Shape).Idx → (⟨2, ![M, N]⟩ : Shape).Idx) (b : Nat)
    (hf0 : ∀ y, (f0 y 0).val = b + (y 0).val ∧ (f0 y 1).val = (y 1).val)
    (hf1 : ∀ y, (f1 y 0).val = (y 0).val ∧ (f1 y 1).val = (y 1).val)
    (hg : ∀ y, (g y 0).val = b + (y 0).val ∧ (g y 1).val = (y 1).val)
    (j : (⟨2, ![M', N]⟩ : Shape).Idx) :
    Cert.Lib.dense (fun y => a0 (f0 y)) (fun y => a1 (f1 y)) j = Cert.Lib.dense a0 a1 (g j) := by
  obtain ⟨p, q, rfl⟩ : ∃ (p : Fin M') (q : Fin N), j = ix2 p q := ⟨j 0, j 1, eq_ix2 j⟩
  have hq : g (ix2 p q) = ix2 (g (ix2 p q) 0) q := by
    funext a; apply Fin.ext
    match a with
    | ⟨0, _⟩ => rfl
    | ⟨1, _⟩ => exact (hg (ix2 p q)).2
  rw [hq]
  refine Cert.Lib.dense_row a0 _ a1 _ (g (ix2 p q) 0) p (fun k => ?_) (fun i => ?_) q
  · show a0 (f0 (ix2 p k)) = a0 (ix2 (g (ix2 p q) 0) k)
    congr 1
    funext a; apply Fin.ext
    match a with
    | ⟨0, _⟩ => exact ((hf0 (ix2 p k)).1).trans ((hg (ix2 p q)).1).symm
    | ⟨1, _⟩ => exact (hf0 (ix2 p k)).2
  · show a1 (f1 i) = a1 i
    congr 1
    funext a; apply Fin.ext
    match a with
    | ⟨0, _⟩ => exact (hf1 i).1
    | ⟨1, _⟩ => exact (hf1 i).2

/-- The printed index maps, decided over the grid: the left operand's block of rows is the output's, its column block
    the one there is; the right operand is held whole; the output's block of rows at a point is the point's number. -/
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) = t.val :=
  (by decide +kernel : ∀ t : Fin grid0.N, _)

/-- WHAT POINT t WRITES BACK is block t of the product of the two arrays as the region finds them. -/
theorem flushed_eq0 (c : Dev nD) (t : Fin cfg0.N) :
    (dat0 V c).flushed 2 t = ((cfg0.win 2).blk t).view.read (Elt Ideal)
      (fun i => Cert.Lib.dense (M := 200000) (K := 1) (N := 64) (V c main_arg0) (V c main_arg3) i) := by
  show (cfg0.win 2).cut (grid0.coords t) ((dat0 V c).after 2 t) = _
  rw [after0_2]
  unfold out0_2
  rw [View.canon_unit_zero zero_off0]
  simp only [View.ld_unit_zero (S := S20000x1) zero_off0, View.ld_unit_zero (S := S1x64) zero_off0]
  rw [pay_eq0]
  obtain ⟨e0, e1, e2, e3, e4, e5⟩ := idx_facts0 t
  funext j
  show Cert.Lib.dense (M := 20000) (K := 1) (N := 64)
      (fun y => V c main_arg0 (((cfg0.win 0).blk t).view.emb y))
      (fun y => V c main_arg3 (((cfg0.win 1).blk t).view.emb y)) j
    = Cert.Lib.dense (M := 200000) (K := 1) (N := 64) (V c main_arg0) (V c main_arg3) (((cfg0.win 2).blk t).view.emb j)
  refine block_rows0 (M := 200000) (M' := 20000) (K := 1) (N := 64) (V c main_arg0) (V c main_arg3)
    (fun y => ((cfg0.win 0).blk t).view.emb y) (fun y => ((cfg0.win 1).blk t).view.emb y)
    (fun y => ((cfg0.win 2).blk t).view.emb y) (win0_2.index t (0 : Fin 2) * 20000) (fun y => ⟨?_, ?_⟩) (fun y => ⟨?_, ?_⟩)
    (fun y => ⟨?_, ?_⟩) j
  · show win0_0.index t (0 : Fin 2) * 20000 + 1 * (y 0).val = win0_2.index t (0 : Fin 2) * 20000 + (y 0).val
    omega
  · show win0_0.index t (1 : Fin 2) * 1 + 1 * (y 1).val = (y 1).val
    omega
  · show win0_1.index t (0 : Fin 2) * 1 + 1 * (y 0).val = (y 0).val
    omega
  · show win0_1.index t (1 : Fin 2) * 64 + 1 * (y 1).val = (y 1).val
    omega
  · show win0_2.index t (0 : Fin 2) * 20000 + 1 * (y 0).val = win0_2.index t (0 : Fin 2) * 20000 + (y 0).val
    omega
  · show win0_2.index t (1 : Fin 2) * 64 + 1 * (y 1).val = (y 1).val
    omega

/-- An index of the output array is in point t's block iff each coordinate is in the block's range on its axis. -/
theorem mem_blk0 (t : Fin cfg0.N) (i : S200000x64.Idx) :
    i ∈ ((cfg0.win 2).blk t).view.set ↔ ∀ a : Fin 2, win0_2.index t a * S20000x64.size a ≤ (i a).val ∧ (i a).val < win0_2.index t a * S20000x64.size a + S20000x64.size a := by
  show i ∈ ((View.whole main_v34).slice (win0_2.rect t)).set ↔ _
  rw [View.set_slice_whole, Rect.mem_set_unit]
  exact Iff.rfl

/-- EVERY INDEX IS COVERED: the blocks of 20000 rows tile the 200000 rows, the columns are whole, and row r lies in
    the block of the point r / 20000. -/
theorem cover0 (i : S200000x64.Idx) :
    ∃ t : Fin cfg0.N, (cfg0.win 2).flush t = true ∧ i ∈ ((cfg0.win 2).blk t).view.set := by
  have hi0 : (i 0).val < 200000 := (i 0).isLt
  have hi1 : (i 1).val < 64 := (i 1).isLt
  have hN : cfg0.N = 10 := N_0
  have hlt : (i 0).val / 20000 < cfg0.N := by omega
  obtain ⟨t, ht⟩ : ∃ t : Fin cfg0.N, t.val = (i 0).val / 20000 := ⟨⟨(i 0).val / 20000, hlt⟩, rfl⟩
  obtain ⟨e0, e1, e2, e3, e4, e5⟩ := idx_facts0 t
  refine ⟨t, flush0_2 t, ?_⟩
  rw [mem_blk0]
  intro a
  match a with
  | ⟨0, _⟩ =>
    show win0_2.index t (0 : Fin 2) * 20000 ≤ (i 0).val ∧ (i 0).val < win0_2.index t (0 : Fin 2) * 20000 + 20000
    omega
  | ⟨1, _⟩ =>
    show win0_2.index t (1 : Fin 2) * 64 ≤ (i 1).val ∧ (i 1).val < win0_2.index t (1 : Fin 2) * 64 + 64
    omega

/-- THE OUTPUT ARRAY when the region ends: the matrix product of the two arrays as the region found them. -/
theorem final0 (c : Dev nD) : (dat0 V c).arrAt 2 cfg0.N
    = (fun i => Cert.Lib.dense (M := 200000) (K := 1) (N := 64) (V c main_arg0) (V c main_arg3) i) :=
  (dat0 V c).arrAt_eq_of_cover 2 _ (fun t _ => flushed_eq0 V c t) cover0

end Cert.KernelIdeal.RegVal

end
-- ==== Proof.RegVal1.lean ====
/-
  Region 1 of the kernel program adds a bias row to every row of a 200000 × 64 array, ten row blocks of 20000
  rows at a time. Written here: the body's stored value at an entry of a block (`bias_block1_apply`: the block's entry
  plus the bias row's entry in the same column), the printed index maps over the ten grid points
  (`block_indices1`: the input and the output move together down the rows, the bias row stays), what each point
  writes back as a block of one function of the arrays at region entry (`flushed1_eq`), the rows each block holds and
  that the ten blocks cover the array (`mem_blk1`, `cover1`), and the array when the region ends (`final1`):
  entry (r, q) is x (r, q) + b (0, q).
-/
import proofs.«415904_j29016799052628_2_alg».proof.Proof.KernelIdealFrameP
import Idealize.ShloMosaic.Lib.Pipeline.Value
import Idealize.ShloMosaic.Lib.ValueIdx

set_option maxRecDepth 16384

noncomputable section

namespace Cert.KernelIdeal.RegVal

open Cert.KernelIdeal Cert.KernelIdeal.Gen Cert.KernelIdeal.GenP Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The body's loads and its store go through the whole staging buffer: offsets zero on both axes. -/
theorem zero_offsets1 : (![0, 0] : Fin 2 → Nat) = fun _ => 0 := funext fun a => by fin_cases a <;> rfl

/-! ## The stored value at an entry -/

/-- Entry (r, q) of what the body stores: the block's entry plus the bias row's entry in column q. The casts of a
    vector to its own shape are the identity, and the broadcast of the one row down the rows reads row 0. -/
theorem bias_block1_apply (x0 : Vec Ideal S20000x64 .f32) (x1 : Vec Ideal S1x64 .f32) (r : Fin 20000) (q : Fin 64) :
    k1_pay1 (F := Ideal) x0 x1 (ValueIdx.ix2 r q) = x0 (ValueIdx.ix2 r q) + x1 (ValueIdx.ix2 (0 : Fin 1) q) := by
  unfold k1_pay1
  rw [shapeCast_self, shapeCast_self, shapeCast_self, ValueIdx.addf_apply]
  refine congrArg (fun z => x0 (ValueIdx.ix2 r q) + z) ?_
  refine broadcastTo_apply x1 _ (ValueIdx.ix2 r q) (ValueIdx.ix2 (0 : Fin 1) q) ?_
  intro a
  match a with
  | ⟨0, _⟩ => rfl
  | ⟨1, _⟩ => rfl

/-- The same at any index of the block. -/
theorem bias_block1_at (x0 : Vec Ideal S20000x64 .f32) (x1 : Vec Ideal S1x64 .f32) (j : S20000x64.Idx) :
    k1_pay1 (F := Ideal) x0 x1 j = x0 j + x1 (ValueIdx.ix2 (0 : Fin 1) (j 1)) := by
  obtain ⟨r, q, rfl⟩ : ∃ (r : Fin 20000) (q : Fin 64), j = ValueIdx.ix2 r q := ⟨j 0, j 1, ValueIdx.eq_ix2 j⟩
  exact bias_block1_apply x0 x1 r q

/-! ## The index maps over the grid -/

/-- At grid point t the input's and the output's blocks are row block t (column block 0), and the bias row's block is
    the whole row: decided over the ten points. -/
theorem block_indices1 : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) = t.val :=
  (by decide +kernel : ∀ t : Fin grid1.N, _)

/-! ## What a point writes back -/

/-- Point t writes back block t of x + b: the input's block sits on the same rows as the output's, and the bias row is
    read at row 0 and the entry's own column. -/
theorem flushed1_eq (c : Dev nD) (t : Fin cfg1.N) :
    (dat1 V c).flushed 2 t = ((cfg1.win 2).blk t).view.read (Elt Ideal)
      (fun i => HAdd.hAdd (α := EReal) (β := EReal) (γ := EReal) (V c main_v47 i) (V c main_v48 (ValueIdx.ix2 (0 : Fin 1) (i 1)))) := by
  show (cfg1.win 2).cut (grid1.coords t) ((dat1 V c).after 2 t) = _
  rw [after1_2]
  unfold out1_2
  rw [View.canon_unit_zero zero_offsets1]
  simp only [View.ld_unit_zero (S := S20000x64) zero_offsets1, View.ld_unit_zero (S := S1x64) zero_offsets1]
  obtain ⟨e0, e1, e2, e3, e4, e5⟩ := block_indices1 t
  funext j
  show k1_pay1 (F := Ideal) (iblk1 V c 0 t) (iblk1 V c 1 t) j
      = HAdd.hAdd (α := EReal) (β := EReal) (γ := EReal) (V c main_v47 (((cfg1.win 2).blk t).view.emb j))
          (V c main_v48 (ValueIdx.ix2 (0 : Fin 1) ((((cfg1.win 2).blk t).view.emb j) 1)))
  refine (bias_block1_at _ _ j).trans ?_
  show HAdd.hAdd (α := EReal) (β := EReal) (γ := EReal) (V c main_v47 (((cfg1.win 0).blk t).view.emb j))
        (V c main_v48 (((cfg1.win 1).blk t).view.emb (ValueIdx.ix2 (0 : Fin 1) (j 1) : S1x64.Idx)))
      = _
  -- the input's block element sits where the output's does
  have h0 : ((cfg1.win 0).blk t).view.emb j = ((cfg1.win 2).blk t).view.emb j := by
    funext a; apply Fin.ext
    match a with
    | ⟨0, _⟩ => show win1_0.index t (0 : Fin 2) * 20000 + 1 * (j 0).val = win1_2.index t (0 : Fin 2) * 20000 + 1 * (j 0).val; omega
    | ⟨1, _⟩ => show win1_0.index t (1 : Fin 2) * 64 + 1 * (j 1).val = win1_2.index t (1 : Fin 2) * 64 + 1 * (j 1).val; omega
  -- the bias row's element (0, q) is the array's (0, q)
  have h1 : ((cfg1.win 1).blk t).view.emb (ValueIdx.ix2 (0 : Fin 1) (j 1) : S1x64.Idx)
      = (ValueIdx.ix2 (0 : Fin 1) ((((cfg1.win 2).blk t).view.emb j) 1) : S1x64.Idx) := by
    funext a; apply Fin.ext
    match a with
    | ⟨0, _⟩ => show win1_1.index t (0 : Fin 2) * 1 + 1 * 0 = 0; omega
    | ⟨1, _⟩ => show win1_1.index t (1 : Fin 2) * 64 + 1 * (j 1).val = win1_2.index t (1 : Fin 2) * 64 + 1 * (j 1).val; omega
  rw [h0, h1]

/-! ## The blocks cover the array -/

/-- An index of the array is in point t's block iff each coordinate is in the block's range on its axis. -/
theorem mem_blk1 (t : Fin cfg1.N) (i : S200000x64.Idx) :
    i ∈ ((cfg1.win 2).blk t).view.set ↔ ∀ a : Fin 2, win1_2.index t a * S20000x64.size a ≤ (i a).val ∧ (i a).val < win1_2.index t a * S20000x64.size a + S20000x64.size a := by
  show i ∈ ((View.whole main_v49).slice (win1_2.rect t)).set ↔ _
  rw [View.set_slice_whole, Rect.mem_set_unit]
  exact Iff.rfl

/-- Row r lies in the block of point r / 20000, which writes back: the ten row blocks cover all 200000 rows, and each
    holds whole rows. -/
theorem cover1 (i : S200000x64.Idx) :
    ∃ t : Fin cfg1.N, (cfg1.win 2).flush t = true ∧ i ∈ ((cfg1.win 2).blk t).view.set := by
  have hi0 : (i 0).val < 200000 := (i 0).isLt
  have hi1 : (i 1).val < 64 := (i 1).isLt
  have hN : cfg1.N = 10 := N_1
  obtain ⟨t, ht⟩ : ∃ t : Fin cfg1.N, t.val = (i 0).val / 20000 := ⟨⟨(i 0).val / 20000, by rw [hN]; omega⟩, rfl⟩
  obtain ⟨e0, e1, e2, e3, e4, e5⟩ := block_indices1 t
  refine ⟨t, flush1_2 t, ?_⟩
  rw [mem_blk1]
  intro a
  match a with
  | ⟨0, _⟩ => show win1_2.index t (0 : Fin 2) * 20000 ≤ (i 0).val ∧ (i 0).val < win1_2.index t (0 : Fin 2) * 20000 + 20000; omega
  | ⟨1, _⟩ => show win1_2.index t (1 : Fin 2) * 64 ≤ (i 1).val ∧ (i 1).val < win1_2.index t (1 : Fin 2) * 64 + 64; omega

/-! ## The array when the region ends -/

/-- The output array when region 1 ends: entry i is x i plus the bias row's entry in i's column, whatever the
    arrays held at region entry. -/
theorem final1 (c : Dev nD) : (dat1 V c).arrAt 2 cfg1.N
    = (fun i => HAdd.hAdd (α := EReal) (β := EReal) (γ := EReal) (V c main_v47 i) (V c main_v48 (ValueIdx.ix2 (0 : Fin 1) (i 1)))) :=
  (dat1 V c).arrAt_eq_of_cover 2 _ (fun t _ => flushed1_eq V c t) (cover1)

end Cert.KernelIdeal.RegVal

end
-- ==== Proof.LibBias.lean ====
/-
  A bias vector laid along every row of a matrix and added to it, read entry by entry, at the extended reals.

  A vector of 64 entries (or of one entry) reshaped to a one-row matrix keeps its entries in order
  (`reshape_row64_apply`, `reshape_row1_apply`). A host program writes x + b as the vector broadcast to a
  one-row matrix along axis 1, that row broadcast down all the rows, and an elementwise sum: entry (r, q) of the
  result is x (r, q) + b q (`host_bias64_apply`, `host_bias1_apply`).
-/
import Idealize.ShloMosaic.PureOps.Ideal
import Idealize.ShloMosaic.Lib.ValueIdx
import Idealize.ShloMosaic.Lib.Pipeline.Value

noncomputable section

namespace Cert.Lib

open Idealize.ShloMosaic Idealize.ShloMosaic.ValueIdx

/-! ## A vector reshaped to one row -/

/-- a length-64 vector reshaped to one row, read at (0, q) -/
theorem reshape_row64_apply (h : (⟨1, ![64]⟩ : Shape).ShapeCasts ⟨2, ![1, 64]⟩) (b : (⟨1, ![64]⟩ : Shape).Idx → EReal)
    (r : Fin 1) (q : Fin 64) : shapeCast ⟨2, ![1, 64]⟩ b h (ValueIdx.ix2 r q) = b (ValueIdx.ix1 q) :=
  shapeCast_apply b h _ _ (by
    -- both row-major positions are q: the row coordinate of a one-row matrix is 0
    have hr : r.val = 0 := by omega
    rw [Shape.rowMajor_val_two, Shape.rowMajor_val_one]
    show q.val = r.val * 64 + q.val
    rw [hr, Nat.zero_mul, Nat.zero_add])

/-- a length-1 vector reshaped to one row, read at (0, 0) -/
theorem reshape_row1_apply (h : (⟨1, ![1]⟩ : Shape).ShapeCasts ⟨2, ![1, 1]⟩) (b : (⟨1, ![1]⟩ : Shape).Idx → EReal)
    (r : Fin 1) (q : Fin 1) : shapeCast ⟨2, ![1, 1]⟩ b h (ValueIdx.ix2 r q) = b (ValueIdx.ix1 q) :=
  shapeCast_apply b h _ _ (by
    have hr : r.val = 0 := by omega
    rw [Shape.rowMajor_val_two, Shape.rowMajor_val_one]
    show q.val = r.val * 1 + q.val
    rw [hr, Nat.zero_mul, Nat.zero_add])

/-! ## The host's x + b -/

/-- the host's x + b: the vector broadcast to one row (dims [1]), that row broadcast down the rows (dims [0,1]), added -/
theorem host_bias64_apply (h1 : (⟨1, ![64]⟩ : Shape).BroadcastsInDim ⟨2, ![1, 64]⟩ (![1] : Fin 1 → Fin 2))
    (h2 : (⟨2, ![1, 64]⟩ : Shape).BroadcastsInDim ⟨2, ![200000, 64]⟩ (![0, 1] : Fin 2 → Fin 2))
    (x : FVec Ideal ⟨2, ![200000, 64]⟩ .f32) (b : FVec Ideal ⟨1, ![64]⟩ .f32) (i : (⟨2, ![200000, 64]⟩ : Shape).Idx) :
    addf x (broadcastInDim ⟨2, ![200000, 64]⟩ ![0, 1] h2 (broadcastInDim ⟨2, ![1, 64]⟩ ![1] h1 b)) i
      = x i + b (ValueIdx.ix1 (i 1)) := by
  rw [addf_apply]
  refine congrArg (fun z => x i + z) ?_
  -- the big broadcast reads the one row at (0, i 1): the row axis of the operand is a unit axis, the column axis is kept
  refine (broadcastInDim_apply ![0, 1] h2 _ i (ix2 (0 : Fin 1) (i 1 : Fin 64)) ?_).trans ?_
  · intro a
    match a with
    | ⟨0, _⟩ => rfl
    | ⟨1, _⟩ => rfl
  -- the row reads the vector at i 1: the vector's one axis is sent to the column axis
  · refine broadcastInDim_apply ![1] h1 b _ (ix1 (i 1 : Fin 64)) ?_
    intro a
    match a with
    | ⟨0, _⟩ => rfl

/-- the host's x + b for a single column: the one-entry vector broadcast to a 1 × 1 matrix, that broadcast down the rows, added -/
theorem host_bias1_apply (h1 : (⟨1, ![1]⟩ : Shape).BroadcastsInDim ⟨2, ![1, 1]⟩ (![1] : Fin 1 → Fin 2))
    (h2 : (⟨2, ![1, 1]⟩ : Shape).BroadcastsInDim ⟨2, ![200000, 1]⟩ (![0, 1] : Fin 2 → Fin 2))
    (x : FVec Ideal ⟨2, ![200000, 1]⟩ .f32) (b : FVec Ideal ⟨1, ![1]⟩ .f32) (i : (⟨2, ![200000, 1]⟩ : Shape).Idx) :
    addf x (broadcastInDim ⟨2, ![200000, 1]⟩ ![0, 1] h2 (broadcastInDim ⟨2, ![1, 1]⟩ ![1] h1 b)) i
      = x i + b (ValueIdx.ix1 (i 1)) := by
  -- the column coordinate of a one-column matrix is 0
  have hi : (i 1).val = 0 := by have := (i 1).isLt; have e : (i 1).val < 1 := this; omega
  rw [addf_apply]
  refine congrArg (fun z => x i + z) ?_
  refine (broadcastInDim_apply ![0, 1] h2 _ i (ix2 (0 : Fin 1) (i 1 : Fin 1)) ?_).trans ?_
  · intro a
    match a with
    | ⟨0, _⟩ => rfl
    | ⟨1, _⟩ => exact hi
  · refine broadcastInDim_apply ![1] h1 b _ (ix1 (i 1 : Fin 1)) ?_
    intro a
    match a with
    | ⟨0, _⟩ => exact hi

end Cert.Lib
-- ==== Proof.KChain0.lean ====
/-
  The kernel program's buffers up to the end of the input layer, as functions of the argument arrays.

  At the first pallas_call's entry the two index lists and the edge normalisations are the functions of the edge
  list and the edge weights that `Cert.Spec` names, and every argument is as launched. The first call leaves x · W0
  (a plain matrix product at the ideal values), the host operations after it one propagation step of that and the
  bias as one row, and the second call the sum: the hidden features `hidden 0`.
-/
import proofs.«415904_j29016799052628_2_alg».proof.Proof.KernelIdealFrameP
import proofs.«415904_j29016799052628_2_alg».proof.Proof.SpecNet
import proofs.«415904_j29016799052628_2_alg».proof.Proof.KKeep
import proofs.«415904_j29016799052628_2_alg».proof.Proof.RegVal0
import proofs.«415904_j29016799052628_2_alg».proof.Proof.RegVal1
import proofs.«415904_j29016799052628_2_alg».proof.Proof.LibBias
import Idealize.ShloMosaic.Lib.StableHlo.Run

set_option maxRecDepth 16384

noncomputable section

namespace Cert.KernelIdeal.KChain

open Cert.KernelIdeal Cert.KernelIdeal.Gen Cert.KernelIdeal.GenP Cert.KernelIdeal.KKeep Idealize.ShloMosaic Idealize.ShloMosaic.TcCoe Idealize.SL.Sem
open Idealize.ShloMosaic.StableHlo
open Cert.KernelIdeal.RegVal

/-! ## What the host operations compute, for any float values -/

section Generic

variable {F : FTy → Type} [FloatOps F] (m : (ℓ : Loc nD τ sig) → Buf (Elt F) ℓ) (ρ : Dev nD → PrngReg)

/-- The source index of every edge, self loops appended. -/
theorem ops_v5 (c : Dev nD) : W1 m ρ c (Proc.devRef .tc main_v5) = Cert.Spec.rowIx (m ((c : Thread nD τ).loc main_arg1)) := by
  show StableHlo.after hostOps0 (W0 m ρ c) (Proc.devRef .tc main_v5) = _
  after_results_simp
  rfl

/-- The target index of every edge, self loops appended. -/
theorem ops_v6 (c : Dev nD) : W1 m ρ c (Proc.devRef .tc main_v6) = Cert.Spec.colIx (m ((c : Thread nD τ).loc main_arg1)) := by
  show StableHlo.after hostOps0 (W0 m ρ c) (Proc.devRef .tc main_v6) = _
  after_results_simp
  rfl

set_option maxHeartbeats 2000000 in
/-- The normalisation of every edge. -/
theorem ops_v33 (c : Dev nD) : W3 m ρ c (Proc.devRef .tc main_v33)
    = Cert.Spec.edgeNormOf (Cert.Spec.degInvSqrt (Cert.Spec.colIx (m ((c : Thread nD τ).loc main_arg1))) (Cert.Spec.wFull (m ((c : Thread nD τ).loc main_arg2))))
        (Cert.Spec.rowIx (m ((c : Thread nD τ).loc main_arg1))) (Cert.Spec.colIx (m ((c : Thread nD τ).loc main_arg1)))
        (Cert.Spec.wFull (m ((c : Thread nD τ).loc main_arg2))) := by
  show StableHlo.after hostOps0_2 (StableHlo.after hostOps0_1 (StableHlo.after hostOps0 (W0 m ρ c))) (Proc.devRef .tc main_v33) = _
  after_results_simp
  rfl

set_option maxHeartbeats 2000000 in
/-- One propagation step of what the first call left. -/
theorem ops_v47 (c : Dev nD) : W5 m ρ c (Proc.devRef .tc main_v47) = Cert.Spec.prop64 (W4 m ρ c (Proc.devRef .tc main_v33)) (W4 m ρ c (Proc.devRef .tc main_v5))
    (W4 m ρ c (Proc.devRef .tc main_v6)) (W4 m ρ c (Proc.devRef .tc main_v34)) := by
  show StableHlo.after hostOps1 (W4 m ρ c) (Proc.devRef .tc main_v47) = _
  after_results_simp
  rfl

/-- The bias as one row. -/
theorem ops_v48 (c : Dev nD) : W5 m ρ c (Proc.devRef .tc main_v48)
    = (fun i => shapeCast S1x64 (W4 m ρ c (Proc.devRef .tc main_arg4)) shapeCasts_S64_S1x64 i) := by
  show StableHlo.after hostOps1 (W4 m ρ c) (Proc.devRef .tc main_v48) = _
  after_results_simp
  rfl

end Generic

variable (m : (ℓ : Loc nD τ sig) → Buf (Elt Ideal) ℓ) (ρ : Dev nD → PrngReg)

/-! ## The arguments, the index lists and the edge normalisations at the first call's entry -/

theorem W3_arg0 (c : Dev nD) : W3 m ρ c (Proc.devRef .tc main_arg0) = m ((c : Thread nD τ).loc main_arg0) := arg_W3 m ρ c main_arg0 (by decide)
theorem W3_arg3 (c : Dev nD) : W3 m ρ c (Proc.devRef .tc main_arg3) = m ((c : Thread nD τ).loc main_arg3) := arg_W3 m ρ c main_arg3 (by decide)
theorem W3_arg4 (c : Dev nD) : W3 m ρ c (Proc.devRef .tc main_arg4) = m ((c : Thread nD τ).loc main_arg4) := arg_W3 m ρ c main_arg4 (by decide)
theorem W3_arg5 (c : Dev nD) : W3 m ρ c (Proc.devRef .tc main_arg5) = m ((c : Thread nD τ).loc main_arg5) := arg_W3 m ρ c main_arg5 (by decide)
theorem W3_arg6 (c : Dev nD) : W3 m ρ c (Proc.devRef .tc main_arg6) = m ((c : Thread nD τ).loc main_arg6) := arg_W3 m ρ c main_arg6 (by decide)
theorem W3_arg7 (c : Dev nD) : W3 m ρ c (Proc.devRef .tc main_arg7) = m ((c : Thread nD τ).loc main_arg7) := arg_W3 m ρ c main_arg7 (by decide)

theorem W3_v5 (c : Dev nD) : W3 m ρ c (Proc.devRef .tc main_v5) = Cert.Spec.rowIx (m ((c : Thread nD τ).loc main_arg1)) :=
  (keep_W3 m ρ c main_v5 (by decide)).trans ((keep_W2 m ρ c main_v5 (by decide)).trans (ops_v5 m ρ c))

theorem W3_v6 (c : Dev nD) : W3 m ρ c (Proc.devRef .tc main_v6) = Cert.Spec.colIx (m ((c : Thread nD τ).loc main_arg1)) :=
  (keep_W3 m ρ c main_v6 (by decide)).trans ((keep_W2 m ρ c main_v6 (by decide)).trans (ops_v6 m ρ c))

theorem W3_v33 (c : Dev nD) : W3 m ρ c (Proc.devRef .tc main_v33)
    = Cert.Spec.normOf (m ((c : Thread nD τ).loc main_arg1)) (m ((c : Thread nD τ).loc main_arg2)) := ops_v33 m ρ c

/-! ## The input layer -/

/-- The first call leaves the plain product x · W0. -/
theorem W4_v34 (c : Dev nD) : W4 m ρ c (Proc.devRef .tc main_v34)
    = (fun i => Cert.Lib.dense (M := 200000) (K := 1) (N := 64) (m ((c : Thread nD τ).loc main_arg0)) (m ((c : Thread nD τ).loc main_arg3)) i) := by
  refine (W4_arr m ρ c 2).trans ((final0 (V3 m ρ) c).trans ?_)
  have e0 : V3 m ρ c main_arg0 = m ((c : Thread nD τ).loc main_arg0) := W3_arg0 m ρ c
  have e3 : V3 m ρ c main_arg3 = m ((c : Thread nD τ).loc main_arg3) := W3_arg3 m ρ c
  rw [e0, e3]

/-- The host operations after it: one propagation step of the product. -/
theorem W5_v47 (c : Dev nD) : W5 m ρ c (Proc.devRef .tc main_v47)
    = Cert.Spec.step64 (m ((c : Thread nD τ).loc main_arg1)) (m ((c : Thread nD τ).loc main_arg2))
        (fun i => Cert.Lib.dense (M := 200000) (K := 1) (N := 64) (m ((c : Thread nD τ).loc main_arg0)) (m ((c : Thread nD τ).loc main_arg3)) i) := by
  rw [ops_v47, keepL_W4 m ρ c main_v33 (by decide), keepL_W4 m ρ c main_v5 (by decide), keepL_W4 m ρ c main_v6 (by decide),
    W3_v33, W3_v5, W3_v6, W4_v34]
  rfl

/-- … and the bias as one row. -/
theorem W5_v48 (c : Dev nD) : W5 m ρ c (Proc.devRef .tc main_v48)
    = (fun i => shapeCast S1x64 (m ((c : Thread nD τ).loc main_arg4)) shapeCasts_S64_S1x64 i) := by
  rw [ops_v48, keepL_W4 m ρ c main_arg4 (by decide), W3_arg4]

/-- The second call adds the bias row to every row: the hidden features after the input layer. -/
theorem W6_v49 (c : Dev nD) : W6 m ρ c (Proc.devRef .tc main_v49)
    = Cert.Spec.hidden (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) 0 := by
  refine (W6_arr m ρ c 2).trans ((final1 (V5 m ρ) c).trans ?_)
  have e47 : V5 m ρ c main_v47 = _ := W5_v47 m ρ c
  have e48 : V5 m ρ c main_v48 = _ := W5_v48 m ρ c
  rw [e47, e48]
  funext i
  exact congrArg (_ + ·) (Cert.Lib.reshape_row64_apply shapeCasts_S64_S1x64 (m ((c : Thread nD τ).loc main_arg4)) 0 (i 1))

end Cert.KernelIdeal.KChain

end
-- ==== Proof.RegVal2.lean ====
/-
  A matrix-product region (a 200000 × 64 left operand in ten blocks of 20000 rows, a 64 × 64 right operand held
  whole): what the 200000 × 64 output array holds when the region ends.
  The body's payload at the ideal values is the matrix product of the two blocks it loads. A row of a product
  depends on that row of the left factor alone, so what a grid point writes back — the product of its block of rows
  of the left array with the whole right array — is the same block of rows of the product of the two whole arrays.
  The grid's blocks of rows tile the output array, so the array ends holding the product of the two arrays as the
  region found them.
-/
import proofs.«415904_j29016799052628_2_alg».proof.Proof.KernelIdealFrameP
import proofs.«415904_j29016799052628_2_alg».proof.Proof.LibDense
import Idealize.ShloMosaic.Lib.Pipeline.Value
import Idealize.ShloMosaic.Lib.ValueIdx

set_option maxRecDepth 16384

noncomputable section

namespace Cert.KernelIdeal.RegVal

open Cert.KernelIdeal Cert.KernelIdeal.Gen Cert.KernelIdeal.GenP Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The body's one store and its loads start at the origin of their buffers. -/
theorem zero_off2 : (![0, 0] : Fin 2 → Nat) = fun _ => 0 := funext fun a => by fin_cases a <;> rfl

/-- The body's payload is the matrix product of the two loaded blocks: the operands' passage through the narrower
    format is the identity on extended reals, and the accumulator starts at zero. -/
theorem pay_eq2 (x0 : Vec Ideal S20000x64 .f32) (x1 : Vec Ideal S64x64 .f32) :
    k2_pay1 (F := Ideal) x0 x1 = Cert.Lib.dense (M := 20000) (K := 64) (N := 64) x0 x1 := by
  unfold k2_pay1
  simp only [shapeCast_self]
  exact Cert.Lib.matmul_truncf_eq_dense dot_S20000x64_S64x64_S20000x64_1_0_0_1_n_n rfl rfl rfl rfl rfl rfl none x0 x1 _ _

/-- A BLOCK OF ROWS OF A PRODUCT. Let the left block be the left array read through a map that shifts rows by b
    and keeps columns, the right block the right array read through a map that keeps both coordinates, and let an
    index map of the results shift rows by the same b and keep columns. Then the product of the blocks at an index is
    the product of the arrays at the mapped index. -/
theorem block_rows2 {M M' K N : Nat} (a0 : (⟨2, ![M, K]⟩ : Shape).Idx → EReal) (a1 : (⟨2, ![K, N]⟩ : Shape).Idx → EReal)
    (f0 : (⟨2, ![M', K]⟩ : Shape).Idx → (⟨2, ![M, K]⟩ : Shape).Idx)
    (f1 : (⟨2, ![K, N]⟩ : Shape).Idx → (⟨2, ![K, N]⟩ : Shape).Idx)
    (g : (⟨2, ![M', N]⟩ : Shape).Idx → (⟨2, ![M, N]⟩ : Shape).Idx) (b : Nat)
    (hf0 : ∀ y, (f0 y 0).val = b + (y 0).val ∧ (f0 y 1).val = (y 1).val)
    (hf1 : ∀ y, (f1 y 0).val = (y 0).val ∧ (f1 y 1).val = (y 1).val)
    (hg : ∀ y, (g y 0).val = b + (y 0).val ∧ (g y 1).val = (y 1).val)
    (j : (⟨2, ![M', N]⟩ : Shape).Idx) :
    Cert.Lib.dense (fun y => a0 (f0 y)) (fun y => a1 (f1 y)) j = Cert.Lib.dense a0 a1 (g j) := by
  obtain ⟨p, q, rfl⟩ : ∃ (p : Fin M') (q : Fin N), j = ix2 p q := ⟨j 0, j 1, eq_ix2 j⟩
  have hq : g (ix2 p q) = ix2 (g (ix2 p q) 0) q := by
    funext a; apply Fin.ext
    match a with
    | ⟨0, _⟩ => rfl
    | ⟨1, _⟩ => exact (hg (ix2 p q)).2
  rw [hq]
  refine Cert.Lib.dense_row a0 _ a1 _ (g (ix2 p q) 0) p (fun k => ?_) (fun i => ?_) q
  · show a0 (f0 (ix2 p k)) = a0 (ix2 (g (ix2 p q) 0) k)
    congr 1
    funext a; apply Fin.ext
    match a with
    | ⟨0, _⟩ => exact ((hf0 (ix2 p k)).1).trans ((hg (ix2 p q)).1).symm
    | ⟨1, _⟩ => exact (hf0 (ix2 p k)).2
  · show a1 (f1 i) = a1 i
    congr 1
    funext a; apply Fin.ext
    match a with
    | ⟨0, _⟩ => exact (hf1 i).1
    | ⟨1, _⟩ => exact (hf1 i).2

/-- The printed index maps, decided over the grid: the left operand's block of rows is the output's, its column block
    the one there is; the right operand is held whole; the output's block of rows at a point is the point's number. -/
theorem idx_facts2 : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) = t.val :=
  (by decide +kernel : ∀ t : Fin grid2.N, _)

/-- WHAT POINT t WRITES BACK is block t of the product of the two arrays as the region finds them. -/
theorem flushed_eq2 (c : Dev nD) (t : Fin cfg2.N) :
    (dat2 V c).flushed 2 t = ((cfg2.win 2).blk t).view.read (Elt Ideal)
      (fun i => Cert.Lib.dense (M := 200000) (K := 64) (N := 64) (V c main_v112) (V c main_v99) i) := by
  show (cfg2.win 2).cut (grid2.coords t) ((dat2 V c).after 2 t) = _
  rw [after2_2]
  unfold out2_2
  rw [View.canon_unit_zero zero_off2]
  simp only [View.ld_unit_zero (S := S20000x64) zero_off2, View.ld_unit_zero (S := S64x64) zero_off2]
  rw [pay_eq2]
  obtain ⟨e0, e1, e2, e3, e4, e5⟩ := idx_facts2 t
  funext j
  show Cert.Lib.dense (M := 20000) (K := 64) (N := 64)
      (fun y => V c main_v112 (((cfg2.win 0).blk t).view.emb y))
      (fun y => V c main_v99 (((cfg2.win 1).blk t).view.emb y)) j
    = Cert.Lib.dense (M := 200000) (K := 64) (N := 64) (V c main_v112) (V c main_v99) (((cfg2.win 2).blk t).view.emb j)
  refine block_rows2 (M := 200000) (M' := 20000) (K := 64) (N := 64) (V c main_v112) (V c main_v99)
    (fun y => ((cfg2.win 0).blk t).view.emb y) (fun y => ((cfg2.win 1).blk t).view.emb y)
    (fun y => ((cfg2.win 2).blk t).view.emb y) (win2_2.index t (0 : Fin 2) * 20000) (fun y => ⟨?_, ?_⟩) (fun y => ⟨?_, ?_⟩)
    (fun y => ⟨?_, ?_⟩) j
  · show win2_0.index t (0 : Fin 2) * 20000 + 1 * (y 0).val = win2_2.index t (0 : Fin 2) * 20000 + (y 0).val
    omega
  · show win2_0.index t (1 : Fin 2) * 64 + 1 * (y 1).val = (y 1).val
    omega
  · show win2_1.index t (0 : Fin 2) * 64 + 1 * (y 0).val = (y 0).val
    omega
  · show win2_1.index t (1 : Fin 2) * 64 + 1 * (y 1).val = (y 1).val
    omega
  · show win2_2.index t (0 : Fin 2) * 20000 + 1 * (y 0).val = win2_2.index t (0 : Fin 2) * 20000 + (y 0).val
    omega
  · show win2_2.index t (1 : Fin 2) * 64 + 1 * (y 1).val = (y 1).val
    omega

/-- An index of the output array is in point t's block iff each coordinate is in the block's range on its axis. -/
theorem mem_blk2 (t : Fin cfg2.N) (i : S200000x64.Idx) :
    i ∈ ((cfg2.win 2).blk t).view.set ↔ ∀ a : Fin 2, win2_2.index t a * S20000x64.size a ≤ (i a).val ∧ (i a).val < win2_2.index t a * S20000x64.size a + S20000x64.size a := by
  show i ∈ ((View.whole main_v113).slice (win2_2.rect t)).set ↔ _
  rw [View.set_slice_whole, Rect.mem_set_unit]
  exact Iff.rfl

/-- EVERY INDEX IS COVERED: the blocks of 20000 rows tile the 200000 rows, the columns are whole, and row r lies in
    the block of the point r / 20000. -/
theorem cover2 (i : S200000x64.Idx) :
    ∃ t : Fin cfg2.N, (cfg2.win 2).flush t = true ∧ i ∈ ((cfg2.win 2).blk t).view.set := by
  have hi0 : (i 0).val < 200000 := (i 0).isLt
  have hi1 : (i 1).val < 64 := (i 1).isLt
  have hN : cfg2.N = 10 := N_2
  have hlt : (i 0).val / 20000 < cfg2.N := by omega
  obtain ⟨t, ht⟩ : ∃ t : Fin cfg2.N, t.val = (i 0).val / 20000 := ⟨⟨(i 0).val / 20000, hlt⟩, rfl⟩
  obtain ⟨e0, e1, e2, e3, e4, e5⟩ := idx_facts2 t
  refine ⟨t, flush2_2 t, ?_⟩
  rw [mem_blk2]
  intro a
  match a with
  | ⟨0, _⟩ =>
    show win2_2.index t (0 : Fin 2) * 20000 ≤ (i 0).val ∧ (i 0).val < win2_2.index t (0 : Fin 2) * 20000 + 20000
    omega
  | ⟨1, _⟩ =>
    show win2_2.index t (1 : Fin 2) * 64 ≤ (i 1).val ∧ (i 1).val < win2_2.index t (1 : Fin 2) * 64 + 64
    omega

/-- THE OUTPUT ARRAY when the region ends: the matrix product of the two arrays as the region found them. -/
theorem final2 (c : Dev nD) : (dat2 V c).arrAt 2 cfg2.N
    = (fun i => Cert.Lib.dense (M := 200000) (K := 64) (N := 64) (V c main_v112) (V c main_v99) i) :=
  (dat2 V c).arrAt_eq_of_cover 2 _ (fun t _ => flushed_eq2 V c t) cover2

end Cert.KernelIdeal.RegVal

end
-- ==== Proof.KLayer0.lean ====
/-
  One orthogonal layer of the kernel program: from the hidden features in buffer main_v49 at the layer's entry, the
  host operations leave one propagation step of them and the layer's weight (the Taylor polynomial of the
  exponential at the skew part of slice 0 of the stacked weights), and the pallas_call leaves their plain product.
-/
import proofs.«415904_j29016799052628_2_alg».proof.Proof.KernelIdealFrameP
import proofs.«415904_j29016799052628_2_alg».proof.Proof.SpecNet
import proofs.«415904_j29016799052628_2_alg».proof.Proof.KKeep
import proofs.«415904_j29016799052628_2_alg».proof.Proof.KChain0
import proofs.«415904_j29016799052628_2_alg».proof.Proof.RegVal2
import Idealize.ShloMosaic.Lib.StableHlo.Run

set_option maxRecDepth 16384

noncomputable section

namespace Cert.KernelIdeal.KChain

open Cert.KernelIdeal Cert.KernelIdeal.Gen Cert.KernelIdeal.GenP Cert.KernelIdeal.KKeep Idealize.ShloMosaic Idealize.ShloMosaic.TcCoe Idealize.SL.Sem
open Idealize.ShloMosaic.StableHlo
open Cert.KernelIdeal.RegVal

section Generic

variable {F : FTy → Type} [FloatOps F] (m : (ℓ : Loc nD τ sig) → Buf (Elt F) ℓ) (ρ : Dev nD → PrngReg)

set_option maxHeartbeats 4000000 in
/-- The host operations' propagation step, for any float values. -/
theorem layer0_step (c : Dev nD) : W7 m ρ c (Proc.devRef .tc main_v112) = Cert.Spec.prop64 (W6 m ρ c (Proc.devRef .tc main_v33)) (W6 m ρ c (Proc.devRef .tc main_v5))
    (W6 m ρ c (Proc.devRef .tc main_v6)) (W6 m ρ c (Proc.devRef .tc main_v49)) := by
  show StableHlo.after hostOps2 (W6 m ρ c) (Proc.devRef .tc main_v112) = _
  after_results_simp
  rfl

set_option maxHeartbeats 4000000 in
/-- The host operations' layer weight, for any float values. -/
theorem layer0_weight (c : Dev nD) : W7 m ρ c (Proc.devRef .tc main_v99) = Cert.Spec.expmTaylor (Cert.Spec.skewPart
    (extractStridedSlice S1x64x64 ![0, 0, 0] (W6 m ρ c (Proc.devRef .tc main_arg5)) slices_S10x64x64_S1x64x64_0_0_0)) := by
  show StableHlo.after hostOps2 (W6 m ρ c) (Proc.devRef .tc main_v99) = _
  after_results_simp
  rfl

end Generic

variable (m : (ℓ : Loc nD τ sig) → Buf (Elt Ideal) ℓ) (ρ : Dev nD → PrngReg)

/-- The layer's exit features from its entry features. -/
theorem layer0 (c : Dev nD) : W8 m ρ c (Proc.devRef .tc main_v113)
    = (fun i => Cert.Lib.dense (M := 200000) (K := 64) (N := 64)
        (Cert.Spec.step64 (m ((c : Thread nD τ).loc main_arg1)) (m ((c : Thread nD τ).loc main_arg2)) (W6 m ρ c (Proc.devRef .tc main_v49)))
        (Cert.Spec.orth (m ((c : Thread nD τ).loc main_arg5)) 0) i) := by
  refine (W8_arr m ρ c 2).trans ((final2 (V7 m ρ) c).trans ?_)
  have e1 : V7 m ρ c main_v112 = _ := layer0_step m ρ c
  have e2 : V7 m ρ c main_v99 = _ := layer0_weight m ρ c
  rw [e1, e2, keepL_W6 m ρ c main_v33 (by decide), keepL_W6 m ρ c main_v5 (by decide), keepL_W6 m ρ c main_v6 (by decide),
    keepL_W6 m ρ c main_arg5 (by decide), W3_v33, W3_v5, W3_v6, W3_arg5]
  rfl

end Cert.KernelIdeal.KChain

end
-- ==== Proof.RegVal3.lean ====
/-
  A matrix-product region (a 200000 × 64 left operand in ten blocks of 20000 rows, a 64 × 64 right operand held
  whole): what the 200000 × 64 output array holds when the region ends.
  The body's payload at the ideal values is the matrix product of the two blocks it loads. A row of a product
  depends on that row of the left factor alone, so what a grid point writes back — the product of its block of rows
  of the left array with the whole right array — is the same block of rows of the product of the two whole arrays.
  The grid's blocks of rows tile the output array, so the array ends holding the product of the two arrays as the
  region found them.
-/
import proofs.«415904_j29016799052628_2_alg».proof.Proof.KernelIdealFrameP
import proofs.«415904_j29016799052628_2_alg».proof.Proof.LibDense
import Idealize.ShloMosaic.Lib.Pipeline.Value
import Idealize.ShloMosaic.Lib.ValueIdx

set_option maxRecDepth 16384

noncomputable section

namespace Cert.KernelIdeal.RegVal

open Cert.KernelIdeal Cert.KernelIdeal.Gen Cert.KernelIdeal.GenP Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The body's one store and its loads start at the origin of their buffers. -/
theorem zero_off3 : (![0, 0] : Fin 2 → Nat) = fun _ => 0 := funext fun a => by fin_cases a <;> rfl

/-- The body's payload is the matrix product of the two loaded blocks: the operands' passage through the narrower
    format is the identity on extended reals, and the accumulator starts at zero. -/
theorem pay_eq3 (x0 : Vec Ideal S20000x64 .f32) (x1 : Vec Ideal S64x64 .f32) :
    k3_pay1 (F := Ideal) x0 x1 = Cert.Lib.dense (M := 20000) (K := 64) (N := 64) x0 x1 := by
  unfold k3_pay1
  simp only [shapeCast_self]
  exact Cert.Lib.matmul_truncf_eq_dense dot_S20000x64_S64x64_S20000x64_1_0_0_1_n_n rfl rfl rfl rfl rfl rfl none x0 x1 _ _

/-- A BLOCK OF ROWS OF A PRODUCT. Let the left block be the left array read through a map that shifts rows by b
    and keeps columns, the right block the right array read through a map that keeps both coordinates, and let an
    index map of the results shift rows by the same b and keep columns. Then the product of the blocks at an index is
    the product of the arrays at the mapped index. -/
theorem block_rows3 {M M' K N : Nat} (a0 : (⟨2, ![M, K]⟩ : Shape).Idx → EReal) (a1 : (⟨2, ![K, N]⟩ : Shape).Idx → EReal)
    (f0 : (⟨2, ![M', K]⟩ : Shape).Idx → (⟨2, ![M, K]⟩ : Shape).Idx)
    (f1 : (⟨2, ![K, N]⟩ : Shape).Idx → (⟨2, ![K, N]⟩ : Shape).Idx)
    (g : (⟨2, ![M', N]⟩ : Shape).Idx → (⟨2, ![M, N]⟩ : Shape).Idx) (b : Nat)
    (hf0 : ∀ y, (f0 y 0).val = b + (y 0).val ∧ (f0 y 1).val = (y 1).val)
    (hf1 : ∀ y, (f1 y 0).val = (y 0).val ∧ (f1 y 1).val = (y 1).val)
    (hg : ∀ y, (g y 0).val = b + (y 0).val ∧ (g y 1).val = (y 1).val)
    (j : (⟨2, ![M', N]⟩ : Shape).Idx) :
    Cert.Lib.dense (fun y => a0 (f0 y)) (fun y => a1 (f1 y)) j = Cert.Lib.dense a0 a1 (g j) := by
  obtain ⟨p, q, rfl⟩ : ∃ (p : Fin M') (q : Fin N), j = ix2 p q := ⟨j 0, j 1, eq_ix2 j⟩
  have hq : g (ix2 p q) = ix2 (g (ix2 p q) 0) q := by
    funext a; apply Fin.ext
    match a with
    | ⟨0, _⟩ => rfl
    | ⟨1, _⟩ => exact (hg (ix2 p q)).2
  rw [hq]
  refine Cert.Lib.dense_row a0 _ a1 _ (g (ix2 p q) 0) p (fun k => ?_) (fun i => ?_) q
  · show a0 (f0 (ix2 p k)) = a0 (ix2 (g (ix2 p q) 0) k)
    congr 1
    funext a; apply Fin.ext
    match a with
    | ⟨0, _⟩ => exact ((hf0 (ix2 p k)).1).trans ((hg (ix2 p q)).1).symm
    | ⟨1, _⟩ => exact (hf0 (ix2 p k)).2
  · show a1 (f1 i) = a1 i
    congr 1
    funext a; apply Fin.ext
    match a with
    | ⟨0, _⟩ => exact (hf1 i).1
    | ⟨1, _⟩ => exact (hf1 i).2

/-- The printed index maps, decided over the grid: the left operand's block of rows is the output's, its column block
    the one there is; the right operand is held whole; the output's block of rows at a point is the point's number. -/
theorem idx_facts3 : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (1 : Fin 2) = 0
    ∧ win3_2.index t (0 : Fin 2) = t.val :=
  (by decide +kernel : ∀ t : Fin grid3.N, _)

/-- WHAT POINT t WRITES BACK is block t of the product of the two arrays as the region finds them. -/
theorem flushed_eq3 (c : Dev nD) (t : Fin cfg3.N) :
    (dat3 V c).flushed 2 t = ((cfg3.win 2).blk t).view.read (Elt Ideal)
      (fun i => Cert.Lib.dense (M := 200000) (K := 64) (N := 64) (V c main_v176) (V c main_v163) i) := by
  show (cfg3.win 2).cut (grid3.coords t) ((dat3 V c).after 2 t) = _
  rw [after3_2]
  unfold out3_2
  rw [View.canon_unit_zero zero_off3]
  simp only [View.ld_unit_zero (S := S20000x64) zero_off3, View.ld_unit_zero (S := S64x64) zero_off3]
  rw [pay_eq3]
  obtain ⟨e0, e1, e2, e3, e4, e5⟩ := idx_facts3 t
  funext j
  show Cert.Lib.dense (M := 20000) (K := 64) (N := 64)
      (fun y => V c main_v176 (((cfg3.win 0).blk t).view.emb y))
      (fun y => V c main_v163 (((cfg3.win 1).blk t).view.emb y)) j
    = Cert.Lib.dense (M := 200000) (K := 64) (N := 64) (V c main_v176) (V c main_v163) (((cfg3.win 2).blk t).view.emb j)
  refine block_rows3 (M := 200000) (M' := 20000) (K := 64) (N := 64) (V c main_v176) (V c main_v163)
    (fun y => ((cfg3.win 0).blk t).view.emb y) (fun y => ((cfg3.win 1).blk t).view.emb y)
    (fun y => ((cfg3.win 2).blk t).view.emb y) (win3_2.index t (0 : Fin 2) * 20000) (fun y => ⟨?_, ?_⟩) (fun y => ⟨?_, ?_⟩)
    (fun y => ⟨?_, ?_⟩) j
  · show win3_0.index t (0 : Fin 2) * 20000 + 1 * (y 0).val = win3_2.index t (0 : Fin 2) * 20000 + (y 0).val
    omega
  · show win3_0.index t (1 : Fin 2) * 64 + 1 * (y 1).val = (y 1).val
    omega
  · show win3_1.index t (0 : Fin 2) * 64 + 1 * (y 0).val = (y 0).val
    omega
  · show win3_1.index t (1 : Fin 2) * 64 + 1 * (y 1).val = (y 1).val
    omega
  · show win3_2.index t (0 : Fin 2) * 20000 + 1 * (y 0).val = win3_2.index t (0 : Fin 2) * 20000 + (y 0).val
    omega
  · show win3_2.index t (1 : Fin 2) * 64 + 1 * (y 1).val = (y 1).val
    omega

/-- An index of the output array is in point t's block iff each coordinate is in the block's range on its axis. -/
theorem mem_blk3 (t : Fin cfg3.N) (i : S200000x64.Idx) :
    i ∈ ((cfg3.win 2).blk t).view.set ↔ ∀ a : Fin 2, win3_2.index t a * S20000x64.size a ≤ (i a).val ∧ (i a).val < win3_2.index t a * S20000x64.size a + S20000x64.size a := by
  show i ∈ ((View.whole main_v177).slice (win3_2.rect t)).set ↔ _
  rw [View.set_slice_whole, Rect.mem_set_unit]
  exact Iff.rfl

/-- EVERY INDEX IS COVERED: the blocks of 20000 rows tile the 200000 rows, the columns are whole, and row r lies in
    the block of the point r / 20000. -/
theorem cover3 (i : S200000x64.Idx) :
    ∃ t : Fin cfg3.N, (cfg3.win 2).flush t = true ∧ i ∈ ((cfg3.win 2).blk t).view.set := by
  have hi0 : (i 0).val < 200000 := (i 0).isLt
  have hi1 : (i 1).val < 64 := (i 1).isLt
  have hN : cfg3.N = 10 := N_3
  have hlt : (i 0).val / 20000 < cfg3.N := by omega
  obtain ⟨t, ht⟩ : ∃ t : Fin cfg3.N, t.val = (i 0).val / 20000 := ⟨⟨(i 0).val / 20000, hlt⟩, rfl⟩
  obtain ⟨e0, e1, e2, e3, e4, e5⟩ := idx_facts3 t
  refine ⟨t, flush3_2 t, ?_⟩
  rw [mem_blk3]
  intro a
  match a with
  | ⟨0, _⟩ =>
    show win3_2.index t (0 : Fin 2) * 20000 ≤ (i 0).val ∧ (i 0).val < win3_2.index t (0 : Fin 2) * 20000 + 20000
    omega
  | ⟨1, _⟩ =>
    show win3_2.index t (1 : Fin 2) * 64 ≤ (i 1).val ∧ (i 1).val < win3_2.index t (1 : Fin 2) * 64 + 64
    omega

/-- THE OUTPUT ARRAY when the region ends: the matrix product of the two arrays as the region found them. -/
theorem final3 (c : Dev nD) : (dat3 V c).arrAt 2 cfg3.N
    = (fun i => Cert.Lib.dense (M := 200000) (K := 64) (N := 64) (V c main_v176) (V c main_v163) i) :=
  (dat3 V c).arrAt_eq_of_cover 2 _ (fun t _ => flushed_eq3 V c t) cover3

end Cert.KernelIdeal.RegVal

end
-- ==== Proof.KLayer1.lean ====
/-
  One orthogonal layer of the kernel program: from the hidden features in buffer main_v113 at the layer's entry, the
  host operations leave one propagation step of them and the layer's weight (the Taylor polynomial of the
  exponential at the skew part of slice 1 of the stacked weights), and the pallas_call leaves their plain product.
-/
import proofs.«415904_j29016799052628_2_alg».proof.Proof.KernelIdealFrameP
import proofs.«415904_j29016799052628_2_alg».proof.Proof.SpecNet
import proofs.«415904_j29016799052628_2_alg».proof.Proof.KKeep
import proofs.«415904_j29016799052628_2_alg».proof.Proof.KChain0
import proofs.«415904_j29016799052628_2_alg».proof.Proof.RegVal3
import Idealize.ShloMosaic.Lib.StableHlo.Run

set_option maxRecDepth 16384

noncomputable section

namespace Cert.KernelIdeal.KChain

open Cert.KernelIdeal Cert.KernelIdeal.Gen Cert.KernelIdeal.GenP Cert.KernelIdeal.KKeep Idealize.ShloMosaic Idealize.ShloMosaic.TcCoe Idealize.SL.Sem
open Idealize.ShloMosaic.StableHlo
open Cert.KernelIdeal.RegVal

section Generic

variable {F : FTy → Type} [FloatOps F] (m : (ℓ : Loc nD τ sig) → Buf (Elt F) ℓ) (ρ : Dev nD → PrngReg)

set_option maxHeartbeats 4000000 in
/-- The host operations' propagation step, for any float values. -/
theorem layer1_step (c : Dev nD) : W9 m ρ c (Proc.devRef .tc main_v176) = Cert.Spec.prop64 (W8 m ρ c (Proc.devRef .tc main_v33)) (W8 m ρ c (Proc.devRef .tc main_v5))
    (W8 m ρ c (Proc.devRef .tc main_v6)) (W8 m ρ c (Proc.devRef .tc main_v113)) := by
  show StableHlo.after hostOps3 (W8 m ρ c) (Proc.devRef .tc main_v176) = _
  after_results_simp
  rfl

set_option maxHeartbeats 4000000 in
/-- The host operations' layer weight, for any float values. -/
theorem layer1_weight (c : Dev nD) : W9 m ρ c (Proc.devRef .tc main_v163) = Cert.Spec.expmTaylor (Cert.Spec.skewPart
    (extractStridedSlice S1x64x64 ![1, 0, 0] (W8 m ρ c (Proc.devRef .tc main_arg5)) slices_S10x64x64_S1x64x64_1_0_0)) := by
  show StableHlo.after hostOps3 (W8 m ρ c) (Proc.devRef .tc main_v163) = _
  after_results_simp
  rfl

end Generic

variable (m : (ℓ : Loc nD τ sig) → Buf (Elt Ideal) ℓ) (ρ : Dev nD → PrngReg)

/-- The layer's exit features from its entry features. -/
theorem layer1 (c : Dev nD) : W10 m ρ c (Proc.devRef .tc main_v177)
    = (fun i => Cert.Lib.dense (M := 200000) (K := 64) (N := 64)
        (Cert.Spec.step64 (m ((c : Thread nD τ).loc main_arg1)) (m ((c : Thread nD τ).loc main_arg2)) (W8 m ρ c (Proc.devRef .tc main_v113)))
        (Cert.Spec.orth (m ((c : Thread nD τ).loc main_arg5)) 1) i) := by
  refine (W10_arr m ρ c 2).trans ((final3 (V9 m ρ) c).trans ?_)
  have e1 : V9 m ρ c main_v176 = _ := layer1_step m ρ c
  have e2 : V9 m ρ c main_v163 = _ := layer1_weight m ρ c
  rw [e1, e2, keepL_W8 m ρ c main_v33 (by decide), keepL_W8 m ρ c main_v5 (by decide), keepL_W8 m ρ c main_v6 (by decide),
    keepL_W8 m ρ c main_arg5 (by decide), W3_v33, W3_v5, W3_v6, W3_arg5]
  rfl

end Cert.KernelIdeal.KChain

end
-- ==== Proof.RegVal4.lean ====
/-
  A matrix-product region (a 200000 × 64 left operand in ten blocks of 20000 rows, a 64 × 64 right operand held
  whole): what the 200000 × 64 output array holds when the region ends.
  The body's payload at the ideal values is the matrix product of the two blocks it loads. A row of a product
  depends on that row of the left factor alone, so what a grid point writes back — the product of its block of rows
  of the left array with the whole right array — is the same block of rows of the product of the two whole arrays.
  The grid's blocks of rows tile the output array, so the array ends holding the product of the two arrays as the
  region found them.
-/
import proofs.«415904_j29016799052628_2_alg».proof.Proof.KernelIdealFrameP
import proofs.«415904_j29016799052628_2_alg».proof.Proof.LibDense
import Idealize.ShloMosaic.Lib.Pipeline.Value
import Idealize.ShloMosaic.Lib.ValueIdx

set_option maxRecDepth 16384

noncomputable section

namespace Cert.KernelIdeal.RegVal

open Cert.KernelIdeal Cert.KernelIdeal.Gen Cert.KernelIdeal.GenP Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The body's one store and its loads start at the origin of their buffers. -/
theorem zero_off4 : (![0, 0] : Fin 2 → Nat) = fun _ => 0 := funext fun a => by fin_cases a <;> rfl

/-- The body's payload is the matrix product of the two loaded blocks: the operands' passage through the narrower
    format is the identity on extended reals, and the accumulator starts at zero. -/
theorem pay_eq4 (x0 : Vec Ideal S20000x64 .f32) (x1 : Vec Ideal S64x64 .f32) :
    k4_pay1 (F := Ideal) x0 x1 = Cert.Lib.dense (M := 20000) (K := 64) (N := 64) x0 x1 := by
  unfold k4_pay1
  simp only [shapeCast_self]
  exact Cert.Lib.matmul_truncf_eq_dense dot_S20000x64_S64x64_S20000x64_1_0_0_1_n_n rfl rfl rfl rfl rfl rfl none x0 x1 _ _

/-- A BLOCK OF ROWS OF A PRODUCT. Let the left block be the left array read through a map that shifts rows by b
    and keeps columns, the right block the right array read through a map that keeps both coordinates, and let an
    index map of the results shift rows by the same b and keep columns. Then the product of the blocks at an index is
    the product of the arrays at the mapped index. -/
theorem block_rows4 {M M' K N : Nat} (a0 : (⟨2, ![M, K]⟩ : Shape).Idx → EReal) (a1 : (⟨2, ![K, N]⟩ : Shape).Idx → EReal)
    (f0 : (⟨2, ![M', K]⟩ : Shape).Idx → (⟨2, ![M, K]⟩ : Shape).Idx)
    (f1 : (⟨2, ![K, N]⟩ : Shape).Idx → (⟨2, ![K, N]⟩ : Shape).Idx)
    (g : (⟨2, ![M', N]⟩ : Shape).Idx → (⟨2, ![M, N]⟩ : Shape).Idx) (b : Nat)
    (hf0 : ∀ y, (f0 y 0).val = b + (y 0).val ∧ (f0 y 1).val = (y 1).val)
    (hf1 : ∀ y, (f1 y 0).val = (y 0).val ∧ (f1 y 1).val = (y 1).val)
    (hg : ∀ y, (g y 0).val = b + (y 0).val ∧ (g y 1).val = (y 1).val)
    (j : (⟨2, ![M', N]⟩ : Shape).Idx) :
    Cert.Lib.dense (fun y => a0 (f0 y)) (fun y => a1 (f1 y)) j = Cert.Lib.dense a0 a1 (g j) := by
  obtain ⟨p, q, rfl⟩ : ∃ (p : Fin M') (q : Fin N), j = ix2 p q := ⟨j 0, j 1, eq_ix2 j⟩
  have hq : g (ix2 p q) = ix2 (g (ix2 p q) 0) q := by
    funext a; apply Fin.ext
    match a with
    | ⟨0, _⟩ => rfl
    | ⟨1, _⟩ => exact (hg (ix2 p q)).2
  rw [hq]
  refine Cert.Lib.dense_row a0 _ a1 _ (g (ix2 p q) 0) p (fun k => ?_) (fun i => ?_) q
  · show a0 (f0 (ix2 p k)) = a0 (ix2 (g (ix2 p q) 0) k)
    congr 1
    funext a; apply Fin.ext
    match a with
    | ⟨0, _⟩ => exact ((hf0 (ix2 p k)).1).trans ((hg (ix2 p q)).1).symm
    | ⟨1, _⟩ => exact (hf0 (ix2 p k)).2
  · show a1 (f1 i) = a1 i
    congr 1
    funext a; apply Fin.ext
    match a with
    | ⟨0, _⟩ => exact (hf1 i).1
    | ⟨1, _⟩ => exact (hf1 i).2

/-- The printed index maps, decided over the grid: the left operand's block of rows is the output's, its column block
    the one there is; the right operand is held whole; the output's block of rows at a point is the point's number. -/
theorem idx_facts4 : ∀ t : Fin cfg4.N, win4_0.index t (0 : Fin 2) = win4_2.index t (0 : Fin 2)
    ∧ win4_0.index t (1 : Fin 2) = 0
    ∧ win4_1.index t (0 : Fin 2) = 0
    ∧ win4_1.index t (1 : Fin 2) = 0
    ∧ win4_2.index t (1 : Fin 2) = 0
    ∧ win4_2.index t (0 : Fin 2) = t.val :=
  (by decide +kernel : ∀ t : Fin grid4.N, _)

/-- WHAT POINT t WRITES BACK is block t of the product of the two arrays as the region finds them. -/
theorem flushed_eq4 (c : Dev nD) (t : Fin cfg4.N) :
    (dat4 V c).flushed 2 t = ((cfg4.win 2).blk t).view.read (Elt Ideal)
      (fun i => Cert.Lib.dense (M := 200000) (K := 64) (N := 64) (V c main_v240) (V c main_v227) i) := by
  show (cfg4.win 2).cut (grid4.coords t) ((dat4 V c).after 2 t) = _
  rw [after4_2]
  unfold out4_2
  rw [View.canon_unit_zero zero_off4]
  simp only [View.ld_unit_zero (S := S20000x64) zero_off4, View.ld_unit_zero (S := S64x64) zero_off4]
  rw [pay_eq4]
  obtain ⟨e0, e1, e2, e3, e4, e5⟩ := idx_facts4 t
  funext j
  show Cert.Lib.dense (M := 20000) (K := 64) (N := 64)
      (fun y => V c main_v240 (((cfg4.win 0).blk t).view.emb y))
      (fun y => V c main_v227 (((cfg4.win 1).blk t).view.emb y)) j
    = Cert.Lib.dense (M := 200000) (K := 64) (N := 64) (V c main_v240) (V c main_v227) (((cfg4.win 2).blk t).view.emb j)
  refine block_rows4 (M := 200000) (M' := 20000) (K := 64) (N := 64) (V c main_v240) (V c main_v227)
    (fun y => ((cfg4.win 0).blk t).view.emb y) (fun y => ((cfg4.win 1).blk t).view.emb y)
    (fun y => ((cfg4.win 2).blk t).view.emb y) (win4_2.index t (0 : Fin 2) * 20000) (fun y => ⟨?_, ?_⟩) (fun y => ⟨?_, ?_⟩)
    (fun y => ⟨?_, ?_⟩) j
  · show win4_0.index t (0 : Fin 2) * 20000 + 1 * (y 0).val = win4_2.index t (0 : Fin 2) * 20000 + (y 0).val
    omega
  · show win4_0.index t (1 : Fin 2) * 64 + 1 * (y 1).val = (y 1).val
    omega
  · show win4_1.index t (0 : Fin 2) * 64 + 1 * (y 0).val = (y 0).val
    omega
  · show win4_1.index t (1 : Fin 2) * 64 + 1 * (y 1).val = (y 1).val
    omega
  · show win4_2.index t (0 : Fin 2) * 20000 + 1 * (y 0).val = win4_2.index t (0 : Fin 2) * 20000 + (y 0).val
    omega
  · show win4_2.index t (1 : Fin 2) * 64 + 1 * (y 1).val = (y 1).val
    omega

/-- An index of the output array is in point t's block iff each coordinate is in the block's range on its axis. -/
theorem mem_blk4 (t : Fin cfg4.N) (i : S200000x64.Idx) :
    i ∈ ((cfg4.win 2).blk t).view.set ↔ ∀ a : Fin 2, win4_2.index t a * S20000x64.size a ≤ (i a).val ∧ (i a).val < win4_2.index t a * S20000x64.size a + S20000x64.size a := by
  show i ∈ ((View.whole main_v241).slice (win4_2.rect t)).set ↔ _
  rw [View.set_slice_whole, Rect.mem_set_unit]
  exact Iff.rfl

/-- EVERY INDEX IS COVERED: the blocks of 20000 rows tile the 200000 rows, the columns are whole, and row r lies in
    the block of the point r / 20000. -/
theorem cover4 (i : S200000x64.Idx) :
    ∃ t : Fin cfg4.N, (cfg4.win 2).flush t = true ∧ i ∈ ((cfg4.win 2).blk t).view.set := by
  have hi0 : (i 0).val < 200000 := (i 0).isLt
  have hi1 : (i 1).val < 64 := (i 1).isLt
  have hN : cfg4.N = 10 := N_4
  have hlt : (i 0).val / 20000 < cfg4.N := by omega
  obtain ⟨t, ht⟩ : ∃ t : Fin cfg4.N, t.val = (i 0).val / 20000 := ⟨⟨(i 0).val / 20000, hlt⟩, rfl⟩
  obtain ⟨e0, e1, e2, e3, e4, e5⟩ := idx_facts4 t
  refine ⟨t, flush4_2 t, ?_⟩
  rw [mem_blk4]
  intro a
  match a with
  | ⟨0, _⟩ =>
    show win4_2.index t (0 : Fin 2) * 20000 ≤ (i 0).val ∧ (i 0).val < win4_2.index t (0 : Fin 2) * 20000 + 20000
    omega
  | ⟨1, _⟩ =>
    show win4_2.index t (1 : Fin 2) * 64 ≤ (i 1).val ∧ (i 1).val < win4_2.index t (1 : Fin 2) * 64 + 64
    omega

/-- THE OUTPUT ARRAY when the region ends: the matrix product of the two arrays as the region found them. -/
theorem final4 (c : Dev nD) : (dat4 V c).arrAt 2 cfg4.N
    = (fun i => Cert.Lib.dense (M := 200000) (K := 64) (N := 64) (V c main_v240) (V c main_v227) i) :=
  (dat4 V c).arrAt_eq_of_cover 2 _ (fun t _ => flushed_eq4 V c t) cover4

end Cert.KernelIdeal.RegVal

end
-- ==== Proof.KLayer2.lean ====
/-
  One orthogonal layer of the kernel program: from the hidden features in buffer main_v177 at the layer's entry, the
  host operations leave one propagation step of them and the layer's weight (the Taylor polynomial of the
  exponential at the skew part of slice 2 of the stacked weights), and the pallas_call leaves their plain product.
-/
import proofs.«415904_j29016799052628_2_alg».proof.Proof.KernelIdealFrameP
import proofs.«415904_j29016799052628_2_alg».proof.Proof.SpecNet
import proofs.«415904_j29016799052628_2_alg».proof.Proof.KKeep
import proofs.«415904_j29016799052628_2_alg».proof.Proof.KChain0
import proofs.«415904_j29016799052628_2_alg».proof.Proof.RegVal4
import Idealize.ShloMosaic.Lib.StableHlo.Run

set_option maxRecDepth 16384

noncomputable section

namespace Cert.KernelIdeal.KChain

open Cert.KernelIdeal Cert.KernelIdeal.Gen Cert.KernelIdeal.GenP Cert.KernelIdeal.KKeep Idealize.ShloMosaic Idealize.ShloMosaic.TcCoe Idealize.SL.Sem
open Idealize.ShloMosaic.StableHlo
open Cert.KernelIdeal.RegVal

section Generic

variable {F : FTy → Type} [FloatOps F] (m : (ℓ : Loc nD τ sig) → Buf (Elt F) ℓ) (ρ : Dev nD → PrngReg)

set_option maxHeartbeats 4000000 in
/-- The host operations' propagation step, for any float values. -/
theorem layer2_step (c : Dev nD) : W11 m ρ c (Proc.devRef .tc main_v240) = Cert.Spec.prop64 (W10 m ρ c (Proc.devRef .tc main_v33)) (W10 m ρ c (Proc.devRef .tc main_v5))
    (W10 m ρ c (Proc.devRef .tc main_v6)) (W10 m ρ c (Proc.devRef .tc main_v177)) := by
  show StableHlo.after hostOps4 (W10 m ρ c) (Proc.devRef .tc main_v240) = _
  after_results_simp
  rfl

set_option maxHeartbeats 4000000 in
/-- The host operations' layer weight, for any float values. -/
theorem layer2_weight (c : Dev nD) : W11 m ρ c (Proc.devRef .tc main_v227) = Cert.Spec.expmTaylor (Cert.Spec.skewPart
    (extractStridedSlice S1x64x64 ![2, 0, 0] (W10 m ρ c (Proc.devRef .tc main_arg5)) slices_S10x64x64_S1x64x64_2_0_0)) := by
  show StableHlo.after hostOps4 (W10 m ρ c) (Proc.devRef .tc main_v227) = _
  after_results_simp
  rfl

end Generic

variable (m : (ℓ : Loc nD τ sig) → Buf (Elt Ideal) ℓ) (ρ : Dev nD → PrngReg)

/-- The layer's exit features from its entry features. -/
theorem layer2 (c : Dev nD) : W12 m ρ c (Proc.devRef .tc main_v241)
    = (fun i => Cert.Lib.dense (M := 200000) (K := 64) (N := 64)
        (Cert.Spec.step64 (m ((c : Thread nD τ).loc main_arg1)) (m ((c : Thread nD τ).loc main_arg2)) (W10 m ρ c (Proc.devRef .tc main_v177)))
        (Cert.Spec.orth (m ((c : Thread nD τ).loc main_arg5)) 2) i) := by
  refine (W12_arr m ρ c 2).trans ((final4 (V11 m ρ) c).trans ?_)
  have e1 : V11 m ρ c main_v240 = _ := layer2_step m ρ c
  have e2 : V11 m ρ c main_v227 = _ := layer2_weight m ρ c
  rw [e1, e2, keepL_W10 m ρ c main_v33 (by decide), keepL_W10 m ρ c main_v5 (by decide), keepL_W10 m ρ c main_v6 (by decide),
    keepL_W10 m ρ c main_arg5 (by decide), W3_v33, W3_v5, W3_v6, W3_arg5]
  rfl

end Cert.KernelIdeal.KChain

end
-- ==== Proof.RegVal5.lean ====
/-
  A matrix-product region (a 200000 × 64 left operand in ten blocks of 20000 rows, a 64 × 64 right operand held
  whole): what the 200000 × 64 output array holds when the region ends.
  The body's payload at the ideal values is the matrix product of the two blocks it loads. A row of a product
  depends on that row of the left factor alone, so what a grid point writes back — the product of its block of rows
  of the left array with the whole right array — is the same block of rows of the product of the two whole arrays.
  The grid's blocks of rows tile the output array, so the array ends holding the product of the two arrays as the
  region found them.
-/
import proofs.«415904_j29016799052628_2_alg».proof.Proof.KernelIdealFrameP
import proofs.«415904_j29016799052628_2_alg».proof.Proof.LibDense
import Idealize.ShloMosaic.Lib.Pipeline.Value
import Idealize.ShloMosaic.Lib.ValueIdx

set_option maxRecDepth 16384

noncomputable section

namespace Cert.KernelIdeal.RegVal

open Cert.KernelIdeal Cert.KernelIdeal.Gen Cert.KernelIdeal.GenP Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The body's one store and its loads start at the origin of their buffers. -/
theorem zero_off5 : (![0, 0] : Fin 2 → Nat) = fun _ => 0 := funext fun a => by fin_cases a <;> rfl

/-- The body's payload is the matrix product of the two loaded blocks: the operands' passage through the narrower
    format is the identity on extended reals, and the accumulator starts at zero. -/
theorem pay_eq5 (x0 : Vec Ideal S20000x64 .f32) (x1 : Vec Ideal S64x64 .f32) :
    k5_pay1 (F := Ideal) x0 x1 = Cert.Lib.dense (M := 20000) (K := 64) (N := 64) x0 x1 := by
  unfold k5_pay1
  simp only [shapeCast_self]
  exact Cert.Lib.matmul_truncf_eq_dense dot_S20000x64_S64x64_S20000x64_1_0_0_1_n_n rfl rfl rfl rfl rfl rfl none x0 x1 _ _

/-- A BLOCK OF ROWS OF A PRODUCT. Let the left block be the left array read through a map that shifts rows by b
    and keeps columns, the right block the right array read through a map that keeps both coordinates, and let an
    index map of the results shift rows by the same b and keep columns. Then the product of the blocks at an index is
    the product of the arrays at the mapped index. -/
theorem block_rows5 {M M' K N : Nat} (a0 : (⟨2, ![M, K]⟩ : Shape).Idx → EReal) (a1 : (⟨2, ![K, N]⟩ : Shape).Idx → EReal)
    (f0 : (⟨2, ![M', K]⟩ : Shape).Idx → (⟨2, ![M, K]⟩ : Shape).Idx)
    (f1 : (⟨2, ![K, N]⟩ : Shape).Idx → (⟨2, ![K, N]⟩ : Shape).Idx)
    (g : (⟨2, ![M', N]⟩ : Shape).Idx → (⟨2, ![M, N]⟩ : Shape).Idx) (b : Nat)
    (hf0 : ∀ y, (f0 y 0).val = b + (y 0).val ∧ (f0 y 1).val = (y 1).val)
    (hf1 : ∀ y, (f1 y 0).val = (y 0).val ∧ (f1 y 1).val = (y 1).val)
    (hg : ∀ y, (g y 0).val = b + (y 0).val ∧ (g y 1).val = (y 1).val)
    (j : (⟨2, ![M', N]⟩ : Shape).Idx) :
    Cert.Lib.dense (fun y => a0 (f0 y)) (fun y => a1 (f1 y)) j = Cert.Lib.dense a0 a1 (g j) := by
  obtain ⟨p, q, rfl⟩ : ∃ (p : Fin M') (q : Fin N), j = ix2 p q := ⟨j 0, j 1, eq_ix2 j⟩
  have hq : g (ix2 p q) = ix2 (g (ix2 p q) 0) q := by
    funext a; apply Fin.ext
    match a with
    | ⟨0, _⟩ => rfl
    | ⟨1, _⟩ => exact (hg (ix2 p q)).2
  rw [hq]
  refine Cert.Lib.dense_row a0 _ a1 _ (g (ix2 p q) 0) p (fun k => ?_) (fun i => ?_) q
  · show a0 (f0 (ix2 p k)) = a0 (ix2 (g (ix2 p q) 0) k)
    congr 1
    funext a; apply Fin.ext
    match a with
    | ⟨0, _⟩ => exact ((hf0 (ix2 p k)).1).trans ((hg (ix2 p q)).1).symm
    | ⟨1, _⟩ => exact (hf0 (ix2 p k)).2
  · show a1 (f1 i) = a1 i
    congr 1
    funext a; apply Fin.ext
    match a with
    | ⟨0, _⟩ => exact (hf1 i).1
    | ⟨1, _⟩ => exact (hf1 i).2

/-- The printed index maps, decided over the grid: the left operand's block of rows is the output's, its column block
    the one there is; the right operand is held whole; the output's block of rows at a point is the point's number. -/
theorem idx_facts5 : ∀ t : Fin cfg5.N, win5_0.index t (0 : Fin 2) = win5_2.index t (0 : Fin 2)
    ∧ win5_0.index t (1 : Fin 2) = 0
    ∧ win5_1.index t (0 : Fin 2) = 0
    ∧ win5_1.index t (1 : Fin 2) = 0
    ∧ win5_2.index t (1 : Fin 2) = 0
    ∧ win5_2.index t (0 : Fin 2) = t.val :=
  (by decide +kernel : ∀ t : Fin grid5.N, _)

/-- WHAT POINT t WRITES BACK is block t of the product of the two arrays as the region finds them. -/
theorem flushed_eq5 (c : Dev nD) (t : Fin cfg5.N) :
    (dat5 V c).flushed 2 t = ((cfg5.win 2).blk t).view.read (Elt Ideal)
      (fun i => Cert.Lib.dense (M := 200000) (K := 64) (N := 64) (V c main_v304) (V c main_v291) i) := by
  show (cfg5.win 2).cut (grid5.coords t) ((dat5 V c).after 2 t) = _
  rw [after5_2]
  unfold out5_2
  rw [View.canon_unit_zero zero_off5]
  simp only [View.ld_unit_zero (S := S20000x64) zero_off5, View.ld_unit_zero (S := S64x64) zero_off5]
  rw [pay_eq5]
  obtain ⟨e0, e1, e2, e3, e4, e5⟩ := idx_facts5 t
  funext j
  show Cert.Lib.dense (M := 20000) (K := 64) (N := 64)
      (fun y => V c main_v304 (((cfg5.win 0).blk t).view.emb y))
      (fun y => V c main_v291 (((cfg5.win 1).blk t).view.emb y)) j
    = Cert.Lib.dense (M := 200000) (K := 64) (N := 64) (V c main_v304) (V c main_v291) (((cfg5.win 2).blk t).view.emb j)
  refine block_rows5 (M := 200000) (M' := 20000) (K := 64) (N := 64) (V c main_v304) (V c main_v291)
    (fun y => ((cfg5.win 0).blk t).view.emb y) (fun y => ((cfg5.win 1).blk t).view.emb y)
    (fun y => ((cfg5.win 2).blk t).view.emb y) (win5_2.index t (0 : Fin 2) * 20000) (fun y => ⟨?_, ?_⟩) (fun y => ⟨?_, ?_⟩)
    (fun y => ⟨?_, ?_⟩) j
  · show win5_0.index t (0 : Fin 2) * 20000 + 1 * (y 0).val = win5_2.index t (0 : Fin 2) * 20000 + (y 0).val
    omega
  · show win5_0.index t (1 : Fin 2) * 64 + 1 * (y 1).val = (y 1).val
    omega
  · show win5_1.index t (0 : Fin 2) * 64 + 1 * (y 0).val = (y 0).val
    omega
  · show win5_1.index t (1 : Fin 2) * 64 + 1 * (y 1).val = (y 1).val
    omega
  · show win5_2.index t (0 : Fin 2) * 20000 + 1 * (y 0).val = win5_2.index t (0 : Fin 2) * 20000 + (y 0).val
    omega
  · show win5_2.index t (1 : Fin 2) * 64 + 1 * (y 1).val = (y 1).val
    omega

/-- An index of the output array is in point t's block iff each coordinate is in the block's range on its axis. -/
theorem mem_blk5 (t : Fin cfg5.N) (i : S200000x64.Idx) :
    i ∈ ((cfg5.win 2).blk t).view.set ↔ ∀ a : Fin 2, win5_2.index t a * S20000x64.size a ≤ (i a).val ∧ (i a).val < win5_2.index t a * S20000x64.size a + S20000x64.size a := by
  show i ∈ ((View.whole main_v305).slice (win5_2.rect t)).set ↔ _
  rw [View.set_slice_whole, Rect.mem_set_unit]
  exact Iff.rfl

/-- EVERY INDEX IS COVERED: the blocks of 20000 rows tile the 200000 rows, the columns are whole, and row r lies in
    the block of the point r / 20000. -/
theorem cover5 (i : S200000x64.Idx) :
    ∃ t : Fin cfg5.N, (cfg5.win 2).flush t = true ∧ i ∈ ((cfg5.win 2).blk t).view.set := by
  have hi0 : (i 0).val < 200000 := (i 0).isLt
  have hi1 : (i 1).val < 64 := (i 1).isLt
  have hN : cfg5.N = 10 := N_5
  have hlt : (i 0).val / 20000 < cfg5.N := by omega
  obtain ⟨t, ht⟩ : ∃ t : Fin cfg5.N, t.val = (i 0).val / 20000 := ⟨⟨(i 0).val / 20000, hlt⟩, rfl⟩
  obtain ⟨e0, e1, e2, e3, e4, e5⟩ := idx_facts5 t
  refine ⟨t, flush5_2 t, ?_⟩
  rw [mem_blk5]
  intro a
  match a with
  | ⟨0, _⟩ =>
    show win5_2.index t (0 : Fin 2) * 20000 ≤ (i 0).val ∧ (i 0).val < win5_2.index t (0 : Fin 2) * 20000 + 20000
    omega
  | ⟨1, _⟩ =>
    show win5_2.index t (1 : Fin 2) * 64 ≤ (i 1).val ∧ (i 1).val < win5_2.index t (1 : Fin 2) * 64 + 64
    omega

/-- THE OUTPUT ARRAY when the region ends: the matrix product of the two arrays as the region found them. -/
theorem final5 (c : Dev nD) : (dat5 V c).arrAt 2 cfg5.N
    = (fun i => Cert.Lib.dense (M := 200000) (K := 64) (N := 64) (V c main_v304) (V c main_v291) i) :=
  (dat5 V c).arrAt_eq_of_cover 2 _ (fun t _ => flushed_eq5 V c t) cover5

end Cert.KernelIdeal.RegVal

end
-- ==== Proof.KLayer3.lean ====
/-
  One orthogonal layer of the kernel program: from the hidden features in buffer main_v241 at the layer's entry, the
  host operations leave one propagation step of them and the layer's weight (the Taylor polynomial of the
  exponential at the skew part of slice 3 of the stacked weights), and the pallas_call leaves their plain product.
-/
import proofs.«415904_j29016799052628_2_alg».proof.Proof.KernelIdealFrameP
import proofs.«415904_j29016799052628_2_alg».proof.Proof.SpecNet
import proofs.«415904_j29016799052628_2_alg».proof.Proof.KKeep
import proofs.«415904_j29016799052628_2_alg».proof.Proof.KChain0
import proofs.«415904_j29016799052628_2_alg».proof.Proof.RegVal5
import Idealize.ShloMosaic.Lib.StableHlo.Run

set_option maxRecDepth 16384

noncomputable section

namespace Cert.KernelIdeal.KChain

open Cert.KernelIdeal Cert.KernelIdeal.Gen Cert.KernelIdeal.GenP Cert.KernelIdeal.KKeep Idealize.ShloMosaic Idealize.ShloMosaic.TcCoe Idealize.SL.Sem
open Idealize.ShloMosaic.StableHlo
open Cert.KernelIdeal.RegVal

section Generic

variable {F : FTy → Type} [FloatOps F] (m : (ℓ : Loc nD τ sig) → Buf (Elt F) ℓ) (ρ : Dev nD → PrngReg)

set_option maxHeartbeats 4000000 in
/-- The host operations' propagation step, for any float values. -/
theorem layer3_step (c : Dev nD) : W13 m ρ c (Proc.devRef .tc main_v304) = Cert.Spec.prop64 (W12 m ρ c (Proc.devRef .tc main_v33)) (W12 m ρ c (Proc.devRef .tc main_v5))
    (W12 m ρ c (Proc.devRef .tc main_v6)) (W12 m ρ c (Proc.devRef .tc main_v241)) := by
  show StableHlo.after hostOps5 (W12 m ρ c) (Proc.devRef .tc main_v304) = _
  after_results_simp
  rfl

set_option maxHeartbeats 4000000 in
/-- The host operations' layer weight, for any float values. -/
theorem layer3_weight (c : Dev nD) : W13 m ρ c (Proc.devRef .tc main_v291) = Cert.Spec.expmTaylor (Cert.Spec.skewPart
    (extractStridedSlice S1x64x64 ![3, 0, 0] (W12 m ρ c (Proc.devRef .tc main_arg5)) slices_S10x64x64_S1x64x64_3_0_0)) := by
  show StableHlo.after hostOps5 (W12 m ρ c) (Proc.devRef .tc main_v291) = _
  after_results_simp
  rfl

end Generic

variable (m : (ℓ : Loc nD τ sig) → Buf (Elt Ideal) ℓ) (ρ : Dev nD → PrngReg)

/-- The layer's exit features from its entry features. -/
theorem layer3 (c : Dev nD) : W14 m ρ c (Proc.devRef .tc main_v305)
    = (fun i => Cert.Lib.dense (M := 200000) (K := 64) (N := 64)
        (Cert.Spec.step64 (m ((c : Thread nD τ).loc main_arg1)) (m ((c : Thread nD τ).loc main_arg2)) (W12 m ρ c (Proc.devRef .tc main_v241)))
        (Cert.Spec.orth (m ((c : Thread nD τ).loc main_arg5)) 3) i) := by
  refine (W14_arr m ρ c 2).trans ((final5 (V13 m ρ) c).trans ?_)
  have e1 : V13 m ρ c main_v304 = _ := layer3_step m ρ c
  have e2 : V13 m ρ c main_v291 = _ := layer3_weight m ρ c
  rw [e1, e2, keepL_W12 m ρ c main_v33 (by decide), keepL_W12 m ρ c main_v5 (by decide), keepL_W12 m ρ c main_v6 (by decide),
    keepL_W12 m ρ c main_arg5 (by decide), W3_v33, W3_v5, W3_v6, W3_arg5]
  rfl

end Cert.KernelIdeal.KChain

end
-- ==== Proof.RegVal6.lean ====
/-
  A matrix-product region (a 200000 × 64 left operand in ten blocks of 20000 rows, a 64 × 64 right operand held
  whole): what the 200000 × 64 output array holds when the region ends.
  The body's payload at the ideal values is the matrix product of the two blocks it loads. A row of a product
  depends on that row of the left factor alone, so what a grid point writes back — the product of its block of rows
  of the left array with the whole right array — is the same block of rows of the product of the two whole arrays.
  The grid's blocks of rows tile the output array, so the array ends holding the product of the two arrays as the
  region found them.
-/
import proofs.«415904_j29016799052628_2_alg».proof.Proof.KernelIdealFrameP
import proofs.«415904_j29016799052628_2_alg».proof.Proof.LibDense
import Idealize.ShloMosaic.Lib.Pipeline.Value
import Idealize.ShloMosaic.Lib.ValueIdx

set_option maxRecDepth 16384

noncomputable section

namespace Cert.KernelIdeal.RegVal

open Cert.KernelIdeal Cert.KernelIdeal.Gen Cert.KernelIdeal.GenP Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The body's one store and its loads start at the origin of their buffers. -/
theorem zero_off6 : (![0, 0] : Fin 2 → Nat) = fun _ => 0 := funext fun a => by fin_cases a <;> rfl

/-- The body's payload is the matrix product of the two loaded blocks: the operands' passage through the narrower
    format is the identity on extended reals, and the accumulator starts at zero. -/
theorem pay_eq6 (x0 : Vec Ideal S20000x64 .f32) (x1 : Vec Ideal S64x64 .f32) :
    k6_pay1 (F := Ideal) x0 x1 = Cert.Lib.dense (M := 20000) (K := 64) (N := 64) x0 x1 := by
  unfold k6_pay1
  simp only [shapeCast_self]
  exact Cert.Lib.matmul_truncf_eq_dense dot_S20000x64_S64x64_S20000x64_1_0_0_1_n_n rfl rfl rfl rfl rfl rfl none x0 x1 _ _

/-- A BLOCK OF ROWS OF A PRODUCT. Let the left block be the left array read through a map that shifts rows by b
    and keeps columns, the right block the right array read through a map that keeps both coordinates, and let an
    index map of the results shift rows by the same b and keep columns. Then the product of the blocks at an index is
    the product of the arrays at the mapped index. -/
theorem block_rows6 {M M' K N : Nat} (a0 : (⟨2, ![M, K]⟩ : Shape).Idx → EReal) (a1 : (⟨2, ![K, N]⟩ : Shape).Idx → EReal)
    (f0 : (⟨2, ![M', K]⟩ : Shape).Idx → (⟨2, ![M, K]⟩ : Shape).Idx)
    (f1 : (⟨2, ![K, N]⟩ : Shape).Idx → (⟨2, ![K, N]⟩ : Shape).Idx)
    (g : (⟨2, ![M', N]⟩ : Shape).Idx → (⟨2, ![M, N]⟩ : Shape).Idx) (b : Nat)
    (hf0 : ∀ y, (f0 y 0).val = b + (y 0).val ∧ (f0 y 1).val = (y 1).val)
    (hf1 : ∀ y, (f1 y 0).val = (y 0).val ∧ (f1 y 1).val = (y 1).val)
    (hg : ∀ y, (g y 0).val = b + (y 0).val ∧ (g y 1).val = (y 1).val)
    (j : (⟨2, ![M', N]⟩ : Shape).Idx) :
    Cert.Lib.dense (fun y => a0 (f0 y)) (fun y => a1 (f1 y)) j = Cert.Lib.dense a0 a1 (g j) := by
  obtain ⟨p, q, rfl⟩ : ∃ (p : Fin M') (q : Fin N), j = ix2 p q := ⟨j 0, j 1, eq_ix2 j⟩
  have hq : g (ix2 p q) = ix2 (g (ix2 p q) 0) q := by
    funext a; apply Fin.ext
    match a with
    | ⟨0, _⟩ => rfl
    | ⟨1, _⟩ => exact (hg (ix2 p q)).2
  rw [hq]
  refine Cert.Lib.dense_row a0 _ a1 _ (g (ix2 p q) 0) p (fun k => ?_) (fun i => ?_) q
  · show a0 (f0 (ix2 p k)) = a0 (ix2 (g (ix2 p q) 0) k)
    congr 1
    funext a; apply Fin.ext
    match a with
    | ⟨0, _⟩ => exact ((hf0 (ix2 p k)).1).trans ((hg (ix2 p q)).1).symm
    | ⟨1, _⟩ => exact (hf0 (ix2 p k)).2
  · show a1 (f1 i) = a1 i
    congr 1
    funext a; apply Fin.ext
    match a with
    | ⟨0, _⟩ => exact (hf1 i).1
    | ⟨1, _⟩ => exact (hf1 i).2

/-- The printed index maps, decided over the grid: the left operand's block of rows is the output's, its column block
    the one there is; the right operand is held whole; the output's block of rows at a point is the point's number. -/
theorem idx_facts6 : ∀ t : Fin cfg6.N, win6_0.index t (0 : Fin 2) = win6_2.index t (0 : Fin 2)
    ∧ win6_0.index t (1 : Fin 2) = 0
    ∧ win6_1.index t (0 : Fin 2) = 0
    ∧ win6_1.index t (1 : Fin 2) = 0
    ∧ win6_2.index t (1 : Fin 2) = 0
    ∧ win6_2.index t (0 : Fin 2) = t.val :=
  (by decide +kernel : ∀ t : Fin grid6.N, _)

/-- WHAT POINT t WRITES BACK is block t of the product of the two arrays as the region finds them. -/
theorem flushed_eq6 (c : Dev nD) (t : Fin cfg6.N) :
    (dat6 V c).flushed 2 t = ((cfg6.win 2).blk t).view.read (Elt Ideal)
      (fun i => Cert.Lib.dense (M := 200000) (K := 64) (N := 64) (V c main_v368) (V c main_v355) i) := by
  show (cfg6.win 2).cut (grid6.coords t) ((dat6 V c).after 2 t) = _
  rw [after6_2]
  unfold out6_2
  rw [View.canon_unit_zero zero_off6]
  simp only [View.ld_unit_zero (S := S20000x64) zero_off6, View.ld_unit_zero (S := S64x64) zero_off6]
  rw [pay_eq6]
  obtain ⟨e0, e1, e2, e3, e4, e5⟩ := idx_facts6 t
  funext j
  show Cert.Lib.dense (M := 20000) (K := 64) (N := 64)
      (fun y => V c main_v368 (((cfg6.win 0).blk t).view.emb y))
      (fun y => V c main_v355 (((cfg6.win 1).blk t).view.emb y)) j
    = Cert.Lib.dense (M := 200000) (K := 64) (N := 64) (V c main_v368) (V c main_v355) (((cfg6.win 2).blk t).view.emb j)
  refine block_rows6 (M := 200000) (M' := 20000) (K := 64) (N := 64) (V c main_v368) (V c main_v355)
    (fun y => ((cfg6.win 0).blk t).view.emb y) (fun y => ((cfg6.win 1).blk t).view.emb y)
    (fun y => ((cfg6.win 2).blk t).view.emb y) (win6_2.index t (0 : Fin 2) * 20000) (fun y => ⟨?_, ?_⟩) (fun y => ⟨?_, ?_⟩)
    (fun y => ⟨?_, ?_⟩) j
  · show win6_0.index t (0 : Fin 2) * 20000 + 1 * (y 0).val = win6_2.index t (0 : Fin 2) * 20000 + (y 0).val
    omega
  · show win6_0.index t (1 : Fin 2) * 64 + 1 * (y 1).val = (y 1).val
    omega
  · show win6_1.index t (0 : Fin 2) * 64 + 1 * (y 0).val = (y 0).val
    omega
  · show win6_1.index t (1 : Fin 2) * 64 + 1 * (y 1).val = (y 1).val
    omega
  · show win6_2.index t (0 : Fin 2) * 20000 + 1 * (y 0).val = win6_2.index t (0 : Fin 2) * 20000 + (y 0).val
    omega
  · show win6_2.index t (1 : Fin 2) * 64 + 1 * (y 1).val = (y 1).val
    omega

/-- An index of the output array is in point t's block iff each coordinate is in the block's range on its axis. -/
theorem mem_blk6 (t : Fin cfg6.N) (i : S200000x64.Idx) :
    i ∈ ((cfg6.win 2).blk t).view.set ↔ ∀ a : Fin 2, win6_2.index t a * S20000x64.size a ≤ (i a).val ∧ (i a).val < win6_2.index t a * S20000x64.size a + S20000x64.size a := by
  show i ∈ ((View.whole main_v369).slice (win6_2.rect t)).set ↔ _
  rw [View.set_slice_whole, Rect.mem_set_unit]
  exact Iff.rfl

/-- EVERY INDEX IS COVERED: the blocks of 20000 rows tile the 200000 rows, the columns are whole, and row r lies in
    the block of the point r / 20000. -/
theorem cover6 (i : S200000x64.Idx) :
    ∃ t : Fin cfg6.N, (cfg6.win 2).flush t = true ∧ i ∈ ((cfg6.win 2).blk t).view.set := by
  have hi0 : (i 0).val < 200000 := (i 0).isLt
  have hi1 : (i 1).val < 64 := (i 1).isLt
  have hN : cfg6.N = 10 := N_6
  have hlt : (i 0).val / 20000 < cfg6.N := by omega
  obtain ⟨t, ht⟩ : ∃ t : Fin cfg6.N, t.val = (i 0).val / 20000 := ⟨⟨(i 0).val / 20000, hlt⟩, rfl⟩
  obtain ⟨e0, e1, e2, e3, e4, e5⟩ := idx_facts6 t
  refine ⟨t, flush6_2 t, ?_⟩
  rw [mem_blk6]
  intro a
  match a with
  | ⟨0, _⟩ =>
    show win6_2.index t (0 : Fin 2) * 20000 ≤ (i 0).val ∧ (i 0).val < win6_2.index t (0 : Fin 2) * 20000 + 20000
    omega
  | ⟨1, _⟩ =>
    show win6_2.index t (1 : Fin 2) * 64 ≤ (i 1).val ∧ (i 1).val < win6_2.index t (1 : Fin 2) * 64 + 64
    omega

/-- THE OUTPUT ARRAY when the region ends: the matrix product of the two arrays as the region found them. -/
theorem final6 (c : Dev nD) : (dat6 V c).arrAt 2 cfg6.N
    = (fun i => Cert.Lib.dense (M := 200000) (K := 64) (N := 64) (V c main_v368) (V c main_v355) i) :=
  (dat6 V c).arrAt_eq_of_cover 2 _ (fun t _ => flushed_eq6 V c t) cover6

end Cert.KernelIdeal.RegVal

end
-- ==== Proof.KLayer4.lean ====
/-
  One orthogonal layer of the kernel program: from the hidden features in buffer main_v305 at the layer's entry, the
  host operations leave one propagation step of them and the layer's weight (the Taylor polynomial of the
  exponential at the skew part of slice 4 of the stacked weights), and the pallas_call leaves their plain product.
-/
import proofs.«415904_j29016799052628_2_alg».proof.Proof.KernelIdealFrameP
import proofs.«415904_j29016799052628_2_alg».proof.Proof.SpecNet
import proofs.«415904_j29016799052628_2_alg».proof.Proof.KKeep
import proofs.«415904_j29016799052628_2_alg».proof.Proof.KChain0
import proofs.«415904_j29016799052628_2_alg».proof.Proof.RegVal6
import Idealize.ShloMosaic.Lib.StableHlo.Run

set_option maxRecDepth 16384

noncomputable section

namespace Cert.KernelIdeal.KChain

open Cert.KernelIdeal Cert.KernelIdeal.Gen Cert.KernelIdeal.GenP Cert.KernelIdeal.KKeep Idealize.ShloMosaic Idealize.ShloMosaic.TcCoe Idealize.SL.Sem
open Idealize.ShloMosaic.StableHlo
open Cert.KernelIdeal.RegVal

section Generic

variable {F : FTy → Type} [FloatOps F] (m : (ℓ : Loc nD τ sig) → Buf (Elt F) ℓ) (ρ : Dev nD → PrngReg)

set_option maxHeartbeats 4000000 in
/-- The host operations' propagation step, for any float values. -/
theorem layer4_step (c : Dev nD) : W15 m ρ c (Proc.devRef .tc main_v368) = Cert.Spec.prop64 (W14 m ρ c (Proc.devRef .tc main_v33)) (W14 m ρ c (Proc.devRef .tc main_v5))
    (W14 m ρ c (Proc.devRef .tc main_v6)) (W14 m ρ c (Proc.devRef .tc main_v305)) := by
  show StableHlo.after hostOps6 (W14 m ρ c) (Proc.devRef .tc main_v368) = _
  after_results_simp
  rfl

set_option maxHeartbeats 4000000 in
/-- The host operations' layer weight, for any float values. -/
theorem layer4_weight (c : Dev nD) : W15 m ρ c (Proc.devRef .tc main_v355) = Cert.Spec.expmTaylor (Cert.Spec.skewPart
    (extractStridedSlice S1x64x64 ![4, 0, 0] (W14 m ρ c (Proc.devRef .tc main_arg5)) slices_S10x64x64_S1x64x64_4_0_0)) := by
  show StableHlo.after hostOps6 (W14 m ρ c) (Proc.devRef .tc main_v355) = _
  after_results_simp
  rfl

end Generic

variable (m : (ℓ : Loc nD τ sig) → Buf (Elt Ideal) ℓ) (ρ : Dev nD → PrngReg)

/-- The layer's exit features from its entry features. -/
theorem layer4 (c : Dev nD) : W16 m ρ c (Proc.devRef .tc main_v369)
    = (fun i => Cert.Lib.dense (M := 200000) (K := 64) (N := 64)
        (Cert.Spec.step64 (m ((c : Thread nD τ).loc main_arg1)) (m ((c : Thread nD τ).loc main_arg2)) (W14 m ρ c (Proc.devRef .tc main_v305)))
        (Cert.Spec.orth (m ((c : Thread nD τ).loc main_arg5)) 4) i) := by
  refine (W16_arr m ρ c 2).trans ((final6 (V15 m ρ) c).trans ?_)
  have e1 : V15 m ρ c main_v368 = _ := layer4_step m ρ c
  have e2 : V15 m ρ c main_v355 = _ := layer4_weight m ρ c
  rw [e1, e2, keepL_W14 m ρ c main_v33 (by decide), keepL_W14 m ρ c main_v5 (by decide), keepL_W14 m ρ c main_v6 (by decide),
    keepL_W14 m ρ c main_arg5 (by decide), W3_v33, W3_v5, W3_v6, W3_arg5]
  rfl

end Cert.KernelIdeal.KChain

end
-- ==== Proof.RegVal7.lean ====
/-
  A matrix-product region (a 200000 × 64 left operand in ten blocks of 20000 rows, a 64 × 64 right operand held
  whole): what the 200000 × 64 output array holds when the region ends.
  The body's payload at the ideal values is the matrix product of the two blocks it loads. A row of a product
  depends on that row of the left factor alone, so what a grid point writes back — the product of its block of rows
  of the left array with the whole right array — is the same block of rows of the product of the two whole arrays.
  The grid's blocks of rows tile the output array, so the array ends holding the product of the two arrays as the
  region found them.
-/
import proofs.«415904_j29016799052628_2_alg».proof.Proof.KernelIdealFrameP
import proofs.«415904_j29016799052628_2_alg».proof.Proof.LibDense
import Idealize.ShloMosaic.Lib.Pipeline.Value
import Idealize.ShloMosaic.Lib.ValueIdx

set_option maxRecDepth 16384

noncomputable section

namespace Cert.KernelIdeal.RegVal

open Cert.KernelIdeal Cert.KernelIdeal.Gen Cert.KernelIdeal.GenP Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The body's one store and its loads start at the origin of their buffers. -/
theorem zero_off7 : (![0, 0] : Fin 2 → Nat) = fun _ => 0 := funext fun a => by fin_cases a <;> rfl

/-- The body's payload is the matrix product of the two loaded blocks: the operands' passage through the narrower
    format is the identity on extended reals, and the accumulator starts at zero. -/
theorem pay_eq7 (x0 : Vec Ideal S20000x64 .f32) (x1 : Vec Ideal S64x64 .f32) :
    k7_pay1 (F := Ideal) x0 x1 = Cert.Lib.dense (M := 20000) (K := 64) (N := 64) x0 x1 := by
  unfold k7_pay1
  simp only [shapeCast_self]
  exact Cert.Lib.matmul_truncf_eq_dense dot_S20000x64_S64x64_S20000x64_1_0_0_1_n_n rfl rfl rfl rfl rfl rfl none x0 x1 _ _

/-- A BLOCK OF ROWS OF A PRODUCT. Let the left block be the left array read through a map that shifts rows by b
    and keeps columns, the right block the right array read through a map that keeps both coordinates, and let an
    index map of the results shift rows by the same b and keep columns. Then the product of the blocks at an index is
    the product of the arrays at the mapped index. -/
theorem block_rows7 {M M' K N : Nat} (a0 : (⟨2, ![M, K]⟩ : Shape).Idx → EReal) (a1 : (⟨2, ![K, N]⟩ : Shape).Idx → EReal)
    (f0 : (⟨2, ![M', K]⟩ : Shape).Idx → (⟨2, ![M, K]⟩ : Shape).Idx)
    (f1 : (⟨2, ![K, N]⟩ : Shape).Idx → (⟨2, ![K, N]⟩ : Shape).Idx)
    (g : (⟨2, ![M', N]⟩ : Shape).Idx → (⟨2, ![M, N]⟩ : Shape).Idx) (b : Nat)
    (hf0 : ∀ y, (f0 y 0).val = b + (y 0).val ∧ (f0 y 1).val = (y 1).val)
    (hf1 : ∀ y, (f1 y 0).val = (y 0).val ∧ (f1 y 1).val = (y 1).val)
    (hg : ∀ y, (g y 0).val = b + (y 0).val ∧ (g y 1).val = (y 1).val)
    (j : (⟨2, ![M', N]⟩ : Shape).Idx) :
    Cert.Lib.dense (fun y => a0 (f0 y)) (fun y => a1 (f1 y)) j = Cert.Lib.dense a0 a1 (g j) := by
  obtain ⟨p, q, rfl⟩ : ∃ (p : Fin M') (q : Fin N), j = ix2 p q := ⟨j 0, j 1, eq_ix2 j⟩
  have hq : g (ix2 p q) = ix2 (g (ix2 p q) 0) q := by
    funext a; apply Fin.ext
    match a with
    | ⟨0, _⟩ => rfl
    | ⟨1, _⟩ => exact (hg (ix2 p q)).2
  rw [hq]
  refine Cert.Lib.dense_row a0 _ a1 _ (g (ix2 p q) 0) p (fun k => ?_) (fun i => ?_) q
  · show a0 (f0 (ix2 p k)) = a0 (ix2 (g (ix2 p q) 0) k)
    congr 1
    funext a; apply Fin.ext
    match a with
    | ⟨0, _⟩ => exact ((hf0 (ix2 p k)).1).trans ((hg (ix2 p q)).1).symm
    | ⟨1, _⟩ => exact (hf0 (ix2 p k)).2
  · show a1 (f1 i) = a1 i
    congr 1
    funext a; apply Fin.ext
    match a with
    | ⟨0, _⟩ => exact (hf1 i).1
    | ⟨1, _⟩ => exact (hf1 i).2

/-- The printed index maps, decided over the grid: the left operand's block of rows is the output's, its column block
    the one there is; the right operand is held whole; the output's block of rows at a point is the point's number. -/
theorem idx_facts7 : ∀ t : Fin cfg7.N, win7_0.index t (0 : Fin 2) = win7_2.index t (0 : Fin 2)
    ∧ win7_0.index t (1 : Fin 2) = 0
    ∧ win7_1.index t (0 : Fin 2) = 0
    ∧ win7_1.index t (1 : Fin 2) = 0
    ∧ win7_2.index t (1 : Fin 2) = 0
    ∧ win7_2.index t (0 : Fin 2) = t.val :=
  (by decide +kernel : ∀ t : Fin grid7.N, _)

/-- WHAT POINT t WRITES BACK is block t of the product of the two arrays as the region finds them. -/
theorem flushed_eq7 (c : Dev nD) (t : Fin cfg7.N) :
    (dat7 V c).flushed 2 t = ((cfg7.win 2).blk t).view.read (Elt Ideal)
      (fun i => Cert.Lib.dense (M := 200000) (K := 64) (N := 64) (V c main_v432) (V c main_v419) i) := by
  show (cfg7.win 2).cut (grid7.coords t) ((dat7 V c).after 2 t) = _
  rw [after7_2]
  unfold out7_2
  rw [View.canon_unit_zero zero_off7]
  simp only [View.ld_unit_zero (S := S20000x64) zero_off7, View.ld_unit_zero (S := S64x64) zero_off7]
  rw [pay_eq7]
  obtain ⟨e0, e1, e2, e3, e4, e5⟩ := idx_facts7 t
  funext j
  show Cert.Lib.dense (M := 20000) (K := 64) (N := 64)
      (fun y => V c main_v432 (((cfg7.win 0).blk t).view.emb y))
      (fun y => V c main_v419 (((cfg7.win 1).blk t).view.emb y)) j
    = Cert.Lib.dense (M := 200000) (K := 64) (N := 64) (V c main_v432) (V c main_v419) (((cfg7.win 2).blk t).view.emb j)
  refine block_rows7 (M := 200000) (M' := 20000) (K := 64) (N := 64) (V c main_v432) (V c main_v419)
    (fun y => ((cfg7.win 0).blk t).view.emb y) (fun y => ((cfg7.win 1).blk t).view.emb y)
    (fun y => ((cfg7.win 2).blk t).view.emb y) (win7_2.index t (0 : Fin 2) * 20000) (fun y => ⟨?_, ?_⟩) (fun y => ⟨?_, ?_⟩)
    (fun y => ⟨?_, ?_⟩) j
  · show win7_0.index t (0 : Fin 2) * 20000 + 1 * (y 0).val = win7_2.index t (0 : Fin 2) * 20000 + (y 0).val
    omega
  · show win7_0.index t (1 : Fin 2) * 64 + 1 * (y 1).val = (y 1).val
    omega
  · show win7_1.index t (0 : Fin 2) * 64 + 1 * (y 0).val = (y 0).val
    omega
  · show win7_1.index t (1 : Fin 2) * 64 + 1 * (y 1).val = (y 1).val
    omega
  · show win7_2.index t (0 : Fin 2) * 20000 + 1 * (y 0).val = win7_2.index t (0 : Fin 2) * 20000 + (y 0).val
    omega
  · show win7_2.index t (1 : Fin 2) * 64 + 1 * (y 1).val = (y 1).val
    omega

/-- An index of the output array is in point t's block iff each coordinate is in the block's range on its axis. -/
theorem mem_blk7 (t : Fin cfg7.N) (i : S200000x64.Idx) :
    i ∈ ((cfg7.win 2).blk t).view.set ↔ ∀ a : Fin 2, win7_2.index t a * S20000x64.size a ≤ (i a).val ∧ (i a).val < win7_2.index t a * S20000x64.size a + S20000x64.size a := by
  show i ∈ ((View.whole main_v433).slice (win7_2.rect t)).set ↔ _
  rw [View.set_slice_whole, Rect.mem_set_unit]
  exact Iff.rfl

/-- EVERY INDEX IS COVERED: the blocks of 20000 rows tile the 200000 rows, the columns are whole, and row r lies in
    the block of the point r / 20000. -/
theorem cover7 (i : S200000x64.Idx) :
    ∃ t : Fin cfg7.N, (cfg7.win 2).flush t = true ∧ i ∈ ((cfg7.win 2).blk t).view.set := by
  have hi0 : (i 0).val < 200000 := (i 0).isLt
  have hi1 : (i 1).val < 64 := (i 1).isLt
  have hN : cfg7.N = 10 := N_7
  have hlt : (i 0).val / 20000 < cfg7.N := by omega
  obtain ⟨t, ht⟩ : ∃ t : Fin cfg7.N, t.val = (i 0).val / 20000 := ⟨⟨(i 0).val / 20000, hlt⟩, rfl⟩
  obtain ⟨e0, e1, e2, e3, e4, e5⟩ := idx_facts7 t
  refine ⟨t, flush7_2 t, ?_⟩
  rw [mem_blk7]
  intro a
  match a with
  | ⟨0, _⟩ =>
    show win7_2.index t (0 : Fin 2) * 20000 ≤ (i 0).val ∧ (i 0).val < win7_2.index t (0 : Fin 2) * 20000 + 20000
    omega
  | ⟨1, _⟩ =>
    show win7_2.index t (1 : Fin 2) * 64 ≤ (i 1).val ∧ (i 1).val < win7_2.index t (1 : Fin 2) * 64 + 64
    omega

/-- THE OUTPUT ARRAY when the region ends: the matrix product of the two arrays as the region found them. -/
theorem final7 (c : Dev nD) : (dat7 V c).arrAt 2 cfg7.N
    = (fun i => Cert.Lib.dense (M := 200000) (K := 64) (N := 64) (V c main_v432) (V c main_v419) i) :=
  (dat7 V c).arrAt_eq_of_cover 2 _ (fun t _ => flushed_eq7 V c t) cover7

end Cert.KernelIdeal.RegVal

end
-- ==== Proof.KLayer5.lean ====
/-
  One orthogonal layer of the kernel program: from the hidden features in buffer main_v369 at the layer's entry, the
  host operations leave one propagation step of them and the layer's weight (the Taylor polynomial of the
  exponential at the skew part of slice 5 of the stacked weights), and the pallas_call leaves their plain product.
-/
import proofs.«415904_j29016799052628_2_alg».proof.Proof.KernelIdealFrameP
import proofs.«415904_j29016799052628_2_alg».proof.Proof.SpecNet
import proofs.«415904_j29016799052628_2_alg».proof.Proof.KKeep
import proofs.«415904_j29016799052628_2_alg».proof.Proof.KChain0
import proofs.«415904_j29016799052628_2_alg».proof.Proof.RegVal7
import Idealize.ShloMosaic.Lib.StableHlo.Run

set_option maxRecDepth 16384

noncomputable section

namespace Cert.KernelIdeal.KChain

open Cert.KernelIdeal Cert.KernelIdeal.Gen Cert.KernelIdeal.GenP Cert.KernelIdeal.KKeep Idealize.ShloMosaic Idealize.ShloMosaic.TcCoe Idealize.SL.Sem
open Idealize.ShloMosaic.StableHlo
open Cert.KernelIdeal.RegVal

section Generic

variable {F : FTy → Type} [FloatOps F] (m : (ℓ : Loc nD τ sig) → Buf (Elt F) ℓ) (ρ : Dev nD → PrngReg)

set_option maxHeartbeats 4000000 in
/-- The host operations' propagation step, for any float values. -/
theorem layer5_step (c : Dev nD) : W17 m ρ c (Proc.devRef .tc main_v432) = Cert.Spec.prop64 (W16 m ρ c (Proc.devRef .tc main_v33)) (W16 m ρ c (Proc.devRef .tc main_v5))
    (W16 m ρ c (Proc.devRef .tc main_v6)) (W16 m ρ c (Proc.devRef .tc main_v369)) := by
  show StableHlo.after hostOps7 (W16 m ρ c) (Proc.devRef .tc main_v432) = _
  after_results_simp
  rfl

set_option maxHeartbeats 4000000 in
/-- The host operations' layer weight, for any float values. -/
theorem layer5_weight (c : Dev nD) : W17 m ρ c (Proc.devRef .tc main_v419) = Cert.Spec.expmTaylor (Cert.Spec.skewPart
    (extractStridedSlice S1x64x64 ![5, 0, 0] (W16 m ρ c (Proc.devRef .tc main_arg5)) slices_S10x64x64_S1x64x64_5_0_0)) := by
  show StableHlo.after hostOps7 (W16 m ρ c) (Proc.devRef .tc main_v419) = _
  after_results_simp
  rfl

end Generic

variable (m : (ℓ : Loc nD τ sig) → Buf (Elt Ideal) ℓ) (ρ : Dev nD → PrngReg)

/-- The layer's exit features from its entry features. -/
theorem layer5 (c : Dev nD) : W18 m ρ c (Proc.devRef .tc main_v433)
    = (fun i => Cert.Lib.dense (M := 200000) (K := 64) (N := 64)
        (Cert.Spec.step64 (m ((c : Thread nD τ).loc main_arg1)) (m ((c : Thread nD τ).loc main_arg2)) (W16 m ρ c (Proc.devRef .tc main_v369)))
        (Cert.Spec.orth (m ((c : Thread nD τ).loc main_arg5)) 5) i) := by
  refine (W18_arr m ρ c 2).trans ((final7 (V17 m ρ) c).trans ?_)
  have e1 : V17 m ρ c main_v432 = _ := layer5_step m ρ c
  have e2 : V17 m ρ c main_v419 = _ := layer5_weight m ρ c
  rw [e1, e2, keepL_W16 m ρ c main_v33 (by decide), keepL_W16 m ρ c main_v5 (by decide), keepL_W16 m ρ c main_v6 (by decide),
    keepL_W16 m ρ c main_arg5 (by decide), W3_v33, W3_v5, W3_v6, W3_arg5]
  rfl

end Cert.KernelIdeal.KChain

end
-- ==== Proof.RegVal8.lean ====
/-
  A matrix-product region (a 200000 × 64 left operand in ten blocks of 20000 rows, a 64 × 64 right operand held
  whole): what the 200000 × 64 output array holds when the region ends.
  The body's payload at the ideal values is the matrix product of the two blocks it loads. A row of a product
  depends on that row of the left factor alone, so what a grid point writes back — the product of its block of rows
  of the left array with the whole right array — is the same block of rows of the product of the two whole arrays.
  The grid's blocks of rows tile the output array, so the array ends holding the product of the two arrays as the
  region found them.
-/
import proofs.«415904_j29016799052628_2_alg».proof.Proof.KernelIdealFrameP
import proofs.«415904_j29016799052628_2_alg».proof.Proof.LibDense
import Idealize.ShloMosaic.Lib.Pipeline.Value
import Idealize.ShloMosaic.Lib.ValueIdx

set_option maxRecDepth 16384

noncomputable section

namespace Cert.KernelIdeal.RegVal

open Cert.KernelIdeal Cert.KernelIdeal.Gen Cert.KernelIdeal.GenP Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The body's one store and its loads start at the origin of their buffers. -/
theorem zero_off8 : (![0, 0] : Fin 2 → Nat) = fun _ => 0 := funext fun a => by fin_cases a <;> rfl

/-- The body's payload is the matrix product of the two loaded blocks: the operands' passage through the narrower
    format is the identity on extended reals, and the accumulator starts at zero. -/
theorem pay_eq8 (x0 : Vec Ideal S20000x64 .f32) (x1 : Vec Ideal S64x64 .f32) :
    k8_pay1 (F := Ideal) x0 x1 = Cert.Lib.dense (M := 20000) (K := 64) (N := 64) x0 x1 := by
  unfold k8_pay1
  simp only [shapeCast_self]
  exact Cert.Lib.matmul_truncf_eq_dense dot_S20000x64_S64x64_S20000x64_1_0_0_1_n_n rfl rfl rfl rfl rfl rfl none x0 x1 _ _

/-- A BLOCK OF ROWS OF A PRODUCT. Let the left block be the left array read through a map that shifts rows by b
    and keeps columns, the right block the right array read through a map that keeps both coordinates, and let an
    index map of the results shift rows by the same b and keep columns. Then the product of the blocks at an index is
    the product of the arrays at the mapped index. -/
theorem block_rows8 {M M' K N : Nat} (a0 : (⟨2, ![M, K]⟩ : Shape).Idx → EReal) (a1 : (⟨2, ![K, N]⟩ : Shape).Idx → EReal)
    (f0 : (⟨2, ![M', K]⟩ : Shape).Idx → (⟨2, ![M, K]⟩ : Shape).Idx)
    (f1 : (⟨2, ![K, N]⟩ : Shape).Idx → (⟨2, ![K, N]⟩ : Shape).Idx)
    (g : (⟨2, ![M', N]⟩ : Shape).Idx → (⟨2, ![M, N]⟩ : Shape).Idx) (b : Nat)
    (hf0 : ∀ y, (f0 y 0).val = b + (y 0).val ∧ (f0 y 1).val = (y 1).val)
    (hf1 : ∀ y, (f1 y 0).val = (y 0).val ∧ (f1 y 1).val = (y 1).val)
    (hg : ∀ y, (g y 0).val = b + (y 0).val ∧ (g y 1).val = (y 1).val)
    (j : (⟨2, ![M', N]⟩ : Shape).Idx) :
    Cert.Lib.dense (fun y => a0 (f0 y)) (fun y => a1 (f1 y)) j = Cert.Lib.dense a0 a1 (g j) := by
  obtain ⟨p, q, rfl⟩ : ∃ (p : Fin M') (q : Fin N), j = ix2 p q := ⟨j 0, j 1, eq_ix2 j⟩
  have hq : g (ix2 p q) = ix2 (g (ix2 p q) 0) q := by
    funext a; apply Fin.ext
    match a with
    | ⟨0, _⟩ => rfl
    | ⟨1, _⟩ => exact (hg (ix2 p q)).2
  rw [hq]
  refine Cert.Lib.dense_row a0 _ a1 _ (g (ix2 p q) 0) p (fun k => ?_) (fun i => ?_) q
  · show a0 (f0 (ix2 p k)) = a0 (ix2 (g (ix2 p q) 0) k)
    congr 1
    funext a; apply Fin.ext
    match a with
    | ⟨0, _⟩ => exact ((hf0 (ix2 p k)).1).trans ((hg (ix2 p q)).1).symm
    | ⟨1, _⟩ => exact (hf0 (ix2 p k)).2
  · show a1 (f1 i) = a1 i
    congr 1
    funext a; apply Fin.ext
    match a with
    | ⟨0, _⟩ => exact (hf1 i).1
    | ⟨1, _⟩ => exact (hf1 i).2

/-- The printed index maps, decided over the grid: the left operand's block of rows is the output's, its column block
    the one there is; the right operand is held whole; the output's block of rows at a point is the point's number. -/
theorem idx_facts8 : ∀ t : Fin cfg8.N, win8_0.index t (0 : Fin 2) = win8_2.index t (0 : Fin 2)
    ∧ win8_0.index t (1 : Fin 2) = 0
    ∧ win8_1.index t (0 : Fin 2) = 0
    ∧ win8_1.index t (1 : Fin 2) = 0
    ∧ win8_2.index t (1 : Fin 2) = 0
    ∧ win8_2.index t (0 : Fin 2) = t.val :=
  (by decide +kernel : ∀ t : Fin grid8.N, _)

/-- WHAT POINT t WRITES BACK is block t of the product of the two arrays as the region finds them. -/
theorem flushed_eq8 (c : Dev nD) (t : Fin cfg8.N) :
    (dat8 V c).flushed 2 t = ((cfg8.win 2).blk t).view.read (Elt Ideal)
      (fun i => Cert.Lib.dense (M := 200000) (K := 64) (N := 64) (V c main_v496) (V c main_v483) i) := by
  show (cfg8.win 2).cut (grid8.coords t) ((dat8 V c).after 2 t) = _
  rw [after8_2]
  unfold out8_2
  rw [View.canon_unit_zero zero_off8]
  simp only [View.ld_unit_zero (S := S20000x64) zero_off8, View.ld_unit_zero (S := S64x64) zero_off8]
  rw [pay_eq8]
  obtain ⟨e0, e1, e2, e3, e4, e5⟩ := idx_facts8 t
  funext j
  show Cert.Lib.dense (M := 20000) (K := 64) (N := 64)
      (fun y => V c main_v496 (((cfg8.win 0).blk t).view.emb y))
      (fun y => V c main_v483 (((cfg8.win 1).blk t).view.emb y)) j
    = Cert.Lib.dense (M := 200000) (K := 64) (N := 64) (V c main_v496) (V c main_v483) (((cfg8.win 2).blk t).view.emb j)
  refine block_rows8 (M := 200000) (M' := 20000) (K := 64) (N := 64) (V c main_v496) (V c main_v483)
    (fun y => ((cfg8.win 0).blk t).view.emb y) (fun y => ((cfg8.win 1).blk t).view.emb y)
    (fun y => ((cfg8.win 2).blk t).view.emb y) (win8_2.index t (0 : Fin 2) * 20000) (fun y => ⟨?_, ?_⟩) (fun y => ⟨?_, ?_⟩)
    (fun y => ⟨?_, ?_⟩) j
  · show win8_0.index t (0 : Fin 2) * 20000 + 1 * (y 0).val = win8_2.index t (0 : Fin 2) * 20000 + (y 0).val
    omega
  · show win8_0.index t (1 : Fin 2) * 64 + 1 * (y 1).val = (y 1).val
    omega
  · show win8_1.index t (0 : Fin 2) * 64 + 1 * (y 0).val = (y 0).val
    omega
  · show win8_1.index t (1 : Fin 2) * 64 + 1 * (y 1).val = (y 1).val
    omega
  · show win8_2.index t (0 : Fin 2) * 20000 + 1 * (y 0).val = win8_2.index t (0 : Fin 2) * 20000 + (y 0).val
    omega
  · show win8_2.index t (1 : Fin 2) * 64 + 1 * (y 1).val = (y 1).val
    omega

/-- An index of the output array is in point t's block iff each coordinate is in the block's range on its axis. -/
theorem mem_blk8 (t : Fin cfg8.N) (i : S200000x64.Idx) :
    i ∈ ((cfg8.win 2).blk t).view.set ↔ ∀ a : Fin 2, win8_2.index t a * S20000x64.size a ≤ (i a).val ∧ (i a).val < win8_2.index t a * S20000x64.size a + S20000x64.size a := by
  show i ∈ ((View.whole main_v497).slice (win8_2.rect t)).set ↔ _
  rw [View.set_slice_whole, Rect.mem_set_unit]
  exact Iff.rfl

/-- EVERY INDEX IS COVERED: the blocks of 20000 rows tile the 200000 rows, the columns are whole, and row r lies in
    the block of the point r / 20000. -/
theorem cover8 (i : S200000x64.Idx) :
    ∃ t : Fin cfg8.N, (cfg8.win 2).flush t = true ∧ i ∈ ((cfg8.win 2).blk t).view.set := by
  have hi0 : (i 0).val < 200000 := (i 0).isLt
  have hi1 : (i 1).val < 64 := (i 1).isLt
  have hN : cfg8.N = 10 := N_8
  have hlt : (i 0).val / 20000 < cfg8.N := by omega
  obtain ⟨t, ht⟩ : ∃ t : Fin cfg8.N, t.val = (i 0).val / 20000 := ⟨⟨(i 0).val / 20000, hlt⟩, rfl⟩
  obtain ⟨e0, e1, e2, e3, e4, e5⟩ := idx_facts8 t
  refine ⟨t, flush8_2 t, ?_⟩
  rw [mem_blk8]
  intro a
  match a with
  | ⟨0, _⟩ =>
    show win8_2.index t (0 : Fin 2) * 20000 ≤ (i 0).val ∧ (i 0).val < win8_2.index t (0 : Fin 2) * 20000 + 20000
    omega
  | ⟨1, _⟩ =>
    show win8_2.index t (1 : Fin 2) * 64 ≤ (i 1).val ∧ (i 1).val < win8_2.index t (1 : Fin 2) * 64 + 64
    omega

/-- THE OUTPUT ARRAY when the region ends: the matrix product of the two arrays as the region found them. -/
theorem final8 (c : Dev nD) : (dat8 V c).arrAt 2 cfg8.N
    = (fun i => Cert.Lib.dense (M := 200000) (K := 64) (N := 64) (V c main_v496) (V c main_v483) i) :=
  (dat8 V c).arrAt_eq_of_cover 2 _ (fun t _ => flushed_eq8 V c t) cover8

end Cert.KernelIdeal.RegVal

end
-- ==== Proof.KLayer6.lean ====
/-
  One orthogonal layer of the kernel program: from the hidden features in buffer main_v433 at the layer's entry, the
  host operations leave one propagation step of them and the layer's weight (the Taylor polynomial of the
  exponential at the skew part of slice 6 of the stacked weights), and the pallas_call leaves their plain product.
-/
import proofs.«415904_j29016799052628_2_alg».proof.Proof.KernelIdealFrameP
import proofs.«415904_j29016799052628_2_alg».proof.Proof.SpecNet
import proofs.«415904_j29016799052628_2_alg».proof.Proof.KKeep
import proofs.«415904_j29016799052628_2_alg».proof.Proof.KChain0
import proofs.«415904_j29016799052628_2_alg».proof.Proof.RegVal8
import Idealize.ShloMosaic.Lib.StableHlo.Run

set_option maxRecDepth 16384

noncomputable section

namespace Cert.KernelIdeal.KChain

open Cert.KernelIdeal Cert.KernelIdeal.Gen Cert.KernelIdeal.GenP Cert.KernelIdeal.KKeep Idealize.ShloMosaic Idealize.ShloMosaic.TcCoe Idealize.SL.Sem
open Idealize.ShloMosaic.StableHlo
open Cert.KernelIdeal.RegVal

section Generic

variable {F : FTy → Type} [FloatOps F] (m : (ℓ : Loc nD τ sig) → Buf (Elt F) ℓ) (ρ : Dev nD → PrngReg)

set_option maxHeartbeats 4000000 in
/-- The host operations' propagation step, for any float values. -/
theorem layer6_step (c : Dev nD) : W19 m ρ c (Proc.devRef .tc main_v496) = Cert.Spec.prop64 (W18 m ρ c (Proc.devRef .tc main_v33)) (W18 m ρ c (Proc.devRef .tc main_v5))
    (W18 m ρ c (Proc.devRef .tc main_v6)) (W18 m ρ c (Proc.devRef .tc main_v433)) := by
  show StableHlo.after hostOps8 (W18 m ρ c) (Proc.devRef .tc main_v496) = _
  after_results_simp
  rfl

set_option maxHeartbeats 4000000 in
/-- The host operations' layer weight, for any float values. -/
theorem layer6_weight (c : Dev nD) : W19 m ρ c (Proc.devRef .tc main_v483) = Cert.Spec.expmTaylor (Cert.Spec.skewPart
    (extractStridedSlice S1x64x64 ![6, 0, 0] (W18 m ρ c (Proc.devRef .tc main_arg5)) slices_S10x64x64_S1x64x64_6_0_0)) := by
  show StableHlo.after hostOps8 (W18 m ρ c) (Proc.devRef .tc main_v483) = _
  after_results_simp
  rfl

end Generic

variable (m : (ℓ : Loc nD τ sig) → Buf (Elt Ideal) ℓ) (ρ : Dev nD → PrngReg)

/-- The layer's exit features from its entry features. -/
theorem layer6 (c : Dev nD) : W20 m ρ c (Proc.devRef .tc main_v497)
    = (fun i => Cert.Lib.dense (M := 200000) (K := 64) (N := 64)
        (Cert.Spec.step64 (m ((c : Thread nD τ).loc main_arg1)) (m ((c : Thread nD τ).loc main_arg2)) (W18 m ρ c (Proc.devRef .tc main_v433)))
        (Cert.Spec.orth (m ((c : Thread nD τ).loc main_arg5)) 6) i) := by
  refine (W20_arr m ρ c 2).trans ((final8 (V19 m ρ) c).trans ?_)
  have e1 : V19 m ρ c main_v496 = _ := layer6_step m ρ c
  have e2 : V19 m ρ c main_v483 = _ := layer6_weight m ρ c
  rw [e1, e2, keepL_W18 m ρ c main_v33 (by decide), keepL_W18 m ρ c main_v5 (by decide), keepL_W18 m ρ c main_v6 (by decide),
    keepL_W18 m ρ c main_arg5 (by decide), W3_v33, W3_v5, W3_v6, W3_arg5]
  rfl

end Cert.KernelIdeal.KChain

end
-- ==== Proof.RegVal9.lean ====
/-
  A matrix-product region (a 200000 × 64 left operand in ten blocks of 20000 rows, a 64 × 64 right operand held
  whole): what the 200000 × 64 output array holds when the region ends.
  The body's payload at the ideal values is the matrix product of the two blocks it loads. A row of a product
  depends on that row of the left factor alone, so what a grid point writes back — the product of its block of rows
  of the left array with the whole right array — is the same block of rows of the product of the two whole arrays.
  The grid's blocks of rows tile the output array, so the array ends holding the product of the two arrays as the
  region found them.
-/
import proofs.«415904_j29016799052628_2_alg».proof.Proof.KernelIdealFrameP
import proofs.«415904_j29016799052628_2_alg».proof.Proof.LibDense
import Idealize.ShloMosaic.Lib.Pipeline.Value
import Idealize.ShloMosaic.Lib.ValueIdx

set_option maxRecDepth 16384

noncomputable section

namespace Cert.KernelIdeal.RegVal

open Cert.KernelIdeal Cert.KernelIdeal.Gen Cert.KernelIdeal.GenP Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The body's one store and its loads start at the origin of their buffers. -/
theorem zero_off9 : (![0, 0] : Fin 2 → Nat) = fun _ => 0 := funext fun a => by fin_cases a <;> rfl

/-- The body's payload is the matrix product of the two loaded blocks: the operands' passage through the narrower
    format is the identity on extended reals, and the accumulator starts at zero. -/
theorem pay_eq9 (x0 : Vec Ideal S20000x64 .f32) (x1 : Vec Ideal S64x64 .f32) :
    k9_pay1 (F := Ideal) x0 x1 = Cert.Lib.dense (M := 20000) (K := 64) (N := 64) x0 x1 := by
  unfold k9_pay1
  simp only [shapeCast_self]
  exact Cert.Lib.matmul_truncf_eq_dense dot_S20000x64_S64x64_S20000x64_1_0_0_1_n_n rfl rfl rfl rfl rfl rfl none x0 x1 _ _

/-- A BLOCK OF ROWS OF A PRODUCT. Let the left block be the left array read through a map that shifts rows by b
    and keeps columns, the right block the right array read through a map that keeps both coordinates, and let an
    index map of the results shift rows by the same b and keep columns. Then the product of the blocks at an index is
    the product of the arrays at the mapped index. -/
theorem block_rows9 {M M' K N : Nat} (a0 : (⟨2, ![M, K]⟩ : Shape).Idx → EReal) (a1 : (⟨2, ![K, N]⟩ : Shape).Idx → EReal)
    (f0 : (⟨2, ![M', K]⟩ : Shape).Idx → (⟨2, ![M, K]⟩ : Shape).Idx)
    (f1 : (⟨2, ![K, N]⟩ : Shape).Idx → (⟨2, ![K, N]⟩ : Shape).Idx)
    (g : (⟨2, ![M', N]⟩ : Shape).Idx → (⟨2, ![M, N]⟩ : Shape).Idx) (b : Nat)
    (hf0 : ∀ y, (f0 y 0).val = b + (y 0).val ∧ (f0 y 1).val = (y 1).val)
    (hf1 : ∀ y, (f1 y 0).val = (y 0).val ∧ (f1 y 1).val = (y 1).val)
    (hg : ∀ y, (g y 0).val = b + (y 0).val ∧ (g y 1).val = (y 1).val)
    (j : (⟨2, ![M', N]⟩ : Shape).Idx) :
    Cert.Lib.dense (fun y => a0 (f0 y)) (fun y => a1 (f1 y)) j = Cert.Lib.dense a0 a1 (g j) := by
  obtain ⟨p, q, rfl⟩ : ∃ (p : Fin M') (q : Fin N), j = ix2 p q := ⟨j 0, j 1, eq_ix2 j⟩
  have hq : g (ix2 p q) = ix2 (g (ix2 p q) 0) q := by
    funext a; apply Fin.ext
    match a with
    | ⟨0, _⟩ => rfl
    | ⟨1, _⟩ => exact (hg (ix2 p q)).2
  rw [hq]
  refine Cert.Lib.dense_row a0 _ a1 _ (g (ix2 p q) 0) p (fun k => ?_) (fun i => ?_) q
  · show a0 (f0 (ix2 p k)) = a0 (ix2 (g (ix2 p q) 0) k)
    congr 1
    funext a; apply Fin.ext
    match a with
    | ⟨0, _⟩ => exact ((hf0 (ix2 p k)).1).trans ((hg (ix2 p q)).1).symm
    | ⟨1, _⟩ => exact (hf0 (ix2 p k)).2
  · show a1 (f1 i) = a1 i
    congr 1
    funext a; apply Fin.ext
    match a with
    | ⟨0, _⟩ => exact (hf1 i).1
    | ⟨1, _⟩ => exact (hf1 i).2

/-- The printed index maps, decided over the grid: the left operand's block of rows is the output's, its column block
    the one there is; the right operand is held whole; the output's block of rows at a point is the point's number. -/
theorem idx_facts9 : ∀ t : Fin cfg9.N, win9_0.index t (0 : Fin 2) = win9_2.index t (0 : Fin 2)
    ∧ win9_0.index t (1 : Fin 2) = 0
    ∧ win9_1.index t (0 : Fin 2) = 0
    ∧ win9_1.index t (1 : Fin 2) = 0
    ∧ win9_2.index t (1 : Fin 2) = 0
    ∧ win9_2.index t (0 : Fin 2) = t.val :=
  (by decide +kernel : ∀ t : Fin grid9.N, _)

/-- WHAT POINT t WRITES BACK is block t of the product of the two arrays as the region finds them. -/
theorem flushed_eq9 (c : Dev nD) (t : Fin cfg9.N) :
    (dat9 V c).flushed 2 t = ((cfg9.win 2).blk t).view.read (Elt Ideal)
      (fun i => Cert.Lib.dense (M := 200000) (K := 64) (N := 64) (V c main_v560) (V c main_v547) i) := by
  show (cfg9.win 2).cut (grid9.coords t) ((dat9 V c).after 2 t) = _
  rw [after9_2]
  unfold out9_2
  rw [View.canon_unit_zero zero_off9]
  simp only [View.ld_unit_zero (S := S20000x64) zero_off9, View.ld_unit_zero (S := S64x64) zero_off9]
  rw [pay_eq9]
  obtain ⟨e0, e1, e2, e3, e4, e5⟩ := idx_facts9 t
  funext j
  show Cert.Lib.dense (M := 20000) (K := 64) (N := 64)
      (fun y => V c main_v560 (((cfg9.win 0).blk t).view.emb y))
      (fun y => V c main_v547 (((cfg9.win 1).blk t).view.emb y)) j
    = Cert.Lib.dense (M := 200000) (K := 64) (N := 64) (V c main_v560) (V c main_v547) (((cfg9.win 2).blk t).view.emb j)
  refine block_rows9 (M := 200000) (M' := 20000) (K := 64) (N := 64) (V c main_v560) (V c main_v547)
    (fun y => ((cfg9.win 0).blk t).view.emb y) (fun y => ((cfg9.win 1).blk t).view.emb y)
    (fun y => ((cfg9.win 2).blk t).view.emb y) (win9_2.index t (0 : Fin 2) * 20000) (fun y => ⟨?_, ?_⟩) (fun y => ⟨?_, ?_⟩)
    (fun y => ⟨?_, ?_⟩) j
  · show win9_0.index t (0 : Fin 2) * 20000 + 1 * (y 0).val = win9_2.index t (0 : Fin 2) * 20000 + (y 0).val
    omega
  · show win9_0.index t (1 : Fin 2) * 64 + 1 * (y 1).val = (y 1).val
    omega
  · show win9_1.index t (0 : Fin 2) * 64 + 1 * (y 0).val = (y 0).val
    omega
  · show win9_1.index t (1 : Fin 2) * 64 + 1 * (y 1).val = (y 1).val
    omega
  · show win9_2.index t (0 : Fin 2) * 20000 + 1 * (y 0).val = win9_2.index t (0 : Fin 2) * 20000 + (y 0).val
    omega
  · show win9_2.index t (1 : Fin 2) * 64 + 1 * (y 1).val = (y 1).val
    omega

/-- An index of the output array is in point t's block iff each coordinate is in the block's range on its axis. -/
theorem mem_blk9 (t : Fin cfg9.N) (i : S200000x64.Idx) :
    i ∈ ((cfg9.win 2).blk t).view.set ↔ ∀ a : Fin 2, win9_2.index t a * S20000x64.size a ≤ (i a).val ∧ (i a).val < win9_2.index t a * S20000x64.size a + S20000x64.size a := by
  show i ∈ ((View.whole main_v561).slice (win9_2.rect t)).set ↔ _
  rw [View.set_slice_whole, Rect.mem_set_unit]
  exact Iff.rfl

/-- EVERY INDEX IS COVERED: the blocks of 20000 rows tile the 200000 rows, the columns are whole, and row r lies in
    the block of the point r / 20000. -/
theorem cover9 (i : S200000x64.Idx) :
    ∃ t : Fin cfg9.N, (cfg9.win 2).flush t = true ∧ i ∈ ((cfg9.win 2).blk t).view.set := by
  have hi0 : (i 0).val < 200000 := (i 0).isLt
  have hi1 : (i 1).val < 64 := (i 1).isLt
  have hN : cfg9.N = 10 := N_9
  have hlt : (i 0).val / 20000 < cfg9.N := by omega
  obtain ⟨t, ht⟩ : ∃ t : Fin cfg9.N, t.val = (i 0).val / 20000 := ⟨⟨(i 0).val / 20000, hlt⟩, rfl⟩
  obtain ⟨e0, e1, e2, e3, e4, e5⟩ := idx_facts9 t
  refine ⟨t, flush9_2 t, ?_⟩
  rw [mem_blk9]
  intro a
  match a with
  | ⟨0, _⟩ =>
    show win9_2.index t (0 : Fin 2) * 20000 ≤ (i 0).val ∧ (i 0).val < win9_2.index t (0 : Fin 2) * 20000 + 20000
    omega
  | ⟨1, _⟩ =>
    show win9_2.index t (1 : Fin 2) * 64 ≤ (i 1).val ∧ (i 1).val < win9_2.index t (1 : Fin 2) * 64 + 64
    omega

/-- THE OUTPUT ARRAY when the region ends: the matrix product of the two arrays as the region found them. -/
theorem final9 (c : Dev nD) : (dat9 V c).arrAt 2 cfg9.N
    = (fun i => Cert.Lib.dense (M := 200000) (K := 64) (N := 64) (V c main_v560) (V c main_v547) i) :=
  (dat9 V c).arrAt_eq_of_cover 2 _ (fun t _ => flushed_eq9 V c t) cover9

end Cert.KernelIdeal.RegVal

end
-- ==== Proof.KLayer7.lean ====
/-
  One orthogonal layer of the kernel program: from the hidden features in buffer main_v497 at the layer's entry, the
  host operations leave one propagation step of them and the layer's weight (the Taylor polynomial of the
  exponential at the skew part of slice 7 of the stacked weights), and the pallas_call leaves their plain product.
-/
import proofs.«415904_j29016799052628_2_alg».proof.Proof.KernelIdealFrameP
import proofs.«415904_j29016799052628_2_alg».proof.Proof.SpecNet
import proofs.«415904_j29016799052628_2_alg».proof.Proof.KKeep
import proofs.«415904_j29016799052628_2_alg».proof.Proof.KChain0
import proofs.«415904_j29016799052628_2_alg».proof.Proof.RegVal9
import Idealize.ShloMosaic.Lib.StableHlo.Run

set_option maxRecDepth 16384

noncomputable section

namespace Cert.KernelIdeal.KChain

open Cert.KernelIdeal Cert.KernelIdeal.Gen Cert.KernelIdeal.GenP Cert.KernelIdeal.KKeep Idealize.ShloMosaic Idealize.ShloMosaic.TcCoe Idealize.SL.Sem
open Idealize.ShloMosaic.StableHlo
open Cert.KernelIdeal.RegVal

section Generic

variable {F : FTy → Type} [FloatOps F] (m : (ℓ : Loc nD τ sig) → Buf (Elt F) ℓ) (ρ : Dev nD → PrngReg)

set_option maxHeartbeats 4000000 in
/-- The host operations' propagation step, for any float values. -/
theorem layer7_step (c : Dev nD) : W21 m ρ c (Proc.devRef .tc main_v560) = Cert.Spec.prop64 (W20 m ρ c (Proc.devRef .tc main_v33)) (W20 m ρ c (Proc.devRef .tc main_v5))
    (W20 m ρ c (Proc.devRef .tc main_v6)) (W20 m ρ c (Proc.devRef .tc main_v497)) := by
  show StableHlo.after hostOps9 (W20 m ρ c) (Proc.devRef .tc main_v560) = _
  after_results_simp
  rfl

set_option maxHeartbeats 4000000 in
/-- The host operations' layer weight, for any float values. -/
theorem layer7_weight (c : Dev nD) : W21 m ρ c (Proc.devRef .tc main_v547) = Cert.Spec.expmTaylor (Cert.Spec.skewPart
    (extractStridedSlice S1x64x64 ![7, 0, 0] (W20 m ρ c (Proc.devRef .tc main_arg5)) slices_S10x64x64_S1x64x64_7_0_0)) := by
  show StableHlo.after hostOps9 (W20 m ρ c) (Proc.devRef .tc main_v547) = _
  after_results_simp
  rfl

end Generic

variable (m : (ℓ : Loc nD τ sig) → Buf (Elt Ideal) ℓ) (ρ : Dev nD → PrngReg)

/-- The layer's exit features from its entry features. -/
theorem layer7 (c : Dev nD) : W22 m ρ c (Proc.devRef .tc main_v561)
    = (fun i => Cert.Lib.dense (M := 200000) (K := 64) (N := 64)
        (Cert.Spec.step64 (m ((c : Thread nD τ).loc main_arg1)) (m ((c : Thread nD τ).loc main_arg2)) (W20 m ρ c (Proc.devRef .tc main_v497)))
        (Cert.Spec.orth (m ((c : Thread nD τ).loc main_arg5)) 7) i) := by
  refine (W22_arr m ρ c 2).trans ((final9 (V21 m ρ) c).trans ?_)
  have e1 : V21 m ρ c main_v560 = _ := layer7_step m ρ c
  have e2 : V21 m ρ c main_v547 = _ := layer7_weight m ρ c
  rw [e1, e2, keepL_W20 m ρ c main_v33 (by decide), keepL_W20 m ρ c main_v5 (by decide), keepL_W20 m ρ c main_v6 (by decide),
    keepL_W20 m ρ c main_arg5 (by decide), W3_v33, W3_v5, W3_v6, W3_arg5]
  rfl

end Cert.KernelIdeal.KChain

end
-- ==== Proof.RegVal10.lean ====
/-
  A matrix-product region (a 200000 × 64 left operand in ten blocks of 20000 rows, a 64 × 64 right operand held
  whole): what the 200000 × 64 output array holds when the region ends.
  The body's payload at the ideal values is the matrix product of the two blocks it loads. A row of a product
  depends on that row of the left factor alone, so what a grid point writes back — the product of its block of rows
  of the left array with the whole right array — is the same block of rows of the product of the two whole arrays.
  The grid's blocks of rows tile the output array, so the array ends holding the product of the two arrays as the
  region found them.
-/
import proofs.«415904_j29016799052628_2_alg».proof.Proof.KernelIdealFrameP
import proofs.«415904_j29016799052628_2_alg».proof.Proof.LibDense
import Idealize.ShloMosaic.Lib.Pipeline.Value
import Idealize.ShloMosaic.Lib.ValueIdx

set_option maxRecDepth 16384

noncomputable section

namespace Cert.KernelIdeal.RegVal

open Cert.KernelIdeal Cert.KernelIdeal.Gen Cert.KernelIdeal.GenP Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The body's one store and its loads start at the origin of their buffers. -/
theorem zero_off10 : (![0, 0] : Fin 2 → Nat) = fun _ => 0 := funext fun a => by fin_cases a <;> rfl

/-- The body's payload is the matrix product of the two loaded blocks: the operands' passage through the narrower
    format is the identity on extended reals, and the accumulator starts at zero. -/
theorem pay_eq10 (x0 : Vec Ideal S20000x64 .f32) (x1 : Vec Ideal S64x64 .f32) :
    k10_pay1 (F := Ideal) x0 x1 = Cert.Lib.dense (M := 20000) (K := 64) (N := 64) x0 x1 := by
  unfold k10_pay1
  simp only [shapeCast_self]
  exact Cert.Lib.matmul_truncf_eq_dense dot_S20000x64_S64x64_S20000x64_1_0_0_1_n_n rfl rfl rfl rfl rfl rfl none x0 x1 _ _

/-- A BLOCK OF ROWS OF A PRODUCT. Let the left block be the left array read through a map that shifts rows by b
    and keeps columns, the right block the right array read through a map that keeps both coordinates, and let an
    index map of the results shift rows by the same b and keep columns. Then the product of the blocks at an index is
    the product of the arrays at the mapped index. -/
theorem block_rows10 {M M' K N : Nat} (a0 : (⟨2, ![M, K]⟩ : Shape).Idx → EReal) (a1 : (⟨2, ![K, N]⟩ : Shape).Idx → EReal)
    (f0 : (⟨2, ![M', K]⟩ : Shape).Idx → (⟨2, ![M, K]⟩ : Shape).Idx)
    (f1 : (⟨2, ![K, N]⟩ : Shape).Idx → (⟨2, ![K, N]⟩ : Shape).Idx)
    (g : (⟨2, ![M', N]⟩ : Shape).Idx → (⟨2, ![M, N]⟩ : Shape).Idx) (b : Nat)
    (hf0 : ∀ y, (f0 y 0).val = b + (y 0).val ∧ (f0 y 1).val = (y 1).val)
    (hf1 : ∀ y, (f1 y 0).val = (y 0).val ∧ (f1 y 1).val = (y 1).val)
    (hg : ∀ y, (g y 0).val = b + (y 0).val ∧ (g y 1).val = (y 1).val)
    (j : (⟨2, ![M', N]⟩ : Shape).Idx) :
    Cert.Lib.dense (fun y => a0 (f0 y)) (fun y => a1 (f1 y)) j = Cert.Lib.dense a0 a1 (g j) := by
  obtain ⟨p, q, rfl⟩ : ∃ (p : Fin M') (q : Fin N), j = ix2 p q := ⟨j 0, j 1, eq_ix2 j⟩
  have hq : g (ix2 p q) = ix2 (g (ix2 p q) 0) q := by
    funext a; apply Fin.ext
    match a with
    | ⟨0, _⟩ => rfl
    | ⟨1, _⟩ => exact (hg (ix2 p q)).2
  rw [hq]
  refine Cert.Lib.dense_row a0 _ a1 _ (g (ix2 p q) 0) p (fun k => ?_) (fun i => ?_) q
  · show a0 (f0 (ix2 p k)) = a0 (ix2 (g (ix2 p q) 0) k)
    congr 1
    funext a; apply Fin.ext
    match a with
    | ⟨0, _⟩ => exact ((hf0 (ix2 p k)).1).trans ((hg (ix2 p q)).1).symm
    | ⟨1, _⟩ => exact (hf0 (ix2 p k)).2
  · show a1 (f1 i) = a1 i
    congr 1
    funext a; apply Fin.ext
    match a with
    | ⟨0, _⟩ => exact (hf1 i).1
    | ⟨1, _⟩ => exact (hf1 i).2

/-- The printed index maps, decided over the grid: the left operand's block of rows is the output's, its column block
    the one there is; the right operand is held whole; the output's block of rows at a point is the point's number. -/
theorem idx_facts10 : ∀ t : Fin cfg10.N, win10_0.index t (0 : Fin 2) = win10_2.index t (0 : Fin 2)
    ∧ win10_0.index t (1 : Fin 2) = 0
    ∧ win10_1.index t (0 : Fin 2) = 0
    ∧ win10_1.index t (1 : Fin 2) = 0
    ∧ win10_2.index t (1 : Fin 2) = 0
    ∧ win10_2.index t (0 : Fin 2) = t.val :=
  (by decide +kernel : ∀ t : Fin grid10.N, _)

/-- WHAT POINT t WRITES BACK is block t of the product of the two arrays as the region finds them. -/
theorem flushed_eq10 (c : Dev nD) (t : Fin cfg10.N) :
    (dat10 V c).flushed 2 t = ((cfg10.win 2).blk t).view.read (Elt Ideal)
      (fun i => Cert.Lib.dense (M := 200000) (K := 64) (N := 64) (V c main_v624) (V c main_v611) i) := by
  show (cfg10.win 2).cut (grid10.coords t) ((dat10 V c).after 2 t) = _
  rw [after10_2]
  unfold out10_2
  rw [View.canon_unit_zero zero_off10]
  simp only [View.ld_unit_zero (S := S20000x64) zero_off10, View.ld_unit_zero (S := S64x64) zero_off10]
  rw [pay_eq10]
  obtain ⟨e0, e1, e2, e3, e4, e5⟩ := idx_facts10 t
  funext j
  show Cert.Lib.dense (M := 20000) (K := 64) (N := 64)
      (fun y => V c main_v624 (((cfg10.win 0).blk t).view.emb y))
      (fun y => V c main_v611 (((cfg10.win 1).blk t).view.emb y)) j
    = Cert.Lib.dense (M := 200000) (K := 64) (N := 64) (V c main_v624) (V c main_v611) (((cfg10.win 2).blk t).view.emb j)
  refine block_rows10 (M := 200000) (M' := 20000) (K := 64) (N := 64) (V c main_v624) (V c main_v611)
    (fun y => ((cfg10.win 0).blk t).view.emb y) (fun y => ((cfg10.win 1).blk t).view.emb y)
    (fun y => ((cfg10.win 2).blk t).view.emb y) (win10_2.index t (0 : Fin 2) * 20000) (fun y => ⟨?_, ?_⟩) (fun y => ⟨?_, ?_⟩)
    (fun y => ⟨?_, ?_⟩) j
  · show win10_0.index t (0 : Fin 2) * 20000 + 1 * (y 0).val = win10_2.index t (0 : Fin 2) * 20000 + (y 0).val
    omega
  · show win10_0.index t (1 : Fin 2) * 64 + 1 * (y 1).val = (y 1).val
    omega
  · show win10_1.index t (0 : Fin 2) * 64 + 1 * (y 0).val = (y 0).val
    omega
  · show win10_1.index t (1 : Fin 2) * 64 + 1 * (y 1).val = (y 1).val
    omega
  · show win10_2.index t (0 : Fin 2) * 20000 + 1 * (y 0).val = win10_2.index t (0 : Fin 2) * 20000 + (y 0).val
    omega
  · show win10_2.index t (1 : Fin 2) * 64 + 1 * (y 1).val = (y 1).val
    omega

/-- An index of the output array is in point t's block iff each coordinate is in the block's range on its axis. -/
theorem mem_blk10 (t : Fin cfg10.N) (i : S200000x64.Idx) :
    i ∈ ((cfg10.win 2).blk t).view.set ↔ ∀ a : Fin 2, win10_2.index t a * S20000x64.size a ≤ (i a).val ∧ (i a).val < win10_2.index t a * S20000x64.size a + S20000x64.size a := by
  show i ∈ ((View.whole main_v625).slice (win10_2.rect t)).set ↔ _
  rw [View.set_slice_whole, Rect.mem_set_unit]
  exact Iff.rfl

/-- EVERY INDEX IS COVERED: the blocks of 20000 rows tile the 200000 rows, the columns are whole, and row r lies in
    the block of the point r / 20000. -/
theorem cover10 (i : S200000x64.Idx) :
    ∃ t : Fin cfg10.N, (cfg10.win 2).flush t = true ∧ i ∈ ((cfg10.win 2).blk t).view.set := by
  have hi0 : (i 0).val < 200000 := (i 0).isLt
  have hi1 : (i 1).val < 64 := (i 1).isLt
  have hN : cfg10.N = 10 := N_10
  have hlt : (i 0).val / 20000 < cfg10.N := by omega
  obtain ⟨t, ht⟩ : ∃ t : Fin cfg10.N, t.val = (i 0).val / 20000 := ⟨⟨(i 0).val / 20000, hlt⟩, rfl⟩
  obtain ⟨e0, e1, e2, e3, e4, e5⟩ := idx_facts10 t
  refine ⟨t, flush10_2 t, ?_⟩
  rw [mem_blk10]
  intro a
  match a with
  | ⟨0, _⟩ =>
    show win10_2.index t (0 : Fin 2) * 20000 ≤ (i 0).val ∧ (i 0).val < win10_2.index t (0 : Fin 2) * 20000 + 20000
    omega
  | ⟨1, _⟩ =>
    show win10_2.index t (1 : Fin 2) * 64 ≤ (i 1).val ∧ (i 1).val < win10_2.index t (1 : Fin 2) * 64 + 64
    omega

/-- THE OUTPUT ARRAY when the region ends: the matrix product of the two arrays as the region found them. -/
theorem final10 (c : Dev nD) : (dat10 V c).arrAt 2 cfg10.N
    = (fun i => Cert.Lib.dense (M := 200000) (K := 64) (N := 64) (V c main_v624) (V c main_v611) i) :=
  (dat10 V c).arrAt_eq_of_cover 2 _ (fun t _ => flushed_eq10 V c t) cover10

end Cert.KernelIdeal.RegVal

end
-- ==== Proof.KLayer8.lean ====
/-
  One orthogonal layer of the kernel program: from the hidden features in buffer main_v561 at the layer's entry, the
  host operations leave one propagation step of them and the layer's weight (the Taylor polynomial of the
  exponential at the skew part of slice 8 of the stacked weights), and the pallas_call leaves their plain product.
-/
import proofs.«415904_j29016799052628_2_alg».proof.Proof.KernelIdealFrameP
import proofs.«415904_j29016799052628_2_alg».proof.Proof.SpecNet
import proofs.«415904_j29016799052628_2_alg».proof.Proof.KKeep
import proofs.«415904_j29016799052628_2_alg».proof.Proof.KChain0
import proofs.«415904_j29016799052628_2_alg».proof.Proof.RegVal10
import Idealize.ShloMosaic.Lib.StableHlo.Run

set_option maxRecDepth 16384

noncomputable section

namespace Cert.KernelIdeal.KChain

open Cert.KernelIdeal Cert.KernelIdeal.Gen Cert.KernelIdeal.GenP Cert.KernelIdeal.KKeep Idealize.ShloMosaic Idealize.ShloMosaic.TcCoe Idealize.SL.Sem
open Idealize.ShloMosaic.StableHlo
open Cert.KernelIdeal.RegVal

section Generic

variable {F : FTy → Type} [FloatOps F] (m : (ℓ : Loc nD τ sig) → Buf (Elt F) ℓ) (ρ : Dev nD → PrngReg)

set_option maxHeartbeats 4000000 in
/-- The host operations' propagation step, for any float values. -/
theorem layer8_step (c : Dev nD) : W23 m ρ c (Proc.devRef .tc main_v624) = Cert.Spec.prop64 (W22 m ρ c (Proc.devRef .tc main_v33)) (W22 m ρ c (Proc.devRef .tc main_v5))
    (W22 m ρ c (Proc.devRef .tc main_v6)) (W22 m ρ c (Proc.devRef .tc main_v561)) := by
  show StableHlo.after hostOps10 (W22 m ρ c) (Proc.devRef .tc main_v624) = _
  after_results_simp
  rfl

set_option maxHeartbeats 4000000 in
/-- The host operations' layer weight, for any float values. -/
theorem layer8_weight (c : Dev nD) : W23 m ρ c (Proc.devRef .tc main_v611) = Cert.Spec.expmTaylor (Cert.Spec.skewPart
    (extractStridedSlice S1x64x64 ![8, 0, 0] (W22 m ρ c (Proc.devRef .tc main_arg5)) slices_S10x64x64_S1x64x64_8_0_0)) := by
  show StableHlo.after hostOps10 (W22 m ρ c) (Proc.devRef .tc main_v611) = _
  after_results_simp
  rfl

end Generic

variable (m : (ℓ : Loc nD τ sig) → Buf (Elt Ideal) ℓ) (ρ : Dev nD → PrngReg)

/-- The layer's exit features from its entry features. -/
theorem layer8 (c : Dev nD) : W24 m ρ c (Proc.devRef .tc main_v625)
    = (fun i => Cert.Lib.dense (M := 200000) (K := 64) (N := 64)
        (Cert.Spec.step64 (m ((c : Thread nD τ).loc main_arg1)) (m ((c : Thread nD τ).loc main_arg2)) (W22 m ρ c (Proc.devRef .tc main_v561)))
        (Cert.Spec.orth (m ((c : Thread nD τ).loc main_arg5)) 8) i) := by
  refine (W24_arr m ρ c 2).trans ((final10 (V23 m ρ) c).trans ?_)
  have e1 : V23 m ρ c main_v624 = _ := layer8_step m ρ c
  have e2 : V23 m ρ c main_v611 = _ := layer8_weight m ρ c
  rw [e1, e2, keepL_W22 m ρ c main_v33 (by decide), keepL_W22 m ρ c main_v5 (by decide), keepL_W22 m ρ c main_v6 (by decide),
    keepL_W22 m ρ c main_arg5 (by decide), W3_v33, W3_v5, W3_v6, W3_arg5]
  rfl

end Cert.KernelIdeal.KChain

end
-- ==== Proof.RegVal11.lean ====
/-
  A matrix-product region (a 200000 × 64 left operand in ten blocks of 20000 rows, a 64 × 64 right operand held
  whole): what the 200000 × 64 output array holds when the region ends.
  The body's payload at the ideal values is the matrix product of the two blocks it loads. A row of a product
  depends on that row of the left factor alone, so what a grid point writes back — the product of its block of rows
  of the left array with the whole right array — is the same block of rows of the product of the two whole arrays.
  The grid's blocks of rows tile the output array, so the array ends holding the product of the two arrays as the
  region found them.
-/
import proofs.«415904_j29016799052628_2_alg».proof.Proof.KernelIdealFrameP
import proofs.«415904_j29016799052628_2_alg».proof.Proof.LibDense
import Idealize.ShloMosaic.Lib.Pipeline.Value
import Idealize.ShloMosaic.Lib.ValueIdx

set_option maxRecDepth 16384

noncomputable section

namespace Cert.KernelIdeal.RegVal

open Cert.KernelIdeal Cert.KernelIdeal.Gen Cert.KernelIdeal.GenP Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The body's one store and its loads start at the origin of their buffers. -/
theorem zero_off11 : (![0, 0] : Fin 2 → Nat) = fun _ => 0 := funext fun a => by fin_cases a <;> rfl

/-- The body's payload is the matrix product of the two loaded blocks: the operands' passage through the narrower
    format is the identity on extended reals, and the accumulator starts at zero. -/
theorem pay_eq11 (x0 : Vec Ideal S20000x64 .f32) (x1 : Vec Ideal S64x64 .f32) :
    k11_pay1 (F := Ideal) x0 x1 = Cert.Lib.dense (M := 20000) (K := 64) (N := 64) x0 x1 := by
  unfold k11_pay1
  simp only [shapeCast_self]
  exact Cert.Lib.matmul_truncf_eq_dense dot_S20000x64_S64x64_S20000x64_1_0_0_1_n_n rfl rfl rfl rfl rfl rfl none x0 x1 _ _

/-- A BLOCK OF ROWS OF A PRODUCT. Let the left block be the left array read through a map that shifts rows by b
    and keeps columns, the right block the right array read through a map that keeps both coordinates, and let an
    index map of the results shift rows by the same b and keep columns. Then the product of the blocks at an index is
    the product of the arrays at the mapped index. -/
theorem block_rows11 {M M' K N : Nat} (a0 : (⟨2, ![M, K]⟩ : Shape).Idx → EReal) (a1 : (⟨2, ![K, N]⟩ : Shape).Idx → EReal)
    (f0 : (⟨2, ![M', K]⟩ : Shape).Idx → (⟨2, ![M, K]⟩ : Shape).Idx)
    (f1 : (⟨2, ![K, N]⟩ : Shape).Idx → (⟨2, ![K, N]⟩ : Shape).Idx)
    (g : (⟨2, ![M', N]⟩ : Shape).Idx → (⟨2, ![M, N]⟩ : Shape).Idx) (b : Nat)
    (hf0 : ∀ y, (f0 y 0).val = b + (y 0).val ∧ (f0 y 1).val = (y 1).val)
    (hf1 : ∀ y, (f1 y 0).val = (y 0).val ∧ (f1 y 1).val = (y 1).val)
    (hg : ∀ y, (g y 0).val = b + (y 0).val ∧ (g y 1).val = (y 1).val)
    (j : (⟨2, ![M', N]⟩ : Shape).Idx) :
    Cert.Lib.dense (fun y => a0 (f0 y)) (fun y => a1 (f1 y)) j = Cert.Lib.dense a0 a1 (g j) := by
  obtain ⟨p, q, rfl⟩ : ∃ (p : Fin M') (q : Fin N), j = ix2 p q := ⟨j 0, j 1, eq_ix2 j⟩
  have hq : g (ix2 p q) = ix2 (g (ix2 p q) 0) q := by
    funext a; apply Fin.ext
    match a with
    | ⟨0, _⟩ => rfl
    | ⟨1, _⟩ => exact (hg (ix2 p q)).2
  rw [hq]
  refine Cert.Lib.dense_row a0 _ a1 _ (g (ix2 p q) 0) p (fun k => ?_) (fun i => ?_) q
  · show a0 (f0 (ix2 p k)) = a0 (ix2 (g (ix2 p q) 0) k)
    congr 1
    funext a; apply Fin.ext
    match a with
    | ⟨0, _⟩ => exact ((hf0 (ix2 p k)).1).trans ((hg (ix2 p q)).1).symm
    | ⟨1, _⟩ => exact (hf0 (ix2 p k)).2
  · show a1 (f1 i) = a1 i
    congr 1
    funext a; apply Fin.ext
    match a with
    | ⟨0, _⟩ => exact (hf1 i).1
    | ⟨1, _⟩ => exact (hf1 i).2

/-- The printed index maps, decided over the grid: the left operand's block of rows is the output's, its column block
    the one there is; the right operand is held whole; the output's block of rows at a point is the point's number. -/
theorem idx_facts11 : ∀ t : Fin cfg11.N, win11_0.index t (0 : Fin 2) = win11_2.index t (0 : Fin 2)
    ∧ win11_0.index t (1 : Fin 2) = 0
    ∧ win11_1.index t (0 : Fin 2) = 0
    ∧ win11_1.index t (1 : Fin 2) = 0
    ∧ win11_2.index t (1 : Fin 2) = 0
    ∧ win11_2.index t (0 : Fin 2) = t.val :=
  (by decide +kernel : ∀ t : Fin grid11.N, _)

/-- WHAT POINT t WRITES BACK is block t of the product of the two arrays as the region finds them. -/
theorem flushed_eq11 (c : Dev nD) (t : Fin cfg11.N) :
    (dat11 V c).flushed 2 t = ((cfg11.win 2).blk t).view.read (Elt Ideal)
      (fun i => Cert.Lib.dense (M := 200000) (K := 64) (N := 64) (V c main_v688) (V c main_v675) i) := by
  show (cfg11.win 2).cut (grid11.coords t) ((dat11 V c).after 2 t) = _
  rw [after11_2]
  unfold out11_2
  rw [View.canon_unit_zero zero_off11]
  simp only [View.ld_unit_zero (S := S20000x64) zero_off11, View.ld_unit_zero (S := S64x64) zero_off11]
  rw [pay_eq11]
  obtain ⟨e0, e1, e2, e3, e4, e5⟩ := idx_facts11 t
  funext j
  show Cert.Lib.dense (M := 20000) (K := 64) (N := 64)
      (fun y => V c main_v688 (((cfg11.win 0).blk t).view.emb y))
      (fun y => V c main_v675 (((cfg11.win 1).blk t).view.emb y)) j
    = Cert.Lib.dense (M := 200000) (K := 64) (N := 64) (V c main_v688) (V c main_v675) (((cfg11.win 2).blk t).view.emb j)
  refine block_rows11 (M := 200000) (M' := 20000) (K := 64) (N := 64) (V c main_v688) (V c main_v675)
    (fun y => ((cfg11.win 0).blk t).view.emb y) (fun y => ((cfg11.win 1).blk t).view.emb y)
    (fun y => ((cfg11.win 2).blk t).view.emb y) (win11_2.index t (0 : Fin 2) * 20000) (fun y => ⟨?_, ?_⟩) (fun y => ⟨?_, ?_⟩)
    (fun y => ⟨?_, ?_⟩) j
  · show win11_0.index t (0 : Fin 2) * 20000 + 1 * (y 0).val = win11_2.index t (0 : Fin 2) * 20000 + (y 0).val
    omega
  · show win11_0.index t (1 : Fin 2) * 64 + 1 * (y 1).val = (y 1).val
    omega
  · show win11_1.index t (0 : Fin 2) * 64 + 1 * (y 0).val = (y 0).val
    omega
  · show win11_1.index t (1 : Fin 2) * 64 + 1 * (y 1).val = (y 1).val
    omega
  · show win11_2.index t (0 : Fin 2) * 20000 + 1 * (y 0).val = win11_2.index t (0 : Fin 2) * 20000 + (y 0).val
    omega
  · show win11_2.index t (1 : Fin 2) * 64 + 1 * (y 1).val = (y 1).val
    omega

/-- An index of the output array is in point t's block iff each coordinate is in the block's range on its axis. -/
theorem mem_blk11 (t : Fin cfg11.N) (i : S200000x64.Idx) :
    i ∈ ((cfg11.win 2).blk t).view.set ↔ ∀ a : Fin 2, win11_2.index t a * S20000x64.size a ≤ (i a).val ∧ (i a).val < win11_2.index t a * S20000x64.size a + S20000x64.size a := by
  show i ∈ ((View.whole main_v689).slice (win11_2.rect t)).set ↔ _
  rw [View.set_slice_whole, Rect.mem_set_unit]
  exact Iff.rfl

/-- EVERY INDEX IS COVERED: the blocks of 20000 rows tile the 200000 rows, the columns are whole, and row r lies in
    the block of the point r / 20000. -/
theorem cover11 (i : S200000x64.Idx) :
    ∃ t : Fin cfg11.N, (cfg11.win 2).flush t = true ∧ i ∈ ((cfg11.win 2).blk t).view.set := by
  have hi0 : (i 0).val < 200000 := (i 0).isLt
  have hi1 : (i 1).val < 64 := (i 1).isLt
  have hN : cfg11.N = 10 := N_11
  have hlt : (i 0).val / 20000 < cfg11.N := by omega
  obtain ⟨t, ht⟩ : ∃ t : Fin cfg11.N, t.val = (i 0).val / 20000 := ⟨⟨(i 0).val / 20000, hlt⟩, rfl⟩
  obtain ⟨e0, e1, e2, e3, e4, e5⟩ := idx_facts11 t
  refine ⟨t, flush11_2 t, ?_⟩
  rw [mem_blk11]
  intro a
  match a with
  | ⟨0, _⟩ =>
    show win11_2.index t (0 : Fin 2) * 20000 ≤ (i 0).val ∧ (i 0).val < win11_2.index t (0 : Fin 2) * 20000 + 20000
    omega
  | ⟨1, _⟩ =>
    show win11_2.index t (1 : Fin 2) * 64 ≤ (i 1).val ∧ (i 1).val < win11_2.index t (1 : Fin 2) * 64 + 64
    omega

/-- THE OUTPUT ARRAY when the region ends: the matrix product of the two arrays as the region found them. -/
theorem final11 (c : Dev nD) : (dat11 V c).arrAt 2 cfg11.N
    = (fun i => Cert.Lib.dense (M := 200000) (K := 64) (N := 64) (V c main_v688) (V c main_v675) i) :=
  (dat11 V c).arrAt_eq_of_cover 2 _ (fun t _ => flushed_eq11 V c t) cover11

end Cert.KernelIdeal.RegVal

end
-- ==== Proof.KLayer9.lean ====
/-
  One orthogonal layer of the kernel program: from the hidden features in buffer main_v625 at the layer's entry, the
  host operations leave one propagation step of them and the layer's weight (the Taylor polynomial of the
  exponential at the skew part of slice 9 of the stacked weights), and the pallas_call leaves their plain product.
-/
import proofs.«415904_j29016799052628_2_alg».proof.Proof.KernelIdealFrameP
import proofs.«415904_j29016799052628_2_alg».proof.Proof.SpecNet
import proofs.«415904_j29016799052628_2_alg».proof.Proof.KKeep
import proofs.«415904_j29016799052628_2_alg».proof.Proof.KChain0
import proofs.«415904_j29016799052628_2_alg».proof.Proof.RegVal11
import Idealize.ShloMosaic.Lib.StableHlo.Run

set_option maxRecDepth 16384

noncomputable section

namespace Cert.KernelIdeal.KChain

open Cert.KernelIdeal Cert.KernelIdeal.Gen Cert.KernelIdeal.GenP Cert.KernelIdeal.KKeep Idealize.ShloMosaic Idealize.ShloMosaic.TcCoe Idealize.SL.Sem
open Idealize.ShloMosaic.StableHlo
open Cert.KernelIdeal.RegVal

section Generic

variable {F : FTy → Type} [FloatOps F] (m : (ℓ : Loc nD τ sig) → Buf (Elt F) ℓ) (ρ : Dev nD → PrngReg)

set_option maxHeartbeats 4000000 in
/-- The host operations' propagation step, for any float values. -/
theorem layer9_step (c : Dev nD) : W25 m ρ c (Proc.devRef .tc main_v688) = Cert.Spec.prop64 (W24 m ρ c (Proc.devRef .tc main_v33)) (W24 m ρ c (Proc.devRef .tc main_v5))
    (W24 m ρ c (Proc.devRef .tc main_v6)) (W24 m ρ c (Proc.devRef .tc main_v625)) := by
  show StableHlo.after hostOps11 (W24 m ρ c) (Proc.devRef .tc main_v688) = _
  after_results_simp
  rfl

set_option maxHeartbeats 4000000 in
/-- The host operations' layer weight, for any float values. -/
theorem layer9_weight (c : Dev nD) : W25 m ρ c (Proc.devRef .tc main_v675) = Cert.Spec.expmTaylor (Cert.Spec.skewPart
    (extractStridedSlice S1x64x64 ![9, 0, 0] (W24 m ρ c (Proc.devRef .tc main_arg5)) slices_S10x64x64_S1x64x64_9_0_0)) := by
  show StableHlo.after hostOps11 (W24 m ρ c) (Proc.devRef .tc main_v675) = _
  after_results_simp
  rfl

end Generic

variable (m : (ℓ : Loc nD τ sig) → Buf (Elt Ideal) ℓ) (ρ : Dev nD → PrngReg)

/-- The layer's exit features from its entry features. -/
theorem layer9 (c : Dev nD) : W26 m ρ c (Proc.devRef .tc main_v689)
    = (fun i => Cert.Lib.dense (M := 200000) (K := 64) (N := 64)
        (Cert.Spec.step64 (m ((c : Thread nD τ).loc main_arg1)) (m ((c : Thread nD τ).loc main_arg2)) (W24 m ρ c (Proc.devRef .tc main_v625)))
        (Cert.Spec.orth (m ((c : Thread nD τ).loc main_arg5)) 9) i) := by
  refine (W26_arr m ρ c 2).trans ((final11 (V25 m ρ) c).trans ?_)
  have e1 : V25 m ρ c main_v688 = _ := layer9_step m ρ c
  have e2 : V25 m ρ c main_v675 = _ := layer9_weight m ρ c
  rw [e1, e2, keepL_W24 m ρ c main_v33 (by decide), keepL_W24 m ρ c main_v5 (by decide), keepL_W24 m ρ c main_v6 (by decide),
    keepL_W24 m ρ c main_arg5 (by decide), W3_v33, W3_v5, W3_v6, W3_arg5]
  rfl

end Cert.KernelIdeal.KChain

end
-- ==== Proof.RegVal12.lean ====
/-
  The last matrix-product region (a 200000 × 64 left operand in ten blocks of 20000 rows, a 64 × 1 right operand
  held whole): what the 200000 × 1 output array holds when the region ends.
  The body's payload at the ideal values is the matrix product of the two blocks it loads. A row of a product
  depends on that row of the left factor alone, so what a grid point writes back — the product of its block of rows
  of the left array with the whole right array — is the same block of rows of the product of the two whole arrays.
  The grid's blocks of rows tile the output array, so the array ends holding the product of the two arrays as the
  region found them.
-/
import proofs.«415904_j29016799052628_2_alg».proof.Proof.KernelIdealFrameP
import proofs.«415904_j29016799052628_2_alg».proof.Proof.LibDense
import Idealize.ShloMosaic.Lib.Pipeline.Value
import Idealize.ShloMosaic.Lib.ValueIdx

set_option maxRecDepth 16384

noncomputable section

namespace Cert.KernelIdeal.RegVal

open Cert.KernelIdeal Cert.KernelIdeal.Gen Cert.KernelIdeal.GenP Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The body's one store and its loads start at the origin of their buffers. -/
theorem zero_off12 : (![0, 0] : Fin 2 → Nat) = fun _ => 0 := funext fun a => by fin_cases a <;> rfl

/-- The body's payload is the matrix product of the two loaded blocks: the operands' passage through the narrower
    format is the identity on extended reals, and the accumulator starts at zero. -/
theorem pay_eq12 (x0 : Vec Ideal S20000x64 .f32) (x1 : Vec Ideal S64x1 .f32) :
    k12_pay1 (F := Ideal) x0 x1 = Cert.Lib.dense (M := 20000) (K := 64) (N := 1) x0 x1 := by
  unfold k12_pay1
  simp only [shapeCast_self]
  exact Cert.Lib.matmul_truncf_eq_dense dot_S20000x64_S64x1_S20000x1_1_0_0_1_n_n rfl rfl rfl rfl rfl rfl none x0 x1 _ _

/-- A BLOCK OF ROWS OF A PRODUCT. Let the left block be the left array read through a map that shifts rows by b
    and keeps columns, the right block the right array read through a map that keeps both coordinates, and let an
    index map of the results shift rows by the same b and keep columns. Then the product of the blocks at an index is
    the product of the arrays at the mapped index. -/
theorem block_rows12 {M M' K N : Nat} (a0 : (⟨2, ![M, K]⟩ : Shape).Idx → EReal) (a1 : (⟨2, ![K, N]⟩ : Shape).Idx → EReal)
    (f0 : (⟨2, ![M', K]⟩ : Shape).Idx → (⟨2, ![M, K]⟩ : Shape).Idx)
    (f1 : (⟨2, ![K, N]⟩ : Shape).Idx → (⟨2, ![K, N]⟩ : Shape).Idx)
    (g : (⟨2, ![M', N]⟩ : Shape).Idx → (⟨2, ![M, N]⟩ : Shape).Idx) (b : Nat)
    (hf0 : ∀ y, (f0 y 0).val = b + (y 0).val ∧ (f0 y 1).val = (y 1).val)
    (hf1 : ∀ y, (f1 y 0).val = (y 0).val ∧ (f1 y 1).val = (y 1).val)
    (hg : ∀ y, (g y 0).val = b + (y 0).val ∧ (g y 1).val = (y 1).val)
    (j : (⟨2, ![M', N]⟩ : Shape).Idx) :
    Cert.Lib.dense (fun y => a0 (f0 y)) (fun y => a1 (f1 y)) j = Cert.Lib.dense a0 a1 (g j) := by
  obtain ⟨p, q, rfl⟩ : ∃ (p : Fin M') (q : Fin N), j = ix2 p q := ⟨j 0, j 1, eq_ix2 j⟩
  have hq : g (ix2 p q) = ix2 (g (ix2 p q) 0) q := by
    funext a; apply Fin.ext
    match a with
    | ⟨0, _⟩ => rfl
    | ⟨1, _⟩ => exact (hg (ix2 p q)).2
  rw [hq]
  refine Cert.Lib.dense_row a0 _ a1 _ (g (ix2 p q) 0) p (fun k => ?_) (fun i => ?_) q
  · show a0 (f0 (ix2 p k)) = a0 (ix2 (g (ix2 p q) 0) k)
    congr 1
    funext a; apply Fin.ext
    match a with
    | ⟨0, _⟩ => exact ((hf0 (ix2 p k)).1).trans ((hg (ix2 p q)).1).symm
    | ⟨1, _⟩ => exact (hf0 (ix2 p k)).2
  · show a1 (f1 i) = a1 i
    congr 1
    funext a; apply Fin.ext
    match a with
    | ⟨0, _⟩ => exact (hf1 i).1
    | ⟨1, _⟩ => exact (hf1 i).2

/-- The printed index maps, decided over the grid: the left operand's block of rows is the output's, its column block
    the one there is; the right operand is held whole; the output's block of rows at a point is the point's number. -/
theorem idx_facts12 : ∀ t : Fin cfg12.N, win12_0.index t (0 : Fin 2) = win12_2.index t (0 : Fin 2)
    ∧ win12_0.index t (1 : Fin 2) = 0
    ∧ win12_1.index t (0 : Fin 2) = 0
    ∧ win12_1.index t (1 : Fin 2) = 0
    ∧ win12_2.index t (1 : Fin 2) = 0
    ∧ win12_2.index t (0 : Fin 2) = t.val :=
  (by decide +kernel : ∀ t : Fin grid12.N, _)

/-- WHAT POINT t WRITES BACK is block t of the product of the two arrays as the region finds them. -/
theorem flushed_eq12 (c : Dev nD) (t : Fin cfg12.N) :
    (dat12 V c).flushed 2 t = ((cfg12.win 2).blk t).view.read (Elt Ideal)
      (fun i => Cert.Lib.dense (M := 200000) (K := 64) (N := 1) (V c main_v689) (V c main_arg6) i) := by
  show (cfg12.win 2).cut (grid12.coords t) ((dat12 V c).after 2 t) = _
  rw [after12_2]
  unfold out12_2
  rw [View.canon_unit_zero zero_off12]
  simp only [View.ld_unit_zero (S := S20000x64) zero_off12, View.ld_unit_zero (S := S64x1) zero_off12]
  rw [pay_eq12]
  obtain ⟨e0, e1, e2, e3, e4, e5⟩ := idx_facts12 t
  funext j
  show Cert.Lib.dense (M := 20000) (K := 64) (N := 1)
      (fun y => V c main_v689 (((cfg12.win 0).blk t).view.emb y))
      (fun y => V c main_arg6 (((cfg12.win 1).blk t).view.emb y)) j
    = Cert.Lib.dense (M := 200000) (K := 64) (N := 1) (V c main_v689) (V c main_arg6) (((cfg12.win 2).blk t).view.emb j)
  refine block_rows12 (M := 200000) (M' := 20000) (K := 64) (N := 1) (V c main_v689) (V c main_arg6)
    (fun y => ((cfg12.win 0).blk t).view.emb y) (fun y => ((cfg12.win 1).blk t).view.emb y)
    (fun y => ((cfg12.win 2).blk t).view.emb y) (win12_2.index t (0 : Fin 2) * 20000) (fun y => ⟨?_, ?_⟩) (fun y => ⟨?_, ?_⟩)
    (fun y => ⟨?_, ?_⟩) j
  · show win12_0.index t (0 : Fin 2) * 20000 + 1 * (y 0).val = win12_2.index t (0 : Fin 2) * 20000 + (y 0).val
    omega
  · show win12_0.index t (1 : Fin 2) * 64 + 1 * (y 1).val = (y 1).val
    omega
  · show win12_1.index t (0 : Fin 2) * 64 + 1 * (y 0).val = (y 0).val
    omega
  · show win12_1.index t (1 : Fin 2) * 1 + 1 * (y 1).val = (y 1).val
    omega
  · show win12_2.index t (0 : Fin 2) * 20000 + 1 * (y 0).val = win12_2.index t (0 : Fin 2) * 20000 + (y 0).val
    omega
  · show win12_2.index t (1 : Fin 2) * 1 + 1 * (y 1).val = (y 1).val
    omega

/-- An index of the output array is in point t's block iff each coordinate is in the block's range on its axis. -/
theorem mem_blk12 (t : Fin cfg12.N) (i : S200000x1.Idx) :
    i ∈ ((cfg12.win 2).blk t).view.set ↔ ∀ a : Fin 2, win12_2.index t a * S20000x1.size a ≤ (i a).val ∧ (i a).val < win12_2.index t a * S20000x1.size a + S20000x1.size a := by
  show i ∈ ((View.whole main_v690).slice (win12_2.rect t)).set ↔ _
  rw [View.set_slice_whole, Rect.mem_set_unit]
  exact Iff.rfl

/-- EVERY INDEX IS COVERED: the blocks of 20000 rows tile the 200000 rows, the columns are whole, and row r lies in
    the block of the point r / 20000. -/
theorem cover12 (i : S200000x1.Idx) :
    ∃ t : Fin cfg12.N, (cfg12.win 2).flush t = true ∧ i ∈ ((cfg12.win 2).blk t).view.set := by
  have hi0 : (i 0).val < 200000 := (i 0).isLt
  have hi1 : (i 1).val < 1 := (i 1).isLt
  have hN : cfg12.N = 10 := N_12
  have hlt : (i 0).val / 20000 < cfg12.N := by omega
  obtain ⟨t, ht⟩ : ∃ t : Fin cfg12.N, t.val = (i 0).val / 20000 := ⟨⟨(i 0).val / 20000, hlt⟩, rfl⟩
  obtain ⟨e0, e1, e2, e3, e4, e5⟩ := idx_facts12 t
  refine ⟨t, flush12_2 t, ?_⟩
  rw [mem_blk12]
  intro a
  match a with
  | ⟨0, _⟩ =>
    show win12_2.index t (0 : Fin 2) * 20000 ≤ (i 0).val ∧ (i 0).val < win12_2.index t (0 : Fin 2) * 20000 + 20000
    omega
  | ⟨1, _⟩ =>
    show win12_2.index t (1 : Fin 2) * 1 ≤ (i 1).val ∧ (i 1).val < win12_2.index t (1 : Fin 2) * 1 + 1
    omega

/-- THE OUTPUT ARRAY when the region ends: the matrix product of the two arrays as the region found them. -/
theorem final12 (c : Dev nD) : (dat12 V c).arrAt 2 cfg12.N
    = (fun i => Cert.Lib.dense (M := 200000) (K := 64) (N := 1) (V c main_v689) (V c main_arg6) i) :=
  (dat12 V c).arrAt_eq_of_cover 2 _ (fun t _ => flushed_eq12 V c t) cover12

end Cert.KernelIdeal.RegVal

end
-- ==== Proof.RegVal13.lean ====
/-
  Region 13 of the kernel program adds a one-entry bias to every entry of a 200000 × 1 column, ten row blocks of 20000
  rows at a time. Written here: the body's stored value at an entry of a block (`bias_block13_apply`: the block's entry
  plus the bias's one entry), the printed index maps over the ten grid points (`block_indices13`: the input and the
  output move together down the rows, the bias stays), what each point writes back as a block of one function of the
  arrays at region entry (`flushed13_eq`), the rows each block holds and that the ten blocks cover the array
  (`mem_blk13`, `cover13`), and the array when the region ends (`final13`): entry (r, 0) is x (r, 0) + b (0, 0).
-/
import proofs.«415904_j29016799052628_2_alg».proof.Proof.KernelIdealFrameP
import Idealize.ShloMosaic.Lib.Pipeline.Value
import Idealize.ShloMosaic.Lib.ValueIdx

set_option maxRecDepth 16384

noncomputable section

namespace Cert.KernelIdeal.RegVal

open Cert.KernelIdeal Cert.KernelIdeal.Gen Cert.KernelIdeal.GenP Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The body's loads and its store go through the whole staging buffer: offsets zero on both axes. -/
theorem zero_offsets13 : (![0, 0] : Fin 2 → Nat) = fun _ => 0 := funext fun a => by fin_cases a <;> rfl

/-! ## The stored value at an entry -/

/-- Entry (r, q) of what the body stores: the block's entry plus the bias's entry. The casts of a vector to its own
    shape are the identity, and the broadcast of the 1 × 1 matrix down the rows reads its one entry. -/
theorem bias_block13_apply (x0 : Vec Ideal S20000x1 .f32) (x1 : Vec Ideal S1x1 .f32) (r : Fin 20000) (q : Fin 1) :
    k13_pay1 (F := Ideal) x0 x1 (ValueIdx.ix2 r q) = x0 (ValueIdx.ix2 r q) + x1 (ValueIdx.ix2 (0 : Fin 1) q) := by
  unfold k13_pay1
  rw [shapeCast_self, shapeCast_self, shapeCast_self, ValueIdx.addf_apply]
  refine congrArg (fun z => x0 (ValueIdx.ix2 r q) + z) ?_
  refine broadcastTo_apply x1 _ (ValueIdx.ix2 r q) (ValueIdx.ix2 (0 : Fin 1) q) ?_
  intro a
  match a with
  | ⟨0, _⟩ => rfl
  | ⟨1, _⟩ => show q.val = 0; omega

/-- The same at any index of the block. -/
theorem bias_block13_at (x0 : Vec Ideal S20000x1 .f32) (x1 : Vec Ideal S1x1 .f32) (j : S20000x1.Idx) :
    k13_pay1 (F := Ideal) x0 x1 j = x0 j + x1 (ValueIdx.ix2 (0 : Fin 1) (j 1)) := by
  obtain ⟨r, q, rfl⟩ : ∃ (r : Fin 20000) (q : Fin 1), j = ValueIdx.ix2 r q := ⟨j 0, j 1, ValueIdx.eq_ix2 j⟩
  exact bias_block13_apply x0 x1 r q

/-! ## The index maps over the grid -/

/-- At grid point t the input's and the output's blocks are row block t (column block 0), and the bias's block is the
    whole 1 × 1 matrix: decided over the ten points. -/
theorem block_indices13 : ∀ t : Fin cfg13.N, win13_0.index t (0 : Fin 2) = win13_2.index t (0 : Fin 2)
    ∧ win13_0.index t (1 : Fin 2) = 0
    ∧ win13_1.index t (0 : Fin 2) = 0
    ∧ win13_1.index t (1 : Fin 2) = 0
    ∧ win13_2.index t (1 : Fin 2) = 0
    ∧ win13_2.index t (0 : Fin 2) = t.val :=
  (by decide +kernel : ∀ t : Fin grid13.N, _)

/-! ## What a point writes back -/

/-- Point t writes back block t of x + b: the input's block sits on the same rows as the output's, and the bias is read
    at row 0 and the entry's own column (the only one). -/
theorem flushed13_eq (c : Dev nD) (t : Fin cfg13.N) :
    (dat13 V c).flushed 2 t = ((cfg13.win 2).blk t).view.read (Elt Ideal)
      (fun i => HAdd.hAdd (α := EReal) (β := EReal) (γ := EReal) (V c main_v702 i) (V c main_v703 (ValueIdx.ix2 (0 : Fin 1) (i 1)))) := by
  show (cfg13.win 2).cut (grid13.coords t) ((dat13 V c).after 2 t) = _
  rw [after13_2]
  unfold out13_2
  rw [View.canon_unit_zero zero_offsets13]
  simp only [View.ld_unit_zero (S := S20000x1) zero_offsets13, View.ld_unit_zero (S := S1x1) zero_offsets13]
  obtain ⟨e0, e1, e2, e3, e4, e5⟩ := block_indices13 t
  funext j
  show k13_pay1 (F := Ideal) (iblk13 V c 0 t) (iblk13 V c 1 t) j
      = HAdd.hAdd (α := EReal) (β := EReal) (γ := EReal) (V c main_v702 (((cfg13.win 2).blk t).view.emb j))
          (V c main_v703 (ValueIdx.ix2 (0 : Fin 1) ((((cfg13.win 2).blk t).view.emb j) 1)))
  refine (bias_block13_at _ _ j).trans ?_
  show HAdd.hAdd (α := EReal) (β := EReal) (γ := EReal) (V c main_v702 (((cfg13.win 0).blk t).view.emb j))
        (V c main_v703 (((cfg13.win 1).blk t).view.emb (ValueIdx.ix2 (0 : Fin 1) (j 1) : S1x1.Idx)))
      = _
  -- the input's block element sits where the output's does
  have h0 : ((cfg13.win 0).blk t).view.emb j = ((cfg13.win 2).blk t).view.emb j := by
    funext a; apply Fin.ext
    match a with
    | ⟨0, _⟩ => show win13_0.index t (0 : Fin 2) * 20000 + 1 * (j 0).val = win13_2.index t (0 : Fin 2) * 20000 + 1 * (j 0).val; omega
    | ⟨1, _⟩ => show win13_0.index t (1 : Fin 2) * 1 + 1 * (j 1).val = win13_2.index t (1 : Fin 2) * 1 + 1 * (j 1).val; omega
  -- the bias's element (0, q) is the array's (0, q)
  have h1 : ((cfg13.win 1).blk t).view.emb (ValueIdx.ix2 (0 : Fin 1) (j 1) : S1x1.Idx)
      = (ValueIdx.ix2 (0 : Fin 1) ((((cfg13.win 2).blk t).view.emb j) 1) : S1x1.Idx) := by
    funext a; apply Fin.ext
    match a with
    | ⟨0, _⟩ => show win13_1.index t (0 : Fin 2) * 1 + 1 * 0 = 0; omega
    | ⟨1, _⟩ => show win13_1.index t (1 : Fin 2) * 1 + 1 * (j 1).val = win13_2.index t (1 : Fin 2) * 1 + 1 * (j 1).val; omega
  rw [h0, h1]

/-! ## The blocks cover the array -/

/-- An index of the array is in point t's block iff each coordinate is in the block's range on its axis. -/
theorem mem_blk13 (t : Fin cfg13.N) (i : S200000x1.Idx) :
    i ∈ ((cfg13.win 2).blk t).view.set ↔ ∀ a : Fin 2, win13_2.index t a * S20000x1.size a ≤ (i a).val ∧ (i a).val < win13_2.index t a * S20000x1.size a + S20000x1.size a := by
  show i ∈ ((View.whole main_v704).slice (win13_2.rect t)).set ↔ _
  rw [View.set_slice_whole, Rect.mem_set_unit]
  exact Iff.rfl

/-- Row r lies in the block of point r / 20000, which writes back: the ten row blocks cover all 200000 rows, and each
    holds whole rows. -/
theorem cover13 (i : S200000x1.Idx) :
    ∃ t : Fin cfg13.N, (cfg13.win 2).flush t = true ∧ i ∈ ((cfg13.win 2).blk t).view.set := by
  have hi0 : (i 0).val < 200000 := (i 0).isLt
  have hi1 : (i 1).val < 1 := (i 1).isLt
  have hN : cfg13.N = 10 := N_13
  obtain ⟨t, ht⟩ : ∃ t : Fin cfg13.N, t.val = (i 0).val / 20000 := ⟨⟨(i 0).val / 20000, by rw [hN]; omega⟩, rfl⟩
  obtain ⟨e0, e1, e2, e3, e4, e5⟩ := block_indices13 t
  refine ⟨t, flush13_2 t, ?_⟩
  rw [mem_blk13]
  intro a
  match a with
  | ⟨0, _⟩ => show win13_2.index t (0 : Fin 2) * 20000 ≤ (i 0).val ∧ (i 0).val < win13_2.index t (0 : Fin 2) * 20000 + 20000; omega
  | ⟨1, _⟩ => show win13_2.index t (1 : Fin 2) * 1 ≤ (i 1).val ∧ (i 1).val < win13_2.index t (1 : Fin 2) * 1 + 1; omega

/-! ## The array when the region ends -/

/-- The output array when region 13 ends: entry i is x i plus the bias's entry in i's column, whatever the arrays held
    at region entry. -/
theorem final13 (c : Dev nD) : (dat13 V c).arrAt 2 cfg13.N
    = (fun i => HAdd.hAdd (α := EReal) (β := EReal) (γ := EReal) (V c main_v702 i) (V c main_v703 (ValueIdx.ix2 (0 : Fin 1) (i 1)))) :=
  (dat13 V c).arrAt_eq_of_cover 2 _ (fun t _ => flushed13_eq V c t) (cover13)

end Cert.KernelIdeal.RegVal

end
-- ==== Proof.KNet.lean ====
/-
  The kernel program's result buffer as the network's function of the arguments.

  The ten orthogonal layers compose: each starts from the features the one before left, so after layer k the
  features are `hidden k`. The last three steps are the plain product with W11, one propagation step on a single
  feature, and the last bias; the final host operation appends the two unit axes.
-/
import proofs.«415904_j29016799052628_2_alg».proof.Proof.KernelIdealFrameP
import proofs.«415904_j29016799052628_2_alg».proof.Proof.SpecNet
import proofs.«415904_j29016799052628_2_alg».proof.Proof.KKeep
import proofs.«415904_j29016799052628_2_alg».proof.Proof.KChain0
import proofs.«415904_j29016799052628_2_alg».proof.Proof.KLayer0
import proofs.«415904_j29016799052628_2_alg».proof.Proof.KLayer1
import proofs.«415904_j29016799052628_2_alg».proof.Proof.KLayer2
import proofs.«415904_j29016799052628_2_alg».proof.Proof.KLayer3
import proofs.«415904_j29016799052628_2_alg».proof.Proof.KLayer4
import proofs.«415904_j29016799052628_2_alg».proof.Proof.KLayer5
import proofs.«415904_j29016799052628_2_alg».proof.Proof.KLayer6
import proofs.«415904_j29016799052628_2_alg».proof.Proof.KLayer7
import proofs.«415904_j29016799052628_2_alg».proof.Proof.KLayer8
import proofs.«415904_j29016799052628_2_alg».proof.Proof.KLayer9
import proofs.«415904_j29016799052628_2_alg».proof.Proof.RegVal12
import proofs.«415904_j29016799052628_2_alg».proof.Proof.RegVal13
import proofs.«415904_j29016799052628_2_alg».proof.Proof.LibBias
import Idealize.ShloMosaic.Lib.StableHlo.Run

set_option maxRecDepth 16384

noncomputable section

namespace Cert.KernelIdeal.KChain

open Cert.KernelIdeal Cert.KernelIdeal.Gen Cert.KernelIdeal.GenP Cert.KernelIdeal.KKeep Idealize.ShloMosaic Idealize.ShloMosaic.TcCoe Idealize.SL.Sem
open Idealize.ShloMosaic.StableHlo
open Cert.KernelIdeal.RegVal

/-! ## What the last host operations compute, for any float values -/

section Generic

variable {F : FTy → Type} [FloatOps F] (m : (ℓ : Loc nD τ sig) → Buf (Elt F) ℓ) (ρ : Dev nD → PrngReg)

set_option maxHeartbeats 2000000 in
theorem ops_v702 (c : Dev nD) : W28 m ρ c (Proc.devRef .tc main_v702) = Cert.Spec.prop1 (W27 m ρ c (Proc.devRef .tc main_v33)) (W27 m ρ c (Proc.devRef .tc main_v5))
    (W27 m ρ c (Proc.devRef .tc main_v6)) (W27 m ρ c (Proc.devRef .tc main_v690)) := by
  show StableHlo.after hostOps13 (W27 m ρ c) (Proc.devRef .tc main_v702) = _
  after_results_simp
  rfl

theorem ops_v703 (c : Dev nD) : W28 m ρ c (Proc.devRef .tc main_v703)
    = (fun i => shapeCast S1x1 (W27 m ρ c (Proc.devRef .tc main_arg7)) shapeCasts_S1_S1x1 i) := by
  show StableHlo.after hostOps13 (W27 m ρ c) (Proc.devRef .tc main_v703) = _
  after_results_simp
  rfl

theorem ops_v705 (c : Dev nD) : W30 m ρ c (Proc.devRef .tc main_v705)
    = broadcastInDim S200000x1x1 ![0, 1] bcast_S200000x1_S200000x1x1_0_1 (W29 m ρ c (Proc.devRef .tc main_v704)) := by
  show StableHlo.after hostOps14 (W29 m ρ c) (Proc.devRef .tc main_v705) = _
  after_results_simp

end Generic

variable (m : (ℓ : Loc nD τ sig) → Buf (Elt Ideal) ℓ) (ρ : Dev nD → PrngReg)

/-! ## The hidden features after each layer -/

theorem hidden_W8 (c : Dev nD) : W8 m ρ c (Proc.devRef .tc main_v113) = Cert.Spec.hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) 1 := by
  rw [layer0, W6_v49]
  rfl

theorem hidden_W10 (c : Dev nD) : W10 m ρ c (Proc.devRef .tc main_v177) = Cert.Spec.hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) 2 := by
  rw [layer1, hidden_W8]
  rfl

theorem hidden_W12 (c : Dev nD) : W12 m ρ c (Proc.devRef .tc main_v241) = Cert.Spec.hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) 3 := by
  rw [layer2, hidden_W10]
  rfl

theorem hidden_W14 (c : Dev nD) : W14 m ρ c (Proc.devRef .tc main_v305) = Cert.Spec.hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) 4 := by
  rw [layer3, hidden_W12]
  rfl

theorem hidden_W16 (c : Dev nD) : W16 m ρ c (Proc.devRef .tc main_v369) = Cert.Spec.hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) 5 := by
  rw [layer4, hidden_W14]
  rfl

theorem hidden_W18 (c : Dev nD) : W18 m ρ c (Proc.devRef .tc main_v433) = Cert.Spec.hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) 6 := by
  rw [layer5, hidden_W16]
  rfl

theorem hidden_W20 (c : Dev nD) : W20 m ρ c (Proc.devRef .tc main_v497) = Cert.Spec.hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) 7 := by
  rw [layer6, hidden_W18]
  rfl

theorem hidden_W22 (c : Dev nD) : W22 m ρ c (Proc.devRef .tc main_v561) = Cert.Spec.hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) 8 := by
  rw [layer7, hidden_W20]
  rfl

theorem hidden_W24 (c : Dev nD) : W24 m ρ c (Proc.devRef .tc main_v625) = Cert.Spec.hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) 9 := by
  rw [layer8, hidden_W22]
  rfl

theorem hidden_W26 (c : Dev nD) : W26 m ρ c (Proc.devRef .tc main_v689) = Cert.Spec.hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) 10 := by
  rw [layer9, hidden_W24]
  rfl

/-! ## The output layer -/

/-- The features times W11, a plain product. -/
theorem W27_v690 (c : Dev nD) : W27 m ρ c (Proc.devRef .tc main_v690)
    = (fun i => Cert.Lib.dense (M := 200000) (K := 64) (N := 1) (Cert.Spec.hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) 10) (m ((c : Thread nD τ).loc main_arg6)) i) := by
  refine (W27_arr m ρ c 2).trans ((final12 (V26 m ρ) c).trans ?_)
  have e1 : V26 m ρ c main_v689 = _ := hidden_W26 m ρ c
  have e2 : V26 m ρ c main_arg6 = (m ((c : Thread nD τ).loc main_arg6)) := (keepL_W26 m ρ c main_arg6 (by decide)).trans (W3_arg6 m ρ c)
  rw [e1, e2]

set_option maxHeartbeats 2000000 in
/-- One propagation step of that single feature. -/
theorem W28_v702 (c : Dev nD) : W28 m ρ c (Proc.devRef .tc main_v702)
    = Cert.Spec.prop1 (Cert.Spec.normOf (m ((c : Thread nD τ).loc main_arg1)) (m ((c : Thread nD τ).loc main_arg2))) (Cert.Spec.rowIx (m ((c : Thread nD τ).loc main_arg1))) (Cert.Spec.colIx (m ((c : Thread nD τ).loc main_arg1)))
        (fun i => Cert.Lib.dense (M := 200000) (K := 64) (N := 1) (Cert.Spec.hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) 10) (m ((c : Thread nD τ).loc main_arg6)) i) := by
  rw [ops_v702, keepL'_W27 m ρ c main_v33 (by decide), keepL'_W27 m ρ c main_v5 (by decide), keepL'_W27 m ρ c main_v6 (by decide),
    W3_v33, W3_v5, W3_v6, W27_v690]

/-- The last bias as a 1 × 1 array. -/
theorem W28_v703 (c : Dev nD) : W28 m ρ c (Proc.devRef .tc main_v703)
    = (fun i => shapeCast S1x1 (m ((c : Thread nD τ).loc main_arg7)) shapeCasts_S1_S1x1 i) := by
  rw [ops_v703, keepL'_W27 m ρ c main_arg7 (by decide), W3_arg7]

/-- The last call adds it to every entry. -/
theorem W29_v704 (c : Dev nD) : W29 m ρ c (Proc.devRef .tc main_v704)
    = Cert.Spec.biasRows1 (Cert.Spec.prop1 (Cert.Spec.normOf (m ((c : Thread nD τ).loc main_arg1)) (m ((c : Thread nD τ).loc main_arg2))) (Cert.Spec.rowIx (m ((c : Thread nD τ).loc main_arg1))) (Cert.Spec.colIx (m ((c : Thread nD τ).loc main_arg1)))
        (fun i => Cert.Lib.dense (M := 200000) (K := 64) (N := 1) (Cert.Spec.hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) 10) (m ((c : Thread nD τ).loc main_arg6)) i)) (m ((c : Thread nD τ).loc main_arg7)) := by
  refine (W29_arr m ρ c 2).trans ((final13 (V28 m ρ) c).trans ?_)
  have e1 : V28 m ρ c main_v702 = _ := W28_v702 m ρ c
  have e2 : V28 m ρ c main_v703 = _ := W28_v703 m ρ c
  rw [e1, e2]
  funext i
  exact congrArg (_ + ·) (Cert.Lib.reshape_row1_apply shapeCasts_S1_S1x1 (m ((c : Thread nD τ).loc main_arg7)) 0 (i 1))

/-- The result: the two unit axes appended. -/
theorem W30_v705 (c : Dev nD) : W30 m ρ c (Proc.devRef .tc main_v705)
    = Cert.Spec.output (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [ops_v705, W29_v704]
  rfl

end Cert.KernelIdeal.KChain

end
-- ==== Proof.RefOps0.lean ====
/- The pieces 0 … 6 of the reference program's 865 host operations in order (27 pieces in all; a called function's
   operations in its call's place); per piece: every operation touches TensorCore references only and determines what it
   writes, the references the piece writes, and every operation writes inside that list.
-/
import proofs.«415904_j29016799052628_2_alg».proof.Proof.Gen.ReferenceIdeal
import Idealize.ShloMosaic.Lib.StableHlo.Run

set_option maxRecDepth 16384
set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- Operations 1 … 45 of the reference program, in order. -/
abbrev refP0 : List (HloOp τ sig (Elt F)) :=
  [ unary main_arg1 main_v0 ((extractStridedSlice S1x1200000 ![0, 0] · slices_S2x1200000_S1x1200000_0_0) : (⟨S2x1200000, .i32⟩ : BufTy).Contents (Elt F) → (⟨S1x1200000, .i32⟩ : BufTy).Contents (Elt F)),
    reshape main_v0 main_v1 rfl shapeCasts_S1x1200000_S1200000,
    unary main_arg1 main_v2 ((extractStridedSlice S1x1200000 ![1, 0] · slices_S2x1200000_S1x1200000_1_0) : (⟨S2x1200000, .i32⟩ : BufTy).Contents (Elt F) → (⟨S1x1200000, .i32⟩ : BufTy).Contents (Elt F)),
    reshape main_v2 main_v3 rfl shapeCasts_S1x1200000_S1200000,
    nullary main_v4 (iotaInDim S200000 32 0),
    binary main_v1 main_v4 main_v5 ((fun a b => concatenate S1400000 0 [⟨S1200000, a⟩, ⟨S200000, b⟩] concatenates_S1200000_S200000_S1400000_d0) : (⟨S1200000, .i32⟩ : BufTy).Contents (Elt F) → (⟨S200000, .i32⟩ : BufTy).Contents (Elt F) → (⟨S1400000, .i32⟩ : BufTy).Contents (Elt F)),
    binary main_v3 main_v4 main_v6 ((fun a b => concatenate S1400000 0 [⟨S1200000, a⟩, ⟨S200000, b⟩] concatenates_S1200000_S200000_S1400000_d0) : (⟨S1200000, .i32⟩ : BufTy).Contents (Elt F) → (⟨S200000, .i32⟩ : BufTy).Contents (Elt F) → (⟨S1400000, .i32⟩ : BufTy).Contents (Elt F)),
    nullary main_cst (constant S_ .f32 0x3F800000#32),
    unary main_cst main_v7 (broadcastInDim S200000 ![] bcast_S_S200000 : (⟨S_, .f32⟩ : BufTy).Contents (Elt F) → (⟨S200000, .f32⟩ : BufTy).Contents (Elt F)),
    binary main_arg2 main_v7 main_v8 ((fun a b => concatenate S1400000 0 [⟨S1200000, a⟩, ⟨S200000, b⟩] concatenates_S1200000_S200000_S1400000_d0) : (⟨S1200000, .f32⟩ : BufTy).Contents (Elt F) → (⟨S200000, .f32⟩ : BufTy).Contents (Elt F) → (⟨S1400000, .f32⟩ : BufTy).Contents (Elt F)),
    nullary main_cst_0 (constant S_ .f32 0x00000000#32),
    unary main_cst_0 main_v9 (broadcastInDim S200000 ![] bcast_S_S200000 : (⟨S_, .f32⟩ : BufTy).Contents (Elt F) → (⟨S200000, .f32⟩ : BufTy).Contents (Elt F)),
    unary main_v6 main_v10 (broadcastInDim S1400000x1 ![0] bcast_S1400000_S1400000x1_0 : (⟨S1400000, .i32⟩ : BufTy).Contents (Elt F) → (⟨S1400000x1, .i32⟩ : BufTy).Contents (Elt F)),
    ternary main_v9 main_v10 main_v8 main_v11 ((fun x i u => Host.scatterAdd scatter_S200000_S1400000x1_S1400000_n_0_0_1 x i u) : (⟨S200000, .f32⟩ : BufTy).Contents (Elt F) → (⟨S1400000x1, .i32⟩ : BufTy).Contents (Elt F) → (⟨S1400000, .f32⟩ : BufTy).Contents (Elt F) → (⟨S200000, .f32⟩ : BufTy).Contents (Elt F)),
    nullary main_cst_1 (constant S_ .f32 0x00000000#32),
    unary main_cst_1 main_v12 (broadcastInDim S200000 ![] bcast_S_S200000 : (⟨S_, .f32⟩ : BufTy).Contents (Elt F) → (⟨S200000, .f32⟩ : BufTy).Contents (Elt F)),
    binary main_v11 main_v12 main_v13 (cmpf .ogt : (⟨S200000, .f32⟩ : BufTy).Contents (Elt F) → (⟨S200000, .f32⟩ : BufTy).Contents (Elt F) → (⟨S200000, .i1⟩ : BufTy).Contents (Elt F)),
    nullary main_cst_2 (constant S_ .f32 0x0DA24260#32),
    unary main_cst_2 main_v14 (broadcastInDim S200000 ![] bcast_S_S200000 : (⟨S_, .f32⟩ : BufTy).Contents (Elt F) → (⟨S200000, .f32⟩ : BufTy).Contents (Elt F)),
    binary main_v11 main_v14 main_v15 (maximumf : (⟨S200000, .f32⟩ : BufTy).Contents (Elt F) → (⟨S200000, .f32⟩ : BufTy).Contents (Elt F) → (⟨S200000, .f32⟩ : BufTy).Contents (Elt F)),
    unary main_v15 main_v16 (Host.rsqrt : (⟨S200000, .f32⟩ : BufTy).Contents (Elt F) → (⟨S200000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S200000, .f32⟩) main_call0_v1) (broadcastInDim S200000 ![] bcast_S_S200000),
    TRef.ternary (TRef.of (T := ⟨S200000, .i1⟩) main_v13) (TRef.of (T := ⟨S200000, .f32⟩) main_v16) (TRef.of (T := ⟨S200000, .f32⟩) main_call0_v1) (TRef.of (T := ⟨S200000, .f32⟩) main_v17) select,
    nullary main_c (constantI S_ 32 0#32),
    unary main_c main_v18 (broadcastInDim S1400000 ![] bcast_S_S1400000 : (⟨S_, .i32⟩ : BufTy).Contents (Elt F) → (⟨S1400000, .i32⟩ : BufTy).Contents (Elt F)),
    binary main_v5 main_v18 main_v19 (cmpi .slt : (⟨S1400000, .i32⟩ : BufTy).Contents (Elt F) → (⟨S1400000, .i32⟩ : BufTy).Contents (Elt F) → (⟨S1400000, .i1⟩ : BufTy).Contents (Elt F)),
    nullary main_c_4 (constantI S_ 32 200000#32),
    unary main_c_4 main_v20 (broadcastInDim S1400000 ![] bcast_S_S1400000 : (⟨S_, .i32⟩ : BufTy).Contents (Elt F) → (⟨S1400000, .i32⟩ : BufTy).Contents (Elt F)),
    binary main_v5 main_v20 main_v21 (addi : (⟨S1400000, .i32⟩ : BufTy).Contents (Elt F) → (⟨S1400000, .i32⟩ : BufTy).Contents (Elt F) → (⟨S1400000, .i32⟩ : BufTy).Contents (Elt F)),
    ternary main_v19 main_v21 main_v5 main_v22 (select : (⟨S1400000, .i1⟩ : BufTy).Contents (Elt F) → (⟨S1400000, .i32⟩ : BufTy).Contents (Elt F) → (⟨S1400000, .i32⟩ : BufTy).Contents (Elt F) → (⟨S1400000, .i32⟩ : BufTy).Contents (Elt F)),
    unary main_v22 main_v23 (broadcastInDim S1400000x1 ![0] bcast_S1400000_S1400000x1_0 : (⟨S1400000, .i32⟩ : BufTy).Contents (Elt F) → (⟨S1400000x1, .i32⟩ : BufTy).Contents (Elt F)),
    binary main_v17 main_v23 main_v24 ((fun x i => Host.gather gather_S200000_S1400000x1_S1400000_n_0_n_n_0_1_1 x i) : (⟨S200000, .f32⟩ : BufTy).Contents (Elt F) → (⟨S1400000x1, .i32⟩ : BufTy).Contents (Elt F) → (⟨S1400000, .f32⟩ : BufTy).Contents (Elt F)),
    binary main_v24 main_v8 main_v25 (mulf : (⟨S1400000, .f32⟩ : BufTy).Contents (Elt F) → (⟨S1400000, .f32⟩ : BufTy).Contents (Elt F) → (⟨S1400000, .f32⟩ : BufTy).Contents (Elt F)),
    nullary main_c_5 (constantI S_ 32 0#32),
    unary main_c_5 main_v26 (broadcastInDim S1400000 ![] bcast_S_S1400000 : (⟨S_, .i32⟩ : BufTy).Contents (Elt F) → (⟨S1400000, .i32⟩ : BufTy).Contents (Elt F)),
    binary main_v6 main_v26 main_v27 (cmpi .slt : (⟨S1400000, .i32⟩ : BufTy).Contents (Elt F) → (⟨S1400000, .i32⟩ : BufTy).Contents (Elt F) → (⟨S1400000, .i1⟩ : BufTy).Contents (Elt F)),
    nullary main_c_6 (constantI S_ 32 200000#32),
    unary main_c_6 main_v28 (broadcastInDim S1400000 ![] bcast_S_S1400000 : (⟨S_, .i32⟩ : BufTy).Contents (Elt F) → (⟨S1400000, .i32⟩ : BufTy).Contents (Elt F)),
    binary main_v6 main_v28 main_v29 (addi : (⟨S1400000, .i32⟩ : BufTy).Contents (Elt F) → (⟨S1400000, .i32⟩ : BufTy).Contents (Elt F) → (⟨S1400000, .i32⟩ : BufTy).Contents (Elt F)),
    ternary main_v27 main_v29 main_v6 main_v30 (select : (⟨S1400000, .i1⟩ : BufTy).Contents (Elt F) → (⟨S1400000, .i32⟩ : BufTy).Contents (Elt F) → (⟨S1400000, .i32⟩ : BufTy).Contents (Elt F) → (⟨S1400000, .i32⟩ : BufTy).Contents (Elt F)),
    unary main_v30 main_v31 (broadcastInDim S1400000x1 ![0] bcast_S1400000_S1400000x1_0 : (⟨S1400000, .i32⟩ : BufTy).Contents (Elt F) → (⟨S1400000x1, .i32⟩ : BufTy).Contents (Elt F)),
    binary main_v17 main_v31 main_v32 ((fun x i => Host.gather gather_S200000_S1400000x1_S1400000_n_0_n_n_0_1_1 x i) : (⟨S200000, .f32⟩ : BufTy).Contents (Elt F) → (⟨S1400000x1, .i32⟩ : BufTy).Contents (Elt F) → (⟨S1400000, .f32⟩ : BufTy).Contents (Elt F)),
    binary main_v25 main_v32 main_v33 (mulf : (⟨S1400000, .f32⟩ : BufTy).Contents (Elt F) → (⟨S1400000, .f32⟩ : BufTy).Contents (Elt F) → (⟨S1400000, .f32⟩ : BufTy).Contents (Elt F)) ]
theorem refP0_sub : (refP0 : List (HloOp τ sig (Elt F))).Forall fun op => op.bufs ⊆ tcRefs τ sig :=
  ⟨unary_bufs_sub .., reshape_bufs_sub .., unary_bufs_sub .., reshape_bufs_sub .., nullary_bufs_sub .., binary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩
theorem refP0_fresh : (refP0 : List (HloOp τ sig (Elt F))).Forall fun op => op.fresh = ∅ := by
  simp only [List.Forall]; repeat' constructor
/-- The references the operations 1 … 45 write. -/
abbrev refP0_W : List (Ref sig .tc) := [main_v0, main_v1, main_v2, main_v3, main_v4, main_v5, main_v6, main_cst, main_v7, main_v8, main_cst_0, main_v9, main_v10, main_v11, main_cst_1, main_v12, main_v13, main_cst_2, main_v14, main_v15, main_v16, main_cst_3, main_call0_v0, main_call0_v1, main_v17, main_c, main_v18, main_v19, main_c_4, main_v20, main_v21, main_v22, main_v23, main_v24, main_v25, main_c_5, main_v26, main_v27, main_c_6, main_v28, main_v29, main_v30, main_v31, main_v32, main_v33]
set_option maxHeartbeats 4000000 in
theorem refP0_writes : (refP0 : List (HloOp τ sig (Elt F))).Forall fun op => op.writes ⊆ (refP0_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide)⟩

set_option maxHeartbeats 4000000 in
/-- Operations 46 … 62 of the reference program, in order. -/
abbrev refP1 : List (HloOp τ sig (Elt F)) :=
  [ binary main_arg0 main_arg3 main_v34 ((fun l r => Host.dotGeneral dot_S200000x1_S1x64_S200000x64_1_0_0_1_n_n none l r) : (⟨S200000x1, .f32⟩ : BufTy).Contents (Elt F) → (⟨S1x64, .f32⟩ : BufTy).Contents (Elt F) → (⟨S200000x64, .f32⟩ : BufTy).Contents (Elt F)),
    unary main_v33 main_v35 (broadcastInDim S1400000x1 ![0] bcast_S1400000_S1400000x1_0 : (⟨S1400000, .f32⟩ : BufTy).Contents (Elt F) → (⟨S1400000x1, .f32⟩ : BufTy).Contents (Elt F)),
    nullary main_c_7 (constantI S_ 32 0#32),
    unary main_c_7 main_v36 (broadcastInDim S1400000 ![] bcast_S_S1400000 : (⟨S_, .i32⟩ : BufTy).Contents (Elt F) → (⟨S1400000, .i32⟩ : BufTy).Contents (Elt F)),
    binary main_v5 main_v36 main_v37 (cmpi .slt : (⟨S1400000, .i32⟩ : BufTy).Contents (Elt F) → (⟨S1400000, .i32⟩ : BufTy).Contents (Elt F) → (⟨S1400000, .i1⟩ : BufTy).Contents (Elt F)),
    nullary main_c_8 (constantI S_ 32 200000#32),
    unary main_c_8 main_v38 (broadcastInDim S1400000 ![] bcast_S_S1400000 : (⟨S_, .i32⟩ : BufTy).Contents (Elt F) → (⟨S1400000, .i32⟩ : BufTy).Contents (Elt F)),
    binary main_v5 main_v38 main_v39 (addi : (⟨S1400000, .i32⟩ : BufTy).Contents (Elt F) → (⟨S1400000, .i32⟩ : BufTy).Contents (Elt F) → (⟨S1400000, .i32⟩ : BufTy).Contents (Elt F)),
    ternary main_v37 main_v39 main_v5 main_v40 (select : (⟨S1400000, .i1⟩ : BufTy).Contents (Elt F) → (⟨S1400000, .i32⟩ : BufTy).Contents (Elt F) → (⟨S1400000, .i32⟩ : BufTy).Contents (Elt F) → (⟨S1400000, .i32⟩ : BufTy).Contents (Elt F)),
    unary main_v40 main_v41 (broadcastInDim S1400000x1 ![0] bcast_S1400000_S1400000x1_0 : (⟨S1400000, .i32⟩ : BufTy).Contents (Elt F) → (⟨S1400000x1, .i32⟩ : BufTy).Contents (Elt F)),
    binary main_v34 main_v41 main_v42 ((fun x i => Host.gather gather_S200000x64_S1400000x1_S1400000x64_1_0_n_n_0_1_164 x i) : (⟨S200000x64, .f32⟩ : BufTy).Contents (Elt F) → (⟨S1400000x1, .i32⟩ : BufTy).Contents (Elt F) → (⟨S1400000x64, .f32⟩ : BufTy).Contents (Elt F)),
    unary main_v35 main_v43 (broadcastInDim S1400000x64 ![0, 1] bcast_S1400000x1_S1400000x64_0_1 : (⟨S1400000x1, .f32⟩ : BufTy).Contents (Elt F) → (⟨S1400000x64, .f32⟩ : BufTy).Contents (Elt F)),
    binary main_v43 main_v42 main_v44 (mulf : (⟨S1400000x64, .f32⟩ : BufTy).Contents (Elt F) → (⟨S1400000x64, .f32⟩ : BufTy).Contents (Elt F) → (⟨S1400000x64, .f32⟩ : BufTy).Contents (Elt F)),
    nullary main_cst_9 (constant S_ .f32 0x00000000#32),
    unary main_cst_9 main_v45 (broadcastInDim S200000x64 ![] bcast_S_S200000x64 : (⟨S_, .f32⟩ : BufTy).Contents (Elt F) → (⟨S200000x64, .f32⟩ : BufTy).Contents (Elt F)),
    unary main_v6 main_v46 (broadcastInDim S1400000x1 ![0] bcast_S1400000_S1400000x1_0 : (⟨S1400000, .i32⟩ : BufTy).Contents (Elt F) → (⟨S1400000x1, .i32⟩ : BufTy).Contents (Elt F)),
    ternary main_v45 main_v46 main_v44 main_v47 ((fun x i u => Host.scatterAdd scatter_S200000x64_S1400000x1_S1400000x64_1_0_0_1 x i u) : (⟨S200000x64, .f32⟩ : BufTy).Contents (Elt F) → (⟨S1400000x1, .i32⟩ : BufTy).Contents (Elt F) → (⟨S1400000x64, .f32⟩ : BufTy).Contents (Elt F) → (⟨S200000x64, .f32⟩ : BufTy).Contents (Elt F)) ]
theorem refP1_sub : (refP1 : List (HloOp τ sig (Elt F))).Forall fun op => op.bufs ⊆ tcRefs τ sig :=
  ⟨binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub ..⟩
theorem refP1_fresh : (refP1 : List (HloOp τ sig (Elt F))).Forall fun op => op.fresh = ∅ := by
  simp only [List.Forall]; repeat' constructor
/-- The references the operations 46 … 62 write. -/
abbrev refP1_W : List (Ref sig .tc) := [main_v34, main_v35, main_c_7, main_v36, main_v37, main_c_8, main_v38, main_v39, main_v40, main_v41, main_v42, main_v43, main_v44, main_cst_9, main_v45, main_v46, main_v47]
set_option maxHeartbeats 4000000 in
theorem refP1_writes : (refP1 : List (HloOp τ sig (Elt F))).Forall fun op => op.writes ⊆ (refP1_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide)⟩

set_option maxHeartbeats 4000000 in
/-- Operations 63 … 65 of the reference program, in order. -/
abbrev refP2 : List (HloOp τ sig (Elt F)) :=
  [ unary main_arg4 main_v48 (broadcastInDim S1x64 ![1] bcast_S64_S1x64_1 : (⟨S64, .f32⟩ : BufTy).Contents (Elt F) → (⟨S1x64, .f32⟩ : BufTy).Contents (Elt F)),
    unary main_v48 main_v49 (broadcastInDim S200000x64 ![0, 1] bcast_S1x64_S200000x64_0_1 : (⟨S1x64, .f32⟩ : BufTy).Contents (Elt F) → (⟨S200000x64, .f32⟩ : BufTy).Contents (Elt F)),
    binary main_v47 main_v49 main_v50 (addf : (⟨S200000x64, .f32⟩ : BufTy).Contents (Elt F) → (⟨S200000x64, .f32⟩ : BufTy).Contents (Elt F) → (⟨S200000x64, .f32⟩ : BufTy).Contents (Elt F)) ]
theorem refP2_sub : (refP2 : List (HloOp τ sig (Elt F))).Forall fun op => op.bufs ⊆ tcRefs τ sig :=
  ⟨unary_bufs_sub .., unary_bufs_sub .., binary_bufs_sub ..⟩
theorem refP2_fresh : (refP2 : List (HloOp τ sig (Elt F))).Forall fun op => op.fresh = ∅ := by
  simp only [List.Forall]; repeat' constructor
/-- The references the operations 63 … 65 write. -/
abbrev refP2_W : List (Ref sig .tc) := [main_v48, main_v49, main_v50]
set_option maxHeartbeats 4000000 in
theorem refP2_writes : (refP2 : List (HloOp τ sig (Elt F))).Forall fun op => op.writes ⊆ (refP2_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide)⟩

set_option maxHeartbeats 4000000 in
/-- Operations 66 … 122 of the reference program, in order. -/
abbrev refP3 : List (HloOp τ sig (Elt F)) :=
  [ unary main_arg5 main_v51 ((extractStridedSlice S1x64x64 ![0, 0, 0] · slices_S10x64x64_S1x64x64_0_0_0) : (⟨S10x64x64, .f32⟩ : BufTy).Contents (Elt F) → (⟨S1x64x64, .f32⟩ : BufTy).Contents (Elt F)),
    reshape main_v51 main_v52 rfl shapeCasts_S1x64x64_S64x64,
    unary main_v52 main_v53 ((transpose S64x64 [1, 0] · transposes_S64x64_S64x64_1_0) : (⟨S64x64, .f32⟩ : BufTy).Contents (Elt F) → (⟨S64x64, .f32⟩ : BufTy).Contents (Elt F)),
    binary main_v52 main_v53 main_v54 (subf : (⟨S64x64, .f32⟩ : BufTy).Contents (Elt F) → (⟨S64x64, .f32⟩ : BufTy).Contents (Elt F) → (⟨S64x64, .f32⟩ : BufTy).Contents (Elt F)),
    nullary main_v55 (iotaInDim S64x64 32 0),
    nullary main_v56 (iotaInDim S64x64 32 1),
    nullary main_c_10 (constantI S_ 32 0#32),
    unary main_c_10 main_v57 (broadcastInDim S64x64 ![] bcast_S_S64x64 : (⟨S_, .i32⟩ : BufTy).Contents (Elt F) → (⟨S64x64, .i32⟩ : BufTy).Contents (Elt F)),
    binary main_v55 main_v57 main_v58 (addi : (⟨S64x64, .i32⟩ : BufTy).Contents (Elt F) → (⟨S64x64, .i32⟩ : BufTy).Contents (Elt F) → (⟨S64x64, .i32⟩ : BufTy).Contents (Elt F)),
    binary main_v58 main_v56 main_v59 (cmpi .eq : (⟨S64x64, .i32⟩ : BufTy).Contents (Elt F) → (⟨S64x64, .i32⟩ : BufTy).Contents (Elt F) → (⟨S64x64, .i1⟩ : BufTy).Contents (Elt F)),
    unary main_v59 main_v60 (uitofp .f32 : (⟨S64x64, .i1⟩ : BufTy).Contents (Elt F) → (⟨S64x64, .f32⟩ : BufTy).Contents (Elt F)),
    binary main_v60 main_v54 main_v61 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_11 (constant S_ .f32 0x3F800000#32),
    unary main_cst_11 main_v62 (broadcastInDim S64x64 ![] bcast_S_S64x64 : (⟨S_, .f32⟩ : BufTy).Contents (Elt F) → (⟨S64x64, .f32⟩ : BufTy).Contents (Elt F)),
    binary main_v61 main_v62 main_v63 (Host.divf : (⟨S64x64, .f32⟩ : BufTy).Contents (Elt F) → (⟨S64x64, .f32⟩ : BufTy).Contents (Elt F) → (⟨S64x64, .f32⟩ : BufTy).Contents (Elt F)),
    binary main_v60 main_v63 main_v64 (addf : (⟨S64x64, .f32⟩ : BufTy).Contents (Elt F) → (⟨S64x64, .f32⟩ : BufTy).Contents (Elt F) → (⟨S64x64, .f32⟩ : BufTy).Contents (Elt F)),
    binary main_v63 main_v54 main_v65 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_12 (constant S_ .f32 0x40000000#32),
    unary main_cst_12 main_v66 (broadcastInDim S64x64 ![] bcast_S_S64x64 : (⟨S_, .f32⟩ : BufTy).Contents (Elt F) → (⟨S64x64, .f32⟩ : BufTy).Contents (Elt F)),
    binary main_v65 main_v66 main_v67 (Host.divf : (⟨S64x64, .f32⟩ : BufTy).Contents (Elt F) → (⟨S64x64, .f32⟩ : BufTy).Contents (Elt F) → (⟨S64x64, .f32⟩ : BufTy).Contents (Elt F)),
    binary main_v64 main_v67 main_v68 (addf : (⟨S64x64, .f32⟩ : BufTy).Contents (Elt F) → (⟨S64x64, .f32⟩ : BufTy).Contents (Elt F) → (⟨S64x64, .f32⟩ : BufTy).Contents (Elt F)),
    binary main_v67 main_v54 main_v69 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_13 (constant S_ .f32 0x40400000#32),
    unary main_cst_13 main_v70 (broadcastInDim S64x64 ![] bcast_S_S64x64 : (⟨S_, .f32⟩ : BufTy).Contents (Elt F) → (⟨S64x64, .f32⟩ : BufTy).Contents (Elt F)),
    binary main_v69 main_v70 main_v71 (Host.divf : (⟨S64x64, .f32⟩ : BufTy).Contents (Elt F) → (⟨S64x64, .f32⟩ : BufTy).Contents (Elt F) → (⟨S64x64, .f32⟩ : BufTy).Contents (Elt F)),
    binary main_v68 main_v71 main_v72 (addf : (⟨S64x64, .f32⟩ : BufTy).Contents (Elt F) → (⟨S64x64, .f32⟩ : BufTy).Contents (Elt F) → (⟨S64x64, .f32⟩ : BufTy).Contents (Elt F)),
    binary main_v71 main_v54 main_v73 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_14 (constant S_ .f32 0x40800000#32),
    unary main_cst_14 main_v74 (broadcastInDim S64x64 ![] bcast_S_S64x64 : (⟨S_, .f32⟩ : BufTy).Contents (Elt F) → (⟨S64x64, .f32⟩ : BufTy).Contents (Elt F)),
    binary main_v73 main_v74 main_v75 (Host.divf : (⟨S64x64, .f32⟩ : BufTy).Contents (Elt F) → (⟨S64x64, .f32⟩ : BufTy).Contents (Elt F) → (⟨S64x64, .f32⟩ : BufTy).Contents (Elt F)),
    binary main_v72 main_v75 main_v76 (addf : (⟨S64x64, .f32⟩ : BufTy).Contents (Elt F) → (⟨S64x64, .f32⟩ : BufTy).Contents (Elt F) → (⟨S64x64, .f32⟩ : BufTy).Contents (Elt F)),
    binary main_v75 main_v54 main_v77 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_15 (constant S_ .f32 0x40A00000#32),
    unary main_cst_15 main_v78 (broadcastInDim S64x64 ![] bcast_S_S64x64 : (⟨S_, .f32⟩ : BufTy).Contents (Elt F) → (⟨S64x64, .f32⟩ : BufTy).Contents (Elt F)),
    binary main_v77 main_v78 main_v79 (Host.divf : (⟨S64x64, .f32⟩ : BufTy).Contents (Elt F) → (⟨S64x64, .f32⟩ : BufTy).Contents (Elt F) → (⟨S64x64, .f32⟩ : BufTy).Contents (Elt F)),
    binary main_v76 main_v79 main_v80 (addf : (⟨S64x64, .f32⟩ : BufTy).Contents (Elt F) → (⟨S64x64, .f32⟩ : BufTy).Contents (Elt F) → (⟨S64x64, .f32⟩ : BufTy).Contents (Elt F)),
    binary main_v79 main_v54 main_v81 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_16 (constant S_ .f32 0x40C00000#32),
    unary main_cst_16 main_v82 (broadcastInDim S64x64 ![] bcast_S_S64x64 : (⟨S_, .f32⟩ : BufTy).Contents (Elt F) → (⟨S64x64, .f32⟩ : BufTy).Contents (Elt F)),
    binary main_v81 main_v82 main_v83 (Host.divf : (⟨S64x64, .f32⟩ : BufTy).Contents (Elt F) → (⟨S64x64, .f32⟩ : BufTy).Contents (Elt F) → (⟨S64x64, .f32⟩ : BufTy).Contents (Elt F)),
    binary main_v80 main_v83 main_v84 (addf : (⟨S64x64, .f32⟩ : BufTy).Contents (Elt F) → (⟨S64x64, .f32⟩ : BufTy).Contents (Elt F) → (⟨S64x64, .f32⟩ : BufTy).Contents (Elt F)),
    binary main_v83 main_v54 main_v85 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_17 (constant S_ .f32 0x40E00000#32),
    unary main_cst_17 main_v86 (broadcastInDim S64x64 ![] bcast_S_S64x64 : (⟨S_, .f32⟩ : BufTy).Contents (Elt F) → (⟨S64x64, .f32⟩ : BufTy).Contents (Elt F)),
    binary main_v85 main_v86 main_v87 (Host.divf : (⟨S64x64, .f32⟩ : BufTy).Contents (Elt F) → (⟨S64x64, .f32⟩ : BufTy).Contents (Elt F) → (⟨S64x64, .f32⟩ : BufTy).Contents (Elt F)),
    binary main_v84 main_v87 main_v88 (addf : (⟨S64x64, .f32⟩ : BufTy).Contents (Elt F) → (⟨S64x64, .f32⟩ : BufTy).Contents (Elt F) → (⟨S64x64, .f32⟩ : BufTy).Contents (Elt F)),
    binary main_v87 main_v54 main_v89 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_18 (constant S_ .f32 0x41000000#32),
    unary main_cst_18 main_v90 (broadcastInDim S64x64 ![] bcast_S_S64x64 : (⟨S_, .f32⟩ : BufTy).Contents (Elt F) → (⟨S64x64, .f32⟩ : BufTy).Contents (Elt F)),
    binary main_v89 main_v90 main_v91 (Host.divf : (⟨S64x64, .f32⟩ : BufTy).Contents (Elt F) → (⟨S64x64, .f32⟩ : BufTy).Contents (Elt F) → (⟨S64x64, .f32⟩ : BufTy).Contents (Elt F)),
    binary main_v88 main_v91 main_v92 (addf : (⟨S64x64, .f32⟩ : BufTy).Contents (Elt F) → (⟨S64x64, .f32⟩ : BufTy).Contents (Elt F) → (⟨S64x64, .f32⟩ : BufTy).Contents (Elt F)),
    binary main_v91 main_v54 main_v93 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_19 (constant S_ .f32 0x41100000#32),
    unary main_cst_19 main_v94 (broadcastInDim S64x64 ![] bcast_S_S64x64 : (⟨S_, .f32⟩ : BufTy).Contents (Elt F) → (⟨S64x64, .f32⟩ : BufTy).Contents (Elt F)),
    binary main_v93 main_v94 main_v95 (Host.divf : (⟨S64x64, .f32⟩ : BufTy).Contents (Elt F) → (⟨S64x64, .f32⟩ : BufTy).Contents (Elt F) → (⟨S64x64, .f32⟩ : BufTy).Contents (Elt F)),
    binary main_v92 main_v95 main_v96 (addf : (⟨S64x64, .f32⟩ : BufTy).Contents (Elt F) → (⟨S64x64, .f32⟩ : BufTy).Contents (Elt F) → (⟨S64x64, .f32⟩ : BufTy).Contents (Elt F)),
    binary main_v95 main_v54 main_v97 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)) ]
theorem refP3_sub : (refP3 : List (HloOp τ sig (Elt F))).Forall fun op => op.bufs ⊆ tcRefs τ sig :=
  ⟨unary_bufs_sub .., reshape_bufs_sub .., unary_bufs_sub .., binary_bufs_sub .., nullary_bufs_sub .., nullary_bufs_sub .., nullary_bufs_sub .., unary_bufs_sub .., binary_bufs_sub .., binary_bufs_sub .., unary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub ..⟩
theorem refP3_fresh : (refP3 : List (HloOp τ sig (Elt F))).Forall fun op => op.fresh = ∅ := by
  simp only [List.Forall]; repeat' constructor
/-- The references the operations 66 … 122 write. -/
abbrev refP3_W : List (Ref sig .tc) := [main_v51, main_v52, main_v53, main_v54, main_v55, main_v56, main_c_10, main_v57, main_v58, main_v59, main_v60, main_v61, main_cst_11, main_v62, main_v63, main_v64, main_v65, main_cst_12, main_v66, main_v67, main_v68, main_v69, main_cst_13, main_v70, main_v71, main_v72, main_v73, main_cst_14, main_v74, main_v75, main_v76, main_v77, main_cst_15, main_v78, main_v79, main_v80, main_v81, main_cst_16, main_v82, main_v83, main_v84, main_v85, main_cst_17, main_v86, main_v87, main_v88, main_v89, main_cst_18, main_v90, main_v91, main_v92, main_v93, main_cst_19, main_v94, main_v95, main_v96, main_v97]
set_option maxHeartbeats 4000000 in
theorem refP3_writes : (refP3 : List (HloOp τ sig (Elt F))).Forall fun op => op.writes ⊆ (refP3_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide)⟩

set_option maxHeartbeats 4000000 in
/-- Operations 123 … 143 of the reference program, in order. -/
abbrev refP4 : List (HloOp τ sig (Elt F)) :=
  [ nullary main_cst_20 (constant S_ .f32 0x41200000#32),
    unary main_cst_20 main_v98 (broadcastInDim S64x64 ![] bcast_S_S64x64 : (⟨S_, .f32⟩ : BufTy).Contents (Elt F) → (⟨S64x64, .f32⟩ : BufTy).Contents (Elt F)),
    binary main_v97 main_v98 main_v99 (Host.divf : (⟨S64x64, .f32⟩ : BufTy).Contents (Elt F) → (⟨S64x64, .f32⟩ : BufTy).Contents (Elt F) → (⟨S64x64, .f32⟩ : BufTy).Contents (Elt F)),
    binary main_v96 main_v99 main_v100 (addf : (⟨S64x64, .f32⟩ : BufTy).Contents (Elt F) → (⟨S64x64, .f32⟩ : BufTy).Contents (Elt F) → (⟨S64x64, .f32⟩ : BufTy).Contents (Elt F)),
    unary main_v33 main_v101 (broadcastInDim S1400000x1 ![0] bcast_S1400000_S1400000x1_0 : (⟨S1400000, .f32⟩ : BufTy).Contents (Elt F) → (⟨S1400000x1, .f32⟩ : BufTy).Contents (Elt F)),
    nullary main_c_21 (constantI S_ 32 0#32),
    unary main_c_21 main_v102 (broadcastInDim S1400000 ![] bcast_S_S1400000 : (⟨S_, .i32⟩ : BufTy).Contents (Elt F) → (⟨S1400000, .i32⟩ : BufTy).Contents (Elt F)),
    binary main_v5 main_v102 main_v103 (cmpi .slt : (⟨S1400000, .i32⟩ : BufTy).Contents (Elt F) → (⟨S1400000, .i32⟩ : BufTy).Contents (Elt F) → (⟨S1400000, .i1⟩ : BufTy).Contents (Elt F)),
    nullary main_c_22 (constantI S_ 32 200000#32),
    unary main_c_22 main_v104 (broadcastInDim S1400000 ![] bcast_S_S1400000 : (⟨S_, .i32⟩ : BufTy).Contents (Elt F) → (⟨S1400000, .i32⟩ : BufTy).Contents (Elt F)),
    binary main_v5 main_v104 main_v105 (addi : (⟨S1400000, .i32⟩ : BufTy).Contents (Elt F) → (⟨S1400000, .i32⟩ : BufTy).Contents (Elt F) → (⟨S1400000, .i32⟩ : BufTy).Contents (Elt F)),
    ternary main_v103 main_v105 main_v5 main_v106 (select : (⟨S1400000, .i1⟩ : BufTy).Contents (Elt F) → (⟨S1400000, .i32⟩ : BufTy).Contents (Elt F) → (⟨S1400000, .i32⟩ : BufTy).Contents (Elt F) → (⟨S1400000, .i32⟩ : BufTy).Contents (Elt F)),
    unary main_v106 main_v107 (broadcastInDim S1400000x1 ![0] bcast_S1400000_S1400000x1_0 : (⟨S1400000, .i32⟩ : BufTy).Contents (Elt F) → (⟨S1400000x1, .i32⟩ : BufTy).Contents (Elt F)),
    binary main_v50 main_v107 main_v108 ((fun x i => Host.gather gather_S200000x64_S1400000x1_S1400000x64_1_0_n_n_0_1_164 x i) : (⟨S200000x64, .f32⟩ : BufTy).Contents (Elt F) → (⟨S1400000x1, .i32⟩ : BufTy).Contents (Elt F) → (⟨S1400000x64, .f32⟩ : BufTy).Contents (Elt F)),
    unary main_v101 main_v109 (broadcastInDim S1400000x64 ![0, 1] bcast_S1400000x1_S1400000x64_0_1 : (⟨S1400000x1, .f32⟩ : BufTy).Contents (Elt F) → (⟨S1400000x64, .f32⟩ : BufTy).Contents (Elt F)),
    binary main_v109 main_v108 main_v110 (mulf : (⟨S1400000x64, .f32⟩ : BufTy).Contents (Elt F) → (⟨S1400000x64, .f32⟩ : BufTy).Contents (Elt F) → (⟨S1400000x64, .f32⟩ : BufTy).Contents (Elt F)),
    nullary main_cst_23 (constant S_ .f32 0x00000000#32),
    unary main_cst_23 main_v111 (broadcastInDim S200000x64 ![] bcast_S_S200000x64 : (⟨S_, .f32⟩ : BufTy).Contents (Elt F) → (⟨S200000x64, .f32⟩ : BufTy).Contents (Elt F)),
    unary main_v6 main_v112 (broadcastInDim S1400000x1 ![0] bcast_S1400000_S1400000x1_0 : (⟨S1400000, .i32⟩ : BufTy).Contents (Elt F) → (⟨S1400000x1, .i32⟩ : BufTy).Contents (Elt F)),
    ternary main_v111 main_v112 main_v110 main_v113 ((fun x i u => Host.scatterAdd scatter_S200000x64_S1400000x1_S1400000x64_1_0_0_1 x i u) : (⟨S200000x64, .f32⟩ : BufTy).Contents (Elt F) → (⟨S1400000x1, .i32⟩ : BufTy).Contents (Elt F) → (⟨S1400000x64, .f32⟩ : BufTy).Contents (Elt F) → (⟨S200000x64, .f32⟩ : BufTy).Contents (Elt F)),
    binary main_v113 main_v100 main_v114 ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F)) ]
theorem refP4_sub : (refP4 : List (HloOp τ sig (Elt F))).Forall fun op => op.bufs ⊆ tcRefs τ sig :=
  ⟨nullary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub ..⟩
theorem refP4_fresh : (refP4 : List (HloOp τ sig (Elt F))).Forall fun op => op.fresh = ∅ := by
  simp only [List.Forall]; repeat' constructor
/-- The references the operations 123 … 143 write. -/
abbrev refP4_W : List (Ref sig .tc) := [main_cst_20, main_v98, main_v99, main_v100, main_v101, main_c_21, main_v102, main_v103, main_c_22, main_v104, main_v105, main_v106, main_v107, main_v108, main_v109, main_v110, main_cst_23, main_v111, main_v112, main_v113, main_v114]
set_option maxHeartbeats 4000000 in
theorem refP4_writes : (refP4 : List (HloOp τ sig (Elt F))).Forall fun op => op.writes ⊆ (refP4_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide)⟩

set_option maxHeartbeats 4000000 in
/-- Operations 144 … 182 of the reference program, in order. -/
abbrev refP5 : List (HloOp τ sig (Elt F)) :=
  [ unary main_arg5 main_v115 ((extractStridedSlice S1x64x64 ![1, 0, 0] · slices_S10x64x64_S1x64x64_1_0_0) : (⟨S10x64x64, .f32⟩ : BufTy).Contents (Elt F) → (⟨S1x64x64, .f32⟩ : BufTy).Contents (Elt F)),
    reshape main_v115 main_v116 rfl shapeCasts_S1x64x64_S64x64,
    unary main_v116 main_v117 ((transpose S64x64 [1, 0] · transposes_S64x64_S64x64_1_0) : (⟨S64x64, .f32⟩ : BufTy).Contents (Elt F) → (⟨S64x64, .f32⟩ : BufTy).Contents (Elt F)),
    binary main_v116 main_v117 main_v118 (subf : (⟨S64x64, .f32⟩ : BufTy).Contents (Elt F) → (⟨S64x64, .f32⟩ : BufTy).Contents (Elt F) → (⟨S64x64, .f32⟩ : BufTy).Contents (Elt F)),
    nullary main_v119 (iotaInDim S64x64 32 0),
    nullary main_v120 (iotaInDim S64x64 32 1),
    nullary main_c_24 (constantI S_ 32 0#32),
    unary main_c_24 main_v121 (broadcastInDim S64x64 ![] bcast_S_S64x64 : (⟨S_, .i32⟩ : BufTy).Contents (Elt F) → (⟨S64x64, .i32⟩ : BufTy).Contents (Elt F)),
    binary main_v119 main_v121 main_v122 (addi : (⟨S64x64, .i32⟩ : BufTy).Contents (Elt F) → (⟨S64x64, .i32⟩ : BufTy).Contents (Elt F) → (⟨S64x64, .i32⟩ : BufTy).Contents (Elt F)),
    binary main_v122 main_v120 main_v123 (cmpi .eq : (⟨S64x64, .i32⟩ : BufTy).Contents (Elt F) → (⟨S64x64, .i32⟩ : BufTy).Contents (Elt F) → (⟨S64x64, .i1⟩ : BufTy).Contents (Elt F)),
    unary main_v123 main_v124 (uitofp .f32 : (⟨S64x64, .i1⟩ : BufTy).Contents (Elt F) → (⟨S64x64, .f32⟩ : BufTy).Contents (Elt F)),
    binary main_v124 main_v118 main_v125 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_25 (constant S_ .f32 0x3F800000#32),
    unary main_cst_25 main_v126 (broadcastInDim S64x64 ![] bcast_S_S64x64 : (⟨S_, .f32⟩ : BufTy).Contents (Elt F) → (⟨S64x64, .f32⟩ : BufTy).Contents (Elt F)),
    binary main_v125 main_v126 main_v127 (Host.divf : (⟨S64x64, .f32⟩ : BufTy).Contents (Elt F) → (⟨S64x64, .f32⟩ : BufTy).Contents (Elt F) → (⟨S64x64, .f32⟩ : BufTy).Contents (Elt F)),
    binary main_v124 main_v127 main_v128 (addf : (⟨S64x64, .f32⟩ : BufTy).Contents (Elt F) → (⟨S64x64, .f32⟩ : BufTy).Contents (Elt F) → (⟨S64x64, .f32⟩ : BufTy).Contents (Elt F)),
    binary main_v127 main_v118 main_v129 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_26 (constant S_ .f32 0x40000000#32),
    unary main_cst_26 main_v130 (broadcastInDim S64x64 ![] bcast_S_S64x64 : (⟨S_, .f32⟩ : BufTy).Contents (Elt F) → (⟨S64x64, .f32⟩ : BufTy).Contents (Elt F)),
    binary main_v129 main_v130 main_v131 (Host.divf : (⟨S64x64, .f32⟩ : BufTy).Contents (Elt F) → (⟨S64x64, .f32⟩ : BufTy).Contents (Elt F) → (⟨S64x64, .f32⟩ : BufTy).Contents (Elt F)),
    binary main_v128 main_v131 main_v132 (addf : (⟨S64x64, .f32⟩ : BufTy).Contents (Elt F) → (⟨S64x64, .f32⟩ : BufTy).Contents (Elt F) → (⟨S64x64, .f32⟩ : BufTy).Contents (Elt F)),
    binary main_v131 main_v118 main_v133 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_27 (constant S_ .f32 0x40400000#32),
    unary main_cst_27 main_v134 (broadcastInDim S64x64 ![] bcast_S_S64x64 : (⟨S_, .f32⟩ : BufTy).Contents (Elt F) → (⟨S64x64, .f32⟩ : BufTy).Contents (Elt F)),
    binary main_v133 main_v134 main_v135 (Host.divf : (⟨S64x64, .f32⟩ : BufTy).Contents (Elt F) → (⟨S64x64, .f32⟩ : BufTy).Contents (Elt F) → (⟨S64x64, .f32⟩ : BufTy).Contents (Elt F)),
    binary main_v132 main_v135 main_v136 (addf : (⟨S64x64, .f32⟩ : BufTy).Contents (Elt F) → (⟨S64x64, .f32⟩ : BufTy).Contents (Elt F) → (⟨S64x64, .f32⟩ : BufTy).Contents (Elt F)),
    binary main_v135 main_v118 main_v137 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_28 (constant S_ .f32 0x40800000#32),
    unary main_cst_28 main_v138 (broadcastInDim S64x64 ![] bcast_S_S64x64 : (⟨S_, .f32⟩ : BufTy).Contents (Elt F) → (⟨S64x64, .f32⟩ : BufTy).Contents (Elt F)),
    binary main_v137 main_v138 main_v139 (Host.divf : (⟨S64x64, .f32⟩ : BufTy).Contents (Elt F) → (⟨S64x64, .f32⟩ : BufTy).Contents (Elt F) → (⟨S64x64, .f32⟩ : BufTy).Contents (Elt F)),
    binary main_v136 main_v139 main_v140 (addf : (⟨S64x64, .f32⟩ : BufTy).Contents (Elt F) → (⟨S64x64, .f32⟩ : BufTy).Contents (Elt F) → (⟨S64x64, .f32⟩ : BufTy).Contents (Elt F)),
    binary main_v139 main_v118 main_v141 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_29 (constant S_ .f32 0x40A00000#32),
    unary main_cst_29 main_v142 (broadcastInDim S64x64 ![] bcast_S_S64x64 : (⟨S_, .f32⟩ : BufTy).Contents (Elt F) → (⟨S64x64, .f32⟩ : BufTy).Contents (Elt F)),
    binary main_v141 main_v142 main_v143 (Host.divf : (⟨S64x64, .f32⟩ : BufTy).Contents (Elt F) → (⟨S64x64, .f32⟩ : BufTy).Contents (Elt F) → (⟨S64x64, .f32⟩ : BufTy).Contents (Elt F)),
    binary main_v140 main_v143 main_v144 (addf : (⟨S64x64, .f32⟩ : BufTy).Contents (Elt F) → (⟨S64x64, .f32⟩ : BufTy).Contents (Elt F) → (⟨S64x64, .f32⟩ : BufTy).Contents (Elt F)),
    binary main_v143 main_v118 main_v145 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_30 (constant S_ .f32 0x40C00000#32),
    unary main_cst_30 main_v146 (broadcastInDim S64x64 ![] bcast_S_S64x64 : (⟨S_, .f32⟩ : BufTy).Contents (Elt F) → (⟨S64x64, .f32⟩ : BufTy).Contents (Elt F)) ]
theorem refP5_sub : (refP5 : List (HloOp τ sig (Elt F))).Forall fun op => op.bufs ⊆ tcRefs τ sig :=
  ⟨unary_bufs_sub .., reshape_bufs_sub .., unary_bufs_sub .., binary_bufs_sub .., nullary_bufs_sub .., nullary_bufs_sub .., nullary_bufs_sub .., unary_bufs_sub .., binary_bufs_sub .., binary_bufs_sub .., unary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub ..⟩
theorem refP5_fresh : (refP5 : List (HloOp τ sig (Elt F))).Forall fun op => op.fresh = ∅ := by
  simp only [List.Forall]; repeat' constructor
/-- The references the operations 144 … 182 write. -/
abbrev refP5_W : List (Ref sig .tc) := [main_v115, main_v116, main_v117, main_v118, main_v119, main_v120, main_c_24, main_v121, main_v122, main_v123, main_v124, main_v125, main_cst_25, main_v126, main_v127, main_v128, main_v129, main_cst_26, main_v130, main_v131, main_v132, main_v133, main_cst_27, main_v134, main_v135, main_v136, main_v137, main_cst_28, main_v138, main_v139, main_v140, main_v141, main_cst_29, main_v142, main_v143, main_v144, main_v145, main_cst_30, main_v146]
set_option maxHeartbeats 4000000 in
theorem refP5_writes : (refP5 : List (HloOp τ sig (Elt F))).Forall fun op => op.writes ⊆ (refP5_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide)⟩

set_option maxHeartbeats 4000000 in
/-- Operations 183 … 221 of the reference program, in order. -/
abbrev refP6 : List (HloOp τ sig (Elt F)) :=
  [ binary main_v145 main_v146 main_v147 (Host.divf : (⟨S64x64, .f32⟩ : BufTy).Contents (Elt F) → (⟨S64x64, .f32⟩ : BufTy).Contents (Elt F) → (⟨S64x64, .f32⟩ : BufTy).Contents (Elt F)),
    binary main_v144 main_v147 main_v148 (addf : (⟨S64x64, .f32⟩ : BufTy).Contents (Elt F) → (⟨S64x64, .f32⟩ : BufTy).Contents (Elt F) → (⟨S64x64, .f32⟩ : BufTy).Contents (Elt F)),
    binary main_v147 main_v118 main_v149 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_31 (constant S_ .f32 0x40E00000#32),
    unary main_cst_31 main_v150 (broadcastInDim S64x64 ![] bcast_S_S64x64 : (⟨S_, .f32⟩ : BufTy).Contents (Elt F) → (⟨S64x64, .f32⟩ : BufTy).Contents (Elt F)),
    binary main_v149 main_v150 main_v151 (Host.divf : (⟨S64x64, .f32⟩ : BufTy).Contents (Elt F) → (⟨S64x64, .f32⟩ : BufTy).Contents (Elt F) → (⟨S64x64, .f32⟩ : BufTy).Contents (Elt F)),
    binary main_v148 main_v151 main_v152 (addf : (⟨S64x64, .f32⟩ : BufTy).Contents (Elt F) → (⟨S64x64, .f32⟩ : BufTy).Contents (Elt F) → (⟨S64x64, .f32⟩ : BufTy).Contents (Elt F)),
    binary main_v151 main_v118 main_v153 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_32 (constant S_ .f32 0x41000000#32),
    unary main_cst_32 main_v154 (broadcastInDim S64x64 ![] bcast_S_S64x64 : (⟨S_, .f32⟩ : BufTy).Contents (Elt F) → (⟨S64x64, .f32⟩ : BufTy).Contents (Elt F)),
    binary main_v153 main_v154 main_v155 (Host.divf : (⟨S64x64, .f32⟩ : BufTy).Contents (Elt F) → (⟨S64x64, .f32⟩ : BufTy).Contents (Elt F) → (⟨S64x64, .f32⟩ : BufTy).Contents (Elt F)),
    binary main_v152 main_v155 main_v156 (addf : (⟨S64x64, .f32⟩ : BufTy).Contents (Elt F) → (⟨S64x64, .f32⟩ : BufTy).Contents (Elt F) → (⟨S64x64, .f32⟩ : BufTy).Contents (Elt F)),
    binary main_v155 main_v118 main_v157 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_33 (constant S_ .f32 0x41100000#32),
    unary main_cst_33 main_v158 (broadcastInDim S64x64 ![] bcast_S_S64x64 : (⟨S_, .f32⟩ : BufTy).Contents (Elt F) → (⟨S64x64, .f32⟩ : BufTy).Contents (Elt F)),
    binary main_v157 main_v158 main_v159 (Host.divf : (⟨S64x64, .f32⟩ : BufTy).Contents (Elt F) → (⟨S64x64, .f32⟩ : BufTy).Contents (Elt F) → (⟨S64x64, .f32⟩ : BufTy).Contents (Elt F)),
    binary main_v156 main_v159 main_v160 (addf : (⟨S64x64, .f32⟩ : BufTy).Contents (Elt F) → (⟨S64x64, .f32⟩ : BufTy).Contents (Elt F) → (⟨S64x64, .f32⟩ : BufTy).Contents (Elt F)),
    binary main_v159 main_v118 main_v161 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_34 (constant S_ .f32 0x41200000#32),
    unary main_cst_34 main_v162 (broadcastInDim S64x64 ![] bcast_S_S64x64 : (⟨S_, .f32⟩ : BufTy).Contents (Elt F) → (⟨S64x64, .f32⟩ : BufTy).Contents (Elt F)),
    binary main_v161 main_v162 main_v163 (Host.divf : (⟨S64x64, .f32⟩ : BufTy).Contents (Elt F) → (⟨S64x64, .f32⟩ : BufTy).Contents (Elt F) → (⟨S64x64, .f32⟩ : BufTy).Contents (Elt F)),
    binary main_v160 main_v163 main_v164 (addf : (⟨S64x64, .f32⟩ : BufTy).Contents (Elt F) → (⟨S64x64, .f32⟩ : BufTy).Contents (Elt F) → (⟨S64x64, .f32⟩ : BufTy).Contents (Elt F)),
    unary main_v33 main_v165 (broadcastInDim S1400000x1 ![0] bcast_S1400000_S1400000x1_0 : (⟨S1400000, .f32⟩ : BufTy).Contents (Elt F) → (⟨S1400000x1, .f32⟩ : BufTy).Contents (Elt F)),
    nullary main_c_35 (constantI S_ 32 0#32),
    unary main_c_35 main_v166 (broadcastInDim S1400000 ![] bcast_S_S1400000 : (⟨S_, .i32⟩ : BufTy).Contents (Elt F) → (⟨S1400000, .i32⟩ : BufTy).Contents (Elt F)),
    binary main_v5 main_v166 main_v167 (cmpi .slt : (⟨S1400000, .i32⟩ : BufTy).Contents (Elt F) → (⟨S1400000, .i32⟩ : BufTy).Contents (Elt F) → (⟨S1400000, .i1⟩ : BufTy).Contents (Elt F)),
    nullary main_c_36 (constantI S_ 32 200000#32),
    unary main_c_36 main_v168 (broadcastInDim S1400000 ![] bcast_S_S1400000 : (⟨S_, .i32⟩ : BufTy).Contents (Elt F) → (⟨S1400000, .i32⟩ : BufTy).Contents (Elt F)),
    binary main_v5 main_v168 main_v169 (addi : (⟨S1400000, .i32⟩ : BufTy).Contents (Elt F) → (⟨S1400000, .i32⟩ : BufTy).Contents (Elt F) → (⟨S1400000, .i32⟩ : BufTy).Contents (Elt F)),
    ternary main_v167 main_v169 main_v5 main_v170 (select : (⟨S1400000, .i1⟩ : BufTy).Contents (Elt F) → (⟨S1400000, .i32⟩ : BufTy).Contents (Elt F) → (⟨S1400000, .i32⟩ : BufTy).Contents (Elt F) → (⟨S1400000, .i32⟩ : BufTy).Contents (Elt F)),
    unary main_v170 main_v171 (broadcastInDim S1400000x1 ![0] bcast_S1400000_S1400000x1_0 : (⟨S1400000, .i32⟩ : BufTy).Contents (Elt F) → (⟨S1400000x1, .i32⟩ : BufTy).Contents (Elt F)),
    binary main_v114 main_v171 main_v172 ((fun x i => Host.gather gather_S200000x64_S1400000x1_S1400000x64_1_0_n_n_0_1_164 x i) : (⟨S200000x64, .f32⟩ : BufTy).Contents (Elt F) → (⟨S1400000x1, .i32⟩ : BufTy).Contents (Elt F) → (⟨S1400000x64, .f32⟩ : BufTy).Contents (Elt F)),
    unary main_v165 main_v173 (broadcastInDim S1400000x64 ![0, 1] bcast_S1400000x1_S1400000x64_0_1 : (⟨S1400000x1, .f32⟩ : BufTy).Contents (Elt F) → (⟨S1400000x64, .f32⟩ : BufTy).Contents (Elt F)),
    binary main_v173 main_v172 main_v174 (mulf : (⟨S1400000x64, .f32⟩ : BufTy).Contents (Elt F) → (⟨S1400000x64, .f32⟩ : BufTy).Contents (Elt F) → (⟨S1400000x64, .f32⟩ : BufTy).Contents (Elt F)),
    nullary main_cst_37 (constant S_ .f32 0x00000000#32),
    unary main_cst_37 main_v175 (broadcastInDim S200000x64 ![] bcast_S_S200000x64 : (⟨S_, .f32⟩ : BufTy).Contents (Elt F) → (⟨S200000x64, .f32⟩ : BufTy).Contents (Elt F)),
    unary main_v6 main_v176 (broadcastInDim S1400000x1 ![0] bcast_S1400000_S1400000x1_0 : (⟨S1400000, .i32⟩ : BufTy).Contents (Elt F) → (⟨S1400000x1, .i32⟩ : BufTy).Contents (Elt F)),
    ternary main_v175 main_v176 main_v174 main_v177 ((fun x i u => Host.scatterAdd scatter_S200000x64_S1400000x1_S1400000x64_1_0_0_1 x i u) : (⟨S200000x64, .f32⟩ : BufTy).Contents (Elt F) → (⟨S1400000x1, .i32⟩ : BufTy).Contents (Elt F) → (⟨S1400000x64, .f32⟩ : BufTy).Contents (Elt F) → (⟨S200000x64, .f32⟩ : BufTy).Contents (Elt F)),
    binary main_v177 main_v164 main_v178 ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F)) ]
theorem refP6_sub : (refP6 : List (HloOp τ sig (Elt F))).Forall fun op => op.bufs ⊆ tcRefs τ sig :=
  ⟨binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub ..⟩
theorem refP6_fresh : (refP6 : List (HloOp τ sig (Elt F))).Forall fun op => op.fresh = ∅ := by
  simp only [List.Forall]; repeat' constructor
/-- The references the operations 183 … 221 write. -/
abbrev refP6_W : List (Ref sig .tc) := [main_v147, main_v148, main_v149, main_cst_31, main_v150, main_v151, main_v152, main_v153, main_cst_32, main_v154, main_v155, main_v156, main_v157, main_cst_33, main_v158, main_v159, main_v160, main_v161, main_cst_34, main_v162, main_v163, main_v164, main_v165, main_c_35, main_v166, main_v167, main_c_36, main_v168, main_v169, main_v170, main_v171, main_v172, main_v173, main_v174, main_cst_37, main_v175, main_v176, main_v177, main_v178]
set_option maxHeartbeats 4000000 in
theorem refP6_writes : (refP6 : List (HloOp τ sig (Elt F))).Forall fun op => op.writes ⊆ (refP6_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide)⟩

end Cert.ReferenceIdeal.RefRun

end
-- ==== Proof.RefOps1.lean ====
/- The pieces 7 … 13 of the reference program's 865 host operations in order (27 pieces in all; a called function's
   operations in its call's place); per piece: every operation touches TensorCore references only and determines what it
   writes, the references the piece writes, and every operation writes inside that list.
-/
import proofs.«415904_j29016799052628_2_alg».proof.Proof.Gen.ReferenceIdeal
import Idealize.ShloMosaic.Lib.StableHlo.Run

set_option maxRecDepth 16384
set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- Operations 222 … 242 of the reference program, in order. -/
abbrev refP7 : List (HloOp τ sig (Elt F)) :=
  [ unary main_arg5 main_v179 ((extractStridedSlice S1x64x64 ![2, 0, 0] · slices_S10x64x64_S1x64x64_2_0_0) : (⟨S10x64x64, .f32⟩ : BufTy).Contents (Elt F) → (⟨S1x64x64, .f32⟩ : BufTy).Contents (Elt F)),
    reshape main_v179 main_v180 rfl shapeCasts_S1x64x64_S64x64,
    unary main_v180 main_v181 ((transpose S64x64 [1, 0] · transposes_S64x64_S64x64_1_0) : (⟨S64x64, .f32⟩ : BufTy).Contents (Elt F) → (⟨S64x64, .f32⟩ : BufTy).Contents (Elt F)),
    binary main_v180 main_v181 main_v182 (subf : (⟨S64x64, .f32⟩ : BufTy).Contents (Elt F) → (⟨S64x64, .f32⟩ : BufTy).Contents (Elt F) → (⟨S64x64, .f32⟩ : BufTy).Contents (Elt F)),
    nullary main_v183 (iotaInDim S64x64 32 0),
    nullary main_v184 (iotaInDim S64x64 32 1),
    nullary main_c_38 (constantI S_ 32 0#32),
    unary main_c_38 main_v185 (broadcastInDim S64x64 ![] bcast_S_S64x64 : (⟨S_, .i32⟩ : BufTy).Contents (Elt F) → (⟨S64x64, .i32⟩ : BufTy).Contents (Elt F)),
    binary main_v183 main_v185 main_v186 (addi : (⟨S64x64, .i32⟩ : BufTy).Contents (Elt F) → (⟨S64x64, .i32⟩ : BufTy).Contents (Elt F) → (⟨S64x64, .i32⟩ : BufTy).Contents (Elt F)),
    binary main_v186 main_v184 main_v187 (cmpi .eq : (⟨S64x64, .i32⟩ : BufTy).Contents (Elt F) → (⟨S64x64, .i32⟩ : BufTy).Contents (Elt F) → (⟨S64x64, .i1⟩ : BufTy).Contents (Elt F)),
    unary main_v187 main_v188 (uitofp .f32 : (⟨S64x64, .i1⟩ : BufTy).Contents (Elt F) → (⟨S64x64, .f32⟩ : BufTy).Contents (Elt F)),
    binary main_v188 main_v182 main_v189 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_39 (constant S_ .f32 0x3F800000#32),
    unary main_cst_39 main_v190 (broadcastInDim S64x64 ![] bcast_S_S64x64 : (⟨S_, .f32⟩ : BufTy).Contents (Elt F) → (⟨S64x64, .f32⟩ : BufTy).Contents (Elt F)),
    binary main_v189 main_v190 main_v191 (Host.divf : (⟨S64x64, .f32⟩ : BufTy).Contents (Elt F) → (⟨S64x64, .f32⟩ : BufTy).Contents (Elt F) → (⟨S64x64, .f32⟩ : BufTy).Contents (Elt F)),
    binary main_v188 main_v191 main_v192 (addf : (⟨S64x64, .f32⟩ : BufTy).Contents (Elt F) → (⟨S64x64, .f32⟩ : BufTy).Contents (Elt F) → (⟨S64x64, .f32⟩ : BufTy).Contents (Elt F)),
    binary main_v191 main_v182 main_v193 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_40 (constant S_ .f32 0x40000000#32),
    unary main_cst_40 main_v194 (broadcastInDim S64x64 ![] bcast_S_S64x64 : (⟨S_, .f32⟩ : BufTy).Contents (Elt F) → (⟨S64x64, .f32⟩ : BufTy).Contents (Elt F)),
    binary main_v193 main_v194 main_v195 (Host.divf : (⟨S64x64, .f32⟩ : BufTy).Contents (Elt F) → (⟨S64x64, .f32⟩ : BufTy).Contents (Elt F) → (⟨S64x64, .f32⟩ : BufTy).Contents (Elt F)),
    binary main_v192 main_v195 main_v196 (addf : (⟨S64x64, .f32⟩ : BufTy).Contents (Elt F) → (⟨S64x64, .f32⟩ : BufTy).Contents (Elt F) → (⟨S64x64, .f32⟩ : BufTy).Contents (Elt F)) ]
theorem refP7_sub : (refP7 : List (HloOp τ sig (Elt F))).Forall fun op => op.bufs ⊆ tcRefs τ sig :=
  ⟨unary_bufs_sub .., reshape_bufs_sub .., unary_bufs_sub .., binary_bufs_sub .., nullary_bufs_sub .., nullary_bufs_sub .., nullary_bufs_sub .., unary_bufs_sub .., binary_bufs_sub .., binary_bufs_sub .., unary_bufs_sub .., binary_bufs_sub .., nullary_bufs_sub .., unary_bufs_sub .., binary_bufs_sub .., binary_bufs_sub .., binary_bufs_sub .., nullary_bufs_sub .., unary_bufs_sub .., binary_bufs_sub .., binary_bufs_sub ..⟩
theorem refP7_fresh : (refP7 : List (HloOp τ sig (Elt F))).Forall fun op => op.fresh = ∅ := by
  simp only [List.Forall]; repeat' constructor
/-- The references the operations 222 … 242 write. -/
abbrev refP7_W : List (Ref sig .tc) := [main_v179, main_v180, main_v181, main_v182, main_v183, main_v184, main_c_38, main_v185, main_v186, main_v187, main_v188, main_v189, main_cst_39, main_v190, main_v191, main_v192, main_v193, main_cst_40, main_v194, main_v195, main_v196]
set_option maxHeartbeats 4000000 in
theorem refP7_writes : (refP7 : List (HloOp τ sig (Elt F))).Forall fun op => op.writes ⊆ (refP7_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide)⟩

set_option maxHeartbeats 4000000 in
/-- Operations 243 … 299 of the reference program, in order. -/
abbrev refP8 : List (HloOp τ sig (Elt F)) :=
  [ binary main_v195 main_v182 main_v197 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_41 (constant S_ .f32 0x40400000#32),
    unary main_cst_41 main_v198 (broadcastInDim S64x64 ![] bcast_S_S64x64 : (⟨S_, .f32⟩ : BufTy).Contents (Elt F) → (⟨S64x64, .f32⟩ : BufTy).Contents (Elt F)),
    binary main_v197 main_v198 main_v199 (Host.divf : (⟨S64x64, .f32⟩ : BufTy).Contents (Elt F) → (⟨S64x64, .f32⟩ : BufTy).Contents (Elt F) → (⟨S64x64, .f32⟩ : BufTy).Contents (Elt F)),
    binary main_v196 main_v199 main_v200 (addf : (⟨S64x64, .f32⟩ : BufTy).Contents (Elt F) → (⟨S64x64, .f32⟩ : BufTy).Contents (Elt F) → (⟨S64x64, .f32⟩ : BufTy).Contents (Elt F)),
    binary main_v199 main_v182 main_v201 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_42 (constant S_ .f32 0x40800000#32),
    unary main_cst_42 main_v202 (broadcastInDim S64x64 ![] bcast_S_S64x64 : (⟨S_, .f32⟩ : BufTy).Contents (Elt F) → (⟨S64x64, .f32⟩ : BufTy).Contents (Elt F)),
    binary main_v201 main_v202 main_v203 (Host.divf : (⟨S64x64, .f32⟩ : BufTy).Contents (Elt F) → (⟨S64x64, .f32⟩ : BufTy).Contents (Elt F) → (⟨S64x64, .f32⟩ : BufTy).Contents (Elt F)),
    binary main_v200 main_v203 main_v204 (addf : (⟨S64x64, .f32⟩ : BufTy).Contents (Elt F) → (⟨S64x64, .f32⟩ : BufTy).Contents (Elt F) → (⟨S64x64, .f32⟩ : BufTy).Contents (Elt F)),
    binary main_v203 main_v182 main_v205 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_43 (constant S_ .f32 0x40A00000#32),
    unary main_cst_43 main_v206 (broadcastInDim S64x64 ![] bcast_S_S64x64 : (⟨S_, .f32⟩ : BufTy).Contents (Elt F) → (⟨S64x64, .f32⟩ : BufTy).Contents (Elt F)),
    binary main_v205 main_v206 main_v207 (Host.divf : (⟨S64x64, .f32⟩ : BufTy).Contents (Elt F) → (⟨S64x64, .f32⟩ : BufTy).Contents (Elt F) → (⟨S64x64, .f32⟩ : BufTy).Contents (Elt F)),
    binary main_v204 main_v207 main_v208 (addf : (⟨S64x64, .f32⟩ : BufTy).Contents (Elt F) → (⟨S64x64, .f32⟩ : BufTy).Contents (Elt F) → (⟨S64x64, .f32⟩ : BufTy).Contents (Elt F)),
    binary main_v207 main_v182 main_v209 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_44 (constant S_ .f32 0x40C00000#32),
    unary main_cst_44 main_v210 (broadcastInDim S64x64 ![] bcast_S_S64x64 : (⟨S_, .f32⟩ : BufTy).Contents (Elt F) → (⟨S64x64, .f32⟩ : BufTy).Contents (Elt F)),
    binary main_v209 main_v210 main_v211 (Host.divf : (⟨S64x64, .f32⟩ : BufTy).Contents (Elt F) → (⟨S64x64, .f32⟩ : BufTy).Contents (Elt F) → (⟨S64x64, .f32⟩ : BufTy).Contents (Elt F)),
    binary main_v208 main_v211 main_v212 (addf : (⟨S64x64, .f32⟩ : BufTy).Contents (Elt F) → (⟨S64x64, .f32⟩ : BufTy).Contents (Elt F) → (⟨S64x64, .f32⟩ : BufTy).Contents (Elt F)),
    binary main_v211 main_v182 main_v213 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_45 (constant S_ .f32 0x40E00000#32),
    unary main_cst_45 main_v214 (broadcastInDim S64x64 ![] bcast_S_S64x64 : (⟨S_, .f32⟩ : BufTy).Contents (Elt F) → (⟨S64x64, .f32⟩ : BufTy).Contents (Elt F)),
    binary main_v213 main_v214 main_v215 (Host.divf : (⟨S64x64, .f32⟩ : BufTy).Contents (Elt F) → (⟨S64x64, .f32⟩ : BufTy).Contents (Elt F) → (⟨S64x64, .f32⟩ : BufTy).Contents (Elt F)),
    binary main_v212 main_v215 main_v216 (addf : (⟨S64x64, .f32⟩ : BufTy).Contents (Elt F) → (⟨S64x64, .f32⟩ : BufTy).Contents (Elt F) → (⟨S64x64, .f32⟩ : BufTy).Contents (Elt F)),
    binary main_v215 main_v182 main_v217 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_46 (constant S_ .f32 0x41000000#32),
    unary main_cst_46 main_v218 (broadcastInDim S64x64 ![] bcast_S_S64x64 : (⟨S_, .f32⟩ : BufTy).Contents (Elt F) → (⟨S64x64, .f32⟩ : BufTy).Contents (Elt F)),
    binary main_v217 main_v218 main_v219 (Host.divf : (⟨S64x64, .f32⟩ : BufTy).Contents (Elt F) → (⟨S64x64, .f32⟩ : BufTy).Contents (Elt F) → (⟨S64x64, .f32⟩ : BufTy).Contents (Elt F)),
    binary main_v216 main_v219 main_v220 (addf : (⟨S64x64, .f32⟩ : BufTy).Contents (Elt F) → (⟨S64x64, .f32⟩ : BufTy).Contents (Elt F) → (⟨S64x64, .f32⟩ : BufTy).Contents (Elt F)),
    binary main_v219 main_v182 main_v221 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_47 (constant S_ .f32 0x41100000#32),
    unary main_cst_47 main_v222 (broadcastInDim S64x64 ![] bcast_S_S64x64 : (⟨S_, .f32⟩ : BufTy).Contents (Elt F) → (⟨S64x64, .f32⟩ : BufTy).Contents (Elt F)),
    binary main_v221 main_v222 main_v223 (Host.divf : (⟨S64x64, .f32⟩ : BufTy).Contents (Elt F) → (⟨S64x64, .f32⟩ : BufTy).Contents (Elt F) → (⟨S64x64, .f32⟩ : BufTy).Contents (Elt F)),
    binary main_v220 main_v223 main_v224 (addf : (⟨S64x64, .f32⟩ : BufTy).Contents (Elt F) → (⟨S64x64, .f32⟩ : BufTy).Contents (Elt F) → (⟨S64x64, .f32⟩ : BufTy).Contents (Elt F)),
    binary main_v223 main_v182 main_v225 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_48 (constant S_ .f32 0x41200000#32),
    unary main_cst_48 main_v226 (broadcastInDim S64x64 ![] bcast_S_S64x64 : (⟨S_, .f32⟩ : BufTy).Contents (Elt F) → (⟨S64x64, .f32⟩ : BufTy).Contents (Elt F)),
    binary main_v225 main_v226 main_v227 (Host.divf : (⟨S64x64, .f32⟩ : BufTy).Contents (Elt F) → (⟨S64x64, .f32⟩ : BufTy).Contents (Elt F) → (⟨S64x64, .f32⟩ : BufTy).Contents (Elt F)),
    binary main_v224 main_v227 main_v228 (addf : (⟨S64x64, .f32⟩ : BufTy).Contents (Elt F) → (⟨S64x64, .f32⟩ : BufTy).Contents (Elt F) → (⟨S64x64, .f32⟩ : BufTy).Contents (Elt F)),
    unary main_v33 main_v229 (broadcastInDim S1400000x1 ![0] bcast_S1400000_S1400000x1_0 : (⟨S1400000, .f32⟩ : BufTy).Contents (Elt F) → (⟨S1400000x1, .f32⟩ : BufTy).Contents (Elt F)),
    nullary main_c_49 (constantI S_ 32 0#32),
    unary main_c_49 main_v230 (broadcastInDim S1400000 ![] bcast_S_S1400000 : (⟨S_, .i32⟩ : BufTy).Contents (Elt F) → (⟨S1400000, .i32⟩ : BufTy).Contents (Elt F)),
    binary main_v5 main_v230 main_v231 (cmpi .slt : (⟨S1400000, .i32⟩ : BufTy).Contents (Elt F) → (⟨S1400000, .i32⟩ : BufTy).Contents (Elt F) → (⟨S1400000, .i1⟩ : BufTy).Contents (Elt F)),
    nullary main_c_50 (constantI S_ 32 200000#32),
    unary main_c_50 main_v232 (broadcastInDim S1400000 ![] bcast_S_S1400000 : (⟨S_, .i32⟩ : BufTy).Contents (Elt F) → (⟨S1400000, .i32⟩ : BufTy).Contents (Elt F)),
    binary main_v5 main_v232 main_v233 (addi : (⟨S1400000, .i32⟩ : BufTy).Contents (Elt F) → (⟨S1400000, .i32⟩ : BufTy).Contents (Elt F) → (⟨S1400000, .i32⟩ : BufTy).Contents (Elt F)),
    ternary main_v231 main_v233 main_v5 main_v234 (select : (⟨S1400000, .i1⟩ : BufTy).Contents (Elt F) → (⟨S1400000, .i32⟩ : BufTy).Contents (Elt F) → (⟨S1400000, .i32⟩ : BufTy).Contents (Elt F) → (⟨S1400000, .i32⟩ : BufTy).Contents (Elt F)),
    unary main_v234 main_v235 (broadcastInDim S1400000x1 ![0] bcast_S1400000_S1400000x1_0 : (⟨S1400000, .i32⟩ : BufTy).Contents (Elt F) → (⟨S1400000x1, .i32⟩ : BufTy).Contents (Elt F)),
    binary main_v178 main_v235 main_v236 ((fun x i => Host.gather gather_S200000x64_S1400000x1_S1400000x64_1_0_n_n_0_1_164 x i) : (⟨S200000x64, .f32⟩ : BufTy).Contents (Elt F) → (⟨S1400000x1, .i32⟩ : BufTy).Contents (Elt F) → (⟨S1400000x64, .f32⟩ : BufTy).Contents (Elt F)),
    unary main_v229 main_v237 (broadcastInDim S1400000x64 ![0, 1] bcast_S1400000x1_S1400000x64_0_1 : (⟨S1400000x1, .f32⟩ : BufTy).Contents (Elt F) → (⟨S1400000x64, .f32⟩ : BufTy).Contents (Elt F)),
    binary main_v237 main_v236 main_v238 (mulf : (⟨S1400000x64, .f32⟩ : BufTy).Contents (Elt F) → (⟨S1400000x64, .f32⟩ : BufTy).Contents (Elt F) → (⟨S1400000x64, .f32⟩ : BufTy).Contents (Elt F)),
    nullary main_cst_51 (constant S_ .f32 0x00000000#32),
    unary main_cst_51 main_v239 (broadcastInDim S200000x64 ![] bcast_S_S200000x64 : (⟨S_, .f32⟩ : BufTy).Contents (Elt F) → (⟨S200000x64, .f32⟩ : BufTy).Contents (Elt F)),
    unary main_v6 main_v240 (broadcastInDim S1400000x1 ![0] bcast_S1400000_S1400000x1_0 : (⟨S1400000, .i32⟩ : BufTy).Contents (Elt F) → (⟨S1400000x1, .i32⟩ : BufTy).Contents (Elt F)),
    ternary main_v239 main_v240 main_v238 main_v241 ((fun x i u => Host.scatterAdd scatter_S200000x64_S1400000x1_S1400000x64_1_0_0_1 x i u) : (⟨S200000x64, .f32⟩ : BufTy).Contents (Elt F) → (⟨S1400000x1, .i32⟩ : BufTy).Contents (Elt F) → (⟨S1400000x64, .f32⟩ : BufTy).Contents (Elt F) → (⟨S200000x64, .f32⟩ : BufTy).Contents (Elt F)),
    binary main_v241 main_v228 main_v242 ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F)) ]
theorem refP8_sub : (refP8 : List (HloOp τ sig (Elt F))).Forall fun op => op.bufs ⊆ tcRefs τ sig :=
  ⟨binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub ..⟩
theorem refP8_fresh : (refP8 : List (HloOp τ sig (Elt F))).Forall fun op => op.fresh = ∅ := by
  simp only [List.Forall]; repeat' constructor
/-- The references the operations 243 … 299 write. -/
abbrev refP8_W : List (Ref sig .tc) := [main_v197, main_cst_41, main_v198, main_v199, main_v200, main_v201, main_cst_42, main_v202, main_v203, main_v204, main_v205, main_cst_43, main_v206, main_v207, main_v208, main_v209, main_cst_44, main_v210, main_v211, main_v212, main_v213, main_cst_45, main_v214, main_v215, main_v216, main_v217, main_cst_46, main_v218, main_v219, main_v220, main_v221, main_cst_47, main_v222, main_v223, main_v224, main_v225, main_cst_48, main_v226, main_v227, main_v228, main_v229, main_c_49, main_v230, main_v231, main_c_50, main_v232, main_v233, main_v234, main_v235, main_v236, main_v237, main_v238, main_cst_51, main_v239, main_v240, main_v241, main_v242]
set_option maxHeartbeats 4000000 in
theorem refP8_writes : (refP8 : List (HloOp τ sig (Elt F))).Forall fun op => op.writes ⊆ (refP8_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide)⟩

set_option maxHeartbeats 4000000 in
/-- Operations 300 … 302 of the reference program, in order. -/
abbrev refP9 : List (HloOp τ sig (Elt F)) :=
  [ unary main_arg5 main_v243 ((extractStridedSlice S1x64x64 ![3, 0, 0] · slices_S10x64x64_S1x64x64_3_0_0) : (⟨S10x64x64, .f32⟩ : BufTy).Contents (Elt F) → (⟨S1x64x64, .f32⟩ : BufTy).Contents (Elt F)),
    reshape main_v243 main_v244 rfl shapeCasts_S1x64x64_S64x64,
    unary main_v244 main_v245 ((transpose S64x64 [1, 0] · transposes_S64x64_S64x64_1_0) : (⟨S64x64, .f32⟩ : BufTy).Contents (Elt F) → (⟨S64x64, .f32⟩ : BufTy).Contents (Elt F)) ]
theorem refP9_sub : (refP9 : List (HloOp τ sig (Elt F))).Forall fun op => op.bufs ⊆ tcRefs τ sig :=
  ⟨unary_bufs_sub .., reshape_bufs_sub .., unary_bufs_sub ..⟩
theorem refP9_fresh : (refP9 : List (HloOp τ sig (Elt F))).Forall fun op => op.fresh = ∅ := by
  simp only [List.Forall]; repeat' constructor
/-- The references the operations 300 … 302 write. -/
abbrev refP9_W : List (Ref sig .tc) := [main_v243, main_v244, main_v245]
set_option maxHeartbeats 4000000 in
theorem refP9_writes : (refP9 : List (HloOp τ sig (Elt F))).Forall fun op => op.writes ⊆ (refP9_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide)⟩

set_option maxHeartbeats 4000000 in
/-- Operations 303 … 362 of the reference program, in order. -/
abbrev refP10 : List (HloOp τ sig (Elt F)) :=
  [ binary main_v244 main_v245 main_v246 (subf : (⟨S64x64, .f32⟩ : BufTy).Contents (Elt F) → (⟨S64x64, .f32⟩ : BufTy).Contents (Elt F) → (⟨S64x64, .f32⟩ : BufTy).Contents (Elt F)),
    nullary main_v247 (iotaInDim S64x64 32 0),
    nullary main_v248 (iotaInDim S64x64 32 1),
    nullary main_c_52 (constantI S_ 32 0#32),
    unary main_c_52 main_v249 (broadcastInDim S64x64 ![] bcast_S_S64x64 : (⟨S_, .i32⟩ : BufTy).Contents (Elt F) → (⟨S64x64, .i32⟩ : BufTy).Contents (Elt F)),
    binary main_v247 main_v249 main_v250 (addi : (⟨S64x64, .i32⟩ : BufTy).Contents (Elt F) → (⟨S64x64, .i32⟩ : BufTy).Contents (Elt F) → (⟨S64x64, .i32⟩ : BufTy).Contents (Elt F)),
    binary main_v250 main_v248 main_v251 (cmpi .eq : (⟨S64x64, .i32⟩ : BufTy).Contents (Elt F) → (⟨S64x64, .i32⟩ : BufTy).Contents (Elt F) → (⟨S64x64, .i1⟩ : BufTy).Contents (Elt F)),
    unary main_v251 main_v252 (uitofp .f32 : (⟨S64x64, .i1⟩ : BufTy).Contents (Elt F) → (⟨S64x64, .f32⟩ : BufTy).Contents (Elt F)),
    binary main_v252 main_v246 main_v253 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_53 (constant S_ .f32 0x3F800000#32),
    unary main_cst_53 main_v254 (broadcastInDim S64x64 ![] bcast_S_S64x64 : (⟨S_, .f32⟩ : BufTy).Contents (Elt F) → (⟨S64x64, .f32⟩ : BufTy).Contents (Elt F)),
    binary main_v253 main_v254 main_v255 (Host.divf : (⟨S64x64, .f32⟩ : BufTy).Contents (Elt F) → (⟨S64x64, .f32⟩ : BufTy).Contents (Elt F) → (⟨S64x64, .f32⟩ : BufTy).Contents (Elt F)),
    binary main_v252 main_v255 main_v256 (addf : (⟨S64x64, .f32⟩ : BufTy).Contents (Elt F) → (⟨S64x64, .f32⟩ : BufTy).Contents (Elt F) → (⟨S64x64, .f32⟩ : BufTy).Contents (Elt F)),
    binary main_v255 main_v246 main_v257 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_54 (constant S_ .f32 0x40000000#32),
    unary main_cst_54 main_v258 (broadcastInDim S64x64 ![] bcast_S_S64x64 : (⟨S_, .f32⟩ : BufTy).Contents (Elt F) → (⟨S64x64, .f32⟩ : BufTy).Contents (Elt F)),
    binary main_v257 main_v258 main_v259 (Host.divf : (⟨S64x64, .f32⟩ : BufTy).Contents (Elt F) → (⟨S64x64, .f32⟩ : BufTy).Contents (Elt F) → (⟨S64x64, .f32⟩ : BufTy).Contents (Elt F)),
    binary main_v256 main_v259 main_v260 (addf : (⟨S64x64, .f32⟩ : BufTy).Contents (Elt F) → (⟨S64x64, .f32⟩ : BufTy).Contents (Elt F) → (⟨S64x64, .f32⟩ : BufTy).Contents (Elt F)),
    binary main_v259 main_v246 main_v261 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_55 (constant S_ .f32 0x40400000#32),
    unary main_cst_55 main_v262 (broadcastInDim S64x64 ![] bcast_S_S64x64 : (⟨S_, .f32⟩ : BufTy).Contents (Elt F) → (⟨S64x64, .f32⟩ : BufTy).Contents (Elt F)),
    binary main_v261 main_v262 main_v263 (Host.divf : (⟨S64x64, .f32⟩ : BufTy).Contents (Elt F) → (⟨S64x64, .f32⟩ : BufTy).Contents (Elt F) → (⟨S64x64, .f32⟩ : BufTy).Contents (Elt F)),
    binary main_v260 main_v263 main_v264 (addf : (⟨S64x64, .f32⟩ : BufTy).Contents (Elt F) → (⟨S64x64, .f32⟩ : BufTy).Contents (Elt F) → (⟨S64x64, .f32⟩ : BufTy).Contents (Elt F)),
    binary main_v263 main_v246 main_v265 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_56 (constant S_ .f32 0x40800000#32),
    unary main_cst_56 main_v266 (broadcastInDim S64x64 ![] bcast_S_S64x64 : (⟨S_, .f32⟩ : BufTy).Contents (Elt F) → (⟨S64x64, .f32⟩ : BufTy).Contents (Elt F)),
    binary main_v265 main_v266 main_v267 (Host.divf : (⟨S64x64, .f32⟩ : BufTy).Contents (Elt F) → (⟨S64x64, .f32⟩ : BufTy).Contents (Elt F) → (⟨S64x64, .f32⟩ : BufTy).Contents (Elt F)),
    binary main_v264 main_v267 main_v268 (addf : (⟨S64x64, .f32⟩ : BufTy).Contents (Elt F) → (⟨S64x64, .f32⟩ : BufTy).Contents (Elt F) → (⟨S64x64, .f32⟩ : BufTy).Contents (Elt F)),
    binary main_v267 main_v246 main_v269 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_57 (constant S_ .f32 0x40A00000#32),
    unary main_cst_57 main_v270 (broadcastInDim S64x64 ![] bcast_S_S64x64 : (⟨S_, .f32⟩ : BufTy).Contents (Elt F) → (⟨S64x64, .f32⟩ : BufTy).Contents (Elt F)),
    binary main_v269 main_v270 main_v271 (Host.divf : (⟨S64x64, .f32⟩ : BufTy).Contents (Elt F) → (⟨S64x64, .f32⟩ : BufTy).Contents (Elt F) → (⟨S64x64, .f32⟩ : BufTy).Contents (Elt F)),
    binary main_v268 main_v271 main_v272 (addf : (⟨S64x64, .f32⟩ : BufTy).Contents (Elt F) → (⟨S64x64, .f32⟩ : BufTy).Contents (Elt F) → (⟨S64x64, .f32⟩ : BufTy).Contents (Elt F)),
    binary main_v271 main_v246 main_v273 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_58 (constant S_ .f32 0x40C00000#32),
    unary main_cst_58 main_v274 (broadcastInDim S64x64 ![] bcast_S_S64x64 : (⟨S_, .f32⟩ : BufTy).Contents (Elt F) → (⟨S64x64, .f32⟩ : BufTy).Contents (Elt F)),
    binary main_v273 main_v274 main_v275 (Host.divf : (⟨S64x64, .f32⟩ : BufTy).Contents (Elt F) → (⟨S64x64, .f32⟩ : BufTy).Contents (Elt F) → (⟨S64x64, .f32⟩ : BufTy).Contents (Elt F)),
    binary main_v272 main_v275 main_v276 (addf : (⟨S64x64, .f32⟩ : BufTy).Contents (Elt F) → (⟨S64x64, .f32⟩ : BufTy).Contents (Elt F) → (⟨S64x64, .f32⟩ : BufTy).Contents (Elt F)),
    binary main_v275 main_v246 main_v277 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_59 (constant S_ .f32 0x40E00000#32),
    unary main_cst_59 main_v278 (broadcastInDim S64x64 ![] bcast_S_S64x64 : (⟨S_, .f32⟩ : BufTy).Contents (Elt F) → (⟨S64x64, .f32⟩ : BufTy).Contents (Elt F)),
    binary main_v277 main_v278 main_v279 (Host.divf : (⟨S64x64, .f32⟩ : BufTy).Contents (Elt F) → (⟨S64x64, .f32⟩ : BufTy).Contents (Elt F) → (⟨S64x64, .f32⟩ : BufTy).Contents (Elt F)),
    binary main_v276 main_v279 main_v280 (addf : (⟨S64x64, .f32⟩ : BufTy).Contents (Elt F) → (⟨S64x64, .f32⟩ : BufTy).Contents (Elt F) → (⟨S64x64, .f32⟩ : BufTy).Contents (Elt F)),
    binary main_v279 main_v246 main_v281 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_60 (constant S_ .f32 0x41000000#32),
    unary main_cst_60 main_v282 (broadcastInDim S64x64 ![] bcast_S_S64x64 : (⟨S_, .f32⟩ : BufTy).Contents (Elt F) → (⟨S64x64, .f32⟩ : BufTy).Contents (Elt F)),
    binary main_v281 main_v282 main_v283 (Host.divf : (⟨S64x64, .f32⟩ : BufTy).Contents (Elt F) → (⟨S64x64, .f32⟩ : BufTy).Contents (Elt F) → (⟨S64x64, .f32⟩ : BufTy).Contents (Elt F)),
    binary main_v280 main_v283 main_v284 (addf : (⟨S64x64, .f32⟩ : BufTy).Contents (Elt F) → (⟨S64x64, .f32⟩ : BufTy).Contents (Elt F) → (⟨S64x64, .f32⟩ : BufTy).Contents (Elt F)),
    binary main_v283 main_v246 main_v285 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_61 (constant S_ .f32 0x41100000#32),
    unary main_cst_61 main_v286 (broadcastInDim S64x64 ![] bcast_S_S64x64 : (⟨S_, .f32⟩ : BufTy).Contents (Elt F) → (⟨S64x64, .f32⟩ : BufTy).Contents (Elt F)),
    binary main_v285 main_v286 main_v287 (Host.divf : (⟨S64x64, .f32⟩ : BufTy).Contents (Elt F) → (⟨S64x64, .f32⟩ : BufTy).Contents (Elt F) → (⟨S64x64, .f32⟩ : BufTy).Contents (Elt F)),
    binary main_v284 main_v287 main_v288 (addf : (⟨S64x64, .f32⟩ : BufTy).Contents (Elt F) → (⟨S64x64, .f32⟩ : BufTy).Contents (Elt F) → (⟨S64x64, .f32⟩ : BufTy).Contents (Elt F)),
    binary main_v287 main_v246 main_v289 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_62 (constant S_ .f32 0x41200000#32),
    unary main_cst_62 main_v290 (broadcastInDim S64x64 ![] bcast_S_S64x64 : (⟨S_, .f32⟩ : BufTy).Contents (Elt F) → (⟨S64x64, .f32⟩ : BufTy).Contents (Elt F)),
    binary main_v289 main_v290 main_v291 (Host.divf : (⟨S64x64, .f32⟩ : BufTy).Contents (Elt F) → (⟨S64x64, .f32⟩ : BufTy).Contents (Elt F) → (⟨S64x64, .f32⟩ : BufTy).Contents (Elt F)),
    binary main_v288 main_v291 main_v292 (addf : (⟨S64x64, .f32⟩ : BufTy).Contents (Elt F) → (⟨S64x64, .f32⟩ : BufTy).Contents (Elt F) → (⟨S64x64, .f32⟩ : BufTy).Contents (Elt F)),
    unary main_v33 main_v293 (broadcastInDim S1400000x1 ![0] bcast_S1400000_S1400000x1_0 : (⟨S1400000, .f32⟩ : BufTy).Contents (Elt F) → (⟨S1400000x1, .f32⟩ : BufTy).Contents (Elt F)),
    nullary main_c_63 (constantI S_ 32 0#32) ]
theorem refP10_sub : (refP10 : List (HloOp τ sig (Elt F))).Forall fun op => op.bufs ⊆ tcRefs τ sig :=
  ⟨binary_bufs_sub .., nullary_bufs_sub .., nullary_bufs_sub .., nullary_bufs_sub .., unary_bufs_sub .., binary_bufs_sub .., binary_bufs_sub .., unary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., unary_bufs_sub .., nullary_bufs_sub ..⟩
theorem refP10_fresh : (refP10 : List (HloOp τ sig (Elt F))).Forall fun op => op.fresh = ∅ := by
  simp only [List.Forall]; repeat' constructor
/-- The references the operations 303 … 362 write. -/
abbrev refP10_W : List (Ref sig .tc) := [main_v246, main_v247, main_v248, main_c_52, main_v249, main_v250, main_v251, main_v252, main_v253, main_cst_53, main_v254, main_v255, main_v256, main_v257, main_cst_54, main_v258, main_v259, main_v260, main_v261, main_cst_55, main_v262, main_v263, main_v264, main_v265, main_cst_56, main_v266, main_v267, main_v268, main_v269, main_cst_57, main_v270, main_v271, main_v272, main_v273, main_cst_58, main_v274, main_v275, main_v276, main_v277, main_cst_59, main_v278, main_v279, main_v280, main_v281, main_cst_60, main_v282, main_v283, main_v284, main_v285, main_cst_61, main_v286, main_v287, main_v288, main_v289, main_cst_62, main_v290, main_v291, main_v292, main_v293, main_c_63]
set_option maxHeartbeats 4000000 in
theorem refP10_writes : (refP10 : List (HloOp τ sig (Elt F))).Forall fun op => op.writes ⊆ (refP10_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide)⟩

set_option maxHeartbeats 4000000 in
/-- Operations 363 … 377 of the reference program, in order. -/
abbrev refP11 : List (HloOp τ sig (Elt F)) :=
  [ unary main_c_63 main_v294 (broadcastInDim S1400000 ![] bcast_S_S1400000 : (⟨S_, .i32⟩ : BufTy).Contents (Elt F) → (⟨S1400000, .i32⟩ : BufTy).Contents (Elt F)),
    binary main_v5 main_v294 main_v295 (cmpi .slt : (⟨S1400000, .i32⟩ : BufTy).Contents (Elt F) → (⟨S1400000, .i32⟩ : BufTy).Contents (Elt F) → (⟨S1400000, .i1⟩ : BufTy).Contents (Elt F)),
    nullary main_c_64 (constantI S_ 32 200000#32),
    unary main_c_64 main_v296 (broadcastInDim S1400000 ![] bcast_S_S1400000 : (⟨S_, .i32⟩ : BufTy).Contents (Elt F) → (⟨S1400000, .i32⟩ : BufTy).Contents (Elt F)),
    binary main_v5 main_v296 main_v297 (addi : (⟨S1400000, .i32⟩ : BufTy).Contents (Elt F) → (⟨S1400000, .i32⟩ : BufTy).Contents (Elt F) → (⟨S1400000, .i32⟩ : BufTy).Contents (Elt F)),
    ternary main_v295 main_v297 main_v5 main_v298 (select : (⟨S1400000, .i1⟩ : BufTy).Contents (Elt F) → (⟨S1400000, .i32⟩ : BufTy).Contents (Elt F) → (⟨S1400000, .i32⟩ : BufTy).Contents (Elt F) → (⟨S1400000, .i32⟩ : BufTy).Contents (Elt F)),
    unary main_v298 main_v299 (broadcastInDim S1400000x1 ![0] bcast_S1400000_S1400000x1_0 : (⟨S1400000, .i32⟩ : BufTy).Contents (Elt F) → (⟨S1400000x1, .i32⟩ : BufTy).Contents (Elt F)),
    binary main_v242 main_v299 main_v300 ((fun x i => Host.gather gather_S200000x64_S1400000x1_S1400000x64_1_0_n_n_0_1_164 x i) : (⟨S200000x64, .f32⟩ : BufTy).Contents (Elt F) → (⟨S1400000x1, .i32⟩ : BufTy).Contents (Elt F) → (⟨S1400000x64, .f32⟩ : BufTy).Contents (Elt F)),
    unary main_v293 main_v301 (broadcastInDim S1400000x64 ![0, 1] bcast_S1400000x1_S1400000x64_0_1 : (⟨S1400000x1, .f32⟩ : BufTy).Contents (Elt F) → (⟨S1400000x64, .f32⟩ : BufTy).Contents (Elt F)),
    binary main_v301 main_v300 main_v302 (mulf : (⟨S1400000x64, .f32⟩ : BufTy).Contents (Elt F) → (⟨S1400000x64, .f32⟩ : BufTy).Contents (Elt F) → (⟨S1400000x64, .f32⟩ : BufTy).Contents (Elt F)),
    nullary main_cst_65 (constant S_ .f32 0x00000000#32),
    unary main_cst_65 main_v303 (broadcastInDim S200000x64 ![] bcast_S_S200000x64 : (⟨S_, .f32⟩ : BufTy).Contents (Elt F) → (⟨S200000x64, .f32⟩ : BufTy).Contents (Elt F)),
    unary main_v6 main_v304 (broadcastInDim S1400000x1 ![0] bcast_S1400000_S1400000x1_0 : (⟨S1400000, .i32⟩ : BufTy).Contents (Elt F) → (⟨S1400000x1, .i32⟩ : BufTy).Contents (Elt F)),
    ternary main_v303 main_v304 main_v302 main_v305 ((fun x i u => Host.scatterAdd scatter_S200000x64_S1400000x1_S1400000x64_1_0_0_1 x i u) : (⟨S200000x64, .f32⟩ : BufTy).Contents (Elt F) → (⟨S1400000x1, .i32⟩ : BufTy).Contents (Elt F) → (⟨S1400000x64, .f32⟩ : BufTy).Contents (Elt F) → (⟨S200000x64, .f32⟩ : BufTy).Contents (Elt F)),
    binary main_v305 main_v292 main_v306 ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F)) ]
theorem refP11_sub : (refP11 : List (HloOp τ sig (Elt F))).Forall fun op => op.bufs ⊆ tcRefs τ sig :=
  ⟨unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub ..⟩
theorem refP11_fresh : (refP11 : List (HloOp τ sig (Elt F))).Forall fun op => op.fresh = ∅ := by
  simp only [List.Forall]; repeat' constructor
/-- The references the operations 363 … 377 write. -/
abbrev refP11_W : List (Ref sig .tc) := [main_v294, main_v295, main_c_64, main_v296, main_v297, main_v298, main_v299, main_v300, main_v301, main_v302, main_cst_65, main_v303, main_v304, main_v305, main_v306]
set_option maxHeartbeats 4000000 in
theorem refP11_writes : (refP11 : List (HloOp τ sig (Elt F))).Forall fun op => op.writes ⊆ (refP11_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide)⟩

set_option maxHeartbeats 4000000 in
/-- Operations 378 … 422 of the reference program, in order. -/
abbrev refP12 : List (HloOp τ sig (Elt F)) :=
  [ unary main_arg5 main_v307 ((extractStridedSlice S1x64x64 ![4, 0, 0] · slices_S10x64x64_S1x64x64_4_0_0) : (⟨S10x64x64, .f32⟩ : BufTy).Contents (Elt F) → (⟨S1x64x64, .f32⟩ : BufTy).Contents (Elt F)),
    reshape main_v307 main_v308 rfl shapeCasts_S1x64x64_S64x64,
    unary main_v308 main_v309 ((transpose S64x64 [1, 0] · transposes_S64x64_S64x64_1_0) : (⟨S64x64, .f32⟩ : BufTy).Contents (Elt F) → (⟨S64x64, .f32⟩ : BufTy).Contents (Elt F)),
    binary main_v308 main_v309 main_v310 (subf : (⟨S64x64, .f32⟩ : BufTy).Contents (Elt F) → (⟨S64x64, .f32⟩ : BufTy).Contents (Elt F) → (⟨S64x64, .f32⟩ : BufTy).Contents (Elt F)),
    nullary main_v311 (iotaInDim S64x64 32 0),
    nullary main_v312 (iotaInDim S64x64 32 1),
    nullary main_c_66 (constantI S_ 32 0#32),
    unary main_c_66 main_v313 (broadcastInDim S64x64 ![] bcast_S_S64x64 : (⟨S_, .i32⟩ : BufTy).Contents (Elt F) → (⟨S64x64, .i32⟩ : BufTy).Contents (Elt F)),
    binary main_v311 main_v313 main_v314 (addi : (⟨S64x64, .i32⟩ : BufTy).Contents (Elt F) → (⟨S64x64, .i32⟩ : BufTy).Contents (Elt F) → (⟨S64x64, .i32⟩ : BufTy).Contents (Elt F)),
    binary main_v314 main_v312 main_v315 (cmpi .eq : (⟨S64x64, .i32⟩ : BufTy).Contents (Elt F) → (⟨S64x64, .i32⟩ : BufTy).Contents (Elt F) → (⟨S64x64, .i1⟩ : BufTy).Contents (Elt F)),
    unary main_v315 main_v316 (uitofp .f32 : (⟨S64x64, .i1⟩ : BufTy).Contents (Elt F) → (⟨S64x64, .f32⟩ : BufTy).Contents (Elt F)),
    binary main_v316 main_v310 main_v317 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_67 (constant S_ .f32 0x3F800000#32),
    unary main_cst_67 main_v318 (broadcastInDim S64x64 ![] bcast_S_S64x64 : (⟨S_, .f32⟩ : BufTy).Contents (Elt F) → (⟨S64x64, .f32⟩ : BufTy).Contents (Elt F)),
    binary main_v317 main_v318 main_v319 (Host.divf : (⟨S64x64, .f32⟩ : BufTy).Contents (Elt F) → (⟨S64x64, .f32⟩ : BufTy).Contents (Elt F) → (⟨S64x64, .f32⟩ : BufTy).Contents (Elt F)),
    binary main_v316 main_v319 main_v320 (addf : (⟨S64x64, .f32⟩ : BufTy).Contents (Elt F) → (⟨S64x64, .f32⟩ : BufTy).Contents (Elt F) → (⟨S64x64, .f32⟩ : BufTy).Contents (Elt F)),
    binary main_v319 main_v310 main_v321 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_68 (constant S_ .f32 0x40000000#32),
    unary main_cst_68 main_v322 (broadcastInDim S64x64 ![] bcast_S_S64x64 : (⟨S_, .f32⟩ : BufTy).Contents (Elt F) → (⟨S64x64, .f32⟩ : BufTy).Contents (Elt F)),
    binary main_v321 main_v322 main_v323 (Host.divf : (⟨S64x64, .f32⟩ : BufTy).Contents (Elt F) → (⟨S64x64, .f32⟩ : BufTy).Contents (Elt F) → (⟨S64x64, .f32⟩ : BufTy).Contents (Elt F)),
    binary main_v320 main_v323 main_v324 (addf : (⟨S64x64, .f32⟩ : BufTy).Contents (Elt F) → (⟨S64x64, .f32⟩ : BufTy).Contents (Elt F) → (⟨S64x64, .f32⟩ : BufTy).Contents (Elt F)),
    binary main_v323 main_v310 main_v325 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_69 (constant S_ .f32 0x40400000#32),
    unary main_cst_69 main_v326 (broadcastInDim S64x64 ![] bcast_S_S64x64 : (⟨S_, .f32⟩ : BufTy).Contents (Elt F) → (⟨S64x64, .f32⟩ : BufTy).Contents (Elt F)),
    binary main_v325 main_v326 main_v327 (Host.divf : (⟨S64x64, .f32⟩ : BufTy).Contents (Elt F) → (⟨S64x64, .f32⟩ : BufTy).Contents (Elt F) → (⟨S64x64, .f32⟩ : BufTy).Contents (Elt F)),
    binary main_v324 main_v327 main_v328 (addf : (⟨S64x64, .f32⟩ : BufTy).Contents (Elt F) → (⟨S64x64, .f32⟩ : BufTy).Contents (Elt F) → (⟨S64x64, .f32⟩ : BufTy).Contents (Elt F)),
    binary main_v327 main_v310 main_v329 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_70 (constant S_ .f32 0x40800000#32),
    unary main_cst_70 main_v330 (broadcastInDim S64x64 ![] bcast_S_S64x64 : (⟨S_, .f32⟩ : BufTy).Contents (Elt F) → (⟨S64x64, .f32⟩ : BufTy).Contents (Elt F)),
    binary main_v329 main_v330 main_v331 (Host.divf : (⟨S64x64, .f32⟩ : BufTy).Contents (Elt F) → (⟨S64x64, .f32⟩ : BufTy).Contents (Elt F) → (⟨S64x64, .f32⟩ : BufTy).Contents (Elt F)),
    binary main_v328 main_v331 main_v332 (addf : (⟨S64x64, .f32⟩ : BufTy).Contents (Elt F) → (⟨S64x64, .f32⟩ : BufTy).Contents (Elt F) → (⟨S64x64, .f32⟩ : BufTy).Contents (Elt F)),
    binary main_v331 main_v310 main_v333 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_71 (constant S_ .f32 0x40A00000#32),
    unary main_cst_71 main_v334 (broadcastInDim S64x64 ![] bcast_S_S64x64 : (⟨S_, .f32⟩ : BufTy).Contents (Elt F) → (⟨S64x64, .f32⟩ : BufTy).Contents (Elt F)),
    binary main_v333 main_v334 main_v335 (Host.divf : (⟨S64x64, .f32⟩ : BufTy).Contents (Elt F) → (⟨S64x64, .f32⟩ : BufTy).Contents (Elt F) → (⟨S64x64, .f32⟩ : BufTy).Contents (Elt F)),
    binary main_v332 main_v335 main_v336 (addf : (⟨S64x64, .f32⟩ : BufTy).Contents (Elt F) → (⟨S64x64, .f32⟩ : BufTy).Contents (Elt F) → (⟨S64x64, .f32⟩ : BufTy).Contents (Elt F)),
    binary main_v335 main_v310 main_v337 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_72 (constant S_ .f32 0x40C00000#32),
    unary main_cst_72 main_v338 (broadcastInDim S64x64 ![] bcast_S_S64x64 : (⟨S_, .f32⟩ : BufTy).Contents (Elt F) → (⟨S64x64, .f32⟩ : BufTy).Contents (Elt F)),
    binary main_v337 main_v338 main_v339 (Host.divf : (⟨S64x64, .f32⟩ : BufTy).Contents (Elt F) → (⟨S64x64, .f32⟩ : BufTy).Contents (Elt F) → (⟨S64x64, .f32⟩ : BufTy).Contents (Elt F)),
    binary main_v336 main_v339 main_v340 (addf : (⟨S64x64, .f32⟩ : BufTy).Contents (Elt F) → (⟨S64x64, .f32⟩ : BufTy).Contents (Elt F) → (⟨S64x64, .f32⟩ : BufTy).Contents (Elt F)),
    binary main_v339 main_v310 main_v341 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_73 (constant S_ .f32 0x40E00000#32),
    unary main_cst_73 main_v342 (broadcastInDim S64x64 ![] bcast_S_S64x64 : (⟨S_, .f32⟩ : BufTy).Contents (Elt F) → (⟨S64x64, .f32⟩ : BufTy).Contents (Elt F)),
    binary main_v341 main_v342 main_v343 (Host.divf : (⟨S64x64, .f32⟩ : BufTy).Contents (Elt F) → (⟨S64x64, .f32⟩ : BufTy).Contents (Elt F) → (⟨S64x64, .f32⟩ : BufTy).Contents (Elt F)) ]
theorem refP12_sub : (refP12 : List (HloOp τ sig (Elt F))).Forall fun op => op.bufs ⊆ tcRefs τ sig :=
  ⟨unary_bufs_sub .., reshape_bufs_sub .., unary_bufs_sub .., binary_bufs_sub .., nullary_bufs_sub .., nullary_bufs_sub .., nullary_bufs_sub .., unary_bufs_sub .., binary_bufs_sub .., binary_bufs_sub .., unary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub ..⟩
theorem refP12_fresh : (refP12 : List (HloOp τ sig (Elt F))).Forall fun op => op.fresh = ∅ := by
  simp only [List.Forall]; repeat' constructor
/-- The references the operations 378 … 422 write. -/
abbrev refP12_W : List (Ref sig .tc) := [main_v307, main_v308, main_v309, main_v310, main_v311, main_v312, main_c_66, main_v313, main_v314, main_v315, main_v316, main_v317, main_cst_67, main_v318, main_v319, main_v320, main_v321, main_cst_68, main_v322, main_v323, main_v324, main_v325, main_cst_69, main_v326, main_v327, main_v328, main_v329, main_cst_70, main_v330, main_v331, main_v332, main_v333, main_cst_71, main_v334, main_v335, main_v336, main_v337, main_cst_72, main_v338, main_v339, main_v340, main_v341, main_cst_73, main_v342, main_v343]
set_option maxHeartbeats 4000000 in
theorem refP12_writes : (refP12 : List (HloOp τ sig (Elt F))).Forall fun op => op.writes ⊆ (refP12_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide)⟩

set_option maxHeartbeats 4000000 in
/-- Operations 423 … 455 of the reference program, in order. -/
abbrev refP13 : List (HloOp τ sig (Elt F)) :=
  [ binary main_v340 main_v343 main_v344 (addf : (⟨S64x64, .f32⟩ : BufTy).Contents (Elt F) → (⟨S64x64, .f32⟩ : BufTy).Contents (Elt F) → (⟨S64x64, .f32⟩ : BufTy).Contents (Elt F)),
    binary main_v343 main_v310 main_v345 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_74 (constant S_ .f32 0x41000000#32),
    unary main_cst_74 main_v346 (broadcastInDim S64x64 ![] bcast_S_S64x64 : (⟨S_, .f32⟩ : BufTy).Contents (Elt F) → (⟨S64x64, .f32⟩ : BufTy).Contents (Elt F)),
    binary main_v345 main_v346 main_v347 (Host.divf : (⟨S64x64, .f32⟩ : BufTy).Contents (Elt F) → (⟨S64x64, .f32⟩ : BufTy).Contents (Elt F) → (⟨S64x64, .f32⟩ : BufTy).Contents (Elt F)),
    binary main_v344 main_v347 main_v348 (addf : (⟨S64x64, .f32⟩ : BufTy).Contents (Elt F) → (⟨S64x64, .f32⟩ : BufTy).Contents (Elt F) → (⟨S64x64, .f32⟩ : BufTy).Contents (Elt F)),
    binary main_v347 main_v310 main_v349 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_75 (constant S_ .f32 0x41100000#32),
    unary main_cst_75 main_v350 (broadcastInDim S64x64 ![] bcast_S_S64x64 : (⟨S_, .f32⟩ : BufTy).Contents (Elt F) → (⟨S64x64, .f32⟩ : BufTy).Contents (Elt F)),
    binary main_v349 main_v350 main_v351 (Host.divf : (⟨S64x64, .f32⟩ : BufTy).Contents (Elt F) → (⟨S64x64, .f32⟩ : BufTy).Contents (Elt F) → (⟨S64x64, .f32⟩ : BufTy).Contents (Elt F)),
    binary main_v348 main_v351 main_v352 (addf : (⟨S64x64, .f32⟩ : BufTy).Contents (Elt F) → (⟨S64x64, .f32⟩ : BufTy).Contents (Elt F) → (⟨S64x64, .f32⟩ : BufTy).Contents (Elt F)),
    binary main_v351 main_v310 main_v353 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_76 (constant S_ .f32 0x41200000#32),
    unary main_cst_76 main_v354 (broadcastInDim S64x64 ![] bcast_S_S64x64 : (⟨S_, .f32⟩ : BufTy).Contents (Elt F) → (⟨S64x64, .f32⟩ : BufTy).Contents (Elt F)),
    binary main_v353 main_v354 main_v355 (Host.divf : (⟨S64x64, .f32⟩ : BufTy).Contents (Elt F) → (⟨S64x64, .f32⟩ : BufTy).Contents (Elt F) → (⟨S64x64, .f32⟩ : BufTy).Contents (Elt F)),
    binary main_v352 main_v355 main_v356 (addf : (⟨S64x64, .f32⟩ : BufTy).Contents (Elt F) → (⟨S64x64, .f32⟩ : BufTy).Contents (Elt F) → (⟨S64x64, .f32⟩ : BufTy).Contents (Elt F)),
    unary main_v33 main_v357 (broadcastInDim S1400000x1 ![0] bcast_S1400000_S1400000x1_0 : (⟨S1400000, .f32⟩ : BufTy).Contents (Elt F) → (⟨S1400000x1, .f32⟩ : BufTy).Contents (Elt F)),
    nullary main_c_77 (constantI S_ 32 0#32),
    unary main_c_77 main_v358 (broadcastInDim S1400000 ![] bcast_S_S1400000 : (⟨S_, .i32⟩ : BufTy).Contents (Elt F) → (⟨S1400000, .i32⟩ : BufTy).Contents (Elt F)),
    binary main_v5 main_v358 main_v359 (cmpi .slt : (⟨S1400000, .i32⟩ : BufTy).Contents (Elt F) → (⟨S1400000, .i32⟩ : BufTy).Contents (Elt F) → (⟨S1400000, .i1⟩ : BufTy).Contents (Elt F)),
    nullary main_c_78 (constantI S_ 32 200000#32),
    unary main_c_78 main_v360 (broadcastInDim S1400000 ![] bcast_S_S1400000 : (⟨S_, .i32⟩ : BufTy).Contents (Elt F) → (⟨S1400000, .i32⟩ : BufTy).Contents (Elt F)),
    binary main_v5 main_v360 main_v361 (addi : (⟨S1400000, .i32⟩ : BufTy).Contents (Elt F) → (⟨S1400000, .i32⟩ : BufTy).Contents (Elt F) → (⟨S1400000, .i32⟩ : BufTy).Contents (Elt F)),
    ternary main_v359 main_v361 main_v5 main_v362 (select : (⟨S1400000, .i1⟩ : BufTy).Contents (Elt F) → (⟨S1400000, .i32⟩ : BufTy).Contents (Elt F) → (⟨S1400000, .i32⟩ : BufTy).Contents (Elt F) → (⟨S1400000, .i32⟩ : BufTy).Contents (Elt F)),
    unary main_v362 main_v363 (broadcastInDim S1400000x1 ![0] bcast_S1400000_S1400000x1_0 : (⟨S1400000, .i32⟩ : BufTy).Contents (Elt F) → (⟨S1400000x1, .i32⟩ : BufTy).Contents (Elt F)),
    binary main_v306 main_v363 main_v364 ((fun x i => Host.gather gather_S200000x64_S1400000x1_S1400000x64_1_0_n_n_0_1_164 x i) : (⟨S200000x64, .f32⟩ : BufTy).Contents (Elt F) → (⟨S1400000x1, .i32⟩ : BufTy).Contents (Elt F) → (⟨S1400000x64, .f32⟩ : BufTy).Contents (Elt F)),
    unary main_v357 main_v365 (broadcastInDim S1400000x64 ![0, 1] bcast_S1400000x1_S1400000x64_0_1 : (⟨S1400000x1, .f32⟩ : BufTy).Contents (Elt F) → (⟨S1400000x64, .f32⟩ : BufTy).Contents (Elt F)),
    binary main_v365 main_v364 main_v366 (mulf : (⟨S1400000x64, .f32⟩ : BufTy).Contents (Elt F) → (⟨S1400000x64, .f32⟩ : BufTy).Contents (Elt F) → (⟨S1400000x64, .f32⟩ : BufTy).Contents (Elt F)),
    nullary main_cst_79 (constant S_ .f32 0x00000000#32),
    unary main_cst_79 main_v367 (broadcastInDim S200000x64 ![] bcast_S_S200000x64 : (⟨S_, .f32⟩ : BufTy).Contents (Elt F) → (⟨S200000x64, .f32⟩ : BufTy).Contents (Elt F)),
    unary main_v6 main_v368 (broadcastInDim S1400000x1 ![0] bcast_S1400000_S1400000x1_0 : (⟨S1400000, .i32⟩ : BufTy).Contents (Elt F) → (⟨S1400000x1, .i32⟩ : BufTy).Contents (Elt F)),
    ternary main_v367 main_v368 main_v366 main_v369 ((fun x i u => Host.scatterAdd scatter_S200000x64_S1400000x1_S1400000x64_1_0_0_1 x i u) : (⟨S200000x64, .f32⟩ : BufTy).Contents (Elt F) → (⟨S1400000x1, .i32⟩ : BufTy).Contents (Elt F) → (⟨S1400000x64, .f32⟩ : BufTy).Contents (Elt F) → (⟨S200000x64, .f32⟩ : BufTy).Contents (Elt F)),
    binary main_v369 main_v356 main_v370 ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F)) ]
theorem refP13_sub : (refP13 : List (HloOp τ sig (Elt F))).Forall fun op => op.bufs ⊆ tcRefs τ sig :=
  ⟨binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub ..⟩
theorem refP13_fresh : (refP13 : List (HloOp τ sig (Elt F))).Forall fun op => op.fresh = ∅ := by
  simp only [List.Forall]; repeat' constructor
/-- The references the operations 423 … 455 write. -/
abbrev refP13_W : List (Ref sig .tc) := [main_v344, main_v345, main_cst_74, main_v346, main_v347, main_v348, main_v349, main_cst_75, main_v350, main_v351, main_v352, main_v353, main_cst_76, main_v354, main_v355, main_v356, main_v357, main_c_77, main_v358, main_v359, main_c_78, main_v360, main_v361, main_v362, main_v363, main_v364, main_v365, main_v366, main_cst_79, main_v367, main_v368, main_v369, main_v370]
set_option maxHeartbeats 4000000 in
theorem refP13_writes : (refP13 : List (HloOp τ sig (Elt F))).Forall fun op => op.writes ⊆ (refP13_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide)⟩

end Cert.ReferenceIdeal.RefRun

end
-- ==== Proof.RefOps2.lean ====
/- The pieces 14 … 20 of the reference program's 865 host operations in order (27 pieces in all; a called function's
   operations in its call's place); per piece: every operation touches TensorCore references only and determines what it
   writes, the references the piece writes, and every operation writes inside that list.
-/
import proofs.«415904_j29016799052628_2_alg».proof.Proof.Gen.ReferenceIdeal
import Idealize.ShloMosaic.Lib.StableHlo.Run

set_option maxRecDepth 16384
set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- Operations 456 … 482 of the reference program, in order. -/
abbrev refP14 : List (HloOp τ sig (Elt F)) :=
  [ unary main_arg5 main_v371 ((extractStridedSlice S1x64x64 ![5, 0, 0] · slices_S10x64x64_S1x64x64_5_0_0) : (⟨S10x64x64, .f32⟩ : BufTy).Contents (Elt F) → (⟨S1x64x64, .f32⟩ : BufTy).Contents (Elt F)),
    reshape main_v371 main_v372 rfl shapeCasts_S1x64x64_S64x64,
    unary main_v372 main_v373 ((transpose S64x64 [1, 0] · transposes_S64x64_S64x64_1_0) : (⟨S64x64, .f32⟩ : BufTy).Contents (Elt F) → (⟨S64x64, .f32⟩ : BufTy).Contents (Elt F)),
    binary main_v372 main_v373 main_v374 (subf : (⟨S64x64, .f32⟩ : BufTy).Contents (Elt F) → (⟨S64x64, .f32⟩ : BufTy).Contents (Elt F) → (⟨S64x64, .f32⟩ : BufTy).Contents (Elt F)),
    nullary main_v375 (iotaInDim S64x64 32 0),
    nullary main_v376 (iotaInDim S64x64 32 1),
    nullary main_c_80 (constantI S_ 32 0#32),
    unary main_c_80 main_v377 (broadcastInDim S64x64 ![] bcast_S_S64x64 : (⟨S_, .i32⟩ : BufTy).Contents (Elt F) → (⟨S64x64, .i32⟩ : BufTy).Contents (Elt F)),
    binary main_v375 main_v377 main_v378 (addi : (⟨S64x64, .i32⟩ : BufTy).Contents (Elt F) → (⟨S64x64, .i32⟩ : BufTy).Contents (Elt F) → (⟨S64x64, .i32⟩ : BufTy).Contents (Elt F)),
    binary main_v378 main_v376 main_v379 (cmpi .eq : (⟨S64x64, .i32⟩ : BufTy).Contents (Elt F) → (⟨S64x64, .i32⟩ : BufTy).Contents (Elt F) → (⟨S64x64, .i1⟩ : BufTy).Contents (Elt F)),
    unary main_v379 main_v380 (uitofp .f32 : (⟨S64x64, .i1⟩ : BufTy).Contents (Elt F) → (⟨S64x64, .f32⟩ : BufTy).Contents (Elt F)),
    binary main_v380 main_v374 main_v381 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_81 (constant S_ .f32 0x3F800000#32),
    unary main_cst_81 main_v382 (broadcastInDim S64x64 ![] bcast_S_S64x64 : (⟨S_, .f32⟩ : BufTy).Contents (Elt F) → (⟨S64x64, .f32⟩ : BufTy).Contents (Elt F)),
    binary main_v381 main_v382 main_v383 (Host.divf : (⟨S64x64, .f32⟩ : BufTy).Contents (Elt F) → (⟨S64x64, .f32⟩ : BufTy).Contents (Elt F) → (⟨S64x64, .f32⟩ : BufTy).Contents (Elt F)),
    binary main_v380 main_v383 main_v384 (addf : (⟨S64x64, .f32⟩ : BufTy).Contents (Elt F) → (⟨S64x64, .f32⟩ : BufTy).Contents (Elt F) → (⟨S64x64, .f32⟩ : BufTy).Contents (Elt F)),
    binary main_v383 main_v374 main_v385 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_82 (constant S_ .f32 0x40000000#32),
    unary main_cst_82 main_v386 (broadcastInDim S64x64 ![] bcast_S_S64x64 : (⟨S_, .f32⟩ : BufTy).Contents (Elt F) → (⟨S64x64, .f32⟩ : BufTy).Contents (Elt F)),
    binary main_v385 main_v386 main_v387 (Host.divf : (⟨S64x64, .f32⟩ : BufTy).Contents (Elt F) → (⟨S64x64, .f32⟩ : BufTy).Contents (Elt F) → (⟨S64x64, .f32⟩ : BufTy).Contents (Elt F)),
    binary main_v384 main_v387 main_v388 (addf : (⟨S64x64, .f32⟩ : BufTy).Contents (Elt F) → (⟨S64x64, .f32⟩ : BufTy).Contents (Elt F) → (⟨S64x64, .f32⟩ : BufTy).Contents (Elt F)),
    binary main_v387 main_v374 main_v389 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_83 (constant S_ .f32 0x40400000#32),
    unary main_cst_83 main_v390 (broadcastInDim S64x64 ![] bcast_S_S64x64 : (⟨S_, .f32⟩ : BufTy).Contents (Elt F) → (⟨S64x64, .f32⟩ : BufTy).Contents (Elt F)),
    binary main_v389 main_v390 main_v391 (Host.divf : (⟨S64x64, .f32⟩ : BufTy).Contents (Elt F) → (⟨S64x64, .f32⟩ : BufTy).Contents (Elt F) → (⟨S64x64, .f32⟩ : BufTy).Contents (Elt F)),
    binary main_v388 main_v391 main_v392 (addf : (⟨S64x64, .f32⟩ : BufTy).Contents (Elt F) → (⟨S64x64, .f32⟩ : BufTy).Contents (Elt F) → (⟨S64x64, .f32⟩ : BufTy).Contents (Elt F)),
    binary main_v391 main_v374 main_v393 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)) ]
theorem refP14_sub : (refP14 : List (HloOp τ sig (Elt F))).Forall fun op => op.bufs ⊆ tcRefs τ sig :=
  ⟨unary_bufs_sub .., reshape_bufs_sub .., unary_bufs_sub .., binary_bufs_sub .., nullary_bufs_sub .., nullary_bufs_sub .., nullary_bufs_sub .., unary_bufs_sub .., binary_bufs_sub .., binary_bufs_sub .., unary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub ..⟩
theorem refP14_fresh : (refP14 : List (HloOp τ sig (Elt F))).Forall fun op => op.fresh = ∅ := by
  simp only [List.Forall]; repeat' constructor
/-- The references the operations 456 … 482 write. -/
abbrev refP14_W : List (Ref sig .tc) := [main_v371, main_v372, main_v373, main_v374, main_v375, main_v376, main_c_80, main_v377, main_v378, main_v379, main_v380, main_v381, main_cst_81, main_v382, main_v383, main_v384, main_v385, main_cst_82, main_v386, main_v387, main_v388, main_v389, main_cst_83, main_v390, main_v391, main_v392, main_v393]
set_option maxHeartbeats 4000000 in
theorem refP14_writes : (refP14 : List (HloOp τ sig (Elt F))).Forall fun op => op.writes ⊆ (refP14_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide)⟩

set_option maxHeartbeats 4000000 in
/-- Operations 483 … 533 of the reference program, in order. -/
abbrev refP15 : List (HloOp τ sig (Elt F)) :=
  [ nullary main_cst_84 (constant S_ .f32 0x40800000#32),
    unary main_cst_84 main_v394 (broadcastInDim S64x64 ![] bcast_S_S64x64 : (⟨S_, .f32⟩ : BufTy).Contents (Elt F) → (⟨S64x64, .f32⟩ : BufTy).Contents (Elt F)),
    binary main_v393 main_v394 main_v395 (Host.divf : (⟨S64x64, .f32⟩ : BufTy).Contents (Elt F) → (⟨S64x64, .f32⟩ : BufTy).Contents (Elt F) → (⟨S64x64, .f32⟩ : BufTy).Contents (Elt F)),
    binary main_v392 main_v395 main_v396 (addf : (⟨S64x64, .f32⟩ : BufTy).Contents (Elt F) → (⟨S64x64, .f32⟩ : BufTy).Contents (Elt F) → (⟨S64x64, .f32⟩ : BufTy).Contents (Elt F)),
    binary main_v395 main_v374 main_v397 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_85 (constant S_ .f32 0x40A00000#32),
    unary main_cst_85 main_v398 (broadcastInDim S64x64 ![] bcast_S_S64x64 : (⟨S_, .f32⟩ : BufTy).Contents (Elt F) → (⟨S64x64, .f32⟩ : BufTy).Contents (Elt F)),
    binary main_v397 main_v398 main_v399 (Host.divf : (⟨S64x64, .f32⟩ : BufTy).Contents (Elt F) → (⟨S64x64, .f32⟩ : BufTy).Contents (Elt F) → (⟨S64x64, .f32⟩ : BufTy).Contents (Elt F)),
    binary main_v396 main_v399 main_v400 (addf : (⟨S64x64, .f32⟩ : BufTy).Contents (Elt F) → (⟨S64x64, .f32⟩ : BufTy).Contents (Elt F) → (⟨S64x64, .f32⟩ : BufTy).Contents (Elt F)),
    binary main_v399 main_v374 main_v401 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_86 (constant S_ .f32 0x40C00000#32),
    unary main_cst_86 main_v402 (broadcastInDim S64x64 ![] bcast_S_S64x64 : (⟨S_, .f32⟩ : BufTy).Contents (Elt F) → (⟨S64x64, .f32⟩ : BufTy).Contents (Elt F)),
    binary main_v401 main_v402 main_v403 (Host.divf : (⟨S64x64, .f32⟩ : BufTy).Contents (Elt F) → (⟨S64x64, .f32⟩ : BufTy).Contents (Elt F) → (⟨S64x64, .f32⟩ : BufTy).Contents (Elt F)),
    binary main_v400 main_v403 main_v404 (addf : (⟨S64x64, .f32⟩ : BufTy).Contents (Elt F) → (⟨S64x64, .f32⟩ : BufTy).Contents (Elt F) → (⟨S64x64, .f32⟩ : BufTy).Contents (Elt F)),
    binary main_v403 main_v374 main_v405 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_87 (constant S_ .f32 0x40E00000#32),
    unary main_cst_87 main_v406 (broadcastInDim S64x64 ![] bcast_S_S64x64 : (⟨S_, .f32⟩ : BufTy).Contents (Elt F) → (⟨S64x64, .f32⟩ : BufTy).Contents (Elt F)),
    binary main_v405 main_v406 main_v407 (Host.divf : (⟨S64x64, .f32⟩ : BufTy).Contents (Elt F) → (⟨S64x64, .f32⟩ : BufTy).Contents (Elt F) → (⟨S64x64, .f32⟩ : BufTy).Contents (Elt F)),
    binary main_v404 main_v407 main_v408 (addf : (⟨S64x64, .f32⟩ : BufTy).Contents (Elt F) → (⟨S64x64, .f32⟩ : BufTy).Contents (Elt F) → (⟨S64x64, .f32⟩ : BufTy).Contents (Elt F)),
    binary main_v407 main_v374 main_v409 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_88 (constant S_ .f32 0x41000000#32),
    unary main_cst_88 main_v410 (broadcastInDim S64x64 ![] bcast_S_S64x64 : (⟨S_, .f32⟩ : BufTy).Contents (Elt F) → (⟨S64x64, .f32⟩ : BufTy).Contents (Elt F)),
    binary main_v409 main_v410 main_v411 (Host.divf : (⟨S64x64, .f32⟩ : BufTy).Contents (Elt F) → (⟨S64x64, .f32⟩ : BufTy).Contents (Elt F) → (⟨S64x64, .f32⟩ : BufTy).Contents (Elt F)),
    binary main_v408 main_v411 main_v412 (addf : (⟨S64x64, .f32⟩ : BufTy).Contents (Elt F) → (⟨S64x64, .f32⟩ : BufTy).Contents (Elt F) → (⟨S64x64, .f32⟩ : BufTy).Contents (Elt F)),
    binary main_v411 main_v374 main_v413 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_89 (constant S_ .f32 0x41100000#32),
    unary main_cst_89 main_v414 (broadcastInDim S64x64 ![] bcast_S_S64x64 : (⟨S_, .f32⟩ : BufTy).Contents (Elt F) → (⟨S64x64, .f32⟩ : BufTy).Contents (Elt F)),
    binary main_v413 main_v414 main_v415 (Host.divf : (⟨S64x64, .f32⟩ : BufTy).Contents (Elt F) → (⟨S64x64, .f32⟩ : BufTy).Contents (Elt F) → (⟨S64x64, .f32⟩ : BufTy).Contents (Elt F)),
    binary main_v412 main_v415 main_v416 (addf : (⟨S64x64, .f32⟩ : BufTy).Contents (Elt F) → (⟨S64x64, .f32⟩ : BufTy).Contents (Elt F) → (⟨S64x64, .f32⟩ : BufTy).Contents (Elt F)),
    binary main_v415 main_v374 main_v417 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_90 (constant S_ .f32 0x41200000#32),
    unary main_cst_90 main_v418 (broadcastInDim S64x64 ![] bcast_S_S64x64 : (⟨S_, .f32⟩ : BufTy).Contents (Elt F) → (⟨S64x64, .f32⟩ : BufTy).Contents (Elt F)),
    binary main_v417 main_v418 main_v419 (Host.divf : (⟨S64x64, .f32⟩ : BufTy).Contents (Elt F) → (⟨S64x64, .f32⟩ : BufTy).Contents (Elt F) → (⟨S64x64, .f32⟩ : BufTy).Contents (Elt F)),
    binary main_v416 main_v419 main_v420 (addf : (⟨S64x64, .f32⟩ : BufTy).Contents (Elt F) → (⟨S64x64, .f32⟩ : BufTy).Contents (Elt F) → (⟨S64x64, .f32⟩ : BufTy).Contents (Elt F)),
    unary main_v33 main_v421 (broadcastInDim S1400000x1 ![0] bcast_S1400000_S1400000x1_0 : (⟨S1400000, .f32⟩ : BufTy).Contents (Elt F) → (⟨S1400000x1, .f32⟩ : BufTy).Contents (Elt F)),
    nullary main_c_91 (constantI S_ 32 0#32),
    unary main_c_91 main_v422 (broadcastInDim S1400000 ![] bcast_S_S1400000 : (⟨S_, .i32⟩ : BufTy).Contents (Elt F) → (⟨S1400000, .i32⟩ : BufTy).Contents (Elt F)),
    binary main_v5 main_v422 main_v423 (cmpi .slt : (⟨S1400000, .i32⟩ : BufTy).Contents (Elt F) → (⟨S1400000, .i32⟩ : BufTy).Contents (Elt F) → (⟨S1400000, .i1⟩ : BufTy).Contents (Elt F)),
    nullary main_c_92 (constantI S_ 32 200000#32),
    unary main_c_92 main_v424 (broadcastInDim S1400000 ![] bcast_S_S1400000 : (⟨S_, .i32⟩ : BufTy).Contents (Elt F) → (⟨S1400000, .i32⟩ : BufTy).Contents (Elt F)),
    binary main_v5 main_v424 main_v425 (addi : (⟨S1400000, .i32⟩ : BufTy).Contents (Elt F) → (⟨S1400000, .i32⟩ : BufTy).Contents (Elt F) → (⟨S1400000, .i32⟩ : BufTy).Contents (Elt F)),
    ternary main_v423 main_v425 main_v5 main_v426 (select : (⟨S1400000, .i1⟩ : BufTy).Contents (Elt F) → (⟨S1400000, .i32⟩ : BufTy).Contents (Elt F) → (⟨S1400000, .i32⟩ : BufTy).Contents (Elt F) → (⟨S1400000, .i32⟩ : BufTy).Contents (Elt F)),
    unary main_v426 main_v427 (broadcastInDim S1400000x1 ![0] bcast_S1400000_S1400000x1_0 : (⟨S1400000, .i32⟩ : BufTy).Contents (Elt F) → (⟨S1400000x1, .i32⟩ : BufTy).Contents (Elt F)),
    binary main_v370 main_v427 main_v428 ((fun x i => Host.gather gather_S200000x64_S1400000x1_S1400000x64_1_0_n_n_0_1_164 x i) : (⟨S200000x64, .f32⟩ : BufTy).Contents (Elt F) → (⟨S1400000x1, .i32⟩ : BufTy).Contents (Elt F) → (⟨S1400000x64, .f32⟩ : BufTy).Contents (Elt F)),
    unary main_v421 main_v429 (broadcastInDim S1400000x64 ![0, 1] bcast_S1400000x1_S1400000x64_0_1 : (⟨S1400000x1, .f32⟩ : BufTy).Contents (Elt F) → (⟨S1400000x64, .f32⟩ : BufTy).Contents (Elt F)),
    binary main_v429 main_v428 main_v430 (mulf : (⟨S1400000x64, .f32⟩ : BufTy).Contents (Elt F) → (⟨S1400000x64, .f32⟩ : BufTy).Contents (Elt F) → (⟨S1400000x64, .f32⟩ : BufTy).Contents (Elt F)),
    nullary main_cst_93 (constant S_ .f32 0x00000000#32),
    unary main_cst_93 main_v431 (broadcastInDim S200000x64 ![] bcast_S_S200000x64 : (⟨S_, .f32⟩ : BufTy).Contents (Elt F) → (⟨S200000x64, .f32⟩ : BufTy).Contents (Elt F)),
    unary main_v6 main_v432 (broadcastInDim S1400000x1 ![0] bcast_S1400000_S1400000x1_0 : (⟨S1400000, .i32⟩ : BufTy).Contents (Elt F) → (⟨S1400000x1, .i32⟩ : BufTy).Contents (Elt F)),
    ternary main_v431 main_v432 main_v430 main_v433 ((fun x i u => Host.scatterAdd scatter_S200000x64_S1400000x1_S1400000x64_1_0_0_1 x i u) : (⟨S200000x64, .f32⟩ : BufTy).Contents (Elt F) → (⟨S1400000x1, .i32⟩ : BufTy).Contents (Elt F) → (⟨S1400000x64, .f32⟩ : BufTy).Contents (Elt F) → (⟨S200000x64, .f32⟩ : BufTy).Contents (Elt F)),
    binary main_v433 main_v420 main_v434 ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F)) ]
theorem refP15_sub : (refP15 : List (HloOp τ sig (Elt F))).Forall fun op => op.bufs ⊆ tcRefs τ sig :=
  ⟨nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub ..⟩
theorem refP15_fresh : (refP15 : List (HloOp τ sig (Elt F))).Forall fun op => op.fresh = ∅ := by
  simp only [List.Forall]; repeat' constructor
/-- The references the operations 483 … 533 write. -/
abbrev refP15_W : List (Ref sig .tc) := [main_cst_84, main_v394, main_v395, main_v396, main_v397, main_cst_85, main_v398, main_v399, main_v400, main_v401, main_cst_86, main_v402, main_v403, main_v404, main_v405, main_cst_87, main_v406, main_v407, main_v408, main_v409, main_cst_88, main_v410, main_v411, main_v412, main_v413, main_cst_89, main_v414, main_v415, main_v416, main_v417, main_cst_90, main_v418, main_v419, main_v420, main_v421, main_c_91, main_v422, main_v423, main_c_92, main_v424, main_v425, main_v426, main_v427, main_v428, main_v429, main_v430, main_cst_93, main_v431, main_v432, main_v433, main_v434]
set_option maxHeartbeats 4000000 in
theorem refP15_writes : (refP15 : List (HloOp τ sig (Elt F))).Forall fun op => op.writes ⊆ (refP15_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide)⟩

set_option maxHeartbeats 4000000 in
/-- Operations 534 … 542 of the reference program, in order. -/
abbrev refP16 : List (HloOp τ sig (Elt F)) :=
  [ unary main_arg5 main_v435 ((extractStridedSlice S1x64x64 ![6, 0, 0] · slices_S10x64x64_S1x64x64_6_0_0) : (⟨S10x64x64, .f32⟩ : BufTy).Contents (Elt F) → (⟨S1x64x64, .f32⟩ : BufTy).Contents (Elt F)),
    reshape main_v435 main_v436 rfl shapeCasts_S1x64x64_S64x64,
    unary main_v436 main_v437 ((transpose S64x64 [1, 0] · transposes_S64x64_S64x64_1_0) : (⟨S64x64, .f32⟩ : BufTy).Contents (Elt F) → (⟨S64x64, .f32⟩ : BufTy).Contents (Elt F)),
    binary main_v436 main_v437 main_v438 (subf : (⟨S64x64, .f32⟩ : BufTy).Contents (Elt F) → (⟨S64x64, .f32⟩ : BufTy).Contents (Elt F) → (⟨S64x64, .f32⟩ : BufTy).Contents (Elt F)),
    nullary main_v439 (iotaInDim S64x64 32 0),
    nullary main_v440 (iotaInDim S64x64 32 1),
    nullary main_c_94 (constantI S_ 32 0#32),
    unary main_c_94 main_v441 (broadcastInDim S64x64 ![] bcast_S_S64x64 : (⟨S_, .i32⟩ : BufTy).Contents (Elt F) → (⟨S64x64, .i32⟩ : BufTy).Contents (Elt F)),
    binary main_v439 main_v441 main_v442 (addi : (⟨S64x64, .i32⟩ : BufTy).Contents (Elt F) → (⟨S64x64, .i32⟩ : BufTy).Contents (Elt F) → (⟨S64x64, .i32⟩ : BufTy).Contents (Elt F)) ]
theorem refP16_sub : (refP16 : List (HloOp τ sig (Elt F))).Forall fun op => op.bufs ⊆ tcRefs τ sig :=
  ⟨unary_bufs_sub .., reshape_bufs_sub .., unary_bufs_sub .., binary_bufs_sub .., nullary_bufs_sub .., nullary_bufs_sub .., nullary_bufs_sub .., unary_bufs_sub .., binary_bufs_sub ..⟩
theorem refP16_fresh : (refP16 : List (HloOp τ sig (Elt F))).Forall fun op => op.fresh = ∅ := by
  simp only [List.Forall]; repeat' constructor
/-- The references the operations 534 … 542 write. -/
abbrev refP16_W : List (Ref sig .tc) := [main_v435, main_v436, main_v437, main_v438, main_v439, main_v440, main_c_94, main_v441, main_v442]
set_option maxHeartbeats 4000000 in
theorem refP16_writes : (refP16 : List (HloOp τ sig (Elt F))).Forall fun op => op.writes ⊆ (refP16_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide)⟩

set_option maxHeartbeats 4000000 in
/-- Operations 543 … 602 of the reference program, in order. -/
abbrev refP17 : List (HloOp τ sig (Elt F)) :=
  [ binary main_v442 main_v440 main_v443 (cmpi .eq : (⟨S64x64, .i32⟩ : BufTy).Contents (Elt F) → (⟨S64x64, .i32⟩ : BufTy).Contents (Elt F) → (⟨S64x64, .i1⟩ : BufTy).Contents (Elt F)),
    unary main_v443 main_v444 (uitofp .f32 : (⟨S64x64, .i1⟩ : BufTy).Contents (Elt F) → (⟨S64x64, .f32⟩ : BufTy).Contents (Elt F)),
    binary main_v444 main_v438 main_v445 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_95 (constant S_ .f32 0x3F800000#32),
    unary main_cst_95 main_v446 (broadcastInDim S64x64 ![] bcast_S_S64x64 : (⟨S_, .f32⟩ : BufTy).Contents (Elt F) → (⟨S64x64, .f32⟩ : BufTy).Contents (Elt F)),
    binary main_v445 main_v446 main_v447 (Host.divf : (⟨S64x64, .f32⟩ : BufTy).Contents (Elt F) → (⟨S64x64, .f32⟩ : BufTy).Contents (Elt F) → (⟨S64x64, .f32⟩ : BufTy).Contents (Elt F)),
    binary main_v444 main_v447 main_v448 (addf : (⟨S64x64, .f32⟩ : BufTy).Contents (Elt F) → (⟨S64x64, .f32⟩ : BufTy).Contents (Elt F) → (⟨S64x64, .f32⟩ : BufTy).Contents (Elt F)),
    binary main_v447 main_v438 main_v449 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_96 (constant S_ .f32 0x40000000#32),
    unary main_cst_96 main_v450 (broadcastInDim S64x64 ![] bcast_S_S64x64 : (⟨S_, .f32⟩ : BufTy).Contents (Elt F) → (⟨S64x64, .f32⟩ : BufTy).Contents (Elt F)),
    binary main_v449 main_v450 main_v451 (Host.divf : (⟨S64x64, .f32⟩ : BufTy).Contents (Elt F) → (⟨S64x64, .f32⟩ : BufTy).Contents (Elt F) → (⟨S64x64, .f32⟩ : BufTy).Contents (Elt F)),
    binary main_v448 main_v451 main_v452 (addf : (⟨S64x64, .f32⟩ : BufTy).Contents (Elt F) → (⟨S64x64, .f32⟩ : BufTy).Contents (Elt F) → (⟨S64x64, .f32⟩ : BufTy).Contents (Elt F)),
    binary main_v451 main_v438 main_v453 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_97 (constant S_ .f32 0x40400000#32),
    unary main_cst_97 main_v454 (broadcastInDim S64x64 ![] bcast_S_S64x64 : (⟨S_, .f32⟩ : BufTy).Contents (Elt F) → (⟨S64x64, .f32⟩ : BufTy).Contents (Elt F)),
    binary main_v453 main_v454 main_v455 (Host.divf : (⟨S64x64, .f32⟩ : BufTy).Contents (Elt F) → (⟨S64x64, .f32⟩ : BufTy).Contents (Elt F) → (⟨S64x64, .f32⟩ : BufTy).Contents (Elt F)),
    binary main_v452 main_v455 main_v456 (addf : (⟨S64x64, .f32⟩ : BufTy).Contents (Elt F) → (⟨S64x64, .f32⟩ : BufTy).Contents (Elt F) → (⟨S64x64, .f32⟩ : BufTy).Contents (Elt F)),
    binary main_v455 main_v438 main_v457 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_98 (constant S_ .f32 0x40800000#32),
    unary main_cst_98 main_v458 (broadcastInDim S64x64 ![] bcast_S_S64x64 : (⟨S_, .f32⟩ : BufTy).Contents (Elt F) → (⟨S64x64, .f32⟩ : BufTy).Contents (Elt F)),
    binary main_v457 main_v458 main_v459 (Host.divf : (⟨S64x64, .f32⟩ : BufTy).Contents (Elt F) → (⟨S64x64, .f32⟩ : BufTy).Contents (Elt F) → (⟨S64x64, .f32⟩ : BufTy).Contents (Elt F)),
    binary main_v456 main_v459 main_v460 (addf : (⟨S64x64, .f32⟩ : BufTy).Contents (Elt F) → (⟨S64x64, .f32⟩ : BufTy).Contents (Elt F) → (⟨S64x64, .f32⟩ : BufTy).Contents (Elt F)),
    binary main_v459 main_v438 main_v461 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_99 (constant S_ .f32 0x40A00000#32),
    unary main_cst_99 main_v462 (broadcastInDim S64x64 ![] bcast_S_S64x64 : (⟨S_, .f32⟩ : BufTy).Contents (Elt F) → (⟨S64x64, .f32⟩ : BufTy).Contents (Elt F)),
    binary main_v461 main_v462 main_v463 (Host.divf : (⟨S64x64, .f32⟩ : BufTy).Contents (Elt F) → (⟨S64x64, .f32⟩ : BufTy).Contents (Elt F) → (⟨S64x64, .f32⟩ : BufTy).Contents (Elt F)),
    binary main_v460 main_v463 main_v464 (addf : (⟨S64x64, .f32⟩ : BufTy).Contents (Elt F) → (⟨S64x64, .f32⟩ : BufTy).Contents (Elt F) → (⟨S64x64, .f32⟩ : BufTy).Contents (Elt F)),
    binary main_v463 main_v438 main_v465 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_100 (constant S_ .f32 0x40C00000#32),
    unary main_cst_100 main_v466 (broadcastInDim S64x64 ![] bcast_S_S64x64 : (⟨S_, .f32⟩ : BufTy).Contents (Elt F) → (⟨S64x64, .f32⟩ : BufTy).Contents (Elt F)),
    binary main_v465 main_v466 main_v467 (Host.divf : (⟨S64x64, .f32⟩ : BufTy).Contents (Elt F) → (⟨S64x64, .f32⟩ : BufTy).Contents (Elt F) → (⟨S64x64, .f32⟩ : BufTy).Contents (Elt F)),
    binary main_v464 main_v467 main_v468 (addf : (⟨S64x64, .f32⟩ : BufTy).Contents (Elt F) → (⟨S64x64, .f32⟩ : BufTy).Contents (Elt F) → (⟨S64x64, .f32⟩ : BufTy).Contents (Elt F)),
    binary main_v467 main_v438 main_v469 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_101 (constant S_ .f32 0x40E00000#32),
    unary main_cst_101 main_v470 (broadcastInDim S64x64 ![] bcast_S_S64x64 : (⟨S_, .f32⟩ : BufTy).Contents (Elt F) → (⟨S64x64, .f32⟩ : BufTy).Contents (Elt F)),
    binary main_v469 main_v470 main_v471 (Host.divf : (⟨S64x64, .f32⟩ : BufTy).Contents (Elt F) → (⟨S64x64, .f32⟩ : BufTy).Contents (Elt F) → (⟨S64x64, .f32⟩ : BufTy).Contents (Elt F)),
    binary main_v468 main_v471 main_v472 (addf : (⟨S64x64, .f32⟩ : BufTy).Contents (Elt F) → (⟨S64x64, .f32⟩ : BufTy).Contents (Elt F) → (⟨S64x64, .f32⟩ : BufTy).Contents (Elt F)),
    binary main_v471 main_v438 main_v473 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_102 (constant S_ .f32 0x41000000#32),
    unary main_cst_102 main_v474 (broadcastInDim S64x64 ![] bcast_S_S64x64 : (⟨S_, .f32⟩ : BufTy).Contents (Elt F) → (⟨S64x64, .f32⟩ : BufTy).Contents (Elt F)),
    binary main_v473 main_v474 main_v475 (Host.divf : (⟨S64x64, .f32⟩ : BufTy).Contents (Elt F) → (⟨S64x64, .f32⟩ : BufTy).Contents (Elt F) → (⟨S64x64, .f32⟩ : BufTy).Contents (Elt F)),
    binary main_v472 main_v475 main_v476 (addf : (⟨S64x64, .f32⟩ : BufTy).Contents (Elt F) → (⟨S64x64, .f32⟩ : BufTy).Contents (Elt F) → (⟨S64x64, .f32⟩ : BufTy).Contents (Elt F)),
    binary main_v475 main_v438 main_v477 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_103 (constant S_ .f32 0x41100000#32),
    unary main_cst_103 main_v478 (broadcastInDim S64x64 ![] bcast_S_S64x64 : (⟨S_, .f32⟩ : BufTy).Contents (Elt F) → (⟨S64x64, .f32⟩ : BufTy).Contents (Elt F)),
    binary main_v477 main_v478 main_v479 (Host.divf : (⟨S64x64, .f32⟩ : BufTy).Contents (Elt F) → (⟨S64x64, .f32⟩ : BufTy).Contents (Elt F) → (⟨S64x64, .f32⟩ : BufTy).Contents (Elt F)),
    binary main_v476 main_v479 main_v480 (addf : (⟨S64x64, .f32⟩ : BufTy).Contents (Elt F) → (⟨S64x64, .f32⟩ : BufTy).Contents (Elt F) → (⟨S64x64, .f32⟩ : BufTy).Contents (Elt F)),
    binary main_v479 main_v438 main_v481 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_104 (constant S_ .f32 0x41200000#32),
    unary main_cst_104 main_v482 (broadcastInDim S64x64 ![] bcast_S_S64x64 : (⟨S_, .f32⟩ : BufTy).Contents (Elt F) → (⟨S64x64, .f32⟩ : BufTy).Contents (Elt F)),
    binary main_v481 main_v482 main_v483 (Host.divf : (⟨S64x64, .f32⟩ : BufTy).Contents (Elt F) → (⟨S64x64, .f32⟩ : BufTy).Contents (Elt F) → (⟨S64x64, .f32⟩ : BufTy).Contents (Elt F)),
    binary main_v480 main_v483 main_v484 (addf : (⟨S64x64, .f32⟩ : BufTy).Contents (Elt F) → (⟨S64x64, .f32⟩ : BufTy).Contents (Elt F) → (⟨S64x64, .f32⟩ : BufTy).Contents (Elt F)),
    unary main_v33 main_v485 (broadcastInDim S1400000x1 ![0] bcast_S1400000_S1400000x1_0 : (⟨S1400000, .f32⟩ : BufTy).Contents (Elt F) → (⟨S1400000x1, .f32⟩ : BufTy).Contents (Elt F)),
    nullary main_c_105 (constantI S_ 32 0#32),
    unary main_c_105 main_v486 (broadcastInDim S1400000 ![] bcast_S_S1400000 : (⟨S_, .i32⟩ : BufTy).Contents (Elt F) → (⟨S1400000, .i32⟩ : BufTy).Contents (Elt F)),
    binary main_v5 main_v486 main_v487 (cmpi .slt : (⟨S1400000, .i32⟩ : BufTy).Contents (Elt F) → (⟨S1400000, .i32⟩ : BufTy).Contents (Elt F) → (⟨S1400000, .i1⟩ : BufTy).Contents (Elt F)),
    nullary main_c_106 (constantI S_ 32 200000#32),
    unary main_c_106 main_v488 (broadcastInDim S1400000 ![] bcast_S_S1400000 : (⟨S_, .i32⟩ : BufTy).Contents (Elt F) → (⟨S1400000, .i32⟩ : BufTy).Contents (Elt F)),
    binary main_v5 main_v488 main_v489 (addi : (⟨S1400000, .i32⟩ : BufTy).Contents (Elt F) → (⟨S1400000, .i32⟩ : BufTy).Contents (Elt F) → (⟨S1400000, .i32⟩ : BufTy).Contents (Elt F)),
    ternary main_v487 main_v489 main_v5 main_v490 (select : (⟨S1400000, .i1⟩ : BufTy).Contents (Elt F) → (⟨S1400000, .i32⟩ : BufTy).Contents (Elt F) → (⟨S1400000, .i32⟩ : BufTy).Contents (Elt F) → (⟨S1400000, .i32⟩ : BufTy).Contents (Elt F)) ]
theorem refP17_sub : (refP17 : List (HloOp τ sig (Elt F))).Forall fun op => op.bufs ⊆ tcRefs τ sig :=
  ⟨binary_bufs_sub .., unary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub ..⟩
theorem refP17_fresh : (refP17 : List (HloOp τ sig (Elt F))).Forall fun op => op.fresh = ∅ := by
  simp only [List.Forall]; repeat' constructor
/-- The references the operations 543 … 602 write. -/
abbrev refP17_W : List (Ref sig .tc) := [main_v443, main_v444, main_v445, main_cst_95, main_v446, main_v447, main_v448, main_v449, main_cst_96, main_v450, main_v451, main_v452, main_v453, main_cst_97, main_v454, main_v455, main_v456, main_v457, main_cst_98, main_v458, main_v459, main_v460, main_v461, main_cst_99, main_v462, main_v463, main_v464, main_v465, main_cst_100, main_v466, main_v467, main_v468, main_v469, main_cst_101, main_v470, main_v471, main_v472, main_v473, main_cst_102, main_v474, main_v475, main_v476, main_v477, main_cst_103, main_v478, main_v479, main_v480, main_v481, main_cst_104, main_v482, main_v483, main_v484, main_v485, main_c_105, main_v486, main_v487, main_c_106, main_v488, main_v489, main_v490]
set_option maxHeartbeats 4000000 in
theorem refP17_writes : (refP17 : List (HloOp τ sig (Elt F))).Forall fun op => op.writes ⊆ (refP17_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide)⟩

set_option maxHeartbeats 4000000 in
/-- Operations 603 … 611 of the reference program, in order. -/
abbrev refP18 : List (HloOp τ sig (Elt F)) :=
  [ unary main_v490 main_v491 (broadcastInDim S1400000x1 ![0] bcast_S1400000_S1400000x1_0 : (⟨S1400000, .i32⟩ : BufTy).Contents (Elt F) → (⟨S1400000x1, .i32⟩ : BufTy).Contents (Elt F)),
    binary main_v434 main_v491 main_v492 ((fun x i => Host.gather gather_S200000x64_S1400000x1_S1400000x64_1_0_n_n_0_1_164 x i) : (⟨S200000x64, .f32⟩ : BufTy).Contents (Elt F) → (⟨S1400000x1, .i32⟩ : BufTy).Contents (Elt F) → (⟨S1400000x64, .f32⟩ : BufTy).Contents (Elt F)),
    unary main_v485 main_v493 (broadcastInDim S1400000x64 ![0, 1] bcast_S1400000x1_S1400000x64_0_1 : (⟨S1400000x1, .f32⟩ : BufTy).Contents (Elt F) → (⟨S1400000x64, .f32⟩ : BufTy).Contents (Elt F)),
    binary main_v493 main_v492 main_v494 (mulf : (⟨S1400000x64, .f32⟩ : BufTy).Contents (Elt F) → (⟨S1400000x64, .f32⟩ : BufTy).Contents (Elt F) → (⟨S1400000x64, .f32⟩ : BufTy).Contents (Elt F)),
    nullary main_cst_107 (constant S_ .f32 0x00000000#32),
    unary main_cst_107 main_v495 (broadcastInDim S200000x64 ![] bcast_S_S200000x64 : (⟨S_, .f32⟩ : BufTy).Contents (Elt F) → (⟨S200000x64, .f32⟩ : BufTy).Contents (Elt F)),
    unary main_v6 main_v496 (broadcastInDim S1400000x1 ![0] bcast_S1400000_S1400000x1_0 : (⟨S1400000, .i32⟩ : BufTy).Contents (Elt F) → (⟨S1400000x1, .i32⟩ : BufTy).Contents (Elt F)),
    ternary main_v495 main_v496 main_v494 main_v497 ((fun x i u => Host.scatterAdd scatter_S200000x64_S1400000x1_S1400000x64_1_0_0_1 x i u) : (⟨S200000x64, .f32⟩ : BufTy).Contents (Elt F) → (⟨S1400000x1, .i32⟩ : BufTy).Contents (Elt F) → (⟨S1400000x64, .f32⟩ : BufTy).Contents (Elt F) → (⟨S200000x64, .f32⟩ : BufTy).Contents (Elt F)),
    binary main_v497 main_v484 main_v498 ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F)) ]
theorem refP18_sub : (refP18 : List (HloOp τ sig (Elt F))).Forall fun op => op.bufs ⊆ tcRefs τ sig :=
  ⟨unary_bufs_sub .., binary_bufs_sub .., unary_bufs_sub .., binary_bufs_sub .., nullary_bufs_sub .., unary_bufs_sub .., unary_bufs_sub .., ternary_bufs_sub .., binary_bufs_sub ..⟩
theorem refP18_fresh : (refP18 : List (HloOp τ sig (Elt F))).Forall fun op => op.fresh = ∅ := by
  simp only [List.Forall]; repeat' constructor
/-- The references the operations 603 … 611 write. -/
abbrev refP18_W : List (Ref sig .tc) := [main_v491, main_v492, main_v493, main_v494, main_cst_107, main_v495, main_v496, main_v497, main_v498]
set_option maxHeartbeats 4000000 in
theorem refP18_writes : (refP18 : List (HloOp τ sig (Elt F))).Forall fun op => op.writes ⊆ (refP18_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide)⟩

set_option maxHeartbeats 4000000 in
/-- Operations 612 … 662 of the reference program, in order. -/
abbrev refP19 : List (HloOp τ sig (Elt F)) :=
  [ unary main_arg5 main_v499 ((extractStridedSlice S1x64x64 ![7, 0, 0] · slices_S10x64x64_S1x64x64_7_0_0) : (⟨S10x64x64, .f32⟩ : BufTy).Contents (Elt F) → (⟨S1x64x64, .f32⟩ : BufTy).Contents (Elt F)),
    reshape main_v499 main_v500 rfl shapeCasts_S1x64x64_S64x64,
    unary main_v500 main_v501 ((transpose S64x64 [1, 0] · transposes_S64x64_S64x64_1_0) : (⟨S64x64, .f32⟩ : BufTy).Contents (Elt F) → (⟨S64x64, .f32⟩ : BufTy).Contents (Elt F)),
    binary main_v500 main_v501 main_v502 (subf : (⟨S64x64, .f32⟩ : BufTy).Contents (Elt F) → (⟨S64x64, .f32⟩ : BufTy).Contents (Elt F) → (⟨S64x64, .f32⟩ : BufTy).Contents (Elt F)),
    nullary main_v503 (iotaInDim S64x64 32 0),
    nullary main_v504 (iotaInDim S64x64 32 1),
    nullary main_c_108 (constantI S_ 32 0#32),
    unary main_c_108 main_v505 (broadcastInDim S64x64 ![] bcast_S_S64x64 : (⟨S_, .i32⟩ : BufTy).Contents (Elt F) → (⟨S64x64, .i32⟩ : BufTy).Contents (Elt F)),
    binary main_v503 main_v505 main_v506 (addi : (⟨S64x64, .i32⟩ : BufTy).Contents (Elt F) → (⟨S64x64, .i32⟩ : BufTy).Contents (Elt F) → (⟨S64x64, .i32⟩ : BufTy).Contents (Elt F)),
    binary main_v506 main_v504 main_v507 (cmpi .eq : (⟨S64x64, .i32⟩ : BufTy).Contents (Elt F) → (⟨S64x64, .i32⟩ : BufTy).Contents (Elt F) → (⟨S64x64, .i1⟩ : BufTy).Contents (Elt F)),
    unary main_v507 main_v508 (uitofp .f32 : (⟨S64x64, .i1⟩ : BufTy).Contents (Elt F) → (⟨S64x64, .f32⟩ : BufTy).Contents (Elt F)),
    binary main_v508 main_v502 main_v509 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_109 (constant S_ .f32 0x3F800000#32),
    unary main_cst_109 main_v510 (broadcastInDim S64x64 ![] bcast_S_S64x64 : (⟨S_, .f32⟩ : BufTy).Contents (Elt F) → (⟨S64x64, .f32⟩ : BufTy).Contents (Elt F)),
    binary main_v509 main_v510 main_v511 (Host.divf : (⟨S64x64, .f32⟩ : BufTy).Contents (Elt F) → (⟨S64x64, .f32⟩ : BufTy).Contents (Elt F) → (⟨S64x64, .f32⟩ : BufTy).Contents (Elt F)),
    binary main_v508 main_v511 main_v512 (addf : (⟨S64x64, .f32⟩ : BufTy).Contents (Elt F) → (⟨S64x64, .f32⟩ : BufTy).Contents (Elt F) → (⟨S64x64, .f32⟩ : BufTy).Contents (Elt F)),
    binary main_v511 main_v502 main_v513 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_110 (constant S_ .f32 0x40000000#32),
    unary main_cst_110 main_v514 (broadcastInDim S64x64 ![] bcast_S_S64x64 : (⟨S_, .f32⟩ : BufTy).Contents (Elt F) → (⟨S64x64, .f32⟩ : BufTy).Contents (Elt F)),
    binary main_v513 main_v514 main_v515 (Host.divf : (⟨S64x64, .f32⟩ : BufTy).Contents (Elt F) → (⟨S64x64, .f32⟩ : BufTy).Contents (Elt F) → (⟨S64x64, .f32⟩ : BufTy).Contents (Elt F)),
    binary main_v512 main_v515 main_v516 (addf : (⟨S64x64, .f32⟩ : BufTy).Contents (Elt F) → (⟨S64x64, .f32⟩ : BufTy).Contents (Elt F) → (⟨S64x64, .f32⟩ : BufTy).Contents (Elt F)),
    binary main_v515 main_v502 main_v517 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_111 (constant S_ .f32 0x40400000#32),
    unary main_cst_111 main_v518 (broadcastInDim S64x64 ![] bcast_S_S64x64 : (⟨S_, .f32⟩ : BufTy).Contents (Elt F) → (⟨S64x64, .f32⟩ : BufTy).Contents (Elt F)),
    binary main_v517 main_v518 main_v519 (Host.divf : (⟨S64x64, .f32⟩ : BufTy).Contents (Elt F) → (⟨S64x64, .f32⟩ : BufTy).Contents (Elt F) → (⟨S64x64, .f32⟩ : BufTy).Contents (Elt F)),
    binary main_v516 main_v519 main_v520 (addf : (⟨S64x64, .f32⟩ : BufTy).Contents (Elt F) → (⟨S64x64, .f32⟩ : BufTy).Contents (Elt F) → (⟨S64x64, .f32⟩ : BufTy).Contents (Elt F)),
    binary main_v519 main_v502 main_v521 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_112 (constant S_ .f32 0x40800000#32),
    unary main_cst_112 main_v522 (broadcastInDim S64x64 ![] bcast_S_S64x64 : (⟨S_, .f32⟩ : BufTy).Contents (Elt F) → (⟨S64x64, .f32⟩ : BufTy).Contents (Elt F)),
    binary main_v521 main_v522 main_v523 (Host.divf : (⟨S64x64, .f32⟩ : BufTy).Contents (Elt F) → (⟨S64x64, .f32⟩ : BufTy).Contents (Elt F) → (⟨S64x64, .f32⟩ : BufTy).Contents (Elt F)),
    binary main_v520 main_v523 main_v524 (addf : (⟨S64x64, .f32⟩ : BufTy).Contents (Elt F) → (⟨S64x64, .f32⟩ : BufTy).Contents (Elt F) → (⟨S64x64, .f32⟩ : BufTy).Contents (Elt F)),
    binary main_v523 main_v502 main_v525 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_113 (constant S_ .f32 0x40A00000#32),
    unary main_cst_113 main_v526 (broadcastInDim S64x64 ![] bcast_S_S64x64 : (⟨S_, .f32⟩ : BufTy).Contents (Elt F) → (⟨S64x64, .f32⟩ : BufTy).Contents (Elt F)),
    binary main_v525 main_v526 main_v527 (Host.divf : (⟨S64x64, .f32⟩ : BufTy).Contents (Elt F) → (⟨S64x64, .f32⟩ : BufTy).Contents (Elt F) → (⟨S64x64, .f32⟩ : BufTy).Contents (Elt F)),
    binary main_v524 main_v527 main_v528 (addf : (⟨S64x64, .f32⟩ : BufTy).Contents (Elt F) → (⟨S64x64, .f32⟩ : BufTy).Contents (Elt F) → (⟨S64x64, .f32⟩ : BufTy).Contents (Elt F)),
    binary main_v527 main_v502 main_v529 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_114 (constant S_ .f32 0x40C00000#32),
    unary main_cst_114 main_v530 (broadcastInDim S64x64 ![] bcast_S_S64x64 : (⟨S_, .f32⟩ : BufTy).Contents (Elt F) → (⟨S64x64, .f32⟩ : BufTy).Contents (Elt F)),
    binary main_v529 main_v530 main_v531 (Host.divf : (⟨S64x64, .f32⟩ : BufTy).Contents (Elt F) → (⟨S64x64, .f32⟩ : BufTy).Contents (Elt F) → (⟨S64x64, .f32⟩ : BufTy).Contents (Elt F)),
    binary main_v528 main_v531 main_v532 (addf : (⟨S64x64, .f32⟩ : BufTy).Contents (Elt F) → (⟨S64x64, .f32⟩ : BufTy).Contents (Elt F) → (⟨S64x64, .f32⟩ : BufTy).Contents (Elt F)),
    binary main_v531 main_v502 main_v533 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_115 (constant S_ .f32 0x40E00000#32),
    unary main_cst_115 main_v534 (broadcastInDim S64x64 ![] bcast_S_S64x64 : (⟨S_, .f32⟩ : BufTy).Contents (Elt F) → (⟨S64x64, .f32⟩ : BufTy).Contents (Elt F)),
    binary main_v533 main_v534 main_v535 (Host.divf : (⟨S64x64, .f32⟩ : BufTy).Contents (Elt F) → (⟨S64x64, .f32⟩ : BufTy).Contents (Elt F) → (⟨S64x64, .f32⟩ : BufTy).Contents (Elt F)),
    binary main_v532 main_v535 main_v536 (addf : (⟨S64x64, .f32⟩ : BufTy).Contents (Elt F) → (⟨S64x64, .f32⟩ : BufTy).Contents (Elt F) → (⟨S64x64, .f32⟩ : BufTy).Contents (Elt F)),
    binary main_v535 main_v502 main_v537 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_116 (constant S_ .f32 0x41000000#32),
    unary main_cst_116 main_v538 (broadcastInDim S64x64 ![] bcast_S_S64x64 : (⟨S_, .f32⟩ : BufTy).Contents (Elt F) → (⟨S64x64, .f32⟩ : BufTy).Contents (Elt F)),
    binary main_v537 main_v538 main_v539 (Host.divf : (⟨S64x64, .f32⟩ : BufTy).Contents (Elt F) → (⟨S64x64, .f32⟩ : BufTy).Contents (Elt F) → (⟨S64x64, .f32⟩ : BufTy).Contents (Elt F)),
    binary main_v536 main_v539 main_v540 (addf : (⟨S64x64, .f32⟩ : BufTy).Contents (Elt F) → (⟨S64x64, .f32⟩ : BufTy).Contents (Elt F) → (⟨S64x64, .f32⟩ : BufTy).Contents (Elt F)) ]
theorem refP19_sub : (refP19 : List (HloOp τ sig (Elt F))).Forall fun op => op.bufs ⊆ tcRefs τ sig :=
  ⟨unary_bufs_sub .., reshape_bufs_sub .., unary_bufs_sub .., binary_bufs_sub .., nullary_bufs_sub .., nullary_bufs_sub .., nullary_bufs_sub .., unary_bufs_sub .., binary_bufs_sub .., binary_bufs_sub .., unary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub ..⟩
theorem refP19_fresh : (refP19 : List (HloOp τ sig (Elt F))).Forall fun op => op.fresh = ∅ := by
  simp only [List.Forall]; repeat' constructor
/-- The references the operations 612 … 662 write. -/
abbrev refP19_W : List (Ref sig .tc) := [main_v499, main_v500, main_v501, main_v502, main_v503, main_v504, main_c_108, main_v505, main_v506, main_v507, main_v508, main_v509, main_cst_109, main_v510, main_v511, main_v512, main_v513, main_cst_110, main_v514, main_v515, main_v516, main_v517, main_cst_111, main_v518, main_v519, main_v520, main_v521, main_cst_112, main_v522, main_v523, main_v524, main_v525, main_cst_113, main_v526, main_v527, main_v528, main_v529, main_cst_114, main_v530, main_v531, main_v532, main_v533, main_cst_115, main_v534, main_v535, main_v536, main_v537, main_cst_116, main_v538, main_v539, main_v540]
set_option maxHeartbeats 4000000 in
theorem refP19_writes : (refP19 : List (HloOp τ sig (Elt F))).Forall fun op => op.writes ⊆ (refP19_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide)⟩

set_option maxHeartbeats 4000000 in
/-- Operations 663 … 689 of the reference program, in order. -/
abbrev refP20 : List (HloOp τ sig (Elt F)) :=
  [ binary main_v539 main_v502 main_v541 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_117 (constant S_ .f32 0x41100000#32),
    unary main_cst_117 main_v542 (broadcastInDim S64x64 ![] bcast_S_S64x64 : (⟨S_, .f32⟩ : BufTy).Contents (Elt F) → (⟨S64x64, .f32⟩ : BufTy).Contents (Elt F)),
    binary main_v541 main_v542 main_v543 (Host.divf : (⟨S64x64, .f32⟩ : BufTy).Contents (Elt F) → (⟨S64x64, .f32⟩ : BufTy).Contents (Elt F) → (⟨S64x64, .f32⟩ : BufTy).Contents (Elt F)),
    binary main_v540 main_v543 main_v544 (addf : (⟨S64x64, .f32⟩ : BufTy).Contents (Elt F) → (⟨S64x64, .f32⟩ : BufTy).Contents (Elt F) → (⟨S64x64, .f32⟩ : BufTy).Contents (Elt F)),
    binary main_v543 main_v502 main_v545 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_118 (constant S_ .f32 0x41200000#32),
    unary main_cst_118 main_v546 (broadcastInDim S64x64 ![] bcast_S_S64x64 : (⟨S_, .f32⟩ : BufTy).Contents (Elt F) → (⟨S64x64, .f32⟩ : BufTy).Contents (Elt F)),
    binary main_v545 main_v546 main_v547 (Host.divf : (⟨S64x64, .f32⟩ : BufTy).Contents (Elt F) → (⟨S64x64, .f32⟩ : BufTy).Contents (Elt F) → (⟨S64x64, .f32⟩ : BufTy).Contents (Elt F)),
    binary main_v544 main_v547 main_v548 (addf : (⟨S64x64, .f32⟩ : BufTy).Contents (Elt F) → (⟨S64x64, .f32⟩ : BufTy).Contents (Elt F) → (⟨S64x64, .f32⟩ : BufTy).Contents (Elt F)),
    unary main_v33 main_v549 (broadcastInDim S1400000x1 ![0] bcast_S1400000_S1400000x1_0 : (⟨S1400000, .f32⟩ : BufTy).Contents (Elt F) → (⟨S1400000x1, .f32⟩ : BufTy).Contents (Elt F)),
    nullary main_c_119 (constantI S_ 32 0#32),
    unary main_c_119 main_v550 (broadcastInDim S1400000 ![] bcast_S_S1400000 : (⟨S_, .i32⟩ : BufTy).Contents (Elt F) → (⟨S1400000, .i32⟩ : BufTy).Contents (Elt F)),
    binary main_v5 main_v550 main_v551 (cmpi .slt : (⟨S1400000, .i32⟩ : BufTy).Contents (Elt F) → (⟨S1400000, .i32⟩ : BufTy).Contents (Elt F) → (⟨S1400000, .i1⟩ : BufTy).Contents (Elt F)),
    nullary main_c_120 (constantI S_ 32 200000#32),
    unary main_c_120 main_v552 (broadcastInDim S1400000 ![] bcast_S_S1400000 : (⟨S_, .i32⟩ : BufTy).Contents (Elt F) → (⟨S1400000, .i32⟩ : BufTy).Contents (Elt F)),
    binary main_v5 main_v552 main_v553 (addi : (⟨S1400000, .i32⟩ : BufTy).Contents (Elt F) → (⟨S1400000, .i32⟩ : BufTy).Contents (Elt F) → (⟨S1400000, .i32⟩ : BufTy).Contents (Elt F)),
    ternary main_v551 main_v553 main_v5 main_v554 (select : (⟨S1400000, .i1⟩ : BufTy).Contents (Elt F) → (⟨S1400000, .i32⟩ : BufTy).Contents (Elt F) → (⟨S1400000, .i32⟩ : BufTy).Contents (Elt F) → (⟨S1400000, .i32⟩ : BufTy).Contents (Elt F)),
    unary main_v554 main_v555 (broadcastInDim S1400000x1 ![0] bcast_S1400000_S1400000x1_0 : (⟨S1400000, .i32⟩ : BufTy).Contents (Elt F) → (⟨S1400000x1, .i32⟩ : BufTy).Contents (Elt F)),
    binary main_v498 main_v555 main_v556 ((fun x i => Host.gather gather_S200000x64_S1400000x1_S1400000x64_1_0_n_n_0_1_164 x i) : (⟨S200000x64, .f32⟩ : BufTy).Contents (Elt F) → (⟨S1400000x1, .i32⟩ : BufTy).Contents (Elt F) → (⟨S1400000x64, .f32⟩ : BufTy).Contents (Elt F)),
    unary main_v549 main_v557 (broadcastInDim S1400000x64 ![0, 1] bcast_S1400000x1_S1400000x64_0_1 : (⟨S1400000x1, .f32⟩ : BufTy).Contents (Elt F) → (⟨S1400000x64, .f32⟩ : BufTy).Contents (Elt F)),
    binary main_v557 main_v556 main_v558 (mulf : (⟨S1400000x64, .f32⟩ : BufTy).Contents (Elt F) → (⟨S1400000x64, .f32⟩ : BufTy).Contents (Elt F) → (⟨S1400000x64, .f32⟩ : BufTy).Contents (Elt F)),
    nullary main_cst_121 (constant S_ .f32 0x00000000#32),
    unary main_cst_121 main_v559 (broadcastInDim S200000x64 ![] bcast_S_S200000x64 : (⟨S_, .f32⟩ : BufTy).Contents (Elt F) → (⟨S200000x64, .f32⟩ : BufTy).Contents (Elt F)),
    unary main_v6 main_v560 (broadcastInDim S1400000x1 ![0] bcast_S1400000_S1400000x1_0 : (⟨S1400000, .i32⟩ : BufTy).Contents (Elt F) → (⟨S1400000x1, .i32⟩ : BufTy).Contents (Elt F)),
    ternary main_v559 main_v560 main_v558 main_v561 ((fun x i u => Host.scatterAdd scatter_S200000x64_S1400000x1_S1400000x64_1_0_0_1 x i u) : (⟨S200000x64, .f32⟩ : BufTy).Contents (Elt F) → (⟨S1400000x1, .i32⟩ : BufTy).Contents (Elt F) → (⟨S1400000x64, .f32⟩ : BufTy).Contents (Elt F) → (⟨S200000x64, .f32⟩ : BufTy).Contents (Elt F)),
    binary main_v561 main_v548 main_v562 ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F)) ]
theorem refP20_sub : (refP20 : List (HloOp τ sig (Elt F))).Forall fun op => op.bufs ⊆ tcRefs τ sig :=
  ⟨binary_bufs_sub .., nullary_bufs_sub .., unary_bufs_sub .., binary_bufs_sub .., binary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub ..⟩
theorem refP20_fresh : (refP20 : List (HloOp τ sig (Elt F))).Forall fun op => op.fresh = ∅ := by
  simp only [List.Forall]; repeat' constructor
/-- The references the operations 663 … 689 write. -/
abbrev refP20_W : List (Ref sig .tc) := [main_v541, main_cst_117, main_v542, main_v543, main_v544, main_v545, main_cst_118, main_v546, main_v547, main_v548, main_v549, main_c_119, main_v550, main_v551, main_c_120, main_v552, main_v553, main_v554, main_v555, main_v556, main_v557, main_v558, main_cst_121, main_v559, main_v560, main_v561, main_v562]
set_option maxHeartbeats 4000000 in
theorem refP20_writes : (refP20 : List (HloOp τ sig (Elt F))).Forall fun op => op.writes ⊆ (refP20_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide)⟩

end Cert.ReferenceIdeal.RefRun

end
-- ==== Proof.RefOps3.lean ====
/- The pieces 21 … 26 of the reference program's 865 host operations in order (27 pieces in all; a called function's
   operations in its call's place); per piece: every operation touches TensorCore references only and determines what it
   writes, the references the piece writes, and every operation writes inside that list.
-/
import proofs.«415904_j29016799052628_2_alg».proof.Proof.Gen.ReferenceIdeal
import Idealize.ShloMosaic.Lib.StableHlo.Run

set_option maxRecDepth 16384
set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- Operations 690 … 722 of the reference program, in order. -/
abbrev refP21 : List (HloOp τ sig (Elt F)) :=
  [ unary main_arg5 main_v563 ((extractStridedSlice S1x64x64 ![8, 0, 0] · slices_S10x64x64_S1x64x64_8_0_0) : (⟨S10x64x64, .f32⟩ : BufTy).Contents (Elt F) → (⟨S1x64x64, .f32⟩ : BufTy).Contents (Elt F)),
    reshape main_v563 main_v564 rfl shapeCasts_S1x64x64_S64x64,
    unary main_v564 main_v565 ((transpose S64x64 [1, 0] · transposes_S64x64_S64x64_1_0) : (⟨S64x64, .f32⟩ : BufTy).Contents (Elt F) → (⟨S64x64, .f32⟩ : BufTy).Contents (Elt F)),
    binary main_v564 main_v565 main_v566 (subf : (⟨S64x64, .f32⟩ : BufTy).Contents (Elt F) → (⟨S64x64, .f32⟩ : BufTy).Contents (Elt F) → (⟨S64x64, .f32⟩ : BufTy).Contents (Elt F)),
    nullary main_v567 (iotaInDim S64x64 32 0),
    nullary main_v568 (iotaInDim S64x64 32 1),
    nullary main_c_122 (constantI S_ 32 0#32),
    unary main_c_122 main_v569 (broadcastInDim S64x64 ![] bcast_S_S64x64 : (⟨S_, .i32⟩ : BufTy).Contents (Elt F) → (⟨S64x64, .i32⟩ : BufTy).Contents (Elt F)),
    binary main_v567 main_v569 main_v570 (addi : (⟨S64x64, .i32⟩ : BufTy).Contents (Elt F) → (⟨S64x64, .i32⟩ : BufTy).Contents (Elt F) → (⟨S64x64, .i32⟩ : BufTy).Contents (Elt F)),
    binary main_v570 main_v568 main_v571 (cmpi .eq : (⟨S64x64, .i32⟩ : BufTy).Contents (Elt F) → (⟨S64x64, .i32⟩ : BufTy).Contents (Elt F) → (⟨S64x64, .i1⟩ : BufTy).Contents (Elt F)),
    unary main_v571 main_v572 (uitofp .f32 : (⟨S64x64, .i1⟩ : BufTy).Contents (Elt F) → (⟨S64x64, .f32⟩ : BufTy).Contents (Elt F)),
    binary main_v572 main_v566 main_v573 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_123 (constant S_ .f32 0x3F800000#32),
    unary main_cst_123 main_v574 (broadcastInDim S64x64 ![] bcast_S_S64x64 : (⟨S_, .f32⟩ : BufTy).Contents (Elt F) → (⟨S64x64, .f32⟩ : BufTy).Contents (Elt F)),
    binary main_v573 main_v574 main_v575 (Host.divf : (⟨S64x64, .f32⟩ : BufTy).Contents (Elt F) → (⟨S64x64, .f32⟩ : BufTy).Contents (Elt F) → (⟨S64x64, .f32⟩ : BufTy).Contents (Elt F)),
    binary main_v572 main_v575 main_v576 (addf : (⟨S64x64, .f32⟩ : BufTy).Contents (Elt F) → (⟨S64x64, .f32⟩ : BufTy).Contents (Elt F) → (⟨S64x64, .f32⟩ : BufTy).Contents (Elt F)),
    binary main_v575 main_v566 main_v577 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_124 (constant S_ .f32 0x40000000#32),
    unary main_cst_124 main_v578 (broadcastInDim S64x64 ![] bcast_S_S64x64 : (⟨S_, .f32⟩ : BufTy).Contents (Elt F) → (⟨S64x64, .f32⟩ : BufTy).Contents (Elt F)),
    binary main_v577 main_v578 main_v579 (Host.divf : (⟨S64x64, .f32⟩ : BufTy).Contents (Elt F) → (⟨S64x64, .f32⟩ : BufTy).Contents (Elt F) → (⟨S64x64, .f32⟩ : BufTy).Contents (Elt F)),
    binary main_v576 main_v579 main_v580 (addf : (⟨S64x64, .f32⟩ : BufTy).Contents (Elt F) → (⟨S64x64, .f32⟩ : BufTy).Contents (Elt F) → (⟨S64x64, .f32⟩ : BufTy).Contents (Elt F)),
    binary main_v579 main_v566 main_v581 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_125 (constant S_ .f32 0x40400000#32),
    unary main_cst_125 main_v582 (broadcastInDim S64x64 ![] bcast_S_S64x64 : (⟨S_, .f32⟩ : BufTy).Contents (Elt F) → (⟨S64x64, .f32⟩ : BufTy).Contents (Elt F)),
    binary main_v581 main_v582 main_v583 (Host.divf : (⟨S64x64, .f32⟩ : BufTy).Contents (Elt F) → (⟨S64x64, .f32⟩ : BufTy).Contents (Elt F) → (⟨S64x64, .f32⟩ : BufTy).Contents (Elt F)),
    binary main_v580 main_v583 main_v584 (addf : (⟨S64x64, .f32⟩ : BufTy).Contents (Elt F) → (⟨S64x64, .f32⟩ : BufTy).Contents (Elt F) → (⟨S64x64, .f32⟩ : BufTy).Contents (Elt F)),
    binary main_v583 main_v566 main_v585 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_126 (constant S_ .f32 0x40800000#32),
    unary main_cst_126 main_v586 (broadcastInDim S64x64 ![] bcast_S_S64x64 : (⟨S_, .f32⟩ : BufTy).Contents (Elt F) → (⟨S64x64, .f32⟩ : BufTy).Contents (Elt F)),
    binary main_v585 main_v586 main_v587 (Host.divf : (⟨S64x64, .f32⟩ : BufTy).Contents (Elt F) → (⟨S64x64, .f32⟩ : BufTy).Contents (Elt F) → (⟨S64x64, .f32⟩ : BufTy).Contents (Elt F)),
    binary main_v584 main_v587 main_v588 (addf : (⟨S64x64, .f32⟩ : BufTy).Contents (Elt F) → (⟨S64x64, .f32⟩ : BufTy).Contents (Elt F) → (⟨S64x64, .f32⟩ : BufTy).Contents (Elt F)),
    binary main_v587 main_v566 main_v589 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_127 (constant S_ .f32 0x40A00000#32) ]
theorem refP21_sub : (refP21 : List (HloOp τ sig (Elt F))).Forall fun op => op.bufs ⊆ tcRefs τ sig :=
  ⟨unary_bufs_sub .., reshape_bufs_sub .., unary_bufs_sub .., binary_bufs_sub .., nullary_bufs_sub .., nullary_bufs_sub .., nullary_bufs_sub .., unary_bufs_sub .., binary_bufs_sub .., binary_bufs_sub .., unary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub ..⟩
theorem refP21_fresh : (refP21 : List (HloOp τ sig (Elt F))).Forall fun op => op.fresh = ∅ := by
  simp only [List.Forall]; repeat' constructor
/-- The references the operations 690 … 722 write. -/
abbrev refP21_W : List (Ref sig .tc) := [main_v563, main_v564, main_v565, main_v566, main_v567, main_v568, main_c_122, main_v569, main_v570, main_v571, main_v572, main_v573, main_cst_123, main_v574, main_v575, main_v576, main_v577, main_cst_124, main_v578, main_v579, main_v580, main_v581, main_cst_125, main_v582, main_v583, main_v584, main_v585, main_cst_126, main_v586, main_v587, main_v588, main_v589, main_cst_127]
set_option maxHeartbeats 4000000 in
theorem refP21_writes : (refP21 : List (HloOp τ sig (Elt F))).Forall fun op => op.writes ⊆ (refP21_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide)⟩

set_option maxHeartbeats 4000000 in
/-- Operations 723 … 767 of the reference program, in order. -/
abbrev refP22 : List (HloOp τ sig (Elt F)) :=
  [ unary main_cst_127 main_v590 (broadcastInDim S64x64 ![] bcast_S_S64x64 : (⟨S_, .f32⟩ : BufTy).Contents (Elt F) → (⟨S64x64, .f32⟩ : BufTy).Contents (Elt F)),
    binary main_v589 main_v590 main_v591 (Host.divf : (⟨S64x64, .f32⟩ : BufTy).Contents (Elt F) → (⟨S64x64, .f32⟩ : BufTy).Contents (Elt F) → (⟨S64x64, .f32⟩ : BufTy).Contents (Elt F)),
    binary main_v588 main_v591 main_v592 (addf : (⟨S64x64, .f32⟩ : BufTy).Contents (Elt F) → (⟨S64x64, .f32⟩ : BufTy).Contents (Elt F) → (⟨S64x64, .f32⟩ : BufTy).Contents (Elt F)),
    binary main_v591 main_v566 main_v593 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_128 (constant S_ .f32 0x40C00000#32),
    unary main_cst_128 main_v594 (broadcastInDim S64x64 ![] bcast_S_S64x64 : (⟨S_, .f32⟩ : BufTy).Contents (Elt F) → (⟨S64x64, .f32⟩ : BufTy).Contents (Elt F)),
    binary main_v593 main_v594 main_v595 (Host.divf : (⟨S64x64, .f32⟩ : BufTy).Contents (Elt F) → (⟨S64x64, .f32⟩ : BufTy).Contents (Elt F) → (⟨S64x64, .f32⟩ : BufTy).Contents (Elt F)),
    binary main_v592 main_v595 main_v596 (addf : (⟨S64x64, .f32⟩ : BufTy).Contents (Elt F) → (⟨S64x64, .f32⟩ : BufTy).Contents (Elt F) → (⟨S64x64, .f32⟩ : BufTy).Contents (Elt F)),
    binary main_v595 main_v566 main_v597 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_129 (constant S_ .f32 0x40E00000#32),
    unary main_cst_129 main_v598 (broadcastInDim S64x64 ![] bcast_S_S64x64 : (⟨S_, .f32⟩ : BufTy).Contents (Elt F) → (⟨S64x64, .f32⟩ : BufTy).Contents (Elt F)),
    binary main_v597 main_v598 main_v599 (Host.divf : (⟨S64x64, .f32⟩ : BufTy).Contents (Elt F) → (⟨S64x64, .f32⟩ : BufTy).Contents (Elt F) → (⟨S64x64, .f32⟩ : BufTy).Contents (Elt F)),
    binary main_v596 main_v599 main_v600 (addf : (⟨S64x64, .f32⟩ : BufTy).Contents (Elt F) → (⟨S64x64, .f32⟩ : BufTy).Contents (Elt F) → (⟨S64x64, .f32⟩ : BufTy).Contents (Elt F)),
    binary main_v599 main_v566 main_v601 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_130 (constant S_ .f32 0x41000000#32),
    unary main_cst_130 main_v602 (broadcastInDim S64x64 ![] bcast_S_S64x64 : (⟨S_, .f32⟩ : BufTy).Contents (Elt F) → (⟨S64x64, .f32⟩ : BufTy).Contents (Elt F)),
    binary main_v601 main_v602 main_v603 (Host.divf : (⟨S64x64, .f32⟩ : BufTy).Contents (Elt F) → (⟨S64x64, .f32⟩ : BufTy).Contents (Elt F) → (⟨S64x64, .f32⟩ : BufTy).Contents (Elt F)),
    binary main_v600 main_v603 main_v604 (addf : (⟨S64x64, .f32⟩ : BufTy).Contents (Elt F) → (⟨S64x64, .f32⟩ : BufTy).Contents (Elt F) → (⟨S64x64, .f32⟩ : BufTy).Contents (Elt F)),
    binary main_v603 main_v566 main_v605 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_131 (constant S_ .f32 0x41100000#32),
    unary main_cst_131 main_v606 (broadcastInDim S64x64 ![] bcast_S_S64x64 : (⟨S_, .f32⟩ : BufTy).Contents (Elt F) → (⟨S64x64, .f32⟩ : BufTy).Contents (Elt F)),
    binary main_v605 main_v606 main_v607 (Host.divf : (⟨S64x64, .f32⟩ : BufTy).Contents (Elt F) → (⟨S64x64, .f32⟩ : BufTy).Contents (Elt F) → (⟨S64x64, .f32⟩ : BufTy).Contents (Elt F)),
    binary main_v604 main_v607 main_v608 (addf : (⟨S64x64, .f32⟩ : BufTy).Contents (Elt F) → (⟨S64x64, .f32⟩ : BufTy).Contents (Elt F) → (⟨S64x64, .f32⟩ : BufTy).Contents (Elt F)),
    binary main_v607 main_v566 main_v609 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_132 (constant S_ .f32 0x41200000#32),
    unary main_cst_132 main_v610 (broadcastInDim S64x64 ![] bcast_S_S64x64 : (⟨S_, .f32⟩ : BufTy).Contents (Elt F) → (⟨S64x64, .f32⟩ : BufTy).Contents (Elt F)),
    binary main_v609 main_v610 main_v611 (Host.divf : (⟨S64x64, .f32⟩ : BufTy).Contents (Elt F) → (⟨S64x64, .f32⟩ : BufTy).Contents (Elt F) → (⟨S64x64, .f32⟩ : BufTy).Contents (Elt F)),
    binary main_v608 main_v611 main_v612 (addf : (⟨S64x64, .f32⟩ : BufTy).Contents (Elt F) → (⟨S64x64, .f32⟩ : BufTy).Contents (Elt F) → (⟨S64x64, .f32⟩ : BufTy).Contents (Elt F)),
    unary main_v33 main_v613 (broadcastInDim S1400000x1 ![0] bcast_S1400000_S1400000x1_0 : (⟨S1400000, .f32⟩ : BufTy).Contents (Elt F) → (⟨S1400000x1, .f32⟩ : BufTy).Contents (Elt F)),
    nullary main_c_133 (constantI S_ 32 0#32),
    unary main_c_133 main_v614 (broadcastInDim S1400000 ![] bcast_S_S1400000 : (⟨S_, .i32⟩ : BufTy).Contents (Elt F) → (⟨S1400000, .i32⟩ : BufTy).Contents (Elt F)),
    binary main_v5 main_v614 main_v615 (cmpi .slt : (⟨S1400000, .i32⟩ : BufTy).Contents (Elt F) → (⟨S1400000, .i32⟩ : BufTy).Contents (Elt F) → (⟨S1400000, .i1⟩ : BufTy).Contents (Elt F)),
    nullary main_c_134 (constantI S_ 32 200000#32),
    unary main_c_134 main_v616 (broadcastInDim S1400000 ![] bcast_S_S1400000 : (⟨S_, .i32⟩ : BufTy).Contents (Elt F) → (⟨S1400000, .i32⟩ : BufTy).Contents (Elt F)),
    binary main_v5 main_v616 main_v617 (addi : (⟨S1400000, .i32⟩ : BufTy).Contents (Elt F) → (⟨S1400000, .i32⟩ : BufTy).Contents (Elt F) → (⟨S1400000, .i32⟩ : BufTy).Contents (Elt F)),
    ternary main_v615 main_v617 main_v5 main_v618 (select : (⟨S1400000, .i1⟩ : BufTy).Contents (Elt F) → (⟨S1400000, .i32⟩ : BufTy).Contents (Elt F) → (⟨S1400000, .i32⟩ : BufTy).Contents (Elt F) → (⟨S1400000, .i32⟩ : BufTy).Contents (Elt F)),
    unary main_v618 main_v619 (broadcastInDim S1400000x1 ![0] bcast_S1400000_S1400000x1_0 : (⟨S1400000, .i32⟩ : BufTy).Contents (Elt F) → (⟨S1400000x1, .i32⟩ : BufTy).Contents (Elt F)),
    binary main_v562 main_v619 main_v620 ((fun x i => Host.gather gather_S200000x64_S1400000x1_S1400000x64_1_0_n_n_0_1_164 x i) : (⟨S200000x64, .f32⟩ : BufTy).Contents (Elt F) → (⟨S1400000x1, .i32⟩ : BufTy).Contents (Elt F) → (⟨S1400000x64, .f32⟩ : BufTy).Contents (Elt F)),
    unary main_v613 main_v621 (broadcastInDim S1400000x64 ![0, 1] bcast_S1400000x1_S1400000x64_0_1 : (⟨S1400000x1, .f32⟩ : BufTy).Contents (Elt F) → (⟨S1400000x64, .f32⟩ : BufTy).Contents (Elt F)),
    binary main_v621 main_v620 main_v622 (mulf : (⟨S1400000x64, .f32⟩ : BufTy).Contents (Elt F) → (⟨S1400000x64, .f32⟩ : BufTy).Contents (Elt F) → (⟨S1400000x64, .f32⟩ : BufTy).Contents (Elt F)),
    nullary main_cst_135 (constant S_ .f32 0x00000000#32),
    unary main_cst_135 main_v623 (broadcastInDim S200000x64 ![] bcast_S_S200000x64 : (⟨S_, .f32⟩ : BufTy).Contents (Elt F) → (⟨S200000x64, .f32⟩ : BufTy).Contents (Elt F)),
    unary main_v6 main_v624 (broadcastInDim S1400000x1 ![0] bcast_S1400000_S1400000x1_0 : (⟨S1400000, .i32⟩ : BufTy).Contents (Elt F) → (⟨S1400000x1, .i32⟩ : BufTy).Contents (Elt F)),
    ternary main_v623 main_v624 main_v622 main_v625 ((fun x i u => Host.scatterAdd scatter_S200000x64_S1400000x1_S1400000x64_1_0_0_1 x i u) : (⟨S200000x64, .f32⟩ : BufTy).Contents (Elt F) → (⟨S1400000x1, .i32⟩ : BufTy).Contents (Elt F) → (⟨S1400000x64, .f32⟩ : BufTy).Contents (Elt F) → (⟨S200000x64, .f32⟩ : BufTy).Contents (Elt F)),
    binary main_v625 main_v612 main_v626 ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F)) ]
theorem refP22_sub : (refP22 : List (HloOp τ sig (Elt F))).Forall fun op => op.bufs ⊆ tcRefs τ sig :=
  ⟨unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub ..⟩
theorem refP22_fresh : (refP22 : List (HloOp τ sig (Elt F))).Forall fun op => op.fresh = ∅ := by
  simp only [List.Forall]; repeat' constructor
/-- The references the operations 723 … 767 write. -/
abbrev refP22_W : List (Ref sig .tc) := [main_v590, main_v591, main_v592, main_v593, main_cst_128, main_v594, main_v595, main_v596, main_v597, main_cst_129, main_v598, main_v599, main_v600, main_v601, main_cst_130, main_v602, main_v603, main_v604, main_v605, main_cst_131, main_v606, main_v607, main_v608, main_v609, main_cst_132, main_v610, main_v611, main_v612, main_v613, main_c_133, main_v614, main_v615, main_c_134, main_v616, main_v617, main_v618, main_v619, main_v620, main_v621, main_v622, main_cst_135, main_v623, main_v624, main_v625, main_v626]
set_option maxHeartbeats 4000000 in
theorem refP22_writes : (refP22 : List (HloOp τ sig (Elt F))).Forall fun op => op.writes ⊆ (refP22_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide)⟩

set_option maxHeartbeats 4000000 in
/-- Operations 768 … 782 of the reference program, in order. -/
abbrev refP23 : List (HloOp τ sig (Elt F)) :=
  [ unary main_arg5 main_v627 ((extractStridedSlice S1x64x64 ![9, 0, 0] · slices_S10x64x64_S1x64x64_9_0_0) : (⟨S10x64x64, .f32⟩ : BufTy).Contents (Elt F) → (⟨S1x64x64, .f32⟩ : BufTy).Contents (Elt F)),
    reshape main_v627 main_v628 rfl shapeCasts_S1x64x64_S64x64,
    unary main_v628 main_v629 ((transpose S64x64 [1, 0] · transposes_S64x64_S64x64_1_0) : (⟨S64x64, .f32⟩ : BufTy).Contents (Elt F) → (⟨S64x64, .f32⟩ : BufTy).Contents (Elt F)),
    binary main_v628 main_v629 main_v630 (subf : (⟨S64x64, .f32⟩ : BufTy).Contents (Elt F) → (⟨S64x64, .f32⟩ : BufTy).Contents (Elt F) → (⟨S64x64, .f32⟩ : BufTy).Contents (Elt F)),
    nullary main_v631 (iotaInDim S64x64 32 0),
    nullary main_v632 (iotaInDim S64x64 32 1),
    nullary main_c_136 (constantI S_ 32 0#32),
    unary main_c_136 main_v633 (broadcastInDim S64x64 ![] bcast_S_S64x64 : (⟨S_, .i32⟩ : BufTy).Contents (Elt F) → (⟨S64x64, .i32⟩ : BufTy).Contents (Elt F)),
    binary main_v631 main_v633 main_v634 (addi : (⟨S64x64, .i32⟩ : BufTy).Contents (Elt F) → (⟨S64x64, .i32⟩ : BufTy).Contents (Elt F) → (⟨S64x64, .i32⟩ : BufTy).Contents (Elt F)),
    binary main_v634 main_v632 main_v635 (cmpi .eq : (⟨S64x64, .i32⟩ : BufTy).Contents (Elt F) → (⟨S64x64, .i32⟩ : BufTy).Contents (Elt F) → (⟨S64x64, .i1⟩ : BufTy).Contents (Elt F)),
    unary main_v635 main_v636 (uitofp .f32 : (⟨S64x64, .i1⟩ : BufTy).Contents (Elt F) → (⟨S64x64, .f32⟩ : BufTy).Contents (Elt F)),
    binary main_v636 main_v630 main_v637 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_137 (constant S_ .f32 0x3F800000#32),
    unary main_cst_137 main_v638 (broadcastInDim S64x64 ![] bcast_S_S64x64 : (⟨S_, .f32⟩ : BufTy).Contents (Elt F) → (⟨S64x64, .f32⟩ : BufTy).Contents (Elt F)),
    binary main_v637 main_v638 main_v639 (Host.divf : (⟨S64x64, .f32⟩ : BufTy).Contents (Elt F) → (⟨S64x64, .f32⟩ : BufTy).Contents (Elt F) → (⟨S64x64, .f32⟩ : BufTy).Contents (Elt F)) ]
theorem refP23_sub : (refP23 : List (HloOp τ sig (Elt F))).Forall fun op => op.bufs ⊆ tcRefs τ sig :=
  ⟨unary_bufs_sub .., reshape_bufs_sub .., unary_bufs_sub .., binary_bufs_sub .., nullary_bufs_sub .., nullary_bufs_sub .., nullary_bufs_sub .., unary_bufs_sub .., binary_bufs_sub .., binary_bufs_sub .., unary_bufs_sub .., binary_bufs_sub .., nullary_bufs_sub .., unary_bufs_sub .., binary_bufs_sub ..⟩
theorem refP23_fresh : (refP23 : List (HloOp τ sig (Elt F))).Forall fun op => op.fresh = ∅ := by
  simp only [List.Forall]; repeat' constructor
/-- The references the operations 768 … 782 write. -/
abbrev refP23_W : List (Ref sig .tc) := [main_v627, main_v628, main_v629, main_v630, main_v631, main_v632, main_c_136, main_v633, main_v634, main_v635, main_v636, main_v637, main_cst_137, main_v638, main_v639]
set_option maxHeartbeats 4000000 in
theorem refP23_writes : (refP23 : List (HloOp τ sig (Elt F))).Forall fun op => op.writes ⊆ (refP23_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide)⟩

set_option maxHeartbeats 4000000 in
/-- Operations 783 … 842 of the reference program, in order. -/
abbrev refP24 : List (HloOp τ sig (Elt F)) :=
  [ binary main_v636 main_v639 main_v640 (addf : (⟨S64x64, .f32⟩ : BufTy).Contents (Elt F) → (⟨S64x64, .f32⟩ : BufTy).Contents (Elt F) → (⟨S64x64, .f32⟩ : BufTy).Contents (Elt F)),
    binary main_v639 main_v630 main_v641 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_138 (constant S_ .f32 0x40000000#32),
    unary main_cst_138 main_v642 (broadcastInDim S64x64 ![] bcast_S_S64x64 : (⟨S_, .f32⟩ : BufTy).Contents (Elt F) → (⟨S64x64, .f32⟩ : BufTy).Contents (Elt F)),
    binary main_v641 main_v642 main_v643 (Host.divf : (⟨S64x64, .f32⟩ : BufTy).Contents (Elt F) → (⟨S64x64, .f32⟩ : BufTy).Contents (Elt F) → (⟨S64x64, .f32⟩ : BufTy).Contents (Elt F)),
    binary main_v640 main_v643 main_v644 (addf : (⟨S64x64, .f32⟩ : BufTy).Contents (Elt F) → (⟨S64x64, .f32⟩ : BufTy).Contents (Elt F) → (⟨S64x64, .f32⟩ : BufTy).Contents (Elt F)),
    binary main_v643 main_v630 main_v645 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_139 (constant S_ .f32 0x40400000#32),
    unary main_cst_139 main_v646 (broadcastInDim S64x64 ![] bcast_S_S64x64 : (⟨S_, .f32⟩ : BufTy).Contents (Elt F) → (⟨S64x64, .f32⟩ : BufTy).Contents (Elt F)),
    binary main_v645 main_v646 main_v647 (Host.divf : (⟨S64x64, .f32⟩ : BufTy).Contents (Elt F) → (⟨S64x64, .f32⟩ : BufTy).Contents (Elt F) → (⟨S64x64, .f32⟩ : BufTy).Contents (Elt F)),
    binary main_v644 main_v647 main_v648 (addf : (⟨S64x64, .f32⟩ : BufTy).Contents (Elt F) → (⟨S64x64, .f32⟩ : BufTy).Contents (Elt F) → (⟨S64x64, .f32⟩ : BufTy).Contents (Elt F)),
    binary main_v647 main_v630 main_v649 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_140 (constant S_ .f32 0x40800000#32),
    unary main_cst_140 main_v650 (broadcastInDim S64x64 ![] bcast_S_S64x64 : (⟨S_, .f32⟩ : BufTy).Contents (Elt F) → (⟨S64x64, .f32⟩ : BufTy).Contents (Elt F)),
    binary main_v649 main_v650 main_v651 (Host.divf : (⟨S64x64, .f32⟩ : BufTy).Contents (Elt F) → (⟨S64x64, .f32⟩ : BufTy).Contents (Elt F) → (⟨S64x64, .f32⟩ : BufTy).Contents (Elt F)),
    binary main_v648 main_v651 main_v652 (addf : (⟨S64x64, .f32⟩ : BufTy).Contents (Elt F) → (⟨S64x64, .f32⟩ : BufTy).Contents (Elt F) → (⟨S64x64, .f32⟩ : BufTy).Contents (Elt F)),
    binary main_v651 main_v630 main_v653 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_141 (constant S_ .f32 0x40A00000#32),
    unary main_cst_141 main_v654 (broadcastInDim S64x64 ![] bcast_S_S64x64 : (⟨S_, .f32⟩ : BufTy).Contents (Elt F) → (⟨S64x64, .f32⟩ : BufTy).Contents (Elt F)),
    binary main_v653 main_v654 main_v655 (Host.divf : (⟨S64x64, .f32⟩ : BufTy).Contents (Elt F) → (⟨S64x64, .f32⟩ : BufTy).Contents (Elt F) → (⟨S64x64, .f32⟩ : BufTy).Contents (Elt F)),
    binary main_v652 main_v655 main_v656 (addf : (⟨S64x64, .f32⟩ : BufTy).Contents (Elt F) → (⟨S64x64, .f32⟩ : BufTy).Contents (Elt F) → (⟨S64x64, .f32⟩ : BufTy).Contents (Elt F)),
    binary main_v655 main_v630 main_v657 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_142 (constant S_ .f32 0x40C00000#32),
    unary main_cst_142 main_v658 (broadcastInDim S64x64 ![] bcast_S_S64x64 : (⟨S_, .f32⟩ : BufTy).Contents (Elt F) → (⟨S64x64, .f32⟩ : BufTy).Contents (Elt F)),
    binary main_v657 main_v658 main_v659 (Host.divf : (⟨S64x64, .f32⟩ : BufTy).Contents (Elt F) → (⟨S64x64, .f32⟩ : BufTy).Contents (Elt F) → (⟨S64x64, .f32⟩ : BufTy).Contents (Elt F)),
    binary main_v656 main_v659 main_v660 (addf : (⟨S64x64, .f32⟩ : BufTy).Contents (Elt F) → (⟨S64x64, .f32⟩ : BufTy).Contents (Elt F) → (⟨S64x64, .f32⟩ : BufTy).Contents (Elt F)),
    binary main_v659 main_v630 main_v661 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_143 (constant S_ .f32 0x40E00000#32),
    unary main_cst_143 main_v662 (broadcastInDim S64x64 ![] bcast_S_S64x64 : (⟨S_, .f32⟩ : BufTy).Contents (Elt F) → (⟨S64x64, .f32⟩ : BufTy).Contents (Elt F)),
    binary main_v661 main_v662 main_v663 (Host.divf : (⟨S64x64, .f32⟩ : BufTy).Contents (Elt F) → (⟨S64x64, .f32⟩ : BufTy).Contents (Elt F) → (⟨S64x64, .f32⟩ : BufTy).Contents (Elt F)),
    binary main_v660 main_v663 main_v664 (addf : (⟨S64x64, .f32⟩ : BufTy).Contents (Elt F) → (⟨S64x64, .f32⟩ : BufTy).Contents (Elt F) → (⟨S64x64, .f32⟩ : BufTy).Contents (Elt F)),
    binary main_v663 main_v630 main_v665 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_144 (constant S_ .f32 0x41000000#32),
    unary main_cst_144 main_v666 (broadcastInDim S64x64 ![] bcast_S_S64x64 : (⟨S_, .f32⟩ : BufTy).Contents (Elt F) → (⟨S64x64, .f32⟩ : BufTy).Contents (Elt F)),
    binary main_v665 main_v666 main_v667 (Host.divf : (⟨S64x64, .f32⟩ : BufTy).Contents (Elt F) → (⟨S64x64, .f32⟩ : BufTy).Contents (Elt F) → (⟨S64x64, .f32⟩ : BufTy).Contents (Elt F)),
    binary main_v664 main_v667 main_v668 (addf : (⟨S64x64, .f32⟩ : BufTy).Contents (Elt F) → (⟨S64x64, .f32⟩ : BufTy).Contents (Elt F) → (⟨S64x64, .f32⟩ : BufTy).Contents (Elt F)),
    binary main_v667 main_v630 main_v669 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_145 (constant S_ .f32 0x41100000#32),
    unary main_cst_145 main_v670 (broadcastInDim S64x64 ![] bcast_S_S64x64 : (⟨S_, .f32⟩ : BufTy).Contents (Elt F) → (⟨S64x64, .f32⟩ : BufTy).Contents (Elt F)),
    binary main_v669 main_v670 main_v671 (Host.divf : (⟨S64x64, .f32⟩ : BufTy).Contents (Elt F) → (⟨S64x64, .f32⟩ : BufTy).Contents (Elt F) → (⟨S64x64, .f32⟩ : BufTy).Contents (Elt F)),
    binary main_v668 main_v671 main_v672 (addf : (⟨S64x64, .f32⟩ : BufTy).Contents (Elt F) → (⟨S64x64, .f32⟩ : BufTy).Contents (Elt F) → (⟨S64x64, .f32⟩ : BufTy).Contents (Elt F)),
    binary main_v671 main_v630 main_v673 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    nullary main_cst_146 (constant S_ .f32 0x41200000#32),
    unary main_cst_146 main_v674 (broadcastInDim S64x64 ![] bcast_S_S64x64 : (⟨S_, .f32⟩ : BufTy).Contents (Elt F) → (⟨S64x64, .f32⟩ : BufTy).Contents (Elt F)),
    binary main_v673 main_v674 main_v675 (Host.divf : (⟨S64x64, .f32⟩ : BufTy).Contents (Elt F) → (⟨S64x64, .f32⟩ : BufTy).Contents (Elt F) → (⟨S64x64, .f32⟩ : BufTy).Contents (Elt F)),
    binary main_v672 main_v675 main_v676 (addf : (⟨S64x64, .f32⟩ : BufTy).Contents (Elt F) → (⟨S64x64, .f32⟩ : BufTy).Contents (Elt F) → (⟨S64x64, .f32⟩ : BufTy).Contents (Elt F)),
    unary main_v33 main_v677 (broadcastInDim S1400000x1 ![0] bcast_S1400000_S1400000x1_0 : (⟨S1400000, .f32⟩ : BufTy).Contents (Elt F) → (⟨S1400000x1, .f32⟩ : BufTy).Contents (Elt F)),
    nullary main_c_147 (constantI S_ 32 0#32),
    unary main_c_147 main_v678 (broadcastInDim S1400000 ![] bcast_S_S1400000 : (⟨S_, .i32⟩ : BufTy).Contents (Elt F) → (⟨S1400000, .i32⟩ : BufTy).Contents (Elt F)),
    binary main_v5 main_v678 main_v679 (cmpi .slt : (⟨S1400000, .i32⟩ : BufTy).Contents (Elt F) → (⟨S1400000, .i32⟩ : BufTy).Contents (Elt F) → (⟨S1400000, .i1⟩ : BufTy).Contents (Elt F)),
    nullary main_c_148 (constantI S_ 32 200000#32),
    unary main_c_148 main_v680 (broadcastInDim S1400000 ![] bcast_S_S1400000 : (⟨S_, .i32⟩ : BufTy).Contents (Elt F) → (⟨S1400000, .i32⟩ : BufTy).Contents (Elt F)),
    binary main_v5 main_v680 main_v681 (addi : (⟨S1400000, .i32⟩ : BufTy).Contents (Elt F) → (⟨S1400000, .i32⟩ : BufTy).Contents (Elt F) → (⟨S1400000, .i32⟩ : BufTy).Contents (Elt F)),
    ternary main_v679 main_v681 main_v5 main_v682 (select : (⟨S1400000, .i1⟩ : BufTy).Contents (Elt F) → (⟨S1400000, .i32⟩ : BufTy).Contents (Elt F) → (⟨S1400000, .i32⟩ : BufTy).Contents (Elt F) → (⟨S1400000, .i32⟩ : BufTy).Contents (Elt F)),
    unary main_v682 main_v683 (broadcastInDim S1400000x1 ![0] bcast_S1400000_S1400000x1_0 : (⟨S1400000, .i32⟩ : BufTy).Contents (Elt F) → (⟨S1400000x1, .i32⟩ : BufTy).Contents (Elt F)),
    binary main_v626 main_v683 main_v684 ((fun x i => Host.gather gather_S200000x64_S1400000x1_S1400000x64_1_0_n_n_0_1_164 x i) : (⟨S200000x64, .f32⟩ : BufTy).Contents (Elt F) → (⟨S1400000x1, .i32⟩ : BufTy).Contents (Elt F) → (⟨S1400000x64, .f32⟩ : BufTy).Contents (Elt F)),
    unary main_v677 main_v685 (broadcastInDim S1400000x64 ![0, 1] bcast_S1400000x1_S1400000x64_0_1 : (⟨S1400000x1, .f32⟩ : BufTy).Contents (Elt F) → (⟨S1400000x64, .f32⟩ : BufTy).Contents (Elt F)),
    binary main_v685 main_v684 main_v686 (mulf : (⟨S1400000x64, .f32⟩ : BufTy).Contents (Elt F) → (⟨S1400000x64, .f32⟩ : BufTy).Contents (Elt F) → (⟨S1400000x64, .f32⟩ : BufTy).Contents (Elt F)),
    nullary main_cst_149 (constant S_ .f32 0x00000000#32),
    unary main_cst_149 main_v687 (broadcastInDim S200000x64 ![] bcast_S_S200000x64 : (⟨S_, .f32⟩ : BufTy).Contents (Elt F) → (⟨S200000x64, .f32⟩ : BufTy).Contents (Elt F)) ]
theorem refP24_sub : (refP24 : List (HloOp τ sig (Elt F))).Forall fun op => op.bufs ⊆ tcRefs τ sig :=
  ⟨binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub ..⟩
theorem refP24_fresh : (refP24 : List (HloOp τ sig (Elt F))).Forall fun op => op.fresh = ∅ := by
  simp only [List.Forall]; repeat' constructor
/-- The references the operations 783 … 842 write. -/
abbrev refP24_W : List (Ref sig .tc) := [main_v640, main_v641, main_cst_138, main_v642, main_v643, main_v644, main_v645, main_cst_139, main_v646, main_v647, main_v648, main_v649, main_cst_140, main_v650, main_v651, main_v652, main_v653, main_cst_141, main_v654, main_v655, main_v656, main_v657, main_cst_142, main_v658, main_v659, main_v660, main_v661, main_cst_143, main_v662, main_v663, main_v664, main_v665, main_cst_144, main_v666, main_v667, main_v668, main_v669, main_cst_145, main_v670, main_v671, main_v672, main_v673, main_cst_146, main_v674, main_v675, main_v676, main_v677, main_c_147, main_v678, main_v679, main_c_148, main_v680, main_v681, main_v682, main_v683, main_v684, main_v685, main_v686, main_cst_149, main_v687]
set_option maxHeartbeats 4000000 in
theorem refP24_writes : (refP24 : List (HloOp τ sig (Elt F))).Forall fun op => op.writes ⊆ (refP24_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide)⟩

set_option maxHeartbeats 4000000 in
/-- Operations 843 … 845 of the reference program, in order. -/
abbrev refP25 : List (HloOp τ sig (Elt F)) :=
  [ unary main_v6 main_v688 (broadcastInDim S1400000x1 ![0] bcast_S1400000_S1400000x1_0 : (⟨S1400000, .i32⟩ : BufTy).Contents (Elt F) → (⟨S1400000x1, .i32⟩ : BufTy).Contents (Elt F)),
    ternary main_v687 main_v688 main_v686 main_v689 ((fun x i u => Host.scatterAdd scatter_S200000x64_S1400000x1_S1400000x64_1_0_0_1 x i u) : (⟨S200000x64, .f32⟩ : BufTy).Contents (Elt F) → (⟨S1400000x1, .i32⟩ : BufTy).Contents (Elt F) → (⟨S1400000x64, .f32⟩ : BufTy).Contents (Elt F) → (⟨S200000x64, .f32⟩ : BufTy).Contents (Elt F)),
    binary main_v689 main_v676 main_v690 ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F)) ]
theorem refP25_sub : (refP25 : List (HloOp τ sig (Elt F))).Forall fun op => op.bufs ⊆ tcRefs τ sig :=
  ⟨unary_bufs_sub .., ternary_bufs_sub .., binary_bufs_sub ..⟩
theorem refP25_fresh : (refP25 : List (HloOp τ sig (Elt F))).Forall fun op => op.fresh = ∅ := by
  simp only [List.Forall]; repeat' constructor
/-- The references the operations 843 … 845 write. -/
abbrev refP25_W : List (Ref sig .tc) := [main_v688, main_v689, main_v690]
set_option maxHeartbeats 4000000 in
theorem refP25_writes : (refP25 : List (HloOp τ sig (Elt F))).Forall fun op => op.writes ⊆ (refP25_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide)⟩

set_option maxHeartbeats 4000000 in
/-- Operations 846 … 865 of the reference program, in order. -/
abbrev refP26 : List (HloOp τ sig (Elt F)) :=
  [ binary main_v690 main_arg6 main_v691 ((fun l r => Host.dotGeneral dot_S200000x64_S64x1_S200000x1_1_0_0_1_n_n none l r) : (⟨S200000x64, .f32⟩ : BufTy).Contents (Elt F) → (⟨S64x1, .f32⟩ : BufTy).Contents (Elt F) → (⟨S200000x1, .f32⟩ : BufTy).Contents (Elt F)),
    unary main_v33 main_v692 (broadcastInDim S1400000x1 ![0] bcast_S1400000_S1400000x1_0 : (⟨S1400000, .f32⟩ : BufTy).Contents (Elt F) → (⟨S1400000x1, .f32⟩ : BufTy).Contents (Elt F)),
    nullary main_c_150 (constantI S_ 32 0#32),
    unary main_c_150 main_v693 (broadcastInDim S1400000 ![] bcast_S_S1400000 : (⟨S_, .i32⟩ : BufTy).Contents (Elt F) → (⟨S1400000, .i32⟩ : BufTy).Contents (Elt F)),
    binary main_v5 main_v693 main_v694 (cmpi .slt : (⟨S1400000, .i32⟩ : BufTy).Contents (Elt F) → (⟨S1400000, .i32⟩ : BufTy).Contents (Elt F) → (⟨S1400000, .i1⟩ : BufTy).Contents (Elt F)),
    nullary main_c_151 (constantI S_ 32 200000#32),
    unary main_c_151 main_v695 (broadcastInDim S1400000 ![] bcast_S_S1400000 : (⟨S_, .i32⟩ : BufTy).Contents (Elt F) → (⟨S1400000, .i32⟩ : BufTy).Contents (Elt F)),
    binary main_v5 main_v695 main_v696 (addi : (⟨S1400000, .i32⟩ : BufTy).Contents (Elt F) → (⟨S1400000, .i32⟩ : BufTy).Contents (Elt F) → (⟨S1400000, .i32⟩ : BufTy).Contents (Elt F)),
    ternary main_v694 main_v696 main_v5 main_v697 (select : (⟨S1400000, .i1⟩ : BufTy).Contents (Elt F) → (⟨S1400000, .i32⟩ : BufTy).Contents (Elt F) → (⟨S1400000, .i32⟩ : BufTy).Contents (Elt F) → (⟨S1400000, .i32⟩ : BufTy).Contents (Elt F)),
    unary main_v697 main_v698 (broadcastInDim S1400000x1 ![0] bcast_S1400000_S1400000x1_0 : (⟨S1400000, .i32⟩ : BufTy).Contents (Elt F) → (⟨S1400000x1, .i32⟩ : BufTy).Contents (Elt F)),
    binary main_v691 main_v698 main_v699 ((fun x i => Host.gather gather_S200000x1_S1400000x1_S1400000x1_1_0_n_n_0_1_11 x i) : (⟨S200000x1, .f32⟩ : BufTy).Contents (Elt F) → (⟨S1400000x1, .i32⟩ : BufTy).Contents (Elt F) → (⟨S1400000x1, .f32⟩ : BufTy).Contents (Elt F)),
    binary main_v692 main_v699 main_v700 (mulf : (⟨S1400000x1, .f32⟩ : BufTy).Contents (Elt F) → (⟨S1400000x1, .f32⟩ : BufTy).Contents (Elt F) → (⟨S1400000x1, .f32⟩ : BufTy).Contents (Elt F)),
    nullary main_cst_152 (constant S_ .f32 0x00000000#32),
    unary main_cst_152 main_v701 (broadcastInDim S200000x1 ![] bcast_S_S200000x1 : (⟨S_, .f32⟩ : BufTy).Contents (Elt F) → (⟨S200000x1, .f32⟩ : BufTy).Contents (Elt F)),
    unary main_v6 main_v702 (broadcastInDim S1400000x1 ![0] bcast_S1400000_S1400000x1_0 : (⟨S1400000, .i32⟩ : BufTy).Contents (Elt F) → (⟨S1400000x1, .i32⟩ : BufTy).Contents (Elt F)),
    ternary main_v701 main_v702 main_v700 main_v703 ((fun x i u => Host.scatterAdd scatter_S200000x1_S1400000x1_S1400000x1_1_0_0_1 x i u) : (⟨S200000x1, .f32⟩ : BufTy).Contents (Elt F) → (⟨S1400000x1, .i32⟩ : BufTy).Contents (Elt F) → (⟨S1400000x1, .f32⟩ : BufTy).Contents (Elt F) → (⟨S200000x1, .f32⟩ : BufTy).Contents (Elt F)),
    unary main_arg7 main_v704 (broadcastInDim S1x1 ![1] bcast_S1_S1x1_1 : (⟨S1, .f32⟩ : BufTy).Contents (Elt F) → (⟨S1x1, .f32⟩ : BufTy).Contents (Elt F)),
    unary main_v704 main_v705 (broadcastInDim S200000x1 ![0, 1] bcast_S1x1_S200000x1_0_1 : (⟨S1x1, .f32⟩ : BufTy).Contents (Elt F) → (⟨S200000x1, .f32⟩ : BufTy).Contents (Elt F)),
    binary main_v703 main_v705 main_v706 (addf : (⟨S200000x1, .f32⟩ : BufTy).Contents (Elt F) → (⟨S200000x1, .f32⟩ : BufTy).Contents (Elt F) → (⟨S200000x1, .f32⟩ : BufTy).Contents (Elt F)),
    unary main_v706 main_v707 (broadcastInDim S200000x1x1 ![0, 1] bcast_S200000x1_S200000x1x1_0_1 : (⟨S200000x1, .f32⟩ : BufTy).Contents (Elt F) → (⟨S200000x1x1, .f32⟩ : BufTy).Contents (Elt F)) ]
theorem refP26_sub : (refP26 : List (HloOp τ sig (Elt F))).Forall fun op => op.bufs ⊆ tcRefs τ sig :=
  ⟨binary_bufs_sub .., unary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., unary_bufs_sub .., ternary_bufs_sub .., unary_bufs_sub .., unary_bufs_sub .., binary_bufs_sub .., unary_bufs_sub ..⟩
theorem refP26_fresh : (refP26 : List (HloOp τ sig (Elt F))).Forall fun op => op.fresh = ∅ := by
  simp only [List.Forall]; repeat' constructor
/-- The references the operations 846 … 865 write. -/
abbrev refP26_W : List (Ref sig .tc) := [main_v691, main_v692, main_c_150, main_v693, main_v694, main_c_151, main_v695, main_v696, main_v697, main_v698, main_v699, main_v700, main_cst_152, main_v701, main_v702, main_v703, main_v704, main_v705, main_v706, main_v707]
set_option maxHeartbeats 4000000 in
theorem refP26_writes : (refP26 : List (HloOp τ sig (Elt F))).Forall fun op => op.writes ⊆ (refP26_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide)⟩

end Cert.ReferenceIdeal.RefRun

end
-- ==== Proof.RefOps.lean ====
/- The reference program's 865 host operations in order as the line of its 27 pieces; the contents after each piece, and that a
   reference outside the list a piece writes holds after the piece what it held before; the arguments, and the references that
   live across the run, through the pieces.
-/
import proofs.«415904_j29016799052628_2_alg».proof.Proof.RefOps0
import proofs.«415904_j29016799052628_2_alg».proof.Proof.RefOps1
import proofs.«415904_j29016799052628_2_alg».proof.Proof.RefOps2
import proofs.«415904_j29016799052628_2_alg».proof.Proof.RefOps3

set_option maxRecDepth 16384
set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The whole reference program: its 865 operations in order. -/
abbrev refOps : List (HloOp τ sig (Elt F)) := refP0 ++ refP1 ++ refP2 ++ refP3 ++ refP4 ++ refP5 ++ refP6 ++ refP7 ++ refP8 ++ refP9 ++ refP10 ++ refP11 ++ refP12 ++ refP13 ++ refP14 ++ refP15 ++ refP16 ++ refP17 ++ refP18 ++ refP19 ++ refP20 ++ refP21 ++ refP22 ++ refP23 ++ refP24 ++ refP25 ++ refP26

/-! ## The contents after each piece -/

/-- The contents after the pieces 0 … 0, from the contents V0. -/
def refV0 (V0 : Valuation τ sig (Elt F)) : Valuation τ sig (Elt F) := after refP0 (V0)
/-- A reference piece 0 does not write holds after it what it held before. -/
theorem keep_refV0 (V0 : Valuation τ sig (Elt F)) (r : Ref sig .tc) (h : r ∉ refP0_W) :
    refV0 V0 (Proc.devRef .tc r) = V0 (Proc.devRef .tc r) :=
  after_of_writes_sub refP0 _ refP0_writes h

/-- The contents after the pieces 0 … 1, from the contents V0. -/
def refV1 (V0 : Valuation τ sig (Elt F)) : Valuation τ sig (Elt F) := after refP1 (refV0 V0)
/-- A reference piece 1 does not write holds after it what it held before. -/
theorem keep_refV1 (V0 : Valuation τ sig (Elt F)) (r : Ref sig .tc) (h : r ∉ refP1_W) :
    refV1 V0 (Proc.devRef .tc r) = refV0 V0 (Proc.devRef .tc r) :=
  after_of_writes_sub refP1 _ refP1_writes h

/-- The contents after the pieces 0 … 2, from the contents V0. -/
def refV2 (V0 : Valuation τ sig (Elt F)) : Valuation τ sig (Elt F) := after refP2 (refV1 V0)
/-- A reference piece 2 does not write holds after it what it held before. -/
theorem keep_refV2 (V0 : Valuation τ sig (Elt F)) (r : Ref sig .tc) (h : r ∉ refP2_W) :
    refV2 V0 (Proc.devRef .tc r) = refV1 V0 (Proc.devRef .tc r) :=
  after_of_writes_sub refP2 _ refP2_writes h

/-- The contents after the pieces 0 … 3, from the contents V0. -/
def refV3 (V0 : Valuation τ sig (Elt F)) : Valuation τ sig (Elt F) := after refP3 (refV2 V0)
/-- A reference piece 3 does not write holds after it what it held before. -/
theorem keep_refV3 (V0 : Valuation τ sig (Elt F)) (r : Ref sig .tc) (h : r ∉ refP3_W) :
    refV3 V0 (Proc.devRef .tc r) = refV2 V0 (Proc.devRef .tc r) :=
  after_of_writes_sub refP3 _ refP3_writes h

/-- The contents after the pieces 0 … 4, from the contents V0. -/
def refV4 (V0 : Valuation τ sig (Elt F)) : Valuation τ sig (Elt F) := after refP4 (refV3 V0)
/-- A reference piece 4 does not write holds after it what it held before. -/
theorem keep_refV4 (V0 : Valuation τ sig (Elt F)) (r : Ref sig .tc) (h : r ∉ refP4_W) :
    refV4 V0 (Proc.devRef .tc r) = refV3 V0 (Proc.devRef .tc r) :=
  after_of_writes_sub refP4 _ refP4_writes h

/-- The contents after the pieces 0 … 5, from the contents V0. -/
def refV5 (V0 : Valuation τ sig (Elt F)) : Valuation τ sig (Elt F) := after refP5 (refV4 V0)
/-- A reference piece 5 does not write holds after it what it held before. -/
theorem keep_refV5 (V0 : Valuation τ sig (Elt F)) (r : Ref sig .tc) (h : r ∉ refP5_W) :
    refV5 V0 (Proc.devRef .tc r) = refV4 V0 (Proc.devRef .tc r) :=
  after_of_writes_sub refP5 _ refP5_writes h

/-- The contents after the pieces 0 … 6, from the contents V0. -/
def refV6 (V0 : Valuation τ sig (Elt F)) : Valuation τ sig (Elt F) := after refP6 (refV5 V0)
/-- A reference piece 6 does not write holds after it what it held before. -/
theorem keep_refV6 (V0 : Valuation τ sig (Elt F)) (r : Ref sig .tc) (h : r ∉ refP6_W) :
    refV6 V0 (Proc.devRef .tc r) = refV5 V0 (Proc.devRef .tc r) :=
  after_of_writes_sub refP6 _ refP6_writes h

/-- The contents after the pieces 0 … 7, from the contents V0. -/
def refV7 (V0 : Valuation τ sig (Elt F)) : Valuation τ sig (Elt F) := after refP7 (refV6 V0)
/-- A reference piece 7 does not write holds after it what it held before. -/
theorem keep_refV7 (V0 : Valuation τ sig (Elt F)) (r : Ref sig .tc) (h : r ∉ refP7_W) :
    refV7 V0 (Proc.devRef .tc r) = refV6 V0 (Proc.devRef .tc r) :=
  after_of_writes_sub refP7 _ refP7_writes h

/-- The contents after the pieces 0 … 8, from the contents V0. -/
def refV8 (V0 : Valuation τ sig (Elt F)) : Valuation τ sig (Elt F) := after refP8 (refV7 V0)
/-- A reference piece 8 does not write holds after it what it held before. -/
theorem keep_refV8 (V0 : Valuation τ sig (Elt F)) (r : Ref sig .tc) (h : r ∉ refP8_W) :
    refV8 V0 (Proc.devRef .tc r) = refV7 V0 (Proc.devRef .tc r) :=
  after_of_writes_sub refP8 _ refP8_writes h

/-- The contents after the pieces 0 … 9, from the contents V0. -/
def refV9 (V0 : Valuation τ sig (Elt F)) : Valuation τ sig (Elt F) := after refP9 (refV8 V0)
/-- A reference piece 9 does not write holds after it what it held before. -/
theorem keep_refV9 (V0 : Valuation τ sig (Elt F)) (r : Ref sig .tc) (h : r ∉ refP9_W) :
    refV9 V0 (Proc.devRef .tc r) = refV8 V0 (Proc.devRef .tc r) :=
  after_of_writes_sub refP9 _ refP9_writes h

/-- The contents after the pieces 0 … 10, from the contents V0. -/
def refV10 (V0 : Valuation τ sig (Elt F)) : Valuation τ sig (Elt F) := after refP10 (refV9 V0)
/-- A reference piece 10 does not write holds after it what it held before. -/
theorem keep_refV10 (V0 : Valuation τ sig (Elt F)) (r : Ref sig .tc) (h : r ∉ refP10_W) :
    refV10 V0 (Proc.devRef .tc r) = refV9 V0 (Proc.devRef .tc r) :=
  after_of_writes_sub refP10 _ refP10_writes h

/-- The contents after the pieces 0 … 11, from the contents V0. -/
def refV11 (V0 : Valuation τ sig (Elt F)) : Valuation τ sig (Elt F) := after refP11 (refV10 V0)
/-- A reference piece 11 does not write holds after it what it held before. -/
theorem keep_refV11 (V0 : Valuation τ sig (Elt F)) (r : Ref sig .tc) (h : r ∉ refP11_W) :
    refV11 V0 (Proc.devRef .tc r) = refV10 V0 (Proc.devRef .tc r) :=
  after_of_writes_sub refP11 _ refP11_writes h

/-- The contents after the pieces 0 … 12, from the contents V0. -/
def refV12 (V0 : Valuation τ sig (Elt F)) : Valuation τ sig (Elt F) := after refP12 (refV11 V0)
/-- A reference piece 12 does not write holds after it what it held before. -/
theorem keep_refV12 (V0 : Valuation τ sig (Elt F)) (r : Ref sig .tc) (h : r ∉ refP12_W) :
    refV12 V0 (Proc.devRef .tc r) = refV11 V0 (Proc.devRef .tc r) :=
  after_of_writes_sub refP12 _ refP12_writes h

/-- The contents after the pieces 0 … 13, from the contents V0. -/
def refV13 (V0 : Valuation τ sig (Elt F)) : Valuation τ sig (Elt F) := after refP13 (refV12 V0)
/-- A reference piece 13 does not write holds after it what it held before. -/
theorem keep_refV13 (V0 : Valuation τ sig (Elt F)) (r : Ref sig .tc) (h : r ∉ refP13_W) :
    refV13 V0 (Proc.devRef .tc r) = refV12 V0 (Proc.devRef .tc r) :=
  after_of_writes_sub refP13 _ refP13_writes h

/-- The contents after the pieces 0 … 14, from the contents V0. -/
def refV14 (V0 : Valuation τ sig (Elt F)) : Valuation τ sig (Elt F) := after refP14 (refV13 V0)
/-- A reference piece 14 does not write holds after it what it held before. -/
theorem keep_refV14 (V0 : Valuation τ sig (Elt F)) (r : Ref sig .tc) (h : r ∉ refP14_W) :
    refV14 V0 (Proc.devRef .tc r) = refV13 V0 (Proc.devRef .tc r) :=
  after_of_writes_sub refP14 _ refP14_writes h

/-- The contents after the pieces 0 … 15, from the contents V0. -/
def refV15 (V0 : Valuation τ sig (Elt F)) : Valuation τ sig (Elt F) := after refP15 (refV14 V0)
/-- A reference piece 15 does not write holds after it what it held before. -/
theorem keep_refV15 (V0 : Valuation τ sig (Elt F)) (r : Ref sig .tc) (h : r ∉ refP15_W) :
    refV15 V0 (Proc.devRef .tc r) = refV14 V0 (Proc.devRef .tc r) :=
  after_of_writes_sub refP15 _ refP15_writes h

/-- The contents after the pieces 0 … 16, from the contents V0. -/
def refV16 (V0 : Valuation τ sig (Elt F)) : Valuation τ sig (Elt F) := after refP16 (refV15 V0)
/-- A reference piece 16 does not write holds after it what it held before. -/
theorem keep_refV16 (V0 : Valuation τ sig (Elt F)) (r : Ref sig .tc) (h : r ∉ refP16_W) :
    refV16 V0 (Proc.devRef .tc r) = refV15 V0 (Proc.devRef .tc r) :=
  after_of_writes_sub refP16 _ refP16_writes h

/-- The contents after the pieces 0 … 17, from the contents V0. -/
def refV17 (V0 : Valuation τ sig (Elt F)) : Valuation τ sig (Elt F) := after refP17 (refV16 V0)
/-- A reference piece 17 does not write holds after it what it held before. -/
theorem keep_refV17 (V0 : Valuation τ sig (Elt F)) (r : Ref sig .tc) (h : r ∉ refP17_W) :
    refV17 V0 (Proc.devRef .tc r) = refV16 V0 (Proc.devRef .tc r) :=
  after_of_writes_sub refP17 _ refP17_writes h

/-- The contents after the pieces 0 … 18, from the contents V0. -/
def refV18 (V0 : Valuation τ sig (Elt F)) : Valuation τ sig (Elt F) := after refP18 (refV17 V0)
/-- A reference piece 18 does not write holds after it what it held before. -/
theorem keep_refV18 (V0 : Valuation τ sig (Elt F)) (r : Ref sig .tc) (h : r ∉ refP18_W) :
    refV18 V0 (Proc.devRef .tc r) = refV17 V0 (Proc.devRef .tc r) :=
  after_of_writes_sub refP18 _ refP18_writes h

/-- The contents after the pieces 0 … 19, from the contents V0. -/
def refV19 (V0 : Valuation τ sig (Elt F)) : Valuation τ sig (Elt F) := after refP19 (refV18 V0)
/-- A reference piece 19 does not write holds after it what it held before. -/
theorem keep_refV19 (V0 : Valuation τ sig (Elt F)) (r : Ref sig .tc) (h : r ∉ refP19_W) :
    refV19 V0 (Proc.devRef .tc r) = refV18 V0 (Proc.devRef .tc r) :=
  after_of_writes_sub refP19 _ refP19_writes h

/-- The contents after the pieces 0 … 20, from the contents V0. -/
def refV20 (V0 : Valuation τ sig (Elt F)) : Valuation τ sig (Elt F) := after refP20 (refV19 V0)
/-- A reference piece 20 does not write holds after it what it held before. -/
theorem keep_refV20 (V0 : Valuation τ sig (Elt F)) (r : Ref sig .tc) (h : r ∉ refP20_W) :
    refV20 V0 (Proc.devRef .tc r) = refV19 V0 (Proc.devRef .tc r) :=
  after_of_writes_sub refP20 _ refP20_writes h

/-- The contents after the pieces 0 … 21, from the contents V0. -/
def refV21 (V0 : Valuation τ sig (Elt F)) : Valuation τ sig (Elt F) := after refP21 (refV20 V0)
/-- A reference piece 21 does not write holds after it what it held before. -/
theorem keep_refV21 (V0 : Valuation τ sig (Elt F)) (r : Ref sig .tc) (h : r ∉ refP21_W) :
    refV21 V0 (Proc.devRef .tc r) = refV20 V0 (Proc.devRef .tc r) :=
  after_of_writes_sub refP21 _ refP21_writes h

/-- The contents after the pieces 0 … 22, from the contents V0. -/
def refV22 (V0 : Valuation τ sig (Elt F)) : Valuation τ sig (Elt F) := after refP22 (refV21 V0)
/-- A reference piece 22 does not write holds after it what it held before. -/
theorem keep_refV22 (V0 : Valuation τ sig (Elt F)) (r : Ref sig .tc) (h : r ∉ refP22_W) :
    refV22 V0 (Proc.devRef .tc r) = refV21 V0 (Proc.devRef .tc r) :=
  after_of_writes_sub refP22 _ refP22_writes h

/-- The contents after the pieces 0 … 23, from the contents V0. -/
def refV23 (V0 : Valuation τ sig (Elt F)) : Valuation τ sig (Elt F) := after refP23 (refV22 V0)
/-- A reference piece 23 does not write holds after it what it held before. -/
theorem keep_refV23 (V0 : Valuation τ sig (Elt F)) (r : Ref sig .tc) (h : r ∉ refP23_W) :
    refV23 V0 (Proc.devRef .tc r) = refV22 V0 (Proc.devRef .tc r) :=
  after_of_writes_sub refP23 _ refP23_writes h

/-- The contents after the pieces 0 … 24, from the contents V0. -/
def refV24 (V0 : Valuation τ sig (Elt F)) : Valuation τ sig (Elt F) := after refP24 (refV23 V0)
/-- A reference piece 24 does not write holds after it what it held before. -/
theorem keep_refV24 (V0 : Valuation τ sig (Elt F)) (r : Ref sig .tc) (h : r ∉ refP24_W) :
    refV24 V0 (Proc.devRef .tc r) = refV23 V0 (Proc.devRef .tc r) :=
  after_of_writes_sub refP24 _ refP24_writes h

/-- The contents after the pieces 0 … 25, from the contents V0. -/
def refV25 (V0 : Valuation τ sig (Elt F)) : Valuation τ sig (Elt F) := after refP25 (refV24 V0)
/-- A reference piece 25 does not write holds after it what it held before. -/
theorem keep_refV25 (V0 : Valuation τ sig (Elt F)) (r : Ref sig .tc) (h : r ∉ refP25_W) :
    refV25 V0 (Proc.devRef .tc r) = refV24 V0 (Proc.devRef .tc r) :=
  after_of_writes_sub refP25 _ refP25_writes h

/-- The contents after the pieces 0 … 26, from the contents V0. -/
def refV26 (V0 : Valuation τ sig (Elt F)) : Valuation τ sig (Elt F) := after refP26 (refV25 V0)
/-- A reference piece 26 does not write holds after it what it held before. -/
theorem keep_refV26 (V0 : Valuation τ sig (Elt F)) (r : Ref sig .tc) (h : r ∉ refP26_W) :
    refV26 V0 (Proc.devRef .tc r) = refV25 V0 (Proc.devRef .tc r) :=
  after_of_writes_sub refP26 _ refP26_writes h

/-! ## What lives across the run: the arguments, the two index lists and the edge normalisation -/

abbrev argL : List (Ref sig .tc) := [main_arg0, main_arg1, main_arg2, main_arg3, main_arg4, main_arg5, main_arg6, main_arg7]
abbrev keepL : List (Ref sig .tc) := [main_v5, main_v6, main_v33, main_arg4, main_arg5, main_arg6, main_arg7]

/-- Every reference the program writes, piece by piece. -/
abbrev refW_from0 : List (Ref sig .tc) := refP0_W ++ (refP1_W ++ (refP2_W ++ (refP3_W ++ (refP4_W ++ (refP5_W ++ (refP6_W ++ (refP7_W ++ (refP8_W ++ (refP9_W ++ (refP10_W ++ (refP11_W ++ (refP12_W ++ (refP13_W ++ (refP14_W ++ (refP15_W ++ (refP16_W ++ (refP17_W ++ (refP18_W ++ (refP19_W ++ (refP20_W ++ (refP21_W ++ (refP22_W ++ (refP23_W ++ (refP24_W ++ (refP25_W ++ (refP26_W))))))))))))))))))))))))))
/-- The references written after piece 0, piece by piece. -/
abbrev refW_from1 : List (Ref sig .tc) := refP1_W ++ (refP2_W ++ (refP3_W ++ (refP4_W ++ (refP5_W ++ (refP6_W ++ (refP7_W ++ (refP8_W ++ (refP9_W ++ (refP10_W ++ (refP11_W ++ (refP12_W ++ (refP13_W ++ (refP14_W ++ (refP15_W ++ (refP16_W ++ (refP17_W ++ (refP18_W ++ (refP19_W ++ (refP20_W ++ (refP21_W ++ (refP22_W ++ (refP23_W ++ (refP24_W ++ (refP25_W ++ (refP26_W)))))))))))))))))))))))))
/-- No operation writes an argument. -/
theorem argL_not_written : ∀ r ∈ argL, r ∉ refW_from0 := by decide +kernel
/-- No operation after piece 0 writes a reference of the list keepL. -/
theorem keepL_not_written : ∀ r ∈ keepL, r ∉ refW_from1 := by decide +kernel

/-- No operation of the pieces 0 … 0 writes an argument. -/
theorem arg_refV0 (V0 : Valuation τ sig (Elt F)) (r : Ref sig .tc) (h : r ∈ argL) : refV0 V0 (Proc.devRef .tc r) = V0 (Proc.devRef .tc r) :=
  keep_refV0 V0 r fun hm => argL_not_written r h (List.mem_append_left _ hm)
/-- No operation of the pieces 0 … 1 writes an argument. -/
theorem arg_refV1 (V0 : Valuation τ sig (Elt F)) (r : Ref sig .tc) (h : r ∈ argL) : refV1 V0 (Proc.devRef .tc r) = V0 (Proc.devRef .tc r) :=
  (keep_refV1 V0 r fun hm => argL_not_written r h (List.mem_append_right _ (List.mem_append_left _ hm))).trans (arg_refV0 V0 r h)
/-- No operation of the pieces 0 … 2 writes an argument. -/
theorem arg_refV2 (V0 : Valuation τ sig (Elt F)) (r : Ref sig .tc) (h : r ∈ argL) : refV2 V0 (Proc.devRef .tc r) = V0 (Proc.devRef .tc r) :=
  (keep_refV2 V0 r fun hm => argL_not_written r h (List.mem_append_right _ (List.mem_append_right _ (List.mem_append_left _ hm)))).trans (arg_refV1 V0 r h)
/-- No operation of the pieces 0 … 3 writes an argument. -/
theorem arg_refV3 (V0 : Valuation τ sig (Elt F)) (r : Ref sig .tc) (h : r ∈ argL) : refV3 V0 (Proc.devRef .tc r) = V0 (Proc.devRef .tc r) :=
  (keep_refV3 V0 r fun hm => argL_not_written r h (List.mem_append_right _ (List.mem_append_right _ (List.mem_append_right _ (List.mem_append_left _ hm))))).trans (arg_refV2 V0 r h)
/-- No operation of the pieces 0 … 4 writes an argument. -/
theorem arg_refV4 (V0 : Valuation τ sig (Elt F)) (r : Ref sig .tc) (h : r ∈ argL) : refV4 V0 (Proc.devRef .tc r) = V0 (Proc.devRef .tc r) :=
  (keep_refV4 V0 r fun hm => argL_not_written r h (List.mem_append_right _ (List.mem_append_right _ (List.mem_append_right _ (List.mem_append_right _ (List.mem_append_left _ hm)))))).trans (arg_refV3 V0 r h)
/-- No operation of the pieces 0 … 5 writes an argument. -/
theorem arg_refV5 (V0 : Valuation τ sig (Elt F)) (r : Ref sig .tc) (h : r ∈ argL) : refV5 V0 (Proc.devRef .tc r) = V0 (Proc.devRef .tc r) :=
  (keep_refV5 V0 r fun hm => argL_not_written r h (List.mem_append_right _ (List.mem_append_right _ (List.mem_append_right _ (List.mem_append_right _ (List.mem_append_right _ (List.mem_append_left _ hm))))))).trans (arg_refV4 V0 r h)
/-- No operation of the pieces 0 … 6 writes an argument. -/
theorem arg_refV6 (V0 : Valuation τ sig (Elt F)) (r : Ref sig .tc) (h : r ∈ argL) : refV6 V0 (Proc.devRef .tc r) = V0 (Proc.devRef .tc r) :=
  (keep_refV6 V0 r fun hm => argL_not_written r h (List.mem_append_right _ (List.mem_append_right _ (List.mem_append_right _ (List.mem_append_right _ (List.mem_append_right _ (List.mem_append_right _ (List.mem_append_left _ hm)))))))).trans (arg_refV5 V0 r h)
/-- No operation of the pieces 0 … 7 writes an argument. -/
theorem arg_refV7 (V0 : Valuation τ sig (Elt F)) (r : Ref sig .tc) (h : r ∈ argL) : refV7 V0 (Proc.devRef .tc r) = V0 (Proc.devRef .tc r) :=
  (keep_refV7 V0 r fun hm => argL_not_written r h (List.mem_append_right _ (List.mem_append_right _ (List.mem_append_right _ (List.mem_append_right _ (List.mem_append_right _ (List.mem_append_right _ (List.mem_append_right _ (List.mem_append_left _ hm))))))))).trans (arg_refV6 V0 r h)
/-- No operation of the pieces 0 … 8 writes an argument. -/
theorem arg_refV8 (V0 : Valuation τ sig (Elt F)) (r : Ref sig .tc) (h : r ∈ argL) : refV8 V0 (Proc.devRef .tc r) = V0 (Proc.devRef .tc r) :=
  (keep_refV8 V0 r fun hm => argL_not_written r h (List.mem_append_right _ (List.mem_append_right _ (List.mem_append_right _ (List.mem_append_right _ (List.mem_append_right _ (List.mem_append_right _ (List.mem_append_right _ (List.mem_append_right _ (List.mem_append_left _ hm)))))))))).trans (arg_refV7 V0 r h)
/-- No operation of the pieces 0 … 9 writes an argument. -/
theorem arg_refV9 (V0 : Valuation τ sig (Elt F)) (r : Ref sig .tc) (h : r ∈ argL) : refV9 V0 (Proc.devRef .tc r) = V0 (Proc.devRef .tc r) :=
  (keep_refV9 V0 r fun hm => argL_not_written r h (List.mem_append_right _ (List.mem_append_right _ (List.mem_append_right _ (List.mem_append_right _ (List.mem_append_right _ (List.mem_append_right _ (List.mem_append_right _ (List.mem_append_right _ (List.mem_append_right _ (List.mem_append_left _ hm))))))))))).trans (arg_refV8 V0 r h)
/-- No operation of the pieces 0 … 10 writes an argument. -/
theorem arg_refV10 (V0 : Valuation τ sig (Elt F)) (r : Ref sig .tc) (h : r ∈ argL) : refV10 V0 (Proc.devRef .tc r) = V0 (Proc.devRef .tc r) :=
  (keep_refV10 V0 r fun hm => argL_not_written r h (List.mem_append_right _ (List.mem_append_right _ (List.mem_append_right _ (List.mem_append_right _ (List.mem_append_right _ (List.mem_append_right _ (List.mem_append_right _ (List.mem_append_right _ (List.mem_append_right _ (List.mem_append_right _ (List.mem_append_left _ hm)))))))))))).trans (arg_refV9 V0 r h)
/-- No operation of the pieces 0 … 11 writes an argument. -/
theorem arg_refV11 (V0 : Valuation τ sig (Elt F)) (r : Ref sig .tc) (h : r ∈ argL) : refV11 V0 (Proc.devRef .tc r) = V0 (Proc.devRef .tc r) :=
  (keep_refV11 V0 r fun hm => argL_not_written r h (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hm))))))))))))).trans (arg_refV10 V0 r h)
/-- No operation of the pieces 0 … 12 writes an argument. -/
theorem arg_refV12 (V0 : Valuation τ sig (Elt F)) (r : Ref sig .tc) (h : r ∈ argL) : refV12 V0 (Proc.devRef .tc r) = V0 (Proc.devRef .tc r) :=
  (keep_refV12 V0 r fun hm => argL_not_written r h (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hm)))))))))))))).trans (arg_refV11 V0 r h)
/-- No operation of the pieces 0 … 13 writes an argument. -/
theorem arg_refV13 (V0 : Valuation τ sig (Elt F)) (r : Ref sig .tc) (h : r ∈ argL) : refV13 V0 (Proc.devRef .tc r) = V0 (Proc.devRef .tc r) :=
  (keep_refV13 V0 r fun hm => argL_not_written r h (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hm))))))))))))))).trans (arg_refV12 V0 r h)
/-- No operation of the pieces 0 … 14 writes an argument. -/
theorem arg_refV14 (V0 : Valuation τ sig (Elt F)) (r : Ref sig .tc) (h : r ∈ argL) : refV14 V0 (Proc.devRef .tc r) = V0 (Proc.devRef .tc r) :=
  (keep_refV14 V0 r fun hm => argL_not_written r h (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hm)))))))))))))))).trans (arg_refV13 V0 r h)
/-- No operation of the pieces 0 … 15 writes an argument. -/
theorem arg_refV15 (V0 : Valuation τ sig (Elt F)) (r : Ref sig .tc) (h : r ∈ argL) : refV15 V0 (Proc.devRef .tc r) = V0 (Proc.devRef .tc r) :=
  (keep_refV15 V0 r fun hm => argL_not_written r h (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hm))))))))))))))))).trans (arg_refV14 V0 r h)
/-- No operation of the pieces 0 … 16 writes an argument. -/
theorem arg_refV16 (V0 : Valuation τ sig (Elt F)) (r : Ref sig .tc) (h : r ∈ argL) : refV16 V0 (Proc.devRef .tc r) = V0 (Proc.devRef .tc r) :=
  (keep_refV16 V0 r fun hm => argL_not_written r h (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hm)))))))))))))))))).trans (arg_refV15 V0 r h)
/-- No operation of the pieces 0 … 17 writes an argument. -/
theorem arg_refV17 (V0 : Valuation τ sig (Elt F)) (r : Ref sig .tc) (h : r ∈ argL) : refV17 V0 (Proc.devRef .tc r) = V0 (Proc.devRef .tc r) :=
  (keep_refV17 V0 r fun hm => argL_not_written r h (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hm))))))))))))))))))).trans (arg_refV16 V0 r h)
/-- No operation of the pieces 0 … 18 writes an argument. -/
theorem arg_refV18 (V0 : Valuation τ sig (Elt F)) (r : Ref sig .tc) (h : r ∈ argL) : refV18 V0 (Proc.devRef .tc r) = V0 (Proc.devRef .tc r) :=
  (keep_refV18 V0 r fun hm => argL_not_written r h (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hm)))))))))))))))))))).trans (arg_refV17 V0 r h)
/-- No operation of the pieces 0 … 19 writes an argument. -/
theorem arg_refV19 (V0 : Valuation τ sig (Elt F)) (r : Ref sig .tc) (h : r ∈ argL) : refV19 V0 (Proc.devRef .tc r) = V0 (Proc.devRef .tc r) :=
  (keep_refV19 V0 r fun hm => argL_not_written r h (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hm))))))))))))))))))))).trans (arg_refV18 V0 r h)
/-- No operation of the pieces 0 … 20 writes an argument. -/
theorem arg_refV20 (V0 : Valuation τ sig (Elt F)) (r : Ref sig .tc) (h : r ∈ argL) : refV20 V0 (Proc.devRef .tc r) = V0 (Proc.devRef .tc r) :=
  (keep_refV20 V0 r fun hm => argL_not_written r h (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hm)))))))))))))))))))))).trans (arg_refV19 V0 r h)
/-- No operation of the pieces 0 … 21 writes an argument. -/
theorem arg_refV21 (V0 : Valuation τ sig (Elt F)) (r : Ref sig .tc) (h : r ∈ argL) : refV21 V0 (Proc.devRef .tc r) = V0 (Proc.devRef .tc r) :=
  (keep_refV21 V0 r fun hm => argL_not_written r h (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hm))))))))))))))))))))))).trans (arg_refV20 V0 r h)
/-- No operation of the pieces 0 … 22 writes an argument. -/
theorem arg_refV22 (V0 : Valuation τ sig (Elt F)) (r : Ref sig .tc) (h : r ∈ argL) : refV22 V0 (Proc.devRef .tc r) = V0 (Proc.devRef .tc r) :=
  (keep_refV22 V0 r fun hm => argL_not_written r h (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hm)))))))))))))))))))))))).trans (arg_refV21 V0 r h)
/-- No operation of the pieces 0 … 23 writes an argument. -/
theorem arg_refV23 (V0 : Valuation τ sig (Elt F)) (r : Ref sig .tc) (h : r ∈ argL) : refV23 V0 (Proc.devRef .tc r) = V0 (Proc.devRef .tc r) :=
  (keep_refV23 V0 r fun hm => argL_not_written r h (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hm))))))))))))))))))))))))).trans (arg_refV22 V0 r h)
/-- No operation of the pieces 0 … 24 writes an argument. -/
theorem arg_refV24 (V0 : Valuation τ sig (Elt F)) (r : Ref sig .tc) (h : r ∈ argL) : refV24 V0 (Proc.devRef .tc r) = V0 (Proc.devRef .tc r) :=
  (keep_refV24 V0 r fun hm => argL_not_written r h (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hm)))))))))))))))))))))))))).trans (arg_refV23 V0 r h)
/-- No operation of the pieces 0 … 25 writes an argument. -/
theorem arg_refV25 (V0 : Valuation τ sig (Elt F)) (r : Ref sig .tc) (h : r ∈ argL) : refV25 V0 (Proc.devRef .tc r) = V0 (Proc.devRef .tc r) :=
  (keep_refV25 V0 r fun hm => argL_not_written r h (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hm))))))))))))))))))))))))))).trans (arg_refV24 V0 r h)
/-- No operation of the pieces 0 … 26 writes an argument. -/
theorem arg_refV26 (V0 : Valuation τ sig (Elt F)) (r : Ref sig .tc) (h : r ∈ argL) : refV26 V0 (Proc.devRef .tc r) = V0 (Proc.devRef .tc r) :=
  (keep_refV26 V0 r fun hm => argL_not_written r h (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (hm)))))))))))))))))))))))))))).trans (arg_refV25 V0 r h)

/-- No operation of the pieces 1 … 1 writes a reference of the list keepL. -/
theorem keepL_refV1 (V0 : Valuation τ sig (Elt F)) (r : Ref sig .tc) (h : r ∈ keepL) : refV1 V0 (Proc.devRef .tc r) = refV0 V0 (Proc.devRef .tc r) :=
  keep_refV1 V0 r fun hm => keepL_not_written r h (List.mem_append_left _ hm)
/-- No operation of the pieces 1 … 2 writes a reference of the list keepL. -/
theorem keepL_refV2 (V0 : Valuation τ sig (Elt F)) (r : Ref sig .tc) (h : r ∈ keepL) : refV2 V0 (Proc.devRef .tc r) = refV0 V0 (Proc.devRef .tc r) :=
  (keep_refV2 V0 r fun hm => keepL_not_written r h (List.mem_append_right _ (List.mem_append_left _ hm))).trans (keepL_refV1 V0 r h)
/-- No operation of the pieces 1 … 3 writes a reference of the list keepL. -/
theorem keepL_refV3 (V0 : Valuation τ sig (Elt F)) (r : Ref sig .tc) (h : r ∈ keepL) : refV3 V0 (Proc.devRef .tc r) = refV0 V0 (Proc.devRef .tc r) :=
  (keep_refV3 V0 r fun hm => keepL_not_written r h (List.mem_append_right _ (List.mem_append_right _ (List.mem_append_left _ hm)))).trans (keepL_refV2 V0 r h)
/-- No operation of the pieces 1 … 4 writes a reference of the list keepL. -/
theorem keepL_refV4 (V0 : Valuation τ sig (Elt F)) (r : Ref sig .tc) (h : r ∈ keepL) : refV4 V0 (Proc.devRef .tc r) = refV0 V0 (Proc.devRef .tc r) :=
  (keep_refV4 V0 r fun hm => keepL_not_written r h (List.mem_append_right _ (List.mem_append_right _ (List.mem_append_right _ (List.mem_append_left _ hm))))).trans (keepL_refV3 V0 r h)
/-- No operation of the pieces 1 … 5 writes a reference of the list keepL. -/
theorem keepL_refV5 (V0 : Valuation τ sig (Elt F)) (r : Ref sig .tc) (h : r ∈ keepL) : refV5 V0 (Proc.devRef .tc r) = refV0 V0 (Proc.devRef .tc r) :=
  (keep_refV5 V0 r fun hm => keepL_not_written r h (List.mem_append_right _ (List.mem_append_right _ (List.mem_append_right _ (List.mem_append_right _ (List.mem_append_left _ hm)))))).trans (keepL_refV4 V0 r h)
/-- No operation of the pieces 1 … 6 writes a reference of the list keepL. -/
theorem keepL_refV6 (V0 : Valuation τ sig (Elt F)) (r : Ref sig .tc) (h : r ∈ keepL) : refV6 V0 (Proc.devRef .tc r) = refV0 V0 (Proc.devRef .tc r) :=
  (keep_refV6 V0 r fun hm => keepL_not_written r h (List.mem_append_right _ (List.mem_append_right _ (List.mem_append_right _ (List.mem_append_right _ (List.mem_append_right _ (List.mem_append_left _ hm))))))).trans (keepL_refV5 V0 r h)
/-- No operation of the pieces 1 … 7 writes a reference of the list keepL. -/
theorem keepL_refV7 (V0 : Valuation τ sig (Elt F)) (r : Ref sig .tc) (h : r ∈ keepL) : refV7 V0 (Proc.devRef .tc r) = refV0 V0 (Proc.devRef .tc r) :=
  (keep_refV7 V0 r fun hm => keepL_not_written r h (List.mem_append_right _ (List.mem_append_right _ (List.mem_append_right _ (List.mem_append_right _ (List.mem_append_right _ (List.mem_append_right _ (List.mem_append_left _ hm)))))))).trans (keepL_refV6 V0 r h)
/-- No operation of the pieces 1 … 8 writes a reference of the list keepL. -/
theorem keepL_refV8 (V0 : Valuation τ sig (Elt F)) (r : Ref sig .tc) (h : r ∈ keepL) : refV8 V0 (Proc.devRef .tc r) = refV0 V0 (Proc.devRef .tc r) :=
  (keep_refV8 V0 r fun hm => keepL_not_written r h (List.mem_append_right _ (List.mem_append_right _ (List.mem_append_right _ (List.mem_append_right _ (List.mem_append_right _ (List.mem_append_right _ (List.mem_append_right _ (List.mem_append_left _ hm))))))))).trans (keepL_refV7 V0 r h)
/-- No operation of the pieces 1 … 9 writes a reference of the list keepL. -/
theorem keepL_refV9 (V0 : Valuation τ sig (Elt F)) (r : Ref sig .tc) (h : r ∈ keepL) : refV9 V0 (Proc.devRef .tc r) = refV0 V0 (Proc.devRef .tc r) :=
  (keep_refV9 V0 r fun hm => keepL_not_written r h (List.mem_append_right _ (List.mem_append_right _ (List.mem_append_right _ (List.mem_append_right _ (List.mem_append_right _ (List.mem_append_right _ (List.mem_append_right _ (List.mem_append_right _ (List.mem_append_left _ hm)))))))))).trans (keepL_refV8 V0 r h)
/-- No operation of the pieces 1 … 10 writes a reference of the list keepL. -/
theorem keepL_refV10 (V0 : Valuation τ sig (Elt F)) (r : Ref sig .tc) (h : r ∈ keepL) : refV10 V0 (Proc.devRef .tc r) = refV0 V0 (Proc.devRef .tc r) :=
  (keep_refV10 V0 r fun hm => keepL_not_written r h (List.mem_append_right _ (List.mem_append_right _ (List.mem_append_right _ (List.mem_append_right _ (List.mem_append_right _ (List.mem_append_right _ (List.mem_append_right _ (List.mem_append_right _ (List.mem_append_right _ (List.mem_append_left _ hm))))))))))).trans (keepL_refV9 V0 r h)
/-- No operation of the pieces 1 … 11 writes a reference of the list keepL. -/
theorem keepL_refV11 (V0 : Valuation τ sig (Elt F)) (r : Ref sig .tc) (h : r ∈ keepL) : refV11 V0 (Proc.devRef .tc r) = refV0 V0 (Proc.devRef .tc r) :=
  (keep_refV11 V0 r fun hm => keepL_not_written r h (List.mem_append_right _ (List.mem_append_right _ (List.mem_append_right _ (List.mem_append_right _ (List.mem_append_right _ (List.mem_append_right _ (List.mem_append_right _ (List.mem_append_right _ (List.mem_append_right _ (List.mem_append_right _ (List.mem_append_left _ hm)))))))))))).trans (keepL_refV10 V0 r h)
/-- No operation of the pieces 1 … 12 writes a reference of the list keepL. -/
theorem keepL_refV12 (V0 : Valuation τ sig (Elt F)) (r : Ref sig .tc) (h : r ∈ keepL) : refV12 V0 (Proc.devRef .tc r) = refV0 V0 (Proc.devRef .tc r) :=
  (keep_refV12 V0 r fun hm => keepL_not_written r h (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hm))))))))))))).trans (keepL_refV11 V0 r h)
/-- No operation of the pieces 1 … 13 writes a reference of the list keepL. -/
theorem keepL_refV13 (V0 : Valuation τ sig (Elt F)) (r : Ref sig .tc) (h : r ∈ keepL) : refV13 V0 (Proc.devRef .tc r) = refV0 V0 (Proc.devRef .tc r) :=
  (keep_refV13 V0 r fun hm => keepL_not_written r h (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hm)))))))))))))).trans (keepL_refV12 V0 r h)
/-- No operation of the pieces 1 … 14 writes a reference of the list keepL. -/
theorem keepL_refV14 (V0 : Valuation τ sig (Elt F)) (r : Ref sig .tc) (h : r ∈ keepL) : refV14 V0 (Proc.devRef .tc r) = refV0 V0 (Proc.devRef .tc r) :=
  (keep_refV14 V0 r fun hm => keepL_not_written r h (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hm))))))))))))))).trans (keepL_refV13 V0 r h)
/-- No operation of the pieces 1 … 15 writes a reference of the list keepL. -/
theorem keepL_refV15 (V0 : Valuation τ sig (Elt F)) (r : Ref sig .tc) (h : r ∈ keepL) : refV15 V0 (Proc.devRef .tc r) = refV0 V0 (Proc.devRef .tc r) :=
  (keep_refV15 V0 r fun hm => keepL_not_written r h (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hm)))))))))))))))).trans (keepL_refV14 V0 r h)
/-- No operation of the pieces 1 … 16 writes a reference of the list keepL. -/
theorem keepL_refV16 (V0 : Valuation τ sig (Elt F)) (r : Ref sig .tc) (h : r ∈ keepL) : refV16 V0 (Proc.devRef .tc r) = refV0 V0 (Proc.devRef .tc r) :=
  (keep_refV16 V0 r fun hm => keepL_not_written r h (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hm))))))))))))))))).trans (keepL_refV15 V0 r h)
/-- No operation of the pieces 1 … 17 writes a reference of the list keepL. -/
theorem keepL_refV17 (V0 : Valuation τ sig (Elt F)) (r : Ref sig .tc) (h : r ∈ keepL) : refV17 V0 (Proc.devRef .tc r) = refV0 V0 (Proc.devRef .tc r) :=
  (keep_refV17 V0 r fun hm => keepL_not_written r h (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hm)))))))))))))))))).trans (keepL_refV16 V0 r h)
/-- No operation of the pieces 1 … 18 writes a reference of the list keepL. -/
theorem keepL_refV18 (V0 : Valuation τ sig (Elt F)) (r : Ref sig .tc) (h : r ∈ keepL) : refV18 V0 (Proc.devRef .tc r) = refV0 V0 (Proc.devRef .tc r) :=
  (keep_refV18 V0 r fun hm => keepL_not_written r h (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hm))))))))))))))))))).trans (keepL_refV17 V0 r h)
/-- No operation of the pieces 1 … 19 writes a reference of the list keepL. -/
theorem keepL_refV19 (V0 : Valuation τ sig (Elt F)) (r : Ref sig .tc) (h : r ∈ keepL) : refV19 V0 (Proc.devRef .tc r) = refV0 V0 (Proc.devRef .tc r) :=
  (keep_refV19 V0 r fun hm => keepL_not_written r h (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hm)))))))))))))))))))).trans (keepL_refV18 V0 r h)
/-- No operation of the pieces 1 … 20 writes a reference of the list keepL. -/
theorem keepL_refV20 (V0 : Valuation τ sig (Elt F)) (r : Ref sig .tc) (h : r ∈ keepL) : refV20 V0 (Proc.devRef .tc r) = refV0 V0 (Proc.devRef .tc r) :=
  (keep_refV20 V0 r fun hm => keepL_not_written r h (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hm))))))))))))))))))))).trans (keepL_refV19 V0 r h)
/-- No operation of the pieces 1 … 21 writes a reference of the list keepL. -/
theorem keepL_refV21 (V0 : Valuation τ sig (Elt F)) (r : Ref sig .tc) (h : r ∈ keepL) : refV21 V0 (Proc.devRef .tc r) = refV0 V0 (Proc.devRef .tc r) :=
  (keep_refV21 V0 r fun hm => keepL_not_written r h (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hm)))))))))))))))))))))).trans (keepL_refV20 V0 r h)
/-- No operation of the pieces 1 … 22 writes a reference of the list keepL. -/
theorem keepL_refV22 (V0 : Valuation τ sig (Elt F)) (r : Ref sig .tc) (h : r ∈ keepL) : refV22 V0 (Proc.devRef .tc r) = refV0 V0 (Proc.devRef .tc r) :=
  (keep_refV22 V0 r fun hm => keepL_not_written r h (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hm))))))))))))))))))))))).trans (keepL_refV21 V0 r h)
/-- No operation of the pieces 1 … 23 writes a reference of the list keepL. -/
theorem keepL_refV23 (V0 : Valuation τ sig (Elt F)) (r : Ref sig .tc) (h : r ∈ keepL) : refV23 V0 (Proc.devRef .tc r) = refV0 V0 (Proc.devRef .tc r) :=
  (keep_refV23 V0 r fun hm => keepL_not_written r h (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hm)))))))))))))))))))))))).trans (keepL_refV22 V0 r h)
/-- No operation of the pieces 1 … 24 writes a reference of the list keepL. -/
theorem keepL_refV24 (V0 : Valuation τ sig (Elt F)) (r : Ref sig .tc) (h : r ∈ keepL) : refV24 V0 (Proc.devRef .tc r) = refV0 V0 (Proc.devRef .tc r) :=
  (keep_refV24 V0 r fun hm => keepL_not_written r h (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hm))))))))))))))))))))))))).trans (keepL_refV23 V0 r h)
/-- No operation of the pieces 1 … 25 writes a reference of the list keepL. -/
theorem keepL_refV25 (V0 : Valuation τ sig (Elt F)) (r : Ref sig .tc) (h : r ∈ keepL) : refV25 V0 (Proc.devRef .tc r) = refV0 V0 (Proc.devRef .tc r) :=
  (keep_refV25 V0 r fun hm => keepL_not_written r h (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hm)))))))))))))))))))))))))).trans (keepL_refV24 V0 r h)
/-- No operation of the pieces 1 … 26 writes a reference of the list keepL. -/
theorem keepL_refV26 (V0 : Valuation τ sig (Elt F)) (r : Ref sig .tc) (h : r ∈ keepL) : refV26 V0 (Proc.devRef .tc r) = refV0 V0 (Proc.devRef .tc r) :=
  (keep_refV26 V0 r fun hm => keepL_not_written r h (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (hm))))))))))))))))))))))))))).trans (keepL_refV25 V0 r h)

/- The stages, each a run of whole pieces (the piece that ends with main_v33 is piece 0; the last piece is piece 26):
   stage 0: pieces 0 … 0 (operations 1 … 45, up to main_v33)
   stage 1: pieces 1 … 2 (operations 46 … 65, up to main_v50)
   stage 2: pieces 3 … 4 (operations 66 … 143, up to main_v114)
   stage 3: pieces 5 … 6 (operations 144 … 221, up to main_v178)
   stage 4: pieces 7 … 8 (operations 222 … 299, up to main_v242)
   stage 5: pieces 9 … 11 (operations 300 … 377, up to main_v306)
   stage 6: pieces 12 … 13 (operations 378 … 455, up to main_v370)
   stage 7: pieces 14 … 15 (operations 456 … 533, up to main_v434)
   stage 8: pieces 16 … 18 (operations 534 … 611, up to main_v498)
   stage 9: pieces 19 … 20 (operations 612 … 689, up to main_v562)
   stage 10: pieces 21 … 22 (operations 690 … 767, up to main_v626)
   stage 11: pieces 23 … 25 (operations 768 … 845, up to main_v690)
   stage 12: pieces 26 … 26 (operations 846 … 865, up to main_v707)
-/

end Cert.ReferenceIdeal.RefRun

end
-- ==== Proof.RefMain.lean ====
/- The reference program's printed windows and the whole program as lines of the pieces of operations, and its run:
   every weakly fair execution ends with each TensorCore reference at the contents after the last piece.
-/
import proofs.«415904_j29016799052628_2_alg».proof.Proof.RefOps
import Idealize.ShloMosaic.Lib.Pipeline.Frame

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
theorem main_part0_eq (c : Dev nD) : main_part0 (F := F) c = seq (refP0 ++ refP1) := rfl
set_option maxHeartbeats 4000000 in
theorem main_part1_eq (c : Dev nD) : main_part1 (F := F) c = seq (refP2 ++ refP3) := rfl
set_option maxHeartbeats 4000000 in
theorem main_part2_eq (c : Dev nD) : main_part2 (F := F) c = seq (refP4 ++ refP5) := rfl
set_option maxHeartbeats 4000000 in
theorem main_part3_eq (c : Dev nD) : main_part3 (F := F) c = seq (refP6 ++ refP7) := rfl
set_option maxHeartbeats 4000000 in
theorem main_part4_eq (c : Dev nD) : main_part4 (F := F) c = seq (refP8 ++ refP9) := rfl
set_option maxHeartbeats 4000000 in
theorem main_part5_eq (c : Dev nD) : main_part5 (F := F) c = seq (refP10) := rfl
set_option maxHeartbeats 4000000 in
theorem main_part6_eq (c : Dev nD) : main_part6 (F := F) c = seq (refP11 ++ refP12) := rfl
set_option maxHeartbeats 4000000 in
theorem main_part7_eq (c : Dev nD) : main_part7 (F := F) c = seq (refP13 ++ refP14) := rfl
set_option maxHeartbeats 4000000 in
theorem main_part8_eq (c : Dev nD) : main_part8 (F := F) c = seq (refP15 ++ refP16) := rfl
set_option maxHeartbeats 4000000 in
theorem main_part9_eq (c : Dev nD) : main_part9 (F := F) c = seq (refP17) := rfl
set_option maxHeartbeats 4000000 in
theorem main_part10_eq (c : Dev nD) : main_part10 (F := F) c = seq (refP18 ++ refP19) := rfl
set_option maxHeartbeats 4000000 in
theorem main_part11_eq (c : Dev nD) : main_part11 (F := F) c = seq (refP20 ++ refP21) := rfl
set_option maxHeartbeats 4000000 in
theorem main_part12_eq (c : Dev nD) : main_part12 (F := F) c = seq (refP22 ++ refP23) := rfl
set_option maxHeartbeats 4000000 in
theorem main_part13_eq (c : Dev nD) : main_part13 (F := F) c = seq (refP24) := rfl
set_option maxHeartbeats 4000000 in
theorem main_part14_eq (c : Dev nD) : main_part14 (F := F) c = seq (refP25 ++ refP26) := rfl

/-- The whole reference program as one line: the pieces in order, each appended to the line of those after it. -/
abbrev refAll : List (HloOp τ sig (Elt F)) := refP0 ++ (refP1 ++ (refP2 ++ (refP3 ++ (refP4 ++ (refP5 ++ (refP6 ++ (refP7 ++ (refP8 ++ (refP9 ++ (refP10 ++ (refP11 ++ (refP12 ++ (refP13 ++ (refP14 ++ (refP15 ++ (refP16 ++ (refP17 ++ (refP18 ++ (refP19 ++ (refP20 ++ (refP21 ++ (refP22 ++ (refP23 ++ (refP24 ++ (refP25 ++ (refP26))))))))))))))))))))))))))

set_option maxHeartbeats 4000000 in
/-- The reference program is the line of its operations. -/
theorem main_eq (c : Dev nD) : main (F := F) c = seq refAll := by
  simp only [main, refAll, main_part0_eq c, main_part1_eq c, main_part2_eq c, main_part3_eq c, main_part4_eq c, main_part5_eq c, main_part6_eq c, main_part7_eq c, main_part8_eq c, main_part9_eq c, main_part10_eq c, main_part11_eq c, main_part12_eq c, main_part13_eq c, main_part14_eq c, seq_append, bind_assoc]

theorem scopedRefs_eq : (Finset.univ.filter fun b : Ref sig .tc => b.isScoped) = ∅ := by decide
theorem scopedSems_eq : (Finset.univ.filter fun sm : SemLoc sig => sm.isScoped .tc) = ∅ := by decide

theorem tail25_sub : (refP25 ++ (refP26) : List (HloOp τ sig (Elt F))).Forall fun op => op.bufs ⊆ tcRefs τ sig :=
  List.forall_append.mpr ⟨refP25_sub, refP26_sub⟩
theorem tail24_sub : (refP24 ++ (refP25 ++ (refP26)) : List (HloOp τ sig (Elt F))).Forall fun op => op.bufs ⊆ tcRefs τ sig :=
  List.forall_append.mpr ⟨refP24_sub, tail25_sub⟩
theorem tail23_sub : (refP23 ++ (refP24 ++ (refP25 ++ (refP26))) : List (HloOp τ sig (Elt F))).Forall fun op => op.bufs ⊆ tcRefs τ sig :=
  List.forall_append.mpr ⟨refP23_sub, tail24_sub⟩
theorem tail22_sub : (refP22 ++ (refP23 ++ (refP24 ++ (refP25 ++ (refP26)))) : List (HloOp τ sig (Elt F))).Forall fun op => op.bufs ⊆ tcRefs τ sig :=
  List.forall_append.mpr ⟨refP22_sub, tail23_sub⟩
theorem tail21_sub : (refP21 ++ (refP22 ++ (refP23 ++ (refP24 ++ (refP25 ++ (refP26))))) : List (HloOp τ sig (Elt F))).Forall fun op => op.bufs ⊆ tcRefs τ sig :=
  List.forall_append.mpr ⟨refP21_sub, tail22_sub⟩
theorem tail20_sub : (refP20 ++ (refP21 ++ (refP22 ++ (refP23 ++ (refP24 ++ (refP25 ++ (refP26)))))) : List (HloOp τ sig (Elt F))).Forall fun op => op.bufs ⊆ tcRefs τ sig :=
  List.forall_append.mpr ⟨refP20_sub, tail21_sub⟩
theorem tail19_sub : (refP19 ++ (refP20 ++ (refP21 ++ (refP22 ++ (refP23 ++ (refP24 ++ (refP25 ++ (refP26))))))) : List (HloOp τ sig (Elt F))).Forall fun op => op.bufs ⊆ tcRefs τ sig :=
  List.forall_append.mpr ⟨refP19_sub, tail20_sub⟩
theorem tail18_sub : (refP18 ++ (refP19 ++ (refP20 ++ (refP21 ++ (refP22 ++ (refP23 ++ (refP24 ++ (refP25 ++ (refP26)))))))) : List (HloOp τ sig (Elt F))).Forall fun op => op.bufs ⊆ tcRefs τ sig :=
  List.forall_append.mpr ⟨refP18_sub, tail19_sub⟩
theorem tail17_sub : (refP17 ++ (refP18 ++ (refP19 ++ (refP20 ++ (refP21 ++ (refP22 ++ (refP23 ++ (refP24 ++ (refP25 ++ (refP26))))))))) : List (HloOp τ sig (Elt F))).Forall fun op => op.bufs ⊆ tcRefs τ sig :=
  List.forall_append.mpr ⟨refP17_sub, tail18_sub⟩
theorem tail16_sub : (refP16 ++ (refP17 ++ (refP18 ++ (refP19 ++ (refP20 ++ (refP21 ++ (refP22 ++ (refP23 ++ (refP24 ++ (refP25 ++ (refP26)))))))))) : List (HloOp τ sig (Elt F))).Forall fun op => op.bufs ⊆ tcRefs τ sig :=
  List.forall_append.mpr ⟨refP16_sub, tail17_sub⟩
theorem tail15_sub : (refP15 ++ (refP16 ++ (refP17 ++ (refP18 ++ (refP19 ++ (refP20 ++ (refP21 ++ (refP22 ++ (refP23 ++ (refP24 ++ (refP25 ++ (refP26))))))))))) : List (HloOp τ sig (Elt F))).Forall fun op => op.bufs ⊆ tcRefs τ sig :=
  List.forall_append.mpr ⟨refP15_sub, tail16_sub⟩
theorem tail14_sub : (refP14 ++ (refP15 ++ (refP16 ++ (refP17 ++ (refP18 ++ (refP19 ++ (refP20 ++ (refP21 ++ (refP22 ++ (refP23 ++ (refP24 ++ (refP25 ++ (refP26)))))))))))) : List (HloOp τ sig (Elt F))).Forall fun op => op.bufs ⊆ tcRefs τ sig :=
  List.forall_append.mpr ⟨refP14_sub, tail15_sub⟩
theorem tail13_sub : (refP13 ++ (refP14 ++ (refP15 ++ (refP16 ++ (refP17 ++ (refP18 ++ (refP19 ++ (refP20 ++ (refP21 ++ (refP22 ++ (refP23 ++ (refP24 ++ (refP25 ++ (refP26))))))))))))) : List (HloOp τ sig (Elt F))).Forall fun op => op.bufs ⊆ tcRefs τ sig :=
  List.forall_append.mpr ⟨refP13_sub, tail14_sub⟩
theorem tail12_sub : (refP12 ++ (refP13 ++ (refP14 ++ (refP15 ++ (refP16 ++ (refP17 ++ (refP18 ++ (refP19 ++ (refP20 ++ (refP21 ++ (refP22 ++ (refP23 ++ (refP24 ++ (refP25 ++ (refP26)))))))))))))) : List (HloOp τ sig (Elt F))).Forall fun op => op.bufs ⊆ tcRefs τ sig :=
  List.forall_append.mpr ⟨refP12_sub, tail13_sub⟩
theorem tail11_sub : (refP11 ++ (refP12 ++ (refP13 ++ (refP14 ++ (refP15 ++ (refP16 ++ (refP17 ++ (refP18 ++ (refP19 ++ (refP20 ++ (refP21 ++ (refP22 ++ (refP23 ++ (refP24 ++ (refP25 ++ (refP26))))))))))))))) : List (HloOp τ sig (Elt F))).Forall fun op => op.bufs ⊆ tcRefs τ sig :=
  List.forall_append.mpr ⟨refP11_sub, tail12_sub⟩
theorem tail10_sub : (refP10 ++ (refP11 ++ (refP12 ++ (refP13 ++ (refP14 ++ (refP15 ++ (refP16 ++ (refP17 ++ (refP18 ++ (refP19 ++ (refP20 ++ (refP21 ++ (refP22 ++ (refP23 ++ (refP24 ++ (refP25 ++ (refP26)))))))))))))))) : List (HloOp τ sig (Elt F))).Forall fun op => op.bufs ⊆ tcRefs τ sig :=
  List.forall_append.mpr ⟨refP10_sub, tail11_sub⟩
theorem tail9_sub : (refP9 ++ (refP10 ++ (refP11 ++ (refP12 ++ (refP13 ++ (refP14 ++ (refP15 ++ (refP16 ++ (refP17 ++ (refP18 ++ (refP19 ++ (refP20 ++ (refP21 ++ (refP22 ++ (refP23 ++ (refP24 ++ (refP25 ++ (refP26))))))))))))))))) : List (HloOp τ sig (Elt F))).Forall fun op => op.bufs ⊆ tcRefs τ sig :=
  List.forall_append.mpr ⟨refP9_sub, tail10_sub⟩
theorem tail8_sub : (refP8 ++ (refP9 ++ (refP10 ++ (refP11 ++ (refP12 ++ (refP13 ++ (refP14 ++ (refP15 ++ (refP16 ++ (refP17 ++ (refP18 ++ (refP19 ++ (refP20 ++ (refP21 ++ (refP22 ++ (refP23 ++ (refP24 ++ (refP25 ++ (refP26)))))))))))))))))) : List (HloOp τ sig (Elt F))).Forall fun op => op.bufs ⊆ tcRefs τ sig :=
  List.forall_append.mpr ⟨refP8_sub, tail9_sub⟩
theorem tail7_sub : (refP7 ++ (refP8 ++ (refP9 ++ (refP10 ++ (refP11 ++ (refP12 ++ (refP13 ++ (refP14 ++ (refP15 ++ (refP16 ++ (refP17 ++ (refP18 ++ (refP19 ++ (refP20 ++ (refP21 ++ (refP22 ++ (refP23 ++ (refP24 ++ (refP25 ++ (refP26))))))))))))))))))) : List (HloOp τ sig (Elt F))).Forall fun op => op.bufs ⊆ tcRefs τ sig :=
  List.forall_append.mpr ⟨refP7_sub, tail8_sub⟩
theorem tail6_sub : (refP6 ++ (refP7 ++ (refP8 ++ (refP9 ++ (refP10 ++ (refP11 ++ (refP12 ++ (refP13 ++ (refP14 ++ (refP15 ++ (refP16 ++ (refP17 ++ (refP18 ++ (refP19 ++ (refP20 ++ (refP21 ++ (refP22 ++ (refP23 ++ (refP24 ++ (refP25 ++ (refP26)))))))))))))))))))) : List (HloOp τ sig (Elt F))).Forall fun op => op.bufs ⊆ tcRefs τ sig :=
  List.forall_append.mpr ⟨refP6_sub, tail7_sub⟩
theorem tail5_sub : (refP5 ++ (refP6 ++ (refP7 ++ (refP8 ++ (refP9 ++ (refP10 ++ (refP11 ++ (refP12 ++ (refP13 ++ (refP14 ++ (refP15 ++ (refP16 ++ (refP17 ++ (refP18 ++ (refP19 ++ (refP20 ++ (refP21 ++ (refP22 ++ (refP23 ++ (refP24 ++ (refP25 ++ (refP26))))))))))))))))))))) : List (HloOp τ sig (Elt F))).Forall fun op => op.bufs ⊆ tcRefs τ sig :=
  List.forall_append.mpr ⟨refP5_sub, tail6_sub⟩
theorem tail4_sub : (refP4 ++ (refP5 ++ (refP6 ++ (refP7 ++ (refP8 ++ (refP9 ++ (refP10 ++ (refP11 ++ (refP12 ++ (refP13 ++ (refP14 ++ (refP15 ++ (refP16 ++ (refP17 ++ (refP18 ++ (refP19 ++ (refP20 ++ (refP21 ++ (refP22 ++ (refP23 ++ (refP24 ++ (refP25 ++ (refP26)))))))))))))))))))))) : List (HloOp τ sig (Elt F))).Forall fun op => op.bufs ⊆ tcRefs τ sig :=
  List.forall_append.mpr ⟨refP4_sub, tail5_sub⟩
theorem tail3_sub : (refP3 ++ (refP4 ++ (refP5 ++ (refP6 ++ (refP7 ++ (refP8 ++ (refP9 ++ (refP10 ++ (refP11 ++ (refP12 ++ (refP13 ++ (refP14 ++ (refP15 ++ (refP16 ++ (refP17 ++ (refP18 ++ (refP19 ++ (refP20 ++ (refP21 ++ (refP22 ++ (refP23 ++ (refP24 ++ (refP25 ++ (refP26))))))))))))))))))))))) : List (HloOp τ sig (Elt F))).Forall fun op => op.bufs ⊆ tcRefs τ sig :=
  List.forall_append.mpr ⟨refP3_sub, tail4_sub⟩
theorem tail2_sub : (refP2 ++ (refP3 ++ (refP4 ++ (refP5 ++ (refP6 ++ (refP7 ++ (refP8 ++ (refP9 ++ (refP10 ++ (refP11 ++ (refP12 ++ (refP13 ++ (refP14 ++ (refP15 ++ (refP16 ++ (refP17 ++ (refP18 ++ (refP19 ++ (refP20 ++ (refP21 ++ (refP22 ++ (refP23 ++ (refP24 ++ (refP25 ++ (refP26)))))))))))))))))))))))) : List (HloOp τ sig (Elt F))).Forall fun op => op.bufs ⊆ tcRefs τ sig :=
  List.forall_append.mpr ⟨refP2_sub, tail3_sub⟩
theorem tail1_sub : (refP1 ++ (refP2 ++ (refP3 ++ (refP4 ++ (refP5 ++ (refP6 ++ (refP7 ++ (refP8 ++ (refP9 ++ (refP10 ++ (refP11 ++ (refP12 ++ (refP13 ++ (refP14 ++ (refP15 ++ (refP16 ++ (refP17 ++ (refP18 ++ (refP19 ++ (refP20 ++ (refP21 ++ (refP22 ++ (refP23 ++ (refP24 ++ (refP25 ++ (refP26))))))))))))))))))))))))) : List (HloOp τ sig (Elt F))).Forall fun op => op.bufs ⊆ tcRefs τ sig :=
  List.forall_append.mpr ⟨refP1_sub, tail2_sub⟩
theorem tail0_sub : (refP0 ++ (refP1 ++ (refP2 ++ (refP3 ++ (refP4 ++ (refP5 ++ (refP6 ++ (refP7 ++ (refP8 ++ (refP9 ++ (refP10 ++ (refP11 ++ (refP12 ++ (refP13 ++ (refP14 ++ (refP15 ++ (refP16 ++ (refP17 ++ (refP18 ++ (refP19 ++ (refP20 ++ (refP21 ++ (refP22 ++ (refP23 ++ (refP24 ++ (refP25 ++ (refP26)))))))))))))))))))))))))) : List (HloOp τ sig (Elt F))).Forall fun op => op.bufs ⊆ tcRefs τ sig :=
  List.forall_append.mpr ⟨refP0_sub, tail1_sub⟩
theorem refAll_sub : (refAll : List (HloOp τ sig (Elt F))).Forall fun op => op.bufs ⊆ tcRefs τ sig := tail0_sub

theorem tail25_fresh : (refP25 ++ (refP26) : List (HloOp τ sig (Elt F))).Forall fun op => op.fresh = ∅ :=
  List.forall_append.mpr ⟨refP25_fresh, refP26_fresh⟩
theorem tail24_fresh : (refP24 ++ (refP25 ++ (refP26)) : List (HloOp τ sig (Elt F))).Forall fun op => op.fresh = ∅ :=
  List.forall_append.mpr ⟨refP24_fresh, tail25_fresh⟩
theorem tail23_fresh : (refP23 ++ (refP24 ++ (refP25 ++ (refP26))) : List (HloOp τ sig (Elt F))).Forall fun op => op.fresh = ∅ :=
  List.forall_append.mpr ⟨refP23_fresh, tail24_fresh⟩
theorem tail22_fresh : (refP22 ++ (refP23 ++ (refP24 ++ (refP25 ++ (refP26)))) : List (HloOp τ sig (Elt F))).Forall fun op => op.fresh = ∅ :=
  List.forall_append.mpr ⟨refP22_fresh, tail23_fresh⟩
theorem tail21_fresh : (refP21 ++ (refP22 ++ (refP23 ++ (refP24 ++ (refP25 ++ (refP26))))) : List (HloOp τ sig (Elt F))).Forall fun op => op.fresh = ∅ :=
  List.forall_append.mpr ⟨refP21_fresh, tail22_fresh⟩
theorem tail20_fresh : (refP20 ++ (refP21 ++ (refP22 ++ (refP23 ++ (refP24 ++ (refP25 ++ (refP26)))))) : List (HloOp τ sig (Elt F))).Forall fun op => op.fresh = ∅ :=
  List.forall_append.mpr ⟨refP20_fresh, tail21_fresh⟩
theorem tail19_fresh : (refP19 ++ (refP20 ++ (refP21 ++ (refP22 ++ (refP23 ++ (refP24 ++ (refP25 ++ (refP26))))))) : List (HloOp τ sig (Elt F))).Forall fun op => op.fresh = ∅ :=
  List.forall_append.mpr ⟨refP19_fresh, tail20_fresh⟩
theorem tail18_fresh : (refP18 ++ (refP19 ++ (refP20 ++ (refP21 ++ (refP22 ++ (refP23 ++ (refP24 ++ (refP25 ++ (refP26)))))))) : List (HloOp τ sig (Elt F))).Forall fun op => op.fresh = ∅ :=
  List.forall_append.mpr ⟨refP18_fresh, tail19_fresh⟩
theorem tail17_fresh : (refP17 ++ (refP18 ++ (refP19 ++ (refP20 ++ (refP21 ++ (refP22 ++ (refP23 ++ (refP24 ++ (refP25 ++ (refP26))))))))) : List (HloOp τ sig (Elt F))).Forall fun op => op.fresh = ∅ :=
  List.forall_append.mpr ⟨refP17_fresh, tail18_fresh⟩
theorem tail16_fresh : (refP16 ++ (refP17 ++ (refP18 ++ (refP19 ++ (refP20 ++ (refP21 ++ (refP22 ++ (refP23 ++ (refP24 ++ (refP25 ++ (refP26)))))))))) : List (HloOp τ sig (Elt F))).Forall fun op => op.fresh = ∅ :=
  List.forall_append.mpr ⟨refP16_fresh, tail17_fresh⟩
theorem tail15_fresh : (refP15 ++ (refP16 ++ (refP17 ++ (refP18 ++ (refP19 ++ (refP20 ++ (refP21 ++ (refP22 ++ (refP23 ++ (refP24 ++ (refP25 ++ (refP26))))))))))) : List (HloOp τ sig (Elt F))).Forall fun op => op.fresh = ∅ :=
  List.forall_append.mpr ⟨refP15_fresh, tail16_fresh⟩
theorem tail14_fresh : (refP14 ++ (refP15 ++ (refP16 ++ (refP17 ++ (refP18 ++ (refP19 ++ (refP20 ++ (refP21 ++ (refP22 ++ (refP23 ++ (refP24 ++ (refP25 ++ (refP26)))))))))))) : List (HloOp τ sig (Elt F))).Forall fun op => op.fresh = ∅ :=
  List.forall_append.mpr ⟨refP14_fresh, tail15_fresh⟩
theorem tail13_fresh : (refP13 ++ (refP14 ++ (refP15 ++ (refP16 ++ (refP17 ++ (refP18 ++ (refP19 ++ (refP20 ++ (refP21 ++ (refP22 ++ (refP23 ++ (refP24 ++ (refP25 ++ (refP26))))))))))))) : List (HloOp τ sig (Elt F))).Forall fun op => op.fresh = ∅ :=
  List.forall_append.mpr ⟨refP13_fresh, tail14_fresh⟩
theorem tail12_fresh : (refP12 ++ (refP13 ++ (refP14 ++ (refP15 ++ (refP16 ++ (refP17 ++ (refP18 ++ (refP19 ++ (refP20 ++ (refP21 ++ (refP22 ++ (refP23 ++ (refP24 ++ (refP25 ++ (refP26)))))))))))))) : List (HloOp τ sig (Elt F))).Forall fun op => op.fresh = ∅ :=
  List.forall_append.mpr ⟨refP12_fresh, tail13_fresh⟩
theorem tail11_fresh : (refP11 ++ (refP12 ++ (refP13 ++ (refP14 ++ (refP15 ++ (refP16 ++ (refP17 ++ (refP18 ++ (refP19 ++ (refP20 ++ (refP21 ++ (refP22 ++ (refP23 ++ (refP24 ++ (refP25 ++ (refP26))))))))))))))) : List (HloOp τ sig (Elt F))).Forall fun op => op.fresh = ∅ :=
  List.forall_append.mpr ⟨refP11_fresh, tail12_fresh⟩
theorem tail10_fresh : (refP10 ++ (refP11 ++ (refP12 ++ (refP13 ++ (refP14 ++ (refP15 ++ (refP16 ++ (refP17 ++ (refP18 ++ (refP19 ++ (refP20 ++ (refP21 ++ (refP22 ++ (refP23 ++ (refP24 ++ (refP25 ++ (refP26)))))))))))))))) : List (HloOp τ sig (Elt F))).Forall fun op => op.fresh = ∅ :=
  List.forall_append.mpr ⟨refP10_fresh, tail11_fresh⟩
theorem tail9_fresh : (refP9 ++ (refP10 ++ (refP11 ++ (refP12 ++ (refP13 ++ (refP14 ++ (refP15 ++ (refP16 ++ (refP17 ++ (refP18 ++ (refP19 ++ (refP20 ++ (refP21 ++ (refP22 ++ (refP23 ++ (refP24 ++ (refP25 ++ (refP26))))))))))))))))) : List (HloOp τ sig (Elt F))).Forall fun op => op.fresh = ∅ :=
  List.forall_append.mpr ⟨refP9_fresh, tail10_fresh⟩
theorem tail8_fresh : (refP8 ++ (refP9 ++ (refP10 ++ (refP11 ++ (refP12 ++ (refP13 ++ (refP14 ++ (refP15 ++ (refP16 ++ (refP17 ++ (refP18 ++ (refP19 ++ (refP20 ++ (refP21 ++ (refP22 ++ (refP23 ++ (refP24 ++ (refP25 ++ (refP26)))))))))))))))))) : List (HloOp τ sig (Elt F))).Forall fun op => op.fresh = ∅ :=
  List.forall_append.mpr ⟨refP8_fresh, tail9_fresh⟩
theorem tail7_fresh : (refP7 ++ (refP8 ++ (refP9 ++ (refP10 ++ (refP11 ++ (refP12 ++ (refP13 ++ (refP14 ++ (refP15 ++ (refP16 ++ (refP17 ++ (refP18 ++ (refP19 ++ (refP20 ++ (refP21 ++ (refP22 ++ (refP23 ++ (refP24 ++ (refP25 ++ (refP26))))))))))))))))))) : List (HloOp τ sig (Elt F))).Forall fun op => op.fresh = ∅ :=
  List.forall_append.mpr ⟨refP7_fresh, tail8_fresh⟩
theorem tail6_fresh : (refP6 ++ (refP7 ++ (refP8 ++ (refP9 ++ (refP10 ++ (refP11 ++ (refP12 ++ (refP13 ++ (refP14 ++ (refP15 ++ (refP16 ++ (refP17 ++ (refP18 ++ (refP19 ++ (refP20 ++ (refP21 ++ (refP22 ++ (refP23 ++ (refP24 ++ (refP25 ++ (refP26)))))))))))))))))))) : List (HloOp τ sig (Elt F))).Forall fun op => op.fresh = ∅ :=
  List.forall_append.mpr ⟨refP6_fresh, tail7_fresh⟩
theorem tail5_fresh : (refP5 ++ (refP6 ++ (refP7 ++ (refP8 ++ (refP9 ++ (refP10 ++ (refP11 ++ (refP12 ++ (refP13 ++ (refP14 ++ (refP15 ++ (refP16 ++ (refP17 ++ (refP18 ++ (refP19 ++ (refP20 ++ (refP21 ++ (refP22 ++ (refP23 ++ (refP24 ++ (refP25 ++ (refP26))))))))))))))))))))) : List (HloOp τ sig (Elt F))).Forall fun op => op.fresh = ∅ :=
  List.forall_append.mpr ⟨refP5_fresh, tail6_fresh⟩
theorem tail4_fresh : (refP4 ++ (refP5 ++ (refP6 ++ (refP7 ++ (refP8 ++ (refP9 ++ (refP10 ++ (refP11 ++ (refP12 ++ (refP13 ++ (refP14 ++ (refP15 ++ (refP16 ++ (refP17 ++ (refP18 ++ (refP19 ++ (refP20 ++ (refP21 ++ (refP22 ++ (refP23 ++ (refP24 ++ (refP25 ++ (refP26)))))))))))))))))))))) : List (HloOp τ sig (Elt F))).Forall fun op => op.fresh = ∅ :=
  List.forall_append.mpr ⟨refP4_fresh, tail5_fresh⟩
theorem tail3_fresh : (refP3 ++ (refP4 ++ (refP5 ++ (refP6 ++ (refP7 ++ (refP8 ++ (refP9 ++ (refP10 ++ (refP11 ++ (refP12 ++ (refP13 ++ (refP14 ++ (refP15 ++ (refP16 ++ (refP17 ++ (refP18 ++ (refP19 ++ (refP20 ++ (refP21 ++ (refP22 ++ (refP23 ++ (refP24 ++ (refP25 ++ (refP26))))))))))))))))))))))) : List (HloOp τ sig (Elt F))).Forall fun op => op.fresh = ∅ :=
  List.forall_append.mpr ⟨refP3_fresh, tail4_fresh⟩
theorem tail2_fresh : (refP2 ++ (refP3 ++ (refP4 ++ (refP5 ++ (refP6 ++ (refP7 ++ (refP8 ++ (refP9 ++ (refP10 ++ (refP11 ++ (refP12 ++ (refP13 ++ (refP14 ++ (refP15 ++ (refP16 ++ (refP17 ++ (refP18 ++ (refP19 ++ (refP20 ++ (refP21 ++ (refP22 ++ (refP23 ++ (refP24 ++ (refP25 ++ (refP26)))))))))))))))))))))))) : List (HloOp τ sig (Elt F))).Forall fun op => op.fresh = ∅ :=
  List.forall_append.mpr ⟨refP2_fresh, tail3_fresh⟩
theorem tail1_fresh : (refP1 ++ (refP2 ++ (refP3 ++ (refP4 ++ (refP5 ++ (refP6 ++ (refP7 ++ (refP8 ++ (refP9 ++ (refP10 ++ (refP11 ++ (refP12 ++ (refP13 ++ (refP14 ++ (refP15 ++ (refP16 ++ (refP17 ++ (refP18 ++ (refP19 ++ (refP20 ++ (refP21 ++ (refP22 ++ (refP23 ++ (refP24 ++ (refP25 ++ (refP26))))))))))))))))))))))))) : List (HloOp τ sig (Elt F))).Forall fun op => op.fresh = ∅ :=
  List.forall_append.mpr ⟨refP1_fresh, tail2_fresh⟩
theorem tail0_fresh : (refP0 ++ (refP1 ++ (refP2 ++ (refP3 ++ (refP4 ++ (refP5 ++ (refP6 ++ (refP7 ++ (refP8 ++ (refP9 ++ (refP10 ++ (refP11 ++ (refP12 ++ (refP13 ++ (refP14 ++ (refP15 ++ (refP16 ++ (refP17 ++ (refP18 ++ (refP19 ++ (refP20 ++ (refP21 ++ (refP22 ++ (refP23 ++ (refP24 ++ (refP25 ++ (refP26)))))))))))))))))))))))))) : List (HloOp τ sig (Elt F))).Forall fun op => op.fresh = ∅ :=
  List.forall_append.mpr ⟨refP0_fresh, tail1_fresh⟩
theorem refAll_fresh : (refAll : List (HloOp τ sig (Elt F))).Forall fun op => op.fresh = ∅ := tail0_fresh

set_option maxHeartbeats 4000000 in
/-- The contents after the whole program are those after the last piece. -/
theorem after_refAll (V0 : Valuation τ sig (Elt F)) : after refAll V0 = refV26 V0 := by
  simp only [refAll, after_append]
  rfl

/-- On every device, for any float values, from any memory with zero counters: every weakly fair execution of the reference
    program terminates with each TensorCore reference at the contents after the last piece, from the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = refV26 (launchContents m c) (Proc.devRef .tc b) :=
  (θ_run defs _ _).mono (fun _ h c b => (h c b).trans (congrFun (after_refAll (launchContents m c)) (Proc.devRef .tc b)))
    (run_seq scopedRefs_eq scopedSems_eq defs main (fun _ => refAll) main_eq (fun _ => refAll_sub) m ρ
      (hfresh := fun _ => List.forall_iff_forall_mem.mp refAll_fresh))

end Cert.ReferenceIdeal.RefRun

end
-- ==== Proof.RefBridge.lean ====
/-
  The reference's three matrix products at the ideal values: a host dot_general contracting the left operand's
  columns with the right operand's rows is the plain matrix product of its operands.
-/
import proofs.«415904_j29016799052628_2_alg».proof.ReferenceIdeal
import proofs.«415904_j29016799052628_2_alg».proof.Proof.LibDense

noncomputable section

namespace Cert.ReferenceIdeal.RefBridge

open Idealize.ShloMosaic Cert.ReferenceIdeal

variable [Cert.ReferenceIdeal.Facts]

/-- x · W0: 200000 × 1 by 1 × 64. -/
theorem dot_in (l : FVec Ideal S200000x1 .f32) (r : FVec Ideal S1x64 .f32) :
    Host.dotGeneral dot_S200000x1_S1x64_S200000x64_1_0_0_1_n_n none l r
      = (fun i => Cert.Lib.dense (M := 200000) (K := 1) (N := 64) l r i) :=
  Cert.Lib.dotGeneral_eq_dense dot_S200000x1_S1x64_S200000x64_1_0_0_1_n_n rfl rfl rfl rfl rfl rfl none l r

/-- features · a layer's weight: 200000 × 64 by 64 × 64. -/
theorem dot_layer (l : FVec Ideal S200000x64 .f32) (r : FVec Ideal S64x64 .f32) :
    Host.dotGeneral dot_S200000x64_S64x64_S200000x64_1_0_0_1_n_n none l r
      = (fun i => Cert.Lib.dense (M := 200000) (K := 64) (N := 64) l r i) :=
  Cert.Lib.dotGeneral_eq_dense dot_S200000x64_S64x64_S200000x64_1_0_0_1_n_n rfl rfl rfl rfl rfl rfl none l r

/-- features · W11: 200000 × 64 by 64 × 1. -/
theorem dot_out (l : FVec Ideal S200000x64 .f32) (r : FVec Ideal S64x1 .f32) :
    Host.dotGeneral dot_S200000x64_S64x1_S200000x1_1_0_0_1_n_n none l r
      = (fun i => Cert.Lib.dense (M := 200000) (K := 64) (N := 1) l r i) :=
  Cert.Lib.dotGeneral_eq_dense dot_S200000x64_S64x1_S200000x1_1_0_0_1_n_n rfl rfl rfl rfl rfl rfl none l r

end Cert.ReferenceIdeal.RefBridge

end
-- ==== Proof.RefChain0.lean ====
/-
  The reference program's buffers up to the end of the input layer, as functions of the launch contents.

  The first stretch of operations leaves the two index lists and the edge normalisations that `Cert.Spec` names;
  the next leaves x · W0 (a host dot_general: the plain product at the ideal values), one propagation step of it,
  and the bias added to every row: the hidden features `hidden 0`.
-/
import proofs.«415904_j29016799052628_2_alg».proof.Proof.Gen.ReferenceIdeal
import proofs.«415904_j29016799052628_2_alg».proof.Proof.Gen.KernelIdeal
import proofs.«415904_j29016799052628_2_alg».proof.Proof.SpecNet
import proofs.«415904_j29016799052628_2_alg».proof.Proof.RefOps
import proofs.«415904_j29016799052628_2_alg».proof.Proof.RefBridge
import proofs.«415904_j29016799052628_2_alg».proof.Proof.LibBias
import Idealize.ShloMosaic.Lib.StableHlo.Run

set_option maxRecDepth 16384

noncomputable section

namespace Cert.ReferenceIdeal.RefChain

open Cert.ReferenceIdeal Cert.ReferenceIdeal.Gen Cert.ReferenceIdeal.RefRun Idealize.ShloMosaic Idealize.ShloMosaic.TcCoe Idealize.SL.Sem
open Idealize.ShloMosaic.StableHlo

/-! ## What the operations compute, for any float values -/

section Generic

variable {F : FTy → Type} [FloatOps F] (V0 : Valuation τ sig (Elt F))

/-- The source index of every edge, self loops appended. -/
theorem rops_v5 : refV0 V0 (Proc.devRef .tc main_v5) = Cert.Spec.rowIx (V0 (Proc.devRef .tc main_arg1)) := by
  show StableHlo.after refP0 V0 (Proc.devRef .tc main_v5) = _
  after_results_simp
  rfl

/-- The target index of every edge, self loops appended. -/
theorem rops_v6 : refV0 V0 (Proc.devRef .tc main_v6) = Cert.Spec.colIx (V0 (Proc.devRef .tc main_arg1)) := by
  show StableHlo.after refP0 V0 (Proc.devRef .tc main_v6) = _
  after_results_simp
  rfl

set_option maxHeartbeats 2000000 in
/-- The normalisation of every edge. -/
theorem rops_v33 : refV0 V0 (Proc.devRef .tc main_v33)
    = Cert.Spec.edgeNormOf (Cert.Spec.degInvSqrt (Cert.Spec.colIx (V0 (Proc.devRef .tc main_arg1))) (Cert.Spec.wFull (V0 (Proc.devRef .tc main_arg2))))
        (Cert.Spec.rowIx (V0 (Proc.devRef .tc main_arg1))) (Cert.Spec.colIx (V0 (Proc.devRef .tc main_arg1)))
        (Cert.Spec.wFull (V0 (Proc.devRef .tc main_arg2))) := by
  show StableHlo.after refP0 V0 (Proc.devRef .tc main_v33) = _
  after_results_simp
  rfl

set_option maxHeartbeats 2000000 in
/-- The input layer's operations: the product, one propagation step, the bias broadcast and added. -/
theorem rops_v50 : refV2 V0 (Proc.devRef .tc main_v50)
    = addf (Cert.Spec.prop64 (refV0 V0 (Proc.devRef .tc main_v33)) (refV0 V0 (Proc.devRef .tc main_v5)) (refV0 V0 (Proc.devRef .tc main_v6))
        (Host.dotGeneral dot_S200000x1_S1x64_S200000x64_1_0_0_1_n_n none (refV0 V0 (Proc.devRef .tc main_arg0)) (refV0 V0 (Proc.devRef .tc main_arg3))))
      (broadcastInDim S200000x64 ![0, 1] bcast_S1x64_S200000x64_0_1 (broadcastInDim S1x64 ![1] bcast_S64_S1x64_1 (refV0 V0 (Proc.devRef .tc main_arg4)))) := by
  show StableHlo.after refP2 (StableHlo.after refP1 (refV0 V0)) (Proc.devRef .tc main_v50) = _
  after_results_simp
  rfl

end Generic

variable (V0 : Valuation τ sig (Elt Ideal))

theorem R0_v5 : refV0 V0 (Proc.devRef .tc main_v5) = Cert.Spec.rowIx (V0 (Proc.devRef .tc main_arg1)) := rops_v5 V0
theorem R0_v6 : refV0 V0 (Proc.devRef .tc main_v6) = Cert.Spec.colIx (V0 (Proc.devRef .tc main_arg1)) := rops_v6 V0
theorem R0_v33 : refV0 V0 (Proc.devRef .tc main_v33) = Cert.Spec.normOf (V0 (Proc.devRef .tc main_arg1)) (V0 (Proc.devRef .tc main_arg2)) := rops_v33 V0

/-- The input layer: the hidden features `hidden 0`. -/
theorem R2_v50 : refV2 V0 (Proc.devRef .tc main_v50) = Cert.Spec.hidden (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) 0 := by
  rw [rops_v50, R0_v33, R0_v5, R0_v6, arg_refV0 V0 main_arg0 (by decide), arg_refV0 V0 main_arg3 (by decide), arg_refV0 V0 main_arg4 (by decide),
    Cert.ReferenceIdeal.RefBridge.dot_in]
  funext i
  exact Cert.Lib.host_bias64_apply bcast_S64_S1x64_1 bcast_S1x64_S200000x64_0_1 _ _ i

end Cert.ReferenceIdeal.RefChain

end
-- ==== Proof.RefLayer0.lean ====
/-
  One orthogonal layer of the reference program: from the hidden features in buffer main_v50 at the layer's entry,
  its operations compute one propagation step of them, the layer's weight (the Taylor polynomial of the exponential
  at the skew part of slice 0 of the stacked weights) and their product, a host dot_general: the plain product at
  the ideal values.
-/
import proofs.«415904_j29016799052628_2_alg».proof.Proof.Gen.ReferenceIdeal
import proofs.«415904_j29016799052628_2_alg».proof.Proof.Gen.KernelIdeal
import proofs.«415904_j29016799052628_2_alg».proof.Proof.SpecNet
import proofs.«415904_j29016799052628_2_alg».proof.Proof.RefOps
import proofs.«415904_j29016799052628_2_alg».proof.Proof.RefBridge
import proofs.«415904_j29016799052628_2_alg».proof.Proof.RefChain0
import Idealize.ShloMosaic.Lib.StableHlo.Run

set_option maxRecDepth 16384

noncomputable section

namespace Cert.ReferenceIdeal.RefChain

open Cert.ReferenceIdeal Cert.ReferenceIdeal.Gen Cert.ReferenceIdeal.RefRun Idealize.ShloMosaic Idealize.ShloMosaic.TcCoe Idealize.SL.Sem
open Idealize.ShloMosaic.StableHlo

section Generic

variable {F : FTy → Type} [FloatOps F] (V0 : Valuation τ sig (Elt F))

set_option maxHeartbeats 8000000 in
/-- The layer's operations, for any float values. -/
theorem rlayer0_ops : refV4 V0 (Proc.devRef .tc main_v114)
    = Host.dotGeneral dot_S200000x64_S64x64_S200000x64_1_0_0_1_n_n none
        (Cert.Spec.prop64 (refV2 V0 (Proc.devRef .tc main_v33)) (refV2 V0 (Proc.devRef .tc main_v5)) (refV2 V0 (Proc.devRef .tc main_v6))
          (refV2 V0 (Proc.devRef .tc main_v50)))
        (Cert.Spec.expmTaylor (Cert.Spec.skewPart
          (extractStridedSlice S1x64x64 ![0, 0, 0] (refV2 V0 (Proc.devRef .tc main_arg5)) slices_S10x64x64_S1x64x64_0_0_0))) := by
  show StableHlo.after refP4 (StableHlo.after refP3 (refV2 V0)) (Proc.devRef .tc main_v114) = _
  after_results_simp
  rfl

end Generic

variable (V0 : Valuation τ sig (Elt Ideal))

/-- The layer's exit features from its entry features. -/
theorem rlayer0 : refV4 V0 (Proc.devRef .tc main_v114)
    = (fun i => Cert.Lib.dense (M := 200000) (K := 64) (N := 64)
        (Cert.Spec.step64 (V0 (Proc.devRef .tc main_arg1)) (V0 (Proc.devRef .tc main_arg2)) (refV2 V0 (Proc.devRef .tc main_v50)))
        (Cert.Spec.orth (V0 (Proc.devRef .tc main_arg5)) 0) i) := by
  rw [rlayer0_ops, Cert.ReferenceIdeal.RefBridge.dot_layer, keepL_refV2 V0 main_v33 (by decide), keepL_refV2 V0 main_v5 (by decide),
    keepL_refV2 V0 main_v6 (by decide), keepL_refV2 V0 main_arg5 (by decide), R0_v33, R0_v5, R0_v6, arg_refV0 V0 main_arg5 (by decide)]
  rfl

end Cert.ReferenceIdeal.RefChain

end
-- ==== Proof.RefLayer1.lean ====
/-
  One orthogonal layer of the reference program: from the hidden features in buffer main_v114 at the layer's entry,
  its operations compute one propagation step of them, the layer's weight (the Taylor polynomial of the exponential
  at the skew part of slice 1 of the stacked weights) and their product, a host dot_general: the plain product at
  the ideal values.
-/
import proofs.«415904_j29016799052628_2_alg».proof.Proof.Gen.ReferenceIdeal
import proofs.«415904_j29016799052628_2_alg».proof.Proof.Gen.KernelIdeal
import proofs.«415904_j29016799052628_2_alg».proof.Proof.SpecNet
import proofs.«415904_j29016799052628_2_alg».proof.Proof.RefOps
import proofs.«415904_j29016799052628_2_alg».proof.Proof.RefBridge
import proofs.«415904_j29016799052628_2_alg».proof.Proof.RefChain0
import Idealize.ShloMosaic.Lib.StableHlo.Run

set_option maxRecDepth 16384

noncomputable section

namespace Cert.ReferenceIdeal.RefChain

open Cert.ReferenceIdeal Cert.ReferenceIdeal.Gen Cert.ReferenceIdeal.RefRun Idealize.ShloMosaic Idealize.ShloMosaic.TcCoe Idealize.SL.Sem
open Idealize.ShloMosaic.StableHlo

section Generic

variable {F : FTy → Type} [FloatOps F] (V0 : Valuation τ sig (Elt F))

set_option maxHeartbeats 8000000 in
/-- The layer's operations, for any float values. -/
theorem rlayer1_ops : refV6 V0 (Proc.devRef .tc main_v178)
    = Host.dotGeneral dot_S200000x64_S64x64_S200000x64_1_0_0_1_n_n none
        (Cert.Spec.prop64 (refV4 V0 (Proc.devRef .tc main_v33)) (refV4 V0 (Proc.devRef .tc main_v5)) (refV4 V0 (Proc.devRef .tc main_v6))
          (refV4 V0 (Proc.devRef .tc main_v114)))
        (Cert.Spec.expmTaylor (Cert.Spec.skewPart
          (extractStridedSlice S1x64x64 ![1, 0, 0] (refV4 V0 (Proc.devRef .tc main_arg5)) slices_S10x64x64_S1x64x64_1_0_0))) := by
  show StableHlo.after refP6 (StableHlo.after refP5 (refV4 V0)) (Proc.devRef .tc main_v178) = _
  after_results_simp
  rfl

end Generic

variable (V0 : Valuation τ sig (Elt Ideal))

/-- The layer's exit features from its entry features. -/
theorem rlayer1 : refV6 V0 (Proc.devRef .tc main_v178)
    = (fun i => Cert.Lib.dense (M := 200000) (K := 64) (N := 64)
        (Cert.Spec.step64 (V0 (Proc.devRef .tc main_arg1)) (V0 (Proc.devRef .tc main_arg2)) (refV4 V0 (Proc.devRef .tc main_v114)))
        (Cert.Spec.orth (V0 (Proc.devRef .tc main_arg5)) 1) i) := by
  rw [rlayer1_ops, Cert.ReferenceIdeal.RefBridge.dot_layer, keepL_refV4 V0 main_v33 (by decide), keepL_refV4 V0 main_v5 (by decide),
    keepL_refV4 V0 main_v6 (by decide), keepL_refV4 V0 main_arg5 (by decide), R0_v33, R0_v5, R0_v6, arg_refV0 V0 main_arg5 (by decide)]
  rfl

end Cert.ReferenceIdeal.RefChain

end
-- ==== Proof.RefLayer2.lean ====
/-
  One orthogonal layer of the reference program: from the hidden features in buffer main_v178 at the layer's entry,
  its operations compute one propagation step of them, the layer's weight (the Taylor polynomial of the exponential
  at the skew part of slice 2 of the stacked weights) and their product, a host dot_general: the plain product at
  the ideal values.
-/
import proofs.«415904_j29016799052628_2_alg».proof.Proof.Gen.ReferenceIdeal
import proofs.«415904_j29016799052628_2_alg».proof.Proof.Gen.KernelIdeal
import proofs.«415904_j29016799052628_2_alg».proof.Proof.SpecNet
import proofs.«415904_j29016799052628_2_alg».proof.Proof.RefOps
import proofs.«415904_j29016799052628_2_alg».proof.Proof.RefBridge
import proofs.«415904_j29016799052628_2_alg».proof.Proof.RefChain0
import Idealize.ShloMosaic.Lib.StableHlo.Run

set_option maxRecDepth 16384

noncomputable section

namespace Cert.ReferenceIdeal.RefChain

open Cert.ReferenceIdeal Cert.ReferenceIdeal.Gen Cert.ReferenceIdeal.RefRun Idealize.ShloMosaic Idealize.ShloMosaic.TcCoe Idealize.SL.Sem
open Idealize.ShloMosaic.StableHlo

section Generic

variable {F : FTy → Type} [FloatOps F] (V0 : Valuation τ sig (Elt F))

set_option maxHeartbeats 8000000 in
/-- The layer's operations, for any float values. -/
theorem rlayer2_ops : refV8 V0 (Proc.devRef .tc main_v242)
    = Host.dotGeneral dot_S200000x64_S64x64_S200000x64_1_0_0_1_n_n none
        (Cert.Spec.prop64 (refV6 V0 (Proc.devRef .tc main_v33)) (refV6 V0 (Proc.devRef .tc main_v5)) (refV6 V0 (Proc.devRef .tc main_v6))
          (refV6 V0 (Proc.devRef .tc main_v178)))
        (Cert.Spec.expmTaylor (Cert.Spec.skewPart
          (extractStridedSlice S1x64x64 ![2, 0, 0] (refV6 V0 (Proc.devRef .tc main_arg5)) slices_S10x64x64_S1x64x64_2_0_0))) := by
  show StableHlo.after refP8 (StableHlo.after refP7 (refV6 V0)) (Proc.devRef .tc main_v242) = _
  after_results_simp
  rfl

end Generic

variable (V0 : Valuation τ sig (Elt Ideal))

/-- The layer's exit features from its entry features. -/
theorem rlayer2 : refV8 V0 (Proc.devRef .tc main_v242)
    = (fun i => Cert.Lib.dense (M := 200000) (K := 64) (N := 64)
        (Cert.Spec.step64 (V0 (Proc.devRef .tc main_arg1)) (V0 (Proc.devRef .tc main_arg2)) (refV6 V0 (Proc.devRef .tc main_v178)))
        (Cert.Spec.orth (V0 (Proc.devRef .tc main_arg5)) 2) i) := by
  rw [rlayer2_ops, Cert.ReferenceIdeal.RefBridge.dot_layer, keepL_refV6 V0 main_v33 (by decide), keepL_refV6 V0 main_v5 (by decide),
    keepL_refV6 V0 main_v6 (by decide), keepL_refV6 V0 main_arg5 (by decide), R0_v33, R0_v5, R0_v6, arg_refV0 V0 main_arg5 (by decide)]
  rfl

end Cert.ReferenceIdeal.RefChain

end
-- ==== Proof.RefLayer3.lean ====
/-
  One orthogonal layer of the reference program: from the hidden features in buffer main_v242 at the layer's entry,
  its operations compute one propagation step of them, the layer's weight (the Taylor polynomial of the exponential
  at the skew part of slice 3 of the stacked weights) and their product, a host dot_general: the plain product at
  the ideal values.
-/
import proofs.«415904_j29016799052628_2_alg».proof.Proof.Gen.ReferenceIdeal
import proofs.«415904_j29016799052628_2_alg».proof.Proof.Gen.KernelIdeal
import proofs.«415904_j29016799052628_2_alg».proof.Proof.SpecNet
import proofs.«415904_j29016799052628_2_alg».proof.Proof.RefOps
import proofs.«415904_j29016799052628_2_alg».proof.Proof.RefBridge
import proofs.«415904_j29016799052628_2_alg».proof.Proof.RefChain0
import Idealize.ShloMosaic.Lib.StableHlo.Run

set_option maxRecDepth 16384

noncomputable section

namespace Cert.ReferenceIdeal.RefChain

open Cert.ReferenceIdeal Cert.ReferenceIdeal.Gen Cert.ReferenceIdeal.RefRun Idealize.ShloMosaic Idealize.ShloMosaic.TcCoe Idealize.SL.Sem
open Idealize.ShloMosaic.StableHlo

section Generic

variable {F : FTy → Type} [FloatOps F] (V0 : Valuation τ sig (Elt F))

set_option maxHeartbeats 8000000 in
/-- The layer's operations, for any float values. -/
theorem rlayer3_ops : refV11 V0 (Proc.devRef .tc main_v306)
    = Host.dotGeneral dot_S200000x64_S64x64_S200000x64_1_0_0_1_n_n none
        (Cert.Spec.prop64 (refV8 V0 (Proc.devRef .tc main_v33)) (refV8 V0 (Proc.devRef .tc main_v5)) (refV8 V0 (Proc.devRef .tc main_v6))
          (refV8 V0 (Proc.devRef .tc main_v242)))
        (Cert.Spec.expmTaylor (Cert.Spec.skewPart
          (extractStridedSlice S1x64x64 ![3, 0, 0] (refV8 V0 (Proc.devRef .tc main_arg5)) slices_S10x64x64_S1x64x64_3_0_0))) := by
  show StableHlo.after refP11 (StableHlo.after refP10 (StableHlo.after refP9 (refV8 V0))) (Proc.devRef .tc main_v306) = _
  after_results_simp
  rfl

end Generic

variable (V0 : Valuation τ sig (Elt Ideal))

/-- The layer's exit features from its entry features. -/
theorem rlayer3 : refV11 V0 (Proc.devRef .tc main_v306)
    = (fun i => Cert.Lib.dense (M := 200000) (K := 64) (N := 64)
        (Cert.Spec.step64 (V0 (Proc.devRef .tc main_arg1)) (V0 (Proc.devRef .tc main_arg2)) (refV8 V0 (Proc.devRef .tc main_v242)))
        (Cert.Spec.orth (V0 (Proc.devRef .tc main_arg5)) 3) i) := by
  rw [rlayer3_ops, Cert.ReferenceIdeal.RefBridge.dot_layer, keepL_refV8 V0 main_v33 (by decide), keepL_refV8 V0 main_v5 (by decide),
    keepL_refV8 V0 main_v6 (by decide), keepL_refV8 V0 main_arg5 (by decide), R0_v33, R0_v5, R0_v6, arg_refV0 V0 main_arg5 (by decide)]
  rfl

end Cert.ReferenceIdeal.RefChain

end
-- ==== Proof.RefLayer4.lean ====
/-
  One orthogonal layer of the reference program: from the hidden features in buffer main_v306 at the layer's entry,
  its operations compute one propagation step of them, the layer's weight (the Taylor polynomial of the exponential
  at the skew part of slice 4 of the stacked weights) and their product, a host dot_general: the plain product at
  the ideal values.
-/
import proofs.«415904_j29016799052628_2_alg».proof.Proof.Gen.ReferenceIdeal
import proofs.«415904_j29016799052628_2_alg».proof.Proof.Gen.KernelIdeal
import proofs.«415904_j29016799052628_2_alg».proof.Proof.SpecNet
import proofs.«415904_j29016799052628_2_alg».proof.Proof.RefOps
import proofs.«415904_j29016799052628_2_alg».proof.Proof.RefBridge
import proofs.«415904_j29016799052628_2_alg».proof.Proof.RefChain0
import Idealize.ShloMosaic.Lib.StableHlo.Run

set_option maxRecDepth 16384

noncomputable section

namespace Cert.ReferenceIdeal.RefChain

open Cert.ReferenceIdeal Cert.ReferenceIdeal.Gen Cert.ReferenceIdeal.RefRun Idealize.ShloMosaic Idealize.ShloMosaic.TcCoe Idealize.SL.Sem
open Idealize.ShloMosaic.StableHlo

section Generic

variable {F : FTy → Type} [FloatOps F] (V0 : Valuation τ sig (Elt F))

set_option maxHeartbeats 8000000 in
/-- The layer's operations, for any float values. -/
theorem rlayer4_ops : refV13 V0 (Proc.devRef .tc main_v370)
    = Host.dotGeneral dot_S200000x64_S64x64_S200000x64_1_0_0_1_n_n none
        (Cert.Spec.prop64 (refV11 V0 (Proc.devRef .tc main_v33)) (refV11 V0 (Proc.devRef .tc main_v5)) (refV11 V0 (Proc.devRef .tc main_v6))
          (refV11 V0 (Proc.devRef .tc main_v306)))
        (Cert.Spec.expmTaylor (Cert.Spec.skewPart
          (extractStridedSlice S1x64x64 ![4, 0, 0] (refV11 V0 (Proc.devRef .tc main_arg5)) slices_S10x64x64_S1x64x64_4_0_0))) := by
  show StableHlo.after refP13 (StableHlo.after refP12 (refV11 V0)) (Proc.devRef .tc main_v370) = _
  after_results_simp
  rfl

end Generic

variable (V0 : Valuation τ sig (Elt Ideal))

/-- The layer's exit features from its entry features. -/
theorem rlayer4 : refV13 V0 (Proc.devRef .tc main_v370)
    = (fun i => Cert.Lib.dense (M := 200000) (K := 64) (N := 64)
        (Cert.Spec.step64 (V0 (Proc.devRef .tc main_arg1)) (V0 (Proc.devRef .tc main_arg2)) (refV11 V0 (Proc.devRef .tc main_v306)))
        (Cert.Spec.orth (V0 (Proc.devRef .tc main_arg5)) 4) i) := by
  rw [rlayer4_ops, Cert.ReferenceIdeal.RefBridge.dot_layer, keepL_refV11 V0 main_v33 (by decide), keepL_refV11 V0 main_v5 (by decide),
    keepL_refV11 V0 main_v6 (by decide), keepL_refV11 V0 main_arg5 (by decide), R0_v33, R0_v5, R0_v6, arg_refV0 V0 main_arg5 (by decide)]
  rfl

end Cert.ReferenceIdeal.RefChain

end
-- ==== Proof.RefLayer5.lean ====
/-
  One orthogonal layer of the reference program: from the hidden features in buffer main_v370 at the layer's entry,
  its operations compute one propagation step of them, the layer's weight (the Taylor polynomial of the exponential
  at the skew part of slice 5 of the stacked weights) and their product, a host dot_general: the plain product at
  the ideal values.
-/
import proofs.«415904_j29016799052628_2_alg».proof.Proof.Gen.ReferenceIdeal
import proofs.«415904_j29016799052628_2_alg».proof.Proof.Gen.KernelIdeal
import proofs.«415904_j29016799052628_2_alg».proof.Proof.SpecNet
import proofs.«415904_j29016799052628_2_alg».proof.Proof.RefOps
import proofs.«415904_j29016799052628_2_alg».proof.Proof.RefBridge
import proofs.«415904_j29016799052628_2_alg».proof.Proof.RefChain0
import Idealize.ShloMosaic.Lib.StableHlo.Run

set_option maxRecDepth 16384

noncomputable section

namespace Cert.ReferenceIdeal.RefChain

open Cert.ReferenceIdeal Cert.ReferenceIdeal.Gen Cert.ReferenceIdeal.RefRun Idealize.ShloMosaic Idealize.ShloMosaic.TcCoe Idealize.SL.Sem
open Idealize.ShloMosaic.StableHlo

section Generic

variable {F : FTy → Type} [FloatOps F] (V0 : Valuation τ sig (Elt F))

set_option maxHeartbeats 8000000 in
/-- The layer's operations, for any float values. -/
theorem rlayer5_ops : refV15 V0 (Proc.devRef .tc main_v434)
    = Host.dotGeneral dot_S200000x64_S64x64_S200000x64_1_0_0_1_n_n none
        (Cert.Spec.prop64 (refV13 V0 (Proc.devRef .tc main_v33)) (refV13 V0 (Proc.devRef .tc main_v5)) (refV13 V0 (Proc.devRef .tc main_v6))
          (refV13 V0 (Proc.devRef .tc main_v370)))
        (Cert.Spec.expmTaylor (Cert.Spec.skewPart
          (extractStridedSlice S1x64x64 ![5, 0, 0] (refV13 V0 (Proc.devRef .tc main_arg5)) slices_S10x64x64_S1x64x64_5_0_0))) := by
  show StableHlo.after refP15 (StableHlo.after refP14 (refV13 V0)) (Proc.devRef .tc main_v434) = _
  after_results_simp
  rfl

end Generic

variable (V0 : Valuation τ sig (Elt Ideal))

/-- The layer's exit features from its entry features. -/
theorem rlayer5 : refV15 V0 (Proc.devRef .tc main_v434)
    = (fun i => Cert.Lib.dense (M := 200000) (K := 64) (N := 64)
        (Cert.Spec.step64 (V0 (Proc.devRef .tc main_arg1)) (V0 (Proc.devRef .tc main_arg2)) (refV13 V0 (Proc.devRef .tc main_v370)))
        (Cert.Spec.orth (V0 (Proc.devRef .tc main_arg5)) 5) i) := by
  rw [rlayer5_ops, Cert.ReferenceIdeal.RefBridge.dot_layer, keepL_refV13 V0 main_v33 (by decide), keepL_refV13 V0 main_v5 (by decide),
    keepL_refV13 V0 main_v6 (by decide), keepL_refV13 V0 main_arg5 (by decide), R0_v33, R0_v5, R0_v6, arg_refV0 V0 main_arg5 (by decide)]
  rfl

end Cert.ReferenceIdeal.RefChain

end
-- ==== Proof.RefLayer6.lean ====
/-
  One orthogonal layer of the reference program: from the hidden features in buffer main_v434 at the layer's entry,
  its operations compute one propagation step of them, the layer's weight (the Taylor polynomial of the exponential
  at the skew part of slice 6 of the stacked weights) and their product, a host dot_general: the plain product at
  the ideal values.
-/
import proofs.«415904_j29016799052628_2_alg».proof.Proof.Gen.ReferenceIdeal
import proofs.«415904_j29016799052628_2_alg».proof.Proof.Gen.KernelIdeal
import proofs.«415904_j29016799052628_2_alg».proof.Proof.SpecNet
import proofs.«415904_j29016799052628_2_alg».proof.Proof.RefOps
import proofs.«415904_j29016799052628_2_alg».proof.Proof.RefBridge
import proofs.«415904_j29016799052628_2_alg».proof.Proof.RefChain0
import Idealize.ShloMosaic.Lib.StableHlo.Run

set_option maxRecDepth 16384

noncomputable section

namespace Cert.ReferenceIdeal.RefChain

open Cert.ReferenceIdeal Cert.ReferenceIdeal.Gen Cert.ReferenceIdeal.RefRun Idealize.ShloMosaic Idealize.ShloMosaic.TcCoe Idealize.SL.Sem
open Idealize.ShloMosaic.StableHlo

section Generic

variable {F : FTy → Type} [FloatOps F] (V0 : Valuation τ sig (Elt F))

set_option maxHeartbeats 8000000 in
/-- The layer's operations, for any float values. -/
theorem rlayer6_ops : refV18 V0 (Proc.devRef .tc main_v498)
    = Host.dotGeneral dot_S200000x64_S64x64_S200000x64_1_0_0_1_n_n none
        (Cert.Spec.prop64 (refV15 V0 (Proc.devRef .tc main_v33)) (refV15 V0 (Proc.devRef .tc main_v5)) (refV15 V0 (Proc.devRef .tc main_v6))
          (refV15 V0 (Proc.devRef .tc main_v434)))
        (Cert.Spec.expmTaylor (Cert.Spec.skewPart
          (extractStridedSlice S1x64x64 ![6, 0, 0] (refV15 V0 (Proc.devRef .tc main_arg5)) slices_S10x64x64_S1x64x64_6_0_0))) := by
  show StableHlo.after refP18 (StableHlo.after refP17 (StableHlo.after refP16 (refV15 V0))) (Proc.devRef .tc main_v498) = _
  after_results_simp
  rfl

end Generic

variable (V0 : Valuation τ sig (Elt Ideal))

/-- The layer's exit features from its entry features. -/
theorem rlayer6 : refV18 V0 (Proc.devRef .tc main_v498)
    = (fun i => Cert.Lib.dense (M := 200000) (K := 64) (N := 64)
        (Cert.Spec.step64 (V0 (Proc.devRef .tc main_arg1)) (V0 (Proc.devRef .tc main_arg2)) (refV15 V0 (Proc.devRef .tc main_v434)))
        (Cert.Spec.orth (V0 (Proc.devRef .tc main_arg5)) 6) i) := by
  rw [rlayer6_ops, Cert.ReferenceIdeal.RefBridge.dot_layer, keepL_refV15 V0 main_v33 (by decide), keepL_refV15 V0 main_v5 (by decide),
    keepL_refV15 V0 main_v6 (by decide), keepL_refV15 V0 main_arg5 (by decide), R0_v33, R0_v5, R0_v6, arg_refV0 V0 main_arg5 (by decide)]
  rfl

end Cert.ReferenceIdeal.RefChain

end
-- ==== Proof.RefLayer7.lean ====
/-
  One orthogonal layer of the reference program: from the hidden features in buffer main_v498 at the layer's entry,
  its operations compute one propagation step of them, the layer's weight (the Taylor polynomial of the exponential
  at the skew part of slice 7 of the stacked weights) and their product, a host dot_general: the plain product at
  the ideal values.
-/
import proofs.«415904_j29016799052628_2_alg».proof.Proof.Gen.ReferenceIdeal
import proofs.«415904_j29016799052628_2_alg».proof.Proof.Gen.KernelIdeal
import proofs.«415904_j29016799052628_2_alg».proof.Proof.SpecNet
import proofs.«415904_j29016799052628_2_alg».proof.Proof.RefOps
import proofs.«415904_j29016799052628_2_alg».proof.Proof.RefBridge
import proofs.«415904_j29016799052628_2_alg».proof.Proof.RefChain0
import Idealize.ShloMosaic.Lib.StableHlo.Run

set_option maxRecDepth 16384

noncomputable section

namespace Cert.ReferenceIdeal.RefChain

open Cert.ReferenceIdeal Cert.ReferenceIdeal.Gen Cert.ReferenceIdeal.RefRun Idealize.ShloMosaic Idealize.ShloMosaic.TcCoe Idealize.SL.Sem
open Idealize.ShloMosaic.StableHlo

section Generic

variable {F : FTy → Type} [FloatOps F] (V0 : Valuation τ sig (Elt F))

set_option maxHeartbeats 8000000 in
/-- The layer's operations, for any float values. -/
theorem rlayer7_ops : refV20 V0 (Proc.devRef .tc main_v562)
    = Host.dotGeneral dot_S200000x64_S64x64_S200000x64_1_0_0_1_n_n none
        (Cert.Spec.prop64 (refV18 V0 (Proc.devRef .tc main_v33)) (refV18 V0 (Proc.devRef .tc main_v5)) (refV18 V0 (Proc.devRef .tc main_v6))
          (refV18 V0 (Proc.devRef .tc main_v498)))
        (Cert.Spec.expmTaylor (Cert.Spec.skewPart
          (extractStridedSlice S1x64x64 ![7, 0, 0] (refV18 V0 (Proc.devRef .tc main_arg5)) slices_S10x64x64_S1x64x64_7_0_0))) := by
  show StableHlo.after refP20 (StableHlo.after refP19 (refV18 V0)) (Proc.devRef .tc main_v562) = _
  after_results_simp
  rfl

end Generic

variable (V0 : Valuation τ sig (Elt Ideal))

/-- The layer's exit features from its entry features. -/
theorem rlayer7 : refV20 V0 (Proc.devRef .tc main_v562)
    = (fun i => Cert.Lib.dense (M := 200000) (K := 64) (N := 64)
        (Cert.Spec.step64 (V0 (Proc.devRef .tc main_arg1)) (V0 (Proc.devRef .tc main_arg2)) (refV18 V0 (Proc.devRef .tc main_v498)))
        (Cert.Spec.orth (V0 (Proc.devRef .tc main_arg5)) 7) i) := by
  rw [rlayer7_ops, Cert.ReferenceIdeal.RefBridge.dot_layer, keepL_refV18 V0 main_v33 (by decide), keepL_refV18 V0 main_v5 (by decide),
    keepL_refV18 V0 main_v6 (by decide), keepL_refV18 V0 main_arg5 (by decide), R0_v33, R0_v5, R0_v6, arg_refV0 V0 main_arg5 (by decide)]
  rfl

end Cert.ReferenceIdeal.RefChain

end
-- ==== Proof.RefLayer8.lean ====
/-
  One orthogonal layer of the reference program: from the hidden features in buffer main_v562 at the layer's entry,
  its operations compute one propagation step of them, the layer's weight (the Taylor polynomial of the exponential
  at the skew part of slice 8 of the stacked weights) and their product, a host dot_general: the plain product at
  the ideal values.
-/
import proofs.«415904_j29016799052628_2_alg».proof.Proof.Gen.ReferenceIdeal
import proofs.«415904_j29016799052628_2_alg».proof.Proof.Gen.KernelIdeal
import proofs.«415904_j29016799052628_2_alg».proof.Proof.SpecNet
import proofs.«415904_j29016799052628_2_alg».proof.Proof.RefOps
import proofs.«415904_j29016799052628_2_alg».proof.Proof.RefBridge
import proofs.«415904_j29016799052628_2_alg».proof.Proof.RefChain0
import Idealize.ShloMosaic.Lib.StableHlo.Run

set_option maxRecDepth 16384

noncomputable section

namespace Cert.ReferenceIdeal.RefChain

open Cert.ReferenceIdeal Cert.ReferenceIdeal.Gen Cert.ReferenceIdeal.RefRun Idealize.ShloMosaic Idealize.ShloMosaic.TcCoe Idealize.SL.Sem
open Idealize.ShloMosaic.StableHlo

section Generic

variable {F : FTy → Type} [FloatOps F] (V0 : Valuation τ sig (Elt F))

set_option maxHeartbeats 8000000 in
/-- The layer's operations, for any float values. -/
theorem rlayer8_ops : refV22 V0 (Proc.devRef .tc main_v626)
    = Host.dotGeneral dot_S200000x64_S64x64_S200000x64_1_0_0_1_n_n none
        (Cert.Spec.prop64 (refV20 V0 (Proc.devRef .tc main_v33)) (refV20 V0 (Proc.devRef .tc main_v5)) (refV20 V0 (Proc.devRef .tc main_v6))
          (refV20 V0 (Proc.devRef .tc main_v562)))
        (Cert.Spec.expmTaylor (Cert.Spec.skewPart
          (extractStridedSlice S1x64x64 ![8, 0, 0] (refV20 V0 (Proc.devRef .tc main_arg5)) slices_S10x64x64_S1x64x64_8_0_0))) := by
  show StableHlo.after refP22 (StableHlo.after refP21 (refV20 V0)) (Proc.devRef .tc main_v626) = _
  after_results_simp
  rfl

end Generic

variable (V0 : Valuation τ sig (Elt Ideal))

/-- The layer's exit features from its entry features. -/
theorem rlayer8 : refV22 V0 (Proc.devRef .tc main_v626)
    = (fun i => Cert.Lib.dense (M := 200000) (K := 64) (N := 64)
        (Cert.Spec.step64 (V0 (Proc.devRef .tc main_arg1)) (V0 (Proc.devRef .tc main_arg2)) (refV20 V0 (Proc.devRef .tc main_v562)))
        (Cert.Spec.orth (V0 (Proc.devRef .tc main_arg5)) 8) i) := by
  rw [rlayer8_ops, Cert.ReferenceIdeal.RefBridge.dot_layer, keepL_refV20 V0 main_v33 (by decide), keepL_refV20 V0 main_v5 (by decide),
    keepL_refV20 V0 main_v6 (by decide), keepL_refV20 V0 main_arg5 (by decide), R0_v33, R0_v5, R0_v6, arg_refV0 V0 main_arg5 (by decide)]
  rfl

end Cert.ReferenceIdeal.RefChain

end
-- ==== Proof.RefLayer9.lean ====
/-
  One orthogonal layer of the reference program: from the hidden features in buffer main_v626 at the layer's entry,
  its operations compute one propagation step of them, the layer's weight (the Taylor polynomial of the exponential
  at the skew part of slice 9 of the stacked weights) and their product, a host dot_general: the plain product at
  the ideal values.
-/
import proofs.«415904_j29016799052628_2_alg».proof.Proof.Gen.ReferenceIdeal
import proofs.«415904_j29016799052628_2_alg».proof.Proof.Gen.KernelIdeal
import proofs.«415904_j29016799052628_2_alg».proof.Proof.SpecNet
import proofs.«415904_j29016799052628_2_alg».proof.Proof.RefOps
import proofs.«415904_j29016799052628_2_alg».proof.Proof.RefBridge
import proofs.«415904_j29016799052628_2_alg».proof.Proof.RefChain0
import Idealize.ShloMosaic.Lib.StableHlo.Run

set_option maxRecDepth 16384

noncomputable section

namespace Cert.ReferenceIdeal.RefChain

open Cert.ReferenceIdeal Cert.ReferenceIdeal.Gen Cert.ReferenceIdeal.RefRun Idealize.ShloMosaic Idealize.ShloMosaic.TcCoe Idealize.SL.Sem
open Idealize.ShloMosaic.StableHlo

section Generic

variable {F : FTy → Type} [FloatOps F] (V0 : Valuation τ sig (Elt F))

set_option maxHeartbeats 8000000 in
/-- The layer's operations, for any float values. -/
theorem rlayer9_ops : refV25 V0 (Proc.devRef .tc main_v690)
    = Host.dotGeneral dot_S200000x64_S64x64_S200000x64_1_0_0_1_n_n none
        (Cert.Spec.prop64 (refV22 V0 (Proc.devRef .tc main_v33)) (refV22 V0 (Proc.devRef .tc main_v5)) (refV22 V0 (Proc.devRef .tc main_v6))
          (refV22 V0 (Proc.devRef .tc main_v626)))
        (Cert.Spec.expmTaylor (Cert.Spec.skewPart
          (extractStridedSlice S1x64x64 ![9, 0, 0] (refV22 V0 (Proc.devRef .tc main_arg5)) slices_S10x64x64_S1x64x64_9_0_0))) := by
  show StableHlo.after refP25 (StableHlo.after refP24 (StableHlo.after refP23 (refV22 V0))) (Proc.devRef .tc main_v690) = _
  after_results_simp
  rfl

end Generic

variable (V0 : Valuation τ sig (Elt Ideal))

/-- The layer's exit features from its entry features. -/
theorem rlayer9 : refV25 V0 (Proc.devRef .tc main_v690)
    = (fun i => Cert.Lib.dense (M := 200000) (K := 64) (N := 64)
        (Cert.Spec.step64 (V0 (Proc.devRef .tc main_arg1)) (V0 (Proc.devRef .tc main_arg2)) (refV22 V0 (Proc.devRef .tc main_v626)))
        (Cert.Spec.orth (V0 (Proc.devRef .tc main_arg5)) 9) i) := by
  rw [rlayer9_ops, Cert.ReferenceIdeal.RefBridge.dot_layer, keepL_refV22 V0 main_v33 (by decide), keepL_refV22 V0 main_v5 (by decide),
    keepL_refV22 V0 main_v6 (by decide), keepL_refV22 V0 main_arg5 (by decide), R0_v33, R0_v5, R0_v6, arg_refV0 V0 main_arg5 (by decide)]
  rfl

end Cert.ReferenceIdeal.RefChain

end
-- ==== Proof.RefNet.lean ====
/-
  The reference program's result buffer as the network's function of the launch contents: the ten orthogonal layers
  compose to `hidden 10`, and the last stretch of operations is the product with W11, one propagation step on a
  single feature, the last bias, and the two unit axes appended.
-/
import proofs.«415904_j29016799052628_2_alg».proof.Proof.Gen.ReferenceIdeal
import proofs.«415904_j29016799052628_2_alg».proof.Proof.Gen.KernelIdeal
import proofs.«415904_j29016799052628_2_alg».proof.Proof.SpecNet
import proofs.«415904_j29016799052628_2_alg».proof.Proof.RefOps
import proofs.«415904_j29016799052628_2_alg».proof.Proof.RefBridge
import proofs.«415904_j29016799052628_2_alg».proof.Proof.RefChain0
import proofs.«415904_j29016799052628_2_alg».proof.Proof.RefLayer0
import proofs.«415904_j29016799052628_2_alg».proof.Proof.RefLayer1
import proofs.«415904_j29016799052628_2_alg».proof.Proof.RefLayer2
import proofs.«415904_j29016799052628_2_alg».proof.Proof.RefLayer3
import proofs.«415904_j29016799052628_2_alg».proof.Proof.RefLayer4
import proofs.«415904_j29016799052628_2_alg».proof.Proof.RefLayer5
import proofs.«415904_j29016799052628_2_alg».proof.Proof.RefLayer6
import proofs.«415904_j29016799052628_2_alg».proof.Proof.RefLayer7
import proofs.«415904_j29016799052628_2_alg».proof.Proof.RefLayer8
import proofs.«415904_j29016799052628_2_alg».proof.Proof.RefLayer9
import proofs.«415904_j29016799052628_2_alg».proof.Proof.LibBias
import Idealize.ShloMosaic.Lib.StableHlo.Run

set_option maxRecDepth 16384

noncomputable section

namespace Cert.ReferenceIdeal.RefChain

open Cert.ReferenceIdeal Cert.ReferenceIdeal.Gen Cert.ReferenceIdeal.RefRun Idealize.ShloMosaic Idealize.ShloMosaic.TcCoe Idealize.SL.Sem
open Idealize.ShloMosaic.StableHlo

section Generic

variable {F : FTy → Type} [FloatOps F] (V0 : Valuation τ sig (Elt F))

set_option maxHeartbeats 2000000 in
/-- The output layer's operations, for any float values. -/
theorem rops_v707 : refV26 V0 (Proc.devRef .tc main_v707)
    = broadcastInDim S200000x1x1 ![0, 1] bcast_S200000x1_S200000x1x1_0_1
        (addf (Cert.Spec.prop1 (refV25 V0 (Proc.devRef .tc main_v33)) (refV25 V0 (Proc.devRef .tc main_v5)) (refV25 V0 (Proc.devRef .tc main_v6))
            (Host.dotGeneral dot_S200000x64_S64x1_S200000x1_1_0_0_1_n_n none (refV25 V0 (Proc.devRef .tc main_v690)) (refV25 V0 (Proc.devRef .tc main_arg6))))
          (broadcastInDim S200000x1 ![0, 1] bcast_S1x1_S200000x1_0_1 (broadcastInDim S1x1 ![1] bcast_S1_S1x1_1 (refV25 V0 (Proc.devRef .tc main_arg7))))) := by
  show StableHlo.after refP26 (refV25 V0) (Proc.devRef .tc main_v707) = _
  after_results_simp
  rfl

end Generic

variable (V0 : Valuation τ sig (Elt Ideal))

/-! ## The hidden features after each layer -/

theorem rhidden0 : refV4 V0 (Proc.devRef .tc main_v114) = Cert.Spec.hidden (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) 1 := by
  rw [rlayer0, R2_v50]
  rfl

theorem rhidden1 : refV6 V0 (Proc.devRef .tc main_v178) = Cert.Spec.hidden (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) 2 := by
  rw [rlayer1, rhidden0]
  rfl

theorem rhidden2 : refV8 V0 (Proc.devRef .tc main_v242) = Cert.Spec.hidden (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) 3 := by
  rw [rlayer2, rhidden1]
  rfl

theorem rhidden3 : refV11 V0 (Proc.devRef .tc main_v306) = Cert.Spec.hidden (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) 4 := by
  rw [rlayer3, rhidden2]
  rfl

theorem rhidden4 : refV13 V0 (Proc.devRef .tc main_v370) = Cert.Spec.hidden (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) 5 := by
  rw [rlayer4, rhidden3]
  rfl

theorem rhidden5 : refV15 V0 (Proc.devRef .tc main_v434) = Cert.Spec.hidden (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) 6 := by
  rw [rlayer5, rhidden4]
  rfl

theorem rhidden6 : refV18 V0 (Proc.devRef .tc main_v498) = Cert.Spec.hidden (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) 7 := by
  rw [rlayer6, rhidden5]
  rfl

theorem rhidden7 : refV20 V0 (Proc.devRef .tc main_v562) = Cert.Spec.hidden (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) 8 := by
  rw [rlayer7, rhidden6]
  rfl

theorem rhidden8 : refV22 V0 (Proc.devRef .tc main_v626) = Cert.Spec.hidden (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) 9 := by
  rw [rlayer8, rhidden7]
  rfl

theorem rhidden9 : refV25 V0 (Proc.devRef .tc main_v690) = Cert.Spec.hidden (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) 10 := by
  rw [rlayer9, rhidden8]
  rfl

/-! ## The output layer -/

/-- The result: propagate (hidden 10 · W11) + b11, with two unit axes appended. -/
theorem R26_v707 : refV26 V0 (Proc.devRef .tc main_v707)
    = Cert.Spec.output (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) := by
  rw [rops_v707, rhidden9, Cert.ReferenceIdeal.RefBridge.dot_out, keepL_refV25 V0 main_v33 (by decide), keepL_refV25 V0 main_v5 (by decide),
    keepL_refV25 V0 main_v6 (by decide), keepL_refV25 V0 main_arg6 (by decide), keepL_refV25 V0 main_arg7 (by decide),
    R0_v33, R0_v5, R0_v6, arg_refV0 V0 main_arg6 (by decide), arg_refV0 V0 main_arg7 (by decide)]
  have e : ∀ (X : FVec Ideal S200000x1 .f32) (b : FVec Ideal S1 .f32),
      addf X (broadcastInDim S200000x1 ![0, 1] bcast_S1x1_S200000x1_0_1 (broadcastInDim S1x1 ![1] bcast_S1_S1x1_1 b)) = Cert.Spec.biasRows1 X b :=
    fun X b => funext fun i => Cert.Lib.host_bias1_apply bcast_S1_S1x1_1 bcast_S1x1_S200000x1_0_1 X b i
  rw [e]
  rfl

end Cert.ReferenceIdeal.RefChain

end
-- ==== Proof.lean ====
/-
  The certificate's claims.

  The kernel program and the reference compute one graph-convolution network: edge normalisations from the degrees,
  an input layer x · W0 propagated over the graph plus a bias, ten layers that propagate and multiply by the Taylor
  polynomial of a matrix exponential, and an output layer. The kernel program does the dense products and the bias
  additions in pallas_calls (operands passed through bf16, accumulated from zero: at the ideal values the plain
  matrix product and the plain sum) and everything else by the host operations the reference also uses. Both
  results are therefore the one function `Cert.Spec.output` of the arguments (Proof/KNet.lean for the kernel
  program, Proof/RefNet.lean for the reference), which is the algebraic claim; no law beyond reading a product at
  an entry is used, so the precondition is never opened. The frames are the runs with the results dropped, and the
  idealization rewrote nothing.
-/
import proofs.«415904_j29016799052628_2_alg».proof.Defs
import proofs.«415904_j29016799052628_2_alg».proof.Proof.Gen.Kernel
import proofs.«415904_j29016799052628_2_alg».proof.Proof.Gen.KernelIdeal
import proofs.«415904_j29016799052628_2_alg».proof.Proof.Gen.ReferenceIdeal
import proofs.«415904_j29016799052628_2_alg».proof.Proof.Gen.Pre_finite_inputs
import proofs.«415904_j29016799052628_2_alg».proof.Proof.KernelFrameP
import proofs.«415904_j29016799052628_2_alg».proof.Proof.KernelIdealFrameP
import proofs.«415904_j29016799052628_2_alg».proof.Proof.RunVals
import proofs.«415904_j29016799052628_2_alg».proof.Proof.KNet
import proofs.«415904_j29016799052628_2_alg».proof.Proof.RefMain
import proofs.«415904_j29016799052628_2_alg».proof.Proof.RefNet
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.GenP.frame m ρ

theorem frame_ki : Cert.frame_KernelIdeal := fun m ρ _ => Cert.KernelIdeal.GenP.frame m ρ

open Cert.ReferenceIdeal Cert.ReferenceIdeal.RefRun in
/-- The reference's run with everything but the arguments dropped: no operation writes an argument. -/
theorem frame_ri : Cert.frame_ReferenceIdeal := fun m ρ _ =>
  (θ_run Cert.ReferenceIdeal.defs _ _).mono (fun r h c =>
      ⟨(h c main_arg0).trans (arg_refV26 _ main_arg0 (by decide)), (h c main_arg1).trans (arg_refV26 _ main_arg1 (by decide)),
       (h c main_arg2).trans (arg_refV26 _ main_arg2 (by decide)), (h c main_arg3).trans (arg_refV26 _ main_arg3 (by decide)),
       (h c main_arg4).trans (arg_refV26 _ main_arg4 (by decide)), (h c main_arg5).trans (arg_refV26 _ main_arg5 (by decide)),
       (h c main_arg6).trans (arg_refV26 _ main_arg6 (by decide)), (h c main_arg7).trans (arg_refV26 _ main_arg7 (by decide))⟩)
    (run_all (F := Ideal) m ρ)

theorem preserves : Cert.preserves_Kernel_KernelIdeal := trivial

open Cert.ReferenceIdeal Cert.ReferenceIdeal.RefRun in
/-- Both programs end with the network's output of their (agreeing) arguments. -/
theorem algebraic : Cert.algebraic_KernelIdeal_ReferenceIdeal := by
  intro m ρ m' ρ' _ hagree
  refine ⟨fun c => Cert.Spec.output (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.KChain.W30_v705 m ρ c), (h c).2⟩)
      (Cert.KernelIdeal.RunVals.run_vals m ρ)
  · refine (θ_run Cert.ReferenceIdeal.defs _ _).mono (fun r h c => ⟨?_,
        (h c main_arg0).trans (arg_refV26 _ main_arg0 (by decide)), (h c main_arg1).trans (arg_refV26 _ main_arg1 (by decide)),
        (h c main_arg2).trans (arg_refV26 _ main_arg2 (by decide)), (h c main_arg3).trans (arg_refV26 _ main_arg3 (by decide)),
        (h c main_arg4).trans (arg_refV26 _ main_arg4 (by decide)), (h c main_arg5).trans (arg_refV26 _ main_arg5 (by decide)),
        (h c main_arg6).trans (arg_refV26 _ main_arg6 (by decide)), (h c main_arg7).trans (arg_refV26 _ main_arg7 (by decide))⟩)
      (run_all (F := Ideal) m' ρ')
    obtain ⟨e0, e1, e2, e3, e4, e5, e6, e7⟩ := hagree c
    have key : Cert.Spec.output (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7))
        = Cert.Spec.output (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) := by
      rw [e0, e1, e2, e3, e4, e5, e6, e7]
    exact ((h c main_v707).trans (Cert.ReferenceIdeal.RefChain.R26_v707 _)).trans key

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
